-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : IVec S1024 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 1024#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S4096x1024 : Shape := ⟨2, ![4096, 1024]⟩
abbrev S1024 : Shape := ⟨1, ![1024]⟩
abbrev S8x1024 : Shape := ⟨2, ![8, 1024]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 5
  | _ => 0

abbrev bufTy : (tb : Table) → Fin (nBuf tb) → BufTy
  | .hbm, ⟨0, _⟩ => ⟨S4096x1024, .f32⟩
  | .hbm, ⟨1, _⟩ => ⟨S1024, .i32⟩
  | .hbm, ⟨2, _⟩ => ⟨S4096x1024, .f32⟩
  | .hbm, ⟨3, _⟩ => ⟨S_, .f32⟩
  | .local .scVector .vmem, ⟨0, _⟩ => ⟨S1024, .i32⟩
  | .local .scVector .vmem, ⟨1, _⟩ => ⟨S8x1024, .f32⟩
  | .local .scVector .vmem, ⟨2, _⟩ => ⟨S8x1024, .f32⟩
  | .local .scVector .vmem, ⟨3, _⟩ => ⟨S8x1024, .f32⟩
  | .local .scVector .vmem, ⟨4, _⟩ => ⟨S8x1024, .f32⟩
  | _, _ => ⟨S4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v11 : BitVec 32 := Scalar.addi v2 c0_i32_1
  let c0_i32_2 : BitVec 32 := 0#32
  ![v11.toNat, 0]
@[reducible] def k0_t1_loop : Scf.Loop 32 :=
  let c0_i32_7 : BitVec 32 := 0#32
  let c8_i32_8 : BitVec 32 := 8#32
  let v17 : BitVec 32 := Scalar.addi c0_i32_7 c8_i32_8
  let c1_i32_9 : BitVec 32 := 1#32
  ⟨c0_i32_7, v17, c1_i32_9⟩
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_21 : BitVec 32 := 0#32
  ![v2.toNat, 0]
def k0_cond1 (k0_t1 : Fin k0_t1_loop.trips) : BitVec 1 :=
  let c0_i32_7 : BitVec 32 := 0#32
  let c1_i32_9 : BitVec 32 := 1#32
  let arg14 : BitVec 32 := Scf.iv c0_i32_7 c1_i32_9 k0_t1
  let c1_i32_23 : BitVec 32 := 1#32
  let v30 : BitVec 1 := Scalar.cmpi .sge arg14 c1_i32_23
  let v31 : BitVec 32 := Scalar.extui v30
  let c0_i32_24 : BitVec 32 := 0#32
  let v32 : BitVec 1 := Scalar.cmpi .ne v31 c0_i32_24
  v32

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2158 : BitVec 32 := 0#32
  ![v2.toNat, 0]

def k0_chk1 (v3 : IVec S16 32) (v4 : IVec S16 32) (v5 : IVec S16 32) (v6 : IVec S16 32) (v7 : IVec S16 32) (v8 : IVec S16 32) (v9 : IVec S16 32) (v10 : IVec S16 32) (v33 : IVec S16 32) : Prop :=
  (∀ a x, ((![v3, v33] : Fin 2 → IVec S16 32) a x).toNat < S8x1024.size a) ∧
  (∀ a x, ((![v4, v33] : Fin 2 → IVec S16 32) a x).toNat < S8x1024.size a) ∧
  (∀ a x, ((![v5, v33] : Fin 2 → IVec S16 32) a x).toNat < S8x1024.size a) ∧
  (∀ a x, ((![v6, v33] : Fin 2 → IVec S16 32) a x).toNat < S8x1024.size a) ∧
  (∀ a x, ((![v7, v33] : Fin 2 → IVec S16 32) a x).toNat < S8x1024.size a) ∧
  (∀ a x, ((![v8, v33] : Fin 2 → IVec S16 32) a x).toNat < S8x1024.size a) ∧
  (∀ a x, ((![v9, v33] : Fin 2 → IVec S16 32) a x).toNat < S8x1024.size a) ∧
  (∀ a x, ((![v10, v33] : Fin 2 → IVec S16 32) a x).toNat < S8x1024.size a)
instance k0_chk1.dec : ∀ (v3 : IVec S16 32) (v4 : IVec S16 32) (v5 : IVec S16 32) (v6 : IVec S16 32) (v7 : IVec S16 32) (v8 : IVec S16 32) (v9 : IVec S16 32) (v10 : IVec S16 32) (v33 : IVec S16 32), Decidable (k0_chk1 v3 v4 v5 v6 v7 v8 v9 v10 v33) := fun v3 v4 v5 v6 v7 v8 v9 v10 v33 => decidable_of_iff' _ (Iff.of_eq (k0_chk1.eq_1 v3 v4 v5 v6 v7 v8 v9 v10 v33))
theorem k0_idx1_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v3, v33] : Fin 2 → IVec S16 32) a x).toNat < S8x1024.size a := fun v3 v4 v5 v6 v7 v8 v9 v10 v33 k0_hw1 => k0_hw1.1
theorem k0_idx2_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v4, v33] : Fin 2 → IVec S16 32) a x).toNat < S8x1024.size a := fun v3 v4 v5 v6 v7 v8 v9 v10 v33 k0_hw1 => k0_hw1.2.1
theorem k0_idx3_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v5, v33] : Fin 2 → IVec S16 32) a x).toNat < S8x1024.size a := fun v3 v4 v5 v6 v7 v8 v9 v10 v33 k0_hw1 => k0_hw1.2.2.1
theorem k0_idx4_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v6, v33] : Fin 2 → IVec S16 32) a x).toNat < S8x1024.size a := fun v3 v4 v5 v6 v7 v8 v9 v10 v33 k0_hw1 => k0_hw1.2.2.2.1
theorem k0_idx5_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v7, v33] : Fin 2 → IVec S16 32) a x).toNat < S8x1024.size a := fun v3 v4 v5 v6 v7 v8 v9 v10 v33 k0_hw1 => k0_hw1.2.2.2.2.1
theorem k0_idx6_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v8, v33] : Fin 2 → IVec S16 32) a x).toNat < S8x1024.size a := fun v3 v4 v5 v6 v7 v8 v9 v10 v33 k0_hw1 => k0_hw1.2.2.2.2.2.1
theorem k0_idx7_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v9, v33] : Fin 2 → IVec S16 32) a x).toNat < S8x1024.size a := fun v3 v4 v5 v6 v7 v8 v9 v10 v33 k0_hw1 => k0_hw1.2.2.2.2.2.2.1
theorem k0_idx8_inb : ∀ (v3 : IVec S16 32) (v4 : IVec S16 32) (v5 : IVec S16 32) (v6 : IVec S16 32) (v7 : IVec S16 32) (v8 : IVec S16 32) (v9 : IVec S16 32) (v10 : IVec S16 32) (v33 : IVec S16 32) (k0_hw1 : k0_chk1 v3 v4 v5 v6 v7 v8 v9 v10 v33), ∀ a x, ((![v10, v33] : Fin 2 → IVec S16 32) a x).toNat < S8x1024.size a := fun v3 v4 v5 v6 v7 v8 v9 v10 v33 k0_hw1 => k0_hw1.2.2.2.2.2.2.2

def k0_chk2 (v3 : IVec S16 32) (v4 : IVec S16 32) (v5 : IVec S16 32) (v6 : IVec S16 32) (v7 : IVec S16 32) (v8 : IVec S16 32) (v9 : IVec S16 32) (v10 : IVec S16 32) (v42 : IVec S16 32) : Prop :=
  (∀ a x, ((![v3, v42] : Fin 2 → IVec S16 32) a x).toNat < S8x1024.size a) ∧
  (∀ a x, ((![v4, v42] : Fin 2 → IVec S16 32) a x).toNat < S8x1024.size a) ∧
  (∀ a x, ((![v5, v42] : Fin 2 → IVec S16 32) a x).toNat < S8x1024.size a) ∧
  (∀ a x, ((![v6, v42] : Fin 2 → IVec S16 32) a x).toNat < S8x1024.size a) ∧
  (∀ a x, ((![v7, v42] : Fin 2 → IVec S16 32) a x).toNat < S8x1024.size a) ∧
  (∀ a x, ((![v8, v42] : Fin 2 → IVec S16 32) a x).toNat < S8x1024.size a) ∧
  (∀ a x, ((![v9, v42] : Fin 2 → IVec S16 32) a x).toNat < S8x1024.size a) ∧
  (∀ a x, ((![v10, v42] : Fin 2 → IVec S16 32) a x).toNat < S8x1024.size a)
instance k0_chk2.dec : ∀ (v3 : IVec S16 32) (v4 : IVec S16 32) (v5 : IVec S16 32) (v6 : IVec S16 32) (v7 : IVec S16 32) (v8 : IVec S16 32) (v9 : IVec S16 32) (v10 : IVec S16 32) (v42 : IVec S16 32), Decidable (k0_chk2 v3 v4 v5 v6 v7 v8 v9 v10 v42) := fun v3 v4 v5 v6 v7 v8 v9 v10 v42 => decidable_of_iff' _ (Iff.of_eq (k0_chk2.eq_1 v3 v4 v5 v6 v7 v8 v9 v10 v42))
theorem k0_idx9_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v3, v42] : Fin 2 → IVec S16 32) a x).toNat < S8x1024.size a := fun v3 v4 v5 v6 v7 v8 v9 v10 v42 k0_hw2 => k0_hw2.1
theorem k0_idx10_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v4, v42] : Fin 2 → IVec S16 32) a x).toNat < S8x1024.size a := fun v3 v4 v5 v6 v7 v8 v9 v10 v42 k0_hw2 => k0_hw2.2.1
theorem k0_idx11_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v5, v42] : Fin 2 → IVec S16 32) a x).toNat < S8x1024.size a := fun v3 v4 v5 v6 v7 v8 v9 v10 v42 k0_hw2 => k0_hw2.2.2.1
theorem k0_idx12_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v6, v42] : Fin 2 → IVec S16 32) a x).toNat < S8x1024.size a := fun v3 v4 v5 v6 v7 v8 v9 v10 v42 k0_hw2 => k0_hw2.2.2.2.1
theorem k0_idx13_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v7, v42] : Fin 2 → IVec S16 32) a x).toNat < S8x1024.size a := fun v3 v4 v5 v6 v7 v8 v9 v10 v42 k0_hw2 => k0_hw2.2.2.2.2.1
theorem k0_idx14_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v8, v42] : Fin 2 → IVec S16 32) a x).toNat < S8x1024.size a := fun v3 v4 v5 v6 v7 v8 v9 v10 v42 k0_hw2 => k0_hw2.2.2.2.2.2.1
theorem k0_idx15_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v9, v42] : Fin 2 → IVec S16 32) a x).toNat < S8x1024.size a := fun v3 v4 v5 v6 v7 v8 v9 v10 v42 k0_hw2 => k0_hw2.2.2.2.2.2.2.1
theorem k0_idx16_inb : ∀ (v3 : IVec S16 32) (v4 : IVec S16 32) (v5 : IVec S16 32) (v6 : IVec S16 32) (v7 : IVec S16 32) (v8 : IVec S16 32) (v9 : IVec S16 32) (v10 : IVec S16 32) (v42 : IVec S16 32) (k0_hw2 : k0_chk2 v3 v4 v5 v6 v7 v8 v9 v10 v42), ∀ a x, ((![v10, v42] : Fin 2 → IVec S16 32) a x).toNat < S8x1024.size a := fun v3 v4 v5 v6 v7 v8 v9 v10 v42 k0_hw2 => k0_hw2.2.2.2.2.2.2.2

def k0_chk3 (v3 : IVec S16 32) (v4 : IVec S16 32) (v5 : IVec S16 32) (v6 : IVec S16 32) (v7 : IVec S16 32) (v8 : IVec S16 32) (v9 : IVec S16 32) (v10 : IVec S16 32) (v67 : IVec S16 32) : Prop :=
  (∀ a x, ((![v3, v67] : Fin 2 → IVec S16 32) a x).toNat < S8x1024.size a) ∧
  (∀ a x, ((![v4, v67] : Fin 2 → IVec S16 32) a x).toNat < S8x1024.size a) ∧
  (∀ a x, ((![v5, v67] : Fin 2 → IVec S16 32) a x).toNat < S8x1024.size a) ∧
  (∀ a x, ((![v6, v67] : Fin 2 → IVec S16 32) a x).toNat < S8x1024.size a) ∧
  (∀ a x, ((![v7, v67] : Fin 2 → IVec S16 32) a x).toNat < S8x1024.size a) ∧
  (∀ a x, ((![v8, v67] : Fin 2 → IVec S16 32) a x).toNat < S8x1024.size a) ∧
  (∀ a x, ((![v9, v67] : Fin 2 → IVec S16 32) a x).toNat < S8x1024.size a) ∧
  (∀ a x, ((![v10, v67] : Fin 2 → IVec S16 32) a x).toNat < S8x1024.size a)
instance k0_chk3.dec : ∀ (v3 : IVec S16 32) (v4 : IVec S16 32) (v5 : IVec S16 32) (v6 : IVec S16 32) (v7 : IVec S16 32) (v8 : IVec S16 32) (v9 : IVec S16 32) (v10 : IVec S16 32) (v67 : IVec S16 32), Decidable (k0_chk3 v3 v4 v5 v6 v7 v8 v9 v10 v67) := fun v3 v4 v5 v6 v7 v8 v9 v10 v67 => decidable_of_iff' _ (Iff.of_eq (k0_chk3.eq_1 v3 v4 v5 v6 v7 v8 v9 v10 v67))
theorem k0_idx17_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v3, v67] : Fin 2 → IVec S16 32) a x).toNat < S8x1024.size a := fun v3 v4 v5 v6 v7 v8 v9 v10 v67 k0_hw3 => k0_hw3.1
theorem k0_idx18_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v4, v67] : Fin 2 → IVec S16 32) a x).toNat < S8x1024.size a := fun v3 v4 v5 v6 v7 v8 v9 v10 v67 k0_hw3 => k0_hw3.2.1
theorem k0_idx19_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v5, v67] : Fin 2 → IVec S16 32) a x).toNat < S8x1024.size a := fun v3 v4 v5 v6 v7 v8 v9 v10 v67 k0_hw3 => k0_hw3.2.2.1
theorem k0_idx20_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v6, v67] : Fin 2 → IVec S16 32) a x).toNat < S8x1024.size a := fun v3 v4 v5 v6 v7 v8 v9 v10 v67 k0_hw3 => k0_hw3.2.2.2.1
theorem k0_idx21_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v7, v67] : Fin 2 → IVec S16 32) a x).toNat < S8x1024.size a := fun v3 v4 v5 v6 v7 v8 v9 v10 v67 k0_hw3 => k0_hw3.2.2.2.2.1
theorem k0_idx22_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v8, v67] : Fin 2 → IVec S16 32) a x).toNat < S8x1024.size a := fun v3 v4 v5 v6 v7 v8 v9 v10 v67 k0_hw3 => k0_hw3.2.2.2.2.2.1
theorem k0_idx23_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v9, v67] : Fin 2 → IVec S16 32) a x).toNat < S8x1024.size a := fun v3 v4 v5 v6 v7 v8 v9 v10 v67 k0_hw3 => k0_hw3.2.2.2.2.2.2.1
theorem k0_idx24_inb : ∀ (v3 : IVec S16 32) (v4 : IVec S16 32) (v5 : IVec S16 32) (v6 : IVec S16 32) (v7 : IVec S16 32) (v8 : IVec S16 32) (v9 : IVec S16 32) (v10 : IVec S16 32) (v67 : IVec S16 32) (k0_hw3 : k0_chk3 v3 v4 v5 v6 v7 v8 v9 v10 v67), ∀ a x, ((![v10, v67] : Fin 2 → IVec S16 32) a x).toNat < S8x1024.size a := fun v3 v4 v5 v6 v7 v8 v9 v10 v67 k0_hw3 => k0_hw3.2.2.2.2.2.2.2

def k0_chk4 (v3 : IVec S16 32) (v4 : IVec S16 32) (v5 : IVec S16 32) (v6 : IVec S16 32) (v7 : IVec S16 32) (v8 : IVec S16 32) (v9 : IVec S16 32) (v10 : IVec S16 32) (v92 : IVec S16 32) : Prop :=
  (∀ a x, ((![v3, v92] : Fin 2 → IVec S16 32) a x).toNat < S8x1024.size a) ∧
  (∀ a x, ((![v4, v92] : Fin 2 → IVec S16 32) a x).toNat < S8x1024.size a) ∧
  (∀ a x, ((![v5, v92] : Fin 2 → IVec S16 32) a x).toNat < S8x1024.size a) ∧
  (∀ a x, ((![v6, v92] : Fin 2 → IVec S16 32) a x).toNat < S8x1024.size a) ∧
  (∀ a x, ((![v7, v92] : Fin 2 → IVec S16 32) a x).toNat < S8x1024.size a) ∧
  (∀ a x, ((![v8, v92] : Fin 2 → IVec S16 32) a x).toNat < S8x1024.size a) ∧
  (∀ a x, ((![v9, v92] : Fin 2 → IVec S16 32) a x).toNat < S8x1024.size a) ∧
  (∀ a x, ((![v10, v92] : Fin 2 → IVec S16 32) a x).toNat < S8x1024.size a)
instance k0_chk4.dec : ∀ (v3 : IVec S16 32) (v4 : IVec S16 32) (v5 : IVec S16 32) (v6 : IVec S16 32) (v7 : IVec S16 32) (v8 : IVec S16 32) (v9 : IVec S16 32) (v10 : IVec S16 32) (v92 : IVec S16 32), Decidable (k0_chk4 v3 v4 v5 v6 v7 v8 v9 v10 v92) := fun v3 v4 v5 v6 v7 v8 v9 v10 v92 => decidable_of_iff' _ (Iff.of_eq (k0_chk4.eq_1 v3 v4 v5 v6 v7 v8 v9 v10 v92))
theorem k0_idx25_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v3, v92] : Fin 2 → IVec S16 32) a x).toNat < S8x1024.size a := fun v3 v4 v5 v6 v7 v8 v9 v10 v92 k0_hw4 => k0_hw4.1
theorem k0_idx26_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v4, v92] : Fin 2 → IVec S16 32) a x).toNat < S8x1024.size a := fun v3 v4 v5 v6 v7 v8 v9 v10 v92 k0_hw4 => k0_hw4.2.1
theorem k0_idx27_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v5, v92] : Fin 2 → IVec S16 32) a x).toNat < S8x1024.size a := fun v3 v4 v5 v6 v7 v8 v9 v10 v92 k0_hw4 => k0_hw4.2.2.1
theorem k0_idx28_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v6, v92] : Fin 2 → IVec S16 32) a x).toNat < S8x1024.size a := fun v3 v4 v5 v6 v7 v8 v9 v10 v92 k0_hw4 => k0_hw4.2.2.2.1
theorem k0_idx29_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v7, v92] : Fin 2 → IVec S16 32) a x).toNat < S8x1024.size a := fun v3 v4 v5 v6 v7 v8 v9 v10 v92 k0_hw4 => k0_hw4.2.2.2.2.1
theorem k0_idx30_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v8, v92] : Fin 2 → IVec S16 32) a x).toNat < S8x1024.size a := fun v3 v4 v5 v6 v7 v8 v9 v10 v92 k0_hw4 => k0_hw4.2.2.2.2.2.1
theorem k0_idx31_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v9, v92] : Fin 2 → IVec S16 32) a x).toNat < S8x1024.size a := fun v3 v4 v5 v6 v7 v8 v9 v10 v92 k0_hw4 => k0_hw4.2.2.2.2.2.2.1
theorem k0_idx32_inb : ∀ (v3 : IVec S16 32) (v4 : IVec S16 32) (v5 : IVec S16 32) (v6 : IVec S16 32) (v7 : IVec S16 32) (v8 : IVec S16 32) (v9 : IVec S16 32) (v10 : IVec S16 32) (v92 : IVec S16 32) (k0_hw4 : k0_chk4 v3 v4 v5 v6 v7 v8 v9 v10 v92), ∀ a x, ((![v10, v92] : Fin 2 → IVec S16 32) a x).toNat < S8x1024.size a := fun v3 v4 v5 v6 v7 v8 v9 v10 v92 k0_hw4 => k0_hw4.2.2.2.2.2.2.2

def k0_chk5 (v3 : IVec S16 32) (v4 : IVec S16 32) (v5 : IVec S16 32) (v6 : IVec S16 32) (v7 : IVec S16 32) (v8 : IVec S16 32) (v9 : IVec S16 32) (v10 : IVec S16 32) (v117 : IVec S16 32) : Prop :=
  (∀ a x, ((![v3, v117] : Fin 2 → IVec S16 32) a x).toNat < S8x1024.size a) ∧
  (∀ a x, ((![v4, v117] : Fin 2 → IVec S16 32) a x).toNat < S8x1024.size a) ∧
  (∀ a x, ((![v5, v117] : Fin 2 → IVec S16 32) a x).toNat < S8x1024.size a) ∧
  (∀ a x, ((![v6, v117] : Fin 2 → IVec S16 32) a x).toNat < S8x1024.size a) ∧
  (∀ a x, ((![v7, v117] : Fin 2 → IVec S16 32) a x).toNat < S8x1024.size a) ∧
  (∀ a x, ((![v8, v117] : Fin 2 → IVec S16 32) a x).toNat < S8x1024.size a) ∧
  (∀ a x, ((![v9, v117] : Fin 2 → IVec S16 32) a x).toNat < S8x1024.size a) ∧
  (∀ a x, ((![v10, v117] : Fin 2 → IVec S16 32) a x).toNat < S8x1024.size a)
instance k0_chk5.dec : ∀ (v3 : IVec S16 32) (v4 : IVec S16 32) (v5 : IVec S16 32) (v6 : IVec S16 32) (v7 : IVec S16 32) (v8 : IVec S16 32) (v9 : IVec S16 32) (v10 : IVec S16 32) (v117 : IVec S16 32), Decidable (k0_chk5 v3 v4 v5 v6 v7 v8 v9 v10 v117) := fun v3 v4 v5 v6 v7 v8 v9 v10 v117 => decidable_of_iff' _ (Iff.of_eq (k0_chk5.eq_1 v3 v4 v5 v6 v7 v8 v9 v10 v117))
theorem k0_idx33_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v3, v117] : Fin 2 → IVec S16 32) a x).toNat < S8x1024.size a := fun v3 v4 v5 v6 v7 v8 v9 v10 v117 k0_hw5 => k0_hw5.1
theorem k0_idx34_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v4, v117] : Fin 2 → IVec S16 32) a x).toNat < S8x1024.size a := fun v3 v4 v5 v6 v7 v8 v9 v10 v117 k0_hw5 => k0_hw5.2.1
theorem k0_idx35_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v5, v117] : Fin 2 → IVec S16 32) a x).toNat < S8x1024.size a := fun v3 v4 v5 v6 v7 v8 v9 v10 v117 k0_hw5 => k0_hw5.2.2.1
theorem k0_idx36_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v6, v117] : Fin 2 → IVec S16 32) a x).toNat < S8x1024.size a := fun v3 v4 v5 v6 v7 v8 v9 v10 v117 k0_hw5 => k0_hw5.2.2.2.1
theorem k0_idx37_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v7, v117] : Fin 2 → IVec S16 32) a x).toNat < S8x1024.size a := fun v3 v4 v5 v6 v7 v8 v9 v10 v117 k0_hw5 => k0_hw5.2.2.2.2.1
theorem k0_idx38_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v8, v117] : Fin 2 → IVec S16 32) a x).toNat < S8x1024.size a := fun v3 v4 v5 v6 v7 v8 v9 v10 v117 k0_hw5 => k0_hw5.2.2.2.2.2.1
theorem k0_idx39_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v9, v117] : Fin 2 → IVec S16 32) a x).toNat < S8x1024.size a := fun v3 v4 v5 v6 v7 v8 v9 v10 v117 k0_hw5 => k0_hw5.2.2.2.2.2.2.1
theorem k0_idx40_inb : ∀ (v3 : IVec S16 32) (v4 : IVec S16 32) (v5 : IVec S16 32) (v6 : IVec S16 32) (v7 : IVec S16 32) (v8 : IVec S16 32) (v9 : IVec S16 32) (v10 : IVec S16 32) (v117 : IVec S16 32) (k0_hw5 : k0_chk5 v3 v4 v5 v6 v7 v8 v9 v10 v117), ∀ a x, ((![v10, v117] : Fin 2 → IVec S16 32) a x).toNat < S8x1024.size a := fun v3 v4 v5 v6 v7 v8 v9 v10 v117 k0_hw5 => k0_hw5.2.2.2.2.2.2.2

def k0_chk6 (v3 : IVec S16 32) (v4 : IVec S16 32) (v5 : IVec S16 32) (v6 : IVec S16 32) (v7 : IVec S16 32) (v8 : IVec S16 32) (v9 : IVec S16 32) (v10 : IVec S16 32) (v142 : IVec S16 32) : Prop :=
  (∀ a x, ((![v3, v142] : Fin 2 → IVec S16 32) a x).toNat < S8x1024.size a) ∧
  (∀ a x, ((![v4, v142] : Fin 2 → IVec S16 32) a x).toNat < S8x1024.size a) ∧
  (∀ a x, ((![v5, v142] : Fin 2 → IVec S16 32) a x).toNat < S8x1024.size a) ∧
  (∀ a x, ((![v6, v142] : Fin 2 → IVec S16 32) a x).toNat < S8x1024.size a) ∧
  (∀ a x, ((![v7, v142] : Fin 2 → IVec S16 32) a x).toNat < S8x1024.size a) ∧
  (∀ a x, ((![v8, v142] : Fin 2 → IVec S16 32) a x).toNat < S8x1024.size a) ∧
  (∀ a x, ((![v9, v142] : Fin 2 → IVec S16 32) a x).toNat < S8x1024.size a) ∧
  (∀ a x, ((![v10, v142] : Fin 2 → IVec S16 32) a x).toNat < S8x1024.size a)
instance k0_chk6.dec : ∀ (v3 : IVec S16 32) (v4 : IVec S16 32) (v5 : IVec S16 32) (v6 : IVec S16 32) (v7 : IVec S16 32) (v8 : IVec S16 32) (v9 : IVec S16 32) (v10 : IVec S16 32) (v142 : IVec S16 32), Decidable (k0_chk6 v3 v4 v5 v6 v7 v8 v9 v10 v142) := fun v3 v4 v5 v6 v7 v8 v9 v10 v142 => decidable_of_iff' _ (Iff.of_eq (k0_chk6.eq_1 v3 v4 v5 v6 v7 v8 v9 v10 v142))
theorem k0_idx41_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v3, v142] : Fin 2 → IVec S16 32) a x).toNat < S8x1024.size a := fun v3 v4 v5 v6 v7 v8 v9 v10 v142 k0_hw6 => k0_hw6.1
theorem k0_idx42_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v4, v142] : Fin 2 → IVec S16 32) a x).toNat < S8x1024.size a := fun v3 v4 v5 v6 v7 v8 v9 v10 v142 k0_hw6 => k0_hw6.2.1
theorem k0_idx43_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v5, v142] : Fin 2 → IVec S16 32) a x).toNat < S8x1024.size a := fun v3 v4 v5 v6 v7 v8 v9 v10 v142 k0_hw6 => k0_hw6.2.2.1
theorem k0_idx44_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v6, v142] : Fin 2 → IVec S16 32) a x).toNat < S8x1024.size a := fun v3 v4 v5 v6 v7 v8 v9 v10 v142 k0_hw6 => k0_hw6.2.2.2.1
theorem k0_idx45_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v7, v142] : Fin 2 → IVec S16 32) a x).toNat < S8x1024.size a := fun v3 v4 v5 v6 v7 v8 v9 v10 v142 k0_hw6 => k0_hw6.2.2.2.2.1
theorem k0_idx46_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v8, v142] : Fin 2 → IVec S16 32) a x).toNat < S8x1024.size a := fun v3 v4 v5 v6 v7 v8 v9 v10 v142 k0_hw6 => k0_hw6.2.2.2.2.2.1
theorem k0_idx47_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v9, v142] : Fin 2 → IVec S16 32) a x).toNat < S8x1024.size a := fun v3 v4 v5 v6 v7 v8 v9 v10 v142 k0_hw6 => k0_hw6.2.2.2.2.2.2.1
theorem k0_idx48_inb : ∀ (v3 : IVec S16 32) (v4 : IVec S16 32) (v5 : IVec S16 32) (v6 : IVec S16 32) (v7 : IVec S16 32) (v8 : IVec S16 32) (v9 : IVec S16 32) (v10 : IVec S16 32) (v142 : IVec S16 32) (k0_hw6 : k0_chk6 v3 v4 v5 v6 v7 v8 v9 v10 v142), ∀ a x, ((![v10, v142] : Fin 2 → IVec S16 32) a x).toNat < S8x1024.size a := fun v3 v4 v5 v6 v7 v8 v9 v10 v142 k0_hw6 => k0_hw6.2.2.2.2.2.2.2

def k0_chk7 (v3 : IVec S16 32) (v4 : IVec S16 32) (v5 : IVec S16 32) (v6 : IVec S16 32) (v7 : IVec S16 32) (v8 : IVec S16 32) (v9 : IVec S16 32) (v10 : IVec S16 32) (v167 : IVec S16 32) : Prop :=
  (∀ a x, ((![v3, v167] : Fin 2 → IVec S16 32) a x).toNat < S8x1024.size a) ∧
  (∀ a x, ((![v4, v167] : Fin 2 → IVec S16 32) a x).toNat < S8x1024.size a) ∧
  (∀ a x, ((![v5, v167] : Fin 2 → IVec S16 32) a x).toNat < S8x1024.size a) ∧
  (∀ a x, ((![v6, v167] : Fin 2 → IVec S16 32) a x).toNat < S8x1024.size a) ∧
  (∀ a x, ((![v7, v167] : Fin 2 → IVec S16 32) a x).toNat < S8x1024.size a) ∧
  (∀ a x, ((![v8, v167] : Fin 2 → IVec S16 32) a x).toNat < S8x1024.size a) ∧
  (∀ a x, ((![v9, v167] : Fin 2 → IVec S16 32) a x).toNat < S8x1024.size a) ∧
  (∀ a x, ((![v10, v167] : Fin 2 → IVec S16 32) a x).toNat < S8x1024.size a)
instance k0_chk7.dec : ∀ (v3 : IVec S16 32) (v4 : IVec S16 32) (v5 : IVec S16 32) (v6 : IVec S16 32) (v7 : IVec S16 32) (v8 : IVec S16 32) (v9 : IVec S16 32) (v10 : IVec S16 32) (v167 : IVec S16 32), Decidable (k0_chk7 v3 v4 v5 v6 v7 v8 v9 v10 v167) := fun v3 v4 v5 v6 v7 v8 v9 v10 v167 => decidable_of_iff' _ (Iff.of_eq (k0_chk7.eq_1 v3 v4 v5 v6 v7 v8 v9 v10 v167))
theorem k0_idx49_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v3, v167] : Fin 2 → IVec S16 32) a x).toNat < S8x1024.size a := fun v3 v4 v5 v6 v7 v8 v9 v10 v167 k0_hw7 => k0_hw7.1
theorem k0_idx50_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v4, v167] : Fin 2 → IVec S16 32) a x).toNat < S8x1024.size a := fun v3 v4 v5 v6 v7 v8 v9 v10 v167 k0_hw7 => k0_hw7.2.1
theorem k0_idx51_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v5, v167] : Fin 2 → IVec S16 32) a x).toNat < S8x1024.size a := fun v3 v4 v5 v6 v7 v8 v9 v10 v167 k0_hw7 => k0_hw7.2.2.1
theorem k0_idx52_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v6, v167] : Fin 2 → IVec S16 32) a x).toNat < S8x1024.size a := fun v3 v4 v5 v6 v7 v8 v9 v10 v167 k0_hw7 => k0_hw7.2.2.2.1
theorem k0_idx53_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v7, v167] : Fin 2 → IVec S16 32) a x).toNat < S8x1024.size a := fun v3 v4 v5 v6 v7 v8 v9 v10 v167 k0_hw7 => k0_hw7.2.2.2.2.1
theorem k0_idx54_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v8, v167] : Fin 2 → IVec S16 32) a x).toNat < S8x1024.size a := fun v3 v4 v5 v6 v7 v8 v9 v10 v167 k0_hw7 => k0_hw7.2.2.2.2.2.1
theorem k0_idx55_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v9, v167] : Fin 2 → IVec S16 32) a x).toNat < S8x1024.size a := fun v3 v4 v5 v6 v7 v8 v9 v10 v167 k0_hw7 => k0_hw7.2.2.2.2.2.2.1
theorem k0_idx56_inb : ∀ (v3 : IVec S16 32) (v4 : IVec S16 32) (v5 : IVec S16 32) (v6 : IVec S16 32) (v7 : IVec S16 32) (v8 : IVec S16 32) (v9 : IVec S16 32) (v10 : IVec S16 32) (v167 : IVec S16 32) (k0_hw7 : k0_chk7 v3 v4 v5 v6 v7 v8 v9 v10 v167), ∀ a x, ((![v10, v167] : Fin 2 → IVec S16 32) a x).toNat < S8x1024.size a := fun v3 v4 v5 v6 v7 v8 v9 v10 v167 k0_hw7 => k0_hw7.2.2.2.2.2.2.2

def k0_chk8 (v3 : IVec S16 32) (v4 : IVec S16 32) (v5 : IVec S16 32) (v6 : IVec S16 32) (v7 : IVec S16 32) (v8 : IVec S16 32) (v9 : IVec S16 32) (v10 : IVec S16 32) (v192 : IVec S16 32) : Prop :=
  (∀ a x, ((![v3, v192] : Fin 2 → IVec S16 32) a x).toNat < S8x1024.size a) ∧
  (∀ a x, ((![v4, v192] : Fin 2 → IVec S16 32) a x).toNat < S8x1024.size a) ∧
  (∀ a x, ((![v5, v192] : Fin 2 → IVec S16 32) a x).toNat < S8x1024.size a) ∧
  (∀ a x, ((![v6, v192] : Fin 2 → IVec S16 32) a x).toNat < S8x1024.size a) ∧
  (∀ a x, ((![v7, v192] : Fin 2 → IVec S16 32) a x).toNat < S8x1024.size a) ∧
  (∀ a x, ((![v8, v192] : Fin 2 → IVec S16 32) a x).toNat < S8x1024.size a) ∧
  (∀ a x, ((![v9, v192] : Fin 2 → IVec S16 32) a x).toNat < S8x1024.size a) ∧
  (∀ a x, ((![v10, v192] : Fin 2 → IVec S16 32) a x).toNat < S8x1024.size a)
instance k0_chk8.dec : ∀ (v3 : IVec S16 32) (v4 : IVec S16 32) (v5 : IVec S16 32) (v6 : IVec S16 32) (v7 : IVec S16 32) (v8 : IVec S16 32) (v9 : IVec S16 32) (v10 : IVec S16 32) (v192 : IVec S16 32), Decidable (k0_chk8 v3 v4 v5 v6 v7 v8 v9 v10 v192) := fun v3 v4 v5 v6 v7 v8 v9 v10 v192 => decidable_of_iff' _ (Iff.of_eq (k0_chk8.eq_1 v3 v4 v5 v6 v7 v8 v9 v10 v192))
theorem k0_idx57_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v3, v192] : Fin 2 → IVec S16 32) a x).toNat < S8x1024.size a := fun v3 v4 v5 v6 v7 v8 v9 v10 v192 k0_hw8 => k0_hw8.1
theorem k0_idx58_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v4, v192] : Fin 2 → IVec S16 32) a x).toNat < S8x1024.size a := fun v3 v4 v5 v6 v7 v8 v9 v10 v192 k0_hw8 => k0_hw8.2.1
theorem k0_idx59_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v5, v192] : Fin 2 → IVec S16 32) a x).toNat < S8x1024.size a := fun v3 v4 v5 v6 v7 v8 v9 v10 v192 k0_hw8 => k0_hw8.2.2.1
theorem k0_idx60_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v6, v192] : Fin 2 → IVec S16 32) a x).toNat < S8x1024.size a := fun v3 v4 v5 v6 v7 v8 v9 v10 v192 k0_hw8 => k0_hw8.2.2.2.1
theorem k0_idx61_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v7, v192] : Fin 2 → IVec S16 32) a x).toNat < S8x1024.size a := fun v3 v4 v5 v6 v7 v8 v9 v10 v192 k0_hw8 => k0_hw8.2.2.2.2.1
theorem k0_idx62_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v8, v192] : Fin 2 → IVec S16 32) a x).toNat < S8x1024.size a := fun v3 v4 v5 v6 v7 v8 v9 v10 v192 k0_hw8 => k0_hw8.2.2.2.2.2.1
theorem k0_idx63_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v9, v192] : Fin 2 → IVec S16 32) a x).toNat < S8x1024.size a := fun v3 v4 v5 v6 v7 v8 v9 v10 v192 k0_hw8 => k0_hw8.2.2.2.2.2.2.1
theorem k0_idx64_inb : ∀ (v3 : IVec S16 32) (v4 : IVec S16 32) (v5 : IVec S16 32) (v6 : IVec S16 32) (v7 : IVec S16 32) (v8 : IVec S16 32) (v9 : IVec S16 32) (v10 : IVec S16 32) (v192 : IVec S16 32) (k0_hw8 : k0_chk8 v3 v4 v5 v6 v7 v8 v9 v10 v192), ∀ a x, ((![v10, v192] : Fin 2 → IVec S16 32) a x).toNat < S8x1024.size a := fun v3 v4 v5 v6 v7 v8 v9 v10 v192 k0_hw8 => k0_hw8.2.2.2.2.2.2.2

def k0_chk9 (v3 : IVec S16 32) (v4 : IVec S16 32) (v5 : IVec S16 32) (v6 : IVec S16 32) (v7 : IVec S16 32) (v8 : IVec S16 32) (v9 : IVec S16 32) (v10 : IVec S16 32) (v217 : IVec S16 32) : Prop :=
  (∀ a x, ((![v3, v217] : Fin 2 → IVec S16 32) a x).toNat < S8x1024.size a) ∧
  (∀ a x, ((![v4, v217] : Fin 2 → IVec S16 32) a x).toNat < S8x1024.size a) ∧
  (∀ a x, ((![v5, v217] : Fin 2 → IVec S16 32) a x).toNat < S8x1024.size a) ∧
  (∀ a x, ((![v6, v217] : Fin 2 → IVec S16 32) a x).toNat < S8x1024.size a) ∧
  (∀ a x, ((![v7, v217] : Fin 2 → IVec S16 32) a x).toNat < S8x1024.size a) ∧
  (∀ a x, ((![v8, v217] : Fin 2 → IVec S16 32) a x).toNat < S8x1024.size a) ∧
  (∀ a x, ((![v9, v217] : Fin 2 → IVec S16 32) a x).toNat < S8x1024.size a) ∧
  (∀ a x, ((![v10, v217] : Fin 2 → IVec S16 32) a x).toNat < S8x1024.size a)
instance k0_chk9.dec : ∀ (v3 : IVec S16 32) (v4 : IVec S16 32) (v5 : IVec S16 32) (v6 : IVec S16 32) (v7 : IVec S16 32) (v8 : IVec S16 32) (v9 : IVec S16 32) (v10 : IVec S16 32) (v217 : IVec S16 32), Decidable (k0_chk9 v3 v4 v5 v6 v7 v8 v9 v10 v217) := fun v3 v4 v5 v6 v7 v8 v9 v10 v217 => decidable_of_iff' _ (Iff.of_eq (k0_chk9.eq_1 v3 v4 v5 v6 v7 v8 v9 v10 v217))
theorem k0_idx65_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v3, v217] : Fin 2 → IVec S16 32) a x).toNat < S8x1024.size a := fun v3 v4 v5 v6 v7 v8 v9 v10 v217 k0_hw9 => k0_hw9.1
theorem k0_idx66_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v4, v217] : Fin 2 → IVec S16 32) a x).toNat < S8x1024.size a := fun v3 v4 v5 v6 v7 v8 v9 v10 v217 k0_hw9 => k0_hw9.2.1
theorem k0_idx67_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v5, v217] : Fin 2 → IVec S16 32) a x).toNat < S8x1024.size a := fun v3 v4 v5 v6 v7 v8 v9 v10 v217 k0_hw9 => k0_hw9.2.2.1
theorem k0_idx68_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v6, v217] : Fin 2 → IVec S16 32) a x).toNat < S8x1024.size a := fun v3 v4 v5 v6 v7 v8 v9 v10 v217 k0_hw9 => k0_hw9.2.2.2.1
theorem k0_idx69_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v7, v217] : Fin 2 → IVec S16 32) a x).toNat < S8x1024.size a := fun v3 v4 v5 v6 v7 v8 v9 v10 v217 k0_hw9 => k0_hw9.2.2.2.2.1
theorem k0_idx70_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v8, v217] : Fin 2 → IVec S16 32) a x).toNat < S8x1024.size a := fun v3 v4 v5 v6 v7 v8 v9 v10 v217 k0_hw9 => k0_hw9.2.2.2.2.2.1
theorem k0_idx71_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v9, v217] : Fin 2 → IVec S16 32) a x).toNat < S8x1024.size a := fun v3 v4 v5 v6 v7 v8 v9 v10 v217 k0_hw9 => k0_hw9.2.2.2.2.2.2.1
theorem k0_idx72_inb : ∀ (v3 : IVec S16 32) (v4 : IVec S16 32) (v5 : IVec S16 32) (v6 : IVec S16 32) (v7 : IVec S16 32) (v8 : IVec S16 32) (v9 : IVec S16 32) (v10 : IVec S16 32) (v217 : IVec S16 32) (k0_hw9 : k0_chk9 v3 v4 v5 v6 v7 v8 v9 v10 v217), ∀ a x, ((![v10, v217] : Fin 2 → IVec S16 32) a x).toNat < S8x1024.size a := fun v3 v4 v5 v6 v7 v8 v9 v10 v217 k0_hw9 => k0_hw9.2.2.2.2.2.2.2

def k0_chk10 (v3 : IVec S16 32) (v4 : IVec S16 32) (v5 : IVec S16 32) (v6 : IVec S16 32) (v7 : IVec S16 32) (v8 : IVec S16 32) (v9 : IVec S16 32) (v10 : IVec S16 32) (v242 : IVec S16 32) : Prop :=
  (∀ a x, ((![v3, v242] : Fin 2 → IVec S16 32) a x).toNat < S8x1024.size a) ∧
  (∀ a x, ((![v4, v242] : Fin 2 → IVec S16 32) a x).toNat < S8x1024.size a) ∧
  (∀ a x, ((![v5, v242] : Fin 2 → IVec S16 32) a x).toNat < S8x1024.size a) ∧
  (∀ a x, ((![v6, v242] : Fin 2 → IVec S16 32) a x).toNat < S8x1024.size a) ∧
  (∀ a x, ((![v7, v242] : Fin 2 → IVec S16 32) a x).toNat < S8x1024.size a) ∧
  (∀ a x, ((![v8, v242] : Fin 2 → IVec S16 32) a x).toNat < S8x1024.size a) ∧
  (∀ a x, ((![v9, v242] : Fin 2 → IVec S16 32) a x).toNat < S8x1024.size a) ∧
  (∀ a x, ((![v10, v242] : Fin 2 → IVec S16 32) a x).toNat < S8x1024.size a)
instance k0_chk10.dec : ∀ (v3 : IVec S16 32) (v4 : IVec S16 32) (v5 : IVec S16 32) (v6 : IVec S16 32) (v7 : IVec S16 32) (v8 : IVec S16 32) (v9 : IVec S16 32) (v10 : IVec S16 32) (v242 : IVec S16 32), Decidable (k0_chk10 v3 v4 v5 v6 v7 v8 v9 v10 v242) := fun v3 v4 v5 v6 v7 v8 v9 v10 v242 => decidable_of_iff' _ (Iff.of_eq (k0_chk10.eq_1 v3 v4 v5 v6 v7 v8 v9 v10 v242))
theorem k0_idx73_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v3, v242] : Fin 2 → IVec S16 32) a x).toNat < S8x1024.size a := fun v3 v4 v5 v6 v7 v8 v9 v10 v242 k0_hw10 => k0_hw10.1
theorem k0_idx74_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v4, v242] : Fin 2 → IVec S16 32) a x).toNat < S8x1024.size a := fun v3 v4 v5 v6 v7 v8 v9 v10 v242 k0_hw10 => k0_hw10.2.1
theorem k0_idx75_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v5, v242] : Fin 2 → IVec S16 32) a x).toNat < S8x1024.size a := fun v3 v4 v5 v6 v7 v8 v9 v10 v242 k0_hw10 => k0_hw10.2.2.1
theorem k0_idx76_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v6, v242] : Fin 2 → IVec S16 32) a x).toNat < S8x1024.size a := fun v3 v4 v5 v6 v7 v8 v9 v10 v242 k0_hw10 => k0_hw10.2.2.2.1
theorem k0_idx77_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v7, v242] : Fin 2 → IVec S16 32) a x).toNat < S8x1024.size a := fun v3 v4 v5 v6 v7 v8 v9 v10 v242 k0_hw10 => k0_hw10.2.2.2.2.1
theorem k0_idx78_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v8, v242] : Fin 2 → IVec S16 32) a x).toNat < S8x1024.size a := fun v3 v4 v5 v6 v7 v8 v9 v10 v242 k0_hw10 => k0_hw10.2.2.2.2.2.1
theorem k0_idx79_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v9, v242] : Fin 2 → IVec S16 32) a x).toNat < S8x1024.size a := fun v3 v4 v5 v6 v7 v8 v9 v10 v242 k0_hw10 => k0_hw10.2.2.2.2.2.2.1
theorem k0_idx80_inb : ∀ (v3 : IVec S16 32) (v4 : IVec S16 32) (v5 : IVec S16 32) (v6 : IVec S16 32) (v7 : IVec S16 32) (v8 : IVec S16 32) (v9 : IVec S16 32) (v10 : IVec S16 32) (v242 : IVec S16 32) (k0_hw10 : k0_chk10 v3 v4 v5 v6 v7 v8 v9 v10 v242), ∀ a x, ((![v10, v242] : Fin 2 → IVec S16 32) a x).toNat < S8x1024.size a := fun v3 v4 v5 v6 v7 v8 v9 v10 v242 k0_hw10 => k0_hw10.2.2.2.2.2.2.2

def k0_chk11 (v3 : IVec S16 32) (v4 : IVec S16 32) (v5 : IVec S16 32) (v6 : IVec S16 32) (v7 : IVec S16 32) (v8 : IVec S16 32) (v9 : IVec S16 32) (v10 : IVec S16 32) (v267 : IVec S16 32) : Prop :=
  (∀ a x, ((![v3, v267] : Fin 2 → IVec S16 32) a x).toNat < S8x1024.size a) ∧
  (∀ a x, ((![v4, v267] : Fin 2 → IVec S16 32) a x).toNat < S8x1024.size a) ∧
  (∀ a x, ((![v5, v267] : Fin 2 → IVec S16 32) a x).toNat < S8x1024.size a) ∧
  (∀ a x, ((![v6, v267] : Fin 2 → IVec S16 32) a x).toNat < S8x1024.size a) ∧
  (∀ a x, ((![v7, v267] : Fin 2 → IVec S16 32) a x).toNat < S8x1024.size a) ∧
  (∀ a x, ((![v8, v267] : Fin 2 → IVec S16 32) a x).toNat < S8x1024.size a) ∧
  (∀ a x, ((![v9, v267] : Fin 2 → IVec S16 32) a x).toNat < S8x1024.size a) ∧
  (∀ a x, ((![v10, v267] : Fin 2 → IVec S16 32) a x).toNat < S8x1024.size a)
instance k0_chk11.dec : ∀ (v3 : IVec S16 32) (v4 : IVec S16 32) (v5 : IVec S16 32) (v6 : IVec S16 32) (v7 : IVec S16 32) (v8 : IVec S16 32) (v9 : IVec S16 32) (v10 : IVec S16 32) (v267 : IVec S16 32), Decidable (k0_chk11 v3 v4 v5 v6 v7 v8 v9 v10 v267) := fun v3 v4 v5 v6 v7 v8 v9 v10 v267 => decidable_of_iff' _ (Iff.of_eq (k0_chk11.eq_1 v3 v4 v5 v6 v7 v8 v9 v10 v267))
theorem k0_idx81_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v3, v267] : Fin 2 → IVec S16 32) a x).toNat < S8x1024.size a := fun v3 v4 v5 v6 v7 v8 v9 v10 v267 k0_hw11 => k0_hw11.1
theorem k0_idx82_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v4, v267] : Fin 2 → IVec S16 32) a x).toNat < S8x1024.size a := fun v3 v4 v5 v6 v7 v8 v9 v10 v267 k0_hw11 => k0_hw11.2.1
theorem k0_idx83_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v5, v267] : Fin 2 → IVec S16 32) a x).toNat < S8x1024.size a := fun v3 v4 v5 v6 v7 v8 v9 v10 v267 k0_hw11 => k0_hw11.2.2.1
theorem k0_idx84_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v6, v267] : Fin 2 → IVec S16 32) a x).toNat < S8x1024.size a := fun v3 v4 v5 v6 v7 v8 v9 v10 v267 k0_hw11 => k0_hw11.2.2.2.1
theorem k0_idx85_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v7, v267] : Fin 2 → IVec S16 32) a x).toNat < S8x1024.size a := fun v3 v4 v5 v6 v7 v8 v9 v10 v267 k0_hw11 => k0_hw11.2.2.2.2.1
theorem k0_idx86_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v8, v267] : Fin 2 → IVec S16 32) a x).toNat < S8x1024.size a := fun v3 v4 v5 v6 v7 v8 v9 v10 v267 k0_hw11 => k0_hw11.2.2.2.2.2.1
theorem k0_idx87_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v9, v267] : Fin 2 → IVec S16 32) a x).toNat < S8x1024.size a := fun v3 v4 v5 v6 v7 v8 v9 v10 v267 k0_hw11 => k0_hw11.2.2.2.2.2.2.1
theorem k0_idx88_inb : ∀ (v3 : IVec S16 32) (v4 : IVec S16 32) (v5 : IVec S16 32) (v6 : IVec S16 32) (v7 : IVec S16 32) (v8 : IVec S16 32) (v9 : IVec S16 32) (v10 : IVec S16 32) (v267 : IVec S16 32) (k0_hw11 : k0_chk11 v3 v4 v5 v6 v7 v8 v9 v10 v267), ∀ a x, ((![v10, v267] : Fin 2 → IVec S16 32) a x).toNat < S8x1024.size a := fun v3 v4 v5 v6 v7 v8 v9 v10 v267 k0_hw11 => k0_hw11.2.2.2.2.2.2.2

def k0_chk12 (v3 : IVec S16 32) (v4 : IVec S16 32) (v5 : IVec S16 32) (v6 : IVec S16 32) (v7 : IVec S16 32) (v8 : IVec S16 32) (v9 : IVec S16 32) (v10 : IVec S16 32) (v292 : IVec S16 32) : Prop :=
  (∀ a x, ((![v3, v292] : Fin 2 → IVec S16 32) a x).toNat < S8x1024.size a) ∧
  (∀ a x, ((![v4, v292] : Fin 2 → IVec S16 32) a x).toNat < S8x1024.size a) ∧
  (∀ a x, ((![v5, v292] : Fin 2 → IVec S16 32) a x).toNat < S8x1024.size a) ∧
  (∀ a x, ((![v6, v292] : Fin 2 → IVec S16 32) a x).toNat < S8x1024.size a) ∧
  (∀ a x, ((![v7, v292] : Fin 2 → IVec S16 32) a x).toNat < S8x1024.size a) ∧
  (∀ a x, ((![v8, v292] : Fin 2 → IVec S16 32) a x).toNat < S8x1024.size a) ∧
  (∀ a x, ((![v9, v292] : Fin 2 → IVec S16 32) a x).toNat < S8x1024.size a) ∧
  (∀ a x, ((![v10, v292] : Fin 2 → IVec S16 32) a x).toNat < S8x1024.size a)
instance k0_chk12.dec : ∀ (v3 : IVec S16 32) (v4 : IVec S16 32) (v5 : IVec S16 32) (v6 : IVec S16 32) (v7 : IVec S16 32) (v8 : IVec S16 32) (v9 : IVec S16 32) (v10 : IVec S16 32) (v292 : IVec S16 32), Decidable (k0_chk12 v3 v4 v5 v6 v7 v8 v9 v10 v292) := fun v3 v4 v5 v6 v7 v8 v9 v10 v292 => decidable_of_iff' _ (Iff.of_eq (k0_chk12.eq_1 v3 v4 v5 v6 v7 v8 v9 v10 v292))
theorem k0_idx89_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v3, v292] : Fin 2 → IVec S16 32) a x).toNat < S8x1024.size a := fun v3 v4 v5 v6 v7 v8 v9 v10 v292 k0_hw12 => k0_hw12.1
theorem k0_idx90_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v4, v292] : Fin 2 → IVec S16 32) a x).toNat < S8x1024.size a := fun v3 v4 v5 v6 v7 v8 v9 v10 v292 k0_hw12 => k0_hw12.2.1
theorem k0_idx91_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v5, v292] : Fin 2 → IVec S16 32) a x).toNat < S8x1024.size a := fun v3 v4 v5 v6 v7 v8 v9 v10 v292 k0_hw12 => k0_hw12.2.2.1
theorem k0_idx92_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v6, v292] : Fin 2 → IVec S16 32) a x).toNat < S8x1024.size a := fun v3 v4 v5 v6 v7 v8 v9 v10 v292 k0_hw12 => k0_hw12.2.2.2.1
theorem k0_idx93_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v7, v292] : Fin 2 → IVec S16 32) a x).toNat < S8x1024.size a := fun v3 v4 v5 v6 v7 v8 v9 v10 v292 k0_hw12 => k0_hw12.2.2.2.2.1
theorem k0_idx94_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v8, v292] : Fin 2 → IVec S16 32) a x).toNat < S8x1024.size a := fun v3 v4 v5 v6 v7 v8 v9 v10 v292 k0_hw12 => k0_hw12.2.2.2.2.2.1
theorem k0_idx95_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v9, v292] : Fin 2 → IVec S16 32) a x).toNat < S8x1024.size a := fun v3 v4 v5 v6 v7 v8 v9 v10 v292 k0_hw12 => k0_hw12.2.2.2.2.2.2.1
theorem k0_idx96_inb : ∀ (v3 : IVec S16 32) (v4 : IVec S16 32) (v5 : IVec S16 32) (v6 : IVec S16 32) (v7 : IVec S16 32) (v8 : IVec S16 32) (v9 : IVec S16 32) (v10 : IVec S16 32) (v292 : IVec S16 32) (k0_hw12 : k0_chk12 v3 v4 v5 v6 v7 v8 v9 v10 v292), ∀ a x, ((![v10, v292] : Fin 2 → IVec S16 32) a x).toNat < S8x1024.size a := fun v3 v4 v5 v6 v7 v8 v9 v10 v292 k0_hw12 => k0_hw12.2.2.2.2.2.2.2

def k0_chk13 (v3 : IVec S16 32) (v4 : IVec S16 32) (v5 : IVec S16 32) (v6 : IVec S16 32) (v7 : IVec S16 32) (v8 : IVec S16 32) (v9 : IVec S16 32) (v10 : IVec S16 32) (v317 : IVec S16 32) : Prop :=
  (∀ a x, ((![v3, v317] : Fin 2 → IVec S16 32) a x).toNat < S8x1024.size a) ∧
  (∀ a x, ((![v4, v317] : Fin 2 → IVec S16 32) a x).toNat < S8x1024.size a) ∧
  (∀ a x, ((![v5, v317] : Fin 2 → IVec S16 32) a x).toNat < S8x1024.size a) ∧
  (∀ a x, ((![v6, v317] : Fin 2 → IVec S16 32) a x).toNat < S8x1024.size a) ∧
  (∀ a x, ((![v7, v317] : Fin 2 → IVec S16 32) a x).toNat < S8x1024.size a) ∧
  (∀ a x, ((![v8, v317] : Fin 2 → IVec S16 32) a x).toNat < S8x1024.size a) ∧
  (∀ a x, ((![v9, v317] : Fin 2 → IVec S16 32) a x).toNat < S8x1024.size a) ∧
  (∀ a x, ((![v10, v317] : Fin 2 → IVec S16 32) a x).toNat < S8x1024.size a)
instance k0_chk13.dec : ∀ (v3 : IVec S16 32) (v4 : IVec S16 32) (v5 : IVec S16 32) (v6 : IVec S16 32) (v7 : IVec S16 32) (v8 : IVec S16 32) (v9 : IVec S16 32) (v10 : IVec S16 32) (v317 : IVec S16 32), Decidable (k0_chk13 v3 v4 v5 v6 v7 v8 v9 v10 v317) := fun v3 v4 v5 v6 v7 v8 v9 v10 v317 => decidable_of_iff' _ (Iff.of_eq (k0_chk13.eq_1 v3 v4 v5 v6 v7 v8 v9 v10 v317))
theorem k0_idx97_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v3, v317] : Fin 2 → IVec S16 32) a x).toNat < S8x1024.size a := fun v3 v4 v5 v6 v7 v8 v9 v10 v317 k0_hw13 => k0_hw13.1
theorem k0_idx98_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v4, v317] : Fin 2 → IVec S16 32) a x).toNat < S8x1024.size a := fun v3 v4 v5 v6 v7 v8 v9 v10 v317 k0_hw13 => k0_hw13.2.1
theorem k0_idx99_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v5, v317] : Fin 2 → IVec S16 32) a x).toNat < S8x1024.size a := fun v3 v4 v5 v6 v7 v8 v9 v10 v317 k0_hw13 => k0_hw13.2.2.1
theorem k0_idx100_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v6, v317] : Fin 2 → IVec S16 32) a x).toNat < S8x1024.size a := fun v3 v4 v5 v6 v7 v8 v9 v10 v317 k0_hw13 => k0_hw13.2.2.2.1
theorem k0_idx101_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v7, v317] : Fin 2 → IVec S16 32) a x).toNat < S8x1024.size a := fun v3 v4 v5 v6 v7 v8 v9 v10 v317 k0_hw13 => k0_hw13.2.2.2.2.1
theorem k0_idx102_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v8, v317] : Fin 2 → IVec S16 32) a x).toNat < S8x1024.size a := fun v3 v4 v5 v6 v7 v8 v9 v10 v317 k0_hw13 => k0_hw13.2.2.2.2.2.1
theorem k0_idx103_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v9, v317] : Fin 2 → IVec S16 32) a x).toNat < S8x1024.size a := fun v3 v4 v5 v6 v7 v8 v9 v10 v317 k0_hw13 => k0_hw13.2.2.2.2.2.2.1
theorem k0_idx104_inb : ∀ (v3 : IVec S16 32) (v4 : IVec S16 32) (v5 : IVec S16 32) (v6 : IVec S16 32) (v7 : IVec S16 32) (v8 : IVec S16 32) (v9 : IVec S16 32) (v10 : IVec S16 32) (v317 : IVec S16 32) (k0_hw13 : k0_chk13 v3 v4 v5 v6 v7 v8 v9 v10 v317), ∀ a x, ((![v10, v317] : Fin 2 → IVec S16 32) a x).toNat < S8x1024.size a := fun v3 v4 v5 v6 v7 v8 v9 v10 v317 k0_hw13 => k0_hw13.2.2.2.2.2.2.2

def k0_chk14 (v3 : IVec S16 32) (v4 : IVec S16 32) (v5 : IVec S16 32) (v6 : IVec S16 32) (v7 : IVec S16 32) (v8 : IVec S16 32) (v9 : IVec S16 32) (v10 : IVec S16 32) (v342 : IVec S16 32) : Prop :=
  (∀ a x, ((![v3, v342] : Fin 2 → IVec S16 32) a x).toNat < S8x1024.size a) ∧
  (∀ a x, ((![v4, v342] : Fin 2 → IVec S16 32) a x).toNat < S8x1024.size a) ∧
  (∀ a x, ((![v5, v342] : Fin 2 → IVec S16 32) a x).toNat < S8x1024.size a) ∧
  (∀ a x, ((![v6, v342] : Fin 2 → IVec S16 32) a x).toNat < S8x1024.size a) ∧
  (∀ a x, ((![v7, v342] : Fin 2 → IVec S16 32) a x).toNat < S8x1024.size a) ∧
  (∀ a x, ((![v8, v342] : Fin 2 → IVec S16 32) a x).toNat < S8x1024.size a) ∧
  (∀ a x, ((![v9, v342] : Fin 2 → IVec S16 32) a x).toNat < S8x1024.size a) ∧
  (∀ a x, ((![v10, v342] : Fin 2 → IVec S16 32) a x).toNat < S8x1024.size a)
instance k0_chk14.dec : ∀ (v3 : IVec S16 32) (v4 : IVec S16 32) (v5 : IVec S16 32) (v6 : IVec S16 32) (v7 : IVec S16 32) (v8 : IVec S16 32) (v9 : IVec S16 32) (v10 : IVec S16 32) (v342 : IVec S16 32), Decidable (k0_chk14 v3 v4 v5 v6 v7 v8 v9 v10 v342) := fun v3 v4 v5 v6 v7 v8 v9 v10 v342 => decidable_of_iff' _ (Iff.of_eq (k0_chk14.eq_1 v3 v4 v5 v6 v7 v8 v9 v10 v342))
theorem k0_idx105_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v3, v342] : Fin 2 → IVec S16 32) a x).toNat < S8x1024.size a := fun v3 v4 v5 v6 v7 v8 v9 v10 v342 k0_hw14 => k0_hw14.1
theorem k0_idx106_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v4, v342] : Fin 2 → IVec S16 32) a x).toNat < S8x1024.size a := fun v3 v4 v5 v6 v7 v8 v9 v10 v342 k0_hw14 => k0_hw14.2.1
theorem k0_idx107_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v5, v342] : Fin 2 → IVec S16 32) a x).toNat < S8x1024.size a := fun v3 v4 v5 v6 v7 v8 v9 v10 v342 k0_hw14 => k0_hw14.2.2.1
theorem k0_idx108_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v6, v342] : Fin 2 → IVec S16 32) a x).toNat < S8x1024.size a := fun v3 v4 v5 v6 v7 v8 v9 v10 v342 k0_hw14 => k0_hw14.2.2.2.1
theorem k0_idx109_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v7, v342] : Fin 2 → IVec S16 32) a x).toNat < S8x1024.size a := fun v3 v4 v5 v6 v7 v8 v9 v10 v342 k0_hw14 => k0_hw14.2.2.2.2.1
theorem k0_idx110_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v8, v342] : Fin 2 → IVec S16 32) a x).toNat < S8x1024.size a := fun v3 v4 v5 v6 v7 v8 v9 v10 v342 k0_hw14 => k0_hw14.2.2.2.2.2.1
theorem k0_idx111_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v9, v342] : Fin 2 → IVec S16 32) a x).toNat < S8x1024.size a := fun v3 v4 v5 v6 v7 v8 v9 v10 v342 k0_hw14 => k0_hw14.2.2.2.2.2.2.1
theorem k0_idx112_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v10, v342] : Fin 2 → IVec S16 32) a x).toNat < S8x1024.size a := fun v3 v4 v5 v6 v7 v8 v9 v10 v342 k0_hw14 => k0_hw14.2.2.2.2.2.2.2

def k0_chk15 (v3 : IVec S16 32) (v4 : IVec S16 32) (v5 : IVec S16 32) (v6 : IVec S16 32) (v7 : IVec S16 32) (v8 : IVec S16 32) (v9 : IVec S16 32) (v10 : IVec S16 32) (v367 : IVec S16 32) : Prop :=
  (∀ a x, ((![v3, v367] : Fin 2 → IVec S16 32) a x).toNat < S8x1024.size a) ∧
  (∀ a x, ((![v4, v367] : Fin 2 → IVec S16 32) a x).toNat < S8x1024.size a) ∧
  (∀ a x, ((![v5, v367] : Fin 2 → IVec S16 32) a x).toNat < S8x1024.size a) ∧
  (∀ a x, ((![v6, v367] : Fin 2 → IVec S16 32) a x).toNat < S8x1024.size a) ∧
  (∀ a x, ((![v7, v367] : Fin 2 → IVec S16 32) a x).toNat < S8x1024.size a) ∧
  (∀ a x, ((![v8, v367] : Fin 2 → IVec S16 32) a x).toNat < S8x1024.size a) ∧
  (∀ a x, ((![v9, v367] : Fin 2 → IVec S16 32) a x).toNat < S8x1024.size a) ∧
  (∀ a x, ((![v10, v367] : Fin 2 → IVec S16 32) a x).toNat < S8x1024.size a)
instance k0_chk15.dec : ∀ (v3 : IVec S16 32) (v4 : IVec S16 32) (v5 : IVec S16 32) (v6 : IVec S16 32) (v7 : IVec S16 32) (v8 : IVec S16 32) (v9 : IVec S16 32) (v10 : IVec S16 32) (v367 : IVec S16 32), Decidable (k0_chk15 v3 v4 v5 v6 v7 v8 v9 v10 v367) := fun v3 v4 v5 v6 v7 v8 v9 v10 v367 => decidable_of_iff' _ (Iff.of_eq (k0_chk15.eq_1 v3 v4 v5 v6 v7 v8 v9 v10 v367))
theorem k0_idx113_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v3, v367] : Fin 2 → IVec S16 32) a x).toNat < S8x1024.size a := fun v3 v4 v5 v6 v7 v8 v9 v10 v367 k0_hw15 => k0_hw15.1
theorem k0_idx114_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v4, v367] : Fin 2 → IVec S16 32) a x).toNat < S8x1024.size a := fun v3 v4 v5 v6 v7 v8 v9 v10 v367 k0_hw15 => k0_hw15.2.1
theorem k0_idx115_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v5, v367] : Fin 2 → IVec S16 32) a x).toNat < S8x1024.size a := fun v3 v4 v5 v6 v7 v8 v9 v10 v367 k0_hw15 => k0_hw15.2.2.1
theorem k0_idx116_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v6, v367] : Fin 2 → IVec S16 32) a x).toNat < S8x1024.size a := fun v3 v4 v5 v6 v7 v8 v9 v10 v367 k0_hw15 => k0_hw15.2.2.2.1
theorem k0_idx117_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v7, v367] : Fin 2 → IVec S16 32) a x).toNat < S8x1024.size a := fun v3 v4 v5 v6 v7 v8 v9 v10 v367 k0_hw15 => k0_hw15.2.2.2.2.1
theorem k0_idx118_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v8, v367] : Fin 2 → IVec S16 32) a x).toNat < S8x1024.size a := fun v3 v4 v5 v6 v7 v8 v9 v10 v367 k0_hw15 => k0_hw15.2.2.2.2.2.1
theorem k0_idx119_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v9, v367] : Fin 2 → IVec S16 32) a x).toNat < S8x1024.size a := fun v3 v4 v5 v6 v7 v8 v9 v10 v367 k0_hw15 => k0_hw15.2.2.2.2.2.2.1
theorem k0_idx120_inb : ∀ (v3 : IVec S16 32) (v4 : IVec S16 32) (v5 : IVec S16 32) (v6 : IVec S16 32) (v7 : IVec S16 32) (v8 : IVec S16 32) (v9 : IVec S16 32) (v10 : IVec S16 32) (v367 : IVec S16 32) (k0_hw15 : k0_chk15 v3 v4 v5 v6 v7 v8 v9 v10 v367), ∀ a x, ((![v10, v367] : Fin 2 → IVec S16 32) a x).toNat < S8x1024.size a := fun v3 v4 v5 v6 v7 v8 v9 v10 v367 k0_hw15 => k0_hw15.2.2.2.2.2.2.2

def k0_chk16 (v3 : IVec S16 32) (v4 : IVec S16 32) (v5 : IVec S16 32) (v6 : IVec S16 32) (v7 : IVec S16 32) (v8 : IVec S16 32) (v9 : IVec S16 32) (v10 : IVec S16 32) (v392 : IVec S16 32) : Prop :=
  (∀ a x, ((![v3, v392] : Fin 2 → IVec S16 32) a x).toNat < S8x1024.size a) ∧
  (∀ a x, ((![v4, v392] : Fin 2 → IVec S16 32) a x).toNat < S8x1024.size a) ∧
  (∀ a x, ((![v5, v392] : Fin 2 → IVec S16 32) a x).toNat < S8x1024.size a) ∧
  (∀ a x, ((![v6, v392] : Fin 2 → IVec S16 32) a x).toNat < S8x1024.size a) ∧
  (∀ a x, ((![v7, v392] : Fin 2 → IVec S16 32) a x).toNat < S8x1024.size a) ∧
  (∀ a x, ((![v8, v392] : Fin 2 → IVec S16 32) a x).toNat < S8x1024.size a) ∧
  (∀ a x, ((![v9, v392] : Fin 2 → IVec S16 32) a x).toNat < S8x1024.size a) ∧
  (∀ a x, ((![v10, v392] : Fin 2 → IVec S16 32) a x).toNat < S8x1024.size a)
instance k0_chk16.dec : ∀ (v3 : IVec S16 32) (v4 : IVec S16 32) (v5 : IVec S16 32) (v6 : IVec S16 32) (v7 : IVec S16 32) (v8 : IVec S16 32) (v9 : IVec S16 32) (v10 : IVec S16 32) (v392 : IVec S16 32), Decidable (k0_chk16 v3 v4 v5 v6 v7 v8 v9 v10 v392) := fun v3 v4 v5 v6 v7 v8 v9 v10 v392 => decidable_of_iff' _ (Iff.of_eq (k0_chk16.eq_1 v3 v4 v5 v6 v7 v8 v9 v10 v392))
theorem k0_idx121_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v3, v392] : Fin 2 → IVec S16 32) a x).toNat < S8x1024.size a := fun v3 v4 v5 v6 v7 v8 v9 v10 v392 k0_hw16 => k0_hw16.1
theorem k0_idx122_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v4, v392] : Fin 2 → IVec S16 32) a x).toNat < S8x1024.size a := fun v3 v4 v5 v6 v7 v8 v9 v10 v392 k0_hw16 => k0_hw16.2.1
theorem k0_idx123_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v5, v392] : Fin 2 → IVec S16 32) a x).toNat < S8x1024.size a := fun v3 v4 v5 v6 v7 v8 v9 v10 v392 k0_hw16 => k0_hw16.2.2.1
theorem k0_idx124_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v6, v392] : Fin 2 → IVec S16 32) a x).toNat < S8x1024.size a := fun v3 v4 v5 v6 v7 v8 v9 v10 v392 k0_hw16 => k0_hw16.2.2.2.1
theorem k0_idx125_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v7, v392] : Fin 2 → IVec S16 32) a x).toNat < S8x1024.size a := fun v3 v4 v5 v6 v7 v8 v9 v10 v392 k0_hw16 => k0_hw16.2.2.2.2.1
theorem k0_idx126_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v8, v392] : Fin 2 → IVec S16 32) a x).toNat < S8x1024.size a := fun v3 v4 v5 v6 v7 v8 v9 v10 v392 k0_hw16 => k0_hw16.2.2.2.2.2.1
theorem k0_idx127_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v9, v392] : Fin 2 → IVec S16 32) a x).toNat < S8x1024.size a := fun v3 v4 v5 v6 v7 v8 v9 v10 v392 k0_hw16 => k0_hw16.2.2.2.2.2.2.1
theorem k0_idx128_inb : ∀ (v3 : IVec S16 32) (v4 : IVec S16 32) (v5 : IVec S16 32) (v6 : IVec S16 32) (v7 : IVec S16 32) (v8 : IVec S16 32) (v9 : IVec S16 32) (v10 : IVec S16 32) (v392 : IVec S16 32) (k0_hw16 : k0_chk16 v3 v4 v5 v6 v7 v8 v9 v10 v392), ∀ a x, ((![v10, v392] : Fin 2 → IVec S16 32) a x).toNat < S8x1024.size a := fun v3 v4 v5 v6 v7 v8 v9 v10 v392 k0_hw16 => k0_hw16.2.2.2.2.2.2.2

def k0_chk17 (v3 : IVec S16 32) (v4 : IVec S16 32) (v5 : IVec S16 32) (v6 : IVec S16 32) (v7 : IVec S16 32) (v8 : IVec S16 32) (v9 : IVec S16 32) (v10 : IVec S16 32) (v417 : IVec S16 32) : Prop :=
  (∀ a x, ((![v3, v417] : Fin 2 → IVec S16 32) a x).toNat < S8x1024.size a) ∧
  (∀ a x, ((![v4, v417] : Fin 2 → IVec S16 32) a x).toNat < S8x1024.size a) ∧
  (∀ a x, ((![v5, v417] : Fin 2 → IVec S16 32) a x).toNat < S8x1024.size a) ∧
  (∀ a x, ((![v6, v417] : Fin 2 → IVec S16 32) a x).toNat < S8x1024.size a) ∧
  (∀ a x, ((![v7, v417] : Fin 2 → IVec S16 32) a x).toNat < S8x1024.size a) ∧
  (∀ a x, ((![v8, v417] : Fin 2 → IVec S16 32) a x).toNat < S8x1024.size a) ∧
  (∀ a x, ((![v9, v417] : Fin 2 → IVec S16 32) a x).toNat < S8x1024.size a) ∧
  (∀ a x, ((![v10, v417] : Fin 2 → IVec S16 32) a x).toNat < S8x1024.size a)
instance k0_chk17.dec : ∀ (v3 : IVec S16 32) (v4 : IVec S16 32) (v5 : IVec S16 32) (v6 : IVec S16 32) (v7 : IVec S16 32) (v8 : IVec S16 32) (v9 : IVec S16 32) (v10 : IVec S16 32) (v417 : IVec S16 32), Decidable (k0_chk17 v3 v4 v5 v6 v7 v8 v9 v10 v417) := fun v3 v4 v5 v6 v7 v8 v9 v10 v417 => decidable_of_iff' _ (Iff.of_eq (k0_chk17.eq_1 v3 v4 v5 v6 v7 v8 v9 v10 v417))
theorem k0_idx129_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v3, v417] : Fin 2 → IVec S16 32) a x).toNat < S8x1024.size a := fun v3 v4 v5 v6 v7 v8 v9 v10 v417 k0_hw17 => k0_hw17.1
theorem k0_idx130_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v4, v417] : Fin 2 → IVec S16 32) a x).toNat < S8x1024.size a := fun v3 v4 v5 v6 v7 v8 v9 v10 v417 k0_hw17 => k0_hw17.2.1
theorem k0_idx131_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v5, v417] : Fin 2 → IVec S16 32) a x).toNat < S8x1024.size a := fun v3 v4 v5 v6 v7 v8 v9 v10 v417 k0_hw17 => k0_hw17.2.2.1
theorem k0_idx132_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v6, v417] : Fin 2 → IVec S16 32) a x).toNat < S8x1024.size a := fun v3 v4 v5 v6 v7 v8 v9 v10 v417 k0_hw17 => k0_hw17.2.2.2.1
theorem k0_idx133_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v7, v417] : Fin 2 → IVec S16 32) a x).toNat < S8x1024.size a := fun v3 v4 v5 v6 v7 v8 v9 v10 v417 k0_hw17 => k0_hw17.2.2.2.2.1
theorem k0_idx134_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v8, v417] : Fin 2 → IVec S16 32) a x).toNat < S8x1024.size a := fun v3 v4 v5 v6 v7 v8 v9 v10 v417 k0_hw17 => k0_hw17.2.2.2.2.2.1
theorem k0_idx135_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v9, v417] : Fin 2 → IVec S16 32) a x).toNat < S8x1024.size a := fun v3 v4 v5 v6 v7 v8 v9 v10 v417 k0_hw17 => k0_hw17.2.2.2.2.2.2.1
theorem k0_idx136_inb : ∀ (v3 : IVec S16 32) (v4 : IVec S16 32) (v5 : IVec S16 32) (v6 : IVec S16 32) (v7 : IVec S16 32) (v8 : IVec S16 32) (v9 : IVec S16 32) (v10 : IVec S16 32) (v417 : IVec S16 32) (k0_hw17 : k0_chk17 v3 v4 v5 v6 v7 v8 v9 v10 v417), ∀ a x, ((![v10, v417] : Fin 2 → IVec S16 32) a x).toNat < S8x1024.size a := fun v3 v4 v5 v6 v7 v8 v9 v10 v417 k0_hw17 => k0_hw17.2.2.2.2.2.2.2

def k0_chk18 (v3 : IVec S16 32) (v4 : IVec S16 32) (v5 : IVec S16 32) (v6 : IVec S16 32) (v7 : IVec S16 32) (v8 : IVec S16 32) (v9 : IVec S16 32) (v10 : IVec S16 32) (v442 : IVec S16 32) : Prop :=
  (∀ a x, ((![v3, v442] : Fin 2 → IVec S16 32) a x).toNat < S8x1024.size a) ∧
  (∀ a x, ((![v4, v442] : Fin 2 → IVec S16 32) a x).toNat < S8x1024.size a) ∧
  (∀ a x, ((![v5, v442] : Fin 2 → IVec S16 32) a x).toNat < S8x1024.size a) ∧
  (∀ a x, ((![v6, v442] : Fin 2 → IVec S16 32) a x).toNat < S8x1024.size a) ∧
  (∀ a x, ((![v7, v442] : Fin 2 → IVec S16 32) a x).toNat < S8x1024.size a) ∧
  (∀ a x, ((![v8, v442] : Fin 2 → IVec S16 32) a x).toNat < S8x1024.size a) ∧
  (∀ a x, ((![v9, v442] : Fin 2 → IVec S16 32) a x).toNat < S8x1024.size a) ∧
  (∀ a x, ((![v10, v442] : Fin 2 → IVec S16 32) a x).toNat < S8x1024.size a)
instance k0_chk18.dec : ∀ (v3 : IVec S16 32) (v4 : IVec S16 32) (v5 : IVec S16 32) (v6 : IVec S16 32) (v7 : IVec S16 32) (v8 : IVec S16 32) (v9 : IVec S16 32) (v10 : IVec S16 32) (v442 : IVec S16 32), Decidable (k0_chk18 v3 v4 v5 v6 v7 v8 v9 v10 v442) := fun v3 v4 v5 v6 v7 v8 v9 v10 v442 => decidable_of_iff' _ (Iff.of_eq (k0_chk18.eq_1 v3 v4 v5 v6 v7 v8 v9 v10 v442))
theorem k0_idx137_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v3, v442] : Fin 2 → IVec S16 32) a x).toNat < S8x1024.size a := fun v3 v4 v5 v6 v7 v8 v9 v10 v442 k0_hw18 => k0_hw18.1
theorem k0_idx138_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v4, v442] : Fin 2 → IVec S16 32) a x).toNat < S8x1024.size a := fun v3 v4 v5 v6 v7 v8 v9 v10 v442 k0_hw18 => k0_hw18.2.1
theorem k0_idx139_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v5, v442] : Fin 2 → IVec S16 32) a x).toNat < S8x1024.size a := fun v3 v4 v5 v6 v7 v8 v9 v10 v442 k0_hw18 => k0_hw18.2.2.1
theorem k0_idx140_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v6, v442] : Fin 2 → IVec S16 32) a x).toNat < S8x1024.size a := fun v3 v4 v5 v6 v7 v8 v9 v10 v442 k0_hw18 => k0_hw18.2.2.2.1
theorem k0_idx141_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v7, v442] : Fin 2 → IVec S16 32) a x).toNat < S8x1024.size a := fun v3 v4 v5 v6 v7 v8 v9 v10 v442 k0_hw18 => k0_hw18.2.2.2.2.1
theorem k0_idx142_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v8, v442] : Fin 2 → IVec S16 32) a x).toNat < S8x1024.size a := fun v3 v4 v5 v6 v7 v8 v9 v10 v442 k0_hw18 => k0_hw18.2.2.2.2.2.1
theorem k0_idx143_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v9, v442] : Fin 2 → IVec S16 32) a x).toNat < S8x1024.size a := fun v3 v4 v5 v6 v7 v8 v9 v10 v442 k0_hw18 => k0_hw18.2.2.2.2.2.2.1
theorem k0_idx144_inb : ∀ (v3 : IVec S16 32) (v4 : IVec S16 32) (v5 : IVec S16 32) (v6 : IVec S16 32) (v7 : IVec S16 32) (v8 : IVec S16 32) (v9 : IVec S16 32) (v10 : IVec S16 32) (v442 : IVec S16 32) (k0_hw18 : k0_chk18 v3 v4 v5 v6 v7 v8 v9 v10 v442), ∀ a x, ((![v10, v442] : Fin 2 → IVec S16 32) a x).toNat < S8x1024.size a := fun v3 v4 v5 v6 v7 v8 v9 v10 v442 k0_hw18 => k0_hw18.2.2.2.2.2.2.2

def k0_chk19 (v3 : IVec S16 32) (v4 : IVec S16 32) (v5 : IVec S16 32) (v6 : IVec S16 32) (v7 : IVec S16 32) (v8 : IVec S16 32) (v9 : IVec S16 32) (v10 : IVec S16 32) (v467 : IVec S16 32) : Prop :=
  (∀ a x, ((![v3, v467] : Fin 2 → IVec S16 32) a x).toNat < S8x1024.size a) ∧
  (∀ a x, ((![v4, v467] : Fin 2 → IVec S16 32) a x).toNat < S8x1024.size a) ∧
  (∀ a x, ((![v5, v467] : Fin 2 → IVec S16 32) a x).toNat < S8x1024.size a) ∧
  (∀ a x, ((![v6, v467] : Fin 2 → IVec S16 32) a x).toNat < S8x1024.size a) ∧
  (∀ a x, ((![v7, v467] : Fin 2 → IVec S16 32) a x).toNat < S8x1024.size a) ∧
  (∀ a x, ((![v8, v467] : Fin 2 → IVec S16 32) a x).toNat < S8x1024.size a) ∧
  (∀ a x, ((![v9, v467] : Fin 2 → IVec S16 32) a x).toNat < S8x1024.size a) ∧
  (∀ a x, ((![v10, v467] : Fin 2 → IVec S16 32) a x).toNat < S8x1024.size a)
instance k0_chk19.dec : ∀ (v3 : IVec S16 32) (v4 : IVec S16 32) (v5 : IVec S16 32) (v6 : IVec S16 32) (v7 : IVec S16 32) (v8 : IVec S16 32) (v9 : IVec S16 32) (v10 : IVec S16 32) (v467 : IVec S16 32), Decidable (k0_chk19 v3 v4 v5 v6 v7 v8 v9 v10 v467) := fun v3 v4 v5 v6 v7 v8 v9 v10 v467 => decidable_of_iff' _ (Iff.of_eq (k0_chk19.eq_1 v3 v4 v5 v6 v7 v8 v9 v10 v467))
theorem k0_idx145_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v3, v467] : Fin 2 → IVec S16 32) a x).toNat < S8x1024.size a := fun v3 v4 v5 v6 v7 v8 v9 v10 v467 k0_hw19 => k0_hw19.1
theorem k0_idx146_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v4, v467] : Fin 2 → IVec S16 32) a x).toNat < S8x1024.size a := fun v3 v4 v5 v6 v7 v8 v9 v10 v467 k0_hw19 => k0_hw19.2.1
theorem k0_idx147_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v5, v467] : Fin 2 → IVec S16 32) a x).toNat < S8x1024.size a := fun v3 v4 v5 v6 v7 v8 v9 v10 v467 k0_hw19 => k0_hw19.2.2.1
theorem k0_idx148_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v6, v467] : Fin 2 → IVec S16 32) a x).toNat < S8x1024.size a := fun v3 v4 v5 v6 v7 v8 v9 v10 v467 k0_hw19 => k0_hw19.2.2.2.1
theorem k0_idx149_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v7, v467] : Fin 2 → IVec S16 32) a x).toNat < S8x1024.size a := fun v3 v4 v5 v6 v7 v8 v9 v10 v467 k0_hw19 => k0_hw19.2.2.2.2.1
theorem k0_idx150_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v8, v467] : Fin 2 → IVec S16 32) a x).toNat < S8x1024.size a := fun v3 v4 v5 v6 v7 v8 v9 v10 v467 k0_hw19 => k0_hw19.2.2.2.2.2.1
theorem k0_idx151_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v9, v467] : Fin 2 → IVec S16 32) a x).toNat < S8x1024.size a := fun v3 v4 v5 v6 v7 v8 v9 v10 v467 k0_hw19 => k0_hw19.2.2.2.2.2.2.1
theorem k0_idx152_inb : ∀ (v3 : IVec S16 32) (v4 : IVec S16 32) (v5 : IVec S16 32) (v6 : IVec S16 32) (v7 : IVec S16 32) (v8 : IVec S16 32) (v9 : IVec S16 32) (v10 : IVec S16 32) (v467 : IVec S16 32) (k0_hw19 : k0_chk19 v3 v4 v5 v6 v7 v8 v9 v10 v467), ∀ a x, ((![v10, v467] : Fin 2 → IVec S16 32) a x).toNat < S8x1024.size a := fun v3 v4 v5 v6 v7 v8 v9 v10 v467 k0_hw19 => k0_hw19.2.2.2.2.2.2.2

def k0_chk20 (v3 : IVec S16 32) (v4 : IVec S16 32) (v5 : IVec S16 32) (v6 : IVec S16 32) (v7 : IVec S16 32) (v8 : IVec S16 32) (v9 : IVec S16 32) (v10 : IVec S16 32) (v492 : IVec S16 32) : Prop :=
  (∀ a x, ((![v3, v492] : Fin 2 → IVec S16 32) a x).toNat < S8x1024.size a) ∧
  (∀ a x, ((![v4, v492] : Fin 2 → IVec S16 32) a x).toNat < S8x1024.size a) ∧
  (∀ a x, ((![v5, v492] : Fin 2 → IVec S16 32) a x).toNat < S8x1024.size a) ∧
  (∀ a x, ((![v6, v492] : Fin 2 → IVec S16 32) a x).toNat < S8x1024.size a) ∧
  (∀ a x, ((![v7, v492] : Fin 2 → IVec S16 32) a x).toNat < S8x1024.size a) ∧
  (∀ a x, ((![v8, v492] : Fin 2 → IVec S16 32) a x).toNat < S8x1024.size a) ∧
  (∀ a x, ((![v9, v492] : Fin 2 → IVec S16 32) a x).toNat < S8x1024.size a) ∧
  (∀ a x, ((![v10, v492] : Fin 2 → IVec S16 32) a x).toNat < S8x1024.size a)
instance k0_chk20.dec : ∀ (v3 : IVec S16 32) (v4 : IVec S16 32) (v5 : IVec S16 32) (v6 : IVec S16 32) (v7 : IVec S16 32) (v8 : IVec S16 32) (v9 : IVec S16 32) (v10 : IVec S16 32) (v492 : IVec S16 32), Decidable (k0_chk20 v3 v4 v5 v6 v7 v8 v9 v10 v492) := fun v3 v4 v5 v6 v7 v8 v9 v10 v492 => decidable_of_iff' _ (Iff.of_eq (k0_chk20.eq_1 v3 v4 v5 v6 v7 v8 v9 v10 v492))
theorem k0_idx153_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v3, v492] : Fin 2 → IVec S16 32) a x).toNat < S8x1024.size a := fun v3 v4 v5 v6 v7 v8 v9 v10 v492 k0_hw20 => k0_hw20.1
theorem k0_idx154_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v4, v492] : Fin 2 → IVec S16 32) a x).toNat < S8x1024.size a := fun v3 v4 v5 v6 v7 v8 v9 v10 v492 k0_hw20 => k0_hw20.2.1
theorem k0_idx155_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v5, v492] : Fin 2 → IVec S16 32) a x).toNat < S8x1024.size a := fun v3 v4 v5 v6 v7 v8 v9 v10 v492 k0_hw20 => k0_hw20.2.2.1
theorem k0_idx156_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v6, v492] : Fin 2 → IVec S16 32) a x).toNat < S8x1024.size a := fun v3 v4 v5 v6 v7 v8 v9 v10 v492 k0_hw20 => k0_hw20.2.2.2.1
theorem k0_idx157_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v7, v492] : Fin 2 → IVec S16 32) a x).toNat < S8x1024.size a := fun v3 v4 v5 v6 v7 v8 v9 v10 v492 k0_hw20 => k0_hw20.2.2.2.2.1
theorem k0_idx158_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v8, v492] : Fin 2 → IVec S16 32) a x).toNat < S8x1024.size a := fun v3 v4 v5 v6 v7 v8 v9 v10 v492 k0_hw20 => k0_hw20.2.2.2.2.2.1
theorem k0_idx159_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v9, v492] : Fin 2 → IVec S16 32) a x).toNat < S8x1024.size a := fun v3 v4 v5 v6 v7 v8 v9 v10 v492 k0_hw20 => k0_hw20.2.2.2.2.2.2.1
theorem k0_idx160_inb : ∀ (v3 : IVec S16 32) (v4 : IVec S16 32) (v5 : IVec S16 32) (v6 : IVec S16 32) (v7 : IVec S16 32) (v8 : IVec S16 32) (v9 : IVec S16 32) (v10 : IVec S16 32) (v492 : IVec S16 32) (k0_hw20 : k0_chk20 v3 v4 v5 v6 v7 v8 v9 v10 v492), ∀ a x, ((![v10, v492] : Fin 2 → IVec S16 32) a x).toNat < S8x1024.size a := fun v3 v4 v5 v6 v7 v8 v9 v10 v492 k0_hw20 => k0_hw20.2.2.2.2.2.2.2

def k0_chk21 (v3 : IVec S16 32) (v4 : IVec S16 32) (v5 : IVec S16 32) (v6 : IVec S16 32) (v7 : IVec S16 32) (v8 : IVec S16 32) (v9 : IVec S16 32) (v10 : IVec S16 32) (v517 : IVec S16 32) : Prop :=
  (∀ a x, ((![v3, v517] : Fin 2 → IVec S16 32) a x).toNat < S8x1024.size a) ∧
  (∀ a x, ((![v4, v517] : Fin 2 → IVec S16 32) a x).toNat < S8x1024.size a) ∧
  (∀ a x, ((![v5, v517] : Fin 2 → IVec S16 32) a x).toNat < S8x1024.size a) ∧
  (∀ a x, ((![v6, v517] : Fin 2 → IVec S16 32) a x).toNat < S8x1024.size a) ∧
  (∀ a x, ((![v7, v517] : Fin 2 → IVec S16 32) a x).toNat < S8x1024.size a) ∧
  (∀ a x, ((![v8, v517] : Fin 2 → IVec S16 32) a x).toNat < S8x1024.size a) ∧
  (∀ a x, ((![v9, v517] : Fin 2 → IVec S16 32) a x).toNat < S8x1024.size a) ∧
  (∀ a x, ((![v10, v517] : Fin 2 → IVec S16 32) a x).toNat < S8x1024.size a)
instance k0_chk21.dec : ∀ (v3 : IVec S16 32) (v4 : IVec S16 32) (v5 : IVec S16 32) (v6 : IVec S16 32) (v7 : IVec S16 32) (v8 : IVec S16 32) (v9 : IVec S16 32) (v10 : IVec S16 32) (v517 : IVec S16 32), Decidable (k0_chk21 v3 v4 v5 v6 v7 v8 v9 v10 v517) := fun v3 v4 v5 v6 v7 v8 v9 v10 v517 => decidable_of_iff' _ (Iff.of_eq (k0_chk21.eq_1 v3 v4 v5 v6 v7 v8 v9 v10 v517))
theorem k0_idx161_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v3, v517] : Fin 2 → IVec S16 32) a x).toNat < S8x1024.size a := fun v3 v4 v5 v6 v7 v8 v9 v10 v517 k0_hw21 => k0_hw21.1
theorem k0_idx162_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v4, v517] : Fin 2 → IVec S16 32) a x).toNat < S8x1024.size a := fun v3 v4 v5 v6 v7 v8 v9 v10 v517 k0_hw21 => k0_hw21.2.1
theorem k0_idx163_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v5, v517] : Fin 2 → IVec S16 32) a x).toNat < S8x1024.size a := fun v3 v4 v5 v6 v7 v8 v9 v10 v517 k0_hw21 => k0_hw21.2.2.1
theorem k0_idx164_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v6, v517] : Fin 2 → IVec S16 32) a x).toNat < S8x1024.size a := fun v3 v4 v5 v6 v7 v8 v9 v10 v517 k0_hw21 => k0_hw21.2.2.2.1
theorem k0_idx165_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v7, v517] : Fin 2 → IVec S16 32) a x).toNat < S8x1024.size a := fun v3 v4 v5 v6 v7 v8 v9 v10 v517 k0_hw21 => k0_hw21.2.2.2.2.1
theorem k0_idx166_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v8, v517] : Fin 2 → IVec S16 32) a x).toNat < S8x1024.size a := fun v3 v4 v5 v6 v7 v8 v9 v10 v517 k0_hw21 => k0_hw21.2.2.2.2.2.1
theorem k0_idx167_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v9, v517] : Fin 2 → IVec S16 32) a x).toNat < S8x1024.size a := fun v3 v4 v5 v6 v7 v8 v9 v10 v517 k0_hw21 => k0_hw21.2.2.2.2.2.2.1
theorem k0_idx168_inb : ∀ (v3 : IVec S16 32) (v4 : IVec S16 32) (v5 : IVec S16 32) (v6 : IVec S16 32) (v7 : IVec S16 32) (v8 : IVec S16 32) (v9 : IVec S16 32) (v10 : IVec S16 32) (v517 : IVec S16 32) (k0_hw21 : k0_chk21 v3 v4 v5 v6 v7 v8 v9 v10 v517), ∀ a x, ((![v10, v517] : Fin 2 → IVec S16 32) a x).toNat < S8x1024.size a := fun v3 v4 v5 v6 v7 v8 v9 v10 v517 k0_hw21 => k0_hw21.2.2.2.2.2.2.2

def k0_chk22 (v3 : IVec S16 32) (v4 : IVec S16 32) (v5 : IVec S16 32) (v6 : IVec S16 32) (v7 : IVec S16 32) (v8 : IVec S16 32) (v9 : IVec S16 32) (v10 : IVec S16 32) (v542 : IVec S16 32) : Prop :=
  (∀ a x, ((![v3, v542] : Fin 2 → IVec S16 32) a x).toNat < S8x1024.size a) ∧
  (∀ a x, ((![v4, v542] : Fin 2 → IVec S16 32) a x).toNat < S8x1024.size a) ∧
  (∀ a x, ((![v5, v542] : Fin 2 → IVec S16 32) a x).toNat < S8x1024.size a) ∧
  (∀ a x, ((![v6, v542] : Fin 2 → IVec S16 32) a x).toNat < S8x1024.size a) ∧
  (∀ a x, ((![v7, v542] : Fin 2 → IVec S16 32) a x).toNat < S8x1024.size a) ∧
  (∀ a x, ((![v8, v542] : Fin 2 → IVec S16 32) a x).toNat < S8x1024.size a) ∧
  (∀ a x, ((![v9, v542] : Fin 2 → IVec S16 32) a x).toNat < S8x1024.size a) ∧
  (∀ a x, ((![v10, v542] : Fin 2 → IVec S16 32) a x).toNat < S8x1024.size a)
instance k0_chk22.dec : ∀ (v3 : IVec S16 32) (v4 : IVec S16 32) (v5 : IVec S16 32) (v6 : IVec S16 32) (v7 : IVec S16 32) (v8 : IVec S16 32) (v9 : IVec S16 32) (v10 : IVec S16 32) (v542 : IVec S16 32), Decidable (k0_chk22 v3 v4 v5 v6 v7 v8 v9 v10 v542) := fun v3 v4 v5 v6 v7 v8 v9 v10 v542 => decidable_of_iff' _ (Iff.of_eq (k0_chk22.eq_1 v3 v4 v5 v6 v7 v8 v9 v10 v542))
theorem k0_idx169_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v3, v542] : Fin 2 → IVec S16 32) a x).toNat < S8x1024.size a := fun v3 v4 v5 v6 v7 v8 v9 v10 v542 k0_hw22 => k0_hw22.1
theorem k0_idx170_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v4, v542] : Fin 2 → IVec S16 32) a x).toNat < S8x1024.size a := fun v3 v4 v5 v6 v7 v8 v9 v10 v542 k0_hw22 => k0_hw22.2.1
theorem k0_idx171_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v5, v542] : Fin 2 → IVec S16 32) a x).toNat < S8x1024.size a := fun v3 v4 v5 v6 v7 v8 v9 v10 v542 k0_hw22 => k0_hw22.2.2.1
theorem k0_idx172_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v6, v542] : Fin 2 → IVec S16 32) a x).toNat < S8x1024.size a := fun v3 v4 v5 v6 v7 v8 v9 v10 v542 k0_hw22 => k0_hw22.2.2.2.1
theorem k0_idx173_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v7, v542] : Fin 2 → IVec S16 32) a x).toNat < S8x1024.size a := fun v3 v4 v5 v6 v7 v8 v9 v10 v542 k0_hw22 => k0_hw22.2.2.2.2.1
theorem k0_idx174_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v8, v542] : Fin 2 → IVec S16 32) a x).toNat < S8x1024.size a := fun v3 v4 v5 v6 v7 v8 v9 v10 v542 k0_hw22 => k0_hw22.2.2.2.2.2.1
theorem k0_idx175_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v9, v542] : Fin 2 → IVec S16 32) a x).toNat < S8x1024.size a := fun v3 v4 v5 v6 v7 v8 v9 v10 v542 k0_hw22 => k0_hw22.2.2.2.2.2.2.1
theorem k0_idx176_inb : ∀ (v3 : IVec S16 32) (v4 : IVec S16 32) (v5 : IVec S16 32) (v6 : IVec S16 32) (v7 : IVec S16 32) (v8 : IVec S16 32) (v9 : IVec S16 32) (v10 : IVec S16 32) (v542 : IVec S16 32) (k0_hw22 : k0_chk22 v3 v4 v5 v6 v7 v8 v9 v10 v542), ∀ a x, ((![v10, v542] : Fin 2 → IVec S16 32) a x).toNat < S8x1024.size a := fun v3 v4 v5 v6 v7 v8 v9 v10 v542 k0_hw22 => k0_hw22.2.2.2.2.2.2.2

def k0_chk23 (v3 : IVec S16 32) (v4 : IVec S16 32) (v5 : IVec S16 32) (v6 : IVec S16 32) (v7 : IVec S16 32) (v8 : IVec S16 32) (v9 : IVec S16 32) (v10 : IVec S16 32) (v567 : IVec S16 32) : Prop :=
  (∀ a x, ((![v3, v567] : Fin 2 → IVec S16 32) a x).toNat < S8x1024.size a) ∧
  (∀ a x, ((![v4, v567] : Fin 2 → IVec S16 32) a x).toNat < S8x1024.size a) ∧
  (∀ a x, ((![v5, v567] : Fin 2 → IVec S16 32) a x).toNat < S8x1024.size a) ∧
  (∀ a x, ((![v6, v567] : Fin 2 → IVec S16 32) a x).toNat < S8x1024.size a) ∧
  (∀ a x, ((![v7, v567] : Fin 2 → IVec S16 32) a x).toNat < S8x1024.size a) ∧
  (∀ a x, ((![v8, v567] : Fin 2 → IVec S16 32) a x).toNat < S8x1024.size a) ∧
  (∀ a x, ((![v9, v567] : Fin 2 → IVec S16 32) a x).toNat < S8x1024.size a) ∧
  (∀ a x, ((![v10, v567] : Fin 2 → IVec S16 32) a x).toNat < S8x1024.size a)
instance k0_chk23.dec : ∀ (v3 : IVec S16 32) (v4 : IVec S16 32) (v5 : IVec S16 32) (v6 : IVec S16 32) (v7 : IVec S16 32) (v8 : IVec S16 32) (v9 : IVec S16 32) (v10 : IVec S16 32) (v567 : IVec S16 32), Decidable (k0_chk23 v3 v4 v5 v6 v7 v8 v9 v10 v567) := fun v3 v4 v5 v6 v7 v8 v9 v10 v567 => decidable_of_iff' _ (Iff.of_eq (k0_chk23.eq_1 v3 v4 v5 v6 v7 v8 v9 v10 v567))
theorem k0_idx177_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v3, v567] : Fin 2 → IVec S16 32) a x).toNat < S8x1024.size a := fun v3 v4 v5 v6 v7 v8 v9 v10 v567 k0_hw23 => k0_hw23.1
theorem k0_idx178_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v4, v567] : Fin 2 → IVec S16 32) a x).toNat < S8x1024.size a := fun v3 v4 v5 v6 v7 v8 v9 v10 v567 k0_hw23 => k0_hw23.2.1
theorem k0_idx179_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v5, v567] : Fin 2 → IVec S16 32) a x).toNat < S8x1024.size a := fun v3 v4 v5 v6 v7 v8 v9 v10 v567 k0_hw23 => k0_hw23.2.2.1
theorem k0_idx180_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v6, v567] : Fin 2 → IVec S16 32) a x).toNat < S8x1024.size a := fun v3 v4 v5 v6 v7 v8 v9 v10 v567 k0_hw23 => k0_hw23.2.2.2.1
theorem k0_idx181_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v7, v567] : Fin 2 → IVec S16 32) a x).toNat < S8x1024.size a := fun v3 v4 v5 v6 v7 v8 v9 v10 v567 k0_hw23 => k0_hw23.2.2.2.2.1
theorem k0_idx182_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v8, v567] : Fin 2 → IVec S16 32) a x).toNat < S8x1024.size a := fun v3 v4 v5 v6 v7 v8 v9 v10 v567 k0_hw23 => k0_hw23.2.2.2.2.2.1
theorem k0_idx183_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v9, v567] : Fin 2 → IVec S16 32) a x).toNat < S8x1024.size a := fun v3 v4 v5 v6 v7 v8 v9 v10 v567 k0_hw23 => k0_hw23.2.2.2.2.2.2.1
theorem k0_idx184_inb : ∀ (v3 : IVec S16 32) (v4 : IVec S16 32) (v5 : IVec S16 32) (v6 : IVec S16 32) (v7 : IVec S16 32) (v8 : IVec S16 32) (v9 : IVec S16 32) (v10 : IVec S16 32) (v567 : IVec S16 32) (k0_hw23 : k0_chk23 v3 v4 v5 v6 v7 v8 v9 v10 v567), ∀ a x, ((![v10, v567] : Fin 2 → IVec S16 32) a x).toNat < S8x1024.size a := fun v3 v4 v5 v6 v7 v8 v9 v10 v567 k0_hw23 => k0_hw23.2.2.2.2.2.2.2

def k0_chk24 (v3 : IVec S16 32) (v4 : IVec S16 32) (v5 : IVec S16 32) (v6 : IVec S16 32) (v7 : IVec S16 32) (v8 : IVec S16 32) (v9 : IVec S16 32) (v10 : IVec S16 32) (v592 : IVec S16 32) : Prop :=
  (∀ a x, ((![v3, v592] : Fin 2 → IVec S16 32) a x).toNat < S8x1024.size a) ∧
  (∀ a x, ((![v4, v592] : Fin 2 → IVec S16 32) a x).toNat < S8x1024.size a) ∧
  (∀ a x, ((![v5, v592] : Fin 2 → IVec S16 32) a x).toNat < S8x1024.size a) ∧
  (∀ a x, ((![v6, v592] : Fin 2 → IVec S16 32) a x).toNat < S8x1024.size a) ∧
  (∀ a x, ((![v7, v592] : Fin 2 → IVec S16 32) a x).toNat < S8x1024.size a) ∧
  (∀ a x, ((![v8, v592] : Fin 2 → IVec S16 32) a x).toNat < S8x1024.size a) ∧
  (∀ a x, ((![v9, v592] : Fin 2 → IVec S16 32) a x).toNat < S8x1024.size a) ∧
  (∀ a x, ((![v10, v592] : Fin 2 → IVec S16 32) a x).toNat < S8x1024.size a)
instance k0_chk24.dec : ∀ (v3 : IVec S16 32) (v4 : IVec S16 32) (v5 : IVec S16 32) (v6 : IVec S16 32) (v7 : IVec S16 32) (v8 : IVec S16 32) (v9 : IVec S16 32) (v10 : IVec S16 32) (v592 : IVec S16 32), Decidable (k0_chk24 v3 v4 v5 v6 v7 v8 v9 v10 v592) := fun v3 v4 v5 v6 v7 v8 v9 v10 v592 => decidable_of_iff' _ (Iff.of_eq (k0_chk24.eq_1 v3 v4 v5 v6 v7 v8 v9 v10 v592))
theorem k0_idx185_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v3, v592] : Fin 2 → IVec S16 32) a x).toNat < S8x1024.size a := fun v3 v4 v5 v6 v7 v8 v9 v10 v592 k0_hw24 => k0_hw24.1
theorem k0_idx186_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v4, v592] : Fin 2 → IVec S16 32) a x).toNat < S8x1024.size a := fun v3 v4 v5 v6 v7 v8 v9 v10 v592 k0_hw24 => k0_hw24.2.1
theorem k0_idx187_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v5, v592] : Fin 2 → IVec S16 32) a x).toNat < S8x1024.size a := fun v3 v4 v5 v6 v7 v8 v9 v10 v592 k0_hw24 => k0_hw24.2.2.1
theorem k0_idx188_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v6, v592] : Fin 2 → IVec S16 32) a x).toNat < S8x1024.size a := fun v3 v4 v5 v6 v7 v8 v9 v10 v592 k0_hw24 => k0_hw24.2.2.2.1
theorem k0_idx189_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v7, v592] : Fin 2 → IVec S16 32) a x).toNat < S8x1024.size a := fun v3 v4 v5 v6 v7 v8 v9 v10 v592 k0_hw24 => k0_hw24.2.2.2.2.1
theorem k0_idx190_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v8, v592] : Fin 2 → IVec S16 32) a x).toNat < S8x1024.size a := fun v3 v4 v5 v6 v7 v8 v9 v10 v592 k0_hw24 => k0_hw24.2.2.2.2.2.1
theorem k0_idx191_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v9, v592] : Fin 2 → IVec S16 32) a x).toNat < S8x1024.size a := fun v3 v4 v5 v6 v7 v8 v9 v10 v592 k0_hw24 => k0_hw24.2.2.2.2.2.2.1
theorem k0_idx192_inb : ∀ (v3 : IVec S16 32) (v4 : IVec S16 32) (v5 : IVec S16 32) (v6 : IVec S16 32) (v7 : IVec S16 32) (v8 : IVec S16 32) (v9 : IVec S16 32) (v10 : IVec S16 32) (v592 : IVec S16 32) (k0_hw24 : k0_chk24 v3 v4 v5 v6 v7 v8 v9 v10 v592), ∀ a x, ((![v10, v592] : Fin 2 → IVec S16 32) a x).toNat < S8x1024.size a := fun v3 v4 v5 v6 v7 v8 v9 v10 v592 k0_hw24 => k0_hw24.2.2.2.2.2.2.2

def k0_chk25 (v3 : IVec S16 32) (v4 : IVec S16 32) (v5 : IVec S16 32) (v6 : IVec S16 32) (v7 : IVec S16 32) (v8 : IVec S16 32) (v9 : IVec S16 32) (v10 : IVec S16 32) (v617 : IVec S16 32) : Prop :=
  (∀ a x, ((![v3, v617] : Fin 2 → IVec S16 32) a x).toNat < S8x1024.size a) ∧
  (∀ a x, ((![v4, v617] : Fin 2 → IVec S16 32) a x).toNat < S8x1024.size a) ∧
  (∀ a x, ((![v5, v617] : Fin 2 → IVec S16 32) a x).toNat < S8x1024.size a) ∧
  (∀ a x, ((![v6, v617] : Fin 2 → IVec S16 32) a x).toNat < S8x1024.size a) ∧
  (∀ a x, ((![v7, v617] : Fin 2 → IVec S16 32) a x).toNat < S8x1024.size a) ∧
  (∀ a x, ((![v8, v617] : Fin 2 → IVec S16 32) a x).toNat < S8x1024.size a) ∧
  (∀ a x, ((![v9, v617] : Fin 2 → IVec S16 32) a x).toNat < S8x1024.size a) ∧
  (∀ a x, ((![v10, v617] : Fin 2 → IVec S16 32) a x).toNat < S8x1024.size a)
instance k0_chk25.dec : ∀ (v3 : IVec S16 32) (v4 : IVec S16 32) (v5 : IVec S16 32) (v6 : IVec S16 32) (v7 : IVec S16 32) (v8 : IVec S16 32) (v9 : IVec S16 32) (v10 : IVec S16 32) (v617 : IVec S16 32), Decidable (k0_chk25 v3 v4 v5 v6 v7 v8 v9 v10 v617) := fun v3 v4 v5 v6 v7 v8 v9 v10 v617 => decidable_of_iff' _ (Iff.of_eq (k0_chk25.eq_1 v3 v4 v5 v6 v7 v8 v9 v10 v617))
theorem k0_idx193_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v3, v617] : Fin 2 → IVec S16 32) a x).toNat < S8x1024.size a := fun v3 v4 v5 v6 v7 v8 v9 v10 v617 k0_hw25 => k0_hw25.1
theorem k0_idx194_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v4, v617] : Fin 2 → IVec S16 32) a x).toNat < S8x1024.size a := fun v3 v4 v5 v6 v7 v8 v9 v10 v617 k0_hw25 => k0_hw25.2.1
theorem k0_idx195_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v5, v617] : Fin 2 → IVec S16 32) a x).toNat < S8x1024.size a := fun v3 v4 v5 v6 v7 v8 v9 v10 v617 k0_hw25 => k0_hw25.2.2.1
theorem k0_idx196_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v6, v617] : Fin 2 → IVec S16 32) a x).toNat < S8x1024.size a := fun v3 v4 v5 v6 v7 v8 v9 v10 v617 k0_hw25 => k0_hw25.2.2.2.1
theorem k0_idx197_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v7, v617] : Fin 2 → IVec S16 32) a x).toNat < S8x1024.size a := fun v3 v4 v5 v6 v7 v8 v9 v10 v617 k0_hw25 => k0_hw25.2.2.2.2.1
theorem k0_idx198_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v8, v617] : Fin 2 → IVec S16 32) a x).toNat < S8x1024.size a := fun v3 v4 v5 v6 v7 v8 v9 v10 v617 k0_hw25 => k0_hw25.2.2.2.2.2.1
theorem k0_idx199_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v9, v617] : Fin 2 → IVec S16 32) a x).toNat < S8x1024.size a := fun v3 v4 v5 v6 v7 v8 v9 v10 v617 k0_hw25 => k0_hw25.2.2.2.2.2.2.1
theorem k0_idx200_inb : ∀ (v3 : IVec S16 32) (v4 : IVec S16 32) (v5 : IVec S16 32) (v6 : IVec S16 32) (v7 : IVec S16 32) (v8 : IVec S16 32) (v9 : IVec S16 32) (v10 : IVec S16 32) (v617 : IVec S16 32) (k0_hw25 : k0_chk25 v3 v4 v5 v6 v7 v8 v9 v10 v617), ∀ a x, ((![v10, v617] : Fin 2 → IVec S16 32) a x).toNat < S8x1024.size a := fun v3 v4 v5 v6 v7 v8 v9 v10 v617 k0_hw25 => k0_hw25.2.2.2.2.2.2.2

def k0_chk26 (v3 : IVec S16 32) (v4 : IVec S16 32) (v5 : IVec S16 32) (v6 : IVec S16 32) (v7 : IVec S16 32) (v8 : IVec S16 32) (v9 : IVec S16 32) (v10 : IVec S16 32) (v642 : IVec S16 32) : Prop :=
  (∀ a x, ((![v3, v642] : Fin 2 → IVec S16 32) a x).toNat < S8x1024.size a) ∧
  (∀ a x, ((![v4, v642] : Fin 2 → IVec S16 32) a x).toNat < S8x1024.size a) ∧
  (∀ a x, ((![v5, v642] : Fin 2 → IVec S16 32) a x).toNat < S8x1024.size a) ∧
  (∀ a x, ((![v6, v642] : Fin 2 → IVec S16 32) a x).toNat < S8x1024.size a) ∧
  (∀ a x, ((![v7, v642] : Fin 2 → IVec S16 32) a x).toNat < S8x1024.size a) ∧
  (∀ a x, ((![v8, v642] : Fin 2 → IVec S16 32) a x).toNat < S8x1024.size a) ∧
  (∀ a x, ((![v9, v642] : Fin 2 → IVec S16 32) a x).toNat < S8x1024.size a) ∧
  (∀ a x, ((![v10, v642] : Fin 2 → IVec S16 32) a x).toNat < S8x1024.size a)
instance k0_chk26.dec : ∀ (v3 : IVec S16 32) (v4 : IVec S16 32) (v5 : IVec S16 32) (v6 : IVec S16 32) (v7 : IVec S16 32) (v8 : IVec S16 32) (v9 : IVec S16 32) (v10 : IVec S16 32) (v642 : IVec S16 32), Decidable (k0_chk26 v3 v4 v5 v6 v7 v8 v9 v10 v642) := fun v3 v4 v5 v6 v7 v8 v9 v10 v642 => decidable_of_iff' _ (Iff.of_eq (k0_chk26.eq_1 v3 v4 v5 v6 v7 v8 v9 v10 v642))
theorem k0_idx201_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v3, v642] : Fin 2 → IVec S16 32) a x).toNat < S8x1024.size a := fun v3 v4 v5 v6 v7 v8 v9 v10 v642 k0_hw26 => k0_hw26.1
theorem k0_idx202_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v4, v642] : Fin 2 → IVec S16 32) a x).toNat < S8x1024.size a := fun v3 v4 v5 v6 v7 v8 v9 v10 v642 k0_hw26 => k0_hw26.2.1
theorem k0_idx203_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v5, v642] : Fin 2 → IVec S16 32) a x).toNat < S8x1024.size a := fun v3 v4 v5 v6 v7 v8 v9 v10 v642 k0_hw26 => k0_hw26.2.2.1
theorem k0_idx204_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v6, v642] : Fin 2 → IVec S16 32) a x).toNat < S8x1024.size a := fun v3 v4 v5 v6 v7 v8 v9 v10 v642 k0_hw26 => k0_hw26.2.2.2.1
theorem k0_idx205_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v7, v642] : Fin 2 → IVec S16 32) a x).toNat < S8x1024.size a := fun v3 v4 v5 v6 v7 v8 v9 v10 v642 k0_hw26 => k0_hw26.2.2.2.2.1
theorem k0_idx206_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v8, v642] : Fin 2 → IVec S16 32) a x).toNat < S8x1024.size a := fun v3 v4 v5 v6 v7 v8 v9 v10 v642 k0_hw26 => k0_hw26.2.2.2.2.2.1
theorem k0_idx207_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v9, v642] : Fin 2 → IVec S16 32) a x).toNat < S8x1024.size a := fun v3 v4 v5 v6 v7 v8 v9 v10 v642 k0_hw26 => k0_hw26.2.2.2.2.2.2.1
theorem k0_idx208_inb : ∀ (v3 : IVec S16 32) (v4 : IVec S16 32) (v5 : IVec S16 32) (v6 : IVec S16 32) (v7 : IVec S16 32) (v8 : IVec S16 32) (v9 : IVec S16 32) (v10 : IVec S16 32) (v642 : IVec S16 32) (k0_hw26 : k0_chk26 v3 v4 v5 v6 v7 v8 v9 v10 v642), ∀ a x, ((![v10, v642] : Fin 2 → IVec S16 32) a x).toNat < S8x1024.size a := fun v3 v4 v5 v6 v7 v8 v9 v10 v642 k0_hw26 => k0_hw26.2.2.2.2.2.2.2

def k0_chk27 (v3 : IVec S16 32) (v4 : IVec S16 32) (v5 : IVec S16 32) (v6 : IVec S16 32) (v7 : IVec S16 32) (v8 : IVec S16 32) (v9 : IVec S16 32) (v10 : IVec S16 32) (v667 : IVec S16 32) : Prop :=
  (∀ a x, ((![v3, v667] : Fin 2 → IVec S16 32) a x).toNat < S8x1024.size a) ∧
  (∀ a x, ((![v4, v667] : Fin 2 → IVec S16 32) a x).toNat < S8x1024.size a) ∧
  (∀ a x, ((![v5, v667] : Fin 2 → IVec S16 32) a x).toNat < S8x1024.size a) ∧
  (∀ a x, ((![v6, v667] : Fin 2 → IVec S16 32) a x).toNat < S8x1024.size a) ∧
  (∀ a x, ((![v7, v667] : Fin 2 → IVec S16 32) a x).toNat < S8x1024.size a) ∧
  (∀ a x, ((![v8, v667] : Fin 2 → IVec S16 32) a x).toNat < S8x1024.size a) ∧
  (∀ a x, ((![v9, v667] : Fin 2 → IVec S16 32) a x).toNat < S8x1024.size a) ∧
  (∀ a x, ((![v10, v667] : Fin 2 → IVec S16 32) a x).toNat < S8x1024.size a)
instance k0_chk27.dec : ∀ (v3 : IVec S16 32) (v4 : IVec S16 32) (v5 : IVec S16 32) (v6 : IVec S16 32) (v7 : IVec S16 32) (v8 : IVec S16 32) (v9 : IVec S16 32) (v10 : IVec S16 32) (v667 : IVec S16 32), Decidable (k0_chk27 v3 v4 v5 v6 v7 v8 v9 v10 v667) := fun v3 v4 v5 v6 v7 v8 v9 v10 v667 => decidable_of_iff' _ (Iff.of_eq (k0_chk27.eq_1 v3 v4 v5 v6 v7 v8 v9 v10 v667))
theorem k0_idx209_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v3, v667] : Fin 2 → IVec S16 32) a x).toNat < S8x1024.size a := fun v3 v4 v5 v6 v7 v8 v9 v10 v667 k0_hw27 => k0_hw27.1
theorem k0_idx210_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v4, v667] : Fin 2 → IVec S16 32) a x).toNat < S8x1024.size a := fun v3 v4 v5 v6 v7 v8 v9 v10 v667 k0_hw27 => k0_hw27.2.1
theorem k0_idx211_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v5, v667] : Fin 2 → IVec S16 32) a x).toNat < S8x1024.size a := fun v3 v4 v5 v6 v7 v8 v9 v10 v667 k0_hw27 => k0_hw27.2.2.1
theorem k0_idx212_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v6, v667] : Fin 2 → IVec S16 32) a x).toNat < S8x1024.size a := fun v3 v4 v5 v6 v7 v8 v9 v10 v667 k0_hw27 => k0_hw27.2.2.2.1
theorem k0_idx213_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v7, v667] : Fin 2 → IVec S16 32) a x).toNat < S8x1024.size a := fun v3 v4 v5 v6 v7 v8 v9 v10 v667 k0_hw27 => k0_hw27.2.2.2.2.1
theorem k0_idx214_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v8, v667] : Fin 2 → IVec S16 32) a x).toNat < S8x1024.size a := fun v3 v4 v5 v6 v7 v8 v9 v10 v667 k0_hw27 => k0_hw27.2.2.2.2.2.1
theorem k0_idx215_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v9, v667] : Fin 2 → IVec S16 32) a x).toNat < S8x1024.size a := fun v3 v4 v5 v6 v7 v8 v9 v10 v667 k0_hw27 => k0_hw27.2.2.2.2.2.2.1
theorem k0_idx216_inb : ∀ (v3 : IVec S16 32) (v4 : IVec S16 32) (v5 : IVec S16 32) (v6 : IVec S16 32) (v7 : IVec S16 32) (v8 : IVec S16 32) (v9 : IVec S16 32) (v10 : IVec S16 32) (v667 : IVec S16 32) (k0_hw27 : k0_chk27 v3 v4 v5 v6 v7 v8 v9 v10 v667), ∀ a x, ((![v10, v667] : Fin 2 → IVec S16 32) a x).toNat < S8x1024.size a := fun v3 v4 v5 v6 v7 v8 v9 v10 v667 k0_hw27 => k0_hw27.2.2.2.2.2.2.2

def k0_chk28 (v3 : IVec S16 32) (v4 : IVec S16 32) (v5 : IVec S16 32) (v6 : IVec S16 32) (v7 : IVec S16 32) (v8 : IVec S16 32) (v9 : IVec S16 32) (v10 : IVec S16 32) (v692 : IVec S16 32) : Prop :=
  (∀ a x, ((![v3, v692] : Fin 2 → IVec S16 32) a x).toNat < S8x1024.size a) ∧
  (∀ a x, ((![v4, v692] : Fin 2 → IVec S16 32) a x).toNat < S8x1024.size a) ∧
  (∀ a x, ((![v5, v692] : Fin 2 → IVec S16 32) a x).toNat < S8x1024.size a) ∧
  (∀ a x, ((![v6, v692] : Fin 2 → IVec S16 32) a x).toNat < S8x1024.size a) ∧
  (∀ a x, ((![v7, v692] : Fin 2 → IVec S16 32) a x).toNat < S8x1024.size a) ∧
  (∀ a x, ((![v8, v692] : Fin 2 → IVec S16 32) a x).toNat < S8x1024.size a) ∧
  (∀ a x, ((![v9, v692] : Fin 2 → IVec S16 32) a x).toNat < S8x1024.size a) ∧
  (∀ a x, ((![v10, v692] : Fin 2 → IVec S16 32) a x).toNat < S8x1024.size a)
instance k0_chk28.dec : ∀ (v3 : IVec S16 32) (v4 : IVec S16 32) (v5 : IVec S16 32) (v6 : IVec S16 32) (v7 : IVec S16 32) (v8 : IVec S16 32) (v9 : IVec S16 32) (v10 : IVec S16 32) (v692 : IVec S16 32), Decidable (k0_chk28 v3 v4 v5 v6 v7 v8 v9 v10 v692) := fun v3 v4 v5 v6 v7 v8 v9 v10 v692 => decidable_of_iff' _ (Iff.of_eq (k0_chk28.eq_1 v3 v4 v5 v6 v7 v8 v9 v10 v692))
theorem k0_idx217_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v3, v692] : Fin 2 → IVec S16 32) a x).toNat < S8x1024.size a := fun v3 v4 v5 v6 v7 v8 v9 v10 v692 k0_hw28 => k0_hw28.1
theorem k0_idx218_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v4, v692] : Fin 2 → IVec S16 32) a x).toNat < S8x1024.size a := fun v3 v4 v5 v6 v7 v8 v9 v10 v692 k0_hw28 => k0_hw28.2.1
theorem k0_idx219_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v5, v692] : Fin 2 → IVec S16 32) a x).toNat < S8x1024.size a := fun v3 v4 v5 v6 v7 v8 v9 v10 v692 k0_hw28 => k0_hw28.2.2.1
theorem k0_idx220_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v6, v692] : Fin 2 → IVec S16 32) a x).toNat < S8x1024.size a := fun v3 v4 v5 v6 v7 v8 v9 v10 v692 k0_hw28 => k0_hw28.2.2.2.1
theorem k0_idx221_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v7, v692] : Fin 2 → IVec S16 32) a x).toNat < S8x1024.size a := fun v3 v4 v5 v6 v7 v8 v9 v10 v692 k0_hw28 => k0_hw28.2.2.2.2.1
theorem k0_idx222_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v8, v692] : Fin 2 → IVec S16 32) a x).toNat < S8x1024.size a := fun v3 v4 v5 v6 v7 v8 v9 v10 v692 k0_hw28 => k0_hw28.2.2.2.2.2.1
theorem k0_idx223_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v9, v692] : Fin 2 → IVec S16 32) a x).toNat < S8x1024.size a := fun v3 v4 v5 v6 v7 v8 v9 v10 v692 k0_hw28 => k0_hw28.2.2.2.2.2.2.1
theorem k0_idx224_inb : ∀ (v3 : IVec S16 32) (v4 : IVec S16 32) (v5 : IVec S16 32) (v6 : IVec S16 32) (v7 : IVec S16 32) (v8 : IVec S16 32) (v9 : IVec S16 32) (v10 : IVec S16 32) (v692 : IVec S16 32) (k0_hw28 : k0_chk28 v3 v4 v5 v6 v7 v8 v9 v10 v692), ∀ a x, ((![v10, v692] : Fin 2 → IVec S16 32) a x).toNat < S8x1024.size a := fun v3 v4 v5 v6 v7 v8 v9 v10 v692 k0_hw28 => k0_hw28.2.2.2.2.2.2.2

def k0_chk29 (v3 : IVec S16 32) (v4 : IVec S16 32) (v5 : IVec S16 32) (v6 : IVec S16 32) (v7 : IVec S16 32) (v8 : IVec S16 32) (v9 : IVec S16 32) (v10 : IVec S16 32) (v717 : IVec S16 32) : Prop :=
  (∀ a x, ((![v3, v717] : Fin 2 → IVec S16 32) a x).toNat < S8x1024.size a) ∧
  (∀ a x, ((![v4, v717] : Fin 2 → IVec S16 32) a x).toNat < S8x1024.size a) ∧
  (∀ a x, ((![v5, v717] : Fin 2 → IVec S16 32) a x).toNat < S8x1024.size a) ∧
  (∀ a x, ((![v6, v717] : Fin 2 → IVec S16 32) a x).toNat < S8x1024.size a) ∧
  (∀ a x, ((![v7, v717] : Fin 2 → IVec S16 32) a x).toNat < S8x1024.size a) ∧
  (∀ a x, ((![v8, v717] : Fin 2 → IVec S16 32) a x).toNat < S8x1024.size a) ∧
  (∀ a x, ((![v9, v717] : Fin 2 → IVec S16 32) a x).toNat < S8x1024.size a) ∧
  (∀ a x, ((![v10, v717] : Fin 2 → IVec S16 32) a x).toNat < S8x1024.size a)
instance k0_chk29.dec : ∀ (v3 : IVec S16 32) (v4 : IVec S16 32) (v5 : IVec S16 32) (v6 : IVec S16 32) (v7 : IVec S16 32) (v8 : IVec S16 32) (v9 : IVec S16 32) (v10 : IVec S16 32) (v717 : IVec S16 32), Decidable (k0_chk29 v3 v4 v5 v6 v7 v8 v9 v10 v717) := fun v3 v4 v5 v6 v7 v8 v9 v10 v717 => decidable_of_iff' _ (Iff.of_eq (k0_chk29.eq_1 v3 v4 v5 v6 v7 v8 v9 v10 v717))
theorem k0_idx225_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v3, v717] : Fin 2 → IVec S16 32) a x).toNat < S8x1024.size a := fun v3 v4 v5 v6 v7 v8 v9 v10 v717 k0_hw29 => k0_hw29.1
theorem k0_idx226_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v4, v717] : Fin 2 → IVec S16 32) a x).toNat < S8x1024.size a := fun v3 v4 v5 v6 v7 v8 v9 v10 v717 k0_hw29 => k0_hw29.2.1
theorem k0_idx227_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v5, v717] : Fin 2 → IVec S16 32) a x).toNat < S8x1024.size a := fun v3 v4 v5 v6 v7 v8 v9 v10 v717 k0_hw29 => k0_hw29.2.2.1
theorem k0_idx228_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v6, v717] : Fin 2 → IVec S16 32) a x).toNat < S8x1024.size a := fun v3 v4 v5 v6 v7 v8 v9 v10 v717 k0_hw29 => k0_hw29.2.2.2.1
theorem k0_idx229_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v7, v717] : Fin 2 → IVec S16 32) a x).toNat < S8x1024.size a := fun v3 v4 v5 v6 v7 v8 v9 v10 v717 k0_hw29 => k0_hw29.2.2.2.2.1
theorem k0_idx230_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v8, v717] : Fin 2 → IVec S16 32) a x).toNat < S8x1024.size a := fun v3 v4 v5 v6 v7 v8 v9 v10 v717 k0_hw29 => k0_hw29.2.2.2.2.2.1
theorem k0_idx231_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v9, v717] : Fin 2 → IVec S16 32) a x).toNat < S8x1024.size a := fun v3 v4 v5 v6 v7 v8 v9 v10 v717 k0_hw29 => k0_hw29.2.2.2.2.2.2.1
theorem k0_idx232_inb : ∀ (v3 : IVec S16 32) (v4 : IVec S16 32) (v5 : IVec S16 32) (v6 : IVec S16 32) (v7 : IVec S16 32) (v8 : IVec S16 32) (v9 : IVec S16 32) (v10 : IVec S16 32) (v717 : IVec S16 32) (k0_hw29 : k0_chk29 v3 v4 v5 v6 v7 v8 v9 v10 v717), ∀ a x, ((![v10, v717] : Fin 2 → IVec S16 32) a x).toNat < S8x1024.size a := fun v3 v4 v5 v6 v7 v8 v9 v10 v717 k0_hw29 => k0_hw29.2.2.2.2.2.2.2

def k0_chk30 (v3 : IVec S16 32) (v4 : IVec S16 32) (v5 : IVec S16 32) (v6 : IVec S16 32) (v7 : IVec S16 32) (v8 : IVec S16 32) (v9 : IVec S16 32) (v10 : IVec S16 32) (v742 : IVec S16 32) : Prop :=
  (∀ a x, ((![v3, v742] : Fin 2 → IVec S16 32) a x).toNat < S8x1024.size a) ∧
  (∀ a x, ((![v4, v742] : Fin 2 → IVec S16 32) a x).toNat < S8x1024.size a) ∧
  (∀ a x, ((![v5, v742] : Fin 2 → IVec S16 32) a x).toNat < S8x1024.size a) ∧
  (∀ a x, ((![v6, v742] : Fin 2 → IVec S16 32) a x).toNat < S8x1024.size a) ∧
  (∀ a x, ((![v7, v742] : Fin 2 → IVec S16 32) a x).toNat < S8x1024.size a) ∧
  (∀ a x, ((![v8, v742] : Fin 2 → IVec S16 32) a x).toNat < S8x1024.size a) ∧
  (∀ a x, ((![v9, v742] : Fin 2 → IVec S16 32) a x).toNat < S8x1024.size a) ∧
  (∀ a x, ((![v10, v742] : Fin 2 → IVec S16 32) a x).toNat < S8x1024.size a)
instance k0_chk30.dec : ∀ (v3 : IVec S16 32) (v4 : IVec S16 32) (v5 : IVec S16 32) (v6 : IVec S16 32) (v7 : IVec S16 32) (v8 : IVec S16 32) (v9 : IVec S16 32) (v10 : IVec S16 32) (v742 : IVec S16 32), Decidable (k0_chk30 v3 v4 v5 v6 v7 v8 v9 v10 v742) := fun v3 v4 v5 v6 v7 v8 v9 v10 v742 => decidable_of_iff' _ (Iff.of_eq (k0_chk30.eq_1 v3 v4 v5 v6 v7 v8 v9 v10 v742))
theorem k0_idx233_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v3, v742] : Fin 2 → IVec S16 32) a x).toNat < S8x1024.size a := fun v3 v4 v5 v6 v7 v8 v9 v10 v742 k0_hw30 => k0_hw30.1
theorem k0_idx234_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v4, v742] : Fin 2 → IVec S16 32) a x).toNat < S8x1024.size a := fun v3 v4 v5 v6 v7 v8 v9 v10 v742 k0_hw30 => k0_hw30.2.1
theorem k0_idx235_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v5, v742] : Fin 2 → IVec S16 32) a x).toNat < S8x1024.size a := fun v3 v4 v5 v6 v7 v8 v9 v10 v742 k0_hw30 => k0_hw30.2.2.1
theorem k0_idx236_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v6, v742] : Fin 2 → IVec S16 32) a x).toNat < S8x1024.size a := fun v3 v4 v5 v6 v7 v8 v9 v10 v742 k0_hw30 => k0_hw30.2.2.2.1
theorem k0_idx237_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v7, v742] : Fin 2 → IVec S16 32) a x).toNat < S8x1024.size a := fun v3 v4 v5 v6 v7 v8 v9 v10 v742 k0_hw30 => k0_hw30.2.2.2.2.1
theorem k0_idx238_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v8, v742] : Fin 2 → IVec S16 32) a x).toNat < S8x1024.size a := fun v3 v4 v5 v6 v7 v8 v9 v10 v742 k0_hw30 => k0_hw30.2.2.2.2.2.1
theorem k0_idx239_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v9, v742] : Fin 2 → IVec S16 32) a x).toNat < S8x1024.size a := fun v3 v4 v5 v6 v7 v8 v9 v10 v742 k0_hw30 => k0_hw30.2.2.2.2.2.2.1
theorem k0_idx240_inb : ∀ (v3 : IVec S16 32) (v4 : IVec S16 32) (v5 : IVec S16 32) (v6 : IVec S16 32) (v7 : IVec S16 32) (v8 : IVec S16 32) (v9 : IVec S16 32) (v10 : IVec S16 32) (v742 : IVec S16 32) (k0_hw30 : k0_chk30 v3 v4 v5 v6 v7 v8 v9 v10 v742), ∀ a x, ((![v10, v742] : Fin 2 → IVec S16 32) a x).toNat < S8x1024.size a := fun v3 v4 v5 v6 v7 v8 v9 v10 v742 k0_hw30 => k0_hw30.2.2.2.2.2.2.2

def k0_chk31 (v3 : IVec S16 32) (v4 : IVec S16 32) (v5 : IVec S16 32) (v6 : IVec S16 32) (v7 : IVec S16 32) (v8 : IVec S16 32) (v9 : IVec S16 32) (v10 : IVec S16 32) (v767 : IVec S16 32) : Prop :=
  (∀ a x, ((![v3, v767] : Fin 2 → IVec S16 32) a x).toNat < S8x1024.size a) ∧
  (∀ a x, ((![v4, v767] : Fin 2 → IVec S16 32) a x).toNat < S8x1024.size a) ∧
  (∀ a x, ((![v5, v767] : Fin 2 → IVec S16 32) a x).toNat < S8x1024.size a) ∧
  (∀ a x, ((![v6, v767] : Fin 2 → IVec S16 32) a x).toNat < S8x1024.size a) ∧
  (∀ a x, ((![v7, v767] : Fin 2 → IVec S16 32) a x).toNat < S8x1024.size a) ∧
  (∀ a x, ((![v8, v767] : Fin 2 → IVec S16 32) a x).toNat < S8x1024.size a) ∧
  (∀ a x, ((![v9, v767] : Fin 2 → IVec S16 32) a x).toNat < S8x1024.size a) ∧
  (∀ a x, ((![v10, v767] : Fin 2 → IVec S16 32) a x).toNat < S8x1024.size a)
instance k0_chk31.dec : ∀ (v3 : IVec S16 32) (v4 : IVec S16 32) (v5 : IVec S16 32) (v6 : IVec S16 32) (v7 : IVec S16 32) (v8 : IVec S16 32) (v9 : IVec S16 32) (v10 : IVec S16 32) (v767 : IVec S16 32), Decidable (k0_chk31 v3 v4 v5 v6 v7 v8 v9 v10 v767) := fun v3 v4 v5 v6 v7 v8 v9 v10 v767 => decidable_of_iff' _ (Iff.of_eq (k0_chk31.eq_1 v3 v4 v5 v6 v7 v8 v9 v10 v767))
theorem k0_idx241_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v3, v767] : Fin 2 → IVec S16 32) a x).toNat < S8x1024.size a := fun v3 v4 v5 v6 v7 v8 v9 v10 v767 k0_hw31 => k0_hw31.1
theorem k0_idx242_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v4, v767] : Fin 2 → IVec S16 32) a x).toNat < S8x1024.size a := fun v3 v4 v5 v6 v7 v8 v9 v10 v767 k0_hw31 => k0_hw31.2.1
theorem k0_idx243_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v5, v767] : Fin 2 → IVec S16 32) a x).toNat < S8x1024.size a := fun v3 v4 v5 v6 v7 v8 v9 v10 v767 k0_hw31 => k0_hw31.2.2.1
theorem k0_idx244_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v6, v767] : Fin 2 → IVec S16 32) a x).toNat < S8x1024.size a := fun v3 v4 v5 v6 v7 v8 v9 v10 v767 k0_hw31 => k0_hw31.2.2.2.1
theorem k0_idx245_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v7, v767] : Fin 2 → IVec S16 32) a x).toNat < S8x1024.size a := fun v3 v4 v5 v6 v7 v8 v9 v10 v767 k0_hw31 => k0_hw31.2.2.2.2.1
theorem k0_idx246_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v8, v767] : Fin 2 → IVec S16 32) a x).toNat < S8x1024.size a := fun v3 v4 v5 v6 v7 v8 v9 v10 v767 k0_hw31 => k0_hw31.2.2.2.2.2.1
theorem k0_idx247_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v9, v767] : Fin 2 → IVec S16 32) a x).toNat < S8x1024.size a := fun v3 v4 v5 v6 v7 v8 v9 v10 v767 k0_hw31 => k0_hw31.2.2.2.2.2.2.1
theorem k0_idx248_inb : ∀ (v3 : IVec S16 32) (v4 : IVec S16 32) (v5 : IVec S16 32) (v6 : IVec S16 32) (v7 : IVec S16 32) (v8 : IVec S16 32) (v9 : IVec S16 32) (v10 : IVec S16 32) (v767 : IVec S16 32) (k0_hw31 : k0_chk31 v3 v4 v5 v6 v7 v8 v9 v10 v767), ∀ a x, ((![v10, v767] : Fin 2 → IVec S16 32) a x).toNat < S8x1024.size a := fun v3 v4 v5 v6 v7 v8 v9 v10 v767 k0_hw31 => k0_hw31.2.2.2.2.2.2.2

def k0_chk32 (v3 : IVec S16 32) (v4 : IVec S16 32) (v5 : IVec S16 32) (v6 : IVec S16 32) (v7 : IVec S16 32) (v8 : IVec S16 32) (v9 : IVec S16 32) (v10 : IVec S16 32) (v792 : IVec S16 32) : Prop :=
  (∀ a x, ((![v3, v792] : Fin 2 → IVec S16 32) a x).toNat < S8x1024.size a) ∧
  (∀ a x, ((![v4, v792] : Fin 2 → IVec S16 32) a x).toNat < S8x1024.size a) ∧
  (∀ a x, ((![v5, v792] : Fin 2 → IVec S16 32) a x).toNat < S8x1024.size a) ∧
  (∀ a x, ((![v6, v792] : Fin 2 → IVec S16 32) a x).toNat < S8x1024.size a) ∧
  (∀ a x, ((![v7, v792] : Fin 2 → IVec S16 32) a x).toNat < S8x1024.size a) ∧
  (∀ a x, ((![v8, v792] : Fin 2 → IVec S16 32) a x).toNat < S8x1024.size a) ∧
  (∀ a x, ((![v9, v792] : Fin 2 → IVec S16 32) a x).toNat < S8x1024.size a) ∧
  (∀ a x, ((![v10, v792] : Fin 2 → IVec S16 32) a x).toNat < S8x1024.size a)
instance k0_chk32.dec : ∀ (v3 : IVec S16 32) (v4 : IVec S16 32) (v5 : IVec S16 32) (v6 : IVec S16 32) (v7 : IVec S16 32) (v8 : IVec S16 32) (v9 : IVec S16 32) (v10 : IVec S16 32) (v792 : IVec S16 32), Decidable (k0_chk32 v3 v4 v5 v6 v7 v8 v9 v10 v792) := fun v3 v4 v5 v6 v7 v8 v9 v10 v792 => decidable_of_iff' _ (Iff.of_eq (k0_chk32.eq_1 v3 v4 v5 v6 v7 v8 v9 v10 v792))
theorem k0_idx249_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v3, v792] : Fin 2 → IVec S16 32) a x).toNat < S8x1024.size a := fun v3 v4 v5 v6 v7 v8 v9 v10 v792 k0_hw32 => k0_hw32.1
theorem k0_idx250_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v4, v792] : Fin 2 → IVec S16 32) a x).toNat < S8x1024.size a := fun v3 v4 v5 v6 v7 v8 v9 v10 v792 k0_hw32 => k0_hw32.2.1
theorem k0_idx251_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v5, v792] : Fin 2 → IVec S16 32) a x).toNat < S8x1024.size a := fun v3 v4 v5 v6 v7 v8 v9 v10 v792 k0_hw32 => k0_hw32.2.2.1
theorem k0_idx252_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v6, v792] : Fin 2 → IVec S16 32) a x).toNat < S8x1024.size a := fun v3 v4 v5 v6 v7 v8 v9 v10 v792 k0_hw32 => k0_hw32.2.2.2.1
theorem k0_idx253_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v7, v792] : Fin 2 → IVec S16 32) a x).toNat < S8x1024.size a := fun v3 v4 v5 v6 v7 v8 v9 v10 v792 k0_hw32 => k0_hw32.2.2.2.2.1
theorem k0_idx254_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v8, v792] : Fin 2 → IVec S16 32) a x).toNat < S8x1024.size a := fun v3 v4 v5 v6 v7 v8 v9 v10 v792 k0_hw32 => k0_hw32.2.2.2.2.2.1
theorem k0_idx255_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v9, v792] : Fin 2 → IVec S16 32) a x).toNat < S8x1024.size a := fun v3 v4 v5 v6 v7 v8 v9 v10 v792 k0_hw32 => k0_hw32.2.2.2.2.2.2.1
theorem k0_idx256_inb : ∀ (v3 : IVec S16 32) (v4 : IVec S16 32) (v5 : IVec S16 32) (v6 : IVec S16 32) (v7 : IVec S16 32) (v8 : IVec S16 32) (v9 : IVec S16 32) (v10 : IVec S16 32) (v792 : IVec S16 32) (k0_hw32 : k0_chk32 v3 v4 v5 v6 v7 v8 v9 v10 v792), ∀ a x, ((![v10, v792] : Fin 2 → IVec S16 32) a x).toNat < S8x1024.size a := fun v3 v4 v5 v6 v7 v8 v9 v10 v792 k0_hw32 => k0_hw32.2.2.2.2.2.2.2

def k0_chk33 (v3 : IVec S16 32) (v4 : IVec S16 32) (v5 : IVec S16 32) (v6 : IVec S16 32) (v7 : IVec S16 32) (v8 : IVec S16 32) (v9 : IVec S16 32) (v10 : IVec S16 32) (v817 : IVec S16 32) : Prop :=
  (∀ a x, ((![v3, v817] : Fin 2 → IVec S16 32) a x).toNat < S8x1024.size a) ∧
  (∀ a x, ((![v4, v817] : Fin 2 → IVec S16 32) a x).toNat < S8x1024.size a) ∧
  (∀ a x, ((![v5, v817] : Fin 2 → IVec S16 32) a x).toNat < S8x1024.size a) ∧
  (∀ a x, ((![v6, v817] : Fin 2 → IVec S16 32) a x).toNat < S8x1024.size a) ∧
  (∀ a x, ((![v7, v817] : Fin 2 → IVec S16 32) a x).toNat < S8x1024.size a) ∧
  (∀ a x, ((![v8, v817] : Fin 2 → IVec S16 32) a x).toNat < S8x1024.size a) ∧
  (∀ a x, ((![v9, v817] : Fin 2 → IVec S16 32) a x).toNat < S8x1024.size a) ∧
  (∀ a x, ((![v10, v817] : Fin 2 → IVec S16 32) a x).toNat < S8x1024.size a)
instance k0_chk33.dec : ∀ (v3 : IVec S16 32) (v4 : IVec S16 32) (v5 : IVec S16 32) (v6 : IVec S16 32) (v7 : IVec S16 32) (v8 : IVec S16 32) (v9 : IVec S16 32) (v10 : IVec S16 32) (v817 : IVec S16 32), Decidable (k0_chk33 v3 v4 v5 v6 v7 v8 v9 v10 v817) := fun v3 v4 v5 v6 v7 v8 v9 v10 v817 => decidable_of_iff' _ (Iff.of_eq (k0_chk33.eq_1 v3 v4 v5 v6 v7 v8 v9 v10 v817))
theorem k0_idx257_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v3, v817] : Fin 2 → IVec S16 32) a x).toNat < S8x1024.size a := fun v3 v4 v5 v6 v7 v8 v9 v10 v817 k0_hw33 => k0_hw33.1
theorem k0_idx258_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v4, v817] : Fin 2 → IVec S16 32) a x).toNat < S8x1024.size a := fun v3 v4 v5 v6 v7 v8 v9 v10 v817 k0_hw33 => k0_hw33.2.1
theorem k0_idx259_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v5, v817] : Fin 2 → IVec S16 32) a x).toNat < S8x1024.size a := fun v3 v4 v5 v6 v7 v8 v9 v10 v817 k0_hw33 => k0_hw33.2.2.1
theorem k0_idx260_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v6, v817] : Fin 2 → IVec S16 32) a x).toNat < S8x1024.size a := fun v3 v4 v5 v6 v7 v8 v9 v10 v817 k0_hw33 => k0_hw33.2.2.2.1
theorem k0_idx261_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v7, v817] : Fin 2 → IVec S16 32) a x).toNat < S8x1024.size a := fun v3 v4 v5 v6 v7 v8 v9 v10 v817 k0_hw33 => k0_hw33.2.2.2.2.1
theorem k0_idx262_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v8, v817] : Fin 2 → IVec S16 32) a x).toNat < S8x1024.size a := fun v3 v4 v5 v6 v7 v8 v9 v10 v817 k0_hw33 => k0_hw33.2.2.2.2.2.1
theorem k0_idx263_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v9, v817] : Fin 2 → IVec S16 32) a x).toNat < S8x1024.size a := fun v3 v4 v5 v6 v7 v8 v9 v10 v817 k0_hw33 => k0_hw33.2.2.2.2.2.2.1
theorem k0_idx264_inb : ∀ (v3 : IVec S16 32) (v4 : IVec S16 32) (v5 : IVec S16 32) (v6 : IVec S16 32) (v7 : IVec S16 32) (v8 : IVec S16 32) (v9 : IVec S16 32) (v10 : IVec S16 32) (v817 : IVec S16 32) (k0_hw33 : k0_chk33 v3 v4 v5 v6 v7 v8 v9 v10 v817), ∀ a x, ((![v10, v817] : Fin 2 → IVec S16 32) a x).toNat < S8x1024.size a := fun v3 v4 v5 v6 v7 v8 v9 v10 v817 k0_hw33 => k0_hw33.2.2.2.2.2.2.2

def k0_chk34 (v3 : IVec S16 32) (v4 : IVec S16 32) (v5 : IVec S16 32) (v6 : IVec S16 32) (v7 : IVec S16 32) (v8 : IVec S16 32) (v9 : IVec S16 32) (v10 : IVec S16 32) (v842 : IVec S16 32) : Prop :=
  (∀ a x, ((![v3, v842] : Fin 2 → IVec S16 32) a x).toNat < S8x1024.size a) ∧
  (∀ a x, ((![v4, v842] : Fin 2 → IVec S16 32) a x).toNat < S8x1024.size a) ∧
  (∀ a x, ((![v5, v842] : Fin 2 → IVec S16 32) a x).toNat < S8x1024.size a) ∧
  (∀ a x, ((![v6, v842] : Fin 2 → IVec S16 32) a x).toNat < S8x1024.size a) ∧
  (∀ a x, ((![v7, v842] : Fin 2 → IVec S16 32) a x).toNat < S8x1024.size a) ∧
  (∀ a x, ((![v8, v842] : Fin 2 → IVec S16 32) a x).toNat < S8x1024.size a) ∧
  (∀ a x, ((![v9, v842] : Fin 2 → IVec S16 32) a x).toNat < S8x1024.size a) ∧
  (∀ a x, ((![v10, v842] : Fin 2 → IVec S16 32) a x).toNat < S8x1024.size a)
instance k0_chk34.dec : ∀ (v3 : IVec S16 32) (v4 : IVec S16 32) (v5 : IVec S16 32) (v6 : IVec S16 32) (v7 : IVec S16 32) (v8 : IVec S16 32) (v9 : IVec S16 32) (v10 : IVec S16 32) (v842 : IVec S16 32), Decidable (k0_chk34 v3 v4 v5 v6 v7 v8 v9 v10 v842) := fun v3 v4 v5 v6 v7 v8 v9 v10 v842 => decidable_of_iff' _ (Iff.of_eq (k0_chk34.eq_1 v3 v4 v5 v6 v7 v8 v9 v10 v842))
theorem k0_idx265_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v3, v842] : Fin 2 → IVec S16 32) a x).toNat < S8x1024.size a := fun v3 v4 v5 v6 v7 v8 v9 v10 v842 k0_hw34 => k0_hw34.1
theorem k0_idx266_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v4, v842] : Fin 2 → IVec S16 32) a x).toNat < S8x1024.size a := fun v3 v4 v5 v6 v7 v8 v9 v10 v842 k0_hw34 => k0_hw34.2.1
theorem k0_idx267_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v5, v842] : Fin 2 → IVec S16 32) a x).toNat < S8x1024.size a := fun v3 v4 v5 v6 v7 v8 v9 v10 v842 k0_hw34 => k0_hw34.2.2.1
theorem k0_idx268_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v6, v842] : Fin 2 → IVec S16 32) a x).toNat < S8x1024.size a := fun v3 v4 v5 v6 v7 v8 v9 v10 v842 k0_hw34 => k0_hw34.2.2.2.1
theorem k0_idx269_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v7, v842] : Fin 2 → IVec S16 32) a x).toNat < S8x1024.size a := fun v3 v4 v5 v6 v7 v8 v9 v10 v842 k0_hw34 => k0_hw34.2.2.2.2.1
theorem k0_idx270_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v8, v842] : Fin 2 → IVec S16 32) a x).toNat < S8x1024.size a := fun v3 v4 v5 v6 v7 v8 v9 v10 v842 k0_hw34 => k0_hw34.2.2.2.2.2.1
theorem k0_idx271_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v9, v842] : Fin 2 → IVec S16 32) a x).toNat < S8x1024.size a := fun v3 v4 v5 v6 v7 v8 v9 v10 v842 k0_hw34 => k0_hw34.2.2.2.2.2.2.1
theorem k0_idx272_inb : ∀ (v3 : IVec S16 32) (v4 : IVec S16 32) (v5 : IVec S16 32) (v6 : IVec S16 32) (v7 : IVec S16 32) (v8 : IVec S16 32) (v9 : IVec S16 32) (v10 : IVec S16 32) (v842 : IVec S16 32) (k0_hw34 : k0_chk34 v3 v4 v5 v6 v7 v8 v9 v10 v842), ∀ a x, ((![v10, v842] : Fin 2 → IVec S16 32) a x).toNat < S8x1024.size a := fun v3 v4 v5 v6 v7 v8 v9 v10 v842 k0_hw34 => k0_hw34.2.2.2.2.2.2.2

def k0_chk35 (v3 : IVec S16 32) (v4 : IVec S16 32) (v5 : IVec S16 32) (v6 : IVec S16 32) (v7 : IVec S16 32) (v8 : IVec S16 32) (v9 : IVec S16 32) (v10 : IVec S16 32) (v867 : IVec S16 32) : Prop :=
  (∀ a x, ((![v3, v867] : Fin 2 → IVec S16 32) a x).toNat < S8x1024.size a) ∧
  (∀ a x, ((![v4, v867] : Fin 2 → IVec S16 32) a x).toNat < S8x1024.size a) ∧
  (∀ a x, ((![v5, v867] : Fin 2 → IVec S16 32) a x).toNat < S8x1024.size a) ∧
  (∀ a x, ((![v6, v867] : Fin 2 → IVec S16 32) a x).toNat < S8x1024.size a) ∧
  (∀ a x, ((![v7, v867] : Fin 2 → IVec S16 32) a x).toNat < S8x1024.size a) ∧
  (∀ a x, ((![v8, v867] : Fin 2 → IVec S16 32) a x).toNat < S8x1024.size a) ∧
  (∀ a x, ((![v9, v867] : Fin 2 → IVec S16 32) a x).toNat < S8x1024.size a) ∧
  (∀ a x, ((![v10, v867] : Fin 2 → IVec S16 32) a x).toNat < S8x1024.size a)
instance k0_chk35.dec : ∀ (v3 : IVec S16 32) (v4 : IVec S16 32) (v5 : IVec S16 32) (v6 : IVec S16 32) (v7 : IVec S16 32) (v8 : IVec S16 32) (v9 : IVec S16 32) (v10 : IVec S16 32) (v867 : IVec S16 32), Decidable (k0_chk35 v3 v4 v5 v6 v7 v8 v9 v10 v867) := fun v3 v4 v5 v6 v7 v8 v9 v10 v867 => decidable_of_iff' _ (Iff.of_eq (k0_chk35.eq_1 v3 v4 v5 v6 v7 v8 v9 v10 v867))
theorem k0_idx273_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v3, v867] : Fin 2 → IVec S16 32) a x).toNat < S8x1024.size a := fun v3 v4 v5 v6 v7 v8 v9 v10 v867 k0_hw35 => k0_hw35.1
theorem k0_idx274_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v4, v867] : Fin 2 → IVec S16 32) a x).toNat < S8x1024.size a := fun v3 v4 v5 v6 v7 v8 v9 v10 v867 k0_hw35 => k0_hw35.2.1
theorem k0_idx275_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v5, v867] : Fin 2 → IVec S16 32) a x).toNat < S8x1024.size a := fun v3 v4 v5 v6 v7 v8 v9 v10 v867 k0_hw35 => k0_hw35.2.2.1
theorem k0_idx276_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v6, v867] : Fin 2 → IVec S16 32) a x).toNat < S8x1024.size a := fun v3 v4 v5 v6 v7 v8 v9 v10 v867 k0_hw35 => k0_hw35.2.2.2.1
theorem k0_idx277_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v7, v867] : Fin 2 → IVec S16 32) a x).toNat < S8x1024.size a := fun v3 v4 v5 v6 v7 v8 v9 v10 v867 k0_hw35 => k0_hw35.2.2.2.2.1
theorem k0_idx278_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v8, v867] : Fin 2 → IVec S16 32) a x).toNat < S8x1024.size a := fun v3 v4 v5 v6 v7 v8 v9 v10 v867 k0_hw35 => k0_hw35.2.2.2.2.2.1
theorem k0_idx279_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v9, v867] : Fin 2 → IVec S16 32) a x).toNat < S8x1024.size a := fun v3 v4 v5 v6 v7 v8 v9 v10 v867 k0_hw35 => k0_hw35.2.2.2.2.2.2.1
theorem k0_idx280_inb : ∀ (v3 : IVec S16 32) (v4 : IVec S16 32) (v5 : IVec S16 32) (v6 : IVec S16 32) (v7 : IVec S16 32) (v8 : IVec S16 32) (v9 : IVec S16 32) (v10 : IVec S16 32) (v867 : IVec S16 32) (k0_hw35 : k0_chk35 v3 v4 v5 v6 v7 v8 v9 v10 v867), ∀ a x, ((![v10, v867] : Fin 2 → IVec S16 32) a x).toNat < S8x1024.size a := fun v3 v4 v5 v6 v7 v8 v9 v10 v867 k0_hw35 => k0_hw35.2.2.2.2.2.2.2

def k0_chk36 (v3 : IVec S16 32) (v4 : IVec S16 32) (v5 : IVec S16 32) (v6 : IVec S16 32) (v7 : IVec S16 32) (v8 : IVec S16 32) (v9 : IVec S16 32) (v10 : IVec S16 32) (v892 : IVec S16 32) : Prop :=
  (∀ a x, ((![v3, v892] : Fin 2 → IVec S16 32) a x).toNat < S8x1024.size a) ∧
  (∀ a x, ((![v4, v892] : Fin 2 → IVec S16 32) a x).toNat < S8x1024.size a) ∧
  (∀ a x, ((![v5, v892] : Fin 2 → IVec S16 32) a x).toNat < S8x1024.size a) ∧
  (∀ a x, ((![v6, v892] : Fin 2 → IVec S16 32) a x).toNat < S8x1024.size a) ∧
  (∀ a x, ((![v7, v892] : Fin 2 → IVec S16 32) a x).toNat < S8x1024.size a) ∧
  (∀ a x, ((![v8, v892] : Fin 2 → IVec S16 32) a x).toNat < S8x1024.size a) ∧
  (∀ a x, ((![v9, v892] : Fin 2 → IVec S16 32) a x).toNat < S8x1024.size a) ∧
  (∀ a x, ((![v10, v892] : Fin 2 → IVec S16 32) a x).toNat < S8x1024.size a)
instance k0_chk36.dec : ∀ (v3 : IVec S16 32) (v4 : IVec S16 32) (v5 : IVec S16 32) (v6 : IVec S16 32) (v7 : IVec S16 32) (v8 : IVec S16 32) (v9 : IVec S16 32) (v10 : IVec S16 32) (v892 : IVec S16 32), Decidable (k0_chk36 v3 v4 v5 v6 v7 v8 v9 v10 v892) := fun v3 v4 v5 v6 v7 v8 v9 v10 v892 => decidable_of_iff' _ (Iff.of_eq (k0_chk36.eq_1 v3 v4 v5 v6 v7 v8 v9 v10 v892))
theorem k0_idx281_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v3, v892] : Fin 2 → IVec S16 32) a x).toNat < S8x1024.size a := fun v3 v4 v5 v6 v7 v8 v9 v10 v892 k0_hw36 => k0_hw36.1
theorem k0_idx282_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v4, v892] : Fin 2 → IVec S16 32) a x).toNat < S8x1024.size a := fun v3 v4 v5 v6 v7 v8 v9 v10 v892 k0_hw36 => k0_hw36.2.1
theorem k0_idx283_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v5, v892] : Fin 2 → IVec S16 32) a x).toNat < S8x1024.size a := fun v3 v4 v5 v6 v7 v8 v9 v10 v892 k0_hw36 => k0_hw36.2.2.1
theorem k0_idx284_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v6, v892] : Fin 2 → IVec S16 32) a x).toNat < S8x1024.size a := fun v3 v4 v5 v6 v7 v8 v9 v10 v892 k0_hw36 => k0_hw36.2.2.2.1
theorem k0_idx285_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v7, v892] : Fin 2 → IVec S16 32) a x).toNat < S8x1024.size a := fun v3 v4 v5 v6 v7 v8 v9 v10 v892 k0_hw36 => k0_hw36.2.2.2.2.1
theorem k0_idx286_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v8, v892] : Fin 2 → IVec S16 32) a x).toNat < S8x1024.size a := fun v3 v4 v5 v6 v7 v8 v9 v10 v892 k0_hw36 => k0_hw36.2.2.2.2.2.1
theorem k0_idx287_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v9, v892] : Fin 2 → IVec S16 32) a x).toNat < S8x1024.size a := fun v3 v4 v5 v6 v7 v8 v9 v10 v892 k0_hw36 => k0_hw36.2.2.2.2.2.2.1
theorem k0_idx288_inb : ∀ (v3 : IVec S16 32) (v4 : IVec S16 32) (v5 : IVec S16 32) (v6 : IVec S16 32) (v7 : IVec S16 32) (v8 : IVec S16 32) (v9 : IVec S16 32) (v10 : IVec S16 32) (v892 : IVec S16 32) (k0_hw36 : k0_chk36 v3 v4 v5 v6 v7 v8 v9 v10 v892), ∀ a x, ((![v10, v892] : Fin 2 → IVec S16 32) a x).toNat < S8x1024.size a := fun v3 v4 v5 v6 v7 v8 v9 v10 v892 k0_hw36 => k0_hw36.2.2.2.2.2.2.2

def k0_chk37 (v3 : IVec S16 32) (v4 : IVec S16 32) (v5 : IVec S16 32) (v6 : IVec S16 32) (v7 : IVec S16 32) (v8 : IVec S16 32) (v9 : IVec S16 32) (v10 : IVec S16 32) (v917 : IVec S16 32) : Prop :=
  (∀ a x, ((![v3, v917] : Fin 2 → IVec S16 32) a x).toNat < S8x1024.size a) ∧
  (∀ a x, ((![v4, v917] : Fin 2 → IVec S16 32) a x).toNat < S8x1024.size a) ∧
  (∀ a x, ((![v5, v917] : Fin 2 → IVec S16 32) a x).toNat < S8x1024.size a) ∧
  (∀ a x, ((![v6, v917] : Fin 2 → IVec S16 32) a x).toNat < S8x1024.size a) ∧
  (∀ a x, ((![v7, v917] : Fin 2 → IVec S16 32) a x).toNat < S8x1024.size a) ∧
  (∀ a x, ((![v8, v917] : Fin 2 → IVec S16 32) a x).toNat < S8x1024.size a) ∧
  (∀ a x, ((![v9, v917] : Fin 2 → IVec S16 32) a x).toNat < S8x1024.size a) ∧
  (∀ a x, ((![v10, v917] : Fin 2 → IVec S16 32) a x).toNat < S8x1024.size a)
instance k0_chk37.dec : ∀ (v3 : IVec S16 32) (v4 : IVec S16 32) (v5 : IVec S16 32) (v6 : IVec S16 32) (v7 : IVec S16 32) (v8 : IVec S16 32) (v9 : IVec S16 32) (v10 : IVec S16 32) (v917 : IVec S16 32), Decidable (k0_chk37 v3 v4 v5 v6 v7 v8 v9 v10 v917) := fun v3 v4 v5 v6 v7 v8 v9 v10 v917 => decidable_of_iff' _ (Iff.of_eq (k0_chk37.eq_1 v3 v4 v5 v6 v7 v8 v9 v10 v917))
theorem k0_idx289_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v3, v917] : Fin 2 → IVec S16 32) a x).toNat < S8x1024.size a := fun v3 v4 v5 v6 v7 v8 v9 v10 v917 k0_hw37 => k0_hw37.1
theorem k0_idx290_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v4, v917] : Fin 2 → IVec S16 32) a x).toNat < S8x1024.size a := fun v3 v4 v5 v6 v7 v8 v9 v10 v917 k0_hw37 => k0_hw37.2.1
theorem k0_idx291_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v5, v917] : Fin 2 → IVec S16 32) a x).toNat < S8x1024.size a := fun v3 v4 v5 v6 v7 v8 v9 v10 v917 k0_hw37 => k0_hw37.2.2.1
theorem k0_idx292_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v6, v917] : Fin 2 → IVec S16 32) a x).toNat < S8x1024.size a := fun v3 v4 v5 v6 v7 v8 v9 v10 v917 k0_hw37 => k0_hw37.2.2.2.1
theorem k0_idx293_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v7, v917] : Fin 2 → IVec S16 32) a x).toNat < S8x1024.size a := fun v3 v4 v5 v6 v7 v8 v9 v10 v917 k0_hw37 => k0_hw37.2.2.2.2.1
theorem k0_idx294_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v8, v917] : Fin 2 → IVec S16 32) a x).toNat < S8x1024.size a := fun v3 v4 v5 v6 v7 v8 v9 v10 v917 k0_hw37 => k0_hw37.2.2.2.2.2.1
theorem k0_idx295_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v9, v917] : Fin 2 → IVec S16 32) a x).toNat < S8x1024.size a := fun v3 v4 v5 v6 v7 v8 v9 v10 v917 k0_hw37 => k0_hw37.2.2.2.2.2.2.1
theorem k0_idx296_inb : ∀ (v3 : IVec S16 32) (v4 : IVec S16 32) (v5 : IVec S16 32) (v6 : IVec S16 32) (v7 : IVec S16 32) (v8 : IVec S16 32) (v9 : IVec S16 32) (v10 : IVec S16 32) (v917 : IVec S16 32) (k0_hw37 : k0_chk37 v3 v4 v5 v6 v7 v8 v9 v10 v917), ∀ a x, ((![v10, v917] : Fin 2 → IVec S16 32) a x).toNat < S8x1024.size a := fun v3 v4 v5 v6 v7 v8 v9 v10 v917 k0_hw37 => k0_hw37.2.2.2.2.2.2.2

def k0_chk38 (v3 : IVec S16 32) (v4 : IVec S16 32) (v5 : IVec S16 32) (v6 : IVec S16 32) (v7 : IVec S16 32) (v8 : IVec S16 32) (v9 : IVec S16 32) (v10 : IVec S16 32) (v942 : IVec S16 32) : Prop :=
  (∀ a x, ((![v3, v942] : Fin 2 → IVec S16 32) a x).toNat < S8x1024.size a) ∧
  (∀ a x, ((![v4, v942] : Fin 2 → IVec S16 32) a x).toNat < S8x1024.size a) ∧
  (∀ a x, ((![v5, v942] : Fin 2 → IVec S16 32) a x).toNat < S8x1024.size a) ∧
  (∀ a x, ((![v6, v942] : Fin 2 → IVec S16 32) a x).toNat < S8x1024.size a) ∧
  (∀ a x, ((![v7, v942] : Fin 2 → IVec S16 32) a x).toNat < S8x1024.size a) ∧
  (∀ a x, ((![v8, v942] : Fin 2 → IVec S16 32) a x).toNat < S8x1024.size a) ∧
  (∀ a x, ((![v9, v942] : Fin 2 → IVec S16 32) a x).toNat < S8x1024.size a) ∧
  (∀ a x, ((![v10, v942] : Fin 2 → IVec S16 32) a x).toNat < S8x1024.size a)
instance k0_chk38.dec : ∀ (v3 : IVec S16 32) (v4 : IVec S16 32) (v5 : IVec S16 32) (v6 : IVec S16 32) (v7 : IVec S16 32) (v8 : IVec S16 32) (v9 : IVec S16 32) (v10 : IVec S16 32) (v942 : IVec S16 32), Decidable (k0_chk38 v3 v4 v5 v6 v7 v8 v9 v10 v942) := fun v3 v4 v5 v6 v7 v8 v9 v10 v942 => decidable_of_iff' _ (Iff.of_eq (k0_chk38.eq_1 v3 v4 v5 v6 v7 v8 v9 v10 v942))
theorem k0_idx297_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v3, v942] : Fin 2 → IVec S16 32) a x).toNat < S8x1024.size a := fun v3 v4 v5 v6 v7 v8 v9 v10 v942 k0_hw38 => k0_hw38.1
theorem k0_idx298_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v4, v942] : Fin 2 → IVec S16 32) a x).toNat < S8x1024.size a := fun v3 v4 v5 v6 v7 v8 v9 v10 v942 k0_hw38 => k0_hw38.2.1
theorem k0_idx299_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v5, v942] : Fin 2 → IVec S16 32) a x).toNat < S8x1024.size a := fun v3 v4 v5 v6 v7 v8 v9 v10 v942 k0_hw38 => k0_hw38.2.2.1
theorem k0_idx300_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v6, v942] : Fin 2 → IVec S16 32) a x).toNat < S8x1024.size a := fun v3 v4 v5 v6 v7 v8 v9 v10 v942 k0_hw38 => k0_hw38.2.2.2.1
theorem k0_idx301_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v7, v942] : Fin 2 → IVec S16 32) a x).toNat < S8x1024.size a := fun v3 v4 v5 v6 v7 v8 v9 v10 v942 k0_hw38 => k0_hw38.2.2.2.2.1
theorem k0_idx302_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v8, v942] : Fin 2 → IVec S16 32) a x).toNat < S8x1024.size a := fun v3 v4 v5 v6 v7 v8 v9 v10 v942 k0_hw38 => k0_hw38.2.2.2.2.2.1
theorem k0_idx303_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v9, v942] : Fin 2 → IVec S16 32) a x).toNat < S8x1024.size a := fun v3 v4 v5 v6 v7 v8 v9 v10 v942 k0_hw38 => k0_hw38.2.2.2.2.2.2.1
theorem k0_idx304_inb : ∀ (v3 : IVec S16 32) (v4 : IVec S16 32) (v5 : IVec S16 32) (v6 : IVec S16 32) (v7 : IVec S16 32) (v8 : IVec S16 32) (v9 : IVec S16 32) (v10 : IVec S16 32) (v942 : IVec S16 32) (k0_hw38 : k0_chk38 v3 v4 v5 v6 v7 v8 v9 v10 v942), ∀ a x, ((![v10, v942] : Fin 2 → IVec S16 32) a x).toNat < S8x1024.size a := fun v3 v4 v5 v6 v7 v8 v9 v10 v942 k0_hw38 => k0_hw38.2.2.2.2.2.2.2

def k0_chk39 (v3 : IVec S16 32) (v4 : IVec S16 32) (v5 : IVec S16 32) (v6 : IVec S16 32) (v7 : IVec S16 32) (v8 : IVec S16 32) (v9 : IVec S16 32) (v10 : IVec S16 32) (v967 : IVec S16 32) : Prop :=
  (∀ a x, ((![v3, v967] : Fin 2 → IVec S16 32) a x).toNat < S8x1024.size a) ∧
  (∀ a x, ((![v4, v967] : Fin 2 → IVec S16 32) a x).toNat < S8x1024.size a) ∧
  (∀ a x, ((![v5, v967] : Fin 2 → IVec S16 32) a x).toNat < S8x1024.size a) ∧
  (∀ a x, ((![v6, v967] : Fin 2 → IVec S16 32) a x).toNat < S8x1024.size a) ∧
  (∀ a x, ((![v7, v967] : Fin 2 → IVec S16 32) a x).toNat < S8x1024.size a) ∧
  (∀ a x, ((![v8, v967] : Fin 2 → IVec S16 32) a x).toNat < S8x1024.size a) ∧
  (∀ a x, ((![v9, v967] : Fin 2 → IVec S16 32) a x).toNat < S8x1024.size a) ∧
  (∀ a x, ((![v10, v967] : Fin 2 → IVec S16 32) a x).toNat < S8x1024.size a)
instance k0_chk39.dec : ∀ (v3 : IVec S16 32) (v4 : IVec S16 32) (v5 : IVec S16 32) (v6 : IVec S16 32) (v7 : IVec S16 32) (v8 : IVec S16 32) (v9 : IVec S16 32) (v10 : IVec S16 32) (v967 : IVec S16 32), Decidable (k0_chk39 v3 v4 v5 v6 v7 v8 v9 v10 v967) := fun v3 v4 v5 v6 v7 v8 v9 v10 v967 => decidable_of_iff' _ (Iff.of_eq (k0_chk39.eq_1 v3 v4 v5 v6 v7 v8 v9 v10 v967))
theorem k0_idx305_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v3, v967] : Fin 2 → IVec S16 32) a x).toNat < S8x1024.size a := fun v3 v4 v5 v6 v7 v8 v9 v10 v967 k0_hw39 => k0_hw39.1
theorem k0_idx306_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v4, v967] : Fin 2 → IVec S16 32) a x).toNat < S8x1024.size a := fun v3 v4 v5 v6 v7 v8 v9 v10 v967 k0_hw39 => k0_hw39.2.1
theorem k0_idx307_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v5, v967] : Fin 2 → IVec S16 32) a x).toNat < S8x1024.size a := fun v3 v4 v5 v6 v7 v8 v9 v10 v967 k0_hw39 => k0_hw39.2.2.1
theorem k0_idx308_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v6, v967] : Fin 2 → IVec S16 32) a x).toNat < S8x1024.size a := fun v3 v4 v5 v6 v7 v8 v9 v10 v967 k0_hw39 => k0_hw39.2.2.2.1
theorem k0_idx309_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v7, v967] : Fin 2 → IVec S16 32) a x).toNat < S8x1024.size a := fun v3 v4 v5 v6 v7 v8 v9 v10 v967 k0_hw39 => k0_hw39.2.2.2.2.1
theorem k0_idx310_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v8, v967] : Fin 2 → IVec S16 32) a x).toNat < S8x1024.size a := fun v3 v4 v5 v6 v7 v8 v9 v10 v967 k0_hw39 => k0_hw39.2.2.2.2.2.1
theorem k0_idx311_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v9, v967] : Fin 2 → IVec S16 32) a x).toNat < S8x1024.size a := fun v3 v4 v5 v6 v7 v8 v9 v10 v967 k0_hw39 => k0_hw39.2.2.2.2.2.2.1
theorem k0_idx312_inb : ∀ (v3 : IVec S16 32) (v4 : IVec S16 32) (v5 : IVec S16 32) (v6 : IVec S16 32) (v7 : IVec S16 32) (v8 : IVec S16 32) (v9 : IVec S16 32) (v10 : IVec S16 32) (v967 : IVec S16 32) (k0_hw39 : k0_chk39 v3 v4 v5 v6 v7 v8 v9 v10 v967), ∀ a x, ((![v10, v967] : Fin 2 → IVec S16 32) a x).toNat < S8x1024.size a := fun v3 v4 v5 v6 v7 v8 v9 v10 v967 k0_hw39 => k0_hw39.2.2.2.2.2.2.2

def k0_chk40 (v3 : IVec S16 32) (v4 : IVec S16 32) (v5 : IVec S16 32) (v6 : IVec S16 32) (v7 : IVec S16 32) (v8 : IVec S16 32) (v9 : IVec S16 32) (v10 : IVec S16 32) (v992 : IVec S16 32) : Prop :=
  (∀ a x, ((![v3, v992] : Fin 2 → IVec S16 32) a x).toNat < S8x1024.size a) ∧
  (∀ a x, ((![v4, v992] : Fin 2 → IVec S16 32) a x).toNat < S8x1024.size a) ∧
  (∀ a x, ((![v5, v992] : Fin 2 → IVec S16 32) a x).toNat < S8x1024.size a) ∧
  (∀ a x, ((![v6, v992] : Fin 2 → IVec S16 32) a x).toNat < S8x1024.size a) ∧
  (∀ a x, ((![v7, v992] : Fin 2 → IVec S16 32) a x).toNat < S8x1024.size a) ∧
  (∀ a x, ((![v8, v992] : Fin 2 → IVec S16 32) a x).toNat < S8x1024.size a) ∧
  (∀ a x, ((![v9, v992] : Fin 2 → IVec S16 32) a x).toNat < S8x1024.size a) ∧
  (∀ a x, ((![v10, v992] : Fin 2 → IVec S16 32) a x).toNat < S8x1024.size a)
instance k0_chk40.dec : ∀ (v3 : IVec S16 32) (v4 : IVec S16 32) (v5 : IVec S16 32) (v6 : IVec S16 32) (v7 : IVec S16 32) (v8 : IVec S16 32) (v9 : IVec S16 32) (v10 : IVec S16 32) (v992 : IVec S16 32), Decidable (k0_chk40 v3 v4 v5 v6 v7 v8 v9 v10 v992) := fun v3 v4 v5 v6 v7 v8 v9 v10 v992 => decidable_of_iff' _ (Iff.of_eq (k0_chk40.eq_1 v3 v4 v5 v6 v7 v8 v9 v10 v992))
theorem k0_idx313_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v3, v992] : Fin 2 → IVec S16 32) a x).toNat < S8x1024.size a := fun v3 v4 v5 v6 v7 v8 v9 v10 v992 k0_hw40 => k0_hw40.1
theorem k0_idx314_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v4, v992] : Fin 2 → IVec S16 32) a x).toNat < S8x1024.size a := fun v3 v4 v5 v6 v7 v8 v9 v10 v992 k0_hw40 => k0_hw40.2.1
theorem k0_idx315_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v5, v992] : Fin 2 → IVec S16 32) a x).toNat < S8x1024.size a := fun v3 v4 v5 v6 v7 v8 v9 v10 v992 k0_hw40 => k0_hw40.2.2.1
theorem k0_idx316_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v6, v992] : Fin 2 → IVec S16 32) a x).toNat < S8x1024.size a := fun v3 v4 v5 v6 v7 v8 v9 v10 v992 k0_hw40 => k0_hw40.2.2.2.1
theorem k0_idx317_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v7, v992] : Fin 2 → IVec S16 32) a x).toNat < S8x1024.size a := fun v3 v4 v5 v6 v7 v8 v9 v10 v992 k0_hw40 => k0_hw40.2.2.2.2.1
theorem k0_idx318_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v8, v992] : Fin 2 → IVec S16 32) a x).toNat < S8x1024.size a := fun v3 v4 v5 v6 v7 v8 v9 v10 v992 k0_hw40 => k0_hw40.2.2.2.2.2.1
theorem k0_idx319_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v9, v992] : Fin 2 → IVec S16 32) a x).toNat < S8x1024.size a := fun v3 v4 v5 v6 v7 v8 v9 v10 v992 k0_hw40 => k0_hw40.2.2.2.2.2.2.1
theorem k0_idx320_inb : ∀ (v3 : IVec S16 32) (v4 : IVec S16 32) (v5 : IVec S16 32) (v6 : IVec S16 32) (v7 : IVec S16 32) (v8 : IVec S16 32) (v9 : IVec S16 32) (v10 : IVec S16 32) (v992 : IVec S16 32) (k0_hw40 : k0_chk40 v3 v4 v5 v6 v7 v8 v9 v10 v992), ∀ a x, ((![v10, v992] : Fin 2 → IVec S16 32) a x).toNat < S8x1024.size a := fun v3 v4 v5 v6 v7 v8 v9 v10 v992 k0_hw40 => k0_hw40.2.2.2.2.2.2.2

def k0_chk41 (v3 : IVec S16 32) (v4 : IVec S16 32) (v5 : IVec S16 32) (v6 : IVec S16 32) (v7 : IVec S16 32) (v8 : IVec S16 32) (v9 : IVec S16 32) (v10 : IVec S16 32) (v1017 : IVec S16 32) : Prop :=
  (∀ a x, ((![v3, v1017] : Fin 2 → IVec S16 32) a x).toNat < S8x1024.size a) ∧
  (∀ a x, ((![v4, v1017] : Fin 2 → IVec S16 32) a x).toNat < S8x1024.size a) ∧
  (∀ a x, ((![v5, v1017] : Fin 2 → IVec S16 32) a x).toNat < S8x1024.size a) ∧
  (∀ a x, ((![v6, v1017] : Fin 2 → IVec S16 32) a x).toNat < S8x1024.size a) ∧
  (∀ a x, ((![v7, v1017] : Fin 2 → IVec S16 32) a x).toNat < S8x1024.size a) ∧
  (∀ a x, ((![v8, v1017] : Fin 2 → IVec S16 32) a x).toNat < S8x1024.size a) ∧
  (∀ a x, ((![v9, v1017] : Fin 2 → IVec S16 32) a x).toNat < S8x1024.size a) ∧
  (∀ a x, ((![v10, v1017] : Fin 2 → IVec S16 32) a x).toNat < S8x1024.size a)
instance k0_chk41.dec : ∀ (v3 : IVec S16 32) (v4 : IVec S16 32) (v5 : IVec S16 32) (v6 : IVec S16 32) (v7 : IVec S16 32) (v8 : IVec S16 32) (v9 : IVec S16 32) (v10 : IVec S16 32) (v1017 : IVec S16 32), Decidable (k0_chk41 v3 v4 v5 v6 v7 v8 v9 v10 v1017) := fun v3 v4 v5 v6 v7 v8 v9 v10 v1017 => decidable_of_iff' _ (Iff.of_eq (k0_chk41.eq_1 v3 v4 v5 v6 v7 v8 v9 v10 v1017))
theorem k0_idx321_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v3, v1017] : Fin 2 → IVec S16 32) a x).toNat < S8x1024.size a := fun v3 v4 v5 v6 v7 v8 v9 v10 v1017 k0_hw41 => k0_hw41.1
theorem k0_idx322_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v4, v1017] : Fin 2 → IVec S16 32) a x).toNat < S8x1024.size a := fun v3 v4 v5 v6 v7 v8 v9 v10 v1017 k0_hw41 => k0_hw41.2.1
theorem k0_idx323_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v5, v1017] : Fin 2 → IVec S16 32) a x).toNat < S8x1024.size a := fun v3 v4 v5 v6 v7 v8 v9 v10 v1017 k0_hw41 => k0_hw41.2.2.1
theorem k0_idx324_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v6, v1017] : Fin 2 → IVec S16 32) a x).toNat < S8x1024.size a := fun v3 v4 v5 v6 v7 v8 v9 v10 v1017 k0_hw41 => k0_hw41.2.2.2.1
theorem k0_idx325_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v7, v1017] : Fin 2 → IVec S16 32) a x).toNat < S8x1024.size a := fun v3 v4 v5 v6 v7 v8 v9 v10 v1017 k0_hw41 => k0_hw41.2.2.2.2.1
theorem k0_idx326_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v8, v1017] : Fin 2 → IVec S16 32) a x).toNat < S8x1024.size a := fun v3 v4 v5 v6 v7 v8 v9 v10 v1017 k0_hw41 => k0_hw41.2.2.2.2.2.1
theorem k0_idx327_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v9, v1017] : Fin 2 → IVec S16 32) a x).toNat < S8x1024.size a := fun v3 v4 v5 v6 v7 v8 v9 v10 v1017 k0_hw41 => k0_hw41.2.2.2.2.2.2.1
theorem k0_idx328_inb : ∀ (v3 : IVec S16 32) (v4 : IVec S16 32) (v5 : IVec S16 32) (v6 : IVec S16 32) (v7 : IVec S16 32) (v8 : IVec S16 32) (v9 : IVec S16 32) (v10 : IVec S16 32) (v1017 : IVec S16 32) (k0_hw41 : k0_chk41 v3 v4 v5 v6 v7 v8 v9 v10 v1017), ∀ a x, ((![v10, v1017] : Fin 2 → IVec S16 32) a x).toNat < S8x1024.size a := fun v3 v4 v5 v6 v7 v8 v9 v10 v1017 k0_hw41 => k0_hw41.2.2.2.2.2.2.2

def k0_chk42 (v3 : IVec S16 32) (v4 : IVec S16 32) (v5 : IVec S16 32) (v6 : IVec S16 32) (v7 : IVec S16 32) (v8 : IVec S16 32) (v9 : IVec S16 32) (v10 : IVec S16 32) (v1042 : IVec S16 32) : Prop :=
  (∀ a x, ((![v3, v1042] : Fin 2 → IVec S16 32) a x).toNat < S8x1024.size a) ∧
  (∀ a x, ((![v4, v1042] : Fin 2 → IVec S16 32) a x).toNat < S8x1024.size a) ∧
  (∀ a x, ((![v5, v1042] : Fin 2 → IVec S16 32) a x).toNat < S8x1024.size a) ∧
  (∀ a x, ((![v6, v1042] : Fin 2 → IVec S16 32) a x).toNat < S8x1024.size a) ∧
  (∀ a x, ((![v7, v1042] : Fin 2 → IVec S16 32) a x).toNat < S8x1024.size a) ∧
  (∀ a x, ((![v8, v1042] : Fin 2 → IVec S16 32) a x).toNat < S8x1024.size a) ∧
  (∀ a x, ((![v9, v1042] : Fin 2 → IVec S16 32) a x).toNat < S8x1024.size a) ∧
  (∀ a x, ((![v10, v1042] : Fin 2 → IVec S16 32) a x).toNat < S8x1024.size a)
instance k0_chk42.dec : ∀ (v3 : IVec S16 32) (v4 : IVec S16 32) (v5 : IVec S16 32) (v6 : IVec S16 32) (v7 : IVec S16 32) (v8 : IVec S16 32) (v9 : IVec S16 32) (v10 : IVec S16 32) (v1042 : IVec S16 32), Decidable (k0_chk42 v3 v4 v5 v6 v7 v8 v9 v10 v1042) := fun v3 v4 v5 v6 v7 v8 v9 v10 v1042 => decidable_of_iff' _ (Iff.of_eq (k0_chk42.eq_1 v3 v4 v5 v6 v7 v8 v9 v10 v1042))
theorem k0_idx329_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v3, v1042] : Fin 2 → IVec S16 32) a x).toNat < S8x1024.size a := fun v3 v4 v5 v6 v7 v8 v9 v10 v1042 k0_hw42 => k0_hw42.1
theorem k0_idx330_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v4, v1042] : Fin 2 → IVec S16 32) a x).toNat < S8x1024.size a := fun v3 v4 v5 v6 v7 v8 v9 v10 v1042 k0_hw42 => k0_hw42.2.1
theorem k0_idx331_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v5, v1042] : Fin 2 → IVec S16 32) a x).toNat < S8x1024.size a := fun v3 v4 v5 v6 v7 v8 v9 v10 v1042 k0_hw42 => k0_hw42.2.2.1
theorem k0_idx332_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v6, v1042] : Fin 2 → IVec S16 32) a x).toNat < S8x1024.size a := fun v3 v4 v5 v6 v7 v8 v9 v10 v1042 k0_hw42 => k0_hw42.2.2.2.1
theorem k0_idx333_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v7, v1042] : Fin 2 → IVec S16 32) a x).toNat < S8x1024.size a := fun v3 v4 v5 v6 v7 v8 v9 v10 v1042 k0_hw42 => k0_hw42.2.2.2.2.1
theorem k0_idx334_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v8, v1042] : Fin 2 → IVec S16 32) a x).toNat < S8x1024.size a := fun v3 v4 v5 v6 v7 v8 v9 v10 v1042 k0_hw42 => k0_hw42.2.2.2.2.2.1
theorem k0_idx335_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v9, v1042] : Fin 2 → IVec S16 32) a x).toNat < S8x1024.size a := fun v3 v4 v5 v6 v7 v8 v9 v10 v1042 k0_hw42 => k0_hw42.2.2.2.2.2.2.1
theorem k0_idx336_inb : ∀ (v3 : IVec S16 32) (v4 : IVec S16 32) (v5 : IVec S16 32) (v6 : IVec S16 32) (v7 : IVec S16 32) (v8 : IVec S16 32) (v9 : IVec S16 32) (v10 : IVec S16 32) (v1042 : IVec S16 32) (k0_hw42 : k0_chk42 v3 v4 v5 v6 v7 v8 v9 v10 v1042), ∀ a x, ((![v10, v1042] : Fin 2 → IVec S16 32) a x).toNat < S8x1024.size a := fun v3 v4 v5 v6 v7 v8 v9 v10 v1042 k0_hw42 => k0_hw42.2.2.2.2.2.2.2

def k0_chk43 (v3 : IVec S16 32) (v4 : IVec S16 32) (v5 : IVec S16 32) (v6 : IVec S16 32) (v7 : IVec S16 32) (v8 : IVec S16 32) (v9 : IVec S16 32) (v10 : IVec S16 32) (v1067 : IVec S16 32) : Prop :=
  (∀ a x, ((![v3, v1067] : Fin 2 → IVec S16 32) a x).toNat < S8x1024.size a) ∧
  (∀ a x, ((![v4, v1067] : Fin 2 → IVec S16 32) a x).toNat < S8x1024.size a) ∧
  (∀ a x, ((![v5, v1067] : Fin 2 → IVec S16 32) a x).toNat < S8x1024.size a) ∧
  (∀ a x, ((![v6, v1067] : Fin 2 → IVec S16 32) a x).toNat < S8x1024.size a) ∧
  (∀ a x, ((![v7, v1067] : Fin 2 → IVec S16 32) a x).toNat < S8x1024.size a) ∧
  (∀ a x, ((![v8, v1067] : Fin 2 → IVec S16 32) a x).toNat < S8x1024.size a) ∧
  (∀ a x, ((![v9, v1067] : Fin 2 → IVec S16 32) a x).toNat < S8x1024.size a) ∧
  (∀ a x, ((![v10, v1067] : Fin 2 → IVec S16 32) a x).toNat < S8x1024.size a)
instance k0_chk43.dec : ∀ (v3 : IVec S16 32) (v4 : IVec S16 32) (v5 : IVec S16 32) (v6 : IVec S16 32) (v7 : IVec S16 32) (v8 : IVec S16 32) (v9 : IVec S16 32) (v10 : IVec S16 32) (v1067 : IVec S16 32), Decidable (k0_chk43 v3 v4 v5 v6 v7 v8 v9 v10 v1067) := fun v3 v4 v5 v6 v7 v8 v9 v10 v1067 => decidable_of_iff' _ (Iff.of_eq (k0_chk43.eq_1 v3 v4 v5 v6 v7 v8 v9 v10 v1067))
theorem k0_idx337_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v3, v1067] : Fin 2 → IVec S16 32) a x).toNat < S8x1024.size a := fun v3 v4 v5 v6 v7 v8 v9 v10 v1067 k0_hw43 => k0_hw43.1
theorem k0_idx338_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v4, v1067] : Fin 2 → IVec S16 32) a x).toNat < S8x1024.size a := fun v3 v4 v5 v6 v7 v8 v9 v10 v1067 k0_hw43 => k0_hw43.2.1
theorem k0_idx339_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v5, v1067] : Fin 2 → IVec S16 32) a x).toNat < S8x1024.size a := fun v3 v4 v5 v6 v7 v8 v9 v10 v1067 k0_hw43 => k0_hw43.2.2.1
theorem k0_idx340_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v6, v1067] : Fin 2 → IVec S16 32) a x).toNat < S8x1024.size a := fun v3 v4 v5 v6 v7 v8 v9 v10 v1067 k0_hw43 => k0_hw43.2.2.2.1
theorem k0_idx341_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v7, v1067] : Fin 2 → IVec S16 32) a x).toNat < S8x1024.size a := fun v3 v4 v5 v6 v7 v8 v9 v10 v1067 k0_hw43 => k0_hw43.2.2.2.2.1
theorem k0_idx342_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v8, v1067] : Fin 2 → IVec S16 32) a x).toNat < S8x1024.size a := fun v3 v4 v5 v6 v7 v8 v9 v10 v1067 k0_hw43 => k0_hw43.2.2.2.2.2.1
theorem k0_idx343_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v9, v1067] : Fin 2 → IVec S16 32) a x).toNat < S8x1024.size a := fun v3 v4 v5 v6 v7 v8 v9 v10 v1067 k0_hw43 => k0_hw43.2.2.2.2.2.2.1
theorem k0_idx344_inb : ∀ (v3 : IVec S16 32) (v4 : IVec S16 32) (v5 : IVec S16 32) (v6 : IVec S16 32) (v7 : IVec S16 32) (v8 : IVec S16 32) (v9 : IVec S16 32) (v10 : IVec S16 32) (v1067 : IVec S16 32) (k0_hw43 : k0_chk43 v3 v4 v5 v6 v7 v8 v9 v10 v1067), ∀ a x, ((![v10, v1067] : Fin 2 → IVec S16 32) a x).toNat < S8x1024.size a := fun v3 v4 v5 v6 v7 v8 v9 v10 v1067 k0_hw43 => k0_hw43.2.2.2.2.2.2.2

def k0_chk44 (v3 : IVec S16 32) (v4 : IVec S16 32) (v5 : IVec S16 32) (v6 : IVec S16 32) (v7 : IVec S16 32) (v8 : IVec S16 32) (v9 : IVec S16 32) (v10 : IVec S16 32) (v1092 : IVec S16 32) : Prop :=
  (∀ a x, ((![v3, v1092] : Fin 2 → IVec S16 32) a x).toNat < S8x1024.size a) ∧
  (∀ a x, ((![v4, v1092] : Fin 2 → IVec S16 32) a x).toNat < S8x1024.size a) ∧
  (∀ a x, ((![v5, v1092] : Fin 2 → IVec S16 32) a x).toNat < S8x1024.size a) ∧
  (∀ a x, ((![v6, v1092] : Fin 2 → IVec S16 32) a x).toNat < S8x1024.size a) ∧
  (∀ a x, ((![v7, v1092] : Fin 2 → IVec S16 32) a x).toNat < S8x1024.size a) ∧
  (∀ a x, ((![v8, v1092] : Fin 2 → IVec S16 32) a x).toNat < S8x1024.size a) ∧
  (∀ a x, ((![v9, v1092] : Fin 2 → IVec S16 32) a x).toNat < S8x1024.size a) ∧
  (∀ a x, ((![v10, v1092] : Fin 2 → IVec S16 32) a x).toNat < S8x1024.size a)
instance k0_chk44.dec : ∀ (v3 : IVec S16 32) (v4 : IVec S16 32) (v5 : IVec S16 32) (v6 : IVec S16 32) (v7 : IVec S16 32) (v8 : IVec S16 32) (v9 : IVec S16 32) (v10 : IVec S16 32) (v1092 : IVec S16 32), Decidable (k0_chk44 v3 v4 v5 v6 v7 v8 v9 v10 v1092) := fun v3 v4 v5 v6 v7 v8 v9 v10 v1092 => decidable_of_iff' _ (Iff.of_eq (k0_chk44.eq_1 v3 v4 v5 v6 v7 v8 v9 v10 v1092))
theorem k0_idx345_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v3, v1092] : Fin 2 → IVec S16 32) a x).toNat < S8x1024.size a := fun v3 v4 v5 v6 v7 v8 v9 v10 v1092 k0_hw44 => k0_hw44.1
theorem k0_idx346_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v4, v1092] : Fin 2 → IVec S16 32) a x).toNat < S8x1024.size a := fun v3 v4 v5 v6 v7 v8 v9 v10 v1092 k0_hw44 => k0_hw44.2.1
theorem k0_idx347_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v5, v1092] : Fin 2 → IVec S16 32) a x).toNat < S8x1024.size a := fun v3 v4 v5 v6 v7 v8 v9 v10 v1092 k0_hw44 => k0_hw44.2.2.1
theorem k0_idx348_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v6, v1092] : Fin 2 → IVec S16 32) a x).toNat < S8x1024.size a := fun v3 v4 v5 v6 v7 v8 v9 v10 v1092 k0_hw44 => k0_hw44.2.2.2.1
theorem k0_idx349_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v7, v1092] : Fin 2 → IVec S16 32) a x).toNat < S8x1024.size a := fun v3 v4 v5 v6 v7 v8 v9 v10 v1092 k0_hw44 => k0_hw44.2.2.2.2.1
theorem k0_idx350_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v8, v1092] : Fin 2 → IVec S16 32) a x).toNat < S8x1024.size a := fun v3 v4 v5 v6 v7 v8 v9 v10 v1092 k0_hw44 => k0_hw44.2.2.2.2.2.1
theorem k0_idx351_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v9, v1092] : Fin 2 → IVec S16 32) a x).toNat < S8x1024.size a := fun v3 v4 v5 v6 v7 v8 v9 v10 v1092 k0_hw44 => k0_hw44.2.2.2.2.2.2.1
theorem k0_idx352_inb : ∀ (v3 : IVec S16 32) (v4 : IVec S16 32) (v5 : IVec S16 32) (v6 : IVec S16 32) (v7 : IVec S16 32) (v8 : IVec S16 32) (v9 : IVec S16 32) (v10 : IVec S16 32) (v1092 : IVec S16 32) (k0_hw44 : k0_chk44 v3 v4 v5 v6 v7 v8 v9 v10 v1092), ∀ a x, ((![v10, v1092] : Fin 2 → IVec S16 32) a x).toNat < S8x1024.size a := fun v3 v4 v5 v6 v7 v8 v9 v10 v1092 k0_hw44 => k0_hw44.2.2.2.2.2.2.2

def k0_chk45 (v3 : IVec S16 32) (v4 : IVec S16 32) (v5 : IVec S16 32) (v6 : IVec S16 32) (v7 : IVec S16 32) (v8 : IVec S16 32) (v9 : IVec S16 32) (v10 : IVec S16 32) (v1117 : IVec S16 32) : Prop :=
  (∀ a x, ((![v3, v1117] : Fin 2 → IVec S16 32) a x).toNat < S8x1024.size a) ∧
  (∀ a x, ((![v4, v1117] : Fin 2 → IVec S16 32) a x).toNat < S8x1024.size a) ∧
  (∀ a x, ((![v5, v1117] : Fin 2 → IVec S16 32) a x).toNat < S8x1024.size a) ∧
  (∀ a x, ((![v6, v1117] : Fin 2 → IVec S16 32) a x).toNat < S8x1024.size a) ∧
  (∀ a x, ((![v7, v1117] : Fin 2 → IVec S16 32) a x).toNat < S8x1024.size a) ∧
  (∀ a x, ((![v8, v1117] : Fin 2 → IVec S16 32) a x).toNat < S8x1024.size a) ∧
  (∀ a x, ((![v9, v1117] : Fin 2 → IVec S16 32) a x).toNat < S8x1024.size a) ∧
  (∀ a x, ((![v10, v1117] : Fin 2 → IVec S16 32) a x).toNat < S8x1024.size a)
instance k0_chk45.dec : ∀ (v3 : IVec S16 32) (v4 : IVec S16 32) (v5 : IVec S16 32) (v6 : IVec S16 32) (v7 : IVec S16 32) (v8 : IVec S16 32) (v9 : IVec S16 32) (v10 : IVec S16 32) (v1117 : IVec S16 32), Decidable (k0_chk45 v3 v4 v5 v6 v7 v8 v9 v10 v1117) := fun v3 v4 v5 v6 v7 v8 v9 v10 v1117 => decidable_of_iff' _ (Iff.of_eq (k0_chk45.eq_1 v3 v4 v5 v6 v7 v8 v9 v10 v1117))
theorem k0_idx353_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v3, v1117] : Fin 2 → IVec S16 32) a x).toNat < S8x1024.size a := fun v3 v4 v5 v6 v7 v8 v9 v10 v1117 k0_hw45 => k0_hw45.1
theorem k0_idx354_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v4, v1117] : Fin 2 → IVec S16 32) a x).toNat < S8x1024.size a := fun v3 v4 v5 v6 v7 v8 v9 v10 v1117 k0_hw45 => k0_hw45.2.1
theorem k0_idx355_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v5, v1117] : Fin 2 → IVec S16 32) a x).toNat < S8x1024.size a := fun v3 v4 v5 v6 v7 v8 v9 v10 v1117 k0_hw45 => k0_hw45.2.2.1
theorem k0_idx356_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v6, v1117] : Fin 2 → IVec S16 32) a x).toNat < S8x1024.size a := fun v3 v4 v5 v6 v7 v8 v9 v10 v1117 k0_hw45 => k0_hw45.2.2.2.1
theorem k0_idx357_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v7, v1117] : Fin 2 → IVec S16 32) a x).toNat < S8x1024.size a := fun v3 v4 v5 v6 v7 v8 v9 v10 v1117 k0_hw45 => k0_hw45.2.2.2.2.1
theorem k0_idx358_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v8, v1117] : Fin 2 → IVec S16 32) a x).toNat < S8x1024.size a := fun v3 v4 v5 v6 v7 v8 v9 v10 v1117 k0_hw45 => k0_hw45.2.2.2.2.2.1
theorem k0_idx359_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v9, v1117] : Fin 2 → IVec S16 32) a x).toNat < S8x1024.size a := fun v3 v4 v5 v6 v7 v8 v9 v10 v1117 k0_hw45 => k0_hw45.2.2.2.2.2.2.1
theorem k0_idx360_inb : ∀ (v3 : IVec S16 32) (v4 : IVec S16 32) (v5 : IVec S16 32) (v6 : IVec S16 32) (v7 : IVec S16 32) (v8 : IVec S16 32) (v9 : IVec S16 32) (v10 : IVec S16 32) (v1117 : IVec S16 32) (k0_hw45 : k0_chk45 v3 v4 v5 v6 v7 v8 v9 v10 v1117), ∀ a x, ((![v10, v1117] : Fin 2 → IVec S16 32) a x).toNat < S8x1024.size a := fun v3 v4 v5 v6 v7 v8 v9 v10 v1117 k0_hw45 => k0_hw45.2.2.2.2.2.2.2

def k0_chk46 (v3 : IVec S16 32) (v4 : IVec S16 32) (v5 : IVec S16 32) (v6 : IVec S16 32) (v7 : IVec S16 32) (v8 : IVec S16 32) (v9 : IVec S16 32) (v10 : IVec S16 32) (v1142 : IVec S16 32) : Prop :=
  (∀ a x, ((![v3, v1142] : Fin 2 → IVec S16 32) a x).toNat < S8x1024.size a) ∧
  (∀ a x, ((![v4, v1142] : Fin 2 → IVec S16 32) a x).toNat < S8x1024.size a) ∧
  (∀ a x, ((![v5, v1142] : Fin 2 → IVec S16 32) a x).toNat < S8x1024.size a) ∧
  (∀ a x, ((![v6, v1142] : Fin 2 → IVec S16 32) a x).toNat < S8x1024.size a) ∧
  (∀ a x, ((![v7, v1142] : Fin 2 → IVec S16 32) a x).toNat < S8x1024.size a) ∧
  (∀ a x, ((![v8, v1142] : Fin 2 → IVec S16 32) a x).toNat < S8x1024.size a) ∧
  (∀ a x, ((![v9, v1142] : Fin 2 → IVec S16 32) a x).toNat < S8x1024.size a) ∧
  (∀ a x, ((![v10, v1142] : Fin 2 → IVec S16 32) a x).toNat < S8x1024.size a)
instance k0_chk46.dec : ∀ (v3 : IVec S16 32) (v4 : IVec S16 32) (v5 : IVec S16 32) (v6 : IVec S16 32) (v7 : IVec S16 32) (v8 : IVec S16 32) (v9 : IVec S16 32) (v10 : IVec S16 32) (v1142 : IVec S16 32), Decidable (k0_chk46 v3 v4 v5 v6 v7 v8 v9 v10 v1142) := fun v3 v4 v5 v6 v7 v8 v9 v10 v1142 => decidable_of_iff' _ (Iff.of_eq (k0_chk46.eq_1 v3 v4 v5 v6 v7 v8 v9 v10 v1142))
theorem k0_idx361_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v3, v1142] : Fin 2 → IVec S16 32) a x).toNat < S8x1024.size a := fun v3 v4 v5 v6 v7 v8 v9 v10 v1142 k0_hw46 => k0_hw46.1
theorem k0_idx362_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v4, v1142] : Fin 2 → IVec S16 32) a x).toNat < S8x1024.size a := fun v3 v4 v5 v6 v7 v8 v9 v10 v1142 k0_hw46 => k0_hw46.2.1
theorem k0_idx363_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v5, v1142] : Fin 2 → IVec S16 32) a x).toNat < S8x1024.size a := fun v3 v4 v5 v6 v7 v8 v9 v10 v1142 k0_hw46 => k0_hw46.2.2.1
theorem k0_idx364_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v6, v1142] : Fin 2 → IVec S16 32) a x).toNat < S8x1024.size a := fun v3 v4 v5 v6 v7 v8 v9 v10 v1142 k0_hw46 => k0_hw46.2.2.2.1
theorem k0_idx365_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v7, v1142] : Fin 2 → IVec S16 32) a x).toNat < S8x1024.size a := fun v3 v4 v5 v6 v7 v8 v9 v10 v1142 k0_hw46 => k0_hw46.2.2.2.2.1
theorem k0_idx366_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v8, v1142] : Fin 2 → IVec S16 32) a x).toNat < S8x1024.size a := fun v3 v4 v5 v6 v7 v8 v9 v10 v1142 k0_hw46 => k0_hw46.2.2.2.2.2.1
theorem k0_idx367_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v9, v1142] : Fin 2 → IVec S16 32) a x).toNat < S8x1024.size a := fun v3 v4 v5 v6 v7 v8 v9 v10 v1142 k0_hw46 => k0_hw46.2.2.2.2.2.2.1
theorem k0_idx368_inb : ∀ (v3 : IVec S16 32) (v4 : IVec S16 32) (v5 : IVec S16 32) (v6 : IVec S16 32) (v7 : IVec S16 32) (v8 : IVec S16 32) (v9 : IVec S16 32) (v10 : IVec S16 32) (v1142 : IVec S16 32) (k0_hw46 : k0_chk46 v3 v4 v5 v6 v7 v8 v9 v10 v1142), ∀ a x, ((![v10, v1142] : Fin 2 → IVec S16 32) a x).toNat < S8x1024.size a := fun v3 v4 v5 v6 v7 v8 v9 v10 v1142 k0_hw46 => k0_hw46.2.2.2.2.2.2.2

def k0_chk47 (v3 : IVec S16 32) (v4 : IVec S16 32) (v5 : IVec S16 32) (v6 : IVec S16 32) (v7 : IVec S16 32) (v8 : IVec S16 32) (v9 : IVec S16 32) (v10 : IVec S16 32) (v1167 : IVec S16 32) : Prop :=
  (∀ a x, ((![v3, v1167] : Fin 2 → IVec S16 32) a x).toNat < S8x1024.size a) ∧
  (∀ a x, ((![v4, v1167] : Fin 2 → IVec S16 32) a x).toNat < S8x1024.size a) ∧
  (∀ a x, ((![v5, v1167] : Fin 2 → IVec S16 32) a x).toNat < S8x1024.size a) ∧
  (∀ a x, ((![v6, v1167] : Fin 2 → IVec S16 32) a x).toNat < S8x1024.size a) ∧
  (∀ a x, ((![v7, v1167] : Fin 2 → IVec S16 32) a x).toNat < S8x1024.size a) ∧
  (∀ a x, ((![v8, v1167] : Fin 2 → IVec S16 32) a x).toNat < S8x1024.size a) ∧
  (∀ a x, ((![v9, v1167] : Fin 2 → IVec S16 32) a x).toNat < S8x1024.size a) ∧
  (∀ a x, ((![v10, v1167] : Fin 2 → IVec S16 32) a x).toNat < S8x1024.size a)
instance k0_chk47.dec : ∀ (v3 : IVec S16 32) (v4 : IVec S16 32) (v5 : IVec S16 32) (v6 : IVec S16 32) (v7 : IVec S16 32) (v8 : IVec S16 32) (v9 : IVec S16 32) (v10 : IVec S16 32) (v1167 : IVec S16 32), Decidable (k0_chk47 v3 v4 v5 v6 v7 v8 v9 v10 v1167) := fun v3 v4 v5 v6 v7 v8 v9 v10 v1167 => decidable_of_iff' _ (Iff.of_eq (k0_chk47.eq_1 v3 v4 v5 v6 v7 v8 v9 v10 v1167))
theorem k0_idx369_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v3, v1167] : Fin 2 → IVec S16 32) a x).toNat < S8x1024.size a := fun v3 v4 v5 v6 v7 v8 v9 v10 v1167 k0_hw47 => k0_hw47.1
theorem k0_idx370_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v4, v1167] : Fin 2 → IVec S16 32) a x).toNat < S8x1024.size a := fun v3 v4 v5 v6 v7 v8 v9 v10 v1167 k0_hw47 => k0_hw47.2.1
theorem k0_idx371_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v5, v1167] : Fin 2 → IVec S16 32) a x).toNat < S8x1024.size a := fun v3 v4 v5 v6 v7 v8 v9 v10 v1167 k0_hw47 => k0_hw47.2.2.1
theorem k0_idx372_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v6, v1167] : Fin 2 → IVec S16 32) a x).toNat < S8x1024.size a := fun v3 v4 v5 v6 v7 v8 v9 v10 v1167 k0_hw47 => k0_hw47.2.2.2.1
theorem k0_idx373_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v7, v1167] : Fin 2 → IVec S16 32) a x).toNat < S8x1024.size a := fun v3 v4 v5 v6 v7 v8 v9 v10 v1167 k0_hw47 => k0_hw47.2.2.2.2.1
theorem k0_idx374_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v8, v1167] : Fin 2 → IVec S16 32) a x).toNat < S8x1024.size a := fun v3 v4 v5 v6 v7 v8 v9 v10 v1167 k0_hw47 => k0_hw47.2.2.2.2.2.1
theorem k0_idx375_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v9, v1167] : Fin 2 → IVec S16 32) a x).toNat < S8x1024.size a := fun v3 v4 v5 v6 v7 v8 v9 v10 v1167 k0_hw47 => k0_hw47.2.2.2.2.2.2.1
theorem k0_idx376_inb : ∀ (v3 : IVec S16 32) (v4 : IVec S16 32) (v5 : IVec S16 32) (v6 : IVec S16 32) (v7 : IVec S16 32) (v8 : IVec S16 32) (v9 : IVec S16 32) (v10 : IVec S16 32) (v1167 : IVec S16 32) (k0_hw47 : k0_chk47 v3 v4 v5 v6 v7 v8 v9 v10 v1167), ∀ a x, ((![v10, v1167] : Fin 2 → IVec S16 32) a x).toNat < S8x1024.size a := fun v3 v4 v5 v6 v7 v8 v9 v10 v1167 k0_hw47 => k0_hw47.2.2.2.2.2.2.2

def k0_chk48 (v3 : IVec S16 32) (v4 : IVec S16 32) (v5 : IVec S16 32) (v6 : IVec S16 32) (v7 : IVec S16 32) (v8 : IVec S16 32) (v9 : IVec S16 32) (v10 : IVec S16 32) (v1192 : IVec S16 32) : Prop :=
  (∀ a x, ((![v3, v1192] : Fin 2 → IVec S16 32) a x).toNat < S8x1024.size a) ∧
  (∀ a x, ((![v4, v1192] : Fin 2 → IVec S16 32) a x).toNat < S8x1024.size a) ∧
  (∀ a x, ((![v5, v1192] : Fin 2 → IVec S16 32) a x).toNat < S8x1024.size a) ∧
  (∀ a x, ((![v6, v1192] : Fin 2 → IVec S16 32) a x).toNat < S8x1024.size a) ∧
  (∀ a x, ((![v7, v1192] : Fin 2 → IVec S16 32) a x).toNat < S8x1024.size a) ∧
  (∀ a x, ((![v8, v1192] : Fin 2 → IVec S16 32) a x).toNat < S8x1024.size a) ∧
  (∀ a x, ((![v9, v1192] : Fin 2 → IVec S16 32) a x).toNat < S8x1024.size a) ∧
  (∀ a x, ((![v10, v1192] : Fin 2 → IVec S16 32) a x).toNat < S8x1024.size a)
instance k0_chk48.dec : ∀ (v3 : IVec S16 32) (v4 : IVec S16 32) (v5 : IVec S16 32) (v6 : IVec S16 32) (v7 : IVec S16 32) (v8 : IVec S16 32) (v9 : IVec S16 32) (v10 : IVec S16 32) (v1192 : IVec S16 32), Decidable (k0_chk48 v3 v4 v5 v6 v7 v8 v9 v10 v1192) := fun v3 v4 v5 v6 v7 v8 v9 v10 v1192 => decidable_of_iff' _ (Iff.of_eq (k0_chk48.eq_1 v3 v4 v5 v6 v7 v8 v9 v10 v1192))
theorem k0_idx377_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v3, v1192] : Fin 2 → IVec S16 32) a x).toNat < S8x1024.size a := fun v3 v4 v5 v6 v7 v8 v9 v10 v1192 k0_hw48 => k0_hw48.1
theorem k0_idx378_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v4, v1192] : Fin 2 → IVec S16 32) a x).toNat < S8x1024.size a := fun v3 v4 v5 v6 v7 v8 v9 v10 v1192 k0_hw48 => k0_hw48.2.1
theorem k0_idx379_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v5, v1192] : Fin 2 → IVec S16 32) a x).toNat < S8x1024.size a := fun v3 v4 v5 v6 v7 v8 v9 v10 v1192 k0_hw48 => k0_hw48.2.2.1
theorem k0_idx380_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v6, v1192] : Fin 2 → IVec S16 32) a x).toNat < S8x1024.size a := fun v3 v4 v5 v6 v7 v8 v9 v10 v1192 k0_hw48 => k0_hw48.2.2.2.1
theorem k0_idx381_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v7, v1192] : Fin 2 → IVec S16 32) a x).toNat < S8x1024.size a := fun v3 v4 v5 v6 v7 v8 v9 v10 v1192 k0_hw48 => k0_hw48.2.2.2.2.1
theorem k0_idx382_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v8, v1192] : Fin 2 → IVec S16 32) a x).toNat < S8x1024.size a := fun v3 v4 v5 v6 v7 v8 v9 v10 v1192 k0_hw48 => k0_hw48.2.2.2.2.2.1
theorem k0_idx383_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v9, v1192] : Fin 2 → IVec S16 32) a x).toNat < S8x1024.size a := fun v3 v4 v5 v6 v7 v8 v9 v10 v1192 k0_hw48 => k0_hw48.2.2.2.2.2.2.1
theorem k0_idx384_inb : ∀ (v3 : IVec S16 32) (v4 : IVec S16 32) (v5 : IVec S16 32) (v6 : IVec S16 32) (v7 : IVec S16 32) (v8 : IVec S16 32) (v9 : IVec S16 32) (v10 : IVec S16 32) (v1192 : IVec S16 32) (k0_hw48 : k0_chk48 v3 v4 v5 v6 v7 v8 v9 v10 v1192), ∀ a x, ((![v10, v1192] : Fin 2 → IVec S16 32) a x).toNat < S8x1024.size a := fun v3 v4 v5 v6 v7 v8 v9 v10 v1192 k0_hw48 => k0_hw48.2.2.2.2.2.2.2

def k0_chk49 (v3 : IVec S16 32) (v4 : IVec S16 32) (v5 : IVec S16 32) (v6 : IVec S16 32) (v7 : IVec S16 32) (v8 : IVec S16 32) (v9 : IVec S16 32) (v10 : IVec S16 32) (v1217 : IVec S16 32) : Prop :=
  (∀ a x, ((![v3, v1217] : Fin 2 → IVec S16 32) a x).toNat < S8x1024.size a) ∧
  (∀ a x, ((![v4, v1217] : Fin 2 → IVec S16 32) a x).toNat < S8x1024.size a) ∧
  (∀ a x, ((![v5, v1217] : Fin 2 → IVec S16 32) a x).toNat < S8x1024.size a) ∧
  (∀ a x, ((![v6, v1217] : Fin 2 → IVec S16 32) a x).toNat < S8x1024.size a) ∧
  (∀ a x, ((![v7, v1217] : Fin 2 → IVec S16 32) a x).toNat < S8x1024.size a) ∧
  (∀ a x, ((![v8, v1217] : Fin 2 → IVec S16 32) a x).toNat < S8x1024.size a) ∧
  (∀ a x, ((![v9, v1217] : Fin 2 → IVec S16 32) a x).toNat < S8x1024.size a) ∧
  (∀ a x, ((![v10, v1217] : Fin 2 → IVec S16 32) a x).toNat < S8x1024.size a)
instance k0_chk49.dec : ∀ (v3 : IVec S16 32) (v4 : IVec S16 32) (v5 : IVec S16 32) (v6 : IVec S16 32) (v7 : IVec S16 32) (v8 : IVec S16 32) (v9 : IVec S16 32) (v10 : IVec S16 32) (v1217 : IVec S16 32), Decidable (k0_chk49 v3 v4 v5 v6 v7 v8 v9 v10 v1217) := fun v3 v4 v5 v6 v7 v8 v9 v10 v1217 => decidable_of_iff' _ (Iff.of_eq (k0_chk49.eq_1 v3 v4 v5 v6 v7 v8 v9 v10 v1217))
theorem k0_idx385_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v3, v1217] : Fin 2 → IVec S16 32) a x).toNat < S8x1024.size a := fun v3 v4 v5 v6 v7 v8 v9 v10 v1217 k0_hw49 => k0_hw49.1
theorem k0_idx386_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v4, v1217] : Fin 2 → IVec S16 32) a x).toNat < S8x1024.size a := fun v3 v4 v5 v6 v7 v8 v9 v10 v1217 k0_hw49 => k0_hw49.2.1
theorem k0_idx387_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v5, v1217] : Fin 2 → IVec S16 32) a x).toNat < S8x1024.size a := fun v3 v4 v5 v6 v7 v8 v9 v10 v1217 k0_hw49 => k0_hw49.2.2.1
theorem k0_idx388_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v6, v1217] : Fin 2 → IVec S16 32) a x).toNat < S8x1024.size a := fun v3 v4 v5 v6 v7 v8 v9 v10 v1217 k0_hw49 => k0_hw49.2.2.2.1
theorem k0_idx389_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v7, v1217] : Fin 2 → IVec S16 32) a x).toNat < S8x1024.size a := fun v3 v4 v5 v6 v7 v8 v9 v10 v1217 k0_hw49 => k0_hw49.2.2.2.2.1
theorem k0_idx390_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v8, v1217] : Fin 2 → IVec S16 32) a x).toNat < S8x1024.size a := fun v3 v4 v5 v6 v7 v8 v9 v10 v1217 k0_hw49 => k0_hw49.2.2.2.2.2.1
theorem k0_idx391_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v9, v1217] : Fin 2 → IVec S16 32) a x).toNat < S8x1024.size a := fun v3 v4 v5 v6 v7 v8 v9 v10 v1217 k0_hw49 => k0_hw49.2.2.2.2.2.2.1
theorem k0_idx392_inb : ∀ (v3 : IVec S16 32) (v4 : IVec S16 32) (v5 : IVec S16 32) (v6 : IVec S16 32) (v7 : IVec S16 32) (v8 : IVec S16 32) (v9 : IVec S16 32) (v10 : IVec S16 32) (v1217 : IVec S16 32) (k0_hw49 : k0_chk49 v3 v4 v5 v6 v7 v8 v9 v10 v1217), ∀ a x, ((![v10, v1217] : Fin 2 → IVec S16 32) a x).toNat < S8x1024.size a := fun v3 v4 v5 v6 v7 v8 v9 v10 v1217 k0_hw49 => k0_hw49.2.2.2.2.2.2.2

def k0_chk50 (v3 : IVec S16 32) (v4 : IVec S16 32) (v5 : IVec S16 32) (v6 : IVec S16 32) (v7 : IVec S16 32) (v8 : IVec S16 32) (v9 : IVec S16 32) (v10 : IVec S16 32) (v1242 : IVec S16 32) : Prop :=
  (∀ a x, ((![v3, v1242] : Fin 2 → IVec S16 32) a x).toNat < S8x1024.size a) ∧
  (∀ a x, ((![v4, v1242] : Fin 2 → IVec S16 32) a x).toNat < S8x1024.size a) ∧
  (∀ a x, ((![v5, v1242] : Fin 2 → IVec S16 32) a x).toNat < S8x1024.size a) ∧
  (∀ a x, ((![v6, v1242] : Fin 2 → IVec S16 32) a x).toNat < S8x1024.size a) ∧
  (∀ a x, ((![v7, v1242] : Fin 2 → IVec S16 32) a x).toNat < S8x1024.size a) ∧
  (∀ a x, ((![v8, v1242] : Fin 2 → IVec S16 32) a x).toNat < S8x1024.size a) ∧
  (∀ a x, ((![v9, v1242] : Fin 2 → IVec S16 32) a x).toNat < S8x1024.size a) ∧
  (∀ a x, ((![v10, v1242] : Fin 2 → IVec S16 32) a x).toNat < S8x1024.size a)
instance k0_chk50.dec : ∀ (v3 : IVec S16 32) (v4 : IVec S16 32) (v5 : IVec S16 32) (v6 : IVec S16 32) (v7 : IVec S16 32) (v8 : IVec S16 32) (v9 : IVec S16 32) (v10 : IVec S16 32) (v1242 : IVec S16 32), Decidable (k0_chk50 v3 v4 v5 v6 v7 v8 v9 v10 v1242) := fun v3 v4 v5 v6 v7 v8 v9 v10 v1242 => decidable_of_iff' _ (Iff.of_eq (k0_chk50.eq_1 v3 v4 v5 v6 v7 v8 v9 v10 v1242))
theorem k0_idx393_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v3, v1242] : Fin 2 → IVec S16 32) a x).toNat < S8x1024.size a := fun v3 v4 v5 v6 v7 v8 v9 v10 v1242 k0_hw50 => k0_hw50.1
theorem k0_idx394_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v4, v1242] : Fin 2 → IVec S16 32) a x).toNat < S8x1024.size a := fun v3 v4 v5 v6 v7 v8 v9 v10 v1242 k0_hw50 => k0_hw50.2.1
theorem k0_idx395_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v5, v1242] : Fin 2 → IVec S16 32) a x).toNat < S8x1024.size a := fun v3 v4 v5 v6 v7 v8 v9 v10 v1242 k0_hw50 => k0_hw50.2.2.1
theorem k0_idx396_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v6, v1242] : Fin 2 → IVec S16 32) a x).toNat < S8x1024.size a := fun v3 v4 v5 v6 v7 v8 v9 v10 v1242 k0_hw50 => k0_hw50.2.2.2.1
theorem k0_idx397_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v7, v1242] : Fin 2 → IVec S16 32) a x).toNat < S8x1024.size a := fun v3 v4 v5 v6 v7 v8 v9 v10 v1242 k0_hw50 => k0_hw50.2.2.2.2.1
theorem k0_idx398_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v8, v1242] : Fin 2 → IVec S16 32) a x).toNat < S8x1024.size a := fun v3 v4 v5 v6 v7 v8 v9 v10 v1242 k0_hw50 => k0_hw50.2.2.2.2.2.1
theorem k0_idx399_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v9, v1242] : Fin 2 → IVec S16 32) a x).toNat < S8x1024.size a := fun v3 v4 v5 v6 v7 v8 v9 v10 v1242 k0_hw50 => k0_hw50.2.2.2.2.2.2.1
theorem k0_idx400_inb : ∀ (v3 : IVec S16 32) (v4 : IVec S16 32) (v5 : IVec S16 32) (v6 : IVec S16 32) (v7 : IVec S16 32) (v8 : IVec S16 32) (v9 : IVec S16 32) (v10 : IVec S16 32) (v1242 : IVec S16 32) (k0_hw50 : k0_chk50 v3 v4 v5 v6 v7 v8 v9 v10 v1242), ∀ a x, ((![v10, v1242] : Fin 2 → IVec S16 32) a x).toNat < S8x1024.size a := fun v3 v4 v5 v6 v7 v8 v9 v10 v1242 k0_hw50 => k0_hw50.2.2.2.2.2.2.2

def k0_chk51 (v3 : IVec S16 32) (v4 : IVec S16 32) (v5 : IVec S16 32) (v6 : IVec S16 32) (v7 : IVec S16 32) (v8 : IVec S16 32) (v9 : IVec S16 32) (v10 : IVec S16 32) (v1267 : IVec S16 32) : Prop :=
  (∀ a x, ((![v3, v1267] : Fin 2 → IVec S16 32) a x).toNat < S8x1024.size a) ∧
  (∀ a x, ((![v4, v1267] : Fin 2 → IVec S16 32) a x).toNat < S8x1024.size a) ∧
  (∀ a x, ((![v5, v1267] : Fin 2 → IVec S16 32) a x).toNat < S8x1024.size a) ∧
  (∀ a x, ((![v6, v1267] : Fin 2 → IVec S16 32) a x).toNat < S8x1024.size a) ∧
  (∀ a x, ((![v7, v1267] : Fin 2 → IVec S16 32) a x).toNat < S8x1024.size a) ∧
  (∀ a x, ((![v8, v1267] : Fin 2 → IVec S16 32) a x).toNat < S8x1024.size a) ∧
  (∀ a x, ((![v9, v1267] : Fin 2 → IVec S16 32) a x).toNat < S8x1024.size a) ∧
  (∀ a x, ((![v10, v1267] : Fin 2 → IVec S16 32) a x).toNat < S8x1024.size a)
instance k0_chk51.dec : ∀ (v3 : IVec S16 32) (v4 : IVec S16 32) (v5 : IVec S16 32) (v6 : IVec S16 32) (v7 : IVec S16 32) (v8 : IVec S16 32) (v9 : IVec S16 32) (v10 : IVec S16 32) (v1267 : IVec S16 32), Decidable (k0_chk51 v3 v4 v5 v6 v7 v8 v9 v10 v1267) := fun v3 v4 v5 v6 v7 v8 v9 v10 v1267 => decidable_of_iff' _ (Iff.of_eq (k0_chk51.eq_1 v3 v4 v5 v6 v7 v8 v9 v10 v1267))
theorem k0_idx401_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v3, v1267] : Fin 2 → IVec S16 32) a x).toNat < S8x1024.size a := fun v3 v4 v5 v6 v7 v8 v9 v10 v1267 k0_hw51 => k0_hw51.1
theorem k0_idx402_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v4, v1267] : Fin 2 → IVec S16 32) a x).toNat < S8x1024.size a := fun v3 v4 v5 v6 v7 v8 v9 v10 v1267 k0_hw51 => k0_hw51.2.1
theorem k0_idx403_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v5, v1267] : Fin 2 → IVec S16 32) a x).toNat < S8x1024.size a := fun v3 v4 v5 v6 v7 v8 v9 v10 v1267 k0_hw51 => k0_hw51.2.2.1
theorem k0_idx404_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v6, v1267] : Fin 2 → IVec S16 32) a x).toNat < S8x1024.size a := fun v3 v4 v5 v6 v7 v8 v9 v10 v1267 k0_hw51 => k0_hw51.2.2.2.1
theorem k0_idx405_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v7, v1267] : Fin 2 → IVec S16 32) a x).toNat < S8x1024.size a := fun v3 v4 v5 v6 v7 v8 v9 v10 v1267 k0_hw51 => k0_hw51.2.2.2.2.1
theorem k0_idx406_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v8, v1267] : Fin 2 → IVec S16 32) a x).toNat < S8x1024.size a := fun v3 v4 v5 v6 v7 v8 v9 v10 v1267 k0_hw51 => k0_hw51.2.2.2.2.2.1
theorem k0_idx407_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v9, v1267] : Fin 2 → IVec S16 32) a x).toNat < S8x1024.size a := fun v3 v4 v5 v6 v7 v8 v9 v10 v1267 k0_hw51 => k0_hw51.2.2.2.2.2.2.1
theorem k0_idx408_inb : ∀ (v3 : IVec S16 32) (v4 : IVec S16 32) (v5 : IVec S16 32) (v6 : IVec S16 32) (v7 : IVec S16 32) (v8 : IVec S16 32) (v9 : IVec S16 32) (v10 : IVec S16 32) (v1267 : IVec S16 32) (k0_hw51 : k0_chk51 v3 v4 v5 v6 v7 v8 v9 v10 v1267), ∀ a x, ((![v10, v1267] : Fin 2 → IVec S16 32) a x).toNat < S8x1024.size a := fun v3 v4 v5 v6 v7 v8 v9 v10 v1267 k0_hw51 => k0_hw51.2.2.2.2.2.2.2

def k0_chk52 (v3 : IVec S16 32) (v4 : IVec S16 32) (v5 : IVec S16 32) (v6 : IVec S16 32) (v7 : IVec S16 32) (v8 : IVec S16 32) (v9 : IVec S16 32) (v10 : IVec S16 32) (v1292 : IVec S16 32) : Prop :=
  (∀ a x, ((![v3, v1292] : Fin 2 → IVec S16 32) a x).toNat < S8x1024.size a) ∧
  (∀ a x, ((![v4, v1292] : Fin 2 → IVec S16 32) a x).toNat < S8x1024.size a) ∧
  (∀ a x, ((![v5, v1292] : Fin 2 → IVec S16 32) a x).toNat < S8x1024.size a) ∧
  (∀ a x, ((![v6, v1292] : Fin 2 → IVec S16 32) a x).toNat < S8x1024.size a) ∧
  (∀ a x, ((![v7, v1292] : Fin 2 → IVec S16 32) a x).toNat < S8x1024.size a) ∧
  (∀ a x, ((![v8, v1292] : Fin 2 → IVec S16 32) a x).toNat < S8x1024.size a) ∧
  (∀ a x, ((![v9, v1292] : Fin 2 → IVec S16 32) a x).toNat < S8x1024.size a) ∧
  (∀ a x, ((![v10, v1292] : Fin 2 → IVec S16 32) a x).toNat < S8x1024.size a)
instance k0_chk52.dec : ∀ (v3 : IVec S16 32) (v4 : IVec S16 32) (v5 : IVec S16 32) (v6 : IVec S16 32) (v7 : IVec S16 32) (v8 : IVec S16 32) (v9 : IVec S16 32) (v10 : IVec S16 32) (v1292 : IVec S16 32), Decidable (k0_chk52 v3 v4 v5 v6 v7 v8 v9 v10 v1292) := fun v3 v4 v5 v6 v7 v8 v9 v10 v1292 => decidable_of_iff' _ (Iff.of_eq (k0_chk52.eq_1 v3 v4 v5 v6 v7 v8 v9 v10 v1292))
theorem k0_idx409_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v3, v1292] : Fin 2 → IVec S16 32) a x).toNat < S8x1024.size a := fun v3 v4 v5 v6 v7 v8 v9 v10 v1292 k0_hw52 => k0_hw52.1
theorem k0_idx410_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v4, v1292] : Fin 2 → IVec S16 32) a x).toNat < S8x1024.size a := fun v3 v4 v5 v6 v7 v8 v9 v10 v1292 k0_hw52 => k0_hw52.2.1
theorem k0_idx411_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v5, v1292] : Fin 2 → IVec S16 32) a x).toNat < S8x1024.size a := fun v3 v4 v5 v6 v7 v8 v9 v10 v1292 k0_hw52 => k0_hw52.2.2.1
theorem k0_idx412_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v6, v1292] : Fin 2 → IVec S16 32) a x).toNat < S8x1024.size a := fun v3 v4 v5 v6 v7 v8 v9 v10 v1292 k0_hw52 => k0_hw52.2.2.2.1
theorem k0_idx413_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v7, v1292] : Fin 2 → IVec S16 32) a x).toNat < S8x1024.size a := fun v3 v4 v5 v6 v7 v8 v9 v10 v1292 k0_hw52 => k0_hw52.2.2.2.2.1
theorem k0_idx414_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v8, v1292] : Fin 2 → IVec S16 32) a x).toNat < S8x1024.size a := fun v3 v4 v5 v6 v7 v8 v9 v10 v1292 k0_hw52 => k0_hw52.2.2.2.2.2.1
theorem k0_idx415_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v9, v1292] : Fin 2 → IVec S16 32) a x).toNat < S8x1024.size a := fun v3 v4 v5 v6 v7 v8 v9 v10 v1292 k0_hw52 => k0_hw52.2.2.2.2.2.2.1
theorem k0_idx416_inb : ∀ (v3 : IVec S16 32) (v4 : IVec S16 32) (v5 : IVec S16 32) (v6 : IVec S16 32) (v7 : IVec S16 32) (v8 : IVec S16 32) (v9 : IVec S16 32) (v10 : IVec S16 32) (v1292 : IVec S16 32) (k0_hw52 : k0_chk52 v3 v4 v5 v6 v7 v8 v9 v10 v1292), ∀ a x, ((![v10, v1292] : Fin 2 → IVec S16 32) a x).toNat < S8x1024.size a := fun v3 v4 v5 v6 v7 v8 v9 v10 v1292 k0_hw52 => k0_hw52.2.2.2.2.2.2.2

def k0_chk53 (v3 : IVec S16 32) (v4 : IVec S16 32) (v5 : IVec S16 32) (v6 : IVec S16 32) (v7 : IVec S16 32) (v8 : IVec S16 32) (v9 : IVec S16 32) (v10 : IVec S16 32) (v1317 : IVec S16 32) : Prop :=
  (∀ a x, ((![v3, v1317] : Fin 2 → IVec S16 32) a x).toNat < S8x1024.size a) ∧
  (∀ a x, ((![v4, v1317] : Fin 2 → IVec S16 32) a x).toNat < S8x1024.size a) ∧
  (∀ a x, ((![v5, v1317] : Fin 2 → IVec S16 32) a x).toNat < S8x1024.size a) ∧
  (∀ a x, ((![v6, v1317] : Fin 2 → IVec S16 32) a x).toNat < S8x1024.size a) ∧
  (∀ a x, ((![v7, v1317] : Fin 2 → IVec S16 32) a x).toNat < S8x1024.size a) ∧
  (∀ a x, ((![v8, v1317] : Fin 2 → IVec S16 32) a x).toNat < S8x1024.size a) ∧
  (∀ a x, ((![v9, v1317] : Fin 2 → IVec S16 32) a x).toNat < S8x1024.size a) ∧
  (∀ a x, ((![v10, v1317] : Fin 2 → IVec S16 32) a x).toNat < S8x1024.size a)
instance k0_chk53.dec : ∀ (v3 : IVec S16 32) (v4 : IVec S16 32) (v5 : IVec S16 32) (v6 : IVec S16 32) (v7 : IVec S16 32) (v8 : IVec S16 32) (v9 : IVec S16 32) (v10 : IVec S16 32) (v1317 : IVec S16 32), Decidable (k0_chk53 v3 v4 v5 v6 v7 v8 v9 v10 v1317) := fun v3 v4 v5 v6 v7 v8 v9 v10 v1317 => decidable_of_iff' _ (Iff.of_eq (k0_chk53.eq_1 v3 v4 v5 v6 v7 v8 v9 v10 v1317))
theorem k0_idx417_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v3, v1317] : Fin 2 → IVec S16 32) a x).toNat < S8x1024.size a := fun v3 v4 v5 v6 v7 v8 v9 v10 v1317 k0_hw53 => k0_hw53.1
theorem k0_idx418_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v4, v1317] : Fin 2 → IVec S16 32) a x).toNat < S8x1024.size a := fun v3 v4 v5 v6 v7 v8 v9 v10 v1317 k0_hw53 => k0_hw53.2.1
theorem k0_idx419_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v5, v1317] : Fin 2 → IVec S16 32) a x).toNat < S8x1024.size a := fun v3 v4 v5 v6 v7 v8 v9 v10 v1317 k0_hw53 => k0_hw53.2.2.1
theorem k0_idx420_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v6, v1317] : Fin 2 → IVec S16 32) a x).toNat < S8x1024.size a := fun v3 v4 v5 v6 v7 v8 v9 v10 v1317 k0_hw53 => k0_hw53.2.2.2.1
theorem k0_idx421_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v7, v1317] : Fin 2 → IVec S16 32) a x).toNat < S8x1024.size a := fun v3 v4 v5 v6 v7 v8 v9 v10 v1317 k0_hw53 => k0_hw53.2.2.2.2.1
theorem k0_idx422_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v8, v1317] : Fin 2 → IVec S16 32) a x).toNat < S8x1024.size a := fun v3 v4 v5 v6 v7 v8 v9 v10 v1317 k0_hw53 => k0_hw53.2.2.2.2.2.1
theorem k0_idx423_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v9, v1317] : Fin 2 → IVec S16 32) a x).toNat < S8x1024.size a := fun v3 v4 v5 v6 v7 v8 v9 v10 v1317 k0_hw53 => k0_hw53.2.2.2.2.2.2.1
theorem k0_idx424_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw53 : k0_chk53 v3 v4 v5 v6 v7 v8 v9 v10 v1317), ∀ a x, ((![v10, v1317] : Fin 2 → IVec S16 32) a x).toNat < S8x1024.size a := fun v3 v4 v5 v6 v7 v8 v9 v10 v1317 k0_hw53 => k0_hw53.2.2.2.2.2.2.2

def k0_chk54 (v3 : IVec S16 32) (v4 : IVec S16 32) (v5 : IVec S16 32) (v6 : IVec S16 32) (v7 : IVec S16 32) (v8 : IVec S16 32) (v9 : IVec S16 32) (v10 : IVec S16 32) (v1342 : IVec S16 32) : Prop :=
  (∀ a x, ((![v3, v1342] : Fin 2 → IVec S16 32) a x).toNat < S8x1024.size a) ∧
  (∀ a x, ((![v4, v1342] : Fin 2 → IVec S16 32) a x).toNat < S8x1024.size a) ∧
  (∀ a x, ((![v5, v1342] : Fin 2 → IVec S16 32) a x).toNat < S8x1024.size a) ∧
  (∀ a x, ((![v6, v1342] : Fin 2 → IVec S16 32) a x).toNat < S8x1024.size a) ∧
  (∀ a x, ((![v7, v1342] : Fin 2 → IVec S16 32) a x).toNat < S8x1024.size a) ∧
  (∀ a x, ((![v8, v1342] : Fin 2 → IVec S16 32) a x).toNat < S8x1024.size a) ∧
  (∀ a x, ((![v9, v1342] : Fin 2 → IVec S16 32) a x).toNat < S8x1024.size a) ∧
  (∀ a x, ((![v10, v1342] : Fin 2 → IVec S16 32) a x).toNat < S8x1024.size a)
instance k0_chk54.dec : ∀ (v3 : IVec S16 32) (v4 : IVec S16 32) (v5 : IVec S16 32) (v6 : IVec S16 32) (v7 : IVec S16 32) (v8 : IVec S16 32) (v9 : IVec S16 32) (v10 : IVec S16 32) (v1342 : IVec S16 32), Decidable (k0_chk54 v3 v4 v5 v6 v7 v8 v9 v10 v1342) := fun v3 v4 v5 v6 v7 v8 v9 v10 v1342 => decidable_of_iff' _ (Iff.of_eq (k0_chk54.eq_1 v3 v4 v5 v6 v7 v8 v9 v10 v1342))
theorem k0_idx425_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v3, v1342] : Fin 2 → IVec S16 32) a x).toNat < S8x1024.size a := fun v3 v4 v5 v6 v7 v8 v9 v10 v1342 k0_hw54 => k0_hw54.1
theorem k0_idx426_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v4, v1342] : Fin 2 → IVec S16 32) a x).toNat < S8x1024.size a := fun v3 v4 v5 v6 v7 v8 v9 v10 v1342 k0_hw54 => k0_hw54.2.1
theorem k0_idx427_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v5, v1342] : Fin 2 → IVec S16 32) a x).toNat < S8x1024.size a := fun v3 v4 v5 v6 v7 v8 v9 v10 v1342 k0_hw54 => k0_hw54.2.2.1
theorem k0_idx428_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v6, v1342] : Fin 2 → IVec S16 32) a x).toNat < S8x1024.size a := fun v3 v4 v5 v6 v7 v8 v9 v10 v1342 k0_hw54 => k0_hw54.2.2.2.1
theorem k0_idx429_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v7, v1342] : Fin 2 → IVec S16 32) a x).toNat < S8x1024.size a := fun v3 v4 v5 v6 v7 v8 v9 v10 v1342 k0_hw54 => k0_hw54.2.2.2.2.1
theorem k0_idx430_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v8, v1342] : Fin 2 → IVec S16 32) a x).toNat < S8x1024.size a := fun v3 v4 v5 v6 v7 v8 v9 v10 v1342 k0_hw54 => k0_hw54.2.2.2.2.2.1
theorem k0_idx431_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v9, v1342] : Fin 2 → IVec S16 32) a x).toNat < S8x1024.size a := fun v3 v4 v5 v6 v7 v8 v9 v10 v1342 k0_hw54 => k0_hw54.2.2.2.2.2.2.1
theorem k0_idx432_inb : ∀ (v3 : IVec S16 32) (v4 : IVec S16 32) (v5 : IVec S16 32) (v6 : IVec S16 32) (v7 : IVec S16 32) (v8 : IVec S16 32) (v9 : IVec S16 32) (v10 : IVec S16 32) (v1342 : IVec S16 32) (k0_hw54 : k0_chk54 v3 v4 v5 v6 v7 v8 v9 v10 v1342), ∀ a x, ((![v10, v1342] : Fin 2 → IVec S16 32) a x).toNat < S8x1024.size a := fun v3 v4 v5 v6 v7 v8 v9 v10 v1342 k0_hw54 => k0_hw54.2.2.2.2.2.2.2

def k0_chk55 (v3 : IVec S16 32) (v4 : IVec S16 32) (v5 : IVec S16 32) (v6 : IVec S16 32) (v7 : IVec S16 32) (v8 : IVec S16 32) (v9 : IVec S16 32) (v10 : IVec S16 32) (v1367 : IVec S16 32) : Prop :=
  (∀ a x, ((![v3, v1367] : Fin 2 → IVec S16 32) a x).toNat < S8x1024.size a) ∧
  (∀ a x, ((![v4, v1367] : Fin 2 → IVec S16 32) a x).toNat < S8x1024.size a) ∧
  (∀ a x, ((![v5, v1367] : Fin 2 → IVec S16 32) a x).toNat < S8x1024.size a) ∧
  (∀ a x, ((![v6, v1367] : Fin 2 → IVec S16 32) a x).toNat < S8x1024.size a) ∧
  (∀ a x, ((![v7, v1367] : Fin 2 → IVec S16 32) a x).toNat < S8x1024.size a) ∧
  (∀ a x, ((![v8, v1367] : Fin 2 → IVec S16 32) a x).toNat < S8x1024.size a) ∧
  (∀ a x, ((![v9, v1367] : Fin 2 → IVec S16 32) a x).toNat < S8x1024.size a) ∧
  (∀ a x, ((![v10, v1367] : Fin 2 → IVec S16 32) a x).toNat < S8x1024.size a)
instance k0_chk55.dec : ∀ (v3 : IVec S16 32) (v4 : IVec S16 32) (v5 : IVec S16 32) (v6 : IVec S16 32) (v7 : IVec S16 32) (v8 : IVec S16 32) (v9 : IVec S16 32) (v10 : IVec S16 32) (v1367 : IVec S16 32), Decidable (k0_chk55 v3 v4 v5 v6 v7 v8 v9 v10 v1367) := fun v3 v4 v5 v6 v7 v8 v9 v10 v1367 => decidable_of_iff' _ (Iff.of_eq (k0_chk55.eq_1 v3 v4 v5 v6 v7 v8 v9 v10 v1367))
theorem k0_idx433_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v3, v1367] : Fin 2 → IVec S16 32) a x).toNat < S8x1024.size a := fun v3 v4 v5 v6 v7 v8 v9 v10 v1367 k0_hw55 => k0_hw55.1
theorem k0_idx434_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v4, v1367] : Fin 2 → IVec S16 32) a x).toNat < S8x1024.size a := fun v3 v4 v5 v6 v7 v8 v9 v10 v1367 k0_hw55 => k0_hw55.2.1
theorem k0_idx435_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v5, v1367] : Fin 2 → IVec S16 32) a x).toNat < S8x1024.size a := fun v3 v4 v5 v6 v7 v8 v9 v10 v1367 k0_hw55 => k0_hw55.2.2.1
theorem k0_idx436_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v6, v1367] : Fin 2 → IVec S16 32) a x).toNat < S8x1024.size a := fun v3 v4 v5 v6 v7 v8 v9 v10 v1367 k0_hw55 => k0_hw55.2.2.2.1
theorem k0_idx437_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v7, v1367] : Fin 2 → IVec S16 32) a x).toNat < S8x1024.size a := fun v3 v4 v5 v6 v7 v8 v9 v10 v1367 k0_hw55 => k0_hw55.2.2.2.2.1
theorem k0_idx438_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v8, v1367] : Fin 2 → IVec S16 32) a x).toNat < S8x1024.size a := fun v3 v4 v5 v6 v7 v8 v9 v10 v1367 k0_hw55 => k0_hw55.2.2.2.2.2.1
theorem k0_idx439_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v9, v1367] : Fin 2 → IVec S16 32) a x).toNat < S8x1024.size a := fun v3 v4 v5 v6 v7 v8 v9 v10 v1367 k0_hw55 => k0_hw55.2.2.2.2.2.2.1
theorem k0_idx440_inb : ∀ (v3 : IVec S16 32) (v4 : IVec S16 32) (v5 : IVec S16 32) (v6 : IVec S16 32) (v7 : IVec S16 32) (v8 : IVec S16 32) (v9 : IVec S16 32) (v10 : IVec S16 32) (v1367 : IVec S16 32) (k0_hw55 : k0_chk55 v3 v4 v5 v6 v7 v8 v9 v10 v1367), ∀ a x, ((![v10, v1367] : Fin 2 → IVec S16 32) a x).toNat < S8x1024.size a := fun v3 v4 v5 v6 v7 v8 v9 v10 v1367 k0_hw55 => k0_hw55.2.2.2.2.2.2.2

def k0_chk56 (v3 : IVec S16 32) (v4 : IVec S16 32) (v5 : IVec S16 32) (v6 : IVec S16 32) (v7 : IVec S16 32) (v8 : IVec S16 32) (v9 : IVec S16 32) (v10 : IVec S16 32) (v1392 : IVec S16 32) : Prop :=
  (∀ a x, ((![v3, v1392] : Fin 2 → IVec S16 32) a x).toNat < S8x1024.size a) ∧
  (∀ a x, ((![v4, v1392] : Fin 2 → IVec S16 32) a x).toNat < S8x1024.size a) ∧
  (∀ a x, ((![v5, v1392] : Fin 2 → IVec S16 32) a x).toNat < S8x1024.size a) ∧
  (∀ a x, ((![v6, v1392] : Fin 2 → IVec S16 32) a x).toNat < S8x1024.size a) ∧
  (∀ a x, ((![v7, v1392] : Fin 2 → IVec S16 32) a x).toNat < S8x1024.size a) ∧
  (∀ a x, ((![v8, v1392] : Fin 2 → IVec S16 32) a x).toNat < S8x1024.size a) ∧
  (∀ a x, ((![v9, v1392] : Fin 2 → IVec S16 32) a x).toNat < S8x1024.size a) ∧
  (∀ a x, ((![v10, v1392] : Fin 2 → IVec S16 32) a x).toNat < S8x1024.size a)
instance k0_chk56.dec : ∀ (v3 : IVec S16 32) (v4 : IVec S16 32) (v5 : IVec S16 32) (v6 : IVec S16 32) (v7 : IVec S16 32) (v8 : IVec S16 32) (v9 : IVec S16 32) (v10 : IVec S16 32) (v1392 : IVec S16 32), Decidable (k0_chk56 v3 v4 v5 v6 v7 v8 v9 v10 v1392) := fun v3 v4 v5 v6 v7 v8 v9 v10 v1392 => decidable_of_iff' _ (Iff.of_eq (k0_chk56.eq_1 v3 v4 v5 v6 v7 v8 v9 v10 v1392))
theorem k0_idx441_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v3, v1392] : Fin 2 → IVec S16 32) a x).toNat < S8x1024.size a := fun v3 v4 v5 v6 v7 v8 v9 v10 v1392 k0_hw56 => k0_hw56.1
theorem k0_idx442_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v4, v1392] : Fin 2 → IVec S16 32) a x).toNat < S8x1024.size a := fun v3 v4 v5 v6 v7 v8 v9 v10 v1392 k0_hw56 => k0_hw56.2.1
theorem k0_idx443_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v5, v1392] : Fin 2 → IVec S16 32) a x).toNat < S8x1024.size a := fun v3 v4 v5 v6 v7 v8 v9 v10 v1392 k0_hw56 => k0_hw56.2.2.1
theorem k0_idx444_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v6, v1392] : Fin 2 → IVec S16 32) a x).toNat < S8x1024.size a := fun v3 v4 v5 v6 v7 v8 v9 v10 v1392 k0_hw56 => k0_hw56.2.2.2.1
theorem k0_idx445_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v7, v1392] : Fin 2 → IVec S16 32) a x).toNat < S8x1024.size a := fun v3 v4 v5 v6 v7 v8 v9 v10 v1392 k0_hw56 => k0_hw56.2.2.2.2.1
theorem k0_idx446_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v8, v1392] : Fin 2 → IVec S16 32) a x).toNat < S8x1024.size a := fun v3 v4 v5 v6 v7 v8 v9 v10 v1392 k0_hw56 => k0_hw56.2.2.2.2.2.1
theorem k0_idx447_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v9, v1392] : Fin 2 → IVec S16 32) a x).toNat < S8x1024.size a := fun v3 v4 v5 v6 v7 v8 v9 v10 v1392 k0_hw56 => k0_hw56.2.2.2.2.2.2.1
theorem k0_idx448_inb : ∀ (v3 : IVec S16 32) (v4 : IVec S16 32) (v5 : IVec S16 32) (v6 : IVec S16 32) (v7 : IVec S16 32) (v8 : IVec S16 32) (v9 : IVec S16 32) (v10 : IVec S16 32) (v1392 : IVec S16 32) (k0_hw56 : k0_chk56 v3 v4 v5 v6 v7 v8 v9 v10 v1392), ∀ a x, ((![v10, v1392] : Fin 2 → IVec S16 32) a x).toNat < S8x1024.size a := fun v3 v4 v5 v6 v7 v8 v9 v10 v1392 k0_hw56 => k0_hw56.2.2.2.2.2.2.2

def k0_chk57 (v3 : IVec S16 32) (v4 : IVec S16 32) (v5 : IVec S16 32) (v6 : IVec S16 32) (v7 : IVec S16 32) (v8 : IVec S16 32) (v9 : IVec S16 32) (v10 : IVec S16 32) (v1417 : IVec S16 32) : Prop :=
  (∀ a x, ((![v3, v1417] : Fin 2 → IVec S16 32) a x).toNat < S8x1024.size a) ∧
  (∀ a x, ((![v4, v1417] : Fin 2 → IVec S16 32) a x).toNat < S8x1024.size a) ∧
  (∀ a x, ((![v5, v1417] : Fin 2 → IVec S16 32) a x).toNat < S8x1024.size a) ∧
  (∀ a x, ((![v6, v1417] : Fin 2 → IVec S16 32) a x).toNat < S8x1024.size a) ∧
  (∀ a x, ((![v7, v1417] : Fin 2 → IVec S16 32) a x).toNat < S8x1024.size a) ∧
  (∀ a x, ((![v8, v1417] : Fin 2 → IVec S16 32) a x).toNat < S8x1024.size a) ∧
  (∀ a x, ((![v9, v1417] : Fin 2 → IVec S16 32) a x).toNat < S8x1024.size a) ∧
  (∀ a x, ((![v10, v1417] : Fin 2 → IVec S16 32) a x).toNat < S8x1024.size a)
instance k0_chk57.dec : ∀ (v3 : IVec S16 32) (v4 : IVec S16 32) (v5 : IVec S16 32) (v6 : IVec S16 32) (v7 : IVec S16 32) (v8 : IVec S16 32) (v9 : IVec S16 32) (v10 : IVec S16 32) (v1417 : IVec S16 32), Decidable (k0_chk57 v3 v4 v5 v6 v7 v8 v9 v10 v1417) := fun v3 v4 v5 v6 v7 v8 v9 v10 v1417 => decidable_of_iff' _ (Iff.of_eq (k0_chk57.eq_1 v3 v4 v5 v6 v7 v8 v9 v10 v1417))
theorem k0_idx449_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v3, v1417] : Fin 2 → IVec S16 32) a x).toNat < S8x1024.size a := fun v3 v4 v5 v6 v7 v8 v9 v10 v1417 k0_hw57 => k0_hw57.1
theorem k0_idx450_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v4, v1417] : Fin 2 → IVec S16 32) a x).toNat < S8x1024.size a := fun v3 v4 v5 v6 v7 v8 v9 v10 v1417 k0_hw57 => k0_hw57.2.1
theorem k0_idx451_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v5, v1417] : Fin 2 → IVec S16 32) a x).toNat < S8x1024.size a := fun v3 v4 v5 v6 v7 v8 v9 v10 v1417 k0_hw57 => k0_hw57.2.2.1
theorem k0_idx452_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v6, v1417] : Fin 2 → IVec S16 32) a x).toNat < S8x1024.size a := fun v3 v4 v5 v6 v7 v8 v9 v10 v1417 k0_hw57 => k0_hw57.2.2.2.1
theorem k0_idx453_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v7, v1417] : Fin 2 → IVec S16 32) a x).toNat < S8x1024.size a := fun v3 v4 v5 v6 v7 v8 v9 v10 v1417 k0_hw57 => k0_hw57.2.2.2.2.1
theorem k0_idx454_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v8, v1417] : Fin 2 → IVec S16 32) a x).toNat < S8x1024.size a := fun v3 v4 v5 v6 v7 v8 v9 v10 v1417 k0_hw57 => k0_hw57.2.2.2.2.2.1
theorem k0_idx455_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v9, v1417] : Fin 2 → IVec S16 32) a x).toNat < S8x1024.size a := fun v3 v4 v5 v6 v7 v8 v9 v10 v1417 k0_hw57 => k0_hw57.2.2.2.2.2.2.1
theorem k0_idx456_inb : ∀ (v3 : IVec S16 32) (v4 : IVec S16 32) (v5 : IVec S16 32) (v6 : IVec S16 32) (v7 : IVec S16 32) (v8 : IVec S16 32) (v9 : IVec S16 32) (v10 : IVec S16 32) (v1417 : IVec S16 32) (k0_hw57 : k0_chk57 v3 v4 v5 v6 v7 v8 v9 v10 v1417), ∀ a x, ((![v10, v1417] : Fin 2 → IVec S16 32) a x).toNat < S8x1024.size a := fun v3 v4 v5 v6 v7 v8 v9 v10 v1417 k0_hw57 => k0_hw57.2.2.2.2.2.2.2

def k0_chk58 (v3 : IVec S16 32) (v4 : IVec S16 32) (v5 : IVec S16 32) (v6 : IVec S16 32) (v7 : IVec S16 32) (v8 : IVec S16 32) (v9 : IVec S16 32) (v10 : IVec S16 32) (v1442 : IVec S16 32) : Prop :=
  (∀ a x, ((![v3, v1442] : Fin 2 → IVec S16 32) a x).toNat < S8x1024.size a) ∧
  (∀ a x, ((![v4, v1442] : Fin 2 → IVec S16 32) a x).toNat < S8x1024.size a) ∧
  (∀ a x, ((![v5, v1442] : Fin 2 → IVec S16 32) a x).toNat < S8x1024.size a) ∧
  (∀ a x, ((![v6, v1442] : Fin 2 → IVec S16 32) a x).toNat < S8x1024.size a) ∧
  (∀ a x, ((![v7, v1442] : Fin 2 → IVec S16 32) a x).toNat < S8x1024.size a) ∧
  (∀ a x, ((![v8, v1442] : Fin 2 → IVec S16 32) a x).toNat < S8x1024.size a) ∧
  (∀ a x, ((![v9, v1442] : Fin 2 → IVec S16 32) a x).toNat < S8x1024.size a) ∧
  (∀ a x, ((![v10, v1442] : Fin 2 → IVec S16 32) a x).toNat < S8x1024.size a)
instance k0_chk58.dec : ∀ (v3 : IVec S16 32) (v4 : IVec S16 32) (v5 : IVec S16 32) (v6 : IVec S16 32) (v7 : IVec S16 32) (v8 : IVec S16 32) (v9 : IVec S16 32) (v10 : IVec S16 32) (v1442 : IVec S16 32), Decidable (k0_chk58 v3 v4 v5 v6 v7 v8 v9 v10 v1442) := fun v3 v4 v5 v6 v7 v8 v9 v10 v1442 => decidable_of_iff' _ (Iff.of_eq (k0_chk58.eq_1 v3 v4 v5 v6 v7 v8 v9 v10 v1442))
theorem k0_idx457_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v3, v1442] : Fin 2 → IVec S16 32) a x).toNat < S8x1024.size a := fun v3 v4 v5 v6 v7 v8 v9 v10 v1442 k0_hw58 => k0_hw58.1
theorem k0_idx458_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v4, v1442] : Fin 2 → IVec S16 32) a x).toNat < S8x1024.size a := fun v3 v4 v5 v6 v7 v8 v9 v10 v1442 k0_hw58 => k0_hw58.2.1
theorem k0_idx459_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v5, v1442] : Fin 2 → IVec S16 32) a x).toNat < S8x1024.size a := fun v3 v4 v5 v6 v7 v8 v9 v10 v1442 k0_hw58 => k0_hw58.2.2.1
theorem k0_idx460_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v6, v1442] : Fin 2 → IVec S16 32) a x).toNat < S8x1024.size a := fun v3 v4 v5 v6 v7 v8 v9 v10 v1442 k0_hw58 => k0_hw58.2.2.2.1
theorem k0_idx461_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v7, v1442] : Fin 2 → IVec S16 32) a x).toNat < S8x1024.size a := fun v3 v4 v5 v6 v7 v8 v9 v10 v1442 k0_hw58 => k0_hw58.2.2.2.2.1
theorem k0_idx462_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v8, v1442] : Fin 2 → IVec S16 32) a x).toNat < S8x1024.size a := fun v3 v4 v5 v6 v7 v8 v9 v10 v1442 k0_hw58 => k0_hw58.2.2.2.2.2.1
theorem k0_idx463_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v9, v1442] : Fin 2 → IVec S16 32) a x).toNat < S8x1024.size a := fun v3 v4 v5 v6 v7 v8 v9 v10 v1442 k0_hw58 => k0_hw58.2.2.2.2.2.2.1
theorem k0_idx464_inb : ∀ (v3 : IVec S16 32) (v4 : IVec S16 32) (v5 : IVec S16 32) (v6 : IVec S16 32) (v7 : IVec S16 32) (v8 : IVec S16 32) (v9 : IVec S16 32) (v10 : IVec S16 32) (v1442 : IVec S16 32) (k0_hw58 : k0_chk58 v3 v4 v5 v6 v7 v8 v9 v10 v1442), ∀ a x, ((![v10, v1442] : Fin 2 → IVec S16 32) a x).toNat < S8x1024.size a := fun v3 v4 v5 v6 v7 v8 v9 v10 v1442 k0_hw58 => k0_hw58.2.2.2.2.2.2.2

def k0_chk59 (v3 : IVec S16 32) (v4 : IVec S16 32) (v5 : IVec S16 32) (v6 : IVec S16 32) (v7 : IVec S16 32) (v8 : IVec S16 32) (v9 : IVec S16 32) (v10 : IVec S16 32) (v1467 : IVec S16 32) : Prop :=
  (∀ a x, ((![v3, v1467] : Fin 2 → IVec S16 32) a x).toNat < S8x1024.size a) ∧
  (∀ a x, ((![v4, v1467] : Fin 2 → IVec S16 32) a x).toNat < S8x1024.size a) ∧
  (∀ a x, ((![v5, v1467] : Fin 2 → IVec S16 32) a x).toNat < S8x1024.size a) ∧
  (∀ a x, ((![v6, v1467] : Fin 2 → IVec S16 32) a x).toNat < S8x1024.size a) ∧
  (∀ a x, ((![v7, v1467] : Fin 2 → IVec S16 32) a x).toNat < S8x1024.size a) ∧
  (∀ a x, ((![v8, v1467] : Fin 2 → IVec S16 32) a x).toNat < S8x1024.size a) ∧
  (∀ a x, ((![v9, v1467] : Fin 2 → IVec S16 32) a x).toNat < S8x1024.size a) ∧
  (∀ a x, ((![v10, v1467] : Fin 2 → IVec S16 32) a x).toNat < S8x1024.size a)
instance k0_chk59.dec : ∀ (v3 : IVec S16 32) (v4 : IVec S16 32) (v5 : IVec S16 32) (v6 : IVec S16 32) (v7 : IVec S16 32) (v8 : IVec S16 32) (v9 : IVec S16 32) (v10 : IVec S16 32) (v1467 : IVec S16 32), Decidable (k0_chk59 v3 v4 v5 v6 v7 v8 v9 v10 v1467) := fun v3 v4 v5 v6 v7 v8 v9 v10 v1467 => decidable_of_iff' _ (Iff.of_eq (k0_chk59.eq_1 v3 v4 v5 v6 v7 v8 v9 v10 v1467))
theorem k0_idx465_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v3, v1467] : Fin 2 → IVec S16 32) a x).toNat < S8x1024.size a := fun v3 v4 v5 v6 v7 v8 v9 v10 v1467 k0_hw59 => k0_hw59.1
theorem k0_idx466_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v4, v1467] : Fin 2 → IVec S16 32) a x).toNat < S8x1024.size a := fun v3 v4 v5 v6 v7 v8 v9 v10 v1467 k0_hw59 => k0_hw59.2.1
theorem k0_idx467_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v5, v1467] : Fin 2 → IVec S16 32) a x).toNat < S8x1024.size a := fun v3 v4 v5 v6 v7 v8 v9 v10 v1467 k0_hw59 => k0_hw59.2.2.1
theorem k0_idx468_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v6, v1467] : Fin 2 → IVec S16 32) a x).toNat < S8x1024.size a := fun v3 v4 v5 v6 v7 v8 v9 v10 v1467 k0_hw59 => k0_hw59.2.2.2.1
theorem k0_idx469_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v7, v1467] : Fin 2 → IVec S16 32) a x).toNat < S8x1024.size a := fun v3 v4 v5 v6 v7 v8 v9 v10 v1467 k0_hw59 => k0_hw59.2.2.2.2.1
theorem k0_idx470_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v8, v1467] : Fin 2 → IVec S16 32) a x).toNat < S8x1024.size a := fun v3 v4 v5 v6 v7 v8 v9 v10 v1467 k0_hw59 => k0_hw59.2.2.2.2.2.1
theorem k0_idx471_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v9, v1467] : Fin 2 → IVec S16 32) a x).toNat < S8x1024.size a := fun v3 v4 v5 v6 v7 v8 v9 v10 v1467 k0_hw59 => k0_hw59.2.2.2.2.2.2.1
theorem k0_idx472_inb : ∀ (v3 : IVec S16 32) (v4 : IVec S16 32) (v5 : IVec S16 32) (v6 : IVec S16 32) (v7 : IVec S16 32) (v8 : IVec S16 32) (v9 : IVec S16 32) (v10 : IVec S16 32) (v1467 : IVec S16 32) (k0_hw59 : k0_chk59 v3 v4 v5 v6 v7 v8 v9 v10 v1467), ∀ a x, ((![v10, v1467] : Fin 2 → IVec S16 32) a x).toNat < S8x1024.size a := fun v3 v4 v5 v6 v7 v8 v9 v10 v1467 k0_hw59 => k0_hw59.2.2.2.2.2.2.2

def k0_chk60 (v3 : IVec S16 32) (v4 : IVec S16 32) (v5 : IVec S16 32) (v6 : IVec S16 32) (v7 : IVec S16 32) (v8 : IVec S16 32) (v9 : IVec S16 32) (v10 : IVec S16 32) (v1492 : IVec S16 32) : Prop :=
  (∀ a x, ((![v3, v1492] : Fin 2 → IVec S16 32) a x).toNat < S8x1024.size a) ∧
  (∀ a x, ((![v4, v1492] : Fin 2 → IVec S16 32) a x).toNat < S8x1024.size a) ∧
  (∀ a x, ((![v5, v1492] : Fin 2 → IVec S16 32) a x).toNat < S8x1024.size a) ∧
  (∀ a x, ((![v6, v1492] : Fin 2 → IVec S16 32) a x).toNat < S8x1024.size a) ∧
  (∀ a x, ((![v7, v1492] : Fin 2 → IVec S16 32) a x).toNat < S8x1024.size a) ∧
  (∀ a x, ((![v8, v1492] : Fin 2 → IVec S16 32) a x).toNat < S8x1024.size a) ∧
  (∀ a x, ((![v9, v1492] : Fin 2 → IVec S16 32) a x).toNat < S8x1024.size a) ∧
  (∀ a x, ((![v10, v1492] : Fin 2 → IVec S16 32) a x).toNat < S8x1024.size a)
instance k0_chk60.dec : ∀ (v3 : IVec S16 32) (v4 : IVec S16 32) (v5 : IVec S16 32) (v6 : IVec S16 32) (v7 : IVec S16 32) (v8 : IVec S16 32) (v9 : IVec S16 32) (v10 : IVec S16 32) (v1492 : IVec S16 32), Decidable (k0_chk60 v3 v4 v5 v6 v7 v8 v9 v10 v1492) := fun v3 v4 v5 v6 v7 v8 v9 v10 v1492 => decidable_of_iff' _ (Iff.of_eq (k0_chk60.eq_1 v3 v4 v5 v6 v7 v8 v9 v10 v1492))
theorem k0_idx473_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v3, v1492] : Fin 2 → IVec S16 32) a x).toNat < S8x1024.size a := fun v3 v4 v5 v6 v7 v8 v9 v10 v1492 k0_hw60 => k0_hw60.1
theorem k0_idx474_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v4, v1492] : Fin 2 → IVec S16 32) a x).toNat < S8x1024.size a := fun v3 v4 v5 v6 v7 v8 v9 v10 v1492 k0_hw60 => k0_hw60.2.1
theorem k0_idx475_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v5, v1492] : Fin 2 → IVec S16 32) a x).toNat < S8x1024.size a := fun v3 v4 v5 v6 v7 v8 v9 v10 v1492 k0_hw60 => k0_hw60.2.2.1
theorem k0_idx476_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v6, v1492] : Fin 2 → IVec S16 32) a x).toNat < S8x1024.size a := fun v3 v4 v5 v6 v7 v8 v9 v10 v1492 k0_hw60 => k0_hw60.2.2.2.1
theorem k0_idx477_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v7, v1492] : Fin 2 → IVec S16 32) a x).toNat < S8x1024.size a := fun v3 v4 v5 v6 v7 v8 v9 v10 v1492 k0_hw60 => k0_hw60.2.2.2.2.1
theorem k0_idx478_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v8, v1492] : Fin 2 → IVec S16 32) a x).toNat < S8x1024.size a := fun v3 v4 v5 v6 v7 v8 v9 v10 v1492 k0_hw60 => k0_hw60.2.2.2.2.2.1
theorem k0_idx479_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v9, v1492] : Fin 2 → IVec S16 32) a x).toNat < S8x1024.size a := fun v3 v4 v5 v6 v7 v8 v9 v10 v1492 k0_hw60 => k0_hw60.2.2.2.2.2.2.1
theorem k0_idx480_inb : ∀ (v3 : IVec S16 32) (v4 : IVec S16 32) (v5 : IVec S16 32) (v6 : IVec S16 32) (v7 : IVec S16 32) (v8 : IVec S16 32) (v9 : IVec S16 32) (v10 : IVec S16 32) (v1492 : IVec S16 32) (k0_hw60 : k0_chk60 v3 v4 v5 v6 v7 v8 v9 v10 v1492), ∀ a x, ((![v10, v1492] : Fin 2 → IVec S16 32) a x).toNat < S8x1024.size a := fun v3 v4 v5 v6 v7 v8 v9 v10 v1492 k0_hw60 => k0_hw60.2.2.2.2.2.2.2

def k0_chk61 (v3 : IVec S16 32) (v4 : IVec S16 32) (v5 : IVec S16 32) (v6 : IVec S16 32) (v7 : IVec S16 32) (v8 : IVec S16 32) (v9 : IVec S16 32) (v10 : IVec S16 32) (v1517 : IVec S16 32) : Prop :=
  (∀ a x, ((![v3, v1517] : Fin 2 → IVec S16 32) a x).toNat < S8x1024.size a) ∧
  (∀ a x, ((![v4, v1517] : Fin 2 → IVec S16 32) a x).toNat < S8x1024.size a) ∧
  (∀ a x, ((![v5, v1517] : Fin 2 → IVec S16 32) a x).toNat < S8x1024.size a) ∧
  (∀ a x, ((![v6, v1517] : Fin 2 → IVec S16 32) a x).toNat < S8x1024.size a) ∧
  (∀ a x, ((![v7, v1517] : Fin 2 → IVec S16 32) a x).toNat < S8x1024.size a) ∧
  (∀ a x, ((![v8, v1517] : Fin 2 → IVec S16 32) a x).toNat < S8x1024.size a) ∧
  (∀ a x, ((![v9, v1517] : Fin 2 → IVec S16 32) a x).toNat < S8x1024.size a) ∧
  (∀ a x, ((![v10, v1517] : Fin 2 → IVec S16 32) a x).toNat < S8x1024.size a)
instance k0_chk61.dec : ∀ (v3 : IVec S16 32) (v4 : IVec S16 32) (v5 : IVec S16 32) (v6 : IVec S16 32) (v7 : IVec S16 32) (v8 : IVec S16 32) (v9 : IVec S16 32) (v10 : IVec S16 32) (v1517 : IVec S16 32), Decidable (k0_chk61 v3 v4 v5 v6 v7 v8 v9 v10 v1517) := fun v3 v4 v5 v6 v7 v8 v9 v10 v1517 => decidable_of_iff' _ (Iff.of_eq (k0_chk61.eq_1 v3 v4 v5 v6 v7 v8 v9 v10 v1517))
theorem k0_idx481_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v3, v1517] : Fin 2 → IVec S16 32) a x).toNat < S8x1024.size a := fun v3 v4 v5 v6 v7 v8 v9 v10 v1517 k0_hw61 => k0_hw61.1
theorem k0_idx482_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v4, v1517] : Fin 2 → IVec S16 32) a x).toNat < S8x1024.size a := fun v3 v4 v5 v6 v7 v8 v9 v10 v1517 k0_hw61 => k0_hw61.2.1
theorem k0_idx483_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v5, v1517] : Fin 2 → IVec S16 32) a x).toNat < S8x1024.size a := fun v3 v4 v5 v6 v7 v8 v9 v10 v1517 k0_hw61 => k0_hw61.2.2.1
theorem k0_idx484_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v6, v1517] : Fin 2 → IVec S16 32) a x).toNat < S8x1024.size a := fun v3 v4 v5 v6 v7 v8 v9 v10 v1517 k0_hw61 => k0_hw61.2.2.2.1
theorem k0_idx485_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v7, v1517] : Fin 2 → IVec S16 32) a x).toNat < S8x1024.size a := fun v3 v4 v5 v6 v7 v8 v9 v10 v1517 k0_hw61 => k0_hw61.2.2.2.2.1
theorem k0_idx486_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v8, v1517] : Fin 2 → IVec S16 32) a x).toNat < S8x1024.size a := fun v3 v4 v5 v6 v7 v8 v9 v10 v1517 k0_hw61 => k0_hw61.2.2.2.2.2.1
theorem k0_idx487_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v9, v1517] : Fin 2 → IVec S16 32) a x).toNat < S8x1024.size a := fun v3 v4 v5 v6 v7 v8 v9 v10 v1517 k0_hw61 => k0_hw61.2.2.2.2.2.2.1
theorem k0_idx488_inb : ∀ (v3 : IVec S16 32) (v4 : IVec S16 32) (v5 : IVec S16 32) (v6 : IVec S16 32) (v7 : IVec S16 32) (v8 : IVec S16 32) (v9 : IVec S16 32) (v10 : IVec S16 32) (v1517 : IVec S16 32) (k0_hw61 : k0_chk61 v3 v4 v5 v6 v7 v8 v9 v10 v1517), ∀ a x, ((![v10, v1517] : Fin 2 → IVec S16 32) a x).toNat < S8x1024.size a := fun v3 v4 v5 v6 v7 v8 v9 v10 v1517 k0_hw61 => k0_hw61.2.2.2.2.2.2.2

def k0_chk62 (v3 : IVec S16 32) (v4 : IVec S16 32) (v5 : IVec S16 32) (v6 : IVec S16 32) (v7 : IVec S16 32) (v8 : IVec S16 32) (v9 : IVec S16 32) (v10 : IVec S16 32) (v1542 : IVec S16 32) : Prop :=
  (∀ a x, ((![v3, v1542] : Fin 2 → IVec S16 32) a x).toNat < S8x1024.size a) ∧
  (∀ a x, ((![v4, v1542] : Fin 2 → IVec S16 32) a x).toNat < S8x1024.size a) ∧
  (∀ a x, ((![v5, v1542] : Fin 2 → IVec S16 32) a x).toNat < S8x1024.size a) ∧
  (∀ a x, ((![v6, v1542] : Fin 2 → IVec S16 32) a x).toNat < S8x1024.size a) ∧
  (∀ a x, ((![v7, v1542] : Fin 2 → IVec S16 32) a x).toNat < S8x1024.size a) ∧
  (∀ a x, ((![v8, v1542] : Fin 2 → IVec S16 32) a x).toNat < S8x1024.size a) ∧
  (∀ a x, ((![v9, v1542] : Fin 2 → IVec S16 32) a x).toNat < S8x1024.size a) ∧
  (∀ a x, ((![v10, v1542] : Fin 2 → IVec S16 32) a x).toNat < S8x1024.size a)
instance k0_chk62.dec : ∀ (v3 : IVec S16 32) (v4 : IVec S16 32) (v5 : IVec S16 32) (v6 : IVec S16 32) (v7 : IVec S16 32) (v8 : IVec S16 32) (v9 : IVec S16 32) (v10 : IVec S16 32) (v1542 : IVec S16 32), Decidable (k0_chk62 v3 v4 v5 v6 v7 v8 v9 v10 v1542) := fun v3 v4 v5 v6 v7 v8 v9 v10 v1542 => decidable_of_iff' _ (Iff.of_eq (k0_chk62.eq_1 v3 v4 v5 v6 v7 v8 v9 v10 v1542))
theorem k0_idx489_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v3, v1542] : Fin 2 → IVec S16 32) a x).toNat < S8x1024.size a := fun v3 v4 v5 v6 v7 v8 v9 v10 v1542 k0_hw62 => k0_hw62.1
theorem k0_idx490_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v4, v1542] : Fin 2 → IVec S16 32) a x).toNat < S8x1024.size a := fun v3 v4 v5 v6 v7 v8 v9 v10 v1542 k0_hw62 => k0_hw62.2.1
theorem k0_idx491_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v5, v1542] : Fin 2 → IVec S16 32) a x).toNat < S8x1024.size a := fun v3 v4 v5 v6 v7 v8 v9 v10 v1542 k0_hw62 => k0_hw62.2.2.1
theorem k0_idx492_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v6, v1542] : Fin 2 → IVec S16 32) a x).toNat < S8x1024.size a := fun v3 v4 v5 v6 v7 v8 v9 v10 v1542 k0_hw62 => k0_hw62.2.2.2.1
theorem k0_idx493_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v7, v1542] : Fin 2 → IVec S16 32) a x).toNat < S8x1024.size a := fun v3 v4 v5 v6 v7 v8 v9 v10 v1542 k0_hw62 => k0_hw62.2.2.2.2.1
theorem k0_idx494_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v8, v1542] : Fin 2 → IVec S16 32) a x).toNat < S8x1024.size a := fun v3 v4 v5 v6 v7 v8 v9 v10 v1542 k0_hw62 => k0_hw62.2.2.2.2.2.1
theorem k0_idx495_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v9, v1542] : Fin 2 → IVec S16 32) a x).toNat < S8x1024.size a := fun v3 v4 v5 v6 v7 v8 v9 v10 v1542 k0_hw62 => k0_hw62.2.2.2.2.2.2.1
theorem k0_idx496_inb : ∀ (v3 : IVec S16 32) (v4 : IVec S16 32) (v5 : IVec S16 32) (v6 : IVec S16 32) (v7 : IVec S16 32) (v8 : IVec S16 32) (v9 : IVec S16 32) (v10 : IVec S16 32) (v1542 : IVec S16 32) (k0_hw62 : k0_chk62 v3 v4 v5 v6 v7 v8 v9 v10 v1542), ∀ a x, ((![v10, v1542] : Fin 2 → IVec S16 32) a x).toNat < S8x1024.size a := fun v3 v4 v5 v6 v7 v8 v9 v10 v1542 k0_hw62 => k0_hw62.2.2.2.2.2.2.2

def k0_chk63 (v3 : IVec S16 32) (v4 : IVec S16 32) (v5 : IVec S16 32) (v6 : IVec S16 32) (v7 : IVec S16 32) (v8 : IVec S16 32) (v9 : IVec S16 32) (v10 : IVec S16 32) (v1567 : IVec S16 32) : Prop :=
  (∀ a x, ((![v3, v1567] : Fin 2 → IVec S16 32) a x).toNat < S8x1024.size a) ∧
  (∀ a x, ((![v4, v1567] : Fin 2 → IVec S16 32) a x).toNat < S8x1024.size a) ∧
  (∀ a x, ((![v5, v1567] : Fin 2 → IVec S16 32) a x).toNat < S8x1024.size a) ∧
  (∀ a x, ((![v6, v1567] : Fin 2 → IVec S16 32) a x).toNat < S8x1024.size a) ∧
  (∀ a x, ((![v7, v1567] : Fin 2 → IVec S16 32) a x).toNat < S8x1024.size a) ∧
  (∀ a x, ((![v8, v1567] : Fin 2 → IVec S16 32) a x).toNat < S8x1024.size a) ∧
  (∀ a x, ((![v9, v1567] : Fin 2 → IVec S16 32) a x).toNat < S8x1024.size a) ∧
  (∀ a x, ((![v10, v1567] : Fin 2 → IVec S16 32) a x).toNat < S8x1024.size a)
instance k0_chk63.dec : ∀ (v3 : IVec S16 32) (v4 : IVec S16 32) (v5 : IVec S16 32) (v6 : IVec S16 32) (v7 : IVec S16 32) (v8 : IVec S16 32) (v9 : IVec S16 32) (v10 : IVec S16 32) (v1567 : IVec S16 32), Decidable (k0_chk63 v3 v4 v5 v6 v7 v8 v9 v10 v1567) := fun v3 v4 v5 v6 v7 v8 v9 v10 v1567 => decidable_of_iff' _ (Iff.of_eq (k0_chk63.eq_1 v3 v4 v5 v6 v7 v8 v9 v10 v1567))
theorem k0_idx497_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v3, v1567] : Fin 2 → IVec S16 32) a x).toNat < S8x1024.size a := fun v3 v4 v5 v6 v7 v8 v9 v10 v1567 k0_hw63 => k0_hw63.1
theorem k0_idx498_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v4, v1567] : Fin 2 → IVec S16 32) a x).toNat < S8x1024.size a := fun v3 v4 v5 v6 v7 v8 v9 v10 v1567 k0_hw63 => k0_hw63.2.1
theorem k0_idx499_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v5, v1567] : Fin 2 → IVec S16 32) a x).toNat < S8x1024.size a := fun v3 v4 v5 v6 v7 v8 v9 v10 v1567 k0_hw63 => k0_hw63.2.2.1
theorem k0_idx500_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v6, v1567] : Fin 2 → IVec S16 32) a x).toNat < S8x1024.size a := fun v3 v4 v5 v6 v7 v8 v9 v10 v1567 k0_hw63 => k0_hw63.2.2.2.1
theorem k0_idx501_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v7, v1567] : Fin 2 → IVec S16 32) a x).toNat < S8x1024.size a := fun v3 v4 v5 v6 v7 v8 v9 v10 v1567 k0_hw63 => k0_hw63.2.2.2.2.1
theorem k0_idx502_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v8, v1567] : Fin 2 → IVec S16 32) a x).toNat < S8x1024.size a := fun v3 v4 v5 v6 v7 v8 v9 v10 v1567 k0_hw63 => k0_hw63.2.2.2.2.2.1
theorem k0_idx503_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v9, v1567] : Fin 2 → IVec S16 32) a x).toNat < S8x1024.size a := fun v3 v4 v5 v6 v7 v8 v9 v10 v1567 k0_hw63 => k0_hw63.2.2.2.2.2.2.1
theorem k0_idx504_inb : ∀ (v3 : IVec S16 32) (v4 : IVec S16 32) (v5 : IVec S16 32) (v6 : IVec S16 32) (v7 : IVec S16 32) (v8 : IVec S16 32) (v9 : IVec S16 32) (v10 : IVec S16 32) (v1567 : IVec S16 32) (k0_hw63 : k0_chk63 v3 v4 v5 v6 v7 v8 v9 v10 v1567), ∀ a x, ((![v10, v1567] : Fin 2 → IVec S16 32) a x).toNat < S8x1024.size a := fun v3 v4 v5 v6 v7 v8 v9 v10 v1567 k0_hw63 => k0_hw63.2.2.2.2.2.2.2

def k0_chk64 (v3 : IVec S16 32) (v4 : IVec S16 32) (v5 : IVec S16 32) (v6 : IVec S16 32) (v7 : IVec S16 32) (v8 : IVec S16 32) (v9 : IVec S16 32) (v10 : IVec S16 32) (v1592 : IVec S16 32) : Prop :=
  (∀ a x, ((![v3, v1592] : Fin 2 → IVec S16 32) a x).toNat < S8x1024.size a) ∧
  (∀ a x, ((![v4, v1592] : Fin 2 → IVec S16 32) a x).toNat < S8x1024.size a) ∧
  (∀ a x, ((![v5, v1592] : Fin 2 → IVec S16 32) a x).toNat < S8x1024.size a) ∧
  (∀ a x, ((![v6, v1592] : Fin 2 → IVec S16 32) a x).toNat < S8x1024.size a) ∧
  (∀ a x, ((![v7, v1592] : Fin 2 → IVec S16 32) a x).toNat < S8x1024.size a) ∧
  (∀ a x, ((![v8, v1592] : Fin 2 → IVec S16 32) a x).toNat < S8x1024.size a) ∧
  (∀ a x, ((![v9, v1592] : Fin 2 → IVec S16 32) a x).toNat < S8x1024.size a) ∧
  (∀ a x, ((![v10, v1592] : Fin 2 → IVec S16 32) a x).toNat < S8x1024.size a)
instance k0_chk64.dec : ∀ (v3 : IVec S16 32) (v4 : IVec S16 32) (v5 : IVec S16 32) (v6 : IVec S16 32) (v7 : IVec S16 32) (v8 : IVec S16 32) (v9 : IVec S16 32) (v10 : IVec S16 32) (v1592 : IVec S16 32), Decidable (k0_chk64 v3 v4 v5 v6 v7 v8 v9 v10 v1592) := fun v3 v4 v5 v6 v7 v8 v9 v10 v1592 => decidable_of_iff' _ (Iff.of_eq (k0_chk64.eq_1 v3 v4 v5 v6 v7 v8 v9 v10 v1592))
theorem k0_idx505_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v3, v1592] : Fin 2 → IVec S16 32) a x).toNat < S8x1024.size a := fun v3 v4 v5 v6 v7 v8 v9 v10 v1592 k0_hw64 => k0_hw64.1
theorem k0_idx506_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v4, v1592] : Fin 2 → IVec S16 32) a x).toNat < S8x1024.size a := fun v3 v4 v5 v6 v7 v8 v9 v10 v1592 k0_hw64 => k0_hw64.2.1
theorem k0_idx507_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v5, v1592] : Fin 2 → IVec S16 32) a x).toNat < S8x1024.size a := fun v3 v4 v5 v6 v7 v8 v9 v10 v1592 k0_hw64 => k0_hw64.2.2.1
theorem k0_idx508_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v6, v1592] : Fin 2 → IVec S16 32) a x).toNat < S8x1024.size a := fun v3 v4 v5 v6 v7 v8 v9 v10 v1592 k0_hw64 => k0_hw64.2.2.2.1
theorem k0_idx509_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v7, v1592] : Fin 2 → IVec S16 32) a x).toNat < S8x1024.size a := fun v3 v4 v5 v6 v7 v8 v9 v10 v1592 k0_hw64 => k0_hw64.2.2.2.2.1
theorem k0_idx510_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v8, v1592] : Fin 2 → IVec S16 32) a x).toNat < S8x1024.size a := fun v3 v4 v5 v6 v7 v8 v9 v10 v1592 k0_hw64 => k0_hw64.2.2.2.2.2.1
theorem k0_idx511_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v9, v1592] : Fin 2 → IVec S16 32) a x).toNat < S8x1024.size a := fun v3 v4 v5 v6 v7 v8 v9 v10 v1592 k0_hw64 => k0_hw64.2.2.2.2.2.2.1
theorem k0_idx512_inb : ∀ (v3 : IVec S16 32) (v4 : IVec S16 32) (v5 : IVec S16 32) (v6 : IVec S16 32) (v7 : IVec S16 32) (v8 : IVec S16 32) (v9 : IVec S16 32) (v10 : IVec S16 32) (v1592 : IVec S16 32) (k0_hw64 : k0_chk64 v3 v4 v5 v6 v7 v8 v9 v10 v1592), ∀ a x, ((![v10, v1592] : Fin 2 → IVec S16 32) a x).toNat < S8x1024.size a := fun v3 v4 v5 v6 v7 v8 v9 v10 v1592 k0_hw64 => k0_hw64.2.2.2.2.2.2.2
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_19 : BitVec 32 := 2#32
  let c0_i32_7 : BitVec 32 := 0#32
  let c1_i32_9 : BitVec 32 := 1#32
  let arg14 : BitVec 32 := Scf.iv c0_i32_7 c1_i32_9 k0_t1
  let v26 : BitVec 32 := Scalar.muli c2_i32_19 arg14
  let c0_i32_20 : BitVec 32 := 0#32
  let v27 : BitVec 32 := Scalar.addi v26 c0_i32_20
  let c8_i32_1049 : BitVec 32 := 8#32
  let v1633 : BitVec 32 := Scalar.muli v27 c8_i32_1049
  let v1634 : BitVec 32 := Scalar.addi v2 v1633
  let c0_i32_1050 : BitVec 32 := 0#32
  ![v1634.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_19 : BitVec 32 := 2#32
  let c0_i32_7 : BitVec 32 := 0#32
  let c1_i32_9 : BitVec 32 := 1#32
  let arg14 : BitVec 32 := Scf.iv c0_i32_7 c1_i32_9 k0_t1
  let v26 : BitVec 32 := Scalar.muli c2_i32_19 arg14
  let c0_i32_20 : BitVec 32 := 0#32
  let v27 : BitVec 32 := Scalar.addi v26 c0_i32_20
  let c2_i32_1052 : BitVec 32 := 2#32
  let v1637 : BitVec 32 := Scalar.addi v27 c2_i32_1052
  let c15_i32 : BitVec 32 := 15#32
  let v1638 : BitVec 32 := Scalar.minsi v1637 c15_i32
  let c8_i32_1053 : BitVec 32 := 8#32
  let v1639 : BitVec 32 := Scalar.muli v1638 c8_i32_1053
  let v1640 : BitVec 32 := Scalar.addi v2 v1639
  let c0_i32_1054 : BitVec 32 := 0#32
  ![v1640.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1058 : BitVec 32 := 0#32
  ![v2.toNat, 0]
def k0_cond2 (k0_t1 : Fin k0_t1_loop.trips) : BitVec 1 :=
  let c0_i32_7 : BitVec 32 := 0#32
  let c1_i32_9 : BitVec 32 := 1#32
  let arg14 : BitVec 32 := Scf.iv c0_i32_7 c1_i32_9 k0_t1
  let c1_i32_1060 : BitVec 32 := 1#32
  let v1647 : BitVec 1 := Scalar.cmpi .sge arg14 c1_i32_1060
  let v1648 : BitVec 32 := Scalar.extui v1647
  let c0_i32_1061 : BitVec 32 := 0#32
  let v1649 : BitVec 1 := Scalar.cmpi .ne v1648 c0_i32_1061
  v1649

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2158 : BitVec 32 := 0#32
  ![v2.toNat, 0]

def k0_chk65 (v3 : IVec S16 32) (v4 : IVec S16 32) (v5 : IVec S16 32) (v6 : IVec S16 32) (v7 : IVec S16 32) (v8 : IVec S16 32) (v9 : IVec S16 32) (v10 : IVec S16 32) (v1650 : IVec S16 32) : Prop :=
  (∀ a x, ((![v3, v1650] : Fin 2 → IVec S16 32) a x).toNat < S8x1024.size a) ∧
  (∀ a x, ((![v4, v1650] : Fin 2 → IVec S16 32) a x).toNat < S8x1024.size a) ∧
  (∀ a x, ((![v5, v1650] : Fin 2 → IVec S16 32) a x).toNat < S8x1024.size a) ∧
  (∀ a x, ((![v6, v1650] : Fin 2 → IVec S16 32) a x).toNat < S8x1024.size a) ∧
  (∀ a x, ((![v7, v1650] : Fin 2 → IVec S16 32) a x).toNat < S8x1024.size a) ∧
  (∀ a x, ((![v8, v1650] : Fin 2 → IVec S16 32) a x).toNat < S8x1024.size a) ∧
  (∀ a x, ((![v9, v1650] : Fin 2 → IVec S16 32) a x).toNat < S8x1024.size a) ∧
  (∀ a x, ((![v10, v1650] : Fin 2 → IVec S16 32) a x).toNat < S8x1024.size a)
instance k0_chk65.dec : ∀ (v3 : IVec S16 32) (v4 : IVec S16 32) (v5 : IVec S16 32) (v6 : IVec S16 32) (v7 : IVec S16 32) (v8 : IVec S16 32) (v9 : IVec S16 32) (v10 : IVec S16 32) (v1650 : IVec S16 32), Decidable (k0_chk65 v3 v4 v5 v6 v7 v8 v9 v10 v1650) := fun v3 v4 v5 v6 v7 v8 v9 v10 v1650 => decidable_of_iff' _ (Iff.of_eq (k0_chk65.eq_1 v3 v4 v5 v6 v7 v8 v9 v10 v1650))
theorem k0_idx513_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v3, v1650] : Fin 2 → IVec S16 32) a x).toNat < S8x1024.size a := fun v3 v4 v5 v6 v7 v8 v9 v10 v1650 k0_hw65 => k0_hw65.1
theorem k0_idx514_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v4, v1650] : Fin 2 → IVec S16 32) a x).toNat < S8x1024.size a := fun v3 v4 v5 v6 v7 v8 v9 v10 v1650 k0_hw65 => k0_hw65.2.1
theorem k0_idx515_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v5, v1650] : Fin 2 → IVec S16 32) a x).toNat < S8x1024.size a := fun v3 v4 v5 v6 v7 v8 v9 v10 v1650 k0_hw65 => k0_hw65.2.2.1
theorem k0_idx516_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v6, v1650] : Fin 2 → IVec S16 32) a x).toNat < S8x1024.size a := fun v3 v4 v5 v6 v7 v8 v9 v10 v1650 k0_hw65 => k0_hw65.2.2.2.1
theorem k0_idx517_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v7, v1650] : Fin 2 → IVec S16 32) a x).toNat < S8x1024.size a := fun v3 v4 v5 v6 v7 v8 v9 v10 v1650 k0_hw65 => k0_hw65.2.2.2.2.1
theorem k0_idx518_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v8, v1650] : Fin 2 → IVec S16 32) a x).toNat < S8x1024.size a := fun v3 v4 v5 v6 v7 v8 v9 v10 v1650 k0_hw65 => k0_hw65.2.2.2.2.2.1
theorem k0_idx519_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v9, v1650] : Fin 2 → IVec S16 32) a x).toNat < S8x1024.size a := fun v3 v4 v5 v6 v7 v8 v9 v10 v1650 k0_hw65 => k0_hw65.2.2.2.2.2.2.1
theorem k0_idx520_inb : ∀ (v3 : IVec S16 32) (v4 : IVec S16 32) (v5 : IVec S16 32) (v6 : IVec S16 32) (v7 : IVec S16 32) (v8 : IVec S16 32) (v9 : IVec S16 32) (v10 : IVec S16 32) (v1650 : IVec S16 32) (k0_hw65 : k0_chk65 v3 v4 v5 v6 v7 v8 v9 v10 v1650), ∀ a x, ((![v10, v1650] : Fin 2 → IVec S16 32) a x).toNat < S8x1024.size a := fun v3 v4 v5 v6 v7 v8 v9 v10 v1650 k0_hw65 => k0_hw65.2.2.2.2.2.2.2

def k0_chk66 (v3 : IVec S16 32) (v4 : IVec S16 32) (v5 : IVec S16 32) (v6 : IVec S16 32) (v7 : IVec S16 32) (v8 : IVec S16 32) (v9 : IVec S16 32) (v10 : IVec S16 32) (v1659 : IVec S16 32) : Prop :=
  (∀ a x, ((![v3, v1659] : Fin 2 → IVec S16 32) a x).toNat < S8x1024.size a) ∧
  (∀ a x, ((![v4, v1659] : Fin 2 → IVec S16 32) a x).toNat < S8x1024.size a) ∧
  (∀ a x, ((![v5, v1659] : Fin 2 → IVec S16 32) a x).toNat < S8x1024.size a) ∧
  (∀ a x, ((![v6, v1659] : Fin 2 → IVec S16 32) a x).toNat < S8x1024.size a) ∧
  (∀ a x, ((![v7, v1659] : Fin 2 → IVec S16 32) a x).toNat < S8x1024.size a) ∧
  (∀ a x, ((![v8, v1659] : Fin 2 → IVec S16 32) a x).toNat < S8x1024.size a) ∧
  (∀ a x, ((![v9, v1659] : Fin 2 → IVec S16 32) a x).toNat < S8x1024.size a) ∧
  (∀ a x, ((![v10, v1659] : Fin 2 → IVec S16 32) a x).toNat < S8x1024.size a)
instance k0_chk66.dec : ∀ (v3 : IVec S16 32) (v4 : IVec S16 32) (v5 : IVec S16 32) (v6 : IVec S16 32) (v7 : IVec S16 32) (v8 : IVec S16 32) (v9 : IVec S16 32) (v10 : IVec S16 32) (v1659 : IVec S16 32), Decidable (k0_chk66 v3 v4 v5 v6 v7 v8 v9 v10 v1659) := fun v3 v4 v5 v6 v7 v8 v9 v10 v1659 => decidable_of_iff' _ (Iff.of_eq (k0_chk66.eq_1 v3 v4 v5 v6 v7 v8 v9 v10 v1659))
theorem k0_idx521_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v3, v1659] : Fin 2 → IVec S16 32) a x).toNat < S8x1024.size a := fun v3 v4 v5 v6 v7 v8 v9 v10 v1659 k0_hw66 => k0_hw66.1
theorem k0_idx522_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v4, v1659] : Fin 2 → IVec S16 32) a x).toNat < S8x1024.size a := fun v3 v4 v5 v6 v7 v8 v9 v10 v1659 k0_hw66 => k0_hw66.2.1
theorem k0_idx523_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v5, v1659] : Fin 2 → IVec S16 32) a x).toNat < S8x1024.size a := fun v3 v4 v5 v6 v7 v8 v9 v10 v1659 k0_hw66 => k0_hw66.2.2.1
theorem k0_idx524_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v6, v1659] : Fin 2 → IVec S16 32) a x).toNat < S8x1024.size a := fun v3 v4 v5 v6 v7 v8 v9 v10 v1659 k0_hw66 => k0_hw66.2.2.2.1
theorem k0_idx525_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v7, v1659] : Fin 2 → IVec S16 32) a x).toNat < S8x1024.size a := fun v3 v4 v5 v6 v7 v8 v9 v10 v1659 k0_hw66 => k0_hw66.2.2.2.2.1
theorem k0_idx526_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v8, v1659] : Fin 2 → IVec S16 32) a x).toNat < S8x1024.size a := fun v3 v4 v5 v6 v7 v8 v9 v10 v1659 k0_hw66 => k0_hw66.2.2.2.2.2.1
theorem k0_idx527_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v9, v1659] : Fin 2 → IVec S16 32) a x).toNat < S8x1024.size a := fun v3 v4 v5 v6 v7 v8 v9 v10 v1659 k0_hw66 => k0_hw66.2.2.2.2.2.2.1
theorem k0_idx528_inb : ∀ (v3 : IVec S16 32) (v4 : IVec S16 32) (v5 : IVec S16 32) (v6 : IVec S16 32) (v7 : IVec S16 32) (v8 : IVec S16 32) (v9 : IVec S16 32) (v10 : IVec S16 32) (v1659 : IVec S16 32) (k0_hw66 : k0_chk66 v3 v4 v5 v6 v7 v8 v9 v10 v1659), ∀ a x, ((![v10, v1659] : Fin 2 → IVec S16 32) a x).toNat < S8x1024.size a := fun v3 v4 v5 v6 v7 v8 v9 v10 v1659 k0_hw66 => k0_hw66.2.2.2.2.2.2.2

def k0_chk67 (v3 : IVec S16 32) (v4 : IVec S16 32) (v5 : IVec S16 32) (v6 : IVec S16 32) (v7 : IVec S16 32) (v8 : IVec S16 32) (v9 : IVec S16 32) (v10 : IVec S16 32) (v1684 : IVec S16 32) : Prop :=
  (∀ a x, ((![v3, v1684] : Fin 2 → IVec S16 32) a x).toNat < S8x1024.size a) ∧
  (∀ a x, ((![v4, v1684] : Fin 2 → IVec S16 32) a x).toNat < S8x1024.size a) ∧
  (∀ a x, ((![v5, v1684] : Fin 2 → IVec S16 32) a x).toNat < S8x1024.size a) ∧
  (∀ a x, ((![v6, v1684] : Fin 2 → IVec S16 32) a x).toNat < S8x1024.size a) ∧
  (∀ a x, ((![v7, v1684] : Fin 2 → IVec S16 32) a x).toNat < S8x1024.size a) ∧
  (∀ a x, ((![v8, v1684] : Fin 2 → IVec S16 32) a x).toNat < S8x1024.size a) ∧
  (∀ a x, ((![v9, v1684] : Fin 2 → IVec S16 32) a x).toNat < S8x1024.size a) ∧
  (∀ a x, ((![v10, v1684] : Fin 2 → IVec S16 32) a x).toNat < S8x1024.size a)
instance k0_chk67.dec : ∀ (v3 : IVec S16 32) (v4 : IVec S16 32) (v5 : IVec S16 32) (v6 : IVec S16 32) (v7 : IVec S16 32) (v8 : IVec S16 32) (v9 : IVec S16 32) (v10 : IVec S16 32) (v1684 : IVec S16 32), Decidable (k0_chk67 v3 v4 v5 v6 v7 v8 v9 v10 v1684) := fun v3 v4 v5 v6 v7 v8 v9 v10 v1684 => decidable_of_iff' _ (Iff.of_eq (k0_chk67.eq_1 v3 v4 v5 v6 v7 v8 v9 v10 v1684))
theorem k0_idx529_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v3, v1684] : Fin 2 → IVec S16 32) a x).toNat < S8x1024.size a := fun v3 v4 v5 v6 v7 v8 v9 v10 v1684 k0_hw67 => k0_hw67.1
theorem k0_idx530_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v4, v1684] : Fin 2 → IVec S16 32) a x).toNat < S8x1024.size a := fun v3 v4 v5 v6 v7 v8 v9 v10 v1684 k0_hw67 => k0_hw67.2.1
theorem k0_idx531_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v5, v1684] : Fin 2 → IVec S16 32) a x).toNat < S8x1024.size a := fun v3 v4 v5 v6 v7 v8 v9 v10 v1684 k0_hw67 => k0_hw67.2.2.1
theorem k0_idx532_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v6, v1684] : Fin 2 → IVec S16 32) a x).toNat < S8x1024.size a := fun v3 v4 v5 v6 v7 v8 v9 v10 v1684 k0_hw67 => k0_hw67.2.2.2.1
theorem k0_idx533_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v7, v1684] : Fin 2 → IVec S16 32) a x).toNat < S8x1024.size a := fun v3 v4 v5 v6 v7 v8 v9 v10 v1684 k0_hw67 => k0_hw67.2.2.2.2.1
theorem k0_idx534_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v8, v1684] : Fin 2 → IVec S16 32) a x).toNat < S8x1024.size a := fun v3 v4 v5 v6 v7 v8 v9 v10 v1684 k0_hw67 => k0_hw67.2.2.2.2.2.1
theorem k0_idx535_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v9, v1684] : Fin 2 → IVec S16 32) a x).toNat < S8x1024.size a := fun v3 v4 v5 v6 v7 v8 v9 v10 v1684 k0_hw67 => k0_hw67.2.2.2.2.2.2.1
theorem k0_idx536_inb : ∀ (v3 : IVec S16 32) (v4 : IVec S16 32) (v5 : IVec S16 32) (v6 : IVec S16 32) (v7 : IVec S16 32) (v8 : IVec S16 32) (v9 : IVec S16 32) (v10 : IVec S16 32) (v1684 : IVec S16 32) (k0_hw67 : k0_chk67 v3 v4 v5 v6 v7 v8 v9 v10 v1684), ∀ a x, ((![v10, v1684] : Fin 2 → IVec S16 32) a x).toNat < S8x1024.size a := fun v3 v4 v5 v6 v7 v8 v9 v10 v1684 k0_hw67 => k0_hw67.2.2.2.2.2.2.2

def k0_chk68 (v3 : IVec S16 32) (v4 : IVec S16 32) (v5 : IVec S16 32) (v6 : IVec S16 32) (v7 : IVec S16 32) (v8 : IVec S16 32) (v9 : IVec S16 32) (v10 : IVec S16 32) (v1709 : IVec S16 32) : Prop :=
  (∀ a x, ((![v3, v1709] : Fin 2 → IVec S16 32) a x).toNat < S8x1024.size a) ∧
  (∀ a x, ((![v4, v1709] : Fin 2 → IVec S16 32) a x).toNat < S8x1024.size a) ∧
  (∀ a x, ((![v5, v1709] : Fin 2 → IVec S16 32) a x).toNat < S8x1024.size a) ∧
  (∀ a x, ((![v6, v1709] : Fin 2 → IVec S16 32) a x).toNat < S8x1024.size a) ∧
  (∀ a x, ((![v7, v1709] : Fin 2 → IVec S16 32) a x).toNat < S8x1024.size a) ∧
  (∀ a x, ((![v8, v1709] : Fin 2 → IVec S16 32) a x).toNat < S8x1024.size a) ∧
  (∀ a x, ((![v9, v1709] : Fin 2 → IVec S16 32) a x).toNat < S8x1024.size a) ∧
  (∀ a x, ((![v10, v1709] : Fin 2 → IVec S16 32) a x).toNat < S8x1024.size a)
instance k0_chk68.dec : ∀ (v3 : IVec S16 32) (v4 : IVec S16 32) (v5 : IVec S16 32) (v6 : IVec S16 32) (v7 : IVec S16 32) (v8 : IVec S16 32) (v9 : IVec S16 32) (v10 : IVec S16 32) (v1709 : IVec S16 32), Decidable (k0_chk68 v3 v4 v5 v6 v7 v8 v9 v10 v1709) := fun v3 v4 v5 v6 v7 v8 v9 v10 v1709 => decidable_of_iff' _ (Iff.of_eq (k0_chk68.eq_1 v3 v4 v5 v6 v7 v8 v9 v10 v1709))
theorem k0_idx537_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v3, v1709] : Fin 2 → IVec S16 32) a x).toNat < S8x1024.size a := fun v3 v4 v5 v6 v7 v8 v9 v10 v1709 k0_hw68 => k0_hw68.1
theorem k0_idx538_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v4, v1709] : Fin 2 → IVec S16 32) a x).toNat < S8x1024.size a := fun v3 v4 v5 v6 v7 v8 v9 v10 v1709 k0_hw68 => k0_hw68.2.1
theorem k0_idx539_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v5, v1709] : Fin 2 → IVec S16 32) a x).toNat < S8x1024.size a := fun v3 v4 v5 v6 v7 v8 v9 v10 v1709 k0_hw68 => k0_hw68.2.2.1
theorem k0_idx540_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v6, v1709] : Fin 2 → IVec S16 32) a x).toNat < S8x1024.size a := fun v3 v4 v5 v6 v7 v8 v9 v10 v1709 k0_hw68 => k0_hw68.2.2.2.1
theorem k0_idx541_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v7, v1709] : Fin 2 → IVec S16 32) a x).toNat < S8x1024.size a := fun v3 v4 v5 v6 v7 v8 v9 v10 v1709 k0_hw68 => k0_hw68.2.2.2.2.1
theorem k0_idx542_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v8, v1709] : Fin 2 → IVec S16 32) a x).toNat < S8x1024.size a := fun v3 v4 v5 v6 v7 v8 v9 v10 v1709 k0_hw68 => k0_hw68.2.2.2.2.2.1
theorem k0_idx543_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v9, v1709] : Fin 2 → IVec S16 32) a x).toNat < S8x1024.size a := fun v3 v4 v5 v6 v7 v8 v9 v10 v1709 k0_hw68 => k0_hw68.2.2.2.2.2.2.1
theorem k0_idx544_inb : ∀ (v3 : IVec S16 32) (v4 : IVec S16 32) (v5 : IVec S16 32) (v6 : IVec S16 32) (v7 : IVec S16 32) (v8 : IVec S16 32) (v9 : IVec S16 32) (v10 : IVec S16 32) (v1709 : IVec S16 32) (k0_hw68 : k0_chk68 v3 v4 v5 v6 v7 v8 v9 v10 v1709), ∀ a x, ((![v10, v1709] : Fin 2 → IVec S16 32) a x).toNat < S8x1024.size a := fun v3 v4 v5 v6 v7 v8 v9 v10 v1709 k0_hw68 => k0_hw68.2.2.2.2.2.2.2

def k0_chk69 (v3 : IVec S16 32) (v4 : IVec S16 32) (v5 : IVec S16 32) (v6 : IVec S16 32) (v7 : IVec S16 32) (v8 : IVec S16 32) (v9 : IVec S16 32) (v10 : IVec S16 32) (v1734 : IVec S16 32) : Prop :=
  (∀ a x, ((![v3, v1734] : Fin 2 → IVec S16 32) a x).toNat < S8x1024.size a) ∧
  (∀ a x, ((![v4, v1734] : Fin 2 → IVec S16 32) a x).toNat < S8x1024.size a) ∧
  (∀ a x, ((![v5, v1734] : Fin 2 → IVec S16 32) a x).toNat < S8x1024.size a) ∧
  (∀ a x, ((![v6, v1734] : Fin 2 → IVec S16 32) a x).toNat < S8x1024.size a) ∧
  (∀ a x, ((![v7, v1734] : Fin 2 → IVec S16 32) a x).toNat < S8x1024.size a) ∧
  (∀ a x, ((![v8, v1734] : Fin 2 → IVec S16 32) a x).toNat < S8x1024.size a) ∧
  (∀ a x, ((![v9, v1734] : Fin 2 → IVec S16 32) a x).toNat < S8x1024.size a) ∧
  (∀ a x, ((![v10, v1734] : Fin 2 → IVec S16 32) a x).toNat < S8x1024.size a)
instance k0_chk69.dec : ∀ (v3 : IVec S16 32) (v4 : IVec S16 32) (v5 : IVec S16 32) (v6 : IVec S16 32) (v7 : IVec S16 32) (v8 : IVec S16 32) (v9 : IVec S16 32) (v10 : IVec S16 32) (v1734 : IVec S16 32), Decidable (k0_chk69 v3 v4 v5 v6 v7 v8 v9 v10 v1734) := fun v3 v4 v5 v6 v7 v8 v9 v10 v1734 => decidable_of_iff' _ (Iff.of_eq (k0_chk69.eq_1 v3 v4 v5 v6 v7 v8 v9 v10 v1734))
theorem k0_idx545_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v3, v1734] : Fin 2 → IVec S16 32) a x).toNat < S8x1024.size a := fun v3 v4 v5 v6 v7 v8 v9 v10 v1734 k0_hw69 => k0_hw69.1
theorem k0_idx546_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v4, v1734] : Fin 2 → IVec S16 32) a x).toNat < S8x1024.size a := fun v3 v4 v5 v6 v7 v8 v9 v10 v1734 k0_hw69 => k0_hw69.2.1
theorem k0_idx547_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v5, v1734] : Fin 2 → IVec S16 32) a x).toNat < S8x1024.size a := fun v3 v4 v5 v6 v7 v8 v9 v10 v1734 k0_hw69 => k0_hw69.2.2.1
theorem k0_idx548_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v6, v1734] : Fin 2 → IVec S16 32) a x).toNat < S8x1024.size a := fun v3 v4 v5 v6 v7 v8 v9 v10 v1734 k0_hw69 => k0_hw69.2.2.2.1
theorem k0_idx549_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v7, v1734] : Fin 2 → IVec S16 32) a x).toNat < S8x1024.size a := fun v3 v4 v5 v6 v7 v8 v9 v10 v1734 k0_hw69 => k0_hw69.2.2.2.2.1
theorem k0_idx550_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v8, v1734] : Fin 2 → IVec S16 32) a x).toNat < S8x1024.size a := fun v3 v4 v5 v6 v7 v8 v9 v10 v1734 k0_hw69 => k0_hw69.2.2.2.2.2.1
theorem k0_idx551_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v9, v1734] : Fin 2 → IVec S16 32) a x).toNat < S8x1024.size a := fun v3 v4 v5 v6 v7 v8 v9 v10 v1734 k0_hw69 => k0_hw69.2.2.2.2.2.2.1
theorem k0_idx552_inb : ∀ (v3 : IVec S16 32) (v4 : IVec S16 32) (v5 : IVec S16 32) (v6 : IVec S16 32) (v7 : IVec S16 32) (v8 : IVec S16 32) (v9 : IVec S16 32) (v10 : IVec S16 32) (v1734 : IVec S16 32) (k0_hw69 : k0_chk69 v3 v4 v5 v6 v7 v8 v9 v10 v1734), ∀ a x, ((![v10, v1734] : Fin 2 → IVec S16 32) a x).toNat < S8x1024.size a := fun v3 v4 v5 v6 v7 v8 v9 v10 v1734 k0_hw69 => k0_hw69.2.2.2.2.2.2.2

def k0_chk70 (v3 : IVec S16 32) (v4 : IVec S16 32) (v5 : IVec S16 32) (v6 : IVec S16 32) (v7 : IVec S16 32) (v8 : IVec S16 32) (v9 : IVec S16 32) (v10 : IVec S16 32) (v1759 : IVec S16 32) : Prop :=
  (∀ a x, ((![v3, v1759] : Fin 2 → IVec S16 32) a x).toNat < S8x1024.size a) ∧
  (∀ a x, ((![v4, v1759] : Fin 2 → IVec S16 32) a x).toNat < S8x1024.size a) ∧
  (∀ a x, ((![v5, v1759] : Fin 2 → IVec S16 32) a x).toNat < S8x1024.size a) ∧
  (∀ a x, ((![v6, v1759] : Fin 2 → IVec S16 32) a x).toNat < S8x1024.size a) ∧
  (∀ a x, ((![v7, v1759] : Fin 2 → IVec S16 32) a x).toNat < S8x1024.size a) ∧
  (∀ a x, ((![v8, v1759] : Fin 2 → IVec S16 32) a x).toNat < S8x1024.size a) ∧
  (∀ a x, ((![v9, v1759] : Fin 2 → IVec S16 32) a x).toNat < S8x1024.size a) ∧
  (∀ a x, ((![v10, v1759] : Fin 2 → IVec S16 32) a x).toNat < S8x1024.size a)
instance k0_chk70.dec : ∀ (v3 : IVec S16 32) (v4 : IVec S16 32) (v5 : IVec S16 32) (v6 : IVec S16 32) (v7 : IVec S16 32) (v8 : IVec S16 32) (v9 : IVec S16 32) (v10 : IVec S16 32) (v1759 : IVec S16 32), Decidable (k0_chk70 v3 v4 v5 v6 v7 v8 v9 v10 v1759) := fun v3 v4 v5 v6 v7 v8 v9 v10 v1759 => decidable_of_iff' _ (Iff.of_eq (k0_chk70.eq_1 v3 v4 v5 v6 v7 v8 v9 v10 v1759))
theorem k0_idx553_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v3, v1759] : Fin 2 → IVec S16 32) a x).toNat < S8x1024.size a := fun v3 v4 v5 v6 v7 v8 v9 v10 v1759 k0_hw70 => k0_hw70.1
theorem k0_idx554_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v4, v1759] : Fin 2 → IVec S16 32) a x).toNat < S8x1024.size a := fun v3 v4 v5 v6 v7 v8 v9 v10 v1759 k0_hw70 => k0_hw70.2.1
theorem k0_idx555_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v5, v1759] : Fin 2 → IVec S16 32) a x).toNat < S8x1024.size a := fun v3 v4 v5 v6 v7 v8 v9 v10 v1759 k0_hw70 => k0_hw70.2.2.1
theorem k0_idx556_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v6, v1759] : Fin 2 → IVec S16 32) a x).toNat < S8x1024.size a := fun v3 v4 v5 v6 v7 v8 v9 v10 v1759 k0_hw70 => k0_hw70.2.2.2.1
theorem k0_idx557_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v7, v1759] : Fin 2 → IVec S16 32) a x).toNat < S8x1024.size a := fun v3 v4 v5 v6 v7 v8 v9 v10 v1759 k0_hw70 => k0_hw70.2.2.2.2.1
theorem k0_idx558_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v8, v1759] : Fin 2 → IVec S16 32) a x).toNat < S8x1024.size a := fun v3 v4 v5 v6 v7 v8 v9 v10 v1759 k0_hw70 => k0_hw70.2.2.2.2.2.1
theorem k0_idx559_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v9, v1759] : Fin 2 → IVec S16 32) a x).toNat < S8x1024.size a := fun v3 v4 v5 v6 v7 v8 v9 v10 v1759 k0_hw70 => k0_hw70.2.2.2.2.2.2.1
theorem k0_idx560_inb : ∀ (v3 : IVec S16 32) (v4 : IVec S16 32) (v5 : IVec S16 32) (v6 : IVec S16 32) (v7 : IVec S16 32) (v8 : IVec S16 32) (v9 : IVec S16 32) (v10 : IVec S16 32) (v1759 : IVec S16 32) (k0_hw70 : k0_chk70 v3 v4 v5 v6 v7 v8 v9 v10 v1759), ∀ a x, ((![v10, v1759] : Fin 2 → IVec S16 32) a x).toNat < S8x1024.size a := fun v3 v4 v5 v6 v7 v8 v9 v10 v1759 k0_hw70 => k0_hw70.2.2.2.2.2.2.2

def k0_chk71 (v3 : IVec S16 32) (v4 : IVec S16 32) (v5 : IVec S16 32) (v6 : IVec S16 32) (v7 : IVec S16 32) (v8 : IVec S16 32) (v9 : IVec S16 32) (v10 : IVec S16 32) (v1784 : IVec S16 32) : Prop :=
  (∀ a x, ((![v3, v1784] : Fin 2 → IVec S16 32) a x).toNat < S8x1024.size a) ∧
  (∀ a x, ((![v4, v1784] : Fin 2 → IVec S16 32) a x).toNat < S8x1024.size a) ∧
  (∀ a x, ((![v5, v1784] : Fin 2 → IVec S16 32) a x).toNat < S8x1024.size a) ∧
  (∀ a x, ((![v6, v1784] : Fin 2 → IVec S16 32) a x).toNat < S8x1024.size a) ∧
  (∀ a x, ((![v7, v1784] : Fin 2 → IVec S16 32) a x).toNat < S8x1024.size a) ∧
  (∀ a x, ((![v8, v1784] : Fin 2 → IVec S16 32) a x).toNat < S8x1024.size a) ∧
  (∀ a x, ((![v9, v1784] : Fin 2 → IVec S16 32) a x).toNat < S8x1024.size a) ∧
  (∀ a x, ((![v10, v1784] : Fin 2 → IVec S16 32) a x).toNat < S8x1024.size a)
instance k0_chk71.dec : ∀ (v3 : IVec S16 32) (v4 : IVec S16 32) (v5 : IVec S16 32) (v6 : IVec S16 32) (v7 : IVec S16 32) (v8 : IVec S16 32) (v9 : IVec S16 32) (v10 : IVec S16 32) (v1784 : IVec S16 32), Decidable (k0_chk71 v3 v4 v5 v6 v7 v8 v9 v10 v1784) := fun v3 v4 v5 v6 v7 v8 v9 v10 v1784 => decidable_of_iff' _ (Iff.of_eq (k0_chk71.eq_1 v3 v4 v5 v6 v7 v8 v9 v10 v1784))
theorem k0_idx561_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v3, v1784] : Fin 2 → IVec S16 32) a x).toNat < S8x1024.size a := fun v3 v4 v5 v6 v7 v8 v9 v10 v1784 k0_hw71 => k0_hw71.1
theorem k0_idx562_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v4, v1784] : Fin 2 → IVec S16 32) a x).toNat < S8x1024.size a := fun v3 v4 v5 v6 v7 v8 v9 v10 v1784 k0_hw71 => k0_hw71.2.1
theorem k0_idx563_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v5, v1784] : Fin 2 → IVec S16 32) a x).toNat < S8x1024.size a := fun v3 v4 v5 v6 v7 v8 v9 v10 v1784 k0_hw71 => k0_hw71.2.2.1
theorem k0_idx564_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v6, v1784] : Fin 2 → IVec S16 32) a x).toNat < S8x1024.size a := fun v3 v4 v5 v6 v7 v8 v9 v10 v1784 k0_hw71 => k0_hw71.2.2.2.1
theorem k0_idx565_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v7, v1784] : Fin 2 → IVec S16 32) a x).toNat < S8x1024.size a := fun v3 v4 v5 v6 v7 v8 v9 v10 v1784 k0_hw71 => k0_hw71.2.2.2.2.1
theorem k0_idx566_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v8, v1784] : Fin 2 → IVec S16 32) a x).toNat < S8x1024.size a := fun v3 v4 v5 v6 v7 v8 v9 v10 v1784 k0_hw71 => k0_hw71.2.2.2.2.2.1
theorem k0_idx567_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v9, v1784] : Fin 2 → IVec S16 32) a x).toNat < S8x1024.size a := fun v3 v4 v5 v6 v7 v8 v9 v10 v1784 k0_hw71 => k0_hw71.2.2.2.2.2.2.1
theorem k0_idx568_inb : ∀ (v3 : IVec S16 32) (v4 : IVec S16 32) (v5 : IVec S16 32) (v6 : IVec S16 32) (v7 : IVec S16 32) (v8 : IVec S16 32) (v9 : IVec S16 32) (v10 : IVec S16 32) (v1784 : IVec S16 32) (k0_hw71 : k0_chk71 v3 v4 v5 v6 v7 v8 v9 v10 v1784), ∀ a x, ((![v10, v1784] : Fin 2 → IVec S16 32) a x).toNat < S8x1024.size a := fun v3 v4 v5 v6 v7 v8 v9 v10 v1784 k0_hw71 => k0_hw71.2.2.2.2.2.2.2

def k0_chk72 (v3 : IVec S16 32) (v4 : IVec S16 32) (v5 : IVec S16 32) (v6 : IVec S16 32) (v7 : IVec S16 32) (v8 : IVec S16 32) (v9 : IVec S16 32) (v10 : IVec S16 32) (v1809 : IVec S16 32) : Prop :=
  (∀ a x, ((![v3, v1809] : Fin 2 → IVec S16 32) a x).toNat < S8x1024.size a) ∧
  (∀ a x, ((![v4, v1809] : Fin 2 → IVec S16 32) a x).toNat < S8x1024.size a) ∧
  (∀ a x, ((![v5, v1809] : Fin 2 → IVec S16 32) a x).toNat < S8x1024.size a) ∧
  (∀ a x, ((![v6, v1809] : Fin 2 → IVec S16 32) a x).toNat < S8x1024.size a) ∧
  (∀ a x, ((![v7, v1809] : Fin 2 → IVec S16 32) a x).toNat < S8x1024.size a) ∧
  (∀ a x, ((![v8, v1809] : Fin 2 → IVec S16 32) a x).toNat < S8x1024.size a) ∧
  (∀ a x, ((![v9, v1809] : Fin 2 → IVec S16 32) a x).toNat < S8x1024.size a) ∧
  (∀ a x, ((![v10, v1809] : Fin 2 → IVec S16 32) a x).toNat < S8x1024.size a)
instance k0_chk72.dec : ∀ (v3 : IVec S16 32) (v4 : IVec S16 32) (v5 : IVec S16 32) (v6 : IVec S16 32) (v7 : IVec S16 32) (v8 : IVec S16 32) (v9 : IVec S16 32) (v10 : IVec S16 32) (v1809 : IVec S16 32), Decidable (k0_chk72 v3 v4 v5 v6 v7 v8 v9 v10 v1809) := fun v3 v4 v5 v6 v7 v8 v9 v10 v1809 => decidable_of_iff' _ (Iff.of_eq (k0_chk72.eq_1 v3 v4 v5 v6 v7 v8 v9 v10 v1809))
theorem k0_idx569_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v3, v1809] : Fin 2 → IVec S16 32) a x).toNat < S8x1024.size a := fun v3 v4 v5 v6 v7 v8 v9 v10 v1809 k0_hw72 => k0_hw72.1
theorem k0_idx570_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v4, v1809] : Fin 2 → IVec S16 32) a x).toNat < S8x1024.size a := fun v3 v4 v5 v6 v7 v8 v9 v10 v1809 k0_hw72 => k0_hw72.2.1
theorem k0_idx571_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v5, v1809] : Fin 2 → IVec S16 32) a x).toNat < S8x1024.size a := fun v3 v4 v5 v6 v7 v8 v9 v10 v1809 k0_hw72 => k0_hw72.2.2.1
theorem k0_idx572_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v6, v1809] : Fin 2 → IVec S16 32) a x).toNat < S8x1024.size a := fun v3 v4 v5 v6 v7 v8 v9 v10 v1809 k0_hw72 => k0_hw72.2.2.2.1
theorem k0_idx573_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v7, v1809] : Fin 2 → IVec S16 32) a x).toNat < S8x1024.size a := fun v3 v4 v5 v6 v7 v8 v9 v10 v1809 k0_hw72 => k0_hw72.2.2.2.2.1
theorem k0_idx574_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v8, v1809] : Fin 2 → IVec S16 32) a x).toNat < S8x1024.size a := fun v3 v4 v5 v6 v7 v8 v9 v10 v1809 k0_hw72 => k0_hw72.2.2.2.2.2.1
theorem k0_idx575_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v9, v1809] : Fin 2 → IVec S16 32) a x).toNat < S8x1024.size a := fun v3 v4 v5 v6 v7 v8 v9 v10 v1809 k0_hw72 => k0_hw72.2.2.2.2.2.2.1
theorem k0_idx576_inb : ∀ (v3 : IVec S16 32) (v4 : IVec S16 32) (v5 : IVec S16 32) (v6 : IVec S16 32) (v7 : IVec S16 32) (v8 : IVec S16 32) (v9 : IVec S16 32) (v10 : IVec S16 32) (v1809 : IVec S16 32) (k0_hw72 : k0_chk72 v3 v4 v5 v6 v7 v8 v9 v10 v1809), ∀ a x, ((![v10, v1809] : Fin 2 → IVec S16 32) a x).toNat < S8x1024.size a := fun v3 v4 v5 v6 v7 v8 v9 v10 v1809 k0_hw72 => k0_hw72.2.2.2.2.2.2.2

def k0_chk73 (v3 : IVec S16 32) (v4 : IVec S16 32) (v5 : IVec S16 32) (v6 : IVec S16 32) (v7 : IVec S16 32) (v8 : IVec S16 32) (v9 : IVec S16 32) (v10 : IVec S16 32) (v1834 : IVec S16 32) : Prop :=
  (∀ a x, ((![v3, v1834] : Fin 2 → IVec S16 32) a x).toNat < S8x1024.size a) ∧
  (∀ a x, ((![v4, v1834] : Fin 2 → IVec S16 32) a x).toNat < S8x1024.size a) ∧
  (∀ a x, ((![v5, v1834] : Fin 2 → IVec S16 32) a x).toNat < S8x1024.size a) ∧
  (∀ a x, ((![v6, v1834] : Fin 2 → IVec S16 32) a x).toNat < S8x1024.size a) ∧
  (∀ a x, ((![v7, v1834] : Fin 2 → IVec S16 32) a x).toNat < S8x1024.size a) ∧
  (∀ a x, ((![v8, v1834] : Fin 2 → IVec S16 32) a x).toNat < S8x1024.size a) ∧
  (∀ a x, ((![v9, v1834] : Fin 2 → IVec S16 32) a x).toNat < S8x1024.size a) ∧
  (∀ a x, ((![v10, v1834] : Fin 2 → IVec S16 32) a x).toNat < S8x1024.size a)
instance k0_chk73.dec : ∀ (v3 : IVec S16 32) (v4 : IVec S16 32) (v5 : IVec S16 32) (v6 : IVec S16 32) (v7 : IVec S16 32) (v8 : IVec S16 32) (v9 : IVec S16 32) (v10 : IVec S16 32) (v1834 : IVec S16 32), Decidable (k0_chk73 v3 v4 v5 v6 v7 v8 v9 v10 v1834) := fun v3 v4 v5 v6 v7 v8 v9 v10 v1834 => decidable_of_iff' _ (Iff.of_eq (k0_chk73.eq_1 v3 v4 v5 v6 v7 v8 v9 v10 v1834))
theorem k0_idx577_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v3, v1834] : Fin 2 → IVec S16 32) a x).toNat < S8x1024.size a := fun v3 v4 v5 v6 v7 v8 v9 v10 v1834 k0_hw73 => k0_hw73.1
theorem k0_idx578_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v4, v1834] : Fin 2 → IVec S16 32) a x).toNat < S8x1024.size a := fun v3 v4 v5 v6 v7 v8 v9 v10 v1834 k0_hw73 => k0_hw73.2.1
theorem k0_idx579_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v5, v1834] : Fin 2 → IVec S16 32) a x).toNat < S8x1024.size a := fun v3 v4 v5 v6 v7 v8 v9 v10 v1834 k0_hw73 => k0_hw73.2.2.1
theorem k0_idx580_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v6, v1834] : Fin 2 → IVec S16 32) a x).toNat < S8x1024.size a := fun v3 v4 v5 v6 v7 v8 v9 v10 v1834 k0_hw73 => k0_hw73.2.2.2.1
theorem k0_idx581_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v7, v1834] : Fin 2 → IVec S16 32) a x).toNat < S8x1024.size a := fun v3 v4 v5 v6 v7 v8 v9 v10 v1834 k0_hw73 => k0_hw73.2.2.2.2.1
theorem k0_idx582_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v8, v1834] : Fin 2 → IVec S16 32) a x).toNat < S8x1024.size a := fun v3 v4 v5 v6 v7 v8 v9 v10 v1834 k0_hw73 => k0_hw73.2.2.2.2.2.1
theorem k0_idx583_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v9, v1834] : Fin 2 → IVec S16 32) a x).toNat < S8x1024.size a := fun v3 v4 v5 v6 v7 v8 v9 v10 v1834 k0_hw73 => k0_hw73.2.2.2.2.2.2.1
theorem k0_idx584_inb : ∀ (v3 : IVec S16 32) (v4 : IVec S16 32) (v5 : IVec S16 32) (v6 : IVec S16 32) (v7 : IVec S16 32) (v8 : IVec S16 32) (v9 : IVec S16 32) (v10 : IVec S16 32) (v1834 : IVec S16 32) (k0_hw73 : k0_chk73 v3 v4 v5 v6 v7 v8 v9 v10 v1834), ∀ a x, ((![v10, v1834] : Fin 2 → IVec S16 32) a x).toNat < S8x1024.size a := fun v3 v4 v5 v6 v7 v8 v9 v10 v1834 k0_hw73 => k0_hw73.2.2.2.2.2.2.2

def k0_chk74 (v3 : IVec S16 32) (v4 : IVec S16 32) (v5 : IVec S16 32) (v6 : IVec S16 32) (v7 : IVec S16 32) (v8 : IVec S16 32) (v9 : IVec S16 32) (v10 : IVec S16 32) (v1859 : IVec S16 32) : Prop :=
  (∀ a x, ((![v3, v1859] : Fin 2 → IVec S16 32) a x).toNat < S8x1024.size a) ∧
  (∀ a x, ((![v4, v1859] : Fin 2 → IVec S16 32) a x).toNat < S8x1024.size a) ∧
  (∀ a x, ((![v5, v1859] : Fin 2 → IVec S16 32) a x).toNat < S8x1024.size a) ∧
  (∀ a x, ((![v6, v1859] : Fin 2 → IVec S16 32) a x).toNat < S8x1024.size a) ∧
  (∀ a x, ((![v7, v1859] : Fin 2 → IVec S16 32) a x).toNat < S8x1024.size a) ∧
  (∀ a x, ((![v8, v1859] : Fin 2 → IVec S16 32) a x).toNat < S8x1024.size a) ∧
  (∀ a x, ((![v9, v1859] : Fin 2 → IVec S16 32) a x).toNat < S8x1024.size a) ∧
  (∀ a x, ((![v10, v1859] : Fin 2 → IVec S16 32) a x).toNat < S8x1024.size a)
instance k0_chk74.dec : ∀ (v3 : IVec S16 32) (v4 : IVec S16 32) (v5 : IVec S16 32) (v6 : IVec S16 32) (v7 : IVec S16 32) (v8 : IVec S16 32) (v9 : IVec S16 32) (v10 : IVec S16 32) (v1859 : IVec S16 32), Decidable (k0_chk74 v3 v4 v5 v6 v7 v8 v9 v10 v1859) := fun v3 v4 v5 v6 v7 v8 v9 v10 v1859 => decidable_of_iff' _ (Iff.of_eq (k0_chk74.eq_1 v3 v4 v5 v6 v7 v8 v9 v10 v1859))
theorem k0_idx585_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v3, v1859] : Fin 2 → IVec S16 32) a x).toNat < S8x1024.size a := fun v3 v4 v5 v6 v7 v8 v9 v10 v1859 k0_hw74 => k0_hw74.1
theorem k0_idx586_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v4, v1859] : Fin 2 → IVec S16 32) a x).toNat < S8x1024.size a := fun v3 v4 v5 v6 v7 v8 v9 v10 v1859 k0_hw74 => k0_hw74.2.1
theorem k0_idx587_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v5, v1859] : Fin 2 → IVec S16 32) a x).toNat < S8x1024.size a := fun v3 v4 v5 v6 v7 v8 v9 v10 v1859 k0_hw74 => k0_hw74.2.2.1
theorem k0_idx588_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v6, v1859] : Fin 2 → IVec S16 32) a x).toNat < S8x1024.size a := fun v3 v4 v5 v6 v7 v8 v9 v10 v1859 k0_hw74 => k0_hw74.2.2.2.1
theorem k0_idx589_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v7, v1859] : Fin 2 → IVec S16 32) a x).toNat < S8x1024.size a := fun v3 v4 v5 v6 v7 v8 v9 v10 v1859 k0_hw74 => k0_hw74.2.2.2.2.1
theorem k0_idx590_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v8, v1859] : Fin 2 → IVec S16 32) a x).toNat < S8x1024.size a := fun v3 v4 v5 v6 v7 v8 v9 v10 v1859 k0_hw74 => k0_hw74.2.2.2.2.2.1
theorem k0_idx591_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v9, v1859] : Fin 2 → IVec S16 32) a x).toNat < S8x1024.size a := fun v3 v4 v5 v6 v7 v8 v9 v10 v1859 k0_hw74 => k0_hw74.2.2.2.2.2.2.1
theorem k0_idx592_inb : ∀ (v3 : IVec S16 32) (v4 : IVec S16 32) (v5 : IVec S16 32) (v6 : IVec S16 32) (v7 : IVec S16 32) (v8 : IVec S16 32) (v9 : IVec S16 32) (v10 : IVec S16 32) (v1859 : IVec S16 32) (k0_hw74 : k0_chk74 v3 v4 v5 v6 v7 v8 v9 v10 v1859), ∀ a x, ((![v10, v1859] : Fin 2 → IVec S16 32) a x).toNat < S8x1024.size a := fun v3 v4 v5 v6 v7 v8 v9 v10 v1859 k0_hw74 => k0_hw74.2.2.2.2.2.2.2

def k0_chk75 (v3 : IVec S16 32) (v4 : IVec S16 32) (v5 : IVec S16 32) (v6 : IVec S16 32) (v7 : IVec S16 32) (v8 : IVec S16 32) (v9 : IVec S16 32) (v10 : IVec S16 32) (v1884 : IVec S16 32) : Prop :=
  (∀ a x, ((![v3, v1884] : Fin 2 → IVec S16 32) a x).toNat < S8x1024.size a) ∧
  (∀ a x, ((![v4, v1884] : Fin 2 → IVec S16 32) a x).toNat < S8x1024.size a) ∧
  (∀ a x, ((![v5, v1884] : Fin 2 → IVec S16 32) a x).toNat < S8x1024.size a) ∧
  (∀ a x, ((![v6, v1884] : Fin 2 → IVec S16 32) a x).toNat < S8x1024.size a) ∧
  (∀ a x, ((![v7, v1884] : Fin 2 → IVec S16 32) a x).toNat < S8x1024.size a) ∧
  (∀ a x, ((![v8, v1884] : Fin 2 → IVec S16 32) a x).toNat < S8x1024.size a) ∧
  (∀ a x, ((![v9, v1884] : Fin 2 → IVec S16 32) a x).toNat < S8x1024.size a) ∧
  (∀ a x, ((![v10, v1884] : Fin 2 → IVec S16 32) a x).toNat < S8x1024.size a)
instance k0_chk75.dec : ∀ (v3 : IVec S16 32) (v4 : IVec S16 32) (v5 : IVec S16 32) (v6 : IVec S16 32) (v7 : IVec S16 32) (v8 : IVec S16 32) (v9 : IVec S16 32) (v10 : IVec S16 32) (v1884 : IVec S16 32), Decidable (k0_chk75 v3 v4 v5 v6 v7 v8 v9 v10 v1884) := fun v3 v4 v5 v6 v7 v8 v9 v10 v1884 => decidable_of_iff' _ (Iff.of_eq (k0_chk75.eq_1 v3 v4 v5 v6 v7 v8 v9 v10 v1884))
theorem k0_idx593_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v3, v1884] : Fin 2 → IVec S16 32) a x).toNat < S8x1024.size a := fun v3 v4 v5 v6 v7 v8 v9 v10 v1884 k0_hw75 => k0_hw75.1
theorem k0_idx594_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v4, v1884] : Fin 2 → IVec S16 32) a x).toNat < S8x1024.size a := fun v3 v4 v5 v6 v7 v8 v9 v10 v1884 k0_hw75 => k0_hw75.2.1
theorem k0_idx595_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v5, v1884] : Fin 2 → IVec S16 32) a x).toNat < S8x1024.size a := fun v3 v4 v5 v6 v7 v8 v9 v10 v1884 k0_hw75 => k0_hw75.2.2.1
theorem k0_idx596_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v6, v1884] : Fin 2 → IVec S16 32) a x).toNat < S8x1024.size a := fun v3 v4 v5 v6 v7 v8 v9 v10 v1884 k0_hw75 => k0_hw75.2.2.2.1
theorem k0_idx597_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v7, v1884] : Fin 2 → IVec S16 32) a x).toNat < S8x1024.size a := fun v3 v4 v5 v6 v7 v8 v9 v10 v1884 k0_hw75 => k0_hw75.2.2.2.2.1
theorem k0_idx598_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v8, v1884] : Fin 2 → IVec S16 32) a x).toNat < S8x1024.size a := fun v3 v4 v5 v6 v7 v8 v9 v10 v1884 k0_hw75 => k0_hw75.2.2.2.2.2.1
theorem k0_idx599_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v9, v1884] : Fin 2 → IVec S16 32) a x).toNat < S8x1024.size a := fun v3 v4 v5 v6 v7 v8 v9 v10 v1884 k0_hw75 => k0_hw75.2.2.2.2.2.2.1
theorem k0_idx600_inb : ∀ (v3 : IVec S16 32) (v4 : IVec S16 32) (v5 : IVec S16 32) (v6 : IVec S16 32) (v7 : IVec S16 32) (v8 : IVec S16 32) (v9 : IVec S16 32) (v10 : IVec S16 32) (v1884 : IVec S16 32) (k0_hw75 : k0_chk75 v3 v4 v5 v6 v7 v8 v9 v10 v1884), ∀ a x, ((![v10, v1884] : Fin 2 → IVec S16 32) a x).toNat < S8x1024.size a := fun v3 v4 v5 v6 v7 v8 v9 v10 v1884 k0_hw75 => k0_hw75.2.2.2.2.2.2.2

def k0_chk76 (v3 : IVec S16 32) (v4 : IVec S16 32) (v5 : IVec S16 32) (v6 : IVec S16 32) (v7 : IVec S16 32) (v8 : IVec S16 32) (v9 : IVec S16 32) (v10 : IVec S16 32) (v1909 : IVec S16 32) : Prop :=
  (∀ a x, ((![v3, v1909] : Fin 2 → IVec S16 32) a x).toNat < S8x1024.size a) ∧
  (∀ a x, ((![v4, v1909] : Fin 2 → IVec S16 32) a x).toNat < S8x1024.size a) ∧
  (∀ a x, ((![v5, v1909] : Fin 2 → IVec S16 32) a x).toNat < S8x1024.size a) ∧
  (∀ a x, ((![v6, v1909] : Fin 2 → IVec S16 32) a x).toNat < S8x1024.size a) ∧
  (∀ a x, ((![v7, v1909] : Fin 2 → IVec S16 32) a x).toNat < S8x1024.size a) ∧
  (∀ a x, ((![v8, v1909] : Fin 2 → IVec S16 32) a x).toNat < S8x1024.size a) ∧
  (∀ a x, ((![v9, v1909] : Fin 2 → IVec S16 32) a x).toNat < S8x1024.size a) ∧
  (∀ a x, ((![v10, v1909] : Fin 2 → IVec S16 32) a x).toNat < S8x1024.size a)
instance k0_chk76.dec : ∀ (v3 : IVec S16 32) (v4 : IVec S16 32) (v5 : IVec S16 32) (v6 : IVec S16 32) (v7 : IVec S16 32) (v8 : IVec S16 32) (v9 : IVec S16 32) (v10 : IVec S16 32) (v1909 : IVec S16 32), Decidable (k0_chk76 v3 v4 v5 v6 v7 v8 v9 v10 v1909) := fun v3 v4 v5 v6 v7 v8 v9 v10 v1909 => decidable_of_iff' _ (Iff.of_eq (k0_chk76.eq_1 v3 v4 v5 v6 v7 v8 v9 v10 v1909))
theorem k0_idx601_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v3, v1909] : Fin 2 → IVec S16 32) a x).toNat < S8x1024.size a := fun v3 v4 v5 v6 v7 v8 v9 v10 v1909 k0_hw76 => k0_hw76.1
theorem k0_idx602_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v4, v1909] : Fin 2 → IVec S16 32) a x).toNat < S8x1024.size a := fun v3 v4 v5 v6 v7 v8 v9 v10 v1909 k0_hw76 => k0_hw76.2.1
theorem k0_idx603_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v5, v1909] : Fin 2 → IVec S16 32) a x).toNat < S8x1024.size a := fun v3 v4 v5 v6 v7 v8 v9 v10 v1909 k0_hw76 => k0_hw76.2.2.1
theorem k0_idx604_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v6, v1909] : Fin 2 → IVec S16 32) a x).toNat < S8x1024.size a := fun v3 v4 v5 v6 v7 v8 v9 v10 v1909 k0_hw76 => k0_hw76.2.2.2.1
theorem k0_idx605_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v7, v1909] : Fin 2 → IVec S16 32) a x).toNat < S8x1024.size a := fun v3 v4 v5 v6 v7 v8 v9 v10 v1909 k0_hw76 => k0_hw76.2.2.2.2.1
theorem k0_idx606_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v8, v1909] : Fin 2 → IVec S16 32) a x).toNat < S8x1024.size a := fun v3 v4 v5 v6 v7 v8 v9 v10 v1909 k0_hw76 => k0_hw76.2.2.2.2.2.1
theorem k0_idx607_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v9, v1909] : Fin 2 → IVec S16 32) a x).toNat < S8x1024.size a := fun v3 v4 v5 v6 v7 v8 v9 v10 v1909 k0_hw76 => k0_hw76.2.2.2.2.2.2.1
theorem k0_idx608_inb : ∀ (v3 : IVec S16 32) (v4 : IVec S16 32) (v5 : IVec S16 32) (v6 : IVec S16 32) (v7 : IVec S16 32) (v8 : IVec S16 32) (v9 : IVec S16 32) (v10 : IVec S16 32) (v1909 : IVec S16 32) (k0_hw76 : k0_chk76 v3 v4 v5 v6 v7 v8 v9 v10 v1909), ∀ a x, ((![v10, v1909] : Fin 2 → IVec S16 32) a x).toNat < S8x1024.size a := fun v3 v4 v5 v6 v7 v8 v9 v10 v1909 k0_hw76 => k0_hw76.2.2.2.2.2.2.2

def k0_chk77 (v3 : IVec S16 32) (v4 : IVec S16 32) (v5 : IVec S16 32) (v6 : IVec S16 32) (v7 : IVec S16 32) (v8 : IVec S16 32) (v9 : IVec S16 32) (v10 : IVec S16 32) (v1934 : IVec S16 32) : Prop :=
  (∀ a x, ((![v3, v1934] : Fin 2 → IVec S16 32) a x).toNat < S8x1024.size a) ∧
  (∀ a x, ((![v4, v1934] : Fin 2 → IVec S16 32) a x).toNat < S8x1024.size a) ∧
  (∀ a x, ((![v5, v1934] : Fin 2 → IVec S16 32) a x).toNat < S8x1024.size a) ∧
  (∀ a x, ((![v6, v1934] : Fin 2 → IVec S16 32) a x).toNat < S8x1024.size a) ∧
  (∀ a x, ((![v7, v1934] : Fin 2 → IVec S16 32) a x).toNat < S8x1024.size a) ∧
  (∀ a x, ((![v8, v1934] : Fin 2 → IVec S16 32) a x).toNat < S8x1024.size a) ∧
  (∀ a x, ((![v9, v1934] : Fin 2 → IVec S16 32) a x).toNat < S8x1024.size a) ∧
  (∀ a x, ((![v10, v1934] : Fin 2 → IVec S16 32) a x).toNat < S8x1024.size a)
instance k0_chk77.dec : ∀ (v3 : IVec S16 32) (v4 : IVec S16 32) (v5 : IVec S16 32) (v6 : IVec S16 32) (v7 : IVec S16 32) (v8 : IVec S16 32) (v9 : IVec S16 32) (v10 : IVec S16 32) (v1934 : IVec S16 32), Decidable (k0_chk77 v3 v4 v5 v6 v7 v8 v9 v10 v1934) := fun v3 v4 v5 v6 v7 v8 v9 v10 v1934 => decidable_of_iff' _ (Iff.of_eq (k0_chk77.eq_1 v3 v4 v5 v6 v7 v8 v9 v10 v1934))
theorem k0_idx609_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v3, v1934] : Fin 2 → IVec S16 32) a x).toNat < S8x1024.size a := fun v3 v4 v5 v6 v7 v8 v9 v10 v1934 k0_hw77 => k0_hw77.1
theorem k0_idx610_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v4, v1934] : Fin 2 → IVec S16 32) a x).toNat < S8x1024.size a := fun v3 v4 v5 v6 v7 v8 v9 v10 v1934 k0_hw77 => k0_hw77.2.1
theorem k0_idx611_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v5, v1934] : Fin 2 → IVec S16 32) a x).toNat < S8x1024.size a := fun v3 v4 v5 v6 v7 v8 v9 v10 v1934 k0_hw77 => k0_hw77.2.2.1
theorem k0_idx612_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v6, v1934] : Fin 2 → IVec S16 32) a x).toNat < S8x1024.size a := fun v3 v4 v5 v6 v7 v8 v9 v10 v1934 k0_hw77 => k0_hw77.2.2.2.1
theorem k0_idx613_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v7, v1934] : Fin 2 → IVec S16 32) a x).toNat < S8x1024.size a := fun v3 v4 v5 v6 v7 v8 v9 v10 v1934 k0_hw77 => k0_hw77.2.2.2.2.1
theorem k0_idx614_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v8, v1934] : Fin 2 → IVec S16 32) a x).toNat < S8x1024.size a := fun v3 v4 v5 v6 v7 v8 v9 v10 v1934 k0_hw77 => k0_hw77.2.2.2.2.2.1
theorem k0_idx615_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v9, v1934] : Fin 2 → IVec S16 32) a x).toNat < S8x1024.size a := fun v3 v4 v5 v6 v7 v8 v9 v10 v1934 k0_hw77 => k0_hw77.2.2.2.2.2.2.1
theorem k0_idx616_inb : ∀ (v3 : IVec S16 32) (v4 : IVec S16 32) (v5 : IVec S16 32) (v6 : IVec S16 32) (v7 : IVec S16 32) (v8 : IVec S16 32) (v9 : IVec S16 32) (v10 : IVec S16 32) (v1934 : IVec S16 32) (k0_hw77 : k0_chk77 v3 v4 v5 v6 v7 v8 v9 v10 v1934), ∀ a x, ((![v10, v1934] : Fin 2 → IVec S16 32) a x).toNat < S8x1024.size a := fun v3 v4 v5 v6 v7 v8 v9 v10 v1934 k0_hw77 => k0_hw77.2.2.2.2.2.2.2

def k0_chk78 (v3 : IVec S16 32) (v4 : IVec S16 32) (v5 : IVec S16 32) (v6 : IVec S16 32) (v7 : IVec S16 32) (v8 : IVec S16 32) (v9 : IVec S16 32) (v10 : IVec S16 32) (v1959 : IVec S16 32) : Prop :=
  (∀ a x, ((![v3, v1959] : Fin 2 → IVec S16 32) a x).toNat < S8x1024.size a) ∧
  (∀ a x, ((![v4, v1959] : Fin 2 → IVec S16 32) a x).toNat < S8x1024.size a) ∧
  (∀ a x, ((![v5, v1959] : Fin 2 → IVec S16 32) a x).toNat < S8x1024.size a) ∧
  (∀ a x, ((![v6, v1959] : Fin 2 → IVec S16 32) a x).toNat < S8x1024.size a) ∧
  (∀ a x, ((![v7, v1959] : Fin 2 → IVec S16 32) a x).toNat < S8x1024.size a) ∧
  (∀ a x, ((![v8, v1959] : Fin 2 → IVec S16 32) a x).toNat < S8x1024.size a) ∧
  (∀ a x, ((![v9, v1959] : Fin 2 → IVec S16 32) a x).toNat < S8x1024.size a) ∧
  (∀ a x, ((![v10, v1959] : Fin 2 → IVec S16 32) a x).toNat < S8x1024.size a)
instance k0_chk78.dec : ∀ (v3 : IVec S16 32) (v4 : IVec S16 32) (v5 : IVec S16 32) (v6 : IVec S16 32) (v7 : IVec S16 32) (v8 : IVec S16 32) (v9 : IVec S16 32) (v10 : IVec S16 32) (v1959 : IVec S16 32), Decidable (k0_chk78 v3 v4 v5 v6 v7 v8 v9 v10 v1959) := fun v3 v4 v5 v6 v7 v8 v9 v10 v1959 => decidable_of_iff' _ (Iff.of_eq (k0_chk78.eq_1 v3 v4 v5 v6 v7 v8 v9 v10 v1959))
theorem k0_idx617_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v3, v1959] : Fin 2 → IVec S16 32) a x).toNat < S8x1024.size a := fun v3 v4 v5 v6 v7 v8 v9 v10 v1959 k0_hw78 => k0_hw78.1
theorem k0_idx618_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v4, v1959] : Fin 2 → IVec S16 32) a x).toNat < S8x1024.size a := fun v3 v4 v5 v6 v7 v8 v9 v10 v1959 k0_hw78 => k0_hw78.2.1
theorem k0_idx619_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v5, v1959] : Fin 2 → IVec S16 32) a x).toNat < S8x1024.size a := fun v3 v4 v5 v6 v7 v8 v9 v10 v1959 k0_hw78 => k0_hw78.2.2.1
theorem k0_idx620_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v6, v1959] : Fin 2 → IVec S16 32) a x).toNat < S8x1024.size a := fun v3 v4 v5 v6 v7 v8 v9 v10 v1959 k0_hw78 => k0_hw78.2.2.2.1
theorem k0_idx621_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v7, v1959] : Fin 2 → IVec S16 32) a x).toNat < S8x1024.size a := fun v3 v4 v5 v6 v7 v8 v9 v10 v1959 k0_hw78 => k0_hw78.2.2.2.2.1
theorem k0_idx622_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v8, v1959] : Fin 2 → IVec S16 32) a x).toNat < S8x1024.size a := fun v3 v4 v5 v6 v7 v8 v9 v10 v1959 k0_hw78 => k0_hw78.2.2.2.2.2.1
theorem k0_idx623_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v9, v1959] : Fin 2 → IVec S16 32) a x).toNat < S8x1024.size a := fun v3 v4 v5 v6 v7 v8 v9 v10 v1959 k0_hw78 => k0_hw78.2.2.2.2.2.2.1
theorem k0_idx624_inb : ∀ (v3 : IVec S16 32) (v4 : IVec S16 32) (v5 : IVec S16 32) (v6 : IVec S16 32) (v7 : IVec S16 32) (v8 : IVec S16 32) (v9 : IVec S16 32) (v10 : IVec S16 32) (v1959 : IVec S16 32) (k0_hw78 : k0_chk78 v3 v4 v5 v6 v7 v8 v9 v10 v1959), ∀ a x, ((![v10, v1959] : Fin 2 → IVec S16 32) a x).toNat < S8x1024.size a := fun v3 v4 v5 v6 v7 v8 v9 v10 v1959 k0_hw78 => k0_hw78.2.2.2.2.2.2.2

def k0_chk79 (v3 : IVec S16 32) (v4 : IVec S16 32) (v5 : IVec S16 32) (v6 : IVec S16 32) (v7 : IVec S16 32) (v8 : IVec S16 32) (v9 : IVec S16 32) (v10 : IVec S16 32) (v1984 : IVec S16 32) : Prop :=
  (∀ a x, ((![v3, v1984] : Fin 2 → IVec S16 32) a x).toNat < S8x1024.size a) ∧
  (∀ a x, ((![v4, v1984] : Fin 2 → IVec S16 32) a x).toNat < S8x1024.size a) ∧
  (∀ a x, ((![v5, v1984] : Fin 2 → IVec S16 32) a x).toNat < S8x1024.size a) ∧
  (∀ a x, ((![v6, v1984] : Fin 2 → IVec S16 32) a x).toNat < S8x1024.size a) ∧
  (∀ a x, ((![v7, v1984] : Fin 2 → IVec S16 32) a x).toNat < S8x1024.size a) ∧
  (∀ a x, ((![v8, v1984] : Fin 2 → IVec S16 32) a x).toNat < S8x1024.size a) ∧
  (∀ a x, ((![v9, v1984] : Fin 2 → IVec S16 32) a x).toNat < S8x1024.size a) ∧
  (∀ a x, ((![v10, v1984] : Fin 2 → IVec S16 32) a x).toNat < S8x1024.size a)
instance k0_chk79.dec : ∀ (v3 : IVec S16 32) (v4 : IVec S16 32) (v5 : IVec S16 32) (v6 : IVec S16 32) (v7 : IVec S16 32) (v8 : IVec S16 32) (v9 : IVec S16 32) (v10 : IVec S16 32) (v1984 : IVec S16 32), Decidable (k0_chk79 v3 v4 v5 v6 v7 v8 v9 v10 v1984) := fun v3 v4 v5 v6 v7 v8 v9 v10 v1984 => decidable_of_iff' _ (Iff.of_eq (k0_chk79.eq_1 v3 v4 v5 v6 v7 v8 v9 v10 v1984))
theorem k0_idx625_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v3, v1984] : Fin 2 → IVec S16 32) a x).toNat < S8x1024.size a := fun v3 v4 v5 v6 v7 v8 v9 v10 v1984 k0_hw79 => k0_hw79.1
theorem k0_idx626_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v4, v1984] : Fin 2 → IVec S16 32) a x).toNat < S8x1024.size a := fun v3 v4 v5 v6 v7 v8 v9 v10 v1984 k0_hw79 => k0_hw79.2.1
theorem k0_idx627_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v5, v1984] : Fin 2 → IVec S16 32) a x).toNat < S8x1024.size a := fun v3 v4 v5 v6 v7 v8 v9 v10 v1984 k0_hw79 => k0_hw79.2.2.1
theorem k0_idx628_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v6, v1984] : Fin 2 → IVec S16 32) a x).toNat < S8x1024.size a := fun v3 v4 v5 v6 v7 v8 v9 v10 v1984 k0_hw79 => k0_hw79.2.2.2.1
theorem k0_idx629_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v7, v1984] : Fin 2 → IVec S16 32) a x).toNat < S8x1024.size a := fun v3 v4 v5 v6 v7 v8 v9 v10 v1984 k0_hw79 => k0_hw79.2.2.2.2.1
theorem k0_idx630_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v8, v1984] : Fin 2 → IVec S16 32) a x).toNat < S8x1024.size a := fun v3 v4 v5 v6 v7 v8 v9 v10 v1984 k0_hw79 => k0_hw79.2.2.2.2.2.1
theorem k0_idx631_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v9, v1984] : Fin 2 → IVec S16 32) a x).toNat < S8x1024.size a := fun v3 v4 v5 v6 v7 v8 v9 v10 v1984 k0_hw79 => k0_hw79.2.2.2.2.2.2.1
theorem k0_idx632_inb : ∀ (v3 : IVec S16 32) (v4 : IVec S16 32) (v5 : IVec S16 32) (v6 : IVec S16 32) (v7 : IVec S16 32) (v8 : IVec S16 32) (v9 : IVec S16 32) (v10 : IVec S16 32) (v1984 : IVec S16 32) (k0_hw79 : k0_chk79 v3 v4 v5 v6 v7 v8 v9 v10 v1984), ∀ a x, ((![v10, v1984] : Fin 2 → IVec S16 32) a x).toNat < S8x1024.size a := fun v3 v4 v5 v6 v7 v8 v9 v10 v1984 k0_hw79 => k0_hw79.2.2.2.2.2.2.2

def k0_chk80 (v3 : IVec S16 32) (v4 : IVec S16 32) (v5 : IVec S16 32) (v6 : IVec S16 32) (v7 : IVec S16 32) (v8 : IVec S16 32) (v9 : IVec S16 32) (v10 : IVec S16 32) (v2009 : IVec S16 32) : Prop :=
  (∀ a x, ((![v3, v2009] : Fin 2 → IVec S16 32) a x).toNat < S8x1024.size a) ∧
  (∀ a x, ((![v4, v2009] : Fin 2 → IVec S16 32) a x).toNat < S8x1024.size a) ∧
  (∀ a x, ((![v5, v2009] : Fin 2 → IVec S16 32) a x).toNat < S8x1024.size a) ∧
  (∀ a x, ((![v6, v2009] : Fin 2 → IVec S16 32) a x).toNat < S8x1024.size a) ∧
  (∀ a x, ((![v7, v2009] : Fin 2 → IVec S16 32) a x).toNat < S8x1024.size a) ∧
  (∀ a x, ((![v8, v2009] : Fin 2 → IVec S16 32) a x).toNat < S8x1024.size a) ∧
  (∀ a x, ((![v9, v2009] : Fin 2 → IVec S16 32) a x).toNat < S8x1024.size a) ∧
  (∀ a x, ((![v10, v2009] : Fin 2 → IVec S16 32) a x).toNat < S8x1024.size a)
instance k0_chk80.dec : ∀ (v3 : IVec S16 32) (v4 : IVec S16 32) (v5 : IVec S16 32) (v6 : IVec S16 32) (v7 : IVec S16 32) (v8 : IVec S16 32) (v9 : IVec S16 32) (v10 : IVec S16 32) (v2009 : IVec S16 32), Decidable (k0_chk80 v3 v4 v5 v6 v7 v8 v9 v10 v2009) := fun v3 v4 v5 v6 v7 v8 v9 v10 v2009 => decidable_of_iff' _ (Iff.of_eq (k0_chk80.eq_1 v3 v4 v5 v6 v7 v8 v9 v10 v2009))
theorem k0_idx633_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v3, v2009] : Fin 2 → IVec S16 32) a x).toNat < S8x1024.size a := fun v3 v4 v5 v6 v7 v8 v9 v10 v2009 k0_hw80 => k0_hw80.1
theorem k0_idx634_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v4, v2009] : Fin 2 → IVec S16 32) a x).toNat < S8x1024.size a := fun v3 v4 v5 v6 v7 v8 v9 v10 v2009 k0_hw80 => k0_hw80.2.1
theorem k0_idx635_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v5, v2009] : Fin 2 → IVec S16 32) a x).toNat < S8x1024.size a := fun v3 v4 v5 v6 v7 v8 v9 v10 v2009 k0_hw80 => k0_hw80.2.2.1
theorem k0_idx636_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v6, v2009] : Fin 2 → IVec S16 32) a x).toNat < S8x1024.size a := fun v3 v4 v5 v6 v7 v8 v9 v10 v2009 k0_hw80 => k0_hw80.2.2.2.1
theorem k0_idx637_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v7, v2009] : Fin 2 → IVec S16 32) a x).toNat < S8x1024.size a := fun v3 v4 v5 v6 v7 v8 v9 v10 v2009 k0_hw80 => k0_hw80.2.2.2.2.1
theorem k0_idx638_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v8, v2009] : Fin 2 → IVec S16 32) a x).toNat < S8x1024.size a := fun v3 v4 v5 v6 v7 v8 v9 v10 v2009 k0_hw80 => k0_hw80.2.2.2.2.2.1
theorem k0_idx639_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v9, v2009] : Fin 2 → IVec S16 32) a x).toNat < S8x1024.size a := fun v3 v4 v5 v6 v7 v8 v9 v10 v2009 k0_hw80 => k0_hw80.2.2.2.2.2.2.1
theorem k0_idx640_inb : ∀ (v3 : IVec S16 32) (v4 : IVec S16 32) (v5 : IVec S16 32) (v6 : IVec S16 32) (v7 : IVec S16 32) (v8 : IVec S16 32) (v9 : IVec S16 32) (v10 : IVec S16 32) (v2009 : IVec S16 32) (k0_hw80 : k0_chk80 v3 v4 v5 v6 v7 v8 v9 v10 v2009), ∀ a x, ((![v10, v2009] : Fin 2 → IVec S16 32) a x).toNat < S8x1024.size a := fun v3 v4 v5 v6 v7 v8 v9 v10 v2009 k0_hw80 => k0_hw80.2.2.2.2.2.2.2

def k0_chk81 (v3 : IVec S16 32) (v4 : IVec S16 32) (v5 : IVec S16 32) (v6 : IVec S16 32) (v7 : IVec S16 32) (v8 : IVec S16 32) (v9 : IVec S16 32) (v10 : IVec S16 32) (v2034 : IVec S16 32) : Prop :=
  (∀ a x, ((![v3, v2034] : Fin 2 → IVec S16 32) a x).toNat < S8x1024.size a) ∧
  (∀ a x, ((![v4, v2034] : Fin 2 → IVec S16 32) a x).toNat < S8x1024.size a) ∧
  (∀ a x, ((![v5, v2034] : Fin 2 → IVec S16 32) a x).toNat < S8x1024.size a) ∧
  (∀ a x, ((![v6, v2034] : Fin 2 → IVec S16 32) a x).toNat < S8x1024.size a) ∧
  (∀ a x, ((![v7, v2034] : Fin 2 → IVec S16 32) a x).toNat < S8x1024.size a) ∧
  (∀ a x, ((![v8, v2034] : Fin 2 → IVec S16 32) a x).toNat < S8x1024.size a) ∧
  (∀ a x, ((![v9, v2034] : Fin 2 → IVec S16 32) a x).toNat < S8x1024.size a) ∧
  (∀ a x, ((![v10, v2034] : Fin 2 → IVec S16 32) a x).toNat < S8x1024.size a)
instance k0_chk81.dec : ∀ (v3 : IVec S16 32) (v4 : IVec S16 32) (v5 : IVec S16 32) (v6 : IVec S16 32) (v7 : IVec S16 32) (v8 : IVec S16 32) (v9 : IVec S16 32) (v10 : IVec S16 32) (v2034 : IVec S16 32), Decidable (k0_chk81 v3 v4 v5 v6 v7 v8 v9 v10 v2034) := fun v3 v4 v5 v6 v7 v8 v9 v10 v2034 => decidable_of_iff' _ (Iff.of_eq (k0_chk81.eq_1 v3 v4 v5 v6 v7 v8 v9 v10 v2034))
theorem k0_idx641_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v3, v2034] : Fin 2 → IVec S16 32) a x).toNat < S8x1024.size a := fun v3 v4 v5 v6 v7 v8 v9 v10 v2034 k0_hw81 => k0_hw81.1
theorem k0_idx642_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v4, v2034] : Fin 2 → IVec S16 32) a x).toNat < S8x1024.size a := fun v3 v4 v5 v6 v7 v8 v9 v10 v2034 k0_hw81 => k0_hw81.2.1
theorem k0_idx643_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v5, v2034] : Fin 2 → IVec S16 32) a x).toNat < S8x1024.size a := fun v3 v4 v5 v6 v7 v8 v9 v10 v2034 k0_hw81 => k0_hw81.2.2.1
theorem k0_idx644_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v6, v2034] : Fin 2 → IVec S16 32) a x).toNat < S8x1024.size a := fun v3 v4 v5 v6 v7 v8 v9 v10 v2034 k0_hw81 => k0_hw81.2.2.2.1
theorem k0_idx645_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v7, v2034] : Fin 2 → IVec S16 32) a x).toNat < S8x1024.size a := fun v3 v4 v5 v6 v7 v8 v9 v10 v2034 k0_hw81 => k0_hw81.2.2.2.2.1
theorem k0_idx646_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v8, v2034] : Fin 2 → IVec S16 32) a x).toNat < S8x1024.size a := fun v3 v4 v5 v6 v7 v8 v9 v10 v2034 k0_hw81 => k0_hw81.2.2.2.2.2.1
theorem k0_idx647_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v9, v2034] : Fin 2 → IVec S16 32) a x).toNat < S8x1024.size a := fun v3 v4 v5 v6 v7 v8 v9 v10 v2034 k0_hw81 => k0_hw81.2.2.2.2.2.2.1
theorem k0_idx648_inb : ∀ (v3 : IVec S16 32) (v4 : IVec S16 32) (v5 : IVec S16 32) (v6 : IVec S16 32) (v7 : IVec S16 32) (v8 : IVec S16 32) (v9 : IVec S16 32) (v10 : IVec S16 32) (v2034 : IVec S16 32) (k0_hw81 : k0_chk81 v3 v4 v5 v6 v7 v8 v9 v10 v2034), ∀ a x, ((![v10, v2034] : Fin 2 → IVec S16 32) a x).toNat < S8x1024.size a := fun v3 v4 v5 v6 v7 v8 v9 v10 v2034 k0_hw81 => k0_hw81.2.2.2.2.2.2.2

def k0_chk82 (v3 : IVec S16 32) (v4 : IVec S16 32) (v5 : IVec S16 32) (v6 : IVec S16 32) (v7 : IVec S16 32) (v8 : IVec S16 32) (v9 : IVec S16 32) (v10 : IVec S16 32) (v2059 : IVec S16 32) : Prop :=
  (∀ a x, ((![v3, v2059] : Fin 2 → IVec S16 32) a x).toNat < S8x1024.size a) ∧
  (∀ a x, ((![v4, v2059] : Fin 2 → IVec S16 32) a x).toNat < S8x1024.size a) ∧
  (∀ a x, ((![v5, v2059] : Fin 2 → IVec S16 32) a x).toNat < S8x1024.size a) ∧
  (∀ a x, ((![v6, v2059] : Fin 2 → IVec S16 32) a x).toNat < S8x1024.size a) ∧
  (∀ a x, ((![v7, v2059] : Fin 2 → IVec S16 32) a x).toNat < S8x1024.size a) ∧
  (∀ a x, ((![v8, v2059] : Fin 2 → IVec S16 32) a x).toNat < S8x1024.size a) ∧
  (∀ a x, ((![v9, v2059] : Fin 2 → IVec S16 32) a x).toNat < S8x1024.size a) ∧
  (∀ a x, ((![v10, v2059] : Fin 2 → IVec S16 32) a x).toNat < S8x1024.size a)
instance k0_chk82.dec : ∀ (v3 : IVec S16 32) (v4 : IVec S16 32) (v5 : IVec S16 32) (v6 : IVec S16 32) (v7 : IVec S16 32) (v8 : IVec S16 32) (v9 : IVec S16 32) (v10 : IVec S16 32) (v2059 : IVec S16 32), Decidable (k0_chk82 v3 v4 v5 v6 v7 v8 v9 v10 v2059) := fun v3 v4 v5 v6 v7 v8 v9 v10 v2059 => decidable_of_iff' _ (Iff.of_eq (k0_chk82.eq_1 v3 v4 v5 v6 v7 v8 v9 v10 v2059))
theorem k0_idx649_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v3, v2059] : Fin 2 → IVec S16 32) a x).toNat < S8x1024.size a := fun v3 v4 v5 v6 v7 v8 v9 v10 v2059 k0_hw82 => k0_hw82.1
theorem k0_idx650_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v4, v2059] : Fin 2 → IVec S16 32) a x).toNat < S8x1024.size a := fun v3 v4 v5 v6 v7 v8 v9 v10 v2059 k0_hw82 => k0_hw82.2.1
theorem k0_idx651_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v5, v2059] : Fin 2 → IVec S16 32) a x).toNat < S8x1024.size a := fun v3 v4 v5 v6 v7 v8 v9 v10 v2059 k0_hw82 => k0_hw82.2.2.1
theorem k0_idx652_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v6, v2059] : Fin 2 → IVec S16 32) a x).toNat < S8x1024.size a := fun v3 v4 v5 v6 v7 v8 v9 v10 v2059 k0_hw82 => k0_hw82.2.2.2.1
theorem k0_idx653_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v7, v2059] : Fin 2 → IVec S16 32) a x).toNat < S8x1024.size a := fun v3 v4 v5 v6 v7 v8 v9 v10 v2059 k0_hw82 => k0_hw82.2.2.2.2.1
theorem k0_idx654_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v8, v2059] : Fin 2 → IVec S16 32) a x).toNat < S8x1024.size a := fun v3 v4 v5 v6 v7 v8 v9 v10 v2059 k0_hw82 => k0_hw82.2.2.2.2.2.1
theorem k0_idx655_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v9, v2059] : Fin 2 → IVec S16 32) a x).toNat < S8x1024.size a := fun v3 v4 v5 v6 v7 v8 v9 v10 v2059 k0_hw82 => k0_hw82.2.2.2.2.2.2.1
theorem k0_idx656_inb : ∀ (v3 : IVec S16 32) (v4 : IVec S16 32) (v5 : IVec S16 32) (v6 : IVec S16 32) (v7 : IVec S16 32) (v8 : IVec S16 32) (v9 : IVec S16 32) (v10 : IVec S16 32) (v2059 : IVec S16 32) (k0_hw82 : k0_chk82 v3 v4 v5 v6 v7 v8 v9 v10 v2059), ∀ a x, ((![v10, v2059] : Fin 2 → IVec S16 32) a x).toNat < S8x1024.size a := fun v3 v4 v5 v6 v7 v8 v9 v10 v2059 k0_hw82 => k0_hw82.2.2.2.2.2.2.2

def k0_chk83 (v3 : IVec S16 32) (v4 : IVec S16 32) (v5 : IVec S16 32) (v6 : IVec S16 32) (v7 : IVec S16 32) (v8 : IVec S16 32) (v9 : IVec S16 32) (v10 : IVec S16 32) (v2084 : IVec S16 32) : Prop :=
  (∀ a x, ((![v3, v2084] : Fin 2 → IVec S16 32) a x).toNat < S8x1024.size a) ∧
  (∀ a x, ((![v4, v2084] : Fin 2 → IVec S16 32) a x).toNat < S8x1024.size a) ∧
  (∀ a x, ((![v5, v2084] : Fin 2 → IVec S16 32) a x).toNat < S8x1024.size a) ∧
  (∀ a x, ((![v6, v2084] : Fin 2 → IVec S16 32) a x).toNat < S8x1024.size a) ∧
  (∀ a x, ((![v7, v2084] : Fin 2 → IVec S16 32) a x).toNat < S8x1024.size a) ∧
  (∀ a x, ((![v8, v2084] : Fin 2 → IVec S16 32) a x).toNat < S8x1024.size a) ∧
  (∀ a x, ((![v9, v2084] : Fin 2 → IVec S16 32) a x).toNat < S8x1024.size a) ∧
  (∀ a x, ((![v10, v2084] : Fin 2 → IVec S16 32) a x).toNat < S8x1024.size a)
instance k0_chk83.dec : ∀ (v3 : IVec S16 32) (v4 : IVec S16 32) (v5 : IVec S16 32) (v6 : IVec S16 32) (v7 : IVec S16 32) (v8 : IVec S16 32) (v9 : IVec S16 32) (v10 : IVec S16 32) (v2084 : IVec S16 32), Decidable (k0_chk83 v3 v4 v5 v6 v7 v8 v9 v10 v2084) := fun v3 v4 v5 v6 v7 v8 v9 v10 v2084 => decidable_of_iff' _ (Iff.of_eq (k0_chk83.eq_1 v3 v4 v5 v6 v7 v8 v9 v10 v2084))
theorem k0_idx657_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v3, v2084] : Fin 2 → IVec S16 32) a x).toNat < S8x1024.size a := fun v3 v4 v5 v6 v7 v8 v9 v10 v2084 k0_hw83 => k0_hw83.1
theorem k0_idx658_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v4, v2084] : Fin 2 → IVec S16 32) a x).toNat < S8x1024.size a := fun v3 v4 v5 v6 v7 v8 v9 v10 v2084 k0_hw83 => k0_hw83.2.1
theorem k0_idx659_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v5, v2084] : Fin 2 → IVec S16 32) a x).toNat < S8x1024.size a := fun v3 v4 v5 v6 v7 v8 v9 v10 v2084 k0_hw83 => k0_hw83.2.2.1
theorem k0_idx660_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v6, v2084] : Fin 2 → IVec S16 32) a x).toNat < S8x1024.size a := fun v3 v4 v5 v6 v7 v8 v9 v10 v2084 k0_hw83 => k0_hw83.2.2.2.1
theorem k0_idx661_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v7, v2084] : Fin 2 → IVec S16 32) a x).toNat < S8x1024.size a := fun v3 v4 v5 v6 v7 v8 v9 v10 v2084 k0_hw83 => k0_hw83.2.2.2.2.1
theorem k0_idx662_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v8, v2084] : Fin 2 → IVec S16 32) a x).toNat < S8x1024.size a := fun v3 v4 v5 v6 v7 v8 v9 v10 v2084 k0_hw83 => k0_hw83.2.2.2.2.2.1
theorem k0_idx663_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v9, v2084] : Fin 2 → IVec S16 32) a x).toNat < S8x1024.size a := fun v3 v4 v5 v6 v7 v8 v9 v10 v2084 k0_hw83 => k0_hw83.2.2.2.2.2.2.1
theorem k0_idx664_inb : ∀ (v3 : IVec S16 32) (v4 : IVec S16 32) (v5 : IVec S16 32) (v6 : IVec S16 32) (v7 : IVec S16 32) (v8 : IVec S16 32) (v9 : IVec S16 32) (v10 : IVec S16 32) (v2084 : IVec S16 32) (k0_hw83 : k0_chk83 v3 v4 v5 v6 v7 v8 v9 v10 v2084), ∀ a x, ((![v10, v2084] : Fin 2 → IVec S16 32) a x).toNat < S8x1024.size a := fun v3 v4 v5 v6 v7 v8 v9 v10 v2084 k0_hw83 => k0_hw83.2.2.2.2.2.2.2

def k0_chk84 (v3 : IVec S16 32) (v4 : IVec S16 32) (v5 : IVec S16 32) (v6 : IVec S16 32) (v7 : IVec S16 32) (v8 : IVec S16 32) (v9 : IVec S16 32) (v10 : IVec S16 32) (v2109 : IVec S16 32) : Prop :=
  (∀ a x, ((![v3, v2109] : Fin 2 → IVec S16 32) a x).toNat < S8x1024.size a) ∧
  (∀ a x, ((![v4, v2109] : Fin 2 → IVec S16 32) a x).toNat < S8x1024.size a) ∧
  (∀ a x, ((![v5, v2109] : Fin 2 → IVec S16 32) a x).toNat < S8x1024.size a) ∧
  (∀ a x, ((![v6, v2109] : Fin 2 → IVec S16 32) a x).toNat < S8x1024.size a) ∧
  (∀ a x, ((![v7, v2109] : Fin 2 → IVec S16 32) a x).toNat < S8x1024.size a) ∧
  (∀ a x, ((![v8, v2109] : Fin 2 → IVec S16 32) a x).toNat < S8x1024.size a) ∧
  (∀ a x, ((![v9, v2109] : Fin 2 → IVec S16 32) a x).toNat < S8x1024.size a) ∧
  (∀ a x, ((![v10, v2109] : Fin 2 → IVec S16 32) a x).toNat < S8x1024.size a)
instance k0_chk84.dec : ∀ (v3 : IVec S16 32) (v4 : IVec S16 32) (v5 : IVec S16 32) (v6 : IVec S16 32) (v7 : IVec S16 32) (v8 : IVec S16 32) (v9 : IVec S16 32) (v10 : IVec S16 32) (v2109 : IVec S16 32), Decidable (k0_chk84 v3 v4 v5 v6 v7 v8 v9 v10 v2109) := fun v3 v4 v5 v6 v7 v8 v9 v10 v2109 => decidable_of_iff' _ (Iff.of_eq (k0_chk84.eq_1 v3 v4 v5 v6 v7 v8 v9 v10 v2109))
theorem k0_idx665_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v3, v2109] : Fin 2 → IVec S16 32) a x).toNat < S8x1024.size a := fun v3 v4 v5 v6 v7 v8 v9 v10 v2109 k0_hw84 => k0_hw84.1
theorem k0_idx666_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v4, v2109] : Fin 2 → IVec S16 32) a x).toNat < S8x1024.size a := fun v3 v4 v5 v6 v7 v8 v9 v10 v2109 k0_hw84 => k0_hw84.2.1
theorem k0_idx667_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v5, v2109] : Fin 2 → IVec S16 32) a x).toNat < S8x1024.size a := fun v3 v4 v5 v6 v7 v8 v9 v10 v2109 k0_hw84 => k0_hw84.2.2.1
theorem k0_idx668_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v6, v2109] : Fin 2 → IVec S16 32) a x).toNat < S8x1024.size a := fun v3 v4 v5 v6 v7 v8 v9 v10 v2109 k0_hw84 => k0_hw84.2.2.2.1
theorem k0_idx669_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v7, v2109] : Fin 2 → IVec S16 32) a x).toNat < S8x1024.size a := fun v3 v4 v5 v6 v7 v8 v9 v10 v2109 k0_hw84 => k0_hw84.2.2.2.2.1
theorem k0_idx670_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v8, v2109] : Fin 2 → IVec S16 32) a x).toNat < S8x1024.size a := fun v3 v4 v5 v6 v7 v8 v9 v10 v2109 k0_hw84 => k0_hw84.2.2.2.2.2.1
theorem k0_idx671_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v9, v2109] : Fin 2 → IVec S16 32) a x).toNat < S8x1024.size a := fun v3 v4 v5 v6 v7 v8 v9 v10 v2109 k0_hw84 => k0_hw84.2.2.2.2.2.2.1
theorem k0_idx672_inb : ∀ (v3 : IVec S16 32) (v4 : IVec S16 32) (v5 : IVec S16 32) (v6 : IVec S16 32) (v7 : IVec S16 32) (v8 : IVec S16 32) (v9 : IVec S16 32) (v10 : IVec S16 32) (v2109 : IVec S16 32) (k0_hw84 : k0_chk84 v3 v4 v5 v6 v7 v8 v9 v10 v2109), ∀ a x, ((![v10, v2109] : Fin 2 → IVec S16 32) a x).toNat < S8x1024.size a := fun v3 v4 v5 v6 v7 v8 v9 v10 v2109 k0_hw84 => k0_hw84.2.2.2.2.2.2.2

def k0_chk85 (v3 : IVec S16 32) (v4 : IVec S16 32) (v5 : IVec S16 32) (v6 : IVec S16 32) (v7 : IVec S16 32) (v8 : IVec S16 32) (v9 : IVec S16 32) (v10 : IVec S16 32) (v2134 : IVec S16 32) : Prop :=
  (∀ a x, ((![v3, v2134] : Fin 2 → IVec S16 32) a x).toNat < S8x1024.size a) ∧
  (∀ a x, ((![v4, v2134] : Fin 2 → IVec S16 32) a x).toNat < S8x1024.size a) ∧
  (∀ a x, ((![v5, v2134] : Fin 2 → IVec S16 32) a x).toNat < S8x1024.size a) ∧
  (∀ a x, ((![v6, v2134] : Fin 2 → IVec S16 32) a x).toNat < S8x1024.size a) ∧
  (∀ a x, ((![v7, v2134] : Fin 2 → IVec S16 32) a x).toNat < S8x1024.size a) ∧
  (∀ a x, ((![v8, v2134] : Fin 2 → IVec S16 32) a x).toNat < S8x1024.size a) ∧
  (∀ a x, ((![v9, v2134] : Fin 2 → IVec S16 32) a x).toNat < S8x1024.size a) ∧
  (∀ a x, ((![v10, v2134] : Fin 2 → IVec S16 32) a x).toNat < S8x1024.size a)
instance k0_chk85.dec : ∀ (v3 : IVec S16 32) (v4 : IVec S16 32) (v5 : IVec S16 32) (v6 : IVec S16 32) (v7 : IVec S16 32) (v8 : IVec S16 32) (v9 : IVec S16 32) (v10 : IVec S16 32) (v2134 : IVec S16 32), Decidable (k0_chk85 v3 v4 v5 v6 v7 v8 v9 v10 v2134) := fun v3 v4 v5 v6 v7 v8 v9 v10 v2134 => decidable_of_iff' _ (Iff.of_eq (k0_chk85.eq_1 v3 v4 v5 v6 v7 v8 v9 v10 v2134))
theorem k0_idx673_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v3, v2134] : Fin 2 → IVec S16 32) a x).toNat < S8x1024.size a := fun v3 v4 v5 v6 v7 v8 v9 v10 v2134 k0_hw85 => k0_hw85.1
theorem k0_idx674_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v4, v2134] : Fin 2 → IVec S16 32) a x).toNat < S8x1024.size a := fun v3 v4 v5 v6 v7 v8 v9 v10 v2134 k0_hw85 => k0_hw85.2.1
theorem k0_idx675_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v5, v2134] : Fin 2 → IVec S16 32) a x).toNat < S8x1024.size a := fun v3 v4 v5 v6 v7 v8 v9 v10 v2134 k0_hw85 => k0_hw85.2.2.1
theorem k0_idx676_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v6, v2134] : Fin 2 → IVec S16 32) a x).toNat < S8x1024.size a := fun v3 v4 v5 v6 v7 v8 v9 v10 v2134 k0_hw85 => k0_hw85.2.2.2.1
theorem k0_idx677_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v7, v2134] : Fin 2 → IVec S16 32) a x).toNat < S8x1024.size a := fun v3 v4 v5 v6 v7 v8 v9 v10 v2134 k0_hw85 => k0_hw85.2.2.2.2.1
theorem k0_idx678_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v8, v2134] : Fin 2 → IVec S16 32) a x).toNat < S8x1024.size a := fun v3 v4 v5 v6 v7 v8 v9 v10 v2134 k0_hw85 => k0_hw85.2.2.2.2.2.1
theorem k0_idx679_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v9, v2134] : Fin 2 → IVec S16 32) a x).toNat < S8x1024.size a := fun v3 v4 v5 v6 v7 v8 v9 v10 v2134 k0_hw85 => k0_hw85.2.2.2.2.2.2.1
theorem k0_idx680_inb : ∀ (v3 : IVec S16 32) (v4 : IVec S16 32) (v5 : IVec S16 32) (v6 : IVec S16 32) (v7 : IVec S16 32) (v8 : IVec S16 32) (v9 : IVec S16 32) (v10 : IVec S16 32) (v2134 : IVec S16 32) (k0_hw85 : k0_chk85 v3 v4 v5 v6 v7 v8 v9 v10 v2134), ∀ a x, ((![v10, v2134] : Fin 2 → IVec S16 32) a x).toNat < S8x1024.size a := fun v3 v4 v5 v6 v7 v8 v9 v10 v2134 k0_hw85 => k0_hw85.2.2.2.2.2.2.2

def k0_chk86 (v3 : IVec S16 32) (v4 : IVec S16 32) (v5 : IVec S16 32) (v6 : IVec S16 32) (v7 : IVec S16 32) (v8 : IVec S16 32) (v9 : IVec S16 32) (v10 : IVec S16 32) (v2159 : IVec S16 32) : Prop :=
  (∀ a x, ((![v3, v2159] : Fin 2 → IVec S16 32) a x).toNat < S8x1024.size a) ∧
  (∀ a x, ((![v4, v2159] : Fin 2 → IVec S16 32) a x).toNat < S8x1024.size a) ∧
  (∀ a x, ((![v5, v2159] : Fin 2 → IVec S16 32) a x).toNat < S8x1024.size a) ∧
  (∀ a x, ((![v6, v2159] : Fin 2 → IVec S16 32) a x).toNat < S8x1024.size a) ∧
  (∀ a x, ((![v7, v2159] : Fin 2 → IVec S16 32) a x).toNat < S8x1024.size a) ∧
  (∀ a x, ((![v8, v2159] : Fin 2 → IVec S16 32) a x).toNat < S8x1024.size a) ∧
  (∀ a x, ((![v9, v2159] : Fin 2 → IVec S16 32) a x).toNat < S8x1024.size a) ∧
  (∀ a x, ((![v10, v2159] : Fin 2 → IVec S16 32) a x).toNat < S8x1024.size a)
instance k0_chk86.dec : ∀ (v3 : IVec S16 32) (v4 : IVec S16 32) (v5 : IVec S16 32) (v6 : IVec S16 32) (v7 : IVec S16 32) (v8 : IVec S16 32) (v9 : IVec S16 32) (v10 : IVec S16 32) (v2159 : IVec S16 32), Decidable (k0_chk86 v3 v4 v5 v6 v7 v8 v9 v10 v2159) := fun v3 v4 v5 v6 v7 v8 v9 v10 v2159 => decidable_of_iff' _ (Iff.of_eq (k0_chk86.eq_1 v3 v4 v5 v6 v7 v8 v9 v10 v2159))
theorem k0_idx681_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v3, v2159] : Fin 2 → IVec S16 32) a x).toNat < S8x1024.size a := fun v3 v4 v5 v6 v7 v8 v9 v10 v2159 k0_hw86 => k0_hw86.1
theorem k0_idx682_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v4, v2159] : Fin 2 → IVec S16 32) a x).toNat < S8x1024.size a := fun v3 v4 v5 v6 v7 v8 v9 v10 v2159 k0_hw86 => k0_hw86.2.1
theorem k0_idx683_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v5, v2159] : Fin 2 → IVec S16 32) a x).toNat < S8x1024.size a := fun v3 v4 v5 v6 v7 v8 v9 v10 v2159 k0_hw86 => k0_hw86.2.2.1
theorem k0_idx684_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v6, v2159] : Fin 2 → IVec S16 32) a x).toNat < S8x1024.size a := fun v3 v4 v5 v6 v7 v8 v9 v10 v2159 k0_hw86 => k0_hw86.2.2.2.1
theorem k0_idx685_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v7, v2159] : Fin 2 → IVec S16 32) a x).toNat < S8x1024.size a := fun v3 v4 v5 v6 v7 v8 v9 v10 v2159 k0_hw86 => k0_hw86.2.2.2.2.1
theorem k0_idx686_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v8, v2159] : Fin 2 → IVec S16 32) a x).toNat < S8x1024.size a := fun v3 v4 v5 v6 v7 v8 v9 v10 v2159 k0_hw86 => k0_hw86.2.2.2.2.2.1
theorem k0_idx687_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v9, v2159] : Fin 2 → IVec S16 32) a x).toNat < S8x1024.size a := fun v3 v4 v5 v6 v7 v8 v9 v10 v2159 k0_hw86 => k0_hw86.2.2.2.2.2.2.1
theorem k0_idx688_inb : ∀ (v3 : IVec S16 32) (v4 : IVec S16 32) (v5 : IVec S16 32) (v6 : IVec S16 32) (v7 : IVec S16 32) (v8 : IVec S16 32) (v9 : IVec S16 32) (v10 : IVec S16 32) (v2159 : IVec S16 32) (k0_hw86 : k0_chk86 v3 v4 v5 v6 v7 v8 v9 v10 v2159), ∀ a x, ((![v10, v2159] : Fin 2 → IVec S16 32) a x).toNat < S8x1024.size a := fun v3 v4 v5 v6 v7 v8 v9 v10 v2159 k0_hw86 => k0_hw86.2.2.2.2.2.2.2

def k0_chk87 (v3 : IVec S16 32) (v4 : IVec S16 32) (v5 : IVec S16 32) (v6 : IVec S16 32) (v7 : IVec S16 32) (v8 : IVec S16 32) (v9 : IVec S16 32) (v10 : IVec S16 32) (v2184 : IVec S16 32) : Prop :=
  (∀ a x, ((![v3, v2184] : Fin 2 → IVec S16 32) a x).toNat < S8x1024.size a) ∧
  (∀ a x, ((![v4, v2184] : Fin 2 → IVec S16 32) a x).toNat < S8x1024.size a) ∧
  (∀ a x, ((![v5, v2184] : Fin 2 → IVec S16 32) a x).toNat < S8x1024.size a) ∧
  (∀ a x, ((![v6, v2184] : Fin 2 → IVec S16 32) a x).toNat < S8x1024.size a) ∧
  (∀ a x, ((![v7, v2184] : Fin 2 → IVec S16 32) a x).toNat < S8x1024.size a) ∧
  (∀ a x, ((![v8, v2184] : Fin 2 → IVec S16 32) a x).toNat < S8x1024.size a) ∧
  (∀ a x, ((![v9, v2184] : Fin 2 → IVec S16 32) a x).toNat < S8x1024.size a) ∧
  (∀ a x, ((![v10, v2184] : Fin 2 → IVec S16 32) a x).toNat < S8x1024.size a)
instance k0_chk87.dec : ∀ (v3 : IVec S16 32) (v4 : IVec S16 32) (v5 : IVec S16 32) (v6 : IVec S16 32) (v7 : IVec S16 32) (v8 : IVec S16 32) (v9 : IVec S16 32) (v10 : IVec S16 32) (v2184 : IVec S16 32), Decidable (k0_chk87 v3 v4 v5 v6 v7 v8 v9 v10 v2184) := fun v3 v4 v5 v6 v7 v8 v9 v10 v2184 => decidable_of_iff' _ (Iff.of_eq (k0_chk87.eq_1 v3 v4 v5 v6 v7 v8 v9 v10 v2184))
theorem k0_idx689_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v3, v2184] : Fin 2 → IVec S16 32) a x).toNat < S8x1024.size a := fun v3 v4 v5 v6 v7 v8 v9 v10 v2184 k0_hw87 => k0_hw87.1
theorem k0_idx690_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v4, v2184] : Fin 2 → IVec S16 32) a x).toNat < S8x1024.size a := fun v3 v4 v5 v6 v7 v8 v9 v10 v2184 k0_hw87 => k0_hw87.2.1
theorem k0_idx691_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v5, v2184] : Fin 2 → IVec S16 32) a x).toNat < S8x1024.size a := fun v3 v4 v5 v6 v7 v8 v9 v10 v2184 k0_hw87 => k0_hw87.2.2.1
theorem k0_idx692_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v6, v2184] : Fin 2 → IVec S16 32) a x).toNat < S8x1024.size a := fun v3 v4 v5 v6 v7 v8 v9 v10 v2184 k0_hw87 => k0_hw87.2.2.2.1
theorem k0_idx693_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v7, v2184] : Fin 2 → IVec S16 32) a x).toNat < S8x1024.size a := fun v3 v4 v5 v6 v7 v8 v9 v10 v2184 k0_hw87 => k0_hw87.2.2.2.2.1
theorem k0_idx694_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v8, v2184] : Fin 2 → IVec S16 32) a x).toNat < S8x1024.size a := fun v3 v4 v5 v6 v7 v8 v9 v10 v2184 k0_hw87 => k0_hw87.2.2.2.2.2.1
theorem k0_idx695_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v9, v2184] : Fin 2 → IVec S16 32) a x).toNat < S8x1024.size a := fun v3 v4 v5 v6 v7 v8 v9 v10 v2184 k0_hw87 => k0_hw87.2.2.2.2.2.2.1
theorem k0_idx696_inb : ∀ (v3 : IVec S16 32) (v4 : IVec S16 32) (v5 : IVec S16 32) (v6 : IVec S16 32) (v7 : IVec S16 32) (v8 : IVec S16 32) (v9 : IVec S16 32) (v10 : IVec S16 32) (v2184 : IVec S16 32) (k0_hw87 : k0_chk87 v3 v4 v5 v6 v7 v8 v9 v10 v2184), ∀ a x, ((![v10, v2184] : Fin 2 → IVec S16 32) a x).toNat < S8x1024.size a := fun v3 v4 v5 v6 v7 v8 v9 v10 v2184 k0_hw87 => k0_hw87.2.2.2.2.2.2.2

def k0_chk88 (v3 : IVec S16 32) (v4 : IVec S16 32) (v5 : IVec S16 32) (v6 : IVec S16 32) (v7 : IVec S16 32) (v8 : IVec S16 32) (v9 : IVec S16 32) (v10 : IVec S16 32) (v2209 : IVec S16 32) : Prop :=
  (∀ a x, ((![v3, v2209] : Fin 2 → IVec S16 32) a x).toNat < S8x1024.size a) ∧
  (∀ a x, ((![v4, v2209] : Fin 2 → IVec S16 32) a x).toNat < S8x1024.size a) ∧
  (∀ a x, ((![v5, v2209] : Fin 2 → IVec S16 32) a x).toNat < S8x1024.size a) ∧
  (∀ a x, ((![v6, v2209] : Fin 2 → IVec S16 32) a x).toNat < S8x1024.size a) ∧
  (∀ a x, ((![v7, v2209] : Fin 2 → IVec S16 32) a x).toNat < S8x1024.size a) ∧
  (∀ a x, ((![v8, v2209] : Fin 2 → IVec S16 32) a x).toNat < S8x1024.size a) ∧
  (∀ a x, ((![v9, v2209] : Fin 2 → IVec S16 32) a x).toNat < S8x1024.size a) ∧
  (∀ a x, ((![v10, v2209] : Fin 2 → IVec S16 32) a x).toNat < S8x1024.size a)
instance k0_chk88.dec : ∀ (v3 : IVec S16 32) (v4 : IVec S16 32) (v5 : IVec S16 32) (v6 : IVec S16 32) (v7 : IVec S16 32) (v8 : IVec S16 32) (v9 : IVec S16 32) (v10 : IVec S16 32) (v2209 : IVec S16 32), Decidable (k0_chk88 v3 v4 v5 v6 v7 v8 v9 v10 v2209) := fun v3 v4 v5 v6 v7 v8 v9 v10 v2209 => decidable_of_iff' _ (Iff.of_eq (k0_chk88.eq_1 v3 v4 v5 v6 v7 v8 v9 v10 v2209))
theorem k0_idx697_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v3, v2209] : Fin 2 → IVec S16 32) a x).toNat < S8x1024.size a := fun v3 v4 v5 v6 v7 v8 v9 v10 v2209 k0_hw88 => k0_hw88.1
theorem k0_idx698_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v4, v2209] : Fin 2 → IVec S16 32) a x).toNat < S8x1024.size a := fun v3 v4 v5 v6 v7 v8 v9 v10 v2209 k0_hw88 => k0_hw88.2.1
theorem k0_idx699_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v5, v2209] : Fin 2 → IVec S16 32) a x).toNat < S8x1024.size a := fun v3 v4 v5 v6 v7 v8 v9 v10 v2209 k0_hw88 => k0_hw88.2.2.1
theorem k0_idx700_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v6, v2209] : Fin 2 → IVec S16 32) a x).toNat < S8x1024.size a := fun v3 v4 v5 v6 v7 v8 v9 v10 v2209 k0_hw88 => k0_hw88.2.2.2.1
theorem k0_idx701_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v7, v2209] : Fin 2 → IVec S16 32) a x).toNat < S8x1024.size a := fun v3 v4 v5 v6 v7 v8 v9 v10 v2209 k0_hw88 => k0_hw88.2.2.2.2.1
theorem k0_idx702_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v8, v2209] : Fin 2 → IVec S16 32) a x).toNat < S8x1024.size a := fun v3 v4 v5 v6 v7 v8 v9 v10 v2209 k0_hw88 => k0_hw88.2.2.2.2.2.1
theorem k0_idx703_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v9, v2209] : Fin 2 → IVec S16 32) a x).toNat < S8x1024.size a := fun v3 v4 v5 v6 v7 v8 v9 v10 v2209 k0_hw88 => k0_hw88.2.2.2.2.2.2.1
theorem k0_idx704_inb : ∀ (v3 : IVec S16 32) (v4 : IVec S16 32) (v5 : IVec S16 32) (v6 : IVec S16 32) (v7 : IVec S16 32) (v8 : IVec S16 32) (v9 : IVec S16 32) (v10 : IVec S16 32) (v2209 : IVec S16 32) (k0_hw88 : k0_chk88 v3 v4 v5 v6 v7 v8 v9 v10 v2209), ∀ a x, ((![v10, v2209] : Fin 2 → IVec S16 32) a x).toNat < S8x1024.size a := fun v3 v4 v5 v6 v7 v8 v9 v10 v2209 k0_hw88 => k0_hw88.2.2.2.2.2.2.2

def k0_chk89 (v3 : IVec S16 32) (v4 : IVec S16 32) (v5 : IVec S16 32) (v6 : IVec S16 32) (v7 : IVec S16 32) (v8 : IVec S16 32) (v9 : IVec S16 32) (v10 : IVec S16 32) (v2234 : IVec S16 32) : Prop :=
  (∀ a x, ((![v3, v2234] : Fin 2 → IVec S16 32) a x).toNat < S8x1024.size a) ∧
  (∀ a x, ((![v4, v2234] : Fin 2 → IVec S16 32) a x).toNat < S8x1024.size a) ∧
  (∀ a x, ((![v5, v2234] : Fin 2 → IVec S16 32) a x).toNat < S8x1024.size a) ∧
  (∀ a x, ((![v6, v2234] : Fin 2 → IVec S16 32) a x).toNat < S8x1024.size a) ∧
  (∀ a x, ((![v7, v2234] : Fin 2 → IVec S16 32) a x).toNat < S8x1024.size a) ∧
  (∀ a x, ((![v8, v2234] : Fin 2 → IVec S16 32) a x).toNat < S8x1024.size a) ∧
  (∀ a x, ((![v9, v2234] : Fin 2 → IVec S16 32) a x).toNat < S8x1024.size a) ∧
  (∀ a x, ((![v10, v2234] : Fin 2 → IVec S16 32) a x).toNat < S8x1024.size a)
instance k0_chk89.dec : ∀ (v3 : IVec S16 32) (v4 : IVec S16 32) (v5 : IVec S16 32) (v6 : IVec S16 32) (v7 : IVec S16 32) (v8 : IVec S16 32) (v9 : IVec S16 32) (v10 : IVec S16 32) (v2234 : IVec S16 32), Decidable (k0_chk89 v3 v4 v5 v6 v7 v8 v9 v10 v2234) := fun v3 v4 v5 v6 v7 v8 v9 v10 v2234 => decidable_of_iff' _ (Iff.of_eq (k0_chk89.eq_1 v3 v4 v5 v6 v7 v8 v9 v10 v2234))
theorem k0_idx705_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v3, v2234] : Fin 2 → IVec S16 32) a x).toNat < S8x1024.size a := fun v3 v4 v5 v6 v7 v8 v9 v10 v2234 k0_hw89 => k0_hw89.1
theorem k0_idx706_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v4, v2234] : Fin 2 → IVec S16 32) a x).toNat < S8x1024.size a := fun v3 v4 v5 v6 v7 v8 v9 v10 v2234 k0_hw89 => k0_hw89.2.1
theorem k0_idx707_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v5, v2234] : Fin 2 → IVec S16 32) a x).toNat < S8x1024.size a := fun v3 v4 v5 v6 v7 v8 v9 v10 v2234 k0_hw89 => k0_hw89.2.2.1
theorem k0_idx708_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v6, v2234] : Fin 2 → IVec S16 32) a x).toNat < S8x1024.size a := fun v3 v4 v5 v6 v7 v8 v9 v10 v2234 k0_hw89 => k0_hw89.2.2.2.1
theorem k0_idx709_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v7, v2234] : Fin 2 → IVec S16 32) a x).toNat < S8x1024.size a := fun v3 v4 v5 v6 v7 v8 v9 v10 v2234 k0_hw89 => k0_hw89.2.2.2.2.1
theorem k0_idx710_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v8, v2234] : Fin 2 → IVec S16 32) a x).toNat < S8x1024.size a := fun v3 v4 v5 v6 v7 v8 v9 v10 v2234 k0_hw89 => k0_hw89.2.2.2.2.2.1
theorem k0_idx711_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v9, v2234] : Fin 2 → IVec S16 32) a x).toNat < S8x1024.size a := fun v3 v4 v5 v6 v7 v8 v9 v10 v2234 k0_hw89 => k0_hw89.2.2.2.2.2.2.1
theorem k0_idx712_inb : ∀ (v3 : IVec S16 32) (v4 : IVec S16 32) (v5 : IVec S16 32) (v6 : IVec S16 32) (v7 : IVec S16 32) (v8 : IVec S16 32) (v9 : IVec S16 32) (v10 : IVec S16 32) (v2234 : IVec S16 32) (k0_hw89 : k0_chk89 v3 v4 v5 v6 v7 v8 v9 v10 v2234), ∀ a x, ((![v10, v2234] : Fin 2 → IVec S16 32) a x).toNat < S8x1024.size a := fun v3 v4 v5 v6 v7 v8 v9 v10 v2234 k0_hw89 => k0_hw89.2.2.2.2.2.2.2

def k0_chk90 (v3 : IVec S16 32) (v4 : IVec S16 32) (v5 : IVec S16 32) (v6 : IVec S16 32) (v7 : IVec S16 32) (v8 : IVec S16 32) (v9 : IVec S16 32) (v10 : IVec S16 32) (v2259 : IVec S16 32) : Prop :=
  (∀ a x, ((![v3, v2259] : Fin 2 → IVec S16 32) a x).toNat < S8x1024.size a) ∧
  (∀ a x, ((![v4, v2259] : Fin 2 → IVec S16 32) a x).toNat < S8x1024.size a) ∧
  (∀ a x, ((![v5, v2259] : Fin 2 → IVec S16 32) a x).toNat < S8x1024.size a) ∧
  (∀ a x, ((![v6, v2259] : Fin 2 → IVec S16 32) a x).toNat < S8x1024.size a) ∧
  (∀ a x, ((![v7, v2259] : Fin 2 → IVec S16 32) a x).toNat < S8x1024.size a) ∧
  (∀ a x, ((![v8, v2259] : Fin 2 → IVec S16 32) a x).toNat < S8x1024.size a) ∧
  (∀ a x, ((![v9, v2259] : Fin 2 → IVec S16 32) a x).toNat < S8x1024.size a) ∧
  (∀ a x, ((![v10, v2259] : Fin 2 → IVec S16 32) a x).toNat < S8x1024.size a)
instance k0_chk90.dec : ∀ (v3 : IVec S16 32) (v4 : IVec S16 32) (v5 : IVec S16 32) (v6 : IVec S16 32) (v7 : IVec S16 32) (v8 : IVec S16 32) (v9 : IVec S16 32) (v10 : IVec S16 32) (v2259 : IVec S16 32), Decidable (k0_chk90 v3 v4 v5 v6 v7 v8 v9 v10 v2259) := fun v3 v4 v5 v6 v7 v8 v9 v10 v2259 => decidable_of_iff' _ (Iff.of_eq (k0_chk90.eq_1 v3 v4 v5 v6 v7 v8 v9 v10 v2259))
theorem k0_idx713_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v3, v2259] : Fin 2 → IVec S16 32) a x).toNat < S8x1024.size a := fun v3 v4 v5 v6 v7 v8 v9 v10 v2259 k0_hw90 => k0_hw90.1
theorem k0_idx714_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v4, v2259] : Fin 2 → IVec S16 32) a x).toNat < S8x1024.size a := fun v3 v4 v5 v6 v7 v8 v9 v10 v2259 k0_hw90 => k0_hw90.2.1
theorem k0_idx715_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v5, v2259] : Fin 2 → IVec S16 32) a x).toNat < S8x1024.size a := fun v3 v4 v5 v6 v7 v8 v9 v10 v2259 k0_hw90 => k0_hw90.2.2.1
theorem k0_idx716_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v6, v2259] : Fin 2 → IVec S16 32) a x).toNat < S8x1024.size a := fun v3 v4 v5 v6 v7 v8 v9 v10 v2259 k0_hw90 => k0_hw90.2.2.2.1
theorem k0_idx717_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v7, v2259] : Fin 2 → IVec S16 32) a x).toNat < S8x1024.size a := fun v3 v4 v5 v6 v7 v8 v9 v10 v2259 k0_hw90 => k0_hw90.2.2.2.2.1
theorem k0_idx718_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v8, v2259] : Fin 2 → IVec S16 32) a x).toNat < S8x1024.size a := fun v3 v4 v5 v6 v7 v8 v9 v10 v2259 k0_hw90 => k0_hw90.2.2.2.2.2.1
theorem k0_idx719_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v9, v2259] : Fin 2 → IVec S16 32) a x).toNat < S8x1024.size a := fun v3 v4 v5 v6 v7 v8 v9 v10 v2259 k0_hw90 => k0_hw90.2.2.2.2.2.2.1
theorem k0_idx720_inb : ∀ (v3 : IVec S16 32) (v4 : IVec S16 32) (v5 : IVec S16 32) (v6 : IVec S16 32) (v7 : IVec S16 32) (v8 : IVec S16 32) (v9 : IVec S16 32) (v10 : IVec S16 32) (v2259 : IVec S16 32) (k0_hw90 : k0_chk90 v3 v4 v5 v6 v7 v8 v9 v10 v2259), ∀ a x, ((![v10, v2259] : Fin 2 → IVec S16 32) a x).toNat < S8x1024.size a := fun v3 v4 v5 v6 v7 v8 v9 v10 v2259 k0_hw90 => k0_hw90.2.2.2.2.2.2.2

def k0_chk91 (v3 : IVec S16 32) (v4 : IVec S16 32) (v5 : IVec S16 32) (v6 : IVec S16 32) (v7 : IVec S16 32) (v8 : IVec S16 32) (v9 : IVec S16 32) (v10 : IVec S16 32) (v2284 : IVec S16 32) : Prop :=
  (∀ a x, ((![v3, v2284] : Fin 2 → IVec S16 32) a x).toNat < S8x1024.size a) ∧
  (∀ a x, ((![v4, v2284] : Fin 2 → IVec S16 32) a x).toNat < S8x1024.size a) ∧
  (∀ a x, ((![v5, v2284] : Fin 2 → IVec S16 32) a x).toNat < S8x1024.size a) ∧
  (∀ a x, ((![v6, v2284] : Fin 2 → IVec S16 32) a x).toNat < S8x1024.size a) ∧
  (∀ a x, ((![v7, v2284] : Fin 2 → IVec S16 32) a x).toNat < S8x1024.size a) ∧
  (∀ a x, ((![v8, v2284] : Fin 2 → IVec S16 32) a x).toNat < S8x1024.size a) ∧
  (∀ a x, ((![v9, v2284] : Fin 2 → IVec S16 32) a x).toNat < S8x1024.size a) ∧
  (∀ a x, ((![v10, v2284] : Fin 2 → IVec S16 32) a x).toNat < S8x1024.size a)
instance k0_chk91.dec : ∀ (v3 : IVec S16 32) (v4 : IVec S16 32) (v5 : IVec S16 32) (v6 : IVec S16 32) (v7 : IVec S16 32) (v8 : IVec S16 32) (v9 : IVec S16 32) (v10 : IVec S16 32) (v2284 : IVec S16 32), Decidable (k0_chk91 v3 v4 v5 v6 v7 v8 v9 v10 v2284) := fun v3 v4 v5 v6 v7 v8 v9 v10 v2284 => decidable_of_iff' _ (Iff.of_eq (k0_chk91.eq_1 v3 v4 v5 v6 v7 v8 v9 v10 v2284))
theorem k0_idx721_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v3, v2284] : Fin 2 → IVec S16 32) a x).toNat < S8x1024.size a := fun v3 v4 v5 v6 v7 v8 v9 v10 v2284 k0_hw91 => k0_hw91.1
theorem k0_idx722_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v4, v2284] : Fin 2 → IVec S16 32) a x).toNat < S8x1024.size a := fun v3 v4 v5 v6 v7 v8 v9 v10 v2284 k0_hw91 => k0_hw91.2.1
theorem k0_idx723_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v5, v2284] : Fin 2 → IVec S16 32) a x).toNat < S8x1024.size a := fun v3 v4 v5 v6 v7 v8 v9 v10 v2284 k0_hw91 => k0_hw91.2.2.1
theorem k0_idx724_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v6, v2284] : Fin 2 → IVec S16 32) a x).toNat < S8x1024.size a := fun v3 v4 v5 v6 v7 v8 v9 v10 v2284 k0_hw91 => k0_hw91.2.2.2.1
theorem k0_idx725_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v7, v2284] : Fin 2 → IVec S16 32) a x).toNat < S8x1024.size a := fun v3 v4 v5 v6 v7 v8 v9 v10 v2284 k0_hw91 => k0_hw91.2.2.2.2.1
theorem k0_idx726_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v8, v2284] : Fin 2 → IVec S16 32) a x).toNat < S8x1024.size a := fun v3 v4 v5 v6 v7 v8 v9 v10 v2284 k0_hw91 => k0_hw91.2.2.2.2.2.1
theorem k0_idx727_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v9, v2284] : Fin 2 → IVec S16 32) a x).toNat < S8x1024.size a := fun v3 v4 v5 v6 v7 v8 v9 v10 v2284 k0_hw91 => k0_hw91.2.2.2.2.2.2.1
theorem k0_idx728_inb : ∀ (v3 : IVec S16 32) (v4 : IVec S16 32) (v5 : IVec S16 32) (v6 : IVec S16 32) (v7 : IVec S16 32) (v8 : IVec S16 32) (v9 : IVec S16 32) (v10 : IVec S16 32) (v2284 : IVec S16 32) (k0_hw91 : k0_chk91 v3 v4 v5 v6 v7 v8 v9 v10 v2284), ∀ a x, ((![v10, v2284] : Fin 2 → IVec S16 32) a x).toNat < S8x1024.size a := fun v3 v4 v5 v6 v7 v8 v9 v10 v2284 k0_hw91 => k0_hw91.2.2.2.2.2.2.2

def k0_chk92 (v3 : IVec S16 32) (v4 : IVec S16 32) (v5 : IVec S16 32) (v6 : IVec S16 32) (v7 : IVec S16 32) (v8 : IVec S16 32) (v9 : IVec S16 32) (v10 : IVec S16 32) (v2309 : IVec S16 32) : Prop :=
  (∀ a x, ((![v3, v2309] : Fin 2 → IVec S16 32) a x).toNat < S8x1024.size a) ∧
  (∀ a x, ((![v4, v2309] : Fin 2 → IVec S16 32) a x).toNat < S8x1024.size a) ∧
  (∀ a x, ((![v5, v2309] : Fin 2 → IVec S16 32) a x).toNat < S8x1024.size a) ∧
  (∀ a x, ((![v6, v2309] : Fin 2 → IVec S16 32) a x).toNat < S8x1024.size a) ∧
  (∀ a x, ((![v7, v2309] : Fin 2 → IVec S16 32) a x).toNat < S8x1024.size a) ∧
  (∀ a x, ((![v8, v2309] : Fin 2 → IVec S16 32) a x).toNat < S8x1024.size a) ∧
  (∀ a x, ((![v9, v2309] : Fin 2 → IVec S16 32) a x).toNat < S8x1024.size a) ∧
  (∀ a x, ((![v10, v2309] : Fin 2 → IVec S16 32) a x).toNat < S8x1024.size a)
instance k0_chk92.dec : ∀ (v3 : IVec S16 32) (v4 : IVec S16 32) (v5 : IVec S16 32) (v6 : IVec S16 32) (v7 : IVec S16 32) (v8 : IVec S16 32) (v9 : IVec S16 32) (v10 : IVec S16 32) (v2309 : IVec S16 32), Decidable (k0_chk92 v3 v4 v5 v6 v7 v8 v9 v10 v2309) := fun v3 v4 v5 v6 v7 v8 v9 v10 v2309 => decidable_of_iff' _ (Iff.of_eq (k0_chk92.eq_1 v3 v4 v5 v6 v7 v8 v9 v10 v2309))
theorem k0_idx729_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v3, v2309] : Fin 2 → IVec S16 32) a x).toNat < S8x1024.size a := fun v3 v4 v5 v6 v7 v8 v9 v10 v2309 k0_hw92 => k0_hw92.1
theorem k0_idx730_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v4, v2309] : Fin 2 → IVec S16 32) a x).toNat < S8x1024.size a := fun v3 v4 v5 v6 v7 v8 v9 v10 v2309 k0_hw92 => k0_hw92.2.1
theorem k0_idx731_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v5, v2309] : Fin 2 → IVec S16 32) a x).toNat < S8x1024.size a := fun v3 v4 v5 v6 v7 v8 v9 v10 v2309 k0_hw92 => k0_hw92.2.2.1
theorem k0_idx732_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v6, v2309] : Fin 2 → IVec S16 32) a x).toNat < S8x1024.size a := fun v3 v4 v5 v6 v7 v8 v9 v10 v2309 k0_hw92 => k0_hw92.2.2.2.1
theorem k0_idx733_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v7, v2309] : Fin 2 → IVec S16 32) a x).toNat < S8x1024.size a := fun v3 v4 v5 v6 v7 v8 v9 v10 v2309 k0_hw92 => k0_hw92.2.2.2.2.1
theorem k0_idx734_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v8, v2309] : Fin 2 → IVec S16 32) a x).toNat < S8x1024.size a := fun v3 v4 v5 v6 v7 v8 v9 v10 v2309 k0_hw92 => k0_hw92.2.2.2.2.2.1
theorem k0_idx735_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v9, v2309] : Fin 2 → IVec S16 32) a x).toNat < S8x1024.size a := fun v3 v4 v5 v6 v7 v8 v9 v10 v2309 k0_hw92 => k0_hw92.2.2.2.2.2.2.1
theorem k0_idx736_inb : ∀ (v3 : IVec S16 32) (v4 : IVec S16 32) (v5 : IVec S16 32) (v6 : IVec S16 32) (v7 : IVec S16 32) (v8 : IVec S16 32) (v9 : IVec S16 32) (v10 : IVec S16 32) (v2309 : IVec S16 32) (k0_hw92 : k0_chk92 v3 v4 v5 v6 v7 v8 v9 v10 v2309), ∀ a x, ((![v10, v2309] : Fin 2 → IVec S16 32) a x).toNat < S8x1024.size a := fun v3 v4 v5 v6 v7 v8 v9 v10 v2309 k0_hw92 => k0_hw92.2.2.2.2.2.2.2

def k0_chk93 (v3 : IVec S16 32) (v4 : IVec S16 32) (v5 : IVec S16 32) (v6 : IVec S16 32) (v7 : IVec S16 32) (v8 : IVec S16 32) (v9 : IVec S16 32) (v10 : IVec S16 32) (v2334 : IVec S16 32) : Prop :=
  (∀ a x, ((![v3, v2334] : Fin 2 → IVec S16 32) a x).toNat < S8x1024.size a) ∧
  (∀ a x, ((![v4, v2334] : Fin 2 → IVec S16 32) a x).toNat < S8x1024.size a) ∧
  (∀ a x, ((![v5, v2334] : Fin 2 → IVec S16 32) a x).toNat < S8x1024.size a) ∧
  (∀ a x, ((![v6, v2334] : Fin 2 → IVec S16 32) a x).toNat < S8x1024.size a) ∧
  (∀ a x, ((![v7, v2334] : Fin 2 → IVec S16 32) a x).toNat < S8x1024.size a) ∧
  (∀ a x, ((![v8, v2334] : Fin 2 → IVec S16 32) a x).toNat < S8x1024.size a) ∧
  (∀ a x, ((![v9, v2334] : Fin 2 → IVec S16 32) a x).toNat < S8x1024.size a) ∧
  (∀ a x, ((![v10, v2334] : Fin 2 → IVec S16 32) a x).toNat < S8x1024.size a)
instance k0_chk93.dec : ∀ (v3 : IVec S16 32) (v4 : IVec S16 32) (v5 : IVec S16 32) (v6 : IVec S16 32) (v7 : IVec S16 32) (v8 : IVec S16 32) (v9 : IVec S16 32) (v10 : IVec S16 32) (v2334 : IVec S16 32), Decidable (k0_chk93 v3 v4 v5 v6 v7 v8 v9 v10 v2334) := fun v3 v4 v5 v6 v7 v8 v9 v10 v2334 => decidable_of_iff' _ (Iff.of_eq (k0_chk93.eq_1 v3 v4 v5 v6 v7 v8 v9 v10 v2334))
theorem k0_idx737_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v3, v2334] : Fin 2 → IVec S16 32) a x).toNat < S8x1024.size a := fun v3 v4 v5 v6 v7 v8 v9 v10 v2334 k0_hw93 => k0_hw93.1
theorem k0_idx738_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v4, v2334] : Fin 2 → IVec S16 32) a x).toNat < S8x1024.size a := fun v3 v4 v5 v6 v7 v8 v9 v10 v2334 k0_hw93 => k0_hw93.2.1
theorem k0_idx739_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v5, v2334] : Fin 2 → IVec S16 32) a x).toNat < S8x1024.size a := fun v3 v4 v5 v6 v7 v8 v9 v10 v2334 k0_hw93 => k0_hw93.2.2.1
theorem k0_idx740_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v6, v2334] : Fin 2 → IVec S16 32) a x).toNat < S8x1024.size a := fun v3 v4 v5 v6 v7 v8 v9 v10 v2334 k0_hw93 => k0_hw93.2.2.2.1
theorem k0_idx741_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v7, v2334] : Fin 2 → IVec S16 32) a x).toNat < S8x1024.size a := fun v3 v4 v5 v6 v7 v8 v9 v10 v2334 k0_hw93 => k0_hw93.2.2.2.2.1
theorem k0_idx742_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v8, v2334] : Fin 2 → IVec S16 32) a x).toNat < S8x1024.size a := fun v3 v4 v5 v6 v7 v8 v9 v10 v2334 k0_hw93 => k0_hw93.2.2.2.2.2.1
theorem k0_idx743_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v9, v2334] : Fin 2 → IVec S16 32) a x).toNat < S8x1024.size a := fun v3 v4 v5 v6 v7 v8 v9 v10 v2334 k0_hw93 => k0_hw93.2.2.2.2.2.2.1
theorem k0_idx744_inb : ∀ (v3 : IVec S16 32) (v4 : IVec S16 32) (v5 : IVec S16 32) (v6 : IVec S16 32) (v7 : IVec S16 32) (v8 : IVec S16 32) (v9 : IVec S16 32) (v10 : IVec S16 32) (v2334 : IVec S16 32) (k0_hw93 : k0_chk93 v3 v4 v5 v6 v7 v8 v9 v10 v2334), ∀ a x, ((![v10, v2334] : Fin 2 → IVec S16 32) a x).toNat < S8x1024.size a := fun v3 v4 v5 v6 v7 v8 v9 v10 v2334 k0_hw93 => k0_hw93.2.2.2.2.2.2.2

def k0_chk94 (v3 : IVec S16 32) (v4 : IVec S16 32) (v5 : IVec S16 32) (v6 : IVec S16 32) (v7 : IVec S16 32) (v8 : IVec S16 32) (v9 : IVec S16 32) (v10 : IVec S16 32) (v2359 : IVec S16 32) : Prop :=
  (∀ a x, ((![v3, v2359] : Fin 2 → IVec S16 32) a x).toNat < S8x1024.size a) ∧
  (∀ a x, ((![v4, v2359] : Fin 2 → IVec S16 32) a x).toNat < S8x1024.size a) ∧
  (∀ a x, ((![v5, v2359] : Fin 2 → IVec S16 32) a x).toNat < S8x1024.size a) ∧
  (∀ a x, ((![v6, v2359] : Fin 2 → IVec S16 32) a x).toNat < S8x1024.size a) ∧
  (∀ a x, ((![v7, v2359] : Fin 2 → IVec S16 32) a x).toNat < S8x1024.size a) ∧
  (∀ a x, ((![v8, v2359] : Fin 2 → IVec S16 32) a x).toNat < S8x1024.size a) ∧
  (∀ a x, ((![v9, v2359] : Fin 2 → IVec S16 32) a x).toNat < S8x1024.size a) ∧
  (∀ a x, ((![v10, v2359] : Fin 2 → IVec S16 32) a x).toNat < S8x1024.size a)
instance k0_chk94.dec : ∀ (v3 : IVec S16 32) (v4 : IVec S16 32) (v5 : IVec S16 32) (v6 : IVec S16 32) (v7 : IVec S16 32) (v8 : IVec S16 32) (v9 : IVec S16 32) (v10 : IVec S16 32) (v2359 : IVec S16 32), Decidable (k0_chk94 v3 v4 v5 v6 v7 v8 v9 v10 v2359) := fun v3 v4 v5 v6 v7 v8 v9 v10 v2359 => decidable_of_iff' _ (Iff.of_eq (k0_chk94.eq_1 v3 v4 v5 v6 v7 v8 v9 v10 v2359))
theorem k0_idx745_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v3, v2359] : Fin 2 → IVec S16 32) a x).toNat < S8x1024.size a := fun v3 v4 v5 v6 v7 v8 v9 v10 v2359 k0_hw94 => k0_hw94.1
theorem k0_idx746_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v4, v2359] : Fin 2 → IVec S16 32) a x).toNat < S8x1024.size a := fun v3 v4 v5 v6 v7 v8 v9 v10 v2359 k0_hw94 => k0_hw94.2.1
theorem k0_idx747_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v5, v2359] : Fin 2 → IVec S16 32) a x).toNat < S8x1024.size a := fun v3 v4 v5 v6 v7 v8 v9 v10 v2359 k0_hw94 => k0_hw94.2.2.1
theorem k0_idx748_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v6, v2359] : Fin 2 → IVec S16 32) a x).toNat < S8x1024.size a := fun v3 v4 v5 v6 v7 v8 v9 v10 v2359 k0_hw94 => k0_hw94.2.2.2.1
theorem k0_idx749_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v7, v2359] : Fin 2 → IVec S16 32) a x).toNat < S8x1024.size a := fun v3 v4 v5 v6 v7 v8 v9 v10 v2359 k0_hw94 => k0_hw94.2.2.2.2.1
theorem k0_idx750_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v8, v2359] : Fin 2 → IVec S16 32) a x).toNat < S8x1024.size a := fun v3 v4 v5 v6 v7 v8 v9 v10 v2359 k0_hw94 => k0_hw94.2.2.2.2.2.1
theorem k0_idx751_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v9, v2359] : Fin 2 → IVec S16 32) a x).toNat < S8x1024.size a := fun v3 v4 v5 v6 v7 v8 v9 v10 v2359 k0_hw94 => k0_hw94.2.2.2.2.2.2.1
theorem k0_idx752_inb : ∀ (v3 : IVec S16 32) (v4 : IVec S16 32) (v5 : IVec S16 32) (v6 : IVec S16 32) (v7 : IVec S16 32) (v8 : IVec S16 32) (v9 : IVec S16 32) (v10 : IVec S16 32) (v2359 : IVec S16 32) (k0_hw94 : k0_chk94 v3 v4 v5 v6 v7 v8 v9 v10 v2359), ∀ a x, ((![v10, v2359] : Fin 2 → IVec S16 32) a x).toNat < S8x1024.size a := fun v3 v4 v5 v6 v7 v8 v9 v10 v2359 k0_hw94 => k0_hw94.2.2.2.2.2.2.2

def k0_chk95 (v3 : IVec S16 32) (v4 : IVec S16 32) (v5 : IVec S16 32) (v6 : IVec S16 32) (v7 : IVec S16 32) (v8 : IVec S16 32) (v9 : IVec S16 32) (v10 : IVec S16 32) (v2384 : IVec S16 32) : Prop :=
  (∀ a x, ((![v3, v2384] : Fin 2 → IVec S16 32) a x).toNat < S8x1024.size a) ∧
  (∀ a x, ((![v4, v2384] : Fin 2 → IVec S16 32) a x).toNat < S8x1024.size a) ∧
  (∀ a x, ((![v5, v2384] : Fin 2 → IVec S16 32) a x).toNat < S8x1024.size a) ∧
  (∀ a x, ((![v6, v2384] : Fin 2 → IVec S16 32) a x).toNat < S8x1024.size a) ∧
  (∀ a x, ((![v7, v2384] : Fin 2 → IVec S16 32) a x).toNat < S8x1024.size a) ∧
  (∀ a x, ((![v8, v2384] : Fin 2 → IVec S16 32) a x).toNat < S8x1024.size a) ∧
  (∀ a x, ((![v9, v2384] : Fin 2 → IVec S16 32) a x).toNat < S8x1024.size a) ∧
  (∀ a x, ((![v10, v2384] : Fin 2 → IVec S16 32) a x).toNat < S8x1024.size a)
instance k0_chk95.dec : ∀ (v3 : IVec S16 32) (v4 : IVec S16 32) (v5 : IVec S16 32) (v6 : IVec S16 32) (v7 : IVec S16 32) (v8 : IVec S16 32) (v9 : IVec S16 32) (v10 : IVec S16 32) (v2384 : IVec S16 32), Decidable (k0_chk95 v3 v4 v5 v6 v7 v8 v9 v10 v2384) := fun v3 v4 v5 v6 v7 v8 v9 v10 v2384 => decidable_of_iff' _ (Iff.of_eq (k0_chk95.eq_1 v3 v4 v5 v6 v7 v8 v9 v10 v2384))
theorem k0_idx753_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v3, v2384] : Fin 2 → IVec S16 32) a x).toNat < S8x1024.size a := fun v3 v4 v5 v6 v7 v8 v9 v10 v2384 k0_hw95 => k0_hw95.1
theorem k0_idx754_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v4, v2384] : Fin 2 → IVec S16 32) a x).toNat < S8x1024.size a := fun v3 v4 v5 v6 v7 v8 v9 v10 v2384 k0_hw95 => k0_hw95.2.1
theorem k0_idx755_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v5, v2384] : Fin 2 → IVec S16 32) a x).toNat < S8x1024.size a := fun v3 v4 v5 v6 v7 v8 v9 v10 v2384 k0_hw95 => k0_hw95.2.2.1
theorem k0_idx756_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v6, v2384] : Fin 2 → IVec S16 32) a x).toNat < S8x1024.size a := fun v3 v4 v5 v6 v7 v8 v9 v10 v2384 k0_hw95 => k0_hw95.2.2.2.1
theorem k0_idx757_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v7, v2384] : Fin 2 → IVec S16 32) a x).toNat < S8x1024.size a := fun v3 v4 v5 v6 v7 v8 v9 v10 v2384 k0_hw95 => k0_hw95.2.2.2.2.1
theorem k0_idx758_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v8, v2384] : Fin 2 → IVec S16 32) a x).toNat < S8x1024.size a := fun v3 v4 v5 v6 v7 v8 v9 v10 v2384 k0_hw95 => k0_hw95.2.2.2.2.2.1
theorem k0_idx759_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v9, v2384] : Fin 2 → IVec S16 32) a x).toNat < S8x1024.size a := fun v3 v4 v5 v6 v7 v8 v9 v10 v2384 k0_hw95 => k0_hw95.2.2.2.2.2.2.1
theorem k0_idx760_inb : ∀ (v3 : IVec S16 32) (v4 : IVec S16 32) (v5 : IVec S16 32) (v6 : IVec S16 32) (v7 : IVec S16 32) (v8 : IVec S16 32) (v9 : IVec S16 32) (v10 : IVec S16 32) (v2384 : IVec S16 32) (k0_hw95 : k0_chk95 v3 v4 v5 v6 v7 v8 v9 v10 v2384), ∀ a x, ((![v10, v2384] : Fin 2 → IVec S16 32) a x).toNat < S8x1024.size a := fun v3 v4 v5 v6 v7 v8 v9 v10 v2384 k0_hw95 => k0_hw95.2.2.2.2.2.2.2

def k0_chk96 (v3 : IVec S16 32) (v4 : IVec S16 32) (v5 : IVec S16 32) (v6 : IVec S16 32) (v7 : IVec S16 32) (v8 : IVec S16 32) (v9 : IVec S16 32) (v10 : IVec S16 32) (v2409 : IVec S16 32) : Prop :=
  (∀ a x, ((![v3, v2409] : Fin 2 → IVec S16 32) a x).toNat < S8x1024.size a) ∧
  (∀ a x, ((![v4, v2409] : Fin 2 → IVec S16 32) a x).toNat < S8x1024.size a) ∧
  (∀ a x, ((![v5, v2409] : Fin 2 → IVec S16 32) a x).toNat < S8x1024.size a) ∧
  (∀ a x, ((![v6, v2409] : Fin 2 → IVec S16 32) a x).toNat < S8x1024.size a) ∧
  (∀ a x, ((![v7, v2409] : Fin 2 → IVec S16 32) a x).toNat < S8x1024.size a) ∧
  (∀ a x, ((![v8, v2409] : Fin 2 → IVec S16 32) a x).toNat < S8x1024.size a) ∧
  (∀ a x, ((![v9, v2409] : Fin 2 → IVec S16 32) a x).toNat < S8x1024.size a) ∧
  (∀ a x, ((![v10, v2409] : Fin 2 → IVec S16 32) a x).toNat < S8x1024.size a)
instance k0_chk96.dec : ∀ (v3 : IVec S16 32) (v4 : IVec S16 32) (v5 : IVec S16 32) (v6 : IVec S16 32) (v7 : IVec S16 32) (v8 : IVec S16 32) (v9 : IVec S16 32) (v10 : IVec S16 32) (v2409 : IVec S16 32), Decidable (k0_chk96 v3 v4 v5 v6 v7 v8 v9 v10 v2409) := fun v3 v4 v5 v6 v7 v8 v9 v10 v2409 => decidable_of_iff' _ (Iff.of_eq (k0_chk96.eq_1 v3 v4 v5 v6 v7 v8 v9 v10 v2409))
theorem k0_idx761_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v3, v2409] : Fin 2 → IVec S16 32) a x).toNat < S8x1024.size a := fun v3 v4 v5 v6 v7 v8 v9 v10 v2409 k0_hw96 => k0_hw96.1
theorem k0_idx762_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v4, v2409] : Fin 2 → IVec S16 32) a x).toNat < S8x1024.size a := fun v3 v4 v5 v6 v7 v8 v9 v10 v2409 k0_hw96 => k0_hw96.2.1
theorem k0_idx763_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v5, v2409] : Fin 2 → IVec S16 32) a x).toNat < S8x1024.size a := fun v3 v4 v5 v6 v7 v8 v9 v10 v2409 k0_hw96 => k0_hw96.2.2.1
theorem k0_idx764_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v6, v2409] : Fin 2 → IVec S16 32) a x).toNat < S8x1024.size a := fun v3 v4 v5 v6 v7 v8 v9 v10 v2409 k0_hw96 => k0_hw96.2.2.2.1
theorem k0_idx765_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v7, v2409] : Fin 2 → IVec S16 32) a x).toNat < S8x1024.size a := fun v3 v4 v5 v6 v7 v8 v9 v10 v2409 k0_hw96 => k0_hw96.2.2.2.2.1
theorem k0_idx766_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v8, v2409] : Fin 2 → IVec S16 32) a x).toNat < S8x1024.size a := fun v3 v4 v5 v6 v7 v8 v9 v10 v2409 k0_hw96 => k0_hw96.2.2.2.2.2.1
theorem k0_idx767_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v9, v2409] : Fin 2 → IVec S16 32) a x).toNat < S8x1024.size a := fun v3 v4 v5 v6 v7 v8 v9 v10 v2409 k0_hw96 => k0_hw96.2.2.2.2.2.2.1
theorem k0_idx768_inb : ∀ (v3 : IVec S16 32) (v4 : IVec S16 32) (v5 : IVec S16 32) (v6 : IVec S16 32) (v7 : IVec S16 32) (v8 : IVec S16 32) (v9 : IVec S16 32) (v10 : IVec S16 32) (v2409 : IVec S16 32) (k0_hw96 : k0_chk96 v3 v4 v5 v6 v7 v8 v9 v10 v2409), ∀ a x, ((![v10, v2409] : Fin 2 → IVec S16 32) a x).toNat < S8x1024.size a := fun v3 v4 v5 v6 v7 v8 v9 v10 v2409 k0_hw96 => k0_hw96.2.2.2.2.2.2.2

def k0_chk97 (v3 : IVec S16 32) (v4 : IVec S16 32) (v5 : IVec S16 32) (v6 : IVec S16 32) (v7 : IVec S16 32) (v8 : IVec S16 32) (v9 : IVec S16 32) (v10 : IVec S16 32) (v2434 : IVec S16 32) : Prop :=
  (∀ a x, ((![v3, v2434] : Fin 2 → IVec S16 32) a x).toNat < S8x1024.size a) ∧
  (∀ a x, ((![v4, v2434] : Fin 2 → IVec S16 32) a x).toNat < S8x1024.size a) ∧
  (∀ a x, ((![v5, v2434] : Fin 2 → IVec S16 32) a x).toNat < S8x1024.size a) ∧
  (∀ a x, ((![v6, v2434] : Fin 2 → IVec S16 32) a x).toNat < S8x1024.size a) ∧
  (∀ a x, ((![v7, v2434] : Fin 2 → IVec S16 32) a x).toNat < S8x1024.size a) ∧
  (∀ a x, ((![v8, v2434] : Fin 2 → IVec S16 32) a x).toNat < S8x1024.size a) ∧
  (∀ a x, ((![v9, v2434] : Fin 2 → IVec S16 32) a x).toNat < S8x1024.size a) ∧
  (∀ a x, ((![v10, v2434] : Fin 2 → IVec S16 32) a x).toNat < S8x1024.size a)
instance k0_chk97.dec : ∀ (v3 : IVec S16 32) (v4 : IVec S16 32) (v5 : IVec S16 32) (v6 : IVec S16 32) (v7 : IVec S16 32) (v8 : IVec S16 32) (v9 : IVec S16 32) (v10 : IVec S16 32) (v2434 : IVec S16 32), Decidable (k0_chk97 v3 v4 v5 v6 v7 v8 v9 v10 v2434) := fun v3 v4 v5 v6 v7 v8 v9 v10 v2434 => decidable_of_iff' _ (Iff.of_eq (k0_chk97.eq_1 v3 v4 v5 v6 v7 v8 v9 v10 v2434))
theorem k0_idx769_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v3, v2434] : Fin 2 → IVec S16 32) a x).toNat < S8x1024.size a := fun v3 v4 v5 v6 v7 v8 v9 v10 v2434 k0_hw97 => k0_hw97.1
theorem k0_idx770_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v4, v2434] : Fin 2 → IVec S16 32) a x).toNat < S8x1024.size a := fun v3 v4 v5 v6 v7 v8 v9 v10 v2434 k0_hw97 => k0_hw97.2.1
theorem k0_idx771_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v5, v2434] : Fin 2 → IVec S16 32) a x).toNat < S8x1024.size a := fun v3 v4 v5 v6 v7 v8 v9 v10 v2434 k0_hw97 => k0_hw97.2.2.1
theorem k0_idx772_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v6, v2434] : Fin 2 → IVec S16 32) a x).toNat < S8x1024.size a := fun v3 v4 v5 v6 v7 v8 v9 v10 v2434 k0_hw97 => k0_hw97.2.2.2.1
theorem k0_idx773_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v7, v2434] : Fin 2 → IVec S16 32) a x).toNat < S8x1024.size a := fun v3 v4 v5 v6 v7 v8 v9 v10 v2434 k0_hw97 => k0_hw97.2.2.2.2.1
theorem k0_idx774_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v8, v2434] : Fin 2 → IVec S16 32) a x).toNat < S8x1024.size a := fun v3 v4 v5 v6 v7 v8 v9 v10 v2434 k0_hw97 => k0_hw97.2.2.2.2.2.1
theorem k0_idx775_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v9, v2434] : Fin 2 → IVec S16 32) a x).toNat < S8x1024.size a := fun v3 v4 v5 v6 v7 v8 v9 v10 v2434 k0_hw97 => k0_hw97.2.2.2.2.2.2.1
theorem k0_idx776_inb : ∀ (v3 : IVec S16 32) (v4 : IVec S16 32) (v5 : IVec S16 32) (v6 : IVec S16 32) (v7 : IVec S16 32) (v8 : IVec S16 32) (v9 : IVec S16 32) (v10 : IVec S16 32) (v2434 : IVec S16 32) (k0_hw97 : k0_chk97 v3 v4 v5 v6 v7 v8 v9 v10 v2434), ∀ a x, ((![v10, v2434] : Fin 2 → IVec S16 32) a x).toNat < S8x1024.size a := fun v3 v4 v5 v6 v7 v8 v9 v10 v2434 k0_hw97 => k0_hw97.2.2.2.2.2.2.2

def k0_chk98 (v3 : IVec S16 32) (v4 : IVec S16 32) (v5 : IVec S16 32) (v6 : IVec S16 32) (v7 : IVec S16 32) (v8 : IVec S16 32) (v9 : IVec S16 32) (v10 : IVec S16 32) (v2459 : IVec S16 32) : Prop :=
  (∀ a x, ((![v3, v2459] : Fin 2 → IVec S16 32) a x).toNat < S8x1024.size a) ∧
  (∀ a x, ((![v4, v2459] : Fin 2 → IVec S16 32) a x).toNat < S8x1024.size a) ∧
  (∀ a x, ((![v5, v2459] : Fin 2 → IVec S16 32) a x).toNat < S8x1024.size a) ∧
  (∀ a x, ((![v6, v2459] : Fin 2 → IVec S16 32) a x).toNat < S8x1024.size a) ∧
  (∀ a x, ((![v7, v2459] : Fin 2 → IVec S16 32) a x).toNat < S8x1024.size a) ∧
  (∀ a x, ((![v8, v2459] : Fin 2 → IVec S16 32) a x).toNat < S8x1024.size a) ∧
  (∀ a x, ((![v9, v2459] : Fin 2 → IVec S16 32) a x).toNat < S8x1024.size a) ∧
  (∀ a x, ((![v10, v2459] : Fin 2 → IVec S16 32) a x).toNat < S8x1024.size a)
instance k0_chk98.dec : ∀ (v3 : IVec S16 32) (v4 : IVec S16 32) (v5 : IVec S16 32) (v6 : IVec S16 32) (v7 : IVec S16 32) (v8 : IVec S16 32) (v9 : IVec S16 32) (v10 : IVec S16 32) (v2459 : IVec S16 32), Decidable (k0_chk98 v3 v4 v5 v6 v7 v8 v9 v10 v2459) := fun v3 v4 v5 v6 v7 v8 v9 v10 v2459 => decidable_of_iff' _ (Iff.of_eq (k0_chk98.eq_1 v3 v4 v5 v6 v7 v8 v9 v10 v2459))
theorem k0_idx777_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v3, v2459] : Fin 2 → IVec S16 32) a x).toNat < S8x1024.size a := fun v3 v4 v5 v6 v7 v8 v9 v10 v2459 k0_hw98 => k0_hw98.1
theorem k0_idx778_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v4, v2459] : Fin 2 → IVec S16 32) a x).toNat < S8x1024.size a := fun v3 v4 v5 v6 v7 v8 v9 v10 v2459 k0_hw98 => k0_hw98.2.1
theorem k0_idx779_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v5, v2459] : Fin 2 → IVec S16 32) a x).toNat < S8x1024.size a := fun v3 v4 v5 v6 v7 v8 v9 v10 v2459 k0_hw98 => k0_hw98.2.2.1
theorem k0_idx780_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v6, v2459] : Fin 2 → IVec S16 32) a x).toNat < S8x1024.size a := fun v3 v4 v5 v6 v7 v8 v9 v10 v2459 k0_hw98 => k0_hw98.2.2.2.1
theorem k0_idx781_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v7, v2459] : Fin 2 → IVec S16 32) a x).toNat < S8x1024.size a := fun v3 v4 v5 v6 v7 v8 v9 v10 v2459 k0_hw98 => k0_hw98.2.2.2.2.1
theorem k0_idx782_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v8, v2459] : Fin 2 → IVec S16 32) a x).toNat < S8x1024.size a := fun v3 v4 v5 v6 v7 v8 v9 v10 v2459 k0_hw98 => k0_hw98.2.2.2.2.2.1
theorem k0_idx783_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v9, v2459] : Fin 2 → IVec S16 32) a x).toNat < S8x1024.size a := fun v3 v4 v5 v6 v7 v8 v9 v10 v2459 k0_hw98 => k0_hw98.2.2.2.2.2.2.1
theorem k0_idx784_inb : ∀ (v3 : IVec S16 32) (v4 : IVec S16 32) (v5 : IVec S16 32) (v6 : IVec S16 32) (v7 : IVec S16 32) (v8 : IVec S16 32) (v9 : IVec S16 32) (v10 : IVec S16 32) (v2459 : IVec S16 32) (k0_hw98 : k0_chk98 v3 v4 v5 v6 v7 v8 v9 v10 v2459), ∀ a x, ((![v10, v2459] : Fin 2 → IVec S16 32) a x).toNat < S8x1024.size a := fun v3 v4 v5 v6 v7 v8 v9 v10 v2459 k0_hw98 => k0_hw98.2.2.2.2.2.2.2

def k0_chk99 (v3 : IVec S16 32) (v4 : IVec S16 32) (v5 : IVec S16 32) (v6 : IVec S16 32) (v7 : IVec S16 32) (v8 : IVec S16 32) (v9 : IVec S16 32) (v10 : IVec S16 32) (v2484 : IVec S16 32) : Prop :=
  (∀ a x, ((![v3, v2484] : Fin 2 → IVec S16 32) a x).toNat < S8x1024.size a) ∧
  (∀ a x, ((![v4, v2484] : Fin 2 → IVec S16 32) a x).toNat < S8x1024.size a) ∧
  (∀ a x, ((![v5, v2484] : Fin 2 → IVec S16 32) a x).toNat < S8x1024.size a) ∧
  (∀ a x, ((![v6, v2484] : Fin 2 → IVec S16 32) a x).toNat < S8x1024.size a) ∧
  (∀ a x, ((![v7, v2484] : Fin 2 → IVec S16 32) a x).toNat < S8x1024.size a) ∧
  (∀ a x, ((![v8, v2484] : Fin 2 → IVec S16 32) a x).toNat < S8x1024.size a) ∧
  (∀ a x, ((![v9, v2484] : Fin 2 → IVec S16 32) a x).toNat < S8x1024.size a) ∧
  (∀ a x, ((![v10, v2484] : Fin 2 → IVec S16 32) a x).toNat < S8x1024.size a)
instance k0_chk99.dec : ∀ (v3 : IVec S16 32) (v4 : IVec S16 32) (v5 : IVec S16 32) (v6 : IVec S16 32) (v7 : IVec S16 32) (v8 : IVec S16 32) (v9 : IVec S16 32) (v10 : IVec S16 32) (v2484 : IVec S16 32), Decidable (k0_chk99 v3 v4 v5 v6 v7 v8 v9 v10 v2484) := fun v3 v4 v5 v6 v7 v8 v9 v10 v2484 => decidable_of_iff' _ (Iff.of_eq (k0_chk99.eq_1 v3 v4 v5 v6 v7 v8 v9 v10 v2484))
theorem k0_idx785_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v3, v2484] : Fin 2 → IVec S16 32) a x).toNat < S8x1024.size a := fun v3 v4 v5 v6 v7 v8 v9 v10 v2484 k0_hw99 => k0_hw99.1
theorem k0_idx786_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v4, v2484] : Fin 2 → IVec S16 32) a x).toNat < S8x1024.size a := fun v3 v4 v5 v6 v7 v8 v9 v10 v2484 k0_hw99 => k0_hw99.2.1
theorem k0_idx787_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v5, v2484] : Fin 2 → IVec S16 32) a x).toNat < S8x1024.size a := fun v3 v4 v5 v6 v7 v8 v9 v10 v2484 k0_hw99 => k0_hw99.2.2.1
theorem k0_idx788_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v6, v2484] : Fin 2 → IVec S16 32) a x).toNat < S8x1024.size a := fun v3 v4 v5 v6 v7 v8 v9 v10 v2484 k0_hw99 => k0_hw99.2.2.2.1
theorem k0_idx789_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v7, v2484] : Fin 2 → IVec S16 32) a x).toNat < S8x1024.size a := fun v3 v4 v5 v6 v7 v8 v9 v10 v2484 k0_hw99 => k0_hw99.2.2.2.2.1
theorem k0_idx790_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v8, v2484] : Fin 2 → IVec S16 32) a x).toNat < S8x1024.size a := fun v3 v4 v5 v6 v7 v8 v9 v10 v2484 k0_hw99 => k0_hw99.2.2.2.2.2.1
theorem k0_idx791_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v9, v2484] : Fin 2 → IVec S16 32) a x).toNat < S8x1024.size a := fun v3 v4 v5 v6 v7 v8 v9 v10 v2484 k0_hw99 => k0_hw99.2.2.2.2.2.2.1
theorem k0_idx792_inb : ∀ (v3 : IVec S16 32) (v4 : IVec S16 32) (v5 : IVec S16 32) (v6 : IVec S16 32) (v7 : IVec S16 32) (v8 : IVec S16 32) (v9 : IVec S16 32) (v10 : IVec S16 32) (v2484 : IVec S16 32) (k0_hw99 : k0_chk99 v3 v4 v5 v6 v7 v8 v9 v10 v2484), ∀ a x, ((![v10, v2484] : Fin 2 → IVec S16 32) a x).toNat < S8x1024.size a := fun v3 v4 v5 v6 v7 v8 v9 v10 v2484 k0_hw99 => k0_hw99.2.2.2.2.2.2.2

def k0_chk100 (v3 : IVec S16 32) (v4 : IVec S16 32) (v5 : IVec S16 32) (v6 : IVec S16 32) (v7 : IVec S16 32) (v8 : IVec S16 32) (v9 : IVec S16 32) (v10 : IVec S16 32) (v2509 : IVec S16 32) : Prop :=
  (∀ a x, ((![v3, v2509] : Fin 2 → IVec S16 32) a x).toNat < S8x1024.size a) ∧
  (∀ a x, ((![v4, v2509] : Fin 2 → IVec S16 32) a x).toNat < S8x1024.size a) ∧
  (∀ a x, ((![v5, v2509] : Fin 2 → IVec S16 32) a x).toNat < S8x1024.size a) ∧
  (∀ a x, ((![v6, v2509] : Fin 2 → IVec S16 32) a x).toNat < S8x1024.size a) ∧
  (∀ a x, ((![v7, v2509] : Fin 2 → IVec S16 32) a x).toNat < S8x1024.size a) ∧
  (∀ a x, ((![v8, v2509] : Fin 2 → IVec S16 32) a x).toNat < S8x1024.size a) ∧
  (∀ a x, ((![v9, v2509] : Fin 2 → IVec S16 32) a x).toNat < S8x1024.size a) ∧
  (∀ a x, ((![v10, v2509] : Fin 2 → IVec S16 32) a x).toNat < S8x1024.size a)
instance k0_chk100.dec : ∀ (v3 : IVec S16 32) (v4 : IVec S16 32) (v5 : IVec S16 32) (v6 : IVec S16 32) (v7 : IVec S16 32) (v8 : IVec S16 32) (v9 : IVec S16 32) (v10 : IVec S16 32) (v2509 : IVec S16 32), Decidable (k0_chk100 v3 v4 v5 v6 v7 v8 v9 v10 v2509) := fun v3 v4 v5 v6 v7 v8 v9 v10 v2509 => decidable_of_iff' _ (Iff.of_eq (k0_chk100.eq_1 v3 v4 v5 v6 v7 v8 v9 v10 v2509))
theorem k0_idx793_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v3, v2509] : Fin 2 → IVec S16 32) a x).toNat < S8x1024.size a := fun v3 v4 v5 v6 v7 v8 v9 v10 v2509 k0_hw100 => k0_hw100.1
theorem k0_idx794_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v4, v2509] : Fin 2 → IVec S16 32) a x).toNat < S8x1024.size a := fun v3 v4 v5 v6 v7 v8 v9 v10 v2509 k0_hw100 => k0_hw100.2.1
theorem k0_idx795_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v5, v2509] : Fin 2 → IVec S16 32) a x).toNat < S8x1024.size a := fun v3 v4 v5 v6 v7 v8 v9 v10 v2509 k0_hw100 => k0_hw100.2.2.1
theorem k0_idx796_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v6, v2509] : Fin 2 → IVec S16 32) a x).toNat < S8x1024.size a := fun v3 v4 v5 v6 v7 v8 v9 v10 v2509 k0_hw100 => k0_hw100.2.2.2.1
theorem k0_idx797_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v7, v2509] : Fin 2 → IVec S16 32) a x).toNat < S8x1024.size a := fun v3 v4 v5 v6 v7 v8 v9 v10 v2509 k0_hw100 => k0_hw100.2.2.2.2.1
theorem k0_idx798_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v8, v2509] : Fin 2 → IVec S16 32) a x).toNat < S8x1024.size a := fun v3 v4 v5 v6 v7 v8 v9 v10 v2509 k0_hw100 => k0_hw100.2.2.2.2.2.1
theorem k0_idx799_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v9, v2509] : Fin 2 → IVec S16 32) a x).toNat < S8x1024.size a := fun v3 v4 v5 v6 v7 v8 v9 v10 v2509 k0_hw100 => k0_hw100.2.2.2.2.2.2.1
theorem k0_idx800_inb : ∀ (v3 : IVec S16 32) (v4 : IVec S16 32) (v5 : IVec S16 32) (v6 : IVec S16 32) (v7 : IVec S16 32) (v8 : IVec S16 32) (v9 : IVec S16 32) (v10 : IVec S16 32) (v2509 : IVec S16 32) (k0_hw100 : k0_chk100 v3 v4 v5 v6 v7 v8 v9 v10 v2509), ∀ a x, ((![v10, v2509] : Fin 2 → IVec S16 32) a x).toNat < S8x1024.size a := fun v3 v4 v5 v6 v7 v8 v9 v10 v2509 k0_hw100 => k0_hw100.2.2.2.2.2.2.2

def k0_chk101 (v3 : IVec S16 32) (v4 : IVec S16 32) (v5 : IVec S16 32) (v6 : IVec S16 32) (v7 : IVec S16 32) (v8 : IVec S16 32) (v9 : IVec S16 32) (v10 : IVec S16 32) (v2534 : IVec S16 32) : Prop :=
  (∀ a x, ((![v3, v2534] : Fin 2 → IVec S16 32) a x).toNat < S8x1024.size a) ∧
  (∀ a x, ((![v4, v2534] : Fin 2 → IVec S16 32) a x).toNat < S8x1024.size a) ∧
  (∀ a x, ((![v5, v2534] : Fin 2 → IVec S16 32) a x).toNat < S8x1024.size a) ∧
  (∀ a x, ((![v6, v2534] : Fin 2 → IVec S16 32) a x).toNat < S8x1024.size a) ∧
  (∀ a x, ((![v7, v2534] : Fin 2 → IVec S16 32) a x).toNat < S8x1024.size a) ∧
  (∀ a x, ((![v8, v2534] : Fin 2 → IVec S16 32) a x).toNat < S8x1024.size a) ∧
  (∀ a x, ((![v9, v2534] : Fin 2 → IVec S16 32) a x).toNat < S8x1024.size a) ∧
  (∀ a x, ((![v10, v2534] : Fin 2 → IVec S16 32) a x).toNat < S8x1024.size a)
instance k0_chk101.dec : ∀ (v3 : IVec S16 32) (v4 : IVec S16 32) (v5 : IVec S16 32) (v6 : IVec S16 32) (v7 : IVec S16 32) (v8 : IVec S16 32) (v9 : IVec S16 32) (v10 : IVec S16 32) (v2534 : IVec S16 32), Decidable (k0_chk101 v3 v4 v5 v6 v7 v8 v9 v10 v2534) := fun v3 v4 v5 v6 v7 v8 v9 v10 v2534 => decidable_of_iff' _ (Iff.of_eq (k0_chk101.eq_1 v3 v4 v5 v6 v7 v8 v9 v10 v2534))
theorem k0_idx801_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v3, v2534] : Fin 2 → IVec S16 32) a x).toNat < S8x1024.size a := fun v3 v4 v5 v6 v7 v8 v9 v10 v2534 k0_hw101 => k0_hw101.1
theorem k0_idx802_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v4, v2534] : Fin 2 → IVec S16 32) a x).toNat < S8x1024.size a := fun v3 v4 v5 v6 v7 v8 v9 v10 v2534 k0_hw101 => k0_hw101.2.1
theorem k0_idx803_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v5, v2534] : Fin 2 → IVec S16 32) a x).toNat < S8x1024.size a := fun v3 v4 v5 v6 v7 v8 v9 v10 v2534 k0_hw101 => k0_hw101.2.2.1
theorem k0_idx804_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v6, v2534] : Fin 2 → IVec S16 32) a x).toNat < S8x1024.size a := fun v3 v4 v5 v6 v7 v8 v9 v10 v2534 k0_hw101 => k0_hw101.2.2.2.1
theorem k0_idx805_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v7, v2534] : Fin 2 → IVec S16 32) a x).toNat < S8x1024.size a := fun v3 v4 v5 v6 v7 v8 v9 v10 v2534 k0_hw101 => k0_hw101.2.2.2.2.1
theorem k0_idx806_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v8, v2534] : Fin 2 → IVec S16 32) a x).toNat < S8x1024.size a := fun v3 v4 v5 v6 v7 v8 v9 v10 v2534 k0_hw101 => k0_hw101.2.2.2.2.2.1
theorem k0_idx807_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v9, v2534] : Fin 2 → IVec S16 32) a x).toNat < S8x1024.size a := fun v3 v4 v5 v6 v7 v8 v9 v10 v2534 k0_hw101 => k0_hw101.2.2.2.2.2.2.1
theorem k0_idx808_inb : ∀ (v3 : IVec S16 32) (v4 : IVec S16 32) (v5 : IVec S16 32) (v6 : IVec S16 32) (v7 : IVec S16 32) (v8 : IVec S16 32) (v9 : IVec S16 32) (v10 : IVec S16 32) (v2534 : IVec S16 32) (k0_hw101 : k0_chk101 v3 v4 v5 v6 v7 v8 v9 v10 v2534), ∀ a x, ((![v10, v2534] : Fin 2 → IVec S16 32) a x).toNat < S8x1024.size a := fun v3 v4 v5 v6 v7 v8 v9 v10 v2534 k0_hw101 => k0_hw101.2.2.2.2.2.2.2

def k0_chk102 (v3 : IVec S16 32) (v4 : IVec S16 32) (v5 : IVec S16 32) (v6 : IVec S16 32) (v7 : IVec S16 32) (v8 : IVec S16 32) (v9 : IVec S16 32) (v10 : IVec S16 32) (v2559 : IVec S16 32) : Prop :=
  (∀ a x, ((![v3, v2559] : Fin 2 → IVec S16 32) a x).toNat < S8x1024.size a) ∧
  (∀ a x, ((![v4, v2559] : Fin 2 → IVec S16 32) a x).toNat < S8x1024.size a) ∧
  (∀ a x, ((![v5, v2559] : Fin 2 → IVec S16 32) a x).toNat < S8x1024.size a) ∧
  (∀ a x, ((![v6, v2559] : Fin 2 → IVec S16 32) a x).toNat < S8x1024.size a) ∧
  (∀ a x, ((![v7, v2559] : Fin 2 → IVec S16 32) a x).toNat < S8x1024.size a) ∧
  (∀ a x, ((![v8, v2559] : Fin 2 → IVec S16 32) a x).toNat < S8x1024.size a) ∧
  (∀ a x, ((![v9, v2559] : Fin 2 → IVec S16 32) a x).toNat < S8x1024.size a) ∧
  (∀ a x, ((![v10, v2559] : Fin 2 → IVec S16 32) a x).toNat < S8x1024.size a)
instance k0_chk102.dec : ∀ (v3 : IVec S16 32) (v4 : IVec S16 32) (v5 : IVec S16 32) (v6 : IVec S16 32) (v7 : IVec S16 32) (v8 : IVec S16 32) (v9 : IVec S16 32) (v10 : IVec S16 32) (v2559 : IVec S16 32), Decidable (k0_chk102 v3 v4 v5 v6 v7 v8 v9 v10 v2559) := fun v3 v4 v5 v6 v7 v8 v9 v10 v2559 => decidable_of_iff' _ (Iff.of_eq (k0_chk102.eq_1 v3 v4 v5 v6 v7 v8 v9 v10 v2559))
theorem k0_idx809_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v3, v2559] : Fin 2 → IVec S16 32) a x).toNat < S8x1024.size a := fun v3 v4 v5 v6 v7 v8 v9 v10 v2559 k0_hw102 => k0_hw102.1
theorem k0_idx810_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v4, v2559] : Fin 2 → IVec S16 32) a x).toNat < S8x1024.size a := fun v3 v4 v5 v6 v7 v8 v9 v10 v2559 k0_hw102 => k0_hw102.2.1
theorem k0_idx811_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v5, v2559] : Fin 2 → IVec S16 32) a x).toNat < S8x1024.size a := fun v3 v4 v5 v6 v7 v8 v9 v10 v2559 k0_hw102 => k0_hw102.2.2.1
theorem k0_idx812_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v6, v2559] : Fin 2 → IVec S16 32) a x).toNat < S8x1024.size a := fun v3 v4 v5 v6 v7 v8 v9 v10 v2559 k0_hw102 => k0_hw102.2.2.2.1
theorem k0_idx813_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v7, v2559] : Fin 2 → IVec S16 32) a x).toNat < S8x1024.size a := fun v3 v4 v5 v6 v7 v8 v9 v10 v2559 k0_hw102 => k0_hw102.2.2.2.2.1
theorem k0_idx814_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v8, v2559] : Fin 2 → IVec S16 32) a x).toNat < S8x1024.size a := fun v3 v4 v5 v6 v7 v8 v9 v10 v2559 k0_hw102 => k0_hw102.2.2.2.2.2.1
theorem k0_idx815_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v9, v2559] : Fin 2 → IVec S16 32) a x).toNat < S8x1024.size a := fun v3 v4 v5 v6 v7 v8 v9 v10 v2559 k0_hw102 => k0_hw102.2.2.2.2.2.2.1
theorem k0_idx816_inb : ∀ (v3 : IVec S16 32) (v4 : IVec S16 32) (v5 : IVec S16 32) (v6 : IVec S16 32) (v7 : IVec S16 32) (v8 : IVec S16 32) (v9 : IVec S16 32) (v10 : IVec S16 32) (v2559 : IVec S16 32) (k0_hw102 : k0_chk102 v3 v4 v5 v6 v7 v8 v9 v10 v2559), ∀ a x, ((![v10, v2559] : Fin 2 → IVec S16 32) a x).toNat < S8x1024.size a := fun v3 v4 v5 v6 v7 v8 v9 v10 v2559 k0_hw102 => k0_hw102.2.2.2.2.2.2.2

def k0_chk103 (v3 : IVec S16 32) (v4 : IVec S16 32) (v5 : IVec S16 32) (v6 : IVec S16 32) (v7 : IVec S16 32) (v8 : IVec S16 32) (v9 : IVec S16 32) (v10 : IVec S16 32) (v2584 : IVec S16 32) : Prop :=
  (∀ a x, ((![v3, v2584] : Fin 2 → IVec S16 32) a x).toNat < S8x1024.size a) ∧
  (∀ a x, ((![v4, v2584] : Fin 2 → IVec S16 32) a x).toNat < S8x1024.size a) ∧
  (∀ a x, ((![v5, v2584] : Fin 2 → IVec S16 32) a x).toNat < S8x1024.size a) ∧
  (∀ a x, ((![v6, v2584] : Fin 2 → IVec S16 32) a x).toNat < S8x1024.size a) ∧
  (∀ a x, ((![v7, v2584] : Fin 2 → IVec S16 32) a x).toNat < S8x1024.size a) ∧
  (∀ a x, ((![v8, v2584] : Fin 2 → IVec S16 32) a x).toNat < S8x1024.size a) ∧
  (∀ a x, ((![v9, v2584] : Fin 2 → IVec S16 32) a x).toNat < S8x1024.size a) ∧
  (∀ a x, ((![v10, v2584] : Fin 2 → IVec S16 32) a x).toNat < S8x1024.size a)
instance k0_chk103.dec : ∀ (v3 : IVec S16 32) (v4 : IVec S16 32) (v5 : IVec S16 32) (v6 : IVec S16 32) (v7 : IVec S16 32) (v8 : IVec S16 32) (v9 : IVec S16 32) (v10 : IVec S16 32) (v2584 : IVec S16 32), Decidable (k0_chk103 v3 v4 v5 v6 v7 v8 v9 v10 v2584) := fun v3 v4 v5 v6 v7 v8 v9 v10 v2584 => decidable_of_iff' _ (Iff.of_eq (k0_chk103.eq_1 v3 v4 v5 v6 v7 v8 v9 v10 v2584))
theorem k0_idx817_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v3, v2584] : Fin 2 → IVec S16 32) a x).toNat < S8x1024.size a := fun v3 v4 v5 v6 v7 v8 v9 v10 v2584 k0_hw103 => k0_hw103.1
theorem k0_idx818_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v4, v2584] : Fin 2 → IVec S16 32) a x).toNat < S8x1024.size a := fun v3 v4 v5 v6 v7 v8 v9 v10 v2584 k0_hw103 => k0_hw103.2.1
theorem k0_idx819_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v5, v2584] : Fin 2 → IVec S16 32) a x).toNat < S8x1024.size a := fun v3 v4 v5 v6 v7 v8 v9 v10 v2584 k0_hw103 => k0_hw103.2.2.1
theorem k0_idx820_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v6, v2584] : Fin 2 → IVec S16 32) a x).toNat < S8x1024.size a := fun v3 v4 v5 v6 v7 v8 v9 v10 v2584 k0_hw103 => k0_hw103.2.2.2.1
theorem k0_idx821_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v7, v2584] : Fin 2 → IVec S16 32) a x).toNat < S8x1024.size a := fun v3 v4 v5 v6 v7 v8 v9 v10 v2584 k0_hw103 => k0_hw103.2.2.2.2.1
theorem k0_idx822_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v8, v2584] : Fin 2 → IVec S16 32) a x).toNat < S8x1024.size a := fun v3 v4 v5 v6 v7 v8 v9 v10 v2584 k0_hw103 => k0_hw103.2.2.2.2.2.1
theorem k0_idx823_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v9, v2584] : Fin 2 → IVec S16 32) a x).toNat < S8x1024.size a := fun v3 v4 v5 v6 v7 v8 v9 v10 v2584 k0_hw103 => k0_hw103.2.2.2.2.2.2.1
theorem k0_idx824_inb : ∀ (v3 : IVec S16 32) (v4 : IVec S16 32) (v5 : IVec S16 32) (v6 : IVec S16 32) (v7 : IVec S16 32) (v8 : IVec S16 32) (v9 : IVec S16 32) (v10 : IVec S16 32) (v2584 : IVec S16 32) (k0_hw103 : k0_chk103 v3 v4 v5 v6 v7 v8 v9 v10 v2584), ∀ a x, ((![v10, v2584] : Fin 2 → IVec S16 32) a x).toNat < S8x1024.size a := fun v3 v4 v5 v6 v7 v8 v9 v10 v2584 k0_hw103 => k0_hw103.2.2.2.2.2.2.2

def k0_chk104 (v3 : IVec S16 32) (v4 : IVec S16 32) (v5 : IVec S16 32) (v6 : IVec S16 32) (v7 : IVec S16 32) (v8 : IVec S16 32) (v9 : IVec S16 32) (v10 : IVec S16 32) (v2609 : IVec S16 32) : Prop :=
  (∀ a x, ((![v3, v2609] : Fin 2 → IVec S16 32) a x).toNat < S8x1024.size a) ∧
  (∀ a x, ((![v4, v2609] : Fin 2 → IVec S16 32) a x).toNat < S8x1024.size a) ∧
  (∀ a x, ((![v5, v2609] : Fin 2 → IVec S16 32) a x).toNat < S8x1024.size a) ∧
  (∀ a x, ((![v6, v2609] : Fin 2 → IVec S16 32) a x).toNat < S8x1024.size a) ∧
  (∀ a x, ((![v7, v2609] : Fin 2 → IVec S16 32) a x).toNat < S8x1024.size a) ∧
  (∀ a x, ((![v8, v2609] : Fin 2 → IVec S16 32) a x).toNat < S8x1024.size a) ∧
  (∀ a x, ((![v9, v2609] : Fin 2 → IVec S16 32) a x).toNat < S8x1024.size a) ∧
  (∀ a x, ((![v10, v2609] : Fin 2 → IVec S16 32) a x).toNat < S8x1024.size a)
instance k0_chk104.dec : ∀ (v3 : IVec S16 32) (v4 : IVec S16 32) (v5 : IVec S16 32) (v6 : IVec S16 32) (v7 : IVec S16 32) (v8 : IVec S16 32) (v9 : IVec S16 32) (v10 : IVec S16 32) (v2609 : IVec S16 32), Decidable (k0_chk104 v3 v4 v5 v6 v7 v8 v9 v10 v2609) := fun v3 v4 v5 v6 v7 v8 v9 v10 v2609 => decidable_of_iff' _ (Iff.of_eq (k0_chk104.eq_1 v3 v4 v5 v6 v7 v8 v9 v10 v2609))
theorem k0_idx825_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v3, v2609] : Fin 2 → IVec S16 32) a x).toNat < S8x1024.size a := fun v3 v4 v5 v6 v7 v8 v9 v10 v2609 k0_hw104 => k0_hw104.1
theorem k0_idx826_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v4, v2609] : Fin 2 → IVec S16 32) a x).toNat < S8x1024.size a := fun v3 v4 v5 v6 v7 v8 v9 v10 v2609 k0_hw104 => k0_hw104.2.1
theorem k0_idx827_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v5, v2609] : Fin 2 → IVec S16 32) a x).toNat < S8x1024.size a := fun v3 v4 v5 v6 v7 v8 v9 v10 v2609 k0_hw104 => k0_hw104.2.2.1
theorem k0_idx828_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v6, v2609] : Fin 2 → IVec S16 32) a x).toNat < S8x1024.size a := fun v3 v4 v5 v6 v7 v8 v9 v10 v2609 k0_hw104 => k0_hw104.2.2.2.1
theorem k0_idx829_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v7, v2609] : Fin 2 → IVec S16 32) a x).toNat < S8x1024.size a := fun v3 v4 v5 v6 v7 v8 v9 v10 v2609 k0_hw104 => k0_hw104.2.2.2.2.1
theorem k0_idx830_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v8, v2609] : Fin 2 → IVec S16 32) a x).toNat < S8x1024.size a := fun v3 v4 v5 v6 v7 v8 v9 v10 v2609 k0_hw104 => k0_hw104.2.2.2.2.2.1
theorem k0_idx831_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v9, v2609] : Fin 2 → IVec S16 32) a x).toNat < S8x1024.size a := fun v3 v4 v5 v6 v7 v8 v9 v10 v2609 k0_hw104 => k0_hw104.2.2.2.2.2.2.1
theorem k0_idx832_inb : ∀ (v3 : IVec S16 32) (v4 : IVec S16 32) (v5 : IVec S16 32) (v6 : IVec S16 32) (v7 : IVec S16 32) (v8 : IVec S16 32) (v9 : IVec S16 32) (v10 : IVec S16 32) (v2609 : IVec S16 32) (k0_hw104 : k0_chk104 v3 v4 v5 v6 v7 v8 v9 v10 v2609), ∀ a x, ((![v10, v2609] : Fin 2 → IVec S16 32) a x).toNat < S8x1024.size a := fun v3 v4 v5 v6 v7 v8 v9 v10 v2609 k0_hw104 => k0_hw104.2.2.2.2.2.2.2

def k0_chk105 (v3 : IVec S16 32) (v4 : IVec S16 32) (v5 : IVec S16 32) (v6 : IVec S16 32) (v7 : IVec S16 32) (v8 : IVec S16 32) (v9 : IVec S16 32) (v10 : IVec S16 32) (v2634 : IVec S16 32) : Prop :=
  (∀ a x, ((![v3, v2634] : Fin 2 → IVec S16 32) a x).toNat < S8x1024.size a) ∧
  (∀ a x, ((![v4, v2634] : Fin 2 → IVec S16 32) a x).toNat < S8x1024.size a) ∧
  (∀ a x, ((![v5, v2634] : Fin 2 → IVec S16 32) a x).toNat < S8x1024.size a) ∧
  (∀ a x, ((![v6, v2634] : Fin 2 → IVec S16 32) a x).toNat < S8x1024.size a) ∧
  (∀ a x, ((![v7, v2634] : Fin 2 → IVec S16 32) a x).toNat < S8x1024.size a) ∧
  (∀ a x, ((![v8, v2634] : Fin 2 → IVec S16 32) a x).toNat < S8x1024.size a) ∧
  (∀ a x, ((![v9, v2634] : Fin 2 → IVec S16 32) a x).toNat < S8x1024.size a) ∧
  (∀ a x, ((![v10, v2634] : Fin 2 → IVec S16 32) a x).toNat < S8x1024.size a)
instance k0_chk105.dec : ∀ (v3 : IVec S16 32) (v4 : IVec S16 32) (v5 : IVec S16 32) (v6 : IVec S16 32) (v7 : IVec S16 32) (v8 : IVec S16 32) (v9 : IVec S16 32) (v10 : IVec S16 32) (v2634 : IVec S16 32), Decidable (k0_chk105 v3 v4 v5 v6 v7 v8 v9 v10 v2634) := fun v3 v4 v5 v6 v7 v8 v9 v10 v2634 => decidable_of_iff' _ (Iff.of_eq (k0_chk105.eq_1 v3 v4 v5 v6 v7 v8 v9 v10 v2634))
theorem k0_idx833_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v3, v2634] : Fin 2 → IVec S16 32) a x).toNat < S8x1024.size a := fun v3 v4 v5 v6 v7 v8 v9 v10 v2634 k0_hw105 => k0_hw105.1
theorem k0_idx834_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v4, v2634] : Fin 2 → IVec S16 32) a x).toNat < S8x1024.size a := fun v3 v4 v5 v6 v7 v8 v9 v10 v2634 k0_hw105 => k0_hw105.2.1
theorem k0_idx835_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v5, v2634] : Fin 2 → IVec S16 32) a x).toNat < S8x1024.size a := fun v3 v4 v5 v6 v7 v8 v9 v10 v2634 k0_hw105 => k0_hw105.2.2.1
theorem k0_idx836_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v6, v2634] : Fin 2 → IVec S16 32) a x).toNat < S8x1024.size a := fun v3 v4 v5 v6 v7 v8 v9 v10 v2634 k0_hw105 => k0_hw105.2.2.2.1
theorem k0_idx837_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v7, v2634] : Fin 2 → IVec S16 32) a x).toNat < S8x1024.size a := fun v3 v4 v5 v6 v7 v8 v9 v10 v2634 k0_hw105 => k0_hw105.2.2.2.2.1
theorem k0_idx838_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v8, v2634] : Fin 2 → IVec S16 32) a x).toNat < S8x1024.size a := fun v3 v4 v5 v6 v7 v8 v9 v10 v2634 k0_hw105 => k0_hw105.2.2.2.2.2.1
theorem k0_idx839_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v9, v2634] : Fin 2 → IVec S16 32) a x).toNat < S8x1024.size a := fun v3 v4 v5 v6 v7 v8 v9 v10 v2634 k0_hw105 => k0_hw105.2.2.2.2.2.2.1
theorem k0_idx840_inb : ∀ (v3 : IVec S16 32) (v4 : IVec S16 32) (v5 : IVec S16 32) (v6 : IVec S16 32) (v7 : IVec S16 32) (v8 : IVec S16 32) (v9 : IVec S16 32) (v10 : IVec S16 32) (v2634 : IVec S16 32) (k0_hw105 : k0_chk105 v3 v4 v5 v6 v7 v8 v9 v10 v2634), ∀ a x, ((![v10, v2634] : Fin 2 → IVec S16 32) a x).toNat < S8x1024.size a := fun v3 v4 v5 v6 v7 v8 v9 v10 v2634 k0_hw105 => k0_hw105.2.2.2.2.2.2.2

def k0_chk106 (v3 : IVec S16 32) (v4 : IVec S16 32) (v5 : IVec S16 32) (v6 : IVec S16 32) (v7 : IVec S16 32) (v8 : IVec S16 32) (v9 : IVec S16 32) (v10 : IVec S16 32) (v2659 : IVec S16 32) : Prop :=
  (∀ a x, ((![v3, v2659] : Fin 2 → IVec S16 32) a x).toNat < S8x1024.size a) ∧
  (∀ a x, ((![v4, v2659] : Fin 2 → IVec S16 32) a x).toNat < S8x1024.size a) ∧
  (∀ a x, ((![v5, v2659] : Fin 2 → IVec S16 32) a x).toNat < S8x1024.size a) ∧
  (∀ a x, ((![v6, v2659] : Fin 2 → IVec S16 32) a x).toNat < S8x1024.size a) ∧
  (∀ a x, ((![v7, v2659] : Fin 2 → IVec S16 32) a x).toNat < S8x1024.size a) ∧
  (∀ a x, ((![v8, v2659] : Fin 2 → IVec S16 32) a x).toNat < S8x1024.size a) ∧
  (∀ a x, ((![v9, v2659] : Fin 2 → IVec S16 32) a x).toNat < S8x1024.size a) ∧
  (∀ a x, ((![v10, v2659] : Fin 2 → IVec S16 32) a x).toNat < S8x1024.size a)
instance k0_chk106.dec : ∀ (v3 : IVec S16 32) (v4 : IVec S16 32) (v5 : IVec S16 32) (v6 : IVec S16 32) (v7 : IVec S16 32) (v8 : IVec S16 32) (v9 : IVec S16 32) (v10 : IVec S16 32) (v2659 : IVec S16 32), Decidable (k0_chk106 v3 v4 v5 v6 v7 v8 v9 v10 v2659) := fun v3 v4 v5 v6 v7 v8 v9 v10 v2659 => decidable_of_iff' _ (Iff.of_eq (k0_chk106.eq_1 v3 v4 v5 v6 v7 v8 v9 v10 v2659))
theorem k0_idx841_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v3, v2659] : Fin 2 → IVec S16 32) a x).toNat < S8x1024.size a := fun v3 v4 v5 v6 v7 v8 v9 v10 v2659 k0_hw106 => k0_hw106.1
theorem k0_idx842_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v4, v2659] : Fin 2 → IVec S16 32) a x).toNat < S8x1024.size a := fun v3 v4 v5 v6 v7 v8 v9 v10 v2659 k0_hw106 => k0_hw106.2.1
theorem k0_idx843_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v5, v2659] : Fin 2 → IVec S16 32) a x).toNat < S8x1024.size a := fun v3 v4 v5 v6 v7 v8 v9 v10 v2659 k0_hw106 => k0_hw106.2.2.1
theorem k0_idx844_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v6, v2659] : Fin 2 → IVec S16 32) a x).toNat < S8x1024.size a := fun v3 v4 v5 v6 v7 v8 v9 v10 v2659 k0_hw106 => k0_hw106.2.2.2.1
theorem k0_idx845_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v7, v2659] : Fin 2 → IVec S16 32) a x).toNat < S8x1024.size a := fun v3 v4 v5 v6 v7 v8 v9 v10 v2659 k0_hw106 => k0_hw106.2.2.2.2.1
theorem k0_idx846_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v8, v2659] : Fin 2 → IVec S16 32) a x).toNat < S8x1024.size a := fun v3 v4 v5 v6 v7 v8 v9 v10 v2659 k0_hw106 => k0_hw106.2.2.2.2.2.1
theorem k0_idx847_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v9, v2659] : Fin 2 → IVec S16 32) a x).toNat < S8x1024.size a := fun v3 v4 v5 v6 v7 v8 v9 v10 v2659 k0_hw106 => k0_hw106.2.2.2.2.2.2.1
theorem k0_idx848_inb : ∀ (v3 : IVec S16 32) (v4 : IVec S16 32) (v5 : IVec S16 32) (v6 : IVec S16 32) (v7 : IVec S16 32) (v8 : IVec S16 32) (v9 : IVec S16 32) (v10 : IVec S16 32) (v2659 : IVec S16 32) (k0_hw106 : k0_chk106 v3 v4 v5 v6 v7 v8 v9 v10 v2659), ∀ a x, ((![v10, v2659] : Fin 2 → IVec S16 32) a x).toNat < S8x1024.size a := fun v3 v4 v5 v6 v7 v8 v9 v10 v2659 k0_hw106 => k0_hw106.2.2.2.2.2.2.2

def k0_chk107 (v3 : IVec S16 32) (v4 : IVec S16 32) (v5 : IVec S16 32) (v6 : IVec S16 32) (v7 : IVec S16 32) (v8 : IVec S16 32) (v9 : IVec S16 32) (v10 : IVec S16 32) (v2684 : IVec S16 32) : Prop :=
  (∀ a x, ((![v3, v2684] : Fin 2 → IVec S16 32) a x).toNat < S8x1024.size a) ∧
  (∀ a x, ((![v4, v2684] : Fin 2 → IVec S16 32) a x).toNat < S8x1024.size a) ∧
  (∀ a x, ((![v5, v2684] : Fin 2 → IVec S16 32) a x).toNat < S8x1024.size a) ∧
  (∀ a x, ((![v6, v2684] : Fin 2 → IVec S16 32) a x).toNat < S8x1024.size a) ∧
  (∀ a x, ((![v7, v2684] : Fin 2 → IVec S16 32) a x).toNat < S8x1024.size a) ∧
  (∀ a x, ((![v8, v2684] : Fin 2 → IVec S16 32) a x).toNat < S8x1024.size a) ∧
  (∀ a x, ((![v9, v2684] : Fin 2 → IVec S16 32) a x).toNat < S8x1024.size a) ∧
  (∀ a x, ((![v10, v2684] : Fin 2 → IVec S16 32) a x).toNat < S8x1024.size a)
instance k0_chk107.dec : ∀ (v3 : IVec S16 32) (v4 : IVec S16 32) (v5 : IVec S16 32) (v6 : IVec S16 32) (v7 : IVec S16 32) (v8 : IVec S16 32) (v9 : IVec S16 32) (v10 : IVec S16 32) (v2684 : IVec S16 32), Decidable (k0_chk107 v3 v4 v5 v6 v7 v8 v9 v10 v2684) := fun v3 v4 v5 v6 v7 v8 v9 v10 v2684 => decidable_of_iff' _ (Iff.of_eq (k0_chk107.eq_1 v3 v4 v5 v6 v7 v8 v9 v10 v2684))
theorem k0_idx849_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v3, v2684] : Fin 2 → IVec S16 32) a x).toNat < S8x1024.size a := fun v3 v4 v5 v6 v7 v8 v9 v10 v2684 k0_hw107 => k0_hw107.1
theorem k0_idx850_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v4, v2684] : Fin 2 → IVec S16 32) a x).toNat < S8x1024.size a := fun v3 v4 v5 v6 v7 v8 v9 v10 v2684 k0_hw107 => k0_hw107.2.1
theorem k0_idx851_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v5, v2684] : Fin 2 → IVec S16 32) a x).toNat < S8x1024.size a := fun v3 v4 v5 v6 v7 v8 v9 v10 v2684 k0_hw107 => k0_hw107.2.2.1
theorem k0_idx852_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v6, v2684] : Fin 2 → IVec S16 32) a x).toNat < S8x1024.size a := fun v3 v4 v5 v6 v7 v8 v9 v10 v2684 k0_hw107 => k0_hw107.2.2.2.1
theorem k0_idx853_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v7, v2684] : Fin 2 → IVec S16 32) a x).toNat < S8x1024.size a := fun v3 v4 v5 v6 v7 v8 v9 v10 v2684 k0_hw107 => k0_hw107.2.2.2.2.1
theorem k0_idx854_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v8, v2684] : Fin 2 → IVec S16 32) a x).toNat < S8x1024.size a := fun v3 v4 v5 v6 v7 v8 v9 v10 v2684 k0_hw107 => k0_hw107.2.2.2.2.2.1
theorem k0_idx855_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v9, v2684] : Fin 2 → IVec S16 32) a x).toNat < S8x1024.size a := fun v3 v4 v5 v6 v7 v8 v9 v10 v2684 k0_hw107 => k0_hw107.2.2.2.2.2.2.1
theorem k0_idx856_inb : ∀ (v3 : IVec S16 32) (v4 : IVec S16 32) (v5 : IVec S16 32) (v6 : IVec S16 32) (v7 : IVec S16 32) (v8 : IVec S16 32) (v9 : IVec S16 32) (v10 : IVec S16 32) (v2684 : IVec S16 32) (k0_hw107 : k0_chk107 v3 v4 v5 v6 v7 v8 v9 v10 v2684), ∀ a x, ((![v10, v2684] : Fin 2 → IVec S16 32) a x).toNat < S8x1024.size a := fun v3 v4 v5 v6 v7 v8 v9 v10 v2684 k0_hw107 => k0_hw107.2.2.2.2.2.2.2

def k0_chk108 (v3 : IVec S16 32) (v4 : IVec S16 32) (v5 : IVec S16 32) (v6 : IVec S16 32) (v7 : IVec S16 32) (v8 : IVec S16 32) (v9 : IVec S16 32) (v10 : IVec S16 32) (v2709 : IVec S16 32) : Prop :=
  (∀ a x, ((![v3, v2709] : Fin 2 → IVec S16 32) a x).toNat < S8x1024.size a) ∧
  (∀ a x, ((![v4, v2709] : Fin 2 → IVec S16 32) a x).toNat < S8x1024.size a) ∧
  (∀ a x, ((![v5, v2709] : Fin 2 → IVec S16 32) a x).toNat < S8x1024.size a) ∧
  (∀ a x, ((![v6, v2709] : Fin 2 → IVec S16 32) a x).toNat < S8x1024.size a) ∧
  (∀ a x, ((![v7, v2709] : Fin 2 → IVec S16 32) a x).toNat < S8x1024.size a) ∧
  (∀ a x, ((![v8, v2709] : Fin 2 → IVec S16 32) a x).toNat < S8x1024.size a) ∧
  (∀ a x, ((![v9, v2709] : Fin 2 → IVec S16 32) a x).toNat < S8x1024.size a) ∧
  (∀ a x, ((![v10, v2709] : Fin 2 → IVec S16 32) a x).toNat < S8x1024.size a)
instance k0_chk108.dec : ∀ (v3 : IVec S16 32) (v4 : IVec S16 32) (v5 : IVec S16 32) (v6 : IVec S16 32) (v7 : IVec S16 32) (v8 : IVec S16 32) (v9 : IVec S16 32) (v10 : IVec S16 32) (v2709 : IVec S16 32), Decidable (k0_chk108 v3 v4 v5 v6 v7 v8 v9 v10 v2709) := fun v3 v4 v5 v6 v7 v8 v9 v10 v2709 => decidable_of_iff' _ (Iff.of_eq (k0_chk108.eq_1 v3 v4 v5 v6 v7 v8 v9 v10 v2709))
theorem k0_idx857_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v3, v2709] : Fin 2 → IVec S16 32) a x).toNat < S8x1024.size a := fun v3 v4 v5 v6 v7 v8 v9 v10 v2709 k0_hw108 => k0_hw108.1
theorem k0_idx858_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v4, v2709] : Fin 2 → IVec S16 32) a x).toNat < S8x1024.size a := fun v3 v4 v5 v6 v7 v8 v9 v10 v2709 k0_hw108 => k0_hw108.2.1
theorem k0_idx859_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v5, v2709] : Fin 2 → IVec S16 32) a x).toNat < S8x1024.size a := fun v3 v4 v5 v6 v7 v8 v9 v10 v2709 k0_hw108 => k0_hw108.2.2.1
theorem k0_idx860_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v6, v2709] : Fin 2 → IVec S16 32) a x).toNat < S8x1024.size a := fun v3 v4 v5 v6 v7 v8 v9 v10 v2709 k0_hw108 => k0_hw108.2.2.2.1
theorem k0_idx861_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v7, v2709] : Fin 2 → IVec S16 32) a x).toNat < S8x1024.size a := fun v3 v4 v5 v6 v7 v8 v9 v10 v2709 k0_hw108 => k0_hw108.2.2.2.2.1
theorem k0_idx862_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v8, v2709] : Fin 2 → IVec S16 32) a x).toNat < S8x1024.size a := fun v3 v4 v5 v6 v7 v8 v9 v10 v2709 k0_hw108 => k0_hw108.2.2.2.2.2.1
theorem k0_idx863_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v9, v2709] : Fin 2 → IVec S16 32) a x).toNat < S8x1024.size a := fun v3 v4 v5 v6 v7 v8 v9 v10 v2709 k0_hw108 => k0_hw108.2.2.2.2.2.2.1
theorem k0_idx864_inb : ∀ (v3 : IVec S16 32) (v4 : IVec S16 32) (v5 : IVec S16 32) (v6 : IVec S16 32) (v7 : IVec S16 32) (v8 : IVec S16 32) (v9 : IVec S16 32) (v10 : IVec S16 32) (v2709 : IVec S16 32) (k0_hw108 : k0_chk108 v3 v4 v5 v6 v7 v8 v9 v10 v2709), ∀ a x, ((![v10, v2709] : Fin 2 → IVec S16 32) a x).toNat < S8x1024.size a := fun v3 v4 v5 v6 v7 v8 v9 v10 v2709 k0_hw108 => k0_hw108.2.2.2.2.2.2.2

def k0_chk109 (v3 : IVec S16 32) (v4 : IVec S16 32) (v5 : IVec S16 32) (v6 : IVec S16 32) (v7 : IVec S16 32) (v8 : IVec S16 32) (v9 : IVec S16 32) (v10 : IVec S16 32) (v2734 : IVec S16 32) : Prop :=
  (∀ a x, ((![v3, v2734] : Fin 2 → IVec S16 32) a x).toNat < S8x1024.size a) ∧
  (∀ a x, ((![v4, v2734] : Fin 2 → IVec S16 32) a x).toNat < S8x1024.size a) ∧
  (∀ a x, ((![v5, v2734] : Fin 2 → IVec S16 32) a x).toNat < S8x1024.size a) ∧
  (∀ a x, ((![v6, v2734] : Fin 2 → IVec S16 32) a x).toNat < S8x1024.size a) ∧
  (∀ a x, ((![v7, v2734] : Fin 2 → IVec S16 32) a x).toNat < S8x1024.size a) ∧
  (∀ a x, ((![v8, v2734] : Fin 2 → IVec S16 32) a x).toNat < S8x1024.size a) ∧
  (∀ a x, ((![v9, v2734] : Fin 2 → IVec S16 32) a x).toNat < S8x1024.size a) ∧
  (∀ a x, ((![v10, v2734] : Fin 2 → IVec S16 32) a x).toNat < S8x1024.size a)
instance k0_chk109.dec : ∀ (v3 : IVec S16 32) (v4 : IVec S16 32) (v5 : IVec S16 32) (v6 : IVec S16 32) (v7 : IVec S16 32) (v8 : IVec S16 32) (v9 : IVec S16 32) (v10 : IVec S16 32) (v2734 : IVec S16 32), Decidable (k0_chk109 v3 v4 v5 v6 v7 v8 v9 v10 v2734) := fun v3 v4 v5 v6 v7 v8 v9 v10 v2734 => decidable_of_iff' _ (Iff.of_eq (k0_chk109.eq_1 v3 v4 v5 v6 v7 v8 v9 v10 v2734))
theorem k0_idx865_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v3, v2734] : Fin 2 → IVec S16 32) a x).toNat < S8x1024.size a := fun v3 v4 v5 v6 v7 v8 v9 v10 v2734 k0_hw109 => k0_hw109.1
theorem k0_idx866_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v4, v2734] : Fin 2 → IVec S16 32) a x).toNat < S8x1024.size a := fun v3 v4 v5 v6 v7 v8 v9 v10 v2734 k0_hw109 => k0_hw109.2.1
theorem k0_idx867_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v5, v2734] : Fin 2 → IVec S16 32) a x).toNat < S8x1024.size a := fun v3 v4 v5 v6 v7 v8 v9 v10 v2734 k0_hw109 => k0_hw109.2.2.1
theorem k0_idx868_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v6, v2734] : Fin 2 → IVec S16 32) a x).toNat < S8x1024.size a := fun v3 v4 v5 v6 v7 v8 v9 v10 v2734 k0_hw109 => k0_hw109.2.2.2.1
theorem k0_idx869_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v7, v2734] : Fin 2 → IVec S16 32) a x).toNat < S8x1024.size a := fun v3 v4 v5 v6 v7 v8 v9 v10 v2734 k0_hw109 => k0_hw109.2.2.2.2.1
theorem k0_idx870_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v8, v2734] : Fin 2 → IVec S16 32) a x).toNat < S8x1024.size a := fun v3 v4 v5 v6 v7 v8 v9 v10 v2734 k0_hw109 => k0_hw109.2.2.2.2.2.1
theorem k0_idx871_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v9, v2734] : Fin 2 → IVec S16 32) a x).toNat < S8x1024.size a := fun v3 v4 v5 v6 v7 v8 v9 v10 v2734 k0_hw109 => k0_hw109.2.2.2.2.2.2.1
theorem k0_idx872_inb : ∀ (v3 : IVec S16 32) (v4 : IVec S16 32) (v5 : IVec S16 32) (v6 : IVec S16 32) (v7 : IVec S16 32) (v8 : IVec S16 32) (v9 : IVec S16 32) (v10 : IVec S16 32) (v2734 : IVec S16 32) (k0_hw109 : k0_chk109 v3 v4 v5 v6 v7 v8 v9 v10 v2734), ∀ a x, ((![v10, v2734] : Fin 2 → IVec S16 32) a x).toNat < S8x1024.size a := fun v3 v4 v5 v6 v7 v8 v9 v10 v2734 k0_hw109 => k0_hw109.2.2.2.2.2.2.2

def k0_chk110 (v3 : IVec S16 32) (v4 : IVec S16 32) (v5 : IVec S16 32) (v6 : IVec S16 32) (v7 : IVec S16 32) (v8 : IVec S16 32) (v9 : IVec S16 32) (v10 : IVec S16 32) (v2759 : IVec S16 32) : Prop :=
  (∀ a x, ((![v3, v2759] : Fin 2 → IVec S16 32) a x).toNat < S8x1024.size a) ∧
  (∀ a x, ((![v4, v2759] : Fin 2 → IVec S16 32) a x).toNat < S8x1024.size a) ∧
  (∀ a x, ((![v5, v2759] : Fin 2 → IVec S16 32) a x).toNat < S8x1024.size a) ∧
  (∀ a x, ((![v6, v2759] : Fin 2 → IVec S16 32) a x).toNat < S8x1024.size a) ∧
  (∀ a x, ((![v7, v2759] : Fin 2 → IVec S16 32) a x).toNat < S8x1024.size a) ∧
  (∀ a x, ((![v8, v2759] : Fin 2 → IVec S16 32) a x).toNat < S8x1024.size a) ∧
  (∀ a x, ((![v9, v2759] : Fin 2 → IVec S16 32) a x).toNat < S8x1024.size a) ∧
  (∀ a x, ((![v10, v2759] : Fin 2 → IVec S16 32) a x).toNat < S8x1024.size a)
instance k0_chk110.dec : ∀ (v3 : IVec S16 32) (v4 : IVec S16 32) (v5 : IVec S16 32) (v6 : IVec S16 32) (v7 : IVec S16 32) (v8 : IVec S16 32) (v9 : IVec S16 32) (v10 : IVec S16 32) (v2759 : IVec S16 32), Decidable (k0_chk110 v3 v4 v5 v6 v7 v8 v9 v10 v2759) := fun v3 v4 v5 v6 v7 v8 v9 v10 v2759 => decidable_of_iff' _ (Iff.of_eq (k0_chk110.eq_1 v3 v4 v5 v6 v7 v8 v9 v10 v2759))
theorem k0_idx873_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v3, v2759] : Fin 2 → IVec S16 32) a x).toNat < S8x1024.size a := fun v3 v4 v5 v6 v7 v8 v9 v10 v2759 k0_hw110 => k0_hw110.1
theorem k0_idx874_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v4, v2759] : Fin 2 → IVec S16 32) a x).toNat < S8x1024.size a := fun v3 v4 v5 v6 v7 v8 v9 v10 v2759 k0_hw110 => k0_hw110.2.1
theorem k0_idx875_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v5, v2759] : Fin 2 → IVec S16 32) a x).toNat < S8x1024.size a := fun v3 v4 v5 v6 v7 v8 v9 v10 v2759 k0_hw110 => k0_hw110.2.2.1
theorem k0_idx876_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v6, v2759] : Fin 2 → IVec S16 32) a x).toNat < S8x1024.size a := fun v3 v4 v5 v6 v7 v8 v9 v10 v2759 k0_hw110 => k0_hw110.2.2.2.1
theorem k0_idx877_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v7, v2759] : Fin 2 → IVec S16 32) a x).toNat < S8x1024.size a := fun v3 v4 v5 v6 v7 v8 v9 v10 v2759 k0_hw110 => k0_hw110.2.2.2.2.1
theorem k0_idx878_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v8, v2759] : Fin 2 → IVec S16 32) a x).toNat < S8x1024.size a := fun v3 v4 v5 v6 v7 v8 v9 v10 v2759 k0_hw110 => k0_hw110.2.2.2.2.2.1
theorem k0_idx879_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v9, v2759] : Fin 2 → IVec S16 32) a x).toNat < S8x1024.size a := fun v3 v4 v5 v6 v7 v8 v9 v10 v2759 k0_hw110 => k0_hw110.2.2.2.2.2.2.1
theorem k0_idx880_inb : ∀ (v3 : IVec S16 32) (v4 : IVec S16 32) (v5 : IVec S16 32) (v6 : IVec S16 32) (v7 : IVec S16 32) (v8 : IVec S16 32) (v9 : IVec S16 32) (v10 : IVec S16 32) (v2759 : IVec S16 32) (k0_hw110 : k0_chk110 v3 v4 v5 v6 v7 v8 v9 v10 v2759), ∀ a x, ((![v10, v2759] : Fin 2 → IVec S16 32) a x).toNat < S8x1024.size a := fun v3 v4 v5 v6 v7 v8 v9 v10 v2759 k0_hw110 => k0_hw110.2.2.2.2.2.2.2

def k0_chk111 (v3 : IVec S16 32) (v4 : IVec S16 32) (v5 : IVec S16 32) (v6 : IVec S16 32) (v7 : IVec S16 32) (v8 : IVec S16 32) (v9 : IVec S16 32) (v10 : IVec S16 32) (v2784 : IVec S16 32) : Prop :=
  (∀ a x, ((![v3, v2784] : Fin 2 → IVec S16 32) a x).toNat < S8x1024.size a) ∧
  (∀ a x, ((![v4, v2784] : Fin 2 → IVec S16 32) a x).toNat < S8x1024.size a) ∧
  (∀ a x, ((![v5, v2784] : Fin 2 → IVec S16 32) a x).toNat < S8x1024.size a) ∧
  (∀ a x, ((![v6, v2784] : Fin 2 → IVec S16 32) a x).toNat < S8x1024.size a) ∧
  (∀ a x, ((![v7, v2784] : Fin 2 → IVec S16 32) a x).toNat < S8x1024.size a) ∧
  (∀ a x, ((![v8, v2784] : Fin 2 → IVec S16 32) a x).toNat < S8x1024.size a) ∧
  (∀ a x, ((![v9, v2784] : Fin 2 → IVec S16 32) a x).toNat < S8x1024.size a) ∧
  (∀ a x, ((![v10, v2784] : Fin 2 → IVec S16 32) a x).toNat < S8x1024.size a)
instance k0_chk111.dec : ∀ (v3 : IVec S16 32) (v4 : IVec S16 32) (v5 : IVec S16 32) (v6 : IVec S16 32) (v7 : IVec S16 32) (v8 : IVec S16 32) (v9 : IVec S16 32) (v10 : IVec S16 32) (v2784 : IVec S16 32), Decidable (k0_chk111 v3 v4 v5 v6 v7 v8 v9 v10 v2784) := fun v3 v4 v5 v6 v7 v8 v9 v10 v2784 => decidable_of_iff' _ (Iff.of_eq (k0_chk111.eq_1 v3 v4 v5 v6 v7 v8 v9 v10 v2784))
theorem k0_idx881_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v3, v2784] : Fin 2 → IVec S16 32) a x).toNat < S8x1024.size a := fun v3 v4 v5 v6 v7 v8 v9 v10 v2784 k0_hw111 => k0_hw111.1
theorem k0_idx882_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v4, v2784] : Fin 2 → IVec S16 32) a x).toNat < S8x1024.size a := fun v3 v4 v5 v6 v7 v8 v9 v10 v2784 k0_hw111 => k0_hw111.2.1
theorem k0_idx883_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v5, v2784] : Fin 2 → IVec S16 32) a x).toNat < S8x1024.size a := fun v3 v4 v5 v6 v7 v8 v9 v10 v2784 k0_hw111 => k0_hw111.2.2.1
theorem k0_idx884_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v6, v2784] : Fin 2 → IVec S16 32) a x).toNat < S8x1024.size a := fun v3 v4 v5 v6 v7 v8 v9 v10 v2784 k0_hw111 => k0_hw111.2.2.2.1
theorem k0_idx885_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v7, v2784] : Fin 2 → IVec S16 32) a x).toNat < S8x1024.size a := fun v3 v4 v5 v6 v7 v8 v9 v10 v2784 k0_hw111 => k0_hw111.2.2.2.2.1
theorem k0_idx886_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v8, v2784] : Fin 2 → IVec S16 32) a x).toNat < S8x1024.size a := fun v3 v4 v5 v6 v7 v8 v9 v10 v2784 k0_hw111 => k0_hw111.2.2.2.2.2.1
theorem k0_idx887_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v9, v2784] : Fin 2 → IVec S16 32) a x).toNat < S8x1024.size a := fun v3 v4 v5 v6 v7 v8 v9 v10 v2784 k0_hw111 => k0_hw111.2.2.2.2.2.2.1
theorem k0_idx888_inb : ∀ (v3 : IVec S16 32) (v4 : IVec S16 32) (v5 : IVec S16 32) (v6 : IVec S16 32) (v7 : IVec S16 32) (v8 : IVec S16 32) (v9 : IVec S16 32) (v10 : IVec S16 32) (v2784 : IVec S16 32) (k0_hw111 : k0_chk111 v3 v4 v5 v6 v7 v8 v9 v10 v2784), ∀ a x, ((![v10, v2784] : Fin 2 → IVec S16 32) a x).toNat < S8x1024.size a := fun v3 v4 v5 v6 v7 v8 v9 v10 v2784 k0_hw111 => k0_hw111.2.2.2.2.2.2.2

def k0_chk112 (v3 : IVec S16 32) (v4 : IVec S16 32) (v5 : IVec S16 32) (v6 : IVec S16 32) (v7 : IVec S16 32) (v8 : IVec S16 32) (v9 : IVec S16 32) (v10 : IVec S16 32) (v2809 : IVec S16 32) : Prop :=
  (∀ a x, ((![v3, v2809] : Fin 2 → IVec S16 32) a x).toNat < S8x1024.size a) ∧
  (∀ a x, ((![v4, v2809] : Fin 2 → IVec S16 32) a x).toNat < S8x1024.size a) ∧
  (∀ a x, ((![v5, v2809] : Fin 2 → IVec S16 32) a x).toNat < S8x1024.size a) ∧
  (∀ a x, ((![v6, v2809] : Fin 2 → IVec S16 32) a x).toNat < S8x1024.size a) ∧
  (∀ a x, ((![v7, v2809] : Fin 2 → IVec S16 32) a x).toNat < S8x1024.size a) ∧
  (∀ a x, ((![v8, v2809] : Fin 2 → IVec S16 32) a x).toNat < S8x1024.size a) ∧
  (∀ a x, ((![v9, v2809] : Fin 2 → IVec S16 32) a x).toNat < S8x1024.size a) ∧
  (∀ a x, ((![v10, v2809] : Fin 2 → IVec S16 32) a x).toNat < S8x1024.size a)
instance k0_chk112.dec : ∀ (v3 : IVec S16 32) (v4 : IVec S16 32) (v5 : IVec S16 32) (v6 : IVec S16 32) (v7 : IVec S16 32) (v8 : IVec S16 32) (v9 : IVec S16 32) (v10 : IVec S16 32) (v2809 : IVec S16 32), Decidable (k0_chk112 v3 v4 v5 v6 v7 v8 v9 v10 v2809) := fun v3 v4 v5 v6 v7 v8 v9 v10 v2809 => decidable_of_iff' _ (Iff.of_eq (k0_chk112.eq_1 v3 v4 v5 v6 v7 v8 v9 v10 v2809))
theorem k0_idx889_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v3, v2809] : Fin 2 → IVec S16 32) a x).toNat < S8x1024.size a := fun v3 v4 v5 v6 v7 v8 v9 v10 v2809 k0_hw112 => k0_hw112.1
theorem k0_idx890_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v4, v2809] : Fin 2 → IVec S16 32) a x).toNat < S8x1024.size a := fun v3 v4 v5 v6 v7 v8 v9 v10 v2809 k0_hw112 => k0_hw112.2.1
theorem k0_idx891_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v5, v2809] : Fin 2 → IVec S16 32) a x).toNat < S8x1024.size a := fun v3 v4 v5 v6 v7 v8 v9 v10 v2809 k0_hw112 => k0_hw112.2.2.1
theorem k0_idx892_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v6, v2809] : Fin 2 → IVec S16 32) a x).toNat < S8x1024.size a := fun v3 v4 v5 v6 v7 v8 v9 v10 v2809 k0_hw112 => k0_hw112.2.2.2.1
theorem k0_idx893_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v7, v2809] : Fin 2 → IVec S16 32) a x).toNat < S8x1024.size a := fun v3 v4 v5 v6 v7 v8 v9 v10 v2809 k0_hw112 => k0_hw112.2.2.2.2.1
theorem k0_idx894_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v8, v2809] : Fin 2 → IVec S16 32) a x).toNat < S8x1024.size a := fun v3 v4 v5 v6 v7 v8 v9 v10 v2809 k0_hw112 => k0_hw112.2.2.2.2.2.1
theorem k0_idx895_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v9, v2809] : Fin 2 → IVec S16 32) a x).toNat < S8x1024.size a := fun v3 v4 v5 v6 v7 v8 v9 v10 v2809 k0_hw112 => k0_hw112.2.2.2.2.2.2.1
theorem k0_idx896_inb : ∀ (v3 : IVec S16 32) (v4 : IVec S16 32) (v5 : IVec S16 32) (v6 : IVec S16 32) (v7 : IVec S16 32) (v8 : IVec S16 32) (v9 : IVec S16 32) (v10 : IVec S16 32) (v2809 : IVec S16 32) (k0_hw112 : k0_chk112 v3 v4 v5 v6 v7 v8 v9 v10 v2809), ∀ a x, ((![v10, v2809] : Fin 2 → IVec S16 32) a x).toNat < S8x1024.size a := fun v3 v4 v5 v6 v7 v8 v9 v10 v2809 k0_hw112 => k0_hw112.2.2.2.2.2.2.2

def k0_chk113 (v3 : IVec S16 32) (v4 : IVec S16 32) (v5 : IVec S16 32) (v6 : IVec S16 32) (v7 : IVec S16 32) (v8 : IVec S16 32) (v9 : IVec S16 32) (v10 : IVec S16 32) (v2834 : IVec S16 32) : Prop :=
  (∀ a x, ((![v3, v2834] : Fin 2 → IVec S16 32) a x).toNat < S8x1024.size a) ∧
  (∀ a x, ((![v4, v2834] : Fin 2 → IVec S16 32) a x).toNat < S8x1024.size a) ∧
  (∀ a x, ((![v5, v2834] : Fin 2 → IVec S16 32) a x).toNat < S8x1024.size a) ∧
  (∀ a x, ((![v6, v2834] : Fin 2 → IVec S16 32) a x).toNat < S8x1024.size a) ∧
  (∀ a x, ((![v7, v2834] : Fin 2 → IVec S16 32) a x).toNat < S8x1024.size a) ∧
  (∀ a x, ((![v8, v2834] : Fin 2 → IVec S16 32) a x).toNat < S8x1024.size a) ∧
  (∀ a x, ((![v9, v2834] : Fin 2 → IVec S16 32) a x).toNat < S8x1024.size a) ∧
  (∀ a x, ((![v10, v2834] : Fin 2 → IVec S16 32) a x).toNat < S8x1024.size a)
instance k0_chk113.dec : ∀ (v3 : IVec S16 32) (v4 : IVec S16 32) (v5 : IVec S16 32) (v6 : IVec S16 32) (v7 : IVec S16 32) (v8 : IVec S16 32) (v9 : IVec S16 32) (v10 : IVec S16 32) (v2834 : IVec S16 32), Decidable (k0_chk113 v3 v4 v5 v6 v7 v8 v9 v10 v2834) := fun v3 v4 v5 v6 v7 v8 v9 v10 v2834 => decidable_of_iff' _ (Iff.of_eq (k0_chk113.eq_1 v3 v4 v5 v6 v7 v8 v9 v10 v2834))
theorem k0_idx897_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v3, v2834] : Fin 2 → IVec S16 32) a x).toNat < S8x1024.size a := fun v3 v4 v5 v6 v7 v8 v9 v10 v2834 k0_hw113 => k0_hw113.1
theorem k0_idx898_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v4, v2834] : Fin 2 → IVec S16 32) a x).toNat < S8x1024.size a := fun v3 v4 v5 v6 v7 v8 v9 v10 v2834 k0_hw113 => k0_hw113.2.1
theorem k0_idx899_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v5, v2834] : Fin 2 → IVec S16 32) a x).toNat < S8x1024.size a := fun v3 v4 v5 v6 v7 v8 v9 v10 v2834 k0_hw113 => k0_hw113.2.2.1
theorem k0_idx900_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v6, v2834] : Fin 2 → IVec S16 32) a x).toNat < S8x1024.size a := fun v3 v4 v5 v6 v7 v8 v9 v10 v2834 k0_hw113 => k0_hw113.2.2.2.1
theorem k0_idx901_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v7, v2834] : Fin 2 → IVec S16 32) a x).toNat < S8x1024.size a := fun v3 v4 v5 v6 v7 v8 v9 v10 v2834 k0_hw113 => k0_hw113.2.2.2.2.1
theorem k0_idx902_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v8, v2834] : Fin 2 → IVec S16 32) a x).toNat < S8x1024.size a := fun v3 v4 v5 v6 v7 v8 v9 v10 v2834 k0_hw113 => k0_hw113.2.2.2.2.2.1
theorem k0_idx903_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v9, v2834] : Fin 2 → IVec S16 32) a x).toNat < S8x1024.size a := fun v3 v4 v5 v6 v7 v8 v9 v10 v2834 k0_hw113 => k0_hw113.2.2.2.2.2.2.1
theorem k0_idx904_inb : ∀ (v3 : IVec S16 32) (v4 : IVec S16 32) (v5 : IVec S16 32) (v6 : IVec S16 32) (v7 : IVec S16 32) (v8 : IVec S16 32) (v9 : IVec S16 32) (v10 : IVec S16 32) (v2834 : IVec S16 32) (k0_hw113 : k0_chk113 v3 v4 v5 v6 v7 v8 v9 v10 v2834), ∀ a x, ((![v10, v2834] : Fin 2 → IVec S16 32) a x).toNat < S8x1024.size a := fun v3 v4 v5 v6 v7 v8 v9 v10 v2834 k0_hw113 => k0_hw113.2.2.2.2.2.2.2

def k0_chk114 (v3 : IVec S16 32) (v4 : IVec S16 32) (v5 : IVec S16 32) (v6 : IVec S16 32) (v7 : IVec S16 32) (v8 : IVec S16 32) (v9 : IVec S16 32) (v10 : IVec S16 32) (v2859 : IVec S16 32) : Prop :=
  (∀ a x, ((![v3, v2859] : Fin 2 → IVec S16 32) a x).toNat < S8x1024.size a) ∧
  (∀ a x, ((![v4, v2859] : Fin 2 → IVec S16 32) a x).toNat < S8x1024.size a) ∧
  (∀ a x, ((![v5, v2859] : Fin 2 → IVec S16 32) a x).toNat < S8x1024.size a) ∧
  (∀ a x, ((![v6, v2859] : Fin 2 → IVec S16 32) a x).toNat < S8x1024.size a) ∧
  (∀ a x, ((![v7, v2859] : Fin 2 → IVec S16 32) a x).toNat < S8x1024.size a) ∧
  (∀ a x, ((![v8, v2859] : Fin 2 → IVec S16 32) a x).toNat < S8x1024.size a) ∧
  (∀ a x, ((![v9, v2859] : Fin 2 → IVec S16 32) a x).toNat < S8x1024.size a) ∧
  (∀ a x, ((![v10, v2859] : Fin 2 → IVec S16 32) a x).toNat < S8x1024.size a)
instance k0_chk114.dec : ∀ (v3 : IVec S16 32) (v4 : IVec S16 32) (v5 : IVec S16 32) (v6 : IVec S16 32) (v7 : IVec S16 32) (v8 : IVec S16 32) (v9 : IVec S16 32) (v10 : IVec S16 32) (v2859 : IVec S16 32), Decidable (k0_chk114 v3 v4 v5 v6 v7 v8 v9 v10 v2859) := fun v3 v4 v5 v6 v7 v8 v9 v10 v2859 => decidable_of_iff' _ (Iff.of_eq (k0_chk114.eq_1 v3 v4 v5 v6 v7 v8 v9 v10 v2859))
theorem k0_idx905_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v3, v2859] : Fin 2 → IVec S16 32) a x).toNat < S8x1024.size a := fun v3 v4 v5 v6 v7 v8 v9 v10 v2859 k0_hw114 => k0_hw114.1
theorem k0_idx906_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v4, v2859] : Fin 2 → IVec S16 32) a x).toNat < S8x1024.size a := fun v3 v4 v5 v6 v7 v8 v9 v10 v2859 k0_hw114 => k0_hw114.2.1
theorem k0_idx907_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v5, v2859] : Fin 2 → IVec S16 32) a x).toNat < S8x1024.size a := fun v3 v4 v5 v6 v7 v8 v9 v10 v2859 k0_hw114 => k0_hw114.2.2.1
theorem k0_idx908_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v6, v2859] : Fin 2 → IVec S16 32) a x).toNat < S8x1024.size a := fun v3 v4 v5 v6 v7 v8 v9 v10 v2859 k0_hw114 => k0_hw114.2.2.2.1
theorem k0_idx909_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v7, v2859] : Fin 2 → IVec S16 32) a x).toNat < S8x1024.size a := fun v3 v4 v5 v6 v7 v8 v9 v10 v2859 k0_hw114 => k0_hw114.2.2.2.2.1
theorem k0_idx910_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v8, v2859] : Fin 2 → IVec S16 32) a x).toNat < S8x1024.size a := fun v3 v4 v5 v6 v7 v8 v9 v10 v2859 k0_hw114 => k0_hw114.2.2.2.2.2.1
theorem k0_idx911_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v9, v2859] : Fin 2 → IVec S16 32) a x).toNat < S8x1024.size a := fun v3 v4 v5 v6 v7 v8 v9 v10 v2859 k0_hw114 => k0_hw114.2.2.2.2.2.2.1
theorem k0_idx912_inb : ∀ (v3 : IVec S16 32) (v4 : IVec S16 32) (v5 : IVec S16 32) (v6 : IVec S16 32) (v7 : IVec S16 32) (v8 : IVec S16 32) (v9 : IVec S16 32) (v10 : IVec S16 32) (v2859 : IVec S16 32) (k0_hw114 : k0_chk114 v3 v4 v5 v6 v7 v8 v9 v10 v2859), ∀ a x, ((![v10, v2859] : Fin 2 → IVec S16 32) a x).toNat < S8x1024.size a := fun v3 v4 v5 v6 v7 v8 v9 v10 v2859 k0_hw114 => k0_hw114.2.2.2.2.2.2.2

def k0_chk115 (v3 : IVec S16 32) (v4 : IVec S16 32) (v5 : IVec S16 32) (v6 : IVec S16 32) (v7 : IVec S16 32) (v8 : IVec S16 32) (v9 : IVec S16 32) (v10 : IVec S16 32) (v2884 : IVec S16 32) : Prop :=
  (∀ a x, ((![v3, v2884] : Fin 2 → IVec S16 32) a x).toNat < S8x1024.size a) ∧
  (∀ a x, ((![v4, v2884] : Fin 2 → IVec S16 32) a x).toNat < S8x1024.size a) ∧
  (∀ a x, ((![v5, v2884] : Fin 2 → IVec S16 32) a x).toNat < S8x1024.size a) ∧
  (∀ a x, ((![v6, v2884] : Fin 2 → IVec S16 32) a x).toNat < S8x1024.size a) ∧
  (∀ a x, ((![v7, v2884] : Fin 2 → IVec S16 32) a x).toNat < S8x1024.size a) ∧
  (∀ a x, ((![v8, v2884] : Fin 2 → IVec S16 32) a x).toNat < S8x1024.size a) ∧
  (∀ a x, ((![v9, v2884] : Fin 2 → IVec S16 32) a x).toNat < S8x1024.size a) ∧
  (∀ a x, ((![v10, v2884] : Fin 2 → IVec S16 32) a x).toNat < S8x1024.size a)
instance k0_chk115.dec : ∀ (v3 : IVec S16 32) (v4 : IVec S16 32) (v5 : IVec S16 32) (v6 : IVec S16 32) (v7 : IVec S16 32) (v8 : IVec S16 32) (v9 : IVec S16 32) (v10 : IVec S16 32) (v2884 : IVec S16 32), Decidable (k0_chk115 v3 v4 v5 v6 v7 v8 v9 v10 v2884) := fun v3 v4 v5 v6 v7 v8 v9 v10 v2884 => decidable_of_iff' _ (Iff.of_eq (k0_chk115.eq_1 v3 v4 v5 v6 v7 v8 v9 v10 v2884))
theorem k0_idx913_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v3, v2884] : Fin 2 → IVec S16 32) a x).toNat < S8x1024.size a := fun v3 v4 v5 v6 v7 v8 v9 v10 v2884 k0_hw115 => k0_hw115.1
theorem k0_idx914_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v4, v2884] : Fin 2 → IVec S16 32) a x).toNat < S8x1024.size a := fun v3 v4 v5 v6 v7 v8 v9 v10 v2884 k0_hw115 => k0_hw115.2.1
theorem k0_idx915_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v5, v2884] : Fin 2 → IVec S16 32) a x).toNat < S8x1024.size a := fun v3 v4 v5 v6 v7 v8 v9 v10 v2884 k0_hw115 => k0_hw115.2.2.1
theorem k0_idx916_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v6, v2884] : Fin 2 → IVec S16 32) a x).toNat < S8x1024.size a := fun v3 v4 v5 v6 v7 v8 v9 v10 v2884 k0_hw115 => k0_hw115.2.2.2.1
theorem k0_idx917_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v7, v2884] : Fin 2 → IVec S16 32) a x).toNat < S8x1024.size a := fun v3 v4 v5 v6 v7 v8 v9 v10 v2884 k0_hw115 => k0_hw115.2.2.2.2.1
theorem k0_idx918_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v8, v2884] : Fin 2 → IVec S16 32) a x).toNat < S8x1024.size a := fun v3 v4 v5 v6 v7 v8 v9 v10 v2884 k0_hw115 => k0_hw115.2.2.2.2.2.1
theorem k0_idx919_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v9, v2884] : Fin 2 → IVec S16 32) a x).toNat < S8x1024.size a := fun v3 v4 v5 v6 v7 v8 v9 v10 v2884 k0_hw115 => k0_hw115.2.2.2.2.2.2.1
theorem k0_idx920_inb : ∀ (v3 : IVec S16 32) (v4 : IVec S16 32) (v5 : IVec S16 32) (v6 : IVec S16 32) (v7 : IVec S16 32) (v8 : IVec S16 32) (v9 : IVec S16 32) (v10 : IVec S16 32) (v2884 : IVec S16 32) (k0_hw115 : k0_chk115 v3 v4 v5 v6 v7 v8 v9 v10 v2884), ∀ a x, ((![v10, v2884] : Fin 2 → IVec S16 32) a x).toNat < S8x1024.size a := fun v3 v4 v5 v6 v7 v8 v9 v10 v2884 k0_hw115 => k0_hw115.2.2.2.2.2.2.2

def k0_chk116 (v3 : IVec S16 32) (v4 : IVec S16 32) (v5 : IVec S16 32) (v6 : IVec S16 32) (v7 : IVec S16 32) (v8 : IVec S16 32) (v9 : IVec S16 32) (v10 : IVec S16 32) (v2909 : IVec S16 32) : Prop :=
  (∀ a x, ((![v3, v2909] : Fin 2 → IVec S16 32) a x).toNat < S8x1024.size a) ∧
  (∀ a x, ((![v4, v2909] : Fin 2 → IVec S16 32) a x).toNat < S8x1024.size a) ∧
  (∀ a x, ((![v5, v2909] : Fin 2 → IVec S16 32) a x).toNat < S8x1024.size a) ∧
  (∀ a x, ((![v6, v2909] : Fin 2 → IVec S16 32) a x).toNat < S8x1024.size a) ∧
  (∀ a x, ((![v7, v2909] : Fin 2 → IVec S16 32) a x).toNat < S8x1024.size a) ∧
  (∀ a x, ((![v8, v2909] : Fin 2 → IVec S16 32) a x).toNat < S8x1024.size a) ∧
  (∀ a x, ((![v9, v2909] : Fin 2 → IVec S16 32) a x).toNat < S8x1024.size a) ∧
  (∀ a x, ((![v10, v2909] : Fin 2 → IVec S16 32) a x).toNat < S8x1024.size a)
instance k0_chk116.dec : ∀ (v3 : IVec S16 32) (v4 : IVec S16 32) (v5 : IVec S16 32) (v6 : IVec S16 32) (v7 : IVec S16 32) (v8 : IVec S16 32) (v9 : IVec S16 32) (v10 : IVec S16 32) (v2909 : IVec S16 32), Decidable (k0_chk116 v3 v4 v5 v6 v7 v8 v9 v10 v2909) := fun v3 v4 v5 v6 v7 v8 v9 v10 v2909 => decidable_of_iff' _ (Iff.of_eq (k0_chk116.eq_1 v3 v4 v5 v6 v7 v8 v9 v10 v2909))
theorem k0_idx921_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v3, v2909] : Fin 2 → IVec S16 32) a x).toNat < S8x1024.size a := fun v3 v4 v5 v6 v7 v8 v9 v10 v2909 k0_hw116 => k0_hw116.1
theorem k0_idx922_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v4, v2909] : Fin 2 → IVec S16 32) a x).toNat < S8x1024.size a := fun v3 v4 v5 v6 v7 v8 v9 v10 v2909 k0_hw116 => k0_hw116.2.1
theorem k0_idx923_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v5, v2909] : Fin 2 → IVec S16 32) a x).toNat < S8x1024.size a := fun v3 v4 v5 v6 v7 v8 v9 v10 v2909 k0_hw116 => k0_hw116.2.2.1
theorem k0_idx924_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v6, v2909] : Fin 2 → IVec S16 32) a x).toNat < S8x1024.size a := fun v3 v4 v5 v6 v7 v8 v9 v10 v2909 k0_hw116 => k0_hw116.2.2.2.1
theorem k0_idx925_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v7, v2909] : Fin 2 → IVec S16 32) a x).toNat < S8x1024.size a := fun v3 v4 v5 v6 v7 v8 v9 v10 v2909 k0_hw116 => k0_hw116.2.2.2.2.1
theorem k0_idx926_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v8, v2909] : Fin 2 → IVec S16 32) a x).toNat < S8x1024.size a := fun v3 v4 v5 v6 v7 v8 v9 v10 v2909 k0_hw116 => k0_hw116.2.2.2.2.2.1
theorem k0_idx927_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v9, v2909] : Fin 2 → IVec S16 32) a x).toNat < S8x1024.size a := fun v3 v4 v5 v6 v7 v8 v9 v10 v2909 k0_hw116 => k0_hw116.2.2.2.2.2.2.1
theorem k0_idx928_inb : ∀ (v3 : IVec S16 32) (v4 : IVec S16 32) (v5 : IVec S16 32) (v6 : IVec S16 32) (v7 : IVec S16 32) (v8 : IVec S16 32) (v9 : IVec S16 32) (v10 : IVec S16 32) (v2909 : IVec S16 32) (k0_hw116 : k0_chk116 v3 v4 v5 v6 v7 v8 v9 v10 v2909), ∀ a x, ((![v10, v2909] : Fin 2 → IVec S16 32) a x).toNat < S8x1024.size a := fun v3 v4 v5 v6 v7 v8 v9 v10 v2909 k0_hw116 => k0_hw116.2.2.2.2.2.2.2

def k0_chk117 (v3 : IVec S16 32) (v4 : IVec S16 32) (v5 : IVec S16 32) (v6 : IVec S16 32) (v7 : IVec S16 32) (v8 : IVec S16 32) (v9 : IVec S16 32) (v10 : IVec S16 32) (v2934 : IVec S16 32) : Prop :=
  (∀ a x, ((![v3, v2934] : Fin 2 → IVec S16 32) a x).toNat < S8x1024.size a) ∧
  (∀ a x, ((![v4, v2934] : Fin 2 → IVec S16 32) a x).toNat < S8x1024.size a) ∧
  (∀ a x, ((![v5, v2934] : Fin 2 → IVec S16 32) a x).toNat < S8x1024.size a) ∧
  (∀ a x, ((![v6, v2934] : Fin 2 → IVec S16 32) a x).toNat < S8x1024.size a) ∧
  (∀ a x, ((![v7, v2934] : Fin 2 → IVec S16 32) a x).toNat < S8x1024.size a) ∧
  (∀ a x, ((![v8, v2934] : Fin 2 → IVec S16 32) a x).toNat < S8x1024.size a) ∧
  (∀ a x, ((![v9, v2934] : Fin 2 → IVec S16 32) a x).toNat < S8x1024.size a) ∧
  (∀ a x, ((![v10, v2934] : Fin 2 → IVec S16 32) a x).toNat < S8x1024.size a)
instance k0_chk117.dec : ∀ (v3 : IVec S16 32) (v4 : IVec S16 32) (v5 : IVec S16 32) (v6 : IVec S16 32) (v7 : IVec S16 32) (v8 : IVec S16 32) (v9 : IVec S16 32) (v10 : IVec S16 32) (v2934 : IVec S16 32), Decidable (k0_chk117 v3 v4 v5 v6 v7 v8 v9 v10 v2934) := fun v3 v4 v5 v6 v7 v8 v9 v10 v2934 => decidable_of_iff' _ (Iff.of_eq (k0_chk117.eq_1 v3 v4 v5 v6 v7 v8 v9 v10 v2934))
theorem k0_idx929_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v3, v2934] : Fin 2 → IVec S16 32) a x).toNat < S8x1024.size a := fun v3 v4 v5 v6 v7 v8 v9 v10 v2934 k0_hw117 => k0_hw117.1
theorem k0_idx930_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v4, v2934] : Fin 2 → IVec S16 32) a x).toNat < S8x1024.size a := fun v3 v4 v5 v6 v7 v8 v9 v10 v2934 k0_hw117 => k0_hw117.2.1
theorem k0_idx931_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v5, v2934] : Fin 2 → IVec S16 32) a x).toNat < S8x1024.size a := fun v3 v4 v5 v6 v7 v8 v9 v10 v2934 k0_hw117 => k0_hw117.2.2.1
theorem k0_idx932_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v6, v2934] : Fin 2 → IVec S16 32) a x).toNat < S8x1024.size a := fun v3 v4 v5 v6 v7 v8 v9 v10 v2934 k0_hw117 => k0_hw117.2.2.2.1
theorem k0_idx933_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v7, v2934] : Fin 2 → IVec S16 32) a x).toNat < S8x1024.size a := fun v3 v4 v5 v6 v7 v8 v9 v10 v2934 k0_hw117 => k0_hw117.2.2.2.2.1
theorem k0_idx934_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v8, v2934] : Fin 2 → IVec S16 32) a x).toNat < S8x1024.size a := fun v3 v4 v5 v6 v7 v8 v9 v10 v2934 k0_hw117 => k0_hw117.2.2.2.2.2.1
theorem k0_idx935_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v9, v2934] : Fin 2 → IVec S16 32) a x).toNat < S8x1024.size a := fun v3 v4 v5 v6 v7 v8 v9 v10 v2934 k0_hw117 => k0_hw117.2.2.2.2.2.2.1
theorem k0_idx936_inb : ∀ (v3 : IVec S16 32) (v4 : IVec S16 32) (v5 : IVec S16 32) (v6 : IVec S16 32) (v7 : IVec S16 32) (v8 : IVec S16 32) (v9 : IVec S16 32) (v10 : IVec S16 32) (v2934 : IVec S16 32) (k0_hw117 : k0_chk117 v3 v4 v5 v6 v7 v8 v9 v10 v2934), ∀ a x, ((![v10, v2934] : Fin 2 → IVec S16 32) a x).toNat < S8x1024.size a := fun v3 v4 v5 v6 v7 v8 v9 v10 v2934 k0_hw117 => k0_hw117.2.2.2.2.2.2.2

def k0_chk118 (v3 : IVec S16 32) (v4 : IVec S16 32) (v5 : IVec S16 32) (v6 : IVec S16 32) (v7 : IVec S16 32) (v8 : IVec S16 32) (v9 : IVec S16 32) (v10 : IVec S16 32) (v2959 : IVec S16 32) : Prop :=
  (∀ a x, ((![v3, v2959] : Fin 2 → IVec S16 32) a x).toNat < S8x1024.size a) ∧
  (∀ a x, ((![v4, v2959] : Fin 2 → IVec S16 32) a x).toNat < S8x1024.size a) ∧
  (∀ a x, ((![v5, v2959] : Fin 2 → IVec S16 32) a x).toNat < S8x1024.size a) ∧
  (∀ a x, ((![v6, v2959] : Fin 2 → IVec S16 32) a x).toNat < S8x1024.size a) ∧
  (∀ a x, ((![v7, v2959] : Fin 2 → IVec S16 32) a x).toNat < S8x1024.size a) ∧
  (∀ a x, ((![v8, v2959] : Fin 2 → IVec S16 32) a x).toNat < S8x1024.size a) ∧
  (∀ a x, ((![v9, v2959] : Fin 2 → IVec S16 32) a x).toNat < S8x1024.size a) ∧
  (∀ a x, ((![v10, v2959] : Fin 2 → IVec S16 32) a x).toNat < S8x1024.size a)
instance k0_chk118.dec : ∀ (v3 : IVec S16 32) (v4 : IVec S16 32) (v5 : IVec S16 32) (v6 : IVec S16 32) (v7 : IVec S16 32) (v8 : IVec S16 32) (v9 : IVec S16 32) (v10 : IVec S16 32) (v2959 : IVec S16 32), Decidable (k0_chk118 v3 v4 v5 v6 v7 v8 v9 v10 v2959) := fun v3 v4 v5 v6 v7 v8 v9 v10 v2959 => decidable_of_iff' _ (Iff.of_eq (k0_chk118.eq_1 v3 v4 v5 v6 v7 v8 v9 v10 v2959))
theorem k0_idx937_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v3, v2959] : Fin 2 → IVec S16 32) a x).toNat < S8x1024.size a := fun v3 v4 v5 v6 v7 v8 v9 v10 v2959 k0_hw118 => k0_hw118.1
theorem k0_idx938_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v4, v2959] : Fin 2 → IVec S16 32) a x).toNat < S8x1024.size a := fun v3 v4 v5 v6 v7 v8 v9 v10 v2959 k0_hw118 => k0_hw118.2.1
theorem k0_idx939_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v5, v2959] : Fin 2 → IVec S16 32) a x).toNat < S8x1024.size a := fun v3 v4 v5 v6 v7 v8 v9 v10 v2959 k0_hw118 => k0_hw118.2.2.1
theorem k0_idx940_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v6, v2959] : Fin 2 → IVec S16 32) a x).toNat < S8x1024.size a := fun v3 v4 v5 v6 v7 v8 v9 v10 v2959 k0_hw118 => k0_hw118.2.2.2.1
theorem k0_idx941_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v7, v2959] : Fin 2 → IVec S16 32) a x).toNat < S8x1024.size a := fun v3 v4 v5 v6 v7 v8 v9 v10 v2959 k0_hw118 => k0_hw118.2.2.2.2.1
theorem k0_idx942_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v8, v2959] : Fin 2 → IVec S16 32) a x).toNat < S8x1024.size a := fun v3 v4 v5 v6 v7 v8 v9 v10 v2959 k0_hw118 => k0_hw118.2.2.2.2.2.1
theorem k0_idx943_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v9, v2959] : Fin 2 → IVec S16 32) a x).toNat < S8x1024.size a := fun v3 v4 v5 v6 v7 v8 v9 v10 v2959 k0_hw118 => k0_hw118.2.2.2.2.2.2.1
theorem k0_idx944_inb : ∀ (v3 : IVec S16 32) (v4 : IVec S16 32) (v5 : IVec S16 32) (v6 : IVec S16 32) (v7 : IVec S16 32) (v8 : IVec S16 32) (v9 : IVec S16 32) (v10 : IVec S16 32) (v2959 : IVec S16 32) (k0_hw118 : k0_chk118 v3 v4 v5 v6 v7 v8 v9 v10 v2959), ∀ a x, ((![v10, v2959] : Fin 2 → IVec S16 32) a x).toNat < S8x1024.size a := fun v3 v4 v5 v6 v7 v8 v9 v10 v2959 k0_hw118 => k0_hw118.2.2.2.2.2.2.2

def k0_chk119 (v3 : IVec S16 32) (v4 : IVec S16 32) (v5 : IVec S16 32) (v6 : IVec S16 32) (v7 : IVec S16 32) (v8 : IVec S16 32) (v9 : IVec S16 32) (v10 : IVec S16 32) (v2984 : IVec S16 32) : Prop :=
  (∀ a x, ((![v3, v2984] : Fin 2 → IVec S16 32) a x).toNat < S8x1024.size a) ∧
  (∀ a x, ((![v4, v2984] : Fin 2 → IVec S16 32) a x).toNat < S8x1024.size a) ∧
  (∀ a x, ((![v5, v2984] : Fin 2 → IVec S16 32) a x).toNat < S8x1024.size a) ∧
  (∀ a x, ((![v6, v2984] : Fin 2 → IVec S16 32) a x).toNat < S8x1024.size a) ∧
  (∀ a x, ((![v7, v2984] : Fin 2 → IVec S16 32) a x).toNat < S8x1024.size a) ∧
  (∀ a x, ((![v8, v2984] : Fin 2 → IVec S16 32) a x).toNat < S8x1024.size a) ∧
  (∀ a x, ((![v9, v2984] : Fin 2 → IVec S16 32) a x).toNat < S8x1024.size a) ∧
  (∀ a x, ((![v10, v2984] : Fin 2 → IVec S16 32) a x).toNat < S8x1024.size a)
instance k0_chk119.dec : ∀ (v3 : IVec S16 32) (v4 : IVec S16 32) (v5 : IVec S16 32) (v6 : IVec S16 32) (v7 : IVec S16 32) (v8 : IVec S16 32) (v9 : IVec S16 32) (v10 : IVec S16 32) (v2984 : IVec S16 32), Decidable (k0_chk119 v3 v4 v5 v6 v7 v8 v9 v10 v2984) := fun v3 v4 v5 v6 v7 v8 v9 v10 v2984 => decidable_of_iff' _ (Iff.of_eq (k0_chk119.eq_1 v3 v4 v5 v6 v7 v8 v9 v10 v2984))
theorem k0_idx945_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v3, v2984] : Fin 2 → IVec S16 32) a x).toNat < S8x1024.size a := fun v3 v4 v5 v6 v7 v8 v9 v10 v2984 k0_hw119 => k0_hw119.1
theorem k0_idx946_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v4, v2984] : Fin 2 → IVec S16 32) a x).toNat < S8x1024.size a := fun v3 v4 v5 v6 v7 v8 v9 v10 v2984 k0_hw119 => k0_hw119.2.1
theorem k0_idx947_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v5, v2984] : Fin 2 → IVec S16 32) a x).toNat < S8x1024.size a := fun v3 v4 v5 v6 v7 v8 v9 v10 v2984 k0_hw119 => k0_hw119.2.2.1
theorem k0_idx948_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v6, v2984] : Fin 2 → IVec S16 32) a x).toNat < S8x1024.size a := fun v3 v4 v5 v6 v7 v8 v9 v10 v2984 k0_hw119 => k0_hw119.2.2.2.1
theorem k0_idx949_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v7, v2984] : Fin 2 → IVec S16 32) a x).toNat < S8x1024.size a := fun v3 v4 v5 v6 v7 v8 v9 v10 v2984 k0_hw119 => k0_hw119.2.2.2.2.1
theorem k0_idx950_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v8, v2984] : Fin 2 → IVec S16 32) a x).toNat < S8x1024.size a := fun v3 v4 v5 v6 v7 v8 v9 v10 v2984 k0_hw119 => k0_hw119.2.2.2.2.2.1
theorem k0_idx951_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v9, v2984] : Fin 2 → IVec S16 32) a x).toNat < S8x1024.size a := fun v3 v4 v5 v6 v7 v8 v9 v10 v2984 k0_hw119 => k0_hw119.2.2.2.2.2.2.1
theorem k0_idx952_inb : ∀ (v3 : IVec S16 32) (v4 : IVec S16 32) (v5 : IVec S16 32) (v6 : IVec S16 32) (v7 : IVec S16 32) (v8 : IVec S16 32) (v9 : IVec S16 32) (v10 : IVec S16 32) (v2984 : IVec S16 32) (k0_hw119 : k0_chk119 v3 v4 v5 v6 v7 v8 v9 v10 v2984), ∀ a x, ((![v10, v2984] : Fin 2 → IVec S16 32) a x).toNat < S8x1024.size a := fun v3 v4 v5 v6 v7 v8 v9 v10 v2984 k0_hw119 => k0_hw119.2.2.2.2.2.2.2

def k0_chk120 (v3 : IVec S16 32) (v4 : IVec S16 32) (v5 : IVec S16 32) (v6 : IVec S16 32) (v7 : IVec S16 32) (v8 : IVec S16 32) (v9 : IVec S16 32) (v10 : IVec S16 32) (v3009 : IVec S16 32) : Prop :=
  (∀ a x, ((![v3, v3009] : Fin 2 → IVec S16 32) a x).toNat < S8x1024.size a) ∧
  (∀ a x, ((![v4, v3009] : Fin 2 → IVec S16 32) a x).toNat < S8x1024.size a) ∧
  (∀ a x, ((![v5, v3009] : Fin 2 → IVec S16 32) a x).toNat < S8x1024.size a) ∧
  (∀ a x, ((![v6, v3009] : Fin 2 → IVec S16 32) a x).toNat < S8x1024.size a) ∧
  (∀ a x, ((![v7, v3009] : Fin 2 → IVec S16 32) a x).toNat < S8x1024.size a) ∧
  (∀ a x, ((![v8, v3009] : Fin 2 → IVec S16 32) a x).toNat < S8x1024.size a) ∧
  (∀ a x, ((![v9, v3009] : Fin 2 → IVec S16 32) a x).toNat < S8x1024.size a) ∧
  (∀ a x, ((![v10, v3009] : Fin 2 → IVec S16 32) a x).toNat < S8x1024.size a)
instance k0_chk120.dec : ∀ (v3 : IVec S16 32) (v4 : IVec S16 32) (v5 : IVec S16 32) (v6 : IVec S16 32) (v7 : IVec S16 32) (v8 : IVec S16 32) (v9 : IVec S16 32) (v10 : IVec S16 32) (v3009 : IVec S16 32), Decidable (k0_chk120 v3 v4 v5 v6 v7 v8 v9 v10 v3009) := fun v3 v4 v5 v6 v7 v8 v9 v10 v3009 => decidable_of_iff' _ (Iff.of_eq (k0_chk120.eq_1 v3 v4 v5 v6 v7 v8 v9 v10 v3009))
theorem k0_idx953_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v3, v3009] : Fin 2 → IVec S16 32) a x).toNat < S8x1024.size a := fun v3 v4 v5 v6 v7 v8 v9 v10 v3009 k0_hw120 => k0_hw120.1
theorem k0_idx954_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v4, v3009] : Fin 2 → IVec S16 32) a x).toNat < S8x1024.size a := fun v3 v4 v5 v6 v7 v8 v9 v10 v3009 k0_hw120 => k0_hw120.2.1
theorem k0_idx955_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v5, v3009] : Fin 2 → IVec S16 32) a x).toNat < S8x1024.size a := fun v3 v4 v5 v6 v7 v8 v9 v10 v3009 k0_hw120 => k0_hw120.2.2.1
theorem k0_idx956_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v6, v3009] : Fin 2 → IVec S16 32) a x).toNat < S8x1024.size a := fun v3 v4 v5 v6 v7 v8 v9 v10 v3009 k0_hw120 => k0_hw120.2.2.2.1
theorem k0_idx957_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v7, v3009] : Fin 2 → IVec S16 32) a x).toNat < S8x1024.size a := fun v3 v4 v5 v6 v7 v8 v9 v10 v3009 k0_hw120 => k0_hw120.2.2.2.2.1
theorem k0_idx958_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v8, v3009] : Fin 2 → IVec S16 32) a x).toNat < S8x1024.size a := fun v3 v4 v5 v6 v7 v8 v9 v10 v3009 k0_hw120 => k0_hw120.2.2.2.2.2.1
theorem k0_idx959_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v9, v3009] : Fin 2 → IVec S16 32) a x).toNat < S8x1024.size a := fun v3 v4 v5 v6 v7 v8 v9 v10 v3009 k0_hw120 => k0_hw120.2.2.2.2.2.2.1
theorem k0_idx960_inb : ∀ (v3 : IVec S16 32) (v4 : IVec S16 32) (v5 : IVec S16 32) (v6 : IVec S16 32) (v7 : IVec S16 32) (v8 : IVec S16 32) (v9 : IVec S16 32) (v10 : IVec S16 32) (v3009 : IVec S16 32) (k0_hw120 : k0_chk120 v3 v4 v5 v6 v7 v8 v9 v10 v3009), ∀ a x, ((![v10, v3009] : Fin 2 → IVec S16 32) a x).toNat < S8x1024.size a := fun v3 v4 v5 v6 v7 v8 v9 v10 v3009 k0_hw120 => k0_hw120.2.2.2.2.2.2.2

def k0_chk121 (v3 : IVec S16 32) (v4 : IVec S16 32) (v5 : IVec S16 32) (v6 : IVec S16 32) (v7 : IVec S16 32) (v8 : IVec S16 32) (v9 : IVec S16 32) (v10 : IVec S16 32) (v3034 : IVec S16 32) : Prop :=
  (∀ a x, ((![v3, v3034] : Fin 2 → IVec S16 32) a x).toNat < S8x1024.size a) ∧
  (∀ a x, ((![v4, v3034] : Fin 2 → IVec S16 32) a x).toNat < S8x1024.size a) ∧
  (∀ a x, ((![v5, v3034] : Fin 2 → IVec S16 32) a x).toNat < S8x1024.size a) ∧
  (∀ a x, ((![v6, v3034] : Fin 2 → IVec S16 32) a x).toNat < S8x1024.size a) ∧
  (∀ a x, ((![v7, v3034] : Fin 2 → IVec S16 32) a x).toNat < S8x1024.size a) ∧
  (∀ a x, ((![v8, v3034] : Fin 2 → IVec S16 32) a x).toNat < S8x1024.size a) ∧
  (∀ a x, ((![v9, v3034] : Fin 2 → IVec S16 32) a x).toNat < S8x1024.size a) ∧
  (∀ a x, ((![v10, v3034] : Fin 2 → IVec S16 32) a x).toNat < S8x1024.size a)
instance k0_chk121.dec : ∀ (v3 : IVec S16 32) (v4 : IVec S16 32) (v5 : IVec S16 32) (v6 : IVec S16 32) (v7 : IVec S16 32) (v8 : IVec S16 32) (v9 : IVec S16 32) (v10 : IVec S16 32) (v3034 : IVec S16 32), Decidable (k0_chk121 v3 v4 v5 v6 v7 v8 v9 v10 v3034) := fun v3 v4 v5 v6 v7 v8 v9 v10 v3034 => decidable_of_iff' _ (Iff.of_eq (k0_chk121.eq_1 v3 v4 v5 v6 v7 v8 v9 v10 v3034))
theorem k0_idx961_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v3, v3034] : Fin 2 → IVec S16 32) a x).toNat < S8x1024.size a := fun v3 v4 v5 v6 v7 v8 v9 v10 v3034 k0_hw121 => k0_hw121.1
theorem k0_idx962_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v4, v3034] : Fin 2 → IVec S16 32) a x).toNat < S8x1024.size a := fun v3 v4 v5 v6 v7 v8 v9 v10 v3034 k0_hw121 => k0_hw121.2.1
theorem k0_idx963_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v5, v3034] : Fin 2 → IVec S16 32) a x).toNat < S8x1024.size a := fun v3 v4 v5 v6 v7 v8 v9 v10 v3034 k0_hw121 => k0_hw121.2.2.1
theorem k0_idx964_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v6, v3034] : Fin 2 → IVec S16 32) a x).toNat < S8x1024.size a := fun v3 v4 v5 v6 v7 v8 v9 v10 v3034 k0_hw121 => k0_hw121.2.2.2.1
theorem k0_idx965_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v7, v3034] : Fin 2 → IVec S16 32) a x).toNat < S8x1024.size a := fun v3 v4 v5 v6 v7 v8 v9 v10 v3034 k0_hw121 => k0_hw121.2.2.2.2.1
theorem k0_idx966_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v8, v3034] : Fin 2 → IVec S16 32) a x).toNat < S8x1024.size a := fun v3 v4 v5 v6 v7 v8 v9 v10 v3034 k0_hw121 => k0_hw121.2.2.2.2.2.1
theorem k0_idx967_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v9, v3034] : Fin 2 → IVec S16 32) a x).toNat < S8x1024.size a := fun v3 v4 v5 v6 v7 v8 v9 v10 v3034 k0_hw121 => k0_hw121.2.2.2.2.2.2.1
theorem k0_idx968_inb : ∀ (v3 : IVec S16 32) (v4 : IVec S16 32) (v5 : IVec S16 32) (v6 : IVec S16 32) (v7 : IVec S16 32) (v8 : IVec S16 32) (v9 : IVec S16 32) (v10 : IVec S16 32) (v3034 : IVec S16 32) (k0_hw121 : k0_chk121 v3 v4 v5 v6 v7 v8 v9 v10 v3034), ∀ a x, ((![v10, v3034] : Fin 2 → IVec S16 32) a x).toNat < S8x1024.size a := fun v3 v4 v5 v6 v7 v8 v9 v10 v3034 k0_hw121 => k0_hw121.2.2.2.2.2.2.2

def k0_chk122 (v3 : IVec S16 32) (v4 : IVec S16 32) (v5 : IVec S16 32) (v6 : IVec S16 32) (v7 : IVec S16 32) (v8 : IVec S16 32) (v9 : IVec S16 32) (v10 : IVec S16 32) (v3059 : IVec S16 32) : Prop :=
  (∀ a x, ((![v3, v3059] : Fin 2 → IVec S16 32) a x).toNat < S8x1024.size a) ∧
  (∀ a x, ((![v4, v3059] : Fin 2 → IVec S16 32) a x).toNat < S8x1024.size a) ∧
  (∀ a x, ((![v5, v3059] : Fin 2 → IVec S16 32) a x).toNat < S8x1024.size a) ∧
  (∀ a x, ((![v6, v3059] : Fin 2 → IVec S16 32) a x).toNat < S8x1024.size a) ∧
  (∀ a x, ((![v7, v3059] : Fin 2 → IVec S16 32) a x).toNat < S8x1024.size a) ∧
  (∀ a x, ((![v8, v3059] : Fin 2 → IVec S16 32) a x).toNat < S8x1024.size a) ∧
  (∀ a x, ((![v9, v3059] : Fin 2 → IVec S16 32) a x).toNat < S8x1024.size a) ∧
  (∀ a x, ((![v10, v3059] : Fin 2 → IVec S16 32) a x).toNat < S8x1024.size a)
instance k0_chk122.dec : ∀ (v3 : IVec S16 32) (v4 : IVec S16 32) (v5 : IVec S16 32) (v6 : IVec S16 32) (v7 : IVec S16 32) (v8 : IVec S16 32) (v9 : IVec S16 32) (v10 : IVec S16 32) (v3059 : IVec S16 32), Decidable (k0_chk122 v3 v4 v5 v6 v7 v8 v9 v10 v3059) := fun v3 v4 v5 v6 v7 v8 v9 v10 v3059 => decidable_of_iff' _ (Iff.of_eq (k0_chk122.eq_1 v3 v4 v5 v6 v7 v8 v9 v10 v3059))
theorem k0_idx969_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v3, v3059] : Fin 2 → IVec S16 32) a x).toNat < S8x1024.size a := fun v3 v4 v5 v6 v7 v8 v9 v10 v3059 k0_hw122 => k0_hw122.1
theorem k0_idx970_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v4, v3059] : Fin 2 → IVec S16 32) a x).toNat < S8x1024.size a := fun v3 v4 v5 v6 v7 v8 v9 v10 v3059 k0_hw122 => k0_hw122.2.1
theorem k0_idx971_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v5, v3059] : Fin 2 → IVec S16 32) a x).toNat < S8x1024.size a := fun v3 v4 v5 v6 v7 v8 v9 v10 v3059 k0_hw122 => k0_hw122.2.2.1
theorem k0_idx972_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v6, v3059] : Fin 2 → IVec S16 32) a x).toNat < S8x1024.size a := fun v3 v4 v5 v6 v7 v8 v9 v10 v3059 k0_hw122 => k0_hw122.2.2.2.1
theorem k0_idx973_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v7, v3059] : Fin 2 → IVec S16 32) a x).toNat < S8x1024.size a := fun v3 v4 v5 v6 v7 v8 v9 v10 v3059 k0_hw122 => k0_hw122.2.2.2.2.1
theorem k0_idx974_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v8, v3059] : Fin 2 → IVec S16 32) a x).toNat < S8x1024.size a := fun v3 v4 v5 v6 v7 v8 v9 v10 v3059 k0_hw122 => k0_hw122.2.2.2.2.2.1
theorem k0_idx975_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v9, v3059] : Fin 2 → IVec S16 32) a x).toNat < S8x1024.size a := fun v3 v4 v5 v6 v7 v8 v9 v10 v3059 k0_hw122 => k0_hw122.2.2.2.2.2.2.1
theorem k0_idx976_inb : ∀ (v3 : IVec S16 32) (v4 : IVec S16 32) (v5 : IVec S16 32) (v6 : IVec S16 32) (v7 : IVec S16 32) (v8 : IVec S16 32) (v9 : IVec S16 32) (v10 : IVec S16 32) (v3059 : IVec S16 32) (k0_hw122 : k0_chk122 v3 v4 v5 v6 v7 v8 v9 v10 v3059), ∀ a x, ((![v10, v3059] : Fin 2 → IVec S16 32) a x).toNat < S8x1024.size a := fun v3 v4 v5 v6 v7 v8 v9 v10 v3059 k0_hw122 => k0_hw122.2.2.2.2.2.2.2

def k0_chk123 (v3 : IVec S16 32) (v4 : IVec S16 32) (v5 : IVec S16 32) (v6 : IVec S16 32) (v7 : IVec S16 32) (v8 : IVec S16 32) (v9 : IVec S16 32) (v10 : IVec S16 32) (v3084 : IVec S16 32) : Prop :=
  (∀ a x, ((![v3, v3084] : Fin 2 → IVec S16 32) a x).toNat < S8x1024.size a) ∧
  (∀ a x, ((![v4, v3084] : Fin 2 → IVec S16 32) a x).toNat < S8x1024.size a) ∧
  (∀ a x, ((![v5, v3084] : Fin 2 → IVec S16 32) a x).toNat < S8x1024.size a) ∧
  (∀ a x, ((![v6, v3084] : Fin 2 → IVec S16 32) a x).toNat < S8x1024.size a) ∧
  (∀ a x, ((![v7, v3084] : Fin 2 → IVec S16 32) a x).toNat < S8x1024.size a) ∧
  (∀ a x, ((![v8, v3084] : Fin 2 → IVec S16 32) a x).toNat < S8x1024.size a) ∧
  (∀ a x, ((![v9, v3084] : Fin 2 → IVec S16 32) a x).toNat < S8x1024.size a) ∧
  (∀ a x, ((![v10, v3084] : Fin 2 → IVec S16 32) a x).toNat < S8x1024.size a)
instance k0_chk123.dec : ∀ (v3 : IVec S16 32) (v4 : IVec S16 32) (v5 : IVec S16 32) (v6 : IVec S16 32) (v7 : IVec S16 32) (v8 : IVec S16 32) (v9 : IVec S16 32) (v10 : IVec S16 32) (v3084 : IVec S16 32), Decidable (k0_chk123 v3 v4 v5 v6 v7 v8 v9 v10 v3084) := fun v3 v4 v5 v6 v7 v8 v9 v10 v3084 => decidable_of_iff' _ (Iff.of_eq (k0_chk123.eq_1 v3 v4 v5 v6 v7 v8 v9 v10 v3084))
theorem k0_idx977_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v3, v3084] : Fin 2 → IVec S16 32) a x).toNat < S8x1024.size a := fun v3 v4 v5 v6 v7 v8 v9 v10 v3084 k0_hw123 => k0_hw123.1
theorem k0_idx978_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v4, v3084] : Fin 2 → IVec S16 32) a x).toNat < S8x1024.size a := fun v3 v4 v5 v6 v7 v8 v9 v10 v3084 k0_hw123 => k0_hw123.2.1
theorem k0_idx979_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v5, v3084] : Fin 2 → IVec S16 32) a x).toNat < S8x1024.size a := fun v3 v4 v5 v6 v7 v8 v9 v10 v3084 k0_hw123 => k0_hw123.2.2.1
theorem k0_idx980_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v6, v3084] : Fin 2 → IVec S16 32) a x).toNat < S8x1024.size a := fun v3 v4 v5 v6 v7 v8 v9 v10 v3084 k0_hw123 => k0_hw123.2.2.2.1
theorem k0_idx981_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v7, v3084] : Fin 2 → IVec S16 32) a x).toNat < S8x1024.size a := fun v3 v4 v5 v6 v7 v8 v9 v10 v3084 k0_hw123 => k0_hw123.2.2.2.2.1
theorem k0_idx982_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v8, v3084] : Fin 2 → IVec S16 32) a x).toNat < S8x1024.size a := fun v3 v4 v5 v6 v7 v8 v9 v10 v3084 k0_hw123 => k0_hw123.2.2.2.2.2.1
theorem k0_idx983_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v9, v3084] : Fin 2 → IVec S16 32) a x).toNat < S8x1024.size a := fun v3 v4 v5 v6 v7 v8 v9 v10 v3084 k0_hw123 => k0_hw123.2.2.2.2.2.2.1
theorem k0_idx984_inb : ∀ (v3 : IVec S16 32) (v4 : IVec S16 32) (v5 : IVec S16 32) (v6 : IVec S16 32) (v7 : IVec S16 32) (v8 : IVec S16 32) (v9 : IVec S16 32) (v10 : IVec S16 32) (v3084 : IVec S16 32) (k0_hw123 : k0_chk123 v3 v4 v5 v6 v7 v8 v9 v10 v3084), ∀ a x, ((![v10, v3084] : Fin 2 → IVec S16 32) a x).toNat < S8x1024.size a := fun v3 v4 v5 v6 v7 v8 v9 v10 v3084 k0_hw123 => k0_hw123.2.2.2.2.2.2.2

def k0_chk124 (v3 : IVec S16 32) (v4 : IVec S16 32) (v5 : IVec S16 32) (v6 : IVec S16 32) (v7 : IVec S16 32) (v8 : IVec S16 32) (v9 : IVec S16 32) (v10 : IVec S16 32) (v3109 : IVec S16 32) : Prop :=
  (∀ a x, ((![v3, v3109] : Fin 2 → IVec S16 32) a x).toNat < S8x1024.size a) ∧
  (∀ a x, ((![v4, v3109] : Fin 2 → IVec S16 32) a x).toNat < S8x1024.size a) ∧
  (∀ a x, ((![v5, v3109] : Fin 2 → IVec S16 32) a x).toNat < S8x1024.size a) ∧
  (∀ a x, ((![v6, v3109] : Fin 2 → IVec S16 32) a x).toNat < S8x1024.size a) ∧
  (∀ a x, ((![v7, v3109] : Fin 2 → IVec S16 32) a x).toNat < S8x1024.size a) ∧
  (∀ a x, ((![v8, v3109] : Fin 2 → IVec S16 32) a x).toNat < S8x1024.size a) ∧
  (∀ a x, ((![v9, v3109] : Fin 2 → IVec S16 32) a x).toNat < S8x1024.size a) ∧
  (∀ a x, ((![v10, v3109] : Fin 2 → IVec S16 32) a x).toNat < S8x1024.size a)
instance k0_chk124.dec : ∀ (v3 : IVec S16 32) (v4 : IVec S16 32) (v5 : IVec S16 32) (v6 : IVec S16 32) (v7 : IVec S16 32) (v8 : IVec S16 32) (v9 : IVec S16 32) (v10 : IVec S16 32) (v3109 : IVec S16 32), Decidable (k0_chk124 v3 v4 v5 v6 v7 v8 v9 v10 v3109) := fun v3 v4 v5 v6 v7 v8 v9 v10 v3109 => decidable_of_iff' _ (Iff.of_eq (k0_chk124.eq_1 v3 v4 v5 v6 v7 v8 v9 v10 v3109))
theorem k0_idx985_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v3, v3109] : Fin 2 → IVec S16 32) a x).toNat < S8x1024.size a := fun v3 v4 v5 v6 v7 v8 v9 v10 v3109 k0_hw124 => k0_hw124.1
theorem k0_idx986_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v4, v3109] : Fin 2 → IVec S16 32) a x).toNat < S8x1024.size a := fun v3 v4 v5 v6 v7 v8 v9 v10 v3109 k0_hw124 => k0_hw124.2.1
theorem k0_idx987_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v5, v3109] : Fin 2 → IVec S16 32) a x).toNat < S8x1024.size a := fun v3 v4 v5 v6 v7 v8 v9 v10 v3109 k0_hw124 => k0_hw124.2.2.1
theorem k0_idx988_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v6, v3109] : Fin 2 → IVec S16 32) a x).toNat < S8x1024.size a := fun v3 v4 v5 v6 v7 v8 v9 v10 v3109 k0_hw124 => k0_hw124.2.2.2.1
theorem k0_idx989_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v7, v3109] : Fin 2 → IVec S16 32) a x).toNat < S8x1024.size a := fun v3 v4 v5 v6 v7 v8 v9 v10 v3109 k0_hw124 => k0_hw124.2.2.2.2.1
theorem k0_idx990_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v8, v3109] : Fin 2 → IVec S16 32) a x).toNat < S8x1024.size a := fun v3 v4 v5 v6 v7 v8 v9 v10 v3109 k0_hw124 => k0_hw124.2.2.2.2.2.1
theorem k0_idx991_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v9, v3109] : Fin 2 → IVec S16 32) a x).toNat < S8x1024.size a := fun v3 v4 v5 v6 v7 v8 v9 v10 v3109 k0_hw124 => k0_hw124.2.2.2.2.2.2.1
theorem k0_idx992_inb : ∀ (v3 : IVec S16 32) (v4 : IVec S16 32) (v5 : IVec S16 32) (v6 : IVec S16 32) (v7 : IVec S16 32) (v8 : IVec S16 32) (v9 : IVec S16 32) (v10 : IVec S16 32) (v3109 : IVec S16 32) (k0_hw124 : k0_chk124 v3 v4 v5 v6 v7 v8 v9 v10 v3109), ∀ a x, ((![v10, v3109] : Fin 2 → IVec S16 32) a x).toNat < S8x1024.size a := fun v3 v4 v5 v6 v7 v8 v9 v10 v3109 k0_hw124 => k0_hw124.2.2.2.2.2.2.2

def k0_chk125 (v3 : IVec S16 32) (v4 : IVec S16 32) (v5 : IVec S16 32) (v6 : IVec S16 32) (v7 : IVec S16 32) (v8 : IVec S16 32) (v9 : IVec S16 32) (v10 : IVec S16 32) (v3134 : IVec S16 32) : Prop :=
  (∀ a x, ((![v3, v3134] : Fin 2 → IVec S16 32) a x).toNat < S8x1024.size a) ∧
  (∀ a x, ((![v4, v3134] : Fin 2 → IVec S16 32) a x).toNat < S8x1024.size a) ∧
  (∀ a x, ((![v5, v3134] : Fin 2 → IVec S16 32) a x).toNat < S8x1024.size a) ∧
  (∀ a x, ((![v6, v3134] : Fin 2 → IVec S16 32) a x).toNat < S8x1024.size a) ∧
  (∀ a x, ((![v7, v3134] : Fin 2 → IVec S16 32) a x).toNat < S8x1024.size a) ∧
  (∀ a x, ((![v8, v3134] : Fin 2 → IVec S16 32) a x).toNat < S8x1024.size a) ∧
  (∀ a x, ((![v9, v3134] : Fin 2 → IVec S16 32) a x).toNat < S8x1024.size a) ∧
  (∀ a x, ((![v10, v3134] : Fin 2 → IVec S16 32) a x).toNat < S8x1024.size a)
instance k0_chk125.dec : ∀ (v3 : IVec S16 32) (v4 : IVec S16 32) (v5 : IVec S16 32) (v6 : IVec S16 32) (v7 : IVec S16 32) (v8 : IVec S16 32) (v9 : IVec S16 32) (v10 : IVec S16 32) (v3134 : IVec S16 32), Decidable (k0_chk125 v3 v4 v5 v6 v7 v8 v9 v10 v3134) := fun v3 v4 v5 v6 v7 v8 v9 v10 v3134 => decidable_of_iff' _ (Iff.of_eq (k0_chk125.eq_1 v3 v4 v5 v6 v7 v8 v9 v10 v3134))
theorem k0_idx993_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v3, v3134] : Fin 2 → IVec S16 32) a x).toNat < S8x1024.size a := fun v3 v4 v5 v6 v7 v8 v9 v10 v3134 k0_hw125 => k0_hw125.1
theorem k0_idx994_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v4, v3134] : Fin 2 → IVec S16 32) a x).toNat < S8x1024.size a := fun v3 v4 v5 v6 v7 v8 v9 v10 v3134 k0_hw125 => k0_hw125.2.1
theorem k0_idx995_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v5, v3134] : Fin 2 → IVec S16 32) a x).toNat < S8x1024.size a := fun v3 v4 v5 v6 v7 v8 v9 v10 v3134 k0_hw125 => k0_hw125.2.2.1
theorem k0_idx996_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v6, v3134] : Fin 2 → IVec S16 32) a x).toNat < S8x1024.size a := fun v3 v4 v5 v6 v7 v8 v9 v10 v3134 k0_hw125 => k0_hw125.2.2.2.1
theorem k0_idx997_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v7, v3134] : Fin 2 → IVec S16 32) a x).toNat < S8x1024.size a := fun v3 v4 v5 v6 v7 v8 v9 v10 v3134 k0_hw125 => k0_hw125.2.2.2.2.1
theorem k0_idx998_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v8, v3134] : Fin 2 → IVec S16 32) a x).toNat < S8x1024.size a := fun v3 v4 v5 v6 v7 v8 v9 v10 v3134 k0_hw125 => k0_hw125.2.2.2.2.2.1
theorem k0_idx999_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v9, v3134] : Fin 2 → IVec S16 32) a x).toNat < S8x1024.size a := fun v3 v4 v5 v6 v7 v8 v9 v10 v3134 k0_hw125 => k0_hw125.2.2.2.2.2.2.1
theorem k0_idx1000_inb : ∀ (v3 : IVec S16 32) (v4 : IVec S16 32) (v5 : IVec S16 32) (v6 : IVec S16 32) (v7 : IVec S16 32) (v8 : IVec S16 32) (v9 : IVec S16 32) (v10 : IVec S16 32) (v3134 : IVec S16 32) (k0_hw125 : k0_chk125 v3 v4 v5 v6 v7 v8 v9 v10 v3134), ∀ a x, ((![v10, v3134] : Fin 2 → IVec S16 32) a x).toNat < S8x1024.size a := fun v3 v4 v5 v6 v7 v8 v9 v10 v3134 k0_hw125 => k0_hw125.2.2.2.2.2.2.2

def k0_chk126 (v3 : IVec S16 32) (v4 : IVec S16 32) (v5 : IVec S16 32) (v6 : IVec S16 32) (v7 : IVec S16 32) (v8 : IVec S16 32) (v9 : IVec S16 32) (v10 : IVec S16 32) (v3159 : IVec S16 32) : Prop :=
  (∀ a x, ((![v3, v3159] : Fin 2 → IVec S16 32) a x).toNat < S8x1024.size a) ∧
  (∀ a x, ((![v4, v3159] : Fin 2 → IVec S16 32) a x).toNat < S8x1024.size a) ∧
  (∀ a x, ((![v5, v3159] : Fin 2 → IVec S16 32) a x).toNat < S8x1024.size a) ∧
  (∀ a x, ((![v6, v3159] : Fin 2 → IVec S16 32) a x).toNat < S8x1024.size a) ∧
  (∀ a x, ((![v7, v3159] : Fin 2 → IVec S16 32) a x).toNat < S8x1024.size a) ∧
  (∀ a x, ((![v8, v3159] : Fin 2 → IVec S16 32) a x).toNat < S8x1024.size a) ∧
  (∀ a x, ((![v9, v3159] : Fin 2 → IVec S16 32) a x).toNat < S8x1024.size a) ∧
  (∀ a x, ((![v10, v3159] : Fin 2 → IVec S16 32) a x).toNat < S8x1024.size a)
instance k0_chk126.dec : ∀ (v3 : IVec S16 32) (v4 : IVec S16 32) (v5 : IVec S16 32) (v6 : IVec S16 32) (v7 : IVec S16 32) (v8 : IVec S16 32) (v9 : IVec S16 32) (v10 : IVec S16 32) (v3159 : IVec S16 32), Decidable (k0_chk126 v3 v4 v5 v6 v7 v8 v9 v10 v3159) := fun v3 v4 v5 v6 v7 v8 v9 v10 v3159 => decidable_of_iff' _ (Iff.of_eq (k0_chk126.eq_1 v3 v4 v5 v6 v7 v8 v9 v10 v3159))
theorem k0_idx1001_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v3, v3159] : Fin 2 → IVec S16 32) a x).toNat < S8x1024.size a := fun v3 v4 v5 v6 v7 v8 v9 v10 v3159 k0_hw126 => k0_hw126.1
theorem k0_idx1002_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v4, v3159] : Fin 2 → IVec S16 32) a x).toNat < S8x1024.size a := fun v3 v4 v5 v6 v7 v8 v9 v10 v3159 k0_hw126 => k0_hw126.2.1
theorem k0_idx1003_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v5, v3159] : Fin 2 → IVec S16 32) a x).toNat < S8x1024.size a := fun v3 v4 v5 v6 v7 v8 v9 v10 v3159 k0_hw126 => k0_hw126.2.2.1
theorem k0_idx1004_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v6, v3159] : Fin 2 → IVec S16 32) a x).toNat < S8x1024.size a := fun v3 v4 v5 v6 v7 v8 v9 v10 v3159 k0_hw126 => k0_hw126.2.2.2.1
theorem k0_idx1005_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v7, v3159] : Fin 2 → IVec S16 32) a x).toNat < S8x1024.size a := fun v3 v4 v5 v6 v7 v8 v9 v10 v3159 k0_hw126 => k0_hw126.2.2.2.2.1
theorem k0_idx1006_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v8, v3159] : Fin 2 → IVec S16 32) a x).toNat < S8x1024.size a := fun v3 v4 v5 v6 v7 v8 v9 v10 v3159 k0_hw126 => k0_hw126.2.2.2.2.2.1
theorem k0_idx1007_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v9, v3159] : Fin 2 → IVec S16 32) a x).toNat < S8x1024.size a := fun v3 v4 v5 v6 v7 v8 v9 v10 v3159 k0_hw126 => k0_hw126.2.2.2.2.2.2.1
theorem k0_idx1008_inb : ∀ (v3 : IVec S16 32) (v4 : IVec S16 32) (v5 : IVec S16 32) (v6 : IVec S16 32) (v7 : IVec S16 32) (v8 : IVec S16 32) (v9 : IVec S16 32) (v10 : IVec S16 32) (v3159 : IVec S16 32) (k0_hw126 : k0_chk126 v3 v4 v5 v6 v7 v8 v9 v10 v3159), ∀ a x, ((![v10, v3159] : Fin 2 → IVec S16 32) a x).toNat < S8x1024.size a := fun v3 v4 v5 v6 v7 v8 v9 v10 v3159 k0_hw126 => k0_hw126.2.2.2.2.2.2.2

def k0_chk127 (v3 : IVec S16 32) (v4 : IVec S16 32) (v5 : IVec S16 32) (v6 : IVec S16 32) (v7 : IVec S16 32) (v8 : IVec S16 32) (v9 : IVec S16 32) (v10 : IVec S16 32) (v3184 : IVec S16 32) : Prop :=
  (∀ a x, ((![v3, v3184] : Fin 2 → IVec S16 32) a x).toNat < S8x1024.size a) ∧
  (∀ a x, ((![v4, v3184] : Fin 2 → IVec S16 32) a x).toNat < S8x1024.size a) ∧
  (∀ a x, ((![v5, v3184] : Fin 2 → IVec S16 32) a x).toNat < S8x1024.size a) ∧
  (∀ a x, ((![v6, v3184] : Fin 2 → IVec S16 32) a x).toNat < S8x1024.size a) ∧
  (∀ a x, ((![v7, v3184] : Fin 2 → IVec S16 32) a x).toNat < S8x1024.size a) ∧
  (∀ a x, ((![v8, v3184] : Fin 2 → IVec S16 32) a x).toNat < S8x1024.size a) ∧
  (∀ a x, ((![v9, v3184] : Fin 2 → IVec S16 32) a x).toNat < S8x1024.size a) ∧
  (∀ a x, ((![v10, v3184] : Fin 2 → IVec S16 32) a x).toNat < S8x1024.size a)
instance k0_chk127.dec : ∀ (v3 : IVec S16 32) (v4 : IVec S16 32) (v5 : IVec S16 32) (v6 : IVec S16 32) (v7 : IVec S16 32) (v8 : IVec S16 32) (v9 : IVec S16 32) (v10 : IVec S16 32) (v3184 : IVec S16 32), Decidable (k0_chk127 v3 v4 v5 v6 v7 v8 v9 v10 v3184) := fun v3 v4 v5 v6 v7 v8 v9 v10 v3184 => decidable_of_iff' _ (Iff.of_eq (k0_chk127.eq_1 v3 v4 v5 v6 v7 v8 v9 v10 v3184))
theorem k0_idx1009_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v3, v3184] : Fin 2 → IVec S16 32) a x).toNat < S8x1024.size a := fun v3 v4 v5 v6 v7 v8 v9 v10 v3184 k0_hw127 => k0_hw127.1
theorem k0_idx1010_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v4, v3184] : Fin 2 → IVec S16 32) a x).toNat < S8x1024.size a := fun v3 v4 v5 v6 v7 v8 v9 v10 v3184 k0_hw127 => k0_hw127.2.1
theorem k0_idx1011_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v5, v3184] : Fin 2 → IVec S16 32) a x).toNat < S8x1024.size a := fun v3 v4 v5 v6 v7 v8 v9 v10 v3184 k0_hw127 => k0_hw127.2.2.1
theorem k0_idx1012_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v6, v3184] : Fin 2 → IVec S16 32) a x).toNat < S8x1024.size a := fun v3 v4 v5 v6 v7 v8 v9 v10 v3184 k0_hw127 => k0_hw127.2.2.2.1
theorem k0_idx1013_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v7, v3184] : Fin 2 → IVec S16 32) a x).toNat < S8x1024.size a := fun v3 v4 v5 v6 v7 v8 v9 v10 v3184 k0_hw127 => k0_hw127.2.2.2.2.1
theorem k0_idx1014_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v8, v3184] : Fin 2 → IVec S16 32) a x).toNat < S8x1024.size a := fun v3 v4 v5 v6 v7 v8 v9 v10 v3184 k0_hw127 => k0_hw127.2.2.2.2.2.1
theorem k0_idx1015_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v9, v3184] : Fin 2 → IVec S16 32) a x).toNat < S8x1024.size a := fun v3 v4 v5 v6 v7 v8 v9 v10 v3184 k0_hw127 => k0_hw127.2.2.2.2.2.2.1
theorem k0_idx1016_inb : ∀ (v3 : IVec S16 32) (v4 : IVec S16 32) (v5 : IVec S16 32) (v6 : IVec S16 32) (v7 : IVec S16 32) (v8 : IVec S16 32) (v9 : IVec S16 32) (v10 : IVec S16 32) (v3184 : IVec S16 32) (k0_hw127 : k0_chk127 v3 v4 v5 v6 v7 v8 v9 v10 v3184), ∀ a x, ((![v10, v3184] : Fin 2 → IVec S16 32) a x).toNat < S8x1024.size a := fun v3 v4 v5 v6 v7 v8 v9 v10 v3184 k0_hw127 => k0_hw127.2.2.2.2.2.2.2

def k0_chk128 (v3 : IVec S16 32) (v4 : IVec S16 32) (v5 : IVec S16 32) (v6 : IVec S16 32) (v7 : IVec S16 32) (v8 : IVec S16 32) (v9 : IVec S16 32) (v10 : IVec S16 32) (v3209 : IVec S16 32) : Prop :=
  (∀ a x, ((![v3, v3209] : Fin 2 → IVec S16 32) a x).toNat < S8x1024.size a) ∧
  (∀ a x, ((![v4, v3209] : Fin 2 → IVec S16 32) a x).toNat < S8x1024.size a) ∧
  (∀ a x, ((![v5, v3209] : Fin 2 → IVec S16 32) a x).toNat < S8x1024.size a) ∧
  (∀ a x, ((![v6, v3209] : Fin 2 → IVec S16 32) a x).toNat < S8x1024.size a) ∧
  (∀ a x, ((![v7, v3209] : Fin 2 → IVec S16 32) a x).toNat < S8x1024.size a) ∧
  (∀ a x, ((![v8, v3209] : Fin 2 → IVec S16 32) a x).toNat < S8x1024.size a) ∧
  (∀ a x, ((![v9, v3209] : Fin 2 → IVec S16 32) a x).toNat < S8x1024.size a) ∧
  (∀ a x, ((![v10, v3209] : Fin 2 → IVec S16 32) a x).toNat < S8x1024.size a)
instance k0_chk128.dec : ∀ (v3 : IVec S16 32) (v4 : IVec S16 32) (v5 : IVec S16 32) (v6 : IVec S16 32) (v7 : IVec S16 32) (v8 : IVec S16 32) (v9 : IVec S16 32) (v10 : IVec S16 32) (v3209 : IVec S16 32), Decidable (k0_chk128 v3 v4 v5 v6 v7 v8 v9 v10 v3209) := fun v3 v4 v5 v6 v7 v8 v9 v10 v3209 => decidable_of_iff' _ (Iff.of_eq (k0_chk128.eq_1 v3 v4 v5 v6 v7 v8 v9 v10 v3209))
theorem k0_idx1017_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v3, v3209] : Fin 2 → IVec S16 32) a x).toNat < S8x1024.size a := fun v3 v4 v5 v6 v7 v8 v9 v10 v3209 k0_hw128 => k0_hw128.1
theorem k0_idx1018_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v4, v3209] : Fin 2 → IVec S16 32) a x).toNat < S8x1024.size a := fun v3 v4 v5 v6 v7 v8 v9 v10 v3209 k0_hw128 => k0_hw128.2.1
theorem k0_idx1019_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v5, v3209] : Fin 2 → IVec S16 32) a x).toNat < S8x1024.size a := fun v3 v4 v5 v6 v7 v8 v9 v10 v3209 k0_hw128 => k0_hw128.2.2.1
theorem k0_idx1020_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v6, v3209] : Fin 2 → IVec S16 32) a x).toNat < S8x1024.size a := fun v3 v4 v5 v6 v7 v8 v9 v10 v3209 k0_hw128 => k0_hw128.2.2.2.1
theorem k0_idx1021_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v7, v3209] : Fin 2 → IVec S16 32) a x).toNat < S8x1024.size a := fun v3 v4 v5 v6 v7 v8 v9 v10 v3209 k0_hw128 => k0_hw128.2.2.2.2.1
theorem k0_idx1022_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v8, v3209] : Fin 2 → IVec S16 32) a x).toNat < S8x1024.size a := fun v3 v4 v5 v6 v7 v8 v9 v10 v3209 k0_hw128 => k0_hw128.2.2.2.2.2.1
theorem k0_idx1023_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v9, v3209] : Fin 2 → IVec S16 32) a x).toNat < S8x1024.size a := fun v3 v4 v5 v6 v7 v8 v9 v10 v3209 k0_hw128 => k0_hw128.2.2.2.2.2.2.1
theorem k0_idx1024_inb : ∀ (v3 : IVec S16 32) (v4 : IVec S16 32) (v5 : IVec S16 32) (v6 : IVec S16 32) (v7 : IVec S16 32) (v8 : IVec S16 32) (v9 : IVec S16 32) (v10 : IVec S16 32) (v3209 : IVec S16 32) (k0_hw128 : k0_chk128 v3 v4 v5 v6 v7 v8 v9 v10 v3209), ∀ a x, ((![v10, v3209] : Fin 2 → IVec S16 32) a x).toNat < S8x1024.size a := fun v3 v4 v5 v6 v7 v8 v9 v10 v3209 k0_hw128 => k0_hw128.2.2.2.2.2.2.2
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1056 : BitVec 32 := 2#32
  let c0_i32_7 : BitVec 32 := 0#32
  let c1_i32_9 : BitVec 32 := 1#32
  let arg14 : BitVec 32 := Scf.iv c0_i32_7 c1_i32_9 k0_t1
  let v1643 : BitVec 32 := Scalar.muli c2_i32_1056 arg14
  let c1_i32_1057 : BitVec 32 := 1#32
  let v1644 : BitVec 32 := Scalar.addi v1643 c1_i32_1057
  let c8_i32_2150 : BitVec 32 := 8#32
  let v3250 : BitVec 32 := Scalar.muli v1644 c8_i32_2150
  let v3251 : BitVec 32 := Scalar.addi v2 v3250
  let c0_i32_2151 : BitVec 32 := 0#32
  ![v3251.toNat, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1056 : BitVec 32 := 2#32
  let c0_i32_7 : BitVec 32 := 0#32
  let c1_i32_9 : BitVec 32 := 1#32
  let arg14 : BitVec 32 := Scf.iv c0_i32_7 c1_i32_9 k0_t1
  let v1643 : BitVec 32 := Scalar.muli c2_i32_1056 arg14
  let c1_i32_1057 : BitVec 32 := 1#32
  let v1644 : BitVec 32 := Scalar.addi v1643 c1_i32_1057
  let c2_i32_2153 : BitVec 32 := 2#32
  let v3254 : BitVec 32 := Scalar.addi v1644 c2_i32_2153
  let c15_i32_2154 : BitVec 32 := 15#32
  let v3255 : BitVec 32 := Scalar.minsi v3254 c15_i32_2154
  let c8_i32_2155 : BitVec 32 := 8#32
  let v3256 : BitVec 32 := Scalar.muli v3255 c8_i32_2155
  let v3257 : BitVec 32 := Scalar.addi v2 v3256
  let c0_i32_2156 : BitVec 32 := 0#32
  ![v3257.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1024_S16_0 : ∀ a, (![0] : Fin 1 → Nat) a + S16.size a ≤ S1024.size a
  h_S16 : 0 < S16.numel
  h_S8x1024 : 0 < S8x1024.numel
  inb_S1024_S16_16 : ∀ a, (![16] : Fin 1 → Nat) a + S16.size a ≤ S1024.size a
  inb_S8x1024_S1x16_0_0 : ∀ a, (![0, 0] : Fin 2 → Nat) a + S1x16.size a ≤ S8x1024.size a
  h_S1x16 : 0 < S1x16.numel
  shapeCasts_S1x16_S16 : S1x16.ShapeCasts S16
  shapeCasts_S16_S1x16 : S16.ShapeCasts S1x16
  inb_S8x1024_S1x16_1_0 : ∀ a, (![1, 0] : Fin 2 → Nat) a + S1x16.size a ≤ S8x1024.size a
  inb_S8x1024_S1x16_2_0 : ∀ a, (![2, 0] : Fin 2 → Nat) a + S1x16.size a ≤ S8x1024.size a
  inb_S8x1024_S1x16_3_0 : ∀ a, (![3, 0] : Fin 2 → Nat) a + S1x16.size a ≤ S8x1024.size a
  inb_S8x1024_S1x16_4_0 : ∀ a, (![4, 0] : Fin 2 → Nat) a + S1x16.size a ≤ S8x1024.size a
  inb_S8x1024_S1x16_5_0 : ∀ a, (![5, 0] : Fin 2 → Nat) a + S1x16.size a ≤ S8x1024.size a
  inb_S8x1024_S1x16_6_0 : ∀ a, (![6, 0] : Fin 2 → Nat) a + S1x16.size a ≤ S8x1024.size a
  inb_S8x1024_S1x16_7_0 : ∀ a, (![7, 0] : Fin 2 → Nat) a + S1x16.size a ≤ S8x1024.size a
  inb_S1024_S16_32 : ∀ a, (![32] : Fin 1 → Nat) a + S16.size a ≤ S1024.size a
  inb_S8x1024_S1x16_0_16 : ∀ a, (![0, 16] : Fin 2 → Nat) a + S1x16.size a ≤ S8x1024.size a
  inb_S8x1024_S1x16_1_16 : ∀ a, (![1, 16] : Fin 2 → Nat) a + S1x16.size a ≤ S8x1024.size a
  inb_S8x1024_S1x16_2_16 : ∀ a, (![2, 16] : Fin 2 → Nat) a + S1x16.size a ≤ S8x1024.size a
  inb_S8x1024_S1x16_3_16 : ∀ a, (![3, 16] : Fin 2 → Nat) a + S1x16.size a ≤ S8x1024.size a
  inb_S8x1024_S1x16_4_16 : ∀ a, (![4, 16] : Fin 2 → Nat) a + S1x16.size a ≤ S8x1024.size a
  inb_S8x1024_S1x16_5_16 : ∀ a, (![5, 16] : Fin 2 → Nat) a + S1x16.size a ≤ S8x1024.size a
  inb_S8x1024_S1x16_6_16 : ∀ a, (![6, 16] : Fin 2 → Nat) a + S1x16.size a ≤ S8x1024.size a
  inb_S8x1024_S1x16_7_16 : ∀ a, (![7, 16] : Fin 2 → Nat) a + S1x16.size a ≤ S8x1024.size a
  inb_S1024_S16_48 : ∀ a, (![48] : Fin 1 → Nat) a + S16.size a ≤ S1024.size a
  inb_S8x1024_S1x16_0_32 : ∀ a, (![0, 32] : Fin 2 → Nat) a + S1x16.size a ≤ S8x1024.size a
  inb_S8x1024_S1x16_1_32 : ∀ a, (![1, 32] : Fin 2 → Nat) a + S1x16.size a ≤ S8x1024.size a
  inb_S8x1024_S1x16_2_32 : ∀ a, (![2, 32] : Fin 2 → Nat) a + S1x16.size a ≤ S8x1024.size a
  inb_S8x1024_S1x16_3_32 : ∀ a, (![3, 32] : Fin 2 → Nat) a + S1x16.size a ≤ S8x1024.size a
  inb_S8x1024_S1x16_4_32 : ∀ a, (![4, 32] : Fin 2 → Nat) a + S1x16.size a ≤ S8x1024.size a
  inb_S8x1024_S1x16_5_32 : ∀ a, (![5, 32] : Fin 2 → Nat) a + S1x16.size a ≤ S8x1024.size a
  inb_S8x1024_S1x16_6_32 : ∀ a, (![6, 32] : Fin 2 → Nat) a + S1x16.size a ≤ S8x1024.size a
  inb_S8x1024_S1x16_7_32 : ∀ a, (![7, 32] : Fin 2 → Nat) a + S1x16.size a ≤ S8x1024.size a
  inb_S1024_S16_64 : ∀ a, (![64] : Fin 1 → Nat) a + S16.size a ≤ S1024.size a
  inb_S8x1024_S1x16_0_48 : ∀ a, (![0, 48] : Fin 2 → Nat) a + S1x16.size a ≤ S8x1024.size a
  inb_S8x1024_S1x16_1_48 : ∀ a, (![1, 48] : Fin 2 → Nat) a + S1x16.size a ≤ S8x1024.size a
  inb_S8x1024_S1x16_2_48 : ∀ a, (![2, 48] : Fin 2 → Nat) a + S1x16.size a ≤ S8x1024.size a
  inb_S8x1024_S1x16_3_48 : ∀ a, (![3, 48] : Fin 2 → Nat) a + S1x16.size a ≤ S8x1024.size a
  inb_S8x1024_S1x16_4_48 : ∀ a, (![4, 48] : Fin 2 → Nat) a + S1x16.size a ≤ S8x1024.size a
  inb_S8x1024_S1x16_5_48 : ∀ a, (![5, 48] : Fin 2 → Nat) a + S1x16.size a ≤ S8x1024.size a
  inb_S8x1024_S1x16_6_48 : ∀ a, (![6, 48] : Fin 2 → Nat) a + S1x16.size a ≤ S8x1024.size a
  inb_S8x1024_S1x16_7_48 : ∀ a, (![7, 48] : Fin 2 → Nat) a + S1x16.size a ≤ S8x1024.size a
  inb_S1024_S16_80 : ∀ a, (![80] : Fin 1 → Nat) a + S16.size a ≤ S1024.size a
  inb_S8x1024_S1x16_0_64 : ∀ a, (![0, 64] : Fin 2 → Nat) a + S1x16.size a ≤ S8x1024.size a
  inb_S8x1024_S1x16_1_64 : ∀ a, (![1, 64] : Fin 2 → Nat) a + S1x16.size a ≤ S8x1024.size a
  inb_S8x1024_S1x16_2_64 : ∀ a, (![2, 64] : Fin 2 → Nat) a + S1x16.size a ≤ S8x1024.size a
  inb_S8x1024_S1x16_3_64 : ∀ a, (![3, 64] : Fin 2 → Nat) a + S1x16.size a ≤ S8x1024.size a
  inb_S8x1024_S1x16_4_64 : ∀ a, (![4, 64] : Fin 2 → Nat) a + S1x16.size a ≤ S8x1024.size a
  inb_S8x1024_S1x16_5_64 : ∀ a, (![5, 64] : Fin 2 → Nat) a + S1x16.size a ≤ S8x1024.size a
  inb_S8x1024_S1x16_6_64 : ∀ a, (![6, 64] : Fin 2 → Nat) a + S1x16.size a ≤ S8x1024.size a
  inb_S8x1024_S1x16_7_64 : ∀ a, (![7, 64] : Fin 2 → Nat) a + S1x16.size a ≤ S8x1024.size a
  inb_S1024_S16_96 : ∀ a, (![96] : Fin 1 → Nat) a + S16.size a ≤ S1024.size a
  inb_S8x1024_S1x16_0_80 : ∀ a, (![0, 80] : Fin 2 → Nat) a + S1x16.size a ≤ S8x1024.size a
  inb_S8x1024_S1x16_1_80 : ∀ a, (![1, 80] : Fin 2 → Nat) a + S1x16.size a ≤ S8x1024.size a
  inb_S8x1024_S1x16_2_80 : ∀ a, (![2, 80] : Fin 2 → Nat) a + S1x16.size a ≤ S8x1024.size a
  inb_S8x1024_S1x16_3_80 : ∀ a, (![3, 80] : Fin 2 → Nat) a + S1x16.size a ≤ S8x1024.size a
  inb_S8x1024_S1x16_4_80 : ∀ a, (![4, 80] : Fin 2 → Nat) a + S1x16.size a ≤ S8x1024.size a
  inb_S8x1024_S1x16_5_80 : ∀ a, (![5, 80] : Fin 2 → Nat) a + S1x16.size a ≤ S8x1024.size a
  inb_S8x1024_S1x16_6_80 : ∀ a, (![6, 80] : Fin 2 → Nat) a + S1x16.size a ≤ S8x1024.size a
  inb_S8x1024_S1x16_7_80 : ∀ a, (![7, 80] : Fin 2 → Nat) a + S1x16.size a ≤ S8x1024.size a
  inb_S1024_S16_112 : ∀ a, (![112] : Fin 1 → Nat) a + S16.size a ≤ S1024.size a
  inb_S8x1024_S1x16_0_96 : ∀ a, (![0, 96] : Fin 2 → Nat) a + S1x16.size a ≤ S8x1024.size a
  inb_S8x1024_S1x16_1_96 : ∀ a, (![1, 96] : Fin 2 → Nat) a + S1x16.size a ≤ S8x1024.size a
  inb_S8x1024_S1x16_2_96 : ∀ a, (![2, 96] : Fin 2 → Nat) a + S1x16.size a ≤ S8x1024.size a
  inb_S8x1024_S1x16_3_96 : ∀ a, (![3, 96] : Fin 2 → Nat) a + S1x16.size a ≤ S8x1024.size a
  inb_S8x1024_S1x16_4_96 : ∀ a, (![4, 96] : Fin 2 → Nat) a + S1x16.size a ≤ S8x1024.size a
  inb_S8x1024_S1x16_5_96 : ∀ a, (![5, 96] : Fin 2 → Nat) a + S1x16.size a ≤ S8x1024.size a
  inb_S8x1024_S1x16_6_96 : ∀ a, (![6, 96] : Fin 2 → Nat) a + S1x16.size a ≤ S8x1024.size a
  inb_S8x1024_S1x16_7_96 : ∀ a, (![7, 96] : Fin 2 → Nat) a + S1x16.size a ≤ S8x1024.size a
  inb_S1024_S16_128 : ∀ a, (![128] : Fin 1 → Nat) a + S16.size a ≤ S1024.size a
  inb_S8x1024_S1x16_0_112 : ∀ a, (![0, 112] : Fin 2 → Nat) a + S1x16.size a ≤ S8x1024.size a
  inb_S8x1024_S1x16_1_112 : ∀ a, (![1, 112] : Fin 2 → Nat) a + S1x16.size a ≤ S8x1024.size a
  inb_S8x1024_S1x16_2_112 : ∀ a, (![2, 112] : Fin 2 → Nat) a + S1x16.size a ≤ S8x1024.size a
  inb_S8x1024_S1x16_3_112 : ∀ a, (![3, 112] : Fin 2 → Nat) a + S1x16.size a ≤ S8x1024.size a
  inb_S8x1024_S1x16_4_112 : ∀ a, (![4, 112] : Fin 2 → Nat) a + S1x16.size a ≤ S8x1024.size a
  inb_S8x1024_S1x16_5_112 : ∀ a, (![5, 112] : Fin 2 → Nat) a + S1x16.size a ≤ S8x1024.size a
  inb_S8x1024_S1x16_6_112 : ∀ a, (![6, 112] : Fin 2 → Nat) a + S1x16.size a ≤ S8x1024.size a
  inb_S8x1024_S1x16_7_112 : ∀ a, (![7, 112] : Fin 2 → Nat) a + S1x16.size a ≤ S8x1024.size a
  inb_S1024_S16_144 : ∀ a, (![144] : Fin 1 → Nat) a + S16.size a ≤ S1024.size a
  inb_S8x1024_S1x16_0_128 : ∀ a, (![0, 128] : Fin 2 → Nat) a + S1x16.size a ≤ S8x1024.size a
  inb_S8x1024_S1x16_1_128 : ∀ a, (![1, 128] : Fin 2 → Nat) a + S1x16.size a ≤ S8x1024.size a
  inb_S8x1024_S1x16_2_128 : ∀ a, (![2, 128] : Fin 2 → Nat) a + S1x16.size a ≤ S8x1024.size a
  inb_S8x1024_S1x16_3_128 : ∀ a, (![3, 128] : Fin 2 → Nat) a + S1x16.size a ≤ S8x1024.size a
  inb_S8x1024_S1x16_4_128 : ∀ a, (![4, 128] : Fin 2 → Nat) a + S1x16.size a ≤ S8x1024.size a
  inb_S8x1024_S1x16_5_128 : ∀ a, (![5, 128] : Fin 2 → Nat) a + S1x16.size a ≤ S8x1024.size a
  inb_S8x1024_S1x16_6_128 : ∀ a, (![6, 128] : Fin 2 → Nat) a + S1x16.size a ≤ S8x1024.size a
  inb_S8x1024_S1x16_7_128 : ∀ a, (![7, 128] : Fin 2 → Nat) a + S1x16.size a ≤ S8x1024.size a
  inb_S1024_S16_160 : ∀ a, (![160] : Fin 1 → Nat) a + S16.size a ≤ S1024.size a
  inb_S8x1024_S1x16_0_144 : ∀ a, (![0, 144] : Fin 2 → Nat) a + S1x16.size a ≤ S8x1024.size a
  inb_S8x1024_S1x16_1_144 : ∀ a, (![1, 144] : Fin 2 → Nat) a + S1x16.size a ≤ S8x1024.size a
  inb_S8x1024_S1x16_2_144 : ∀ a, (![2, 144] : Fin 2 → Nat) a + S1x16.size a ≤ S8x1024.size a
  inb_S8x1024_S1x16_3_144 : ∀ a, (![3, 144] : Fin 2 → Nat) a + S1x16.size a ≤ S8x1024.size a
  inb_S8x1024_S1x16_4_144 : ∀ a, (![4, 144] : Fin 2 → Nat) a + S1x16.size a ≤ S8x1024.size a
  inb_S8x1024_S1x16_5_144 : ∀ a, (![5, 144] : Fin 2 → Nat) a + S1x16.size a ≤ S8x1024.size a
  inb_S8x1024_S1x16_6_144 : ∀ a, (![6, 144] : Fin 2 → Nat) a + S1x16.size a ≤ S8x1024.size a
  inb_S8x1024_S1x16_7_144 : ∀ a, (![7, 144] : Fin 2 → Nat) a + S1x16.size a ≤ S8x1024.size a
  inb_S1024_S16_176 : ∀ a, (![176] : Fin 1 → Nat) a + S16.size a ≤ S1024.size a
  inb_S8x1024_S1x16_0_160 : ∀ a, (![0, 160] : Fin 2 → Nat) a + S1x16.size a ≤ S8x1024.size a
  inb_S8x1024_S1x16_1_160 : ∀ a, (![1, 160] : Fin 2 → Nat) a + S1x16.size a ≤ S8x1024.size a
  inb_S8x1024_S1x16_2_160 : ∀ a, (![2, 160] : Fin 2 → Nat) a + S1x16.size a ≤ S8x1024.size a
  inb_S8x1024_S1x16_3_160 : ∀ a, (![3, 160] : Fin 2 → Nat) a + S1x16.size a ≤ S8x1024.size a
  inb_S8x1024_S1x16_4_160 : ∀ a, (![4, 160] : Fin 2 → Nat) a + S1x16.size a ≤ S8x1024.size a
  inb_S8x1024_S1x16_5_160 : ∀ a, (![5, 160] : Fin 2 → Nat) a + S1x16.size a ≤ S8x1024.size a
  inb_S8x1024_S1x16_6_160 : ∀ a, (![6, 160] : Fin 2 → Nat) a + S1x16.size a ≤ S8x1024.size a
  inb_S8x1024_S1x16_7_160 : ∀ a, (![7, 160] : Fin 2 → Nat) a + S1x16.size a ≤ S8x1024.size a
  inb_S1024_S16_192 : ∀ a, (![192] : Fin 1 → Nat) a + S16.size a ≤ S1024.size a
  inb_S8x1024_S1x16_0_176 : ∀ a, (![0, 176] : Fin 2 → Nat) a + S1x16.size a ≤ S8x1024.size a
  inb_S8x1024_S1x16_1_176 : ∀ a, (![1, 176] : Fin 2 → Nat) a + S1x16.size a ≤ S8x1024.size a
  inb_S8x1024_S1x16_2_176 : ∀ a, (![2, 176] : Fin 2 → Nat) a + S1x16.size a ≤ S8x1024.size a
  inb_S8x1024_S1x16_3_176 : ∀ a, (![3, 176] : Fin 2 → Nat) a + S1x16.size a ≤ S8x1024.size a
  inb_S8x1024_S1x16_4_176 : ∀ a, (![4, 176] : Fin 2 → Nat) a + S1x16.size a ≤ S8x1024.size a
  inb_S8x1024_S1x16_5_176 : ∀ a, (![5, 176] : Fin 2 → Nat) a + S1x16.size a ≤ S8x1024.size a
  inb_S8x1024_S1x16_6_176 : ∀ a, (![6, 176] : Fin 2 → Nat) a + S1x16.size a ≤ S8x1024.size a
  inb_S8x1024_S1x16_7_176 : ∀ a, (![7, 176] : Fin 2 → Nat) a + S1x16.size a ≤ S8x1024.size a
  inb_S1024_S16_208 : ∀ a, (![208] : Fin 1 → Nat) a + S16.size a ≤ S1024.size a
  inb_S8x1024_S1x16_0_192 : ∀ a, (![0, 192] : Fin 2 → Nat) a + S1x16.size a ≤ S8x1024.size a
  inb_S8x1024_S1x16_1_192 : ∀ a, (![1, 192] : Fin 2 → Nat) a + S1x16.size a ≤ S8x1024.size a
  inb_S8x1024_S1x16_2_192 : ∀ a, (![2, 192] : Fin 2 → Nat) a + S1x16.size a ≤ S8x1024.size a
  inb_S8x1024_S1x16_3_192 : ∀ a, (![3, 192] : Fin 2 → Nat) a + S1x16.size a ≤ S8x1024.size a
  inb_S8x1024_S1x16_4_192 : ∀ a, (![4, 192] : Fin 2 → Nat) a + S1x16.size a ≤ S8x1024.size a
  inb_S8x1024_S1x16_5_192 : ∀ a, (![5, 192] : Fin 2 → Nat) a + S1x16.size a ≤ S8x1024.size a
  inb_S8x1024_S1x16_6_192 : ∀ a, (![6, 192] : Fin 2 → Nat) a + S1x16.size a ≤ S8x1024.size a
  inb_S8x1024_S1x16_7_192 : ∀ a, (![7, 192] : Fin 2 → Nat) a + S1x16.size a ≤ S8x1024.size a
  inb_S1024_S16_224 : ∀ a, (![224] : Fin 1 → Nat) a + S16.size a ≤ S1024.size a
  inb_S8x1024_S1x16_0_208 : ∀ a, (![0, 208] : Fin 2 → Nat) a + S1x16.size a ≤ S8x1024.size a
  inb_S8x1024_S1x16_1_208 : ∀ a, (![1, 208] : Fin 2 → Nat) a + S1x16.size a ≤ S8x1024.size a
  inb_S8x1024_S1x16_2_208 : ∀ a, (![2, 208] : Fin 2 → Nat) a + S1x16.size a ≤ S8x1024.size a
  inb_S8x1024_S1x16_3_208 : ∀ a, (![3, 208] : Fin 2 → Nat) a + S1x16.size a ≤ S8x1024.size a
  inb_S8x1024_S1x16_4_208 : ∀ a, (![4, 208] : Fin 2 → Nat) a + S1x16.size a ≤ S8x1024.size a
  inb_S8x1024_S1x16_5_208 : ∀ a, (![5, 208] : Fin 2 → Nat) a + S1x16.size a ≤ S8x1024.size a
  inb_S8x1024_S1x16_6_208 : ∀ a, (![6, 208] : Fin 2 → Nat) a + S1x16.size a ≤ S8x1024.size a
  inb_S8x1024_S1x16_7_208 : ∀ a, (![7, 208] : Fin 2 → Nat) a + S1x16.size a ≤ S8x1024.size a
  inb_S1024_S16_240 : ∀ a, (![240] : Fin 1 → Nat) a + S16.size a ≤ S1024.size a
  inb_S8x1024_S1x16_0_224 : ∀ a, (![0, 224] : Fin 2 → Nat) a + S1x16.size a ≤ S8x1024.size a
  inb_S8x1024_S1x16_1_224 : ∀ a, (![1, 224] : Fin 2 → Nat) a + S1x16.size a ≤ S8x1024.size a
  inb_S8x1024_S1x16_2_224 : ∀ a, (![2, 224] : Fin 2 → Nat) a + S1x16.size a ≤ S8x1024.size a
  inb_S8x1024_S1x16_3_224 : ∀ a, (![3, 224] : Fin 2 → Nat) a + S1x16.size a ≤ S8x1024.size a
  inb_S8x1024_S1x16_4_224 : ∀ a, (![4, 224] : Fin 2 → Nat) a + S1x16.size a ≤ S8x1024.size a
  inb_S8x1024_S1x16_5_224 : ∀ a, (![5, 224] : Fin 2 → Nat) a + S1x16.size a ≤ S8x1024.size a
  inb_S8x1024_S1x16_6_224 : ∀ a, (![6, 224] : Fin 2 → Nat) a + S1x16.size a ≤ S8x1024.size a
  inb_S8x1024_S1x16_7_224 : ∀ a, (![7, 224] : Fin 2 → Nat) a + S1x16.size a ≤ S8x1024.size a
  inb_S1024_S16_256 : ∀ a, (![256] : Fin 1 → Nat) a + S16.size a ≤ S1024.size a
  inb_S8x1024_S1x16_0_240 : ∀ a, (![0, 240] : Fin 2 → Nat) a + S1x16.size a ≤ S8x1024.size a
  inb_S8x1024_S1x16_1_240 : ∀ a, (![1, 240] : Fin 2 → Nat) a + S1x16.size a ≤ S8x1024.size a
  inb_S8x1024_S1x16_2_240 : ∀ a, (![2, 240] : Fin 2 → Nat) a + S1x16.size a ≤ S8x1024.size a
  inb_S8x1024_S1x16_3_240 : ∀ a, (![3, 240] : Fin 2 → Nat) a + S1x16.size a ≤ S8x1024.size a
  inb_S8x1024_S1x16_4_240 : ∀ a, (![4, 240] : Fin 2 → Nat) a + S1x16.size a ≤ S8x1024.size a
  inb_S8x1024_S1x16_5_240 : ∀ a, (![5, 240] : Fin 2 → Nat) a + S1x16.size a ≤ S8x1024.size a
  inb_S8x1024_S1x16_6_240 : ∀ a, (![6, 240] : Fin 2 → Nat) a + S1x16.size a ≤ S8x1024.size a
  inb_S8x1024_S1x16_7_240 : ∀ a, (![7, 240] : Fin 2 → Nat) a + S1x16.size a ≤ S8x1024.size a
  inb_S1024_S16_272 : ∀ a, (![272] : Fin 1 → Nat) a + S16.size a ≤ S1024.size a
  inb_S8x1024_S1x16_0_256 : ∀ a, (![0, 256] : Fin 2 → Nat) a + S1x16.size a ≤ S8x1024.size a
  inb_S8x1024_S1x16_1_256 : ∀ a, (![1, 256] : Fin 2 → Nat) a + S1x16.size a ≤ S8x1024.size a
  inb_S8x1024_S1x16_2_256 : ∀ a, (![2, 256] : Fin 2 → Nat) a + S1x16.size a ≤ S8x1024.size a
  inb_S8x1024_S1x16_3_256 : ∀ a, (![3, 256] : Fin 2 → Nat) a + S1x16.size a ≤ S8x1024.size a
  inb_S8x1024_S1x16_4_256 : ∀ a, (![4, 256] : Fin 2 → Nat) a + S1x16.size a ≤ S8x1024.size a
  inb_S8x1024_S1x16_5_256 : ∀ a, (![5, 256] : Fin 2 → Nat) a + S1x16.size a ≤ S8x1024.size a
  inb_S8x1024_S1x16_6_256 : ∀ a, (![6, 256] : Fin 2 → Nat) a + S1x16.size a ≤ S8x1024.size a
  inb_S8x1024_S1x16_7_256 : ∀ a, (![7, 256] : Fin 2 → Nat) a + S1x16.size a ≤ S8x1024.size a
  inb_S1024_S16_288 : ∀ a, (![288] : Fin 1 → Nat) a + S16.size a ≤ S1024.size a
  inb_S8x1024_S1x16_0_272 : ∀ a, (![0, 272] : Fin 2 → Nat) a + S1x16.size a ≤ S8x1024.size a
  inb_S8x1024_S1x16_1_272 : ∀ a, (![1, 272] : Fin 2 → Nat) a + S1x16.size a ≤ S8x1024.size a
  inb_S8x1024_S1x16_2_272 : ∀ a, (![2, 272] : Fin 2 → Nat) a + S1x16.size a ≤ S8x1024.size a
  inb_S8x1024_S1x16_3_272 : ∀ a, (![3, 272] : Fin 2 → Nat) a + S1x16.size a ≤ S8x1024.size a
  inb_S8x1024_S1x16_4_272 : ∀ a, (![4, 272] : Fin 2 → Nat) a + S1x16.size a ≤ S8x1024.size a
  inb_S8x1024_S1x16_5_272 : ∀ a, (![5, 272] : Fin 2 → Nat) a + S1x16.size a ≤ S8x1024.size a
  inb_S8x1024_S1x16_6_272 : ∀ a, (![6, 272] : Fin 2 → Nat) a + S1x16.size a ≤ S8x1024.size a
  inb_S8x1024_S1x16_7_272 : ∀ a, (![7, 272] : Fin 2 → Nat) a + S1x16.size a ≤ S8x1024.size a
  inb_S1024_S16_304 : ∀ a, (![304] : Fin 1 → Nat) a + S16.size a ≤ S1024.size a
  inb_S8x1024_S1x16_0_288 : ∀ a, (![0, 288] : Fin 2 → Nat) a + S1x16.size a ≤ S8x1024.size a
  inb_S8x1024_S1x16_1_288 : ∀ a, (![1, 288] : Fin 2 → Nat) a + S1x16.size a ≤ S8x1024.size a
  inb_S8x1024_S1x16_2_288 : ∀ a, (![2, 288] : Fin 2 → Nat) a + S1x16.size a ≤ S8x1024.size a
  inb_S8x1024_S1x16_3_288 : ∀ a, (![3, 288] : Fin 2 → Nat) a + S1x16.size a ≤ S8x1024.size a
  inb_S8x1024_S1x16_4_288 : ∀ a, (![4, 288] : Fin 2 → Nat) a + S1x16.size a ≤ S8x1024.size a
  inb_S8x1024_S1x16_5_288 : ∀ a, (![5, 288] : Fin 2 → Nat) a + S1x16.size a ≤ S8x1024.size a
  inb_S8x1024_S1x16_6_288 : ∀ a, (![6, 288] : Fin 2 → Nat) a + S1x16.size a ≤ S8x1024.size a
  inb_S8x1024_S1x16_7_288 : ∀ a, (![7, 288] : Fin 2 → Nat) a + S1x16.size a ≤ S8x1024.size a
  inb_S1024_S16_320 : ∀ a, (![320] : Fin 1 → Nat) a + S16.size a ≤ S1024.size a
  inb_S8x1024_S1x16_0_304 : ∀ a, (![0, 304] : Fin 2 → Nat) a + S1x16.size a ≤ S8x1024.size a
  inb_S8x1024_S1x16_1_304 : ∀ a, (![1, 304] : Fin 2 → Nat) a + S1x16.size a ≤ S8x1024.size a
  inb_S8x1024_S1x16_2_304 : ∀ a, (![2, 304] : Fin 2 → Nat) a + S1x16.size a ≤ S8x1024.size a
  inb_S8x1024_S1x16_3_304 : ∀ a, (![3, 304] : Fin 2 → Nat) a + S1x16.size a ≤ S8x1024.size a
  inb_S8x1024_S1x16_4_304 : ∀ a, (![4, 304] : Fin 2 → Nat) a + S1x16.size a ≤ S8x1024.size a
  inb_S8x1024_S1x16_5_304 : ∀ a, (![5, 304] : Fin 2 → Nat) a + S1x16.size a ≤ S8x1024.size a
  inb_S8x1024_S1x16_6_304 : ∀ a, (![6, 304] : Fin 2 → Nat) a + S1x16.size a ≤ S8x1024.size a
  inb_S8x1024_S1x16_7_304 : ∀ a, (![7, 304] : Fin 2 → Nat) a + S1x16.size a ≤ S8x1024.size a
  inb_S1024_S16_336 : ∀ a, (![336] : Fin 1 → Nat) a + S16.size a ≤ S1024.size a
  inb_S8x1024_S1x16_0_320 : ∀ a, (![0, 320] : Fin 2 → Nat) a + S1x16.size a ≤ S8x1024.size a
  inb_S8x1024_S1x16_1_320 : ∀ a, (![1, 320] : Fin 2 → Nat) a + S1x16.size a ≤ S8x1024.size a
  inb_S8x1024_S1x16_2_320 : ∀ a, (![2, 320] : Fin 2 → Nat) a + S1x16.size a ≤ S8x1024.size a
  inb_S8x1024_S1x16_3_320 : ∀ a, (![3, 320] : Fin 2 → Nat) a + S1x16.size a ≤ S8x1024.size a
  inb_S8x1024_S1x16_4_320 : ∀ a, (![4, 320] : Fin 2 → Nat) a + S1x16.size a ≤ S8x1024.size a
  inb_S8x1024_S1x16_5_320 : ∀ a, (![5, 320] : Fin 2 → Nat) a + S1x16.size a ≤ S8x1024.size a
  inb_S8x1024_S1x16_6_320 : ∀ a, (![6, 320] : Fin 2 → Nat) a + S1x16.size a ≤ S8x1024.size a
  inb_S8x1024_S1x16_7_320 : ∀ a, (![7, 320] : Fin 2 → Nat) a + S1x16.size a ≤ S8x1024.size a
  inb_S1024_S16_352 : ∀ a, (![352] : Fin 1 → Nat) a + S16.size a ≤ S1024.size a
  inb_S8x1024_S1x16_0_336 : ∀ a, (![0, 336] : Fin 2 → Nat) a + S1x16.size a ≤ S8x1024.size a
  inb_S8x1024_S1x16_1_336 : ∀ a, (![1, 336] : Fin 2 → Nat) a + S1x16.size a ≤ S8x1024.size a
  inb_S8x1024_S1x16_2_336 : ∀ a, (![2, 336] : Fin 2 → Nat) a + S1x16.size a ≤ S8x1024.size a
  inb_S8x1024_S1x16_3_336 : ∀ a, (![3, 336] : Fin 2 → Nat) a + S1x16.size a ≤ S8x1024.size a
  inb_S8x1024_S1x16_4_336 : ∀ a, (![4, 336] : Fin 2 → Nat) a + S1x16.size a ≤ S8x1024.size a
  inb_S8x1024_S1x16_5_336 : ∀ a, (![5, 336] : Fin 2 → Nat) a + S1x16.size a ≤ S8x1024.size a
  inb_S8x1024_S1x16_6_336 : ∀ a, (![6, 336] : Fin 2 → Nat) a + S1x16.size a ≤ S8x1024.size a
  inb_S8x1024_S1x16_7_336 : ∀ a, (![7, 336] : Fin 2 → Nat) a + S1x16.size a ≤ S8x1024.size a
  inb_S1024_S16_368 : ∀ a, (![368] : Fin 1 → Nat) a + S16.size a ≤ S1024.size a
  inb_S8x1024_S1x16_0_352 : ∀ a, (![0, 352] : Fin 2 → Nat) a + S1x16.size a ≤ S8x1024.size a
  inb_S8x1024_S1x16_1_352 : ∀ a, (![1, 352] : Fin 2 → Nat) a + S1x16.size a ≤ S8x1024.size a
  inb_S8x1024_S1x16_2_352 : ∀ a, (![2, 352] : Fin 2 → Nat) a + S1x16.size a ≤ S8x1024.size a
  inb_S8x1024_S1x16_3_352 : ∀ a, (![3, 352] : Fin 2 → Nat) a + S1x16.size a ≤ S8x1024.size a
  inb_S8x1024_S1x16_4_352 : ∀ a, (![4, 352] : Fin 2 → Nat) a + S1x16.size a ≤ S8x1024.size a
  inb_S8x1024_S1x16_5_352 : ∀ a, (![5, 352] : Fin 2 → Nat) a + S1x16.size a ≤ S8x1024.size a
  inb_S8x1024_S1x16_6_352 : ∀ a, (![6, 352] : Fin 2 → Nat) a + S1x16.size a ≤ S8x1024.size a
  inb_S8x1024_S1x16_7_352 : ∀ a, (![7, 352] : Fin 2 → Nat) a + S1x16.size a ≤ S8x1024.size a
  inb_S1024_S16_384 : ∀ a, (![384] : Fin 1 → Nat) a + S16.size a ≤ S1024.size a
  inb_S8x1024_S1x16_0_368 : ∀ a, (![0, 368] : Fin 2 → Nat) a + S1x16.size a ≤ S8x1024.size a
  inb_S8x1024_S1x16_1_368 : ∀ a, (![1, 368] : Fin 2 → Nat) a + S1x16.size a ≤ S8x1024.size a
  inb_S8x1024_S1x16_2_368 : ∀ a, (![2, 368] : Fin 2 → Nat) a + S1x16.size a ≤ S8x1024.size a
  inb_S8x1024_S1x16_3_368 : ∀ a, (![3, 368] : Fin 2 → Nat) a + S1x16.size a ≤ S8x1024.size a
  inb_S8x1024_S1x16_4_368 : ∀ a, (![4, 368] : Fin 2 → Nat) a + S1x16.size a ≤ S8x1024.size a
  inb_S8x1024_S1x16_5_368 : ∀ a, (![5, 368] : Fin 2 → Nat) a + S1x16.size a ≤ S8x1024.size a
  inb_S8x1024_S1x16_6_368 : ∀ a, (![6, 368] : Fin 2 → Nat) a + S1x16.size a ≤ S8x1024.size a
  inb_S8x1024_S1x16_7_368 : ∀ a, (![7, 368] : Fin 2 → Nat) a + S1x16.size a ≤ S8x1024.size a
  inb_S1024_S16_400 : ∀ a, (![400] : Fin 1 → Nat) a + S16.size a ≤ S1024.size a
  inb_S8x1024_S1x16_0_384 : ∀ a, (![0, 384] : Fin 2 → Nat) a + S1x16.size a ≤ S8x1024.size a
  inb_S8x1024_S1x16_1_384 : ∀ a, (![1, 384] : Fin 2 → Nat) a + S1x16.size a ≤ S8x1024.size a
  inb_S8x1024_S1x16_2_384 : ∀ a, (![2, 384] : Fin 2 → Nat) a + S1x16.size a ≤ S8x1024.size a
  inb_S8x1024_S1x16_3_384 : ∀ a, (![3, 384] : Fin 2 → Nat) a + S1x16.size a ≤ S8x1024.size a
  inb_S8x1024_S1x16_4_384 : ∀ a, (![4, 384] : Fin 2 → Nat) a + S1x16.size a ≤ S8x1024.size a
  inb_S8x1024_S1x16_5_384 : ∀ a, (![5, 384] : Fin 2 → Nat) a + S1x16.size a ≤ S8x1024.size a
  inb_S8x1024_S1x16_6_384 : ∀ a, (![6, 384] : Fin 2 → Nat) a + S1x16.size a ≤ S8x1024.size a
  inb_S8x1024_S1x16_7_384 : ∀ a, (![7, 384] : Fin 2 → Nat) a + S1x16.size a ≤ S8x1024.size a
  inb_S1024_S16_416 : ∀ a, (![416] : Fin 1 → Nat) a + S16.size a ≤ S1024.size a
  inb_S8x1024_S1x16_0_400 : ∀ a, (![0, 400] : Fin 2 → Nat) a + S1x16.size a ≤ S8x1024.size a
  inb_S8x1024_S1x16_1_400 : ∀ a, (![1, 400] : Fin 2 → Nat) a + S1x16.size a ≤ S8x1024.size a
  inb_S8x1024_S1x16_2_400 : ∀ a, (![2, 400] : Fin 2 → Nat) a + S1x16.size a ≤ S8x1024.size a
  inb_S8x1024_S1x16_3_400 : ∀ a, (![3, 400] : Fin 2 → Nat) a + S1x16.size a ≤ S8x1024.size a
  inb_S8x1024_S1x16_4_400 : ∀ a, (![4, 400] : Fin 2 → Nat) a + S1x16.size a ≤ S8x1024.size a
  inb_S8x1024_S1x16_5_400 : ∀ a, (![5, 400] : Fin 2 → Nat) a + S1x16.size a ≤ S8x1024.size a
  inb_S8x1024_S1x16_6_400 : ∀ a, (![6, 400] : Fin 2 → Nat) a + S1x16.size a ≤ S8x1024.size a
  inb_S8x1024_S1x16_7_400 : ∀ a, (![7, 400] : Fin 2 → Nat) a + S1x16.size a ≤ S8x1024.size a
  inb_S1024_S16_432 : ∀ a, (![432] : Fin 1 → Nat) a + S16.size a ≤ S1024.size a
  inb_S8x1024_S1x16_0_416 : ∀ a, (![0, 416] : Fin 2 → Nat) a + S1x16.size a ≤ S8x1024.size a
  inb_S8x1024_S1x16_1_416 : ∀ a, (![1, 416] : Fin 2 → Nat) a + S1x16.size a ≤ S8x1024.size a
  inb_S8x1024_S1x16_2_416 : ∀ a, (![2, 416] : Fin 2 → Nat) a + S1x16.size a ≤ S8x1024.size a
  inb_S8x1024_S1x16_3_416 : ∀ a, (![3, 416] : Fin 2 → Nat) a + S1x16.size a ≤ S8x1024.size a
  inb_S8x1024_S1x16_4_416 : ∀ a, (![4, 416] : Fin 2 → Nat) a + S1x16.size a ≤ S8x1024.size a
  inb_S8x1024_S1x16_5_416 : ∀ a, (![5, 416] : Fin 2 → Nat) a + S1x16.size a ≤ S8x1024.size a
  inb_S8x1024_S1x16_6_416 : ∀ a, (![6, 416] : Fin 2 → Nat) a + S1x16.size a ≤ S8x1024.size a
  inb_S8x1024_S1x16_7_416 : ∀ a, (![7, 416] : Fin 2 → Nat) a + S1x16.size a ≤ S8x1024.size a
  inb_S1024_S16_448 : ∀ a, (![448] : Fin 1 → Nat) a + S16.size a ≤ S1024.size a
  inb_S8x1024_S1x16_0_432 : ∀ a, (![0, 432] : Fin 2 → Nat) a + S1x16.size a ≤ S8x1024.size a
  inb_S8x1024_S1x16_1_432 : ∀ a, (![1, 432] : Fin 2 → Nat) a + S1x16.size a ≤ S8x1024.size a
  inb_S8x1024_S1x16_2_432 : ∀ a, (![2, 432] : Fin 2 → Nat) a + S1x16.size a ≤ S8x1024.size a
  inb_S8x1024_S1x16_3_432 : ∀ a, (![3, 432] : Fin 2 → Nat) a + S1x16.size a ≤ S8x1024.size a
  inb_S8x1024_S1x16_4_432 : ∀ a, (![4, 432] : Fin 2 → Nat) a + S1x16.size a ≤ S8x1024.size a
  inb_S8x1024_S1x16_5_432 : ∀ a, (![5, 432] : Fin 2 → Nat) a + S1x16.size a ≤ S8x1024.size a
  inb_S8x1024_S1x16_6_432 : ∀ a, (![6, 432] : Fin 2 → Nat) a + S1x16.size a ≤ S8x1024.size a
  inb_S8x1024_S1x16_7_432 : ∀ a, (![7, 432] : Fin 2 → Nat) a + S1x16.size a ≤ S8x1024.size a
  inb_S1024_S16_464 : ∀ a, (![464] : Fin 1 → Nat) a + S16.size a ≤ S1024.size a
  inb_S8x1024_S1x16_0_448 : ∀ a, (![0, 448] : Fin 2 → Nat) a + S1x16.size a ≤ S8x1024.size a
  inb_S8x1024_S1x16_1_448 : ∀ a, (![1, 448] : Fin 2 → Nat) a + S1x16.size a ≤ S8x1024.size a
  inb_S8x1024_S1x16_2_448 : ∀ a, (![2, 448] : Fin 2 → Nat) a + S1x16.size a ≤ S8x1024.size a
  inb_S8x1024_S1x16_3_448 : ∀ a, (![3, 448] : Fin 2 → Nat) a + S1x16.size a ≤ S8x1024.size a
  inb_S8x1024_S1x16_4_448 : ∀ a, (![4, 448] : Fin 2 → Nat) a + S1x16.size a ≤ S8x1024.size a
  inb_S8x1024_S1x16_5_448 : ∀ a, (![5, 448] : Fin 2 → Nat) a + S1x16.size a ≤ S8x1024.size a
  inb_S8x1024_S1x16_6_448 : ∀ a, (![6, 448] : Fin 2 → Nat) a + S1x16.size a ≤ S8x1024.size a
  inb_S8x1024_S1x16_7_448 : ∀ a, (![7, 448] : Fin 2 → Nat) a + S1x16.size a ≤ S8x1024.size a
  inb_S1024_S16_480 : ∀ a, (![480] : Fin 1 → Nat) a + S16.size a ≤ S1024.size a
  inb_S8x1024_S1x16_0_464 : ∀ a, (![0, 464] : Fin 2 → Nat) a + S1x16.size a ≤ S8x1024.size a
  inb_S8x1024_S1x16_1_464 : ∀ a, (![1, 464] : Fin 2 → Nat) a + S1x16.size a ≤ S8x1024.size a
  inb_S8x1024_S1x16_2_464 : ∀ a, (![2, 464] : Fin 2 → Nat) a + S1x16.size a ≤ S8x1024.size a
  inb_S8x1024_S1x16_3_464 : ∀ a, (![3, 464] : Fin 2 → Nat) a + S1x16.size a ≤ S8x1024.size a
  inb_S8x1024_S1x16_4_464 : ∀ a, (![4, 464] : Fin 2 → Nat) a + S1x16.size a ≤ S8x1024.size a
  inb_S8x1024_S1x16_5_464 : ∀ a, (![5, 464] : Fin 2 → Nat) a + S1x16.size a ≤ S8x1024.size a
  inb_S8x1024_S1x16_6_464 : ∀ a, (![6, 464] : Fin 2 → Nat) a + S1x16.size a ≤ S8x1024.size a
  inb_S8x1024_S1x16_7_464 : ∀ a, (![7, 464] : Fin 2 → Nat) a + S1x16.size a ≤ S8x1024.size a
  inb_S1024_S16_496 : ∀ a, (![496] : Fin 1 → Nat) a + S16.size a ≤ S1024.size a
  inb_S8x1024_S1x16_0_480 : ∀ a, (![0, 480] : Fin 2 → Nat) a + S1x16.size a ≤ S8x1024.size a
  inb_S8x1024_S1x16_1_480 : ∀ a, (![1, 480] : Fin 2 → Nat) a + S1x16.size a ≤ S8x1024.size a
  inb_S8x1024_S1x16_2_480 : ∀ a, (![2, 480] : Fin 2 → Nat) a + S1x16.size a ≤ S8x1024.size a
  inb_S8x1024_S1x16_3_480 : ∀ a, (![3, 480] : Fin 2 → Nat) a + S1x16.size a ≤ S8x1024.size a
  inb_S8x1024_S1x16_4_480 : ∀ a, (![4, 480] : Fin 2 → Nat) a + S1x16.size a ≤ S8x1024.size a
  inb_S8x1024_S1x16_5_480 : ∀ a, (![5, 480] : Fin 2 → Nat) a + S1x16.size a ≤ S8x1024.size a
  inb_S8x1024_S1x16_6_480 : ∀ a, (![6, 480] : Fin 2 → Nat) a + S1x16.size a ≤ S8x1024.size a
  inb_S8x1024_S1x16_7_480 : ∀ a, (![7, 480] : Fin 2 → Nat) a + S1x16.size a ≤ S8x1024.size a
  inb_S1024_S16_512 : ∀ a, (![512] : Fin 1 → Nat) a + S16.size a ≤ S1024.size a
  inb_S8x1024_S1x16_0_496 : ∀ a, (![0, 496] : Fin 2 → Nat) a + S1x16.size a ≤ S8x1024.size a
  inb_S8x1024_S1x16_1_496 : ∀ a, (![1, 496] : Fin 2 → Nat) a + S1x16.size a ≤ S8x1024.size a
  inb_S8x1024_S1x16_2_496 : ∀ a, (![2, 496] : Fin 2 → Nat) a + S1x16.size a ≤ S8x1024.size a
  inb_S8x1024_S1x16_3_496 : ∀ a, (![3, 496] : Fin 2 → Nat) a + S1x16.size a ≤ S8x1024.size a
  inb_S8x1024_S1x16_4_496 : ∀ a, (![4, 496] : Fin 2 → Nat) a + S1x16.size a ≤ S8x1024.size a
  inb_S8x1024_S1x16_5_496 : ∀ a, (![5, 496] : Fin 2 → Nat) a + S1x16.size a ≤ S8x1024.size a
  inb_S8x1024_S1x16_6_496 : ∀ a, (![6, 496] : Fin 2 → Nat) a + S1x16.size a ≤ S8x1024.size a
  inb_S8x1024_S1x16_7_496 : ∀ a, (![7, 496] : Fin 2 → Nat) a + S1x16.size a ≤ S8x1024.size a
  inb_S1024_S16_528 : ∀ a, (![528] : Fin 1 → Nat) a + S16.size a ≤ S1024.size a
  inb_S8x1024_S1x16_0_512 : ∀ a, (![0, 512] : Fin 2 → Nat) a + S1x16.size a ≤ S8x1024.size a
  inb_S8x1024_S1x16_1_512 : ∀ a, (![1, 512] : Fin 2 → Nat) a + S1x16.size a ≤ S8x1024.size a
  inb_S8x1024_S1x16_2_512 : ∀ a, (![2, 512] : Fin 2 → Nat) a + S1x16.size a ≤ S8x1024.size a
  inb_S8x1024_S1x16_3_512 : ∀ a, (![3, 512] : Fin 2 → Nat) a + S1x16.size a ≤ S8x1024.size a
  inb_S8x1024_S1x16_4_512 : ∀ a, (![4, 512] : Fin 2 → Nat) a + S1x16.size a ≤ S8x1024.size a
  inb_S8x1024_S1x16_5_512 : ∀ a, (![5, 512] : Fin 2 → Nat) a + S1x16.size a ≤ S8x1024.size a
  inb_S8x1024_S1x16_6_512 : ∀ a, (![6, 512] : Fin 2 → Nat) a + S1x16.size a ≤ S8x1024.size a
  inb_S8x1024_S1x16_7_512 : ∀ a, (![7, 512] : Fin 2 → Nat) a + S1x16.size a ≤ S8x1024.size a
  inb_S1024_S16_544 : ∀ a, (![544] : Fin 1 → Nat) a + S16.size a ≤ S1024.size a
  inb_S8x1024_S1x16_0_528 : ∀ a, (![0, 528] : Fin 2 → Nat) a + S1x16.size a ≤ S8x1024.size a
  inb_S8x1024_S1x16_1_528 : ∀ a, (![1, 528] : Fin 2 → Nat) a + S1x16.size a ≤ S8x1024.size a
  inb_S8x1024_S1x16_2_528 : ∀ a, (![2, 528] : Fin 2 → Nat) a + S1x16.size a ≤ S8x1024.size a
  inb_S8x1024_S1x16_3_528 : ∀ a, (![3, 528] : Fin 2 → Nat) a + S1x16.size a ≤ S8x1024.size a
  inb_S8x1024_S1x16_4_528 : ∀ a, (![4, 528] : Fin 2 → Nat) a + S1x16.size a ≤ S8x1024.size a
  inb_S8x1024_S1x16_5_528 : ∀ a, (![5, 528] : Fin 2 → Nat) a + S1x16.size a ≤ S8x1024.size a
  inb_S8x1024_S1x16_6_528 : ∀ a, (![6, 528] : Fin 2 → Nat) a + S1x16.size a ≤ S8x1024.size a
  inb_S8x1024_S1x16_7_528 : ∀ a, (![7, 528] : Fin 2 → Nat) a + S1x16.size a ≤ S8x1024.size a
  inb_S1024_S16_560 : ∀ a, (![560] : Fin 1 → Nat) a + S16.size a ≤ S1024.size a
  inb_S8x1024_S1x16_0_544 : ∀ a, (![0, 544] : Fin 2 → Nat) a + S1x16.size a ≤ S8x1024.size a
  inb_S8x1024_S1x16_1_544 : ∀ a, (![1, 544] : Fin 2 → Nat) a + S1x16.size a ≤ S8x1024.size a
  inb_S8x1024_S1x16_2_544 : ∀ a, (![2, 544] : Fin 2 → Nat) a + S1x16.size a ≤ S8x1024.size a
  inb_S8x1024_S1x16_3_544 : ∀ a, (![3, 544] : Fin 2 → Nat) a + S1x16.size a ≤ S8x1024.size a
  inb_S8x1024_S1x16_4_544 : ∀ a, (![4, 544] : Fin 2 → Nat) a + S1x16.size a ≤ S8x1024.size a
  inb_S8x1024_S1x16_5_544 : ∀ a, (![5, 544] : Fin 2 → Nat) a + S1x16.size a ≤ S8x1024.size a
  inb_S8x1024_S1x16_6_544 : ∀ a, (![6, 544] : Fin 2 → Nat) a + S1x16.size a ≤ S8x1024.size a
  inb_S8x1024_S1x16_7_544 : ∀ a, (![7, 544] : Fin 2 → Nat) a + S1x16.size a ≤ S8x1024.size a
  inb_S1024_S16_576 : ∀ a, (![576] : Fin 1 → Nat) a + S16.size a ≤ S1024.size a
  inb_S8x1024_S1x16_0_560 : ∀ a, (![0, 560] : Fin 2 → Nat) a + S1x16.size a ≤ S8x1024.size a
  inb_S8x1024_S1x16_1_560 : ∀ a, (![1, 560] : Fin 2 → Nat) a + S1x16.size a ≤ S8x1024.size a
  inb_S8x1024_S1x16_2_560 : ∀ a, (![2, 560] : Fin 2 → Nat) a + S1x16.size a ≤ S8x1024.size a
  inb_S8x1024_S1x16_3_560 : ∀ a, (![3, 560] : Fin 2 → Nat) a + S1x16.size a ≤ S8x1024.size a
  inb_S8x1024_S1x16_4_560 : ∀ a, (![4, 560] : Fin 2 → Nat) a + S1x16.size a ≤ S8x1024.size a
  inb_S8x1024_S1x16_5_560 : ∀ a, (![5, 560] : Fin 2 → Nat) a + S1x16.size a ≤ S8x1024.size a
  inb_S8x1024_S1x16_6_560 : ∀ a, (![6, 560] : Fin 2 → Nat) a + S1x16.size a ≤ S8x1024.size a
  inb_S8x1024_S1x16_7_560 : ∀ a, (![7, 560] : Fin 2 → Nat) a + S1x16.size a ≤ S8x1024.size a
  inb_S1024_S16_592 : ∀ a, (![592] : Fin 1 → Nat) a + S16.size a ≤ S1024.size a
  inb_S8x1024_S1x16_0_576 : ∀ a, (![0, 576] : Fin 2 → Nat) a + S1x16.size a ≤ S8x1024.size a
  inb_S8x1024_S1x16_1_576 : ∀ a, (![1, 576] : Fin 2 → Nat) a + S1x16.size a ≤ S8x1024.size a
  inb_S8x1024_S1x16_2_576 : ∀ a, (![2, 576] : Fin 2 → Nat) a + S1x16.size a ≤ S8x1024.size a
  inb_S8x1024_S1x16_3_576 : ∀ a, (![3, 576] : Fin 2 → Nat) a + S1x16.size a ≤ S8x1024.size a
  inb_S8x1024_S1x16_4_576 : ∀ a, (![4, 576] : Fin 2 → Nat) a + S1x16.size a ≤ S8x1024.size a
  inb_S8x1024_S1x16_5_576 : ∀ a, (![5, 576] : Fin 2 → Nat) a + S1x16.size a ≤ S8x1024.size a
  inb_S8x1024_S1x16_6_576 : ∀ a, (![6, 576] : Fin 2 → Nat) a + S1x16.size a ≤ S8x1024.size a
  inb_S8x1024_S1x16_7_576 : ∀ a, (![7, 576] : Fin 2 → Nat) a + S1x16.size a ≤ S8x1024.size a
  inb_S1024_S16_608 : ∀ a, (![608] : Fin 1 → Nat) a + S16.size a ≤ S1024.size a
  inb_S8x1024_S1x16_0_592 : ∀ a, (![0, 592] : Fin 2 → Nat) a + S1x16.size a ≤ S8x1024.size a
  inb_S8x1024_S1x16_1_592 : ∀ a, (![1, 592] : Fin 2 → Nat) a + S1x16.size a ≤ S8x1024.size a
  inb_S8x1024_S1x16_2_592 : ∀ a, (![2, 592] : Fin 2 → Nat) a + S1x16.size a ≤ S8x1024.size a
  inb_S8x1024_S1x16_3_592 : ∀ a, (![3, 592] : Fin 2 → Nat) a + S1x16.size a ≤ S8x1024.size a
  inb_S8x1024_S1x16_4_592 : ∀ a, (![4, 592] : Fin 2 → Nat) a + S1x16.size a ≤ S8x1024.size a
  inb_S8x1024_S1x16_5_592 : ∀ a, (![5, 592] : Fin 2 → Nat) a + S1x16.size a ≤ S8x1024.size a
  inb_S8x1024_S1x16_6_592 : ∀ a, (![6, 592] : Fin 2 → Nat) a + S1x16.size a ≤ S8x1024.size a
  inb_S8x1024_S1x16_7_592 : ∀ a, (![7, 592] : Fin 2 → Nat) a + S1x16.size a ≤ S8x1024.size a
  inb_S1024_S16_624 : ∀ a, (![624] : Fin 1 → Nat) a + S16.size a ≤ S1024.size a
  inb_S8x1024_S1x16_0_608 : ∀ a, (![0, 608] : Fin 2 → Nat) a + S1x16.size a ≤ S8x1024.size a
  inb_S8x1024_S1x16_1_608 : ∀ a, (![1, 608] : Fin 2 → Nat) a + S1x16.size a ≤ S8x1024.size a
  inb_S8x1024_S1x16_2_608 : ∀ a, (![2, 608] : Fin 2 → Nat) a + S1x16.size a ≤ S8x1024.size a
  inb_S8x1024_S1x16_3_608 : ∀ a, (![3, 608] : Fin 2 → Nat) a + S1x16.size a ≤ S8x1024.size a
  inb_S8x1024_S1x16_4_608 : ∀ a, (![4, 608] : Fin 2 → Nat) a + S1x16.size a ≤ S8x1024.size a
  inb_S8x1024_S1x16_5_608 : ∀ a, (![5, 608] : Fin 2 → Nat) a + S1x16.size a ≤ S8x1024.size a
  inb_S8x1024_S1x16_6_608 : ∀ a, (![6, 608] : Fin 2 → Nat) a + S1x16.size a ≤ S8x1024.size a
  inb_S8x1024_S1x16_7_608 : ∀ a, (![7, 608] : Fin 2 → Nat) a + S1x16.size a ≤ S8x1024.size a
  inb_S1024_S16_640 : ∀ a, (![640] : Fin 1 → Nat) a + S16.size a ≤ S1024.size a
  inb_S8x1024_S1x16_0_624 : ∀ a, (![0, 624] : Fin 2 → Nat) a + S1x16.size a ≤ S8x1024.size a
  inb_S8x1024_S1x16_1_624 : ∀ a, (![1, 624] : Fin 2 → Nat) a + S1x16.size a ≤ S8x1024.size a
  inb_S8x1024_S1x16_2_624 : ∀ a, (![2, 624] : Fin 2 → Nat) a + S1x16.size a ≤ S8x1024.size a
  inb_S8x1024_S1x16_3_624 : ∀ a, (![3, 624] : Fin 2 → Nat) a + S1x16.size a ≤ S8x1024.size a
  inb_S8x1024_S1x16_4_624 : ∀ a, (![4, 624] : Fin 2 → Nat) a + S1x16.size a ≤ S8x1024.size a
  inb_S8x1024_S1x16_5_624 : ∀ a, (![5, 624] : Fin 2 → Nat) a + S1x16.size a ≤ S8x1024.size a
  inb_S8x1024_S1x16_6_624 : ∀ a, (![6, 624] : Fin 2 → Nat) a + S1x16.size a ≤ S8x1024.size a
  inb_S8x1024_S1x16_7_624 : ∀ a, (![7, 624] : Fin 2 → Nat) a + S1x16.size a ≤ S8x1024.size a
  inb_S1024_S16_656 : ∀ a, (![656] : Fin 1 → Nat) a + S16.size a ≤ S1024.size a
  inb_S8x1024_S1x16_0_640 : ∀ a, (![0, 640] : Fin 2 → Nat) a + S1x16.size a ≤ S8x1024.size a
  inb_S8x1024_S1x16_1_640 : ∀ a, (![1, 640] : Fin 2 → Nat) a + S1x16.size a ≤ S8x1024.size a
  inb_S8x1024_S1x16_2_640 : ∀ a, (![2, 640] : Fin 2 → Nat) a + S1x16.size a ≤ S8x1024.size a
  inb_S8x1024_S1x16_3_640 : ∀ a, (![3, 640] : Fin 2 → Nat) a + S1x16.size a ≤ S8x1024.size a
  inb_S8x1024_S1x16_4_640 : ∀ a, (![4, 640] : Fin 2 → Nat) a + S1x16.size a ≤ S8x1024.size a
  inb_S8x1024_S1x16_5_640 : ∀ a, (![5, 640] : Fin 2 → Nat) a + S1x16.size a ≤ S8x1024.size a
  inb_S8x1024_S1x16_6_640 : ∀ a, (![6, 640] : Fin 2 → Nat) a + S1x16.size a ≤ S8x1024.size a
  inb_S8x1024_S1x16_7_640 : ∀ a, (![7, 640] : Fin 2 → Nat) a + S1x16.size a ≤ S8x1024.size a
  inb_S1024_S16_672 : ∀ a, (![672] : Fin 1 → Nat) a + S16.size a ≤ S1024.size a
  inb_S8x1024_S1x16_0_656 : ∀ a, (![0, 656] : Fin 2 → Nat) a + S1x16.size a ≤ S8x1024.size a
  inb_S8x1024_S1x16_1_656 : ∀ a, (![1, 656] : Fin 2 → Nat) a + S1x16.size a ≤ S8x1024.size a
  inb_S8x1024_S1x16_2_656 : ∀ a, (![2, 656] : Fin 2 → Nat) a + S1x16.size a ≤ S8x1024.size a
  inb_S8x1024_S1x16_3_656 : ∀ a, (![3, 656] : Fin 2 → Nat) a + S1x16.size a ≤ S8x1024.size a
  inb_S8x1024_S1x16_4_656 : ∀ a, (![4, 656] : Fin 2 → Nat) a + S1x16.size a ≤ S8x1024.size a
  inb_S8x1024_S1x16_5_656 : ∀ a, (![5, 656] : Fin 2 → Nat) a + S1x16.size a ≤ S8x1024.size a
  inb_S8x1024_S1x16_6_656 : ∀ a, (![6, 656] : Fin 2 → Nat) a + S1x16.size a ≤ S8x1024.size a
  inb_S8x1024_S1x16_7_656 : ∀ a, (![7, 656] : Fin 2 → Nat) a + S1x16.size a ≤ S8x1024.size a
  inb_S1024_S16_688 : ∀ a, (![688] : Fin 1 → Nat) a + S16.size a ≤ S1024.size a
  inb_S8x1024_S1x16_0_672 : ∀ a, (![0, 672] : Fin 2 → Nat) a + S1x16.size a ≤ S8x1024.size a
  inb_S8x1024_S1x16_1_672 : ∀ a, (![1, 672] : Fin 2 → Nat) a + S1x16.size a ≤ S8x1024.size a
  inb_S8x1024_S1x16_2_672 : ∀ a, (![2, 672] : Fin 2 → Nat) a + S1x16.size a ≤ S8x1024.size a
  inb_S8x1024_S1x16_3_672 : ∀ a, (![3, 672] : Fin 2 → Nat) a + S1x16.size a ≤ S8x1024.size a
  inb_S8x1024_S1x16_4_672 : ∀ a, (![4, 672] : Fin 2 → Nat) a + S1x16.size a ≤ S8x1024.size a
  inb_S8x1024_S1x16_5_672 : ∀ a, (![5, 672] : Fin 2 → Nat) a + S1x16.size a ≤ S8x1024.size a
  inb_S8x1024_S1x16_6_672 : ∀ a, (![6, 672] : Fin 2 → Nat) a + S1x16.size a ≤ S8x1024.size a
  inb_S8x1024_S1x16_7_672 : ∀ a, (![7, 672] : Fin 2 → Nat) a + S1x16.size a ≤ S8x1024.size a
  inb_S1024_S16_704 : ∀ a, (![704] : Fin 1 → Nat) a + S16.size a ≤ S1024.size a
  inb_S8x1024_S1x16_0_688 : ∀ a, (![0, 688] : Fin 2 → Nat) a + S1x16.size a ≤ S8x1024.size a
  inb_S8x1024_S1x16_1_688 : ∀ a, (![1, 688] : Fin 2 → Nat) a + S1x16.size a ≤ S8x1024.size a
  inb_S8x1024_S1x16_2_688 : ∀ a, (![2, 688] : Fin 2 → Nat) a + S1x16.size a ≤ S8x1024.size a
  inb_S8x1024_S1x16_3_688 : ∀ a, (![3, 688] : Fin 2 → Nat) a + S1x16.size a ≤ S8x1024.size a
  inb_S8x1024_S1x16_4_688 : ∀ a, (![4, 688] : Fin 2 → Nat) a + S1x16.size a ≤ S8x1024.size a
  inb_S8x1024_S1x16_5_688 : ∀ a, (![5, 688] : Fin 2 → Nat) a + S1x16.size a ≤ S8x1024.size a
  inb_S8x1024_S1x16_6_688 : ∀ a, (![6, 688] : Fin 2 → Nat) a + S1x16.size a ≤ S8x1024.size a
  inb_S8x1024_S1x16_7_688 : ∀ a, (![7, 688] : Fin 2 → Nat) a + S1x16.size a ≤ S8x1024.size a
  inb_S1024_S16_720 : ∀ a, (![720] : Fin 1 → Nat) a + S16.size a ≤ S1024.size a
  inb_S8x1024_S1x16_0_704 : ∀ a, (![0, 704] : Fin 2 → Nat) a + S1x16.size a ≤ S8x1024.size a
  inb_S8x1024_S1x16_1_704 : ∀ a, (![1, 704] : Fin 2 → Nat) a + S1x16.size a ≤ S8x1024.size a
  inb_S8x1024_S1x16_2_704 : ∀ a, (![2, 704] : Fin 2 → Nat) a + S1x16.size a ≤ S8x1024.size a
  inb_S8x1024_S1x16_3_704 : ∀ a, (![3, 704] : Fin 2 → Nat) a + S1x16.size a ≤ S8x1024.size a
  inb_S8x1024_S1x16_4_704 : ∀ a, (![4, 704] : Fin 2 → Nat) a + S1x16.size a ≤ S8x1024.size a
  inb_S8x1024_S1x16_5_704 : ∀ a, (![5, 704] : Fin 2 → Nat) a + S1x16.size a ≤ S8x1024.size a
  inb_S8x1024_S1x16_6_704 : ∀ a, (![6, 704] : Fin 2 → Nat) a + S1x16.size a ≤ S8x1024.size a
  inb_S8x1024_S1x16_7_704 : ∀ a, (![7, 704] : Fin 2 → Nat) a + S1x16.size a ≤ S8x1024.size a
  inb_S1024_S16_736 : ∀ a, (![736] : Fin 1 → Nat) a + S16.size a ≤ S1024.size a
  inb_S8x1024_S1x16_0_720 : ∀ a, (![0, 720] : Fin 2 → Nat) a + S1x16.size a ≤ S8x1024.size a
  inb_S8x1024_S1x16_1_720 : ∀ a, (![1, 720] : Fin 2 → Nat) a + S1x16.size a ≤ S8x1024.size a
  inb_S8x1024_S1x16_2_720 : ∀ a, (![2, 720] : Fin 2 → Nat) a + S1x16.size a ≤ S8x1024.size a
  inb_S8x1024_S1x16_3_720 : ∀ a, (![3, 720] : Fin 2 → Nat) a + S1x16.size a ≤ S8x1024.size a
  inb_S8x1024_S1x16_4_720 : ∀ a, (![4, 720] : Fin 2 → Nat) a + S1x16.size a ≤ S8x1024.size a
  inb_S8x1024_S1x16_5_720 : ∀ a, (![5, 720] : Fin 2 → Nat) a + S1x16.size a ≤ S8x1024.size a
  inb_S8x1024_S1x16_6_720 : ∀ a, (![6, 720] : Fin 2 → Nat) a + S1x16.size a ≤ S8x1024.size a
  inb_S8x1024_S1x16_7_720 : ∀ a, (![7, 720] : Fin 2 → Nat) a + S1x16.size a ≤ S8x1024.size a
  inb_S1024_S16_752 : ∀ a, (![752] : Fin 1 → Nat) a + S16.size a ≤ S1024.size a
  inb_S8x1024_S1x16_0_736 : ∀ a, (![0, 736] : Fin 2 → Nat) a + S1x16.size a ≤ S8x1024.size a
  inb_S8x1024_S1x16_1_736 : ∀ a, (![1, 736] : Fin 2 → Nat) a + S1x16.size a ≤ S8x1024.size a
  inb_S8x1024_S1x16_2_736 : ∀ a, (![2, 736] : Fin 2 → Nat) a + S1x16.size a ≤ S8x1024.size a
  inb_S8x1024_S1x16_3_736 : ∀ a, (![3, 736] : Fin 2 → Nat) a + S1x16.size a ≤ S8x1024.size a
  inb_S8x1024_S1x16_4_736 : ∀ a, (![4, 736] : Fin 2 → Nat) a + S1x16.size a ≤ S8x1024.size a
  inb_S8x1024_S1x16_5_736 : ∀ a, (![5, 736] : Fin 2 → Nat) a + S1x16.size a ≤ S8x1024.size a
  inb_S8x1024_S1x16_6_736 : ∀ a, (![6, 736] : Fin 2 → Nat) a + S1x16.size a ≤ S8x1024.size a
  inb_S8x1024_S1x16_7_736 : ∀ a, (![7, 736] : Fin 2 → Nat) a + S1x16.size a ≤ S8x1024.size a
  inb_S1024_S16_768 : ∀ a, (![768] : Fin 1 → Nat) a + S16.size a ≤ S1024.size a
  inb_S8x1024_S1x16_0_752 : ∀ a, (![0, 752] : Fin 2 → Nat) a + S1x16.size a ≤ S8x1024.size a
  inb_S8x1024_S1x16_1_752 : ∀ a, (![1, 752] : Fin 2 → Nat) a + S1x16.size a ≤ S8x1024.size a
  inb_S8x1024_S1x16_2_752 : ∀ a, (![2, 752] : Fin 2 → Nat) a + S1x16.size a ≤ S8x1024.size a
  inb_S8x1024_S1x16_3_752 : ∀ a, (![3, 752] : Fin 2 → Nat) a + S1x16.size a ≤ S8x1024.size a
  inb_S8x1024_S1x16_4_752 : ∀ a, (![4, 752] : Fin 2 → Nat) a + S1x16.size a ≤ S8x1024.size a
  inb_S8x1024_S1x16_5_752 : ∀ a, (![5, 752] : Fin 2 → Nat) a + S1x16.size a ≤ S8x1024.size a
  inb_S8x1024_S1x16_6_752 : ∀ a, (![6, 752] : Fin 2 → Nat) a + S1x16.size a ≤ S8x1024.size a
  inb_S8x1024_S1x16_7_752 : ∀ a, (![7, 752] : Fin 2 → Nat) a + S1x16.size a ≤ S8x1024.size a
  inb_S1024_S16_784 : ∀ a, (![784] : Fin 1 → Nat) a + S16.size a ≤ S1024.size a
  inb_S8x1024_S1x16_0_768 : ∀ a, (![0, 768] : Fin 2 → Nat) a + S1x16.size a ≤ S8x1024.size a
  inb_S8x1024_S1x16_1_768 : ∀ a, (![1, 768] : Fin 2 → Nat) a + S1x16.size a ≤ S8x1024.size a
  inb_S8x1024_S1x16_2_768 : ∀ a, (![2, 768] : Fin 2 → Nat) a + S1x16.size a ≤ S8x1024.size a
  inb_S8x1024_S1x16_3_768 : ∀ a, (![3, 768] : Fin 2 → Nat) a + S1x16.size a ≤ S8x1024.size a
  inb_S8x1024_S1x16_4_768 : ∀ a, (![4, 768] : Fin 2 → Nat) a + S1x16.size a ≤ S8x1024.size a
  inb_S8x1024_S1x16_5_768 : ∀ a, (![5, 768] : Fin 2 → Nat) a + S1x16.size a ≤ S8x1024.size a
  inb_S8x1024_S1x16_6_768 : ∀ a, (![6, 768] : Fin 2 → Nat) a + S1x16.size a ≤ S8x1024.size a
  inb_S8x1024_S1x16_7_768 : ∀ a, (![7, 768] : Fin 2 → Nat) a + S1x16.size a ≤ S8x1024.size a
  inb_S1024_S16_800 : ∀ a, (![800] : Fin 1 → Nat) a + S16.size a ≤ S1024.size a
  inb_S8x1024_S1x16_0_784 : ∀ a, (![0, 784] : Fin 2 → Nat) a + S1x16.size a ≤ S8x1024.size a
  inb_S8x1024_S1x16_1_784 : ∀ a, (![1, 784] : Fin 2 → Nat) a + S1x16.size a ≤ S8x1024.size a
  inb_S8x1024_S1x16_2_784 : ∀ a, (![2, 784] : Fin 2 → Nat) a + S1x16.size a ≤ S8x1024.size a
  inb_S8x1024_S1x16_3_784 : ∀ a, (![3, 784] : Fin 2 → Nat) a + S1x16.size a ≤ S8x1024.size a
  inb_S8x1024_S1x16_4_784 : ∀ a, (![4, 784] : Fin 2 → Nat) a + S1x16.size a ≤ S8x1024.size a
  inb_S8x1024_S1x16_5_784 : ∀ a, (![5, 784] : Fin 2 → Nat) a + S1x16.size a ≤ S8x1024.size a
  inb_S8x1024_S1x16_6_784 : ∀ a, (![6, 784] : Fin 2 → Nat) a + S1x16.size a ≤ S8x1024.size a
  inb_S8x1024_S1x16_7_784 : ∀ a, (![7, 784] : Fin 2 → Nat) a + S1x16.size a ≤ S8x1024.size a
  inb_S1024_S16_816 : ∀ a, (![816] : Fin 1 → Nat) a + S16.size a ≤ S1024.size a
  inb_S8x1024_S1x16_0_800 : ∀ a, (![0, 800] : Fin 2 → Nat) a + S1x16.size a ≤ S8x1024.size a
  inb_S8x1024_S1x16_1_800 : ∀ a, (![1, 800] : Fin 2 → Nat) a + S1x16.size a ≤ S8x1024.size a
  inb_S8x1024_S1x16_2_800 : ∀ a, (![2, 800] : Fin 2 → Nat) a + S1x16.size a ≤ S8x1024.size a
  inb_S8x1024_S1x16_3_800 : ∀ a, (![3, 800] : Fin 2 → Nat) a + S1x16.size a ≤ S8x1024.size a
  inb_S8x1024_S1x16_4_800 : ∀ a, (![4, 800] : Fin 2 → Nat) a + S1x16.size a ≤ S8x1024.size a
  inb_S8x1024_S1x16_5_800 : ∀ a, (![5, 800] : Fin 2 → Nat) a + S1x16.size a ≤ S8x1024.size a
  inb_S8x1024_S1x16_6_800 : ∀ a, (![6, 800] : Fin 2 → Nat) a + S1x16.size a ≤ S8x1024.size a
  inb_S8x1024_S1x16_7_800 : ∀ a, (![7, 800] : Fin 2 → Nat) a + S1x16.size a ≤ S8x1024.size a
  inb_S1024_S16_832 : ∀ a, (![832] : Fin 1 → Nat) a + S16.size a ≤ S1024.size a
  inb_S8x1024_S1x16_0_816 : ∀ a, (![0, 816] : Fin 2 → Nat) a + S1x16.size a ≤ S8x1024.size a
  inb_S8x1024_S1x16_1_816 : ∀ a, (![1, 816] : Fin 2 → Nat) a + S1x16.size a ≤ S8x1024.size a
  inb_S8x1024_S1x16_2_816 : ∀ a, (![2, 816] : Fin 2 → Nat) a + S1x16.size a ≤ S8x1024.size a
  inb_S8x1024_S1x16_3_816 : ∀ a, (![3, 816] : Fin 2 → Nat) a + S1x16.size a ≤ S8x1024.size a
  inb_S8x1024_S1x16_4_816 : ∀ a, (![4, 816] : Fin 2 → Nat) a + S1x16.size a ≤ S8x1024.size a
  inb_S8x1024_S1x16_5_816 : ∀ a, (![5, 816] : Fin 2 → Nat) a + S1x16.size a ≤ S8x1024.size a
  inb_S8x1024_S1x16_6_816 : ∀ a, (![6, 816] : Fin 2 → Nat) a + S1x16.size a ≤ S8x1024.size a
  inb_S8x1024_S1x16_7_816 : ∀ a, (![7, 816] : Fin 2 → Nat) a + S1x16.size a ≤ S8x1024.size a
  inb_S1024_S16_848 : ∀ a, (![848] : Fin 1 → Nat) a + S16.size a ≤ S1024.size a
  inb_S8x1024_S1x16_0_832 : ∀ a, (![0, 832] : Fin 2 → Nat) a + S1x16.size a ≤ S8x1024.size a
  inb_S8x1024_S1x16_1_832 : ∀ a, (![1, 832] : Fin 2 → Nat) a + S1x16.size a ≤ S8x1024.size a
  inb_S8x1024_S1x16_2_832 : ∀ a, (![2, 832] : Fin 2 → Nat) a + S1x16.size a ≤ S8x1024.size a
  inb_S8x1024_S1x16_3_832 : ∀ a, (![3, 832] : Fin 2 → Nat) a + S1x16.size a ≤ S8x1024.size a
  inb_S8x1024_S1x16_4_832 : ∀ a, (![4, 832] : Fin 2 → Nat) a + S1x16.size a ≤ S8x1024.size a
  inb_S8x1024_S1x16_5_832 : ∀ a, (![5, 832] : Fin 2 → Nat) a + S1x16.size a ≤ S8x1024.size a
  inb_S8x1024_S1x16_6_832 : ∀ a, (![6, 832] : Fin 2 → Nat) a + S1x16.size a ≤ S8x1024.size a
  inb_S8x1024_S1x16_7_832 : ∀ a, (![7, 832] : Fin 2 → Nat) a + S1x16.size a ≤ S8x1024.size a
  inb_S1024_S16_864 : ∀ a, (![864] : Fin 1 → Nat) a + S16.size a ≤ S1024.size a
  inb_S8x1024_S1x16_0_848 : ∀ a, (![0, 848] : Fin 2 → Nat) a + S1x16.size a ≤ S8x1024.size a
  inb_S8x1024_S1x16_1_848 : ∀ a, (![1, 848] : Fin 2 → Nat) a + S1x16.size a ≤ S8x1024.size a
  inb_S8x1024_S1x16_2_848 : ∀ a, (![2, 848] : Fin 2 → Nat) a + S1x16.size a ≤ S8x1024.size a
  inb_S8x1024_S1x16_3_848 : ∀ a, (![3, 848] : Fin 2 → Nat) a + S1x16.size a ≤ S8x1024.size a
  inb_S8x1024_S1x16_4_848 : ∀ a, (![4, 848] : Fin 2 → Nat) a + S1x16.size a ≤ S8x1024.size a
  inb_S8x1024_S1x16_5_848 : ∀ a, (![5, 848] : Fin 2 → Nat) a + S1x16.size a ≤ S8x1024.size a
  inb_S8x1024_S1x16_6_848 : ∀ a, (![6, 848] : Fin 2 → Nat) a + S1x16.size a ≤ S8x1024.size a
  inb_S8x1024_S1x16_7_848 : ∀ a, (![7, 848] : Fin 2 → Nat) a + S1x16.size a ≤ S8x1024.size a
  inb_S1024_S16_880 : ∀ a, (![880] : Fin 1 → Nat) a + S16.size a ≤ S1024.size a
  inb_S8x1024_S1x16_0_864 : ∀ a, (![0, 864] : Fin 2 → Nat) a + S1x16.size a ≤ S8x1024.size a
  inb_S8x1024_S1x16_1_864 : ∀ a, (![1, 864] : Fin 2 → Nat) a + S1x16.size a ≤ S8x1024.size a
  inb_S8x1024_S1x16_2_864 : ∀ a, (![2, 864] : Fin 2 → Nat) a + S1x16.size a ≤ S8x1024.size a
  inb_S8x1024_S1x16_3_864 : ∀ a, (![3, 864] : Fin 2 → Nat) a + S1x16.size a ≤ S8x1024.size a
  inb_S8x1024_S1x16_4_864 : ∀ a, (![4, 864] : Fin 2 → Nat) a + S1x16.size a ≤ S8x1024.size a
  inb_S8x1024_S1x16_5_864 : ∀ a, (![5, 864] : Fin 2 → Nat) a + S1x16.size a ≤ S8x1024.size a
  inb_S8x1024_S1x16_6_864 : ∀ a, (![6, 864] : Fin 2 → Nat) a + S1x16.size a ≤ S8x1024.size a
  inb_S8x1024_S1x16_7_864 : ∀ a, (![7, 864] : Fin 2 → Nat) a + S1x16.size a ≤ S8x1024.size a
  inb_S1024_S16_896 : ∀ a, (![896] : Fin 1 → Nat) a + S16.size a ≤ S1024.size a
  inb_S8x1024_S1x16_0_880 : ∀ a, (![0, 880] : Fin 2 → Nat) a + S1x16.size a ≤ S8x1024.size a
  inb_S8x1024_S1x16_1_880 : ∀ a, (![1, 880] : Fin 2 → Nat) a + S1x16.size a ≤ S8x1024.size a
  inb_S8x1024_S1x16_2_880 : ∀ a, (![2, 880] : Fin 2 → Nat) a + S1x16.size a ≤ S8x1024.size a
  inb_S8x1024_S1x16_3_880 : ∀ a, (![3, 880] : Fin 2 → Nat) a + S1x16.size a ≤ S8x1024.size a
  inb_S8x1024_S1x16_4_880 : ∀ a, (![4, 880] : Fin 2 → Nat) a + S1x16.size a ≤ S8x1024.size a
  inb_S8x1024_S1x16_5_880 : ∀ a, (![5, 880] : Fin 2 → Nat) a + S1x16.size a ≤ S8x1024.size a
  inb_S8x1024_S1x16_6_880 : ∀ a, (![6, 880] : Fin 2 → Nat) a + S1x16.size a ≤ S8x1024.size a
  inb_S8x1024_S1x16_7_880 : ∀ a, (![7, 880] : Fin 2 → Nat) a + S1x16.size a ≤ S8x1024.size a
  inb_S1024_S16_912 : ∀ a, (![912] : Fin 1 → Nat) a + S16.size a ≤ S1024.size a
  inb_S8x1024_S1x16_0_896 : ∀ a, (![0, 896] : Fin 2 → Nat) a + S1x16.size a ≤ S8x1024.size a
  inb_S8x1024_S1x16_1_896 : ∀ a, (![1, 896] : Fin 2 → Nat) a + S1x16.size a ≤ S8x1024.size a
  inb_S8x1024_S1x16_2_896 : ∀ a, (![2, 896] : Fin 2 → Nat) a + S1x16.size a ≤ S8x1024.size a
  inb_S8x1024_S1x16_3_896 : ∀ a, (![3, 896] : Fin 2 → Nat) a + S1x16.size a ≤ S8x1024.size a
  inb_S8x1024_S1x16_4_896 : ∀ a, (![4, 896] : Fin 2 → Nat) a + S1x16.size a ≤ S8x1024.size a
  inb_S8x1024_S1x16_5_896 : ∀ a, (![5, 896] : Fin 2 → Nat) a + S1x16.size a ≤ S8x1024.size a
  inb_S8x1024_S1x16_6_896 : ∀ a, (![6, 896] : Fin 2 → Nat) a + S1x16.size a ≤ S8x1024.size a
  inb_S8x1024_S1x16_7_896 : ∀ a, (![7, 896] : Fin 2 → Nat) a + S1x16.size a ≤ S8x1024.size a
  inb_S1024_S16_928 : ∀ a, (![928] : Fin 1 → Nat) a + S16.size a ≤ S1024.size a
  inb_S8x1024_S1x16_0_912 : ∀ a, (![0, 912] : Fin 2 → Nat) a + S1x16.size a ≤ S8x1024.size a
  inb_S8x1024_S1x16_1_912 : ∀ a, (![1, 912] : Fin 2 → Nat) a + S1x16.size a ≤ S8x1024.size a
  inb_S8x1024_S1x16_2_912 : ∀ a, (![2, 912] : Fin 2 → Nat) a + S1x16.size a ≤ S8x1024.size a
  inb_S8x1024_S1x16_3_912 : ∀ a, (![3, 912] : Fin 2 → Nat) a + S1x16.size a ≤ S8x1024.size a
  inb_S8x1024_S1x16_4_912 : ∀ a, (![4, 912] : Fin 2 → Nat) a + S1x16.size a ≤ S8x1024.size a
  inb_S8x1024_S1x16_5_912 : ∀ a, (![5, 912] : Fin 2 → Nat) a + S1x16.size a ≤ S8x1024.size a
  inb_S8x1024_S1x16_6_912 : ∀ a, (![6, 912] : Fin 2 → Nat) a + S1x16.size a ≤ S8x1024.size a
  inb_S8x1024_S1x16_7_912 : ∀ a, (![7, 912] : Fin 2 → Nat) a + S1x16.size a ≤ S8x1024.size a
  inb_S1024_S16_944 : ∀ a, (![944] : Fin 1 → Nat) a + S16.size a ≤ S1024.size a
  inb_S8x1024_S1x16_0_928 : ∀ a, (![0, 928] : Fin 2 → Nat) a + S1x16.size a ≤ S8x1024.size a
  inb_S8x1024_S1x16_1_928 : ∀ a, (![1, 928] : Fin 2 → Nat) a + S1x16.size a ≤ S8x1024.size a
  inb_S8x1024_S1x16_2_928 : ∀ a, (![2, 928] : Fin 2 → Nat) a + S1x16.size a ≤ S8x1024.size a
  inb_S8x1024_S1x16_3_928 : ∀ a, (![3, 928] : Fin 2 → Nat) a + S1x16.size a ≤ S8x1024.size a
  inb_S8x1024_S1x16_4_928 : ∀ a, (![4, 928] : Fin 2 → Nat) a + S1x16.size a ≤ S8x1024.size a
  inb_S8x1024_S1x16_5_928 : ∀ a, (![5, 928] : Fin 2 → Nat) a + S1x16.size a ≤ S8x1024.size a
  inb_S8x1024_S1x16_6_928 : ∀ a, (![6, 928] : Fin 2 → Nat) a + S1x16.size a ≤ S8x1024.size a
  inb_S8x1024_S1x16_7_928 : ∀ a, (![7, 928] : Fin 2 → Nat) a + S1x16.size a ≤ S8x1024.size a
  inb_S1024_S16_960 : ∀ a, (![960] : Fin 1 → Nat) a + S16.size a ≤ S1024.size a
  inb_S8x1024_S1x16_0_944 : ∀ a, (![0, 944] : Fin 2 → Nat) a + S1x16.size a ≤ S8x1024.size a
  inb_S8x1024_S1x16_1_944 : ∀ a, (![1, 944] : Fin 2 → Nat) a + S1x16.size a ≤ S8x1024.size a
  inb_S8x1024_S1x16_2_944 : ∀ a, (![2, 944] : Fin 2 → Nat) a + S1x16.size a ≤ S8x1024.size a
  inb_S8x1024_S1x16_3_944 : ∀ a, (![3, 944] : Fin 2 → Nat) a + S1x16.size a ≤ S8x1024.size a
  inb_S8x1024_S1x16_4_944 : ∀ a, (![4, 944] : Fin 2 → Nat) a + S1x16.size a ≤ S8x1024.size a
  inb_S8x1024_S1x16_5_944 : ∀ a, (![5, 944] : Fin 2 → Nat) a + S1x16.size a ≤ S8x1024.size a
  inb_S8x1024_S1x16_6_944 : ∀ a, (![6, 944] : Fin 2 → Nat) a + S1x16.size a ≤ S8x1024.size a
  inb_S8x1024_S1x16_7_944 : ∀ a, (![7, 944] : Fin 2 → Nat) a + S1x16.size a ≤ S8x1024.size a
  inb_S1024_S16_976 : ∀ a, (![976] : Fin 1 → Nat) a + S16.size a ≤ S1024.size a
  inb_S8x1024_S1x16_0_960 : ∀ a, (![0, 960] : Fin 2 → Nat) a + S1x16.size a ≤ S8x1024.size a
  inb_S8x1024_S1x16_1_960 : ∀ a, (![1, 960] : Fin 2 → Nat) a + S1x16.size a ≤ S8x1024.size a
  inb_S8x1024_S1x16_2_960 : ∀ a, (![2, 960] : Fin 2 → Nat) a + S1x16.size a ≤ S8x1024.size a
  inb_S8x1024_S1x16_3_960 : ∀ a, (![3, 960] : Fin 2 → Nat) a + S1x16.size a ≤ S8x1024.size a
  inb_S8x1024_S1x16_4_960 : ∀ a, (![4, 960] : Fin 2 → Nat) a + S1x16.size a ≤ S8x1024.size a
  inb_S8x1024_S1x16_5_960 : ∀ a, (![5, 960] : Fin 2 → Nat) a + S1x16.size a ≤ S8x1024.size a
  inb_S8x1024_S1x16_6_960 : ∀ a, (![6, 960] : Fin 2 → Nat) a + S1x16.size a ≤ S8x1024.size a
  inb_S8x1024_S1x16_7_960 : ∀ a, (![7, 960] : Fin 2 → Nat) a + S1x16.size a ≤ S8x1024.size a
  inb_S1024_S16_992 : ∀ a, (![992] : Fin 1 → Nat) a + S16.size a ≤ S1024.size a
  inb_S8x1024_S1x16_0_976 : ∀ a, (![0, 976] : Fin 2 → Nat) a + S1x16.size a ≤ S8x1024.size a
  inb_S8x1024_S1x16_1_976 : ∀ a, (![1, 976] : Fin 2 → Nat) a + S1x16.size a ≤ S8x1024.size a
  inb_S8x1024_S1x16_2_976 : ∀ a, (![2, 976] : Fin 2 → Nat) a + S1x16.size a ≤ S8x1024.size a
  inb_S8x1024_S1x16_3_976 : ∀ a, (![3, 976] : Fin 2 → Nat) a + S1x16.size a ≤ S8x1024.size a
  inb_S8x1024_S1x16_4_976 : ∀ a, (![4, 976] : Fin 2 → Nat) a + S1x16.size a ≤ S8x1024.size a
  inb_S8x1024_S1x16_5_976 : ∀ a, (![5, 976] : Fin 2 → Nat) a + S1x16.size a ≤ S8x1024.size a
  inb_S8x1024_S1x16_6_976 : ∀ a, (![6, 976] : Fin 2 → Nat) a + S1x16.size a ≤ S8x1024.size a
  inb_S8x1024_S1x16_7_976 : ∀ a, (![7, 976] : Fin 2 → Nat) a + S1x16.size a ≤ S8x1024.size a
  inb_S1024_S16_1008 : ∀ a, (![1008] : Fin 1 → Nat) a + S16.size a ≤ S1024.size a
  inb_S8x1024_S1x16_0_992 : ∀ a, (![0, 992] : Fin 2 → Nat) a + S1x16.size a ≤ S8x1024.size a
  inb_S8x1024_S1x16_1_992 : ∀ a, (![1, 992] : Fin 2 → Nat) a + S1x16.size a ≤ S8x1024.size a
  inb_S8x1024_S1x16_2_992 : ∀ a, (![2, 992] : Fin 2 → Nat) a + S1x16.size a ≤ S8x1024.size a
  inb_S8x1024_S1x16_3_992 : ∀ a, (![3, 992] : Fin 2 → Nat) a + S1x16.size a ≤ S8x1024.size a
  inb_S8x1024_S1x16_4_992 : ∀ a, (![4, 992] : Fin 2 → Nat) a + S1x16.size a ≤ S8x1024.size a
  inb_S8x1024_S1x16_5_992 : ∀ a, (![5, 992] : Fin 2 → Nat) a + S1x16.size a ≤ S8x1024.size a
  inb_S8x1024_S1x16_6_992 : ∀ a, (![6, 992] : Fin 2 → Nat) a + S1x16.size a ≤ S8x1024.size a
  inb_S8x1024_S1x16_7_992 : ∀ a, (![7, 992] : Fin 2 → Nat) a + S1x16.size a ≤ S8x1024.size a
  inb_S8x1024_S1x16_0_1008 : ∀ a, (![0, 1008] : Fin 2 → Nat) a + S1x16.size a ≤ S8x1024.size a
  inb_S8x1024_S1x16_1_1008 : ∀ a, (![1, 1008] : Fin 2 → Nat) a + S1x16.size a ≤ S8x1024.size a
  inb_S8x1024_S1x16_2_1008 : ∀ a, (![2, 1008] : Fin 2 → Nat) a + S1x16.size a ≤ S8x1024.size a
  inb_S8x1024_S1x16_3_1008 : ∀ a, (![3, 1008] : Fin 2 → Nat) a + S1x16.size a ≤ S8x1024.size a
  inb_S8x1024_S1x16_4_1008 : ∀ a, (![4, 1008] : Fin 2 → Nat) a + S1x16.size a ≤ S8x1024.size a
  inb_S8x1024_S1x16_5_1008 : ∀ a, (![5, 1008] : Fin 2 → Nat) a + S1x16.size a ≤ S8x1024.size a
  inb_S8x1024_S1x16_6_1008 : ∀ a, (![6, 1008] : Fin 2 → Nat) a + S1x16.size a ≤ S8x1024.size a
  inb_S8x1024_S1x16_7_1008 : ∀ a, (![7, 1008] : Fin 2 → Nat) a + S1x16.size a ≤ S8x1024.size a
  hcc0_scratch5 : 0 + S_.numel ≤ 5
  hcc0_scratch6 : 1 + S_.numel ≤ 5
  hcc0_scratch7 : 2 + S_.numel ≤ 5
  hcc0_scratch8 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (8 * r.val))) a + S8x1024.size a ≤ S4096x1024.size a
  k0_t1_ok : k0_t1_loop.OK
  k0_off2_inb : ∀ i : grid0.Coords, ∀ a, (k0_off2 i) a + S8x1024.size a ≤ S4096x1024.size a
  k0_off3_inb : ∀ (i : grid0.Coords) (k0_t1 : Fin k0_t1_loop.trips), ∀ (k0_h1 : k0_cond1 k0_t1 = 1#1), ∀ a, (k0_off3 i) a + S8x1024.size a ≤ S4096x1024.size a
  k0_off4_inb : ∀ (i : grid0.Coords) (k0_t1 : Fin k0_t1_loop.trips), ∀ a, (k0_off4 i k0_t1) a + S8x1024.size a ≤ S4096x1024.size a
  k0_off5_inb : ∀ (i : grid0.Coords) (k0_t1 : Fin k0_t1_loop.trips), ∀ a, (k0_off5 i k0_t1) a + S8x1024.size a ≤ S4096x1024.size a
  k0_off6_inb : ∀ i : grid0.Coords, ∀ a, (k0_off6 i) a + S8x1024.size a ≤ S4096x1024.size a
  k0_off7_inb : ∀ (i : grid0.Coords) (k0_t1 : Fin k0_t1_loop.trips), ∀ (k0_h2 : k0_cond2 k0_t1 = 1#1), ∀ a, (k0_off7 i) a + S8x1024.size a ≤ S4096x1024.size a
  k0_off8_inb : ∀ (i : grid0.Coords) (k0_t1 : Fin k0_t1_loop.trips), ∀ a, (k0_off8 i k0_t1) a + S8x1024.size a ≤ S4096x1024.size a
  k0_off9_inb : ∀ (i : grid0.Coords) (k0_t1 : Fin k0_t1_loop.trips), ∀ a, (k0_off9 i k0_t1) a + S8x1024.size a ≤ S4096x1024.size a
  k0_off10_inb : ∀ i : grid0.Coords, ∀ a, (k0_off10 i) a + S8x1024.size a ≤ S4096x1024.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0

class Facts : Prop extends Facts₀ where

variable [Facts]
-- ==== ReferenceIdeal.lean ====
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S4096x1024, .f32⟩
  | .hbm, ⟨21, _⟩ => ⟨S4096x1024, .i1⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4096x1024_1 : S1024.BroadcastsInDim S4096x1024 (![1] : Fin 1 → Fin S4096x1024.rank)
  bcast_S_S4096x1024 : S_.BroadcastsInDim S4096x1024 (![] : Fin 0 → Fin S4096x1024.rank)
  gather_S4096x1024_S1024x1_S4096x1024_0_1_n_n_1_1_40961_wf : GatherDims.WF S4096x1024 S1024x1 S4096x1024 [0] [1] [] [1] [] 1 ![4096, 1]

variable [Facts₀]

def gather_S4096x1024_S1024x1_S4096x1024_0_1_n_n_1_1_40961 : GatherDims S4096x1024 S1024x1 S4096x1024 where
  offsetDims := [0]
  collapsedSliceDims := [1]
  operandBatchingDims := []
  startIndicesBatchingDims := []
  startIndexMap := [1]
  indexVectorDim := 1
  sliceSizes := ![4096, 1]
  wf := gather_S4096x1024_S1024x1_S4096x1024_0_1_n_n_1_1_40961_wf

class Facts : Prop extends Facts₀ where

variable [Facts]
-- ==== Proof.Spec.lean ====
/-
  The result both programs are compared with, as one function of the two argument arrays.

  The operand is a table of 4096 rows and 1024 columns, the index vector has 1024 entries; entry `j` of the index
  vector names the column of the operand that column `j` of the result copies, in every row:
  `result[b, j] = x[b, p[j]]`. An index is read as a natural number and reduced modulo the number of columns so that
  the function is total; where every index already names a column (`PermOK`) the reduction changes nothing.
-/
import Idealize.ShloMosaic.PureOps
import Idealize.ShloMosaic.Lib.ValueIdx

namespace Cert.Spec

open Idealize.ShloMosaic Idealize.ShloMosaic.ValueIdx

/-- The operand's and the result's shape. -/
abbrev SX : Shape := ⟨2, ![4096, 1024]⟩
/-- The index vector's shape. -/
abbrev SP : Shape := ⟨1, ![1024]⟩

/-- Every entry of the index vector names a column of the operand. -/
def PermOK (p : IVec SP 32) : Prop := ∀ j : SP.Idx, (p j).toNat < 1024

/-- The column entry `j` names. -/
def col (p : IVec SP 32) (j : Fin 1024) : Fin 1024 := ⟨(p (ix1 j)).toNat % 1024, Nat.mod_lt _ (by decide)⟩

theorem col_val_of_ok {p : IVec SP 32} (h : PermOK p) (j : Fin 1024) : (col p j).val = (p (ix1 j)).toNat :=
  Nat.mod_eq_of_lt (h _)

/-- Column `j` of the result is column `p j` of the operand, row by row. -/
def G {α : Type} (x : SX.Idx → α) (p : IVec SP 32) : SX.Idx → α :=
  fun i => x (ix2 (n0 := 4096) (n1 := 1024) (i 0) (col p (i 1)))

theorem G_apply {α : Type} (x : SX.Idx → α) (p : IVec SP 32) (b : Fin 4096) (j : Fin 1024) :
    G x p (ix2 b j) = x (ix2 b (col p j)) := rfl

end Cert.Spec
-- ==== Proof.KCommon.lean ====
/-
  What the kernel's run is stated over: the program as the launch theorem reads it, the ghost state (the launch's
  handshakes beside the transfers' counters: every copy of this kernel is a local copy a tile issues and waits for
  itself, so no schedule is needed), the three arrays' locations, a tile's place and its share of the work.

  The work is dealt by rows. Tile `s` of SparseCore `c` is worker `2 s + c` of 32 and owns rows
  `[128 (2 s + c), 128 (2 s + c) + 128)` of the result; it reads the same rows of the operand and the whole index
  vector. So a tile is handed a READ share of the operand and of the index vector (both whole: they are only read)
  and its own rows of the result outright, and hands back those rows holding the gathered columns
  (`Cert.Spec.G`).
-/
import proofs.«213046_g56676388438729_cont_9to1c4b_565_26_alg».proof.Kernel
import proofs.«213046_g56676388438729_cont_9to1c4b_565_26_alg».proof.Proof.Gen.Kernel
import proofs.«213046_g56676388438729_cont_9to1c4b_565_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model's separation-logic propositions. -/
abbrev MM (F : FTy → Type) : Type := MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The operand, the index vector, the result and the zero scalar, as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_cst

/-- Every entry of the launch memory's index vector names a column. -/
def PermOK : Prop := ∀ d : Dev nD, Cert.Spec.PermOK (m (pLoc d))

/-- What the result must hold: the operand's columns gathered. -/
def Gout (d : Dev nD) : Buf (Elt F) (oLoc d) := Cert.Spec.G (m (xLoc d)) (m (pLoc d))

/-! ## A tile's place and rows -/

abbrev cV (L : grid0.Coords) : Fin τ.nSC := (L 0).castLE hcore0
abbrev jV (L : grid0.Coords) : Fin τ.nSub := (L 1).castLE hsub0

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem oTR_inb (L : grid0.Coords) :
    ∀ a, (![256 * (L 1).val + 128 * (L 0).val, 0] : Fin 2 → Nat) a + (![128, 1024] : Fin 2 → Nat) a ≤ S4096x1024.size a := by
  have h0 : (L 0).val < 2 := (L 0).isLt
  have h1 : (L 1).val < 16 := (L 1).isLt
  intro a; fin_cases a <;> simp <;> omega

/-- The tile's 128 rows of the result: rows `[256 s + 128 c, 256 s + 128 c + 128)`, every column. -/
abbrev oTR (L : grid0.Coords) : Rect S4096x1024 :=
  Rect.unit (s := S4096x1024) ![256 * (L 1).val + 128 * (L 0).val, 0] ![128, 1024] (oTR_inb L)

/-- Those rows as elements of the result's buffer. -/
abbrev blk (d : Dev nD) (L : grid0.Coords) : Finset (Idx (oLoc d)) :=
  (Memref.whole main_v0_scv : Memref sig .scVector .hbm S4096x1024 .f32).view.setOn (oTR L).set

/-! ## The read shares -/

/-- SparseCore `c`'s read share of an array the TensorCore holds outright, and tile `i`'s share of that. -/
abbrev qC (c : Fin 2) : PosShare TreeShare := Transfers.shareTok fullShare 2 c
abbrev qT (c : Fin 2) (i : Fin 16) : PosShare TreeShare := Transfers.shareTok (qC c) 16 i

/-! ## What the handshakes carry -/

variable [FloatOps F]

/-- Tile `(c, i)`'s share going in (`f` the result's contents then) and coming back. -/
abbrev tileIn (d : Dev nD) (c : Fin 2) (i : Fin 16) : sProp (MM F) :=
  iprop((xLoc d ↦{qT c i} m (xLoc d)) ∗ (pLoc d ↦{qT c i} m (pLoc d)) ∗ oLoc d ↦[blk d (coordsV c i)]{fullShare} m (oLoc d))
abbrev tileOut (d : Dev nD) (c : Fin 2) (i : Fin 16) : sProp (MM F) :=
  iprop((xLoc d ↦{qT c i} m (xLoc d)) ∗ (pLoc d ↦{qT c i} m (pLoc d)) ∗ oLoc d ↦[blk d (coordsV c i)]{fullShare} Gout m d)

/-- SparseCore `c`'s share: its read share of the two arrays read, and its sixteen tiles' rows of the result. -/
abbrev coreIn (d : Dev nD) (c : Fin 2) : sProp (MM F) :=
  iprop((xLoc d ↦{qC c} m (xLoc d)) ∗ (pLoc d ↦{qC c} m (pLoc d))
    ∗ bigSep Finset.univ fun i : Fin 16 => oLoc d ↦[blk d (coordsV c i)]{fullShare} m (oLoc d))
abbrev coreOut (d : Dev nD) (c : Fin 2) : sProp (MM F) :=
  iprop((xLoc d ↦{qC c} m (xLoc d)) ∗ (pLoc d ↦{qC c} m (pLoc d))
    ∗ bigSep Finset.univ fun i : Fin 16 => oLoc d ↦[blk d (coordsV c i)]{fullShare} Gout m d)

/-- The one call: each SparseCore takes its share and brings it back with its rows of the result gathered; each tile
    likewise; nothing of the launch's is consumed by the kernel's own proof. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with
    | 0 => (inferInstance : BI.Storable (upEmb : UEmb _ (MM F)) (coreIn m d (Fin.cast nCore_zero c)))
  dn q d c := match q with
    | 0 => (inferInstance : BI.Storable (upEmb : UEmb _ (MM F)) (coreOut m d (Fin.cast nCore_zero c)))
  go q d c i := match q with
    | 0 => (inferInstance : BI.Storable (upEmb : UEmb _ (MM F)) (tileIn m d (Fin.cast nCore_zero c) (Fin.cast nSub_zero i)))
  td q d c i := match q with
    | 0 => (inferInstance : BI.Storable (upEmb : UEmb _ (MM F)) (tileOut m d (Fin.cast nCore_zero c) (Fin.cast nSub_zero i)))

end Cert.Proof.KK

end
-- ==== Proof.KTileLib.lean ====
/-
  Small facts the tile's run leans on.

  A gather of sixteen lanes from an 8 × 1024 scratch is in range when its row numbers are below 8 and its column
  numbers below 1024; the column numbers are sixteen consecutive entries of the index scratch, so they are below 1024
  as soon as every entry of that scratch is. And the indexed load is two steps: the whole scratch is read, then the
  named lanes are picked out of what was read.
-/
import proofs.«213046_g56676388438729_cont_9to1c4b_565_26_alg».proof.Proof.KCommon

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

/-- A row number below 8 beside a column number below 1024 names an element of an 8 × 1024 table. -/
theorem pair_lt (r idx : IVec S16 32) (hr : ∀ x, (r x).toNat < 8) (hi : ∀ x, (idx x).toNat < 1024) :
    ∀ a x, ((![r, idx] : Fin 2 → IVec S16 32) a x).toNat < S8x1024.size a := by
  intro a x
  match a with
  | ⟨0, _⟩ => exact hr x
  | ⟨1, _⟩ => exact hi x

/-- The eight gathers of one column slice (rows 0 to 7, one column vector) are all in range. -/
theorem chk_core (a3 a4 a5 a6 a7 a8 a9 a10 idx : IVec S16 32)
    (h3 : ∀ x, (a3 x).toNat < 8) (h4 : ∀ x, (a4 x).toNat < 8) (h5 : ∀ x, (a5 x).toNat < 8) (h6 : ∀ x, (a6 x).toNat < 8)
    (h7 : ∀ x, (a7 x).toNat < 8) (h8 : ∀ x, (a8 x).toNat < 8) (h9 : ∀ x, (a9 x).toNat < 8) (h10 : ∀ x, (a10 x).toNat < 8)
    (hi : ∀ x, (idx x).toNat < 1024) :
    (∀ a x, ((![a3, idx] : Fin 2 → IVec S16 32) a x).toNat < S8x1024.size a) ∧
    (∀ a x, ((![a4, idx] : Fin 2 → IVec S16 32) a x).toNat < S8x1024.size a) ∧
    (∀ a x, ((![a5, idx] : Fin 2 → IVec S16 32) a x).toNat < S8x1024.size a) ∧
    (∀ a x, ((![a6, idx] : Fin 2 → IVec S16 32) a x).toNat < S8x1024.size a) ∧
    (∀ a x, ((![a7, idx] : Fin 2 → IVec S16 32) a x).toNat < S8x1024.size a) ∧
    (∀ a x, ((![a8, idx] : Fin 2 → IVec S16 32) a x).toNat < S8x1024.size a) ∧
    (∀ a x, ((![a9, idx] : Fin 2 → IVec S16 32) a x).toNat < S8x1024.size a) ∧
    (∀ a x, ((![a10, idx] : Fin 2 → IVec S16 32) a x).toNat < S8x1024.size a) :=
  ⟨pair_lt a3 idx h3 hi, pair_lt a4 idx h4 hi, pair_lt a5 idx h5 hi, pair_lt a6 idx h6 hi,
   pair_lt a7 idx h7 hi, pair_lt a8 idx h8 hi, pair_lt a9 idx h9 hi, pair_lt a10 idx h10 hi⟩

/-- What a load of sixteen entries of the index scratch reads is below 1024 when every entry of the scratch is. -/
theorem readAt_lt (d : Dev nD) (L : grid0.Coords) (g : Buf (Elt F) ((V d (cV L) (jV L)).loc cc0_scratch0))
    (hg : ∀ j, (g j).toNat < 1024) (off : Fin 1 → Nat) (hoff : ∀ a, off a + S16.size a ≤ S1024.size a) (x : S16.Idx) :
    ((s0W).view.readAt (Elt F) (Rect.unit (s := S1024) off S16.size hoff).toLoadRect g x).toNat < 1024 := by
  rw [View.readAt_apply]
  exact hg _

variable [FloatOps F]

/-- The indexed load as the two steps it is: the whole scratch is read, and the lanes the index vectors name are
    picked out of what was read. -/
def loadIdxProg {Λ : Labels} {sc : Fin τ.nSC} {i : Fin τ.nSub} {s t : Shape} {e : EltTy}
    (base : Memref sig Kind.scVector .vmem s e) (idxs : Fin s.rank → IVec t 32)
    (h : ∀ a x, (idxs a x).toNat < s.size a) (hl : base.view.Loads) :
    Prog (TpuEff nD τ sig (Elt F) Λ (.scVector sc i)) (Vec F t e) :=
  .op (.load base (.whole s) (View.loadsAt_whole hl)) fun f => .ret (Idealize.ShloMosaic.loadIdx f idxs h)

@[sl_canon] theorem vectorLoadIdx_canon {Λ : Labels} {sc : Fin τ.nSC} {i : Fin τ.nSub} {s t : Shape} {e : EltTy}
    (base : Memref sig Kind.scVector .vmem s e) (idxs : Fin s.rank → IVec t 32)
    (h : ∀ a x, (idxs a x).toNat < s.size a) (hl : base.view.Loads) :
    (SparseCore.vectorLoadIdx (nD := nD) (τ := τ) (sig := sig) (F := F) (Λ := Λ) (p := .scVector sc i) base idxs h hl)
      = loadIdxProg (F := F) (Λ := Λ) (sc := sc) (i := i) base idxs h hl := rfl

end Cert.Proof.KK

end
-- ==== Proof.KGeom.lean ====
/-
  The rows of the result, dealt: the 32 tiles' blocks of 128 rows are pairwise disjoint and together are the whole
  table (tile `i` of SparseCore `c` has block number `2 i + c`), so the result held outright is its 32 blocks held
  separately; and an element lies in a tile's block exactly when its row does.
-/
import proofs.«213046_g56676388438729_cont_9to1c4b_565_26_alg».proof.Proof.KCommon

noncomputable section

namespace Cert.Proof.KK

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- Through the whole array's view a block is the rectangle's own set of indices. -/
theorem blk_eq (d : Dev nD) (L : grid0.Coords) : blk d L = (oTR L).set := by
  show ((oTR L).set.map (View.whole (main_v0_scv : Ref sig .scVector)).emb) = _
  exact Finset.map_refl

/-- An element of the result lies in the tile's block exactly when its row is one of the tile's 128. -/
theorem mem_blk_iff (d : Dev nD) (L : grid0.Coords) (y : Idx (oLoc d)) :
    y ∈ blk d L ↔ 256 * (L 1).val + 128 * (L 0).val ≤ (y 0).val ∧ (y 0).val < 256 * (L 1).val + 128 * (L 0).val + 128 := by
  rw [blk_eq]
  show y ∈ (oTR L).set ↔ _
  rw [Rect.mem_set_unit, Fin.forall_fin_two]
  -- the column condition `0 ≤ y 1 < 0 + 1024` holds of every index
  have h1 : ((y 1 : Fin _) : Nat) < 1024 := (y 1).isLt
  simp only [Matrix.cons_val_zero, Matrix.cons_val_one, Matrix.head_cons]
  omega

/-- Row `r` lies in block `(c, i)` exactly when `256 i + 128 c ≤ r < 256 i + 128 c + 128`. -/
theorem mem_blk_coordsV (d : Dev nD) (c : Fin 2) (i : Fin 16) (y : Idx (oLoc d)) :
    y ∈ blk d (coordsV c i) ↔ 256 * i.val + 128 * c.val ≤ (y 0).val ∧ (y 0).val < 256 * i.val + 128 * c.val + 128 :=
  mem_blk_iff d (coordsV c i) y

/-- Two blocks that share a row are the same block: `256 i + 128 c` with `c < 2` determines `i` and `c`. -/
theorem blk_disjoint (d : Dev nD) {c c' : Fin 2} {i i' : Fin 16} (h : c ≠ c' ∨ i ≠ i') :
    Disjoint (blk d (coordsV c i)) (blk d (coordsV c' i')) := by
  rw [Finset.disjoint_left]
  intro y hy hy'
  rw [mem_blk_coordsV] at hy hy'
  have hc : c.val < 2 := c.isLt
  have hc' : c'.val < 2 := c'.isLt
  have e : c = c' ∧ i = i' := ⟨Fin.ext (by omega), Fin.ext (by omega)⟩
  exact h.elim (fun k => k e.1) (fun k => k e.2)

/-- SparseCore `c`'s sixteen blocks together. -/
abbrev blkC (d : Dev nD) (c : Fin 2) : Finset (Idx (oLoc d)) :=
  (Finset.univ : Finset (Fin 16)).biUnion fun i => blk d (coordsV c i)

theorem blkC_disjoint (d : Dev nD) {c c' : Fin 2} (h : c ≠ c') : Disjoint (blkC d c) (blkC d c') := by
  rw [Finset.disjoint_biUnion_left]
  intro i _
  rw [Finset.disjoint_biUnion_right]
  intro i' _
  exact blk_disjoint d (Or.inl h)

/-- Every row `r < 4096` is in block `(c, i)` with `i = r / 256` and `c = (r % 256) / 128`. -/
theorem blkC_cover (d : Dev nD) : (Finset.univ : Finset (Fin 2)).biUnion (blkC d) = Finset.univ := by
  ext y
  have hy : ((y 0 : Fin _) : Nat) < 4096 := (y 0).isLt
  simp only [Finset.mem_biUnion, Finset.mem_univ, true_and, iff_true]
  refine ⟨⟨((y 0).val % 256) / 128, by omega⟩, ⟨(y 0).val / 256, by omega⟩, ?_⟩
  rw [mem_blk_coordsV]
  show 256 * ((y 0).val / 256) + 128 * (((y 0).val % 256) / 128) ≤ (y 0).val
    ∧ (y 0).val < 256 * ((y 0).val / 256) + 128 * (((y 0).val % 256) / 128) + 128
  omega

/-- The result held outright is the 32 blocks held separately, SparseCore by SparseCore, tile by tile. -/
theorem oPts_blocks (d : Dev nD) (f : Buf (Elt F) (oLoc d)) :
    (oLoc d ↦{fullShare} f : sProp (MM F))
      = bigSep Finset.univ fun c : Fin 2 => bigSep Finset.univ fun i : Fin 16 => oLoc d ↦[blk d (coordsV c i)]{fullShare} f := by
  -- one SparseCore's sixteen blocks, held together or apart
  have inner : ∀ c : Fin 2, (bigSep Finset.univ fun i : Fin 16 => (oLoc d ↦[blk d (coordsV c i)]{fullShare} f : sProp (MM F)))
      = (oLoc d ↦[blkC d c]{fullShare} f : sProp (MM F)) := fun c =>
    (pointsTo_biUnion (ℓ := oLoc d) Finset.univ (fun i : Fin 16 => blk d (coordsV c i))
      fun i _ i' _ h => blk_disjoint d (Or.inr h)).symm
  simp only [inner]
  -- the two SparseCores' halves, which are the whole table
  rw [← pointsTo_biUnion (ℓ := oLoc d) Finset.univ (blkC d) fun c _ c' _ h => blkC_disjoint d h, blkC_cover]

end Cert.Proof.KK

end
-- ==== Proof.KInv.lean ====
/-
  What holds between the trips of a tile's loop.

  Before trip `k` the two in-buffers' fetches of chunks `2k` and `2k + 1` are on their way (each a copy's flight
  holding its in-buffer at what lands and the operand's eight rows it reads, the rest of that read token beside it);
  before the first trip the out-buffers are free and the tile's rows of the result untouched; before a later trip the
  two out-buffers' copies of chunks `2k − 2` and `2k − 1` are on their way out (each a flight holding its eight-row
  window of the result and its out-buffer), the rest of the tile's rows held beside them, and every row of the chunks
  before `2k` already holds the gathered columns.
-/
import proofs.«213046_g56676388438729_cont_9to1c4b_565_26_alg».proof.Proof.KTileLib
import proofs.«213046_g56676388438729_cont_9to1c4b_565_26_alg».proof.Proof.KGeom

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

variable [FloatOps F]

/-- What the fetch of the index vector lands in the index scratch. -/
abbrev permPay (d : Dev nD) : S1024.Idx → Elt F EltTy.i32 :=
  ReadAs.same.apply (View.read (Elt F) (pW).view (m (pLoc d)))

/-- What the fetch of the eight rows at `off` lands in an in-buffer. -/
abbrev inPay (d : Dev nD) (off : Fin 2 → Nat) (h : ∀ a, off a + S8x1024.size a ≤ S4096x1024.size a) : S8x1024.Idx → Elt F EltTy.f32 :=
  ReadAs.same.apply (View.read (Elt F) ((xW).slice (Rect.unit (s := S4096x1024) off S8x1024.size h) (fun _ => rfl)).view (m (xLoc d)))

/-- The first `n` chunks of the tile's rows of `G` hold the gathered columns. -/
def RowsDone (d : Dev nD) (c : Fin (grid0.bound 0)) (i : Fin (grid0.bound 1)) (n : Nat) (G : Buf (Elt F) (oLoc d)) : Prop :=
  ∀ idx : Idx (oLoc d), 256 * i.val + 128 * c.val ≤ (idx 0).val → (idx 0).val < 256 * i.val + 128 * c.val + 8 * n →
    G idx = Gout m d idx

/-- Before the first trip. -/
def A0 (d : Dev nD) (c : Fin (grid0.bound 0)) (i : Fin (grid0.bound 1)) (q qp : PosShare TreeShare)
    (O : CellTallies nD τ sig (HIx 1)) (W : Waits sig (HIx 1)) (fo : Buf (Elt F) (oLoc d)) : sProp (MM F) :=
  iprop(Transfers.MayWaits (V d (cV (coordsV c i)) (jV (coordsV c i))) (none : HIx 1) O
    ∗ (∃ g0, (s0W).view.loc (V d (cV (coordsV c i)) (jV (coordsV c i))) ↦{fullShare} View.write (Elt F) (s0W).view g0 (permPay m d) Finset.univ)
    ∗ ((pW).view.loc (V d (cV (coordsV c i)) (jV (coordsV c i))) ↦{qp} m (pLoc d))
    ∗ semVal ((V d (cV (coordsV c i)) (jV (coordsV c i))), SemLoc.dma cc0_scoped0.sem) 0
    ∗ (∃ g1, Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view g1 (inPay m d (k0_off1 (coordsV c i) 0#32) (k0_off1_inb (coordsV c i) 0)) Finset.univ)
          ∗ ((xW).view.loc (V d (cV (coordsV c i)) (jV (coordsV c i))) ↦[((xW).slice (Rect.unit (s := S4096x1024) (k0_off1 (coordsV c i) 0#32) S8x1024.size (k0_off1_inb (coordsV c i) 0)) (fun _ => rfl)).view.set]{Transfers.shareTokN q 0} m (xLoc d))))
    ∗ ((xW).view.loc (V d (cV (coordsV c i)) (jV (coordsV c i))) ↦[Finset.univ \ ((xW).slice (Rect.unit (s := S4096x1024) (k0_off1 (coordsV c i) 0#32) S8x1024.size (k0_off1_inb (coordsV c i) 0)) (fun _ => rfl)).view.set]{Transfers.shareTokN q 0} m (xLoc d))
    ∗ (∃ g2, Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view g2 (inPay m d (k0_off1 (coordsV c i) 8#32) (k0_off1_inb (coordsV c i) 1)) Finset.univ)
          ∗ ((xW).view.loc (V d (cV (coordsV c i)) (jV (coordsV c i))) ↦[((xW).slice (Rect.unit (s := S4096x1024) (k0_off1 (coordsV c i) 8#32) S8x1024.size (k0_off1_inb (coordsV c i) 1)) (fun _ => rfl)).view.set]{Transfers.shareTokN q 1} m (xLoc d))))
    ∗ ((xW).view.loc (V d (cV (coordsV c i)) (jV (coordsV c i))) ↦[Finset.univ \ ((xW).slice (Rect.unit (s := S4096x1024) (k0_off1 (coordsV c i) 8#32) S8x1024.size (k0_off1_inb (coordsV c i) 1)) (fun _ => rfl)).view.set]{Transfers.shareTokN q 1} m (xLoc d))
    ∗ ((oW).view.loc (V d (cV (coordsV c i)) (jV (coordsV c i))) ↦[(oW).view.setOn (oTR (coordsV c i)).set]{fullShare} fo)
    ∗ (∃ g3, (s3W).view.loc (V d (cV (coordsV c i)) (jV (coordsV c i))) ↦{fullShare} g3)
    ∗ (∃ g4, (s4W).view.loc (V d (cV (coordsV c i)) (jV (coordsV c i))) ↦{fullShare} g4)
    ∗ semVal ((V d (cV (coordsV c i)) (jV (coordsV c i))), SemLoc.dma cc0_scratch7.sem) 0
    ∗ semVal ((V d (cV (coordsV c i)) (jV (coordsV c i))), SemLoc.dma cc0_scratch8.sem) 0
    ∗ ∃ W', ⌜∀ p ∈ W', p ∈ W ∨ p.2 = none⌝ ∗ owes (V d (cV (coordsV c i)) (jV (coordsV c i))) O W')

/-- After trip `kf` (before trip `kf + 1`, or after the loop). -/
def A1 (d : Dev nD) (c : Fin (grid0.bound 0)) (i : Fin (grid0.bound 1)) (q qp : PosShare TreeShare)
    (O : CellTallies nD τ sig (HIx 1)) (W : Waits sig (HIx 1)) (kf : Fin k0_t1_loop.trips) : sProp (MM F) :=
  iprop(Transfers.MayWaits (V d (cV (coordsV c i)) (jV (coordsV c i))) (none : HIx 1) O
    ∗ (∃ g0, (s0W).view.loc (V d (cV (coordsV c i)) (jV (coordsV c i))) ↦{fullShare} View.write (Elt F) (s0W).view g0 (permPay m d) Finset.univ)
    ∗ ((pW).view.loc (V d (cV (coordsV c i)) (jV (coordsV c i))) ↦{qp} m (pLoc d))
    ∗ semVal ((V d (cV (coordsV c i)) (jV (coordsV c i))), SemLoc.dma cc0_scoped0.sem) 0
    ∗ (∃ g1, Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view g1 (inPay m d (k0_off5 (coordsV c i) kf) (k0_off5_inb (coordsV c i) kf)) Finset.univ)
          ∗ ((xW).view.loc (V d (cV (coordsV c i)) (jV (coordsV c i))) ↦[((xW).slice (Rect.unit (s := S4096x1024) (k0_off5 (coordsV c i) kf) S8x1024.size (k0_off5_inb (coordsV c i) kf)) (fun _ => rfl)).view.set]{Transfers.shareTokN q 0} m (xLoc d))))
    ∗ ((xW).view.loc (V d (cV (coordsV c i)) (jV (coordsV c i))) ↦[Finset.univ \ ((xW).slice (Rect.unit (s := S4096x1024) (k0_off5 (coordsV c i) kf) S8x1024.size (k0_off5_inb (coordsV c i) kf)) (fun _ => rfl)).view.set]{Transfers.shareTokN q 0} m (xLoc d))
    ∗ (∃ g2, Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view g2 (inPay m d (k0_off9 (coordsV c i) kf) (k0_off9_inb (coordsV c i) kf)) Finset.univ)
          ∗ ((xW).view.loc (V d (cV (coordsV c i)) (jV (coordsV c i))) ↦[((xW).slice (Rect.unit (s := S4096x1024) (k0_off9 (coordsV c i) kf) S8x1024.size (k0_off9_inb (coordsV c i) kf)) (fun _ => rfl)).view.set]{Transfers.shareTokN q 1} m (xLoc d))))
    ∗ ((xW).view.loc (V d (cV (coordsV c i)) (jV (coordsV c i))) ↦[Finset.univ \ ((xW).slice (Rect.unit (s := S4096x1024) (k0_off9 (coordsV c i) kf) S8x1024.size (k0_off9_inb (coordsV c i) kf)) (fun _ => rfl)).view.set]{Transfers.shareTokN q 1} m (xLoc d))
    ∗ (∃ G : Buf (Elt F) (oLoc d), ⌜RowsDone m d c i (2 * kf.val + 2) G⌝
        ∗ (∃ c3, Transfers.Flight countersEmb (V d (cV (coordsV c i)) (jV (coordsV c i))) (SemLoc.dma cc0_scratch7.sem) (default : HIx 1) 262144
        iprop(((oW).view.loc (V d (cV (coordsV c i)) (jV (coordsV c i))) ↦[((oW).slice (Rect.unit (s := S4096x1024) (k0_off4 (coordsV c i) kf) S8x1024.size (k0_off4_inb (coordsV c i) kf)) (fun _ => rfl)).view.set]{fullShare} G)
          ∗ ((s3W).view.loc (V d (cV (coordsV c i)) (jV (coordsV c i))) ↦[(s3W).view.set]{fullShare} c3))
            ∗ ((s3W).view.loc (V d (cV (coordsV c i)) (jV (coordsV c i))) ↦[Finset.univ \ (s3W).view.set]{fullShare} c3))
        ∗ (∃ c4, Transfers.Flight countersEmb (V d (cV (coordsV c i)) (jV (coordsV c i))) (SemLoc.dma cc0_scratch8.sem) (default : HIx 1) 262144
        iprop(((oW).view.loc (V d (cV (coordsV c i)) (jV (coordsV c i))) ↦[((oW).slice (Rect.unit (s := S4096x1024) (k0_off8 (coordsV c i) kf) S8x1024.size (k0_off8_inb (coordsV c i) kf)) (fun _ => rfl)).view.set]{fullShare} G)
          ∗ ((s4W).view.loc (V d (cV (coordsV c i)) (jV (coordsV c i))) ↦[(s4W).view.set]{fullShare} c4))
            ∗ ((s4W).view.loc (V d (cV (coordsV c i)) (jV (coordsV c i))) ↦[Finset.univ \ (s4W).view.set]{fullShare} c4))
        ∗ ((oW).view.loc (V d (cV (coordsV c i)) (jV (coordsV c i))) ↦[((oW).view.setOn (oTR (coordsV c i)).set \ ((oW).slice (Rect.unit (s := S4096x1024) (k0_off4 (coordsV c i) kf) S8x1024.size (k0_off4_inb (coordsV c i) kf)) (fun _ => rfl)).view.set) \ ((oW).slice (Rect.unit (s := S4096x1024) (k0_off8 (coordsV c i) kf) S8x1024.size (k0_off8_inb (coordsV c i) kf)) (fun _ => rfl)).view.set]{fullShare} G))
    ∗ ∃ W', ⌜∀ p ∈ W', p ∈ W ∨ p.2 = none⌝ ∗ owes (V d (cV (coordsV c i)) (jV (coordsV c i))) O W')

/-- The loop's invariant. -/
def inv (d : Dev nD) (c : Fin (grid0.bound 0)) (i : Fin (grid0.bound 1)) (q qp : PosShare TreeShare)
    (O : CellTallies nD τ sig (HIx 1)) (W : Waits sig (HIx 1)) (fo : Buf (Elt F) (oLoc d)) (n : Nat) (_ : PUnit) : sProp (MM F) :=
  if n = 0 then A0 m d c i q qp O W fo
  else if h : n - 1 < k0_t1_loop.trips then A1 m d c i q qp O W ⟨n - 1, h⟩
  else iprop(False)

theorem inv_zero (d : Dev nD) (c : Fin (grid0.bound 0)) (i : Fin (grid0.bound 1)) (q qp : PosShare TreeShare)
    (O : CellTallies nD τ sig (HIx 1)) (W : Waits sig (HIx 1)) (fo : Buf (Elt F) (oLoc d)) (u : PUnit) : inv m d c i q qp O W fo 0 u = A0 m d c i q qp O W fo := if_pos rfl

theorem inv_succ (d : Dev nD) (c : Fin (grid0.bound 0)) (i : Fin (grid0.bound 1)) (q qp : PosShare TreeShare)
    (O : CellTallies nD τ sig (HIx 1)) (W : Waits sig (HIx 1)) (fo : Buf (Elt F) (oLoc d)) (kf : Fin k0_t1_loop.trips) (u : PUnit) :
    inv m d c i q qp O W fo (kf.val + 1) u = A1 m d c i q qp O W kf := by
  unfold inv
  rw [if_neg (Nat.succ_ne_zero _), dif_pos (show kf.val + 1 - 1 < k0_t1_loop.trips from by simpa using kf.isLt)]
  congr

end Cert.Proof.KK

end
-- ==== Proof.KClose.lean ====
/-
  A trip closed: what the run of one trip leaves is the invariant for the next. The only step that is not a
  regrouping: the window of the result that the first out-copy carries is held at the contents it had when that copy
  was issued, the rest at the contents after the second out-copy; the two agree on that window (the second copy
  writes other rows), so the window can be held at the later contents too.
-/
import proofs.«213046_g56676388438729_cont_9to1c4b_565_26_alg».proof.Proof.KInv

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

variable [FloatOps F]

theorem close_trip (d : Dev nD) (c : Fin (grid0.bound 0)) (i : Fin (grid0.bound 1)) (q qp : PosShare TreeShare)
    (O : CellTallies nD τ sig (HIx 1)) (W : Waits sig (HIx 1)) (kf : Fin k0_t1_loop.trips)
    (g0 : Buf (Elt F) ((V d (cV (coordsV c i)) (jV (coordsV c i))).loc cc0_scratch0)) (c1 : Buf (Elt F) ((V d (cV (coordsV c i)) (jV (coordsV c i))).loc cc0_scratch1)) (c2 : Buf (Elt F) ((V d (cV (coordsV c i)) (jV (coordsV c i))).loc cc0_scratch2))
    (c3 : Buf (Elt F) ((V d (cV (coordsV c i)) (jV (coordsV c i))).loc cc0_scratch3)) (c4 : Buf (Elt F) ((V d (cV (coordsV c i)) (jV (coordsV c i))).loc cc0_scratch4))
    (G0 G2 : Buf (Elt F) (oLoc d)) (Wn : Waits sig (HIx 1))
    (hWn : ∀ p ∈ Wn, p ∈ W ∨ p.2 = none)
    (hagree : ∀ idx ∈ ((oW).slice (Rect.unit (s := S4096x1024) (k0_off4 (coordsV c i) kf) S8x1024.size (k0_off4_inb (coordsV c i) kf)) (fun _ => rfl)).view.set, G0 idx = G2 idx)
    (hdone : RowsDone m d c i (2 * kf.val + 2) G2) :
    iprop((Transfers.MayWaits (V d (cV (coordsV c i)) (jV (coordsV c i))) (none : HIx 1) O : sProp (MM F))
      ∗ ((s0W).view.loc (V d (cV (coordsV c i)) (jV (coordsV c i))) ↦{fullShare} View.write (Elt F) (s0W).view g0 (permPay m d) Finset.univ)
      ∗ ((pW).view.loc (V d (cV (coordsV c i)) (jV (coordsV c i))) ↦{qp} m (pLoc d))
      ∗ semVal ((V d (cV (coordsV c i)) (jV (coordsV c i))), SemLoc.dma cc0_scoped0.sem) 0
      ∗ Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view c1 (inPay m d (k0_off5 (coordsV c i) kf) (k0_off5_inb (coordsV c i) kf)) Finset.univ)
          ∗ ((xW).view.loc (V d (cV (coordsV c i)) (jV (coordsV c i))) ↦[((xW).slice (Rect.unit (s := S4096x1024) (k0_off5 (coordsV c i) kf) S8x1024.size (k0_off5_inb (coordsV c i) kf)) (fun _ => rfl)).view.set]{Transfers.shareTokN q 0} m (xLoc d)))
      ∗ ((xW).view.loc (V d (cV (coordsV c i)) (jV (coordsV c i))) ↦[Finset.univ \ ((xW).slice (Rect.unit (s := S4096x1024) (k0_off5 (coordsV c i) kf) S8x1024.size (k0_off5_inb (coordsV c i) kf)) (fun _ => rfl)).view.set]{Transfers.shareTokN q 0} m (xLoc d))
      ∗ Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view c2 (inPay m d (k0_off9 (coordsV c i) kf) (k0_off9_inb (coordsV c i) kf)) Finset.univ)
          ∗ ((xW).view.loc (V d (cV (coordsV c i)) (jV (coordsV c i))) ↦[((xW).slice (Rect.unit (s := S4096x1024) (k0_off9 (coordsV c i) kf) S8x1024.size (k0_off9_inb (coordsV c i) kf)) (fun _ => rfl)).view.set]{Transfers.shareTokN q 1} m (xLoc d)))
      ∗ ((xW).view.loc (V d (cV (coordsV c i)) (jV (coordsV c i))) ↦[Finset.univ \ ((xW).slice (Rect.unit (s := S4096x1024) (k0_off9 (coordsV c i) kf) S8x1024.size (k0_off9_inb (coordsV c i) kf)) (fun _ => rfl)).view.set]{Transfers.shareTokN q 1} m (xLoc d))
      ∗ Transfers.Flight countersEmb (V d (cV (coordsV c i)) (jV (coordsV c i))) (SemLoc.dma cc0_scratch7.sem) (default : HIx 1) 262144
        iprop(((oW).view.loc (V d (cV (coordsV c i)) (jV (coordsV c i))) ↦[((oW).slice (Rect.unit (s := S4096x1024) (k0_off4 (coordsV c i) kf) S8x1024.size (k0_off4_inb (coordsV c i) kf)) (fun _ => rfl)).view.set]{fullShare} G0)
          ∗ ((s3W).view.loc (V d (cV (coordsV c i)) (jV (coordsV c i))) ↦[(s3W).view.set]{fullShare} c3))
      ∗ ((s3W).view.loc (V d (cV (coordsV c i)) (jV (coordsV c i))) ↦[Finset.univ \ (s3W).view.set]{fullShare} c3)
      ∗ Transfers.Flight countersEmb (V d (cV (coordsV c i)) (jV (coordsV c i))) (SemLoc.dma cc0_scratch8.sem) (default : HIx 1) 262144
        iprop(((oW).view.loc (V d (cV (coordsV c i)) (jV (coordsV c i))) ↦[((oW).slice (Rect.unit (s := S4096x1024) (k0_off8 (coordsV c i) kf) S8x1024.size (k0_off8_inb (coordsV c i) kf)) (fun _ => rfl)).view.set]{fullShare} G2)
          ∗ ((s4W).view.loc (V d (cV (coordsV c i)) (jV (coordsV c i))) ↦[(s4W).view.set]{fullShare} c4))
      ∗ ((s4W).view.loc (V d (cV (coordsV c i)) (jV (coordsV c i))) ↦[Finset.univ \ (s4W).view.set]{fullShare} c4)
      ∗ ((oW).view.loc (V d (cV (coordsV c i)) (jV (coordsV c i))) ↦[((oW).view.setOn (oTR (coordsV c i)).set \ ((oW).slice (Rect.unit (s := S4096x1024) (k0_off4 (coordsV c i) kf) S8x1024.size (k0_off4_inb (coordsV c i) kf)) (fun _ => rfl)).view.set) \ ((oW).slice (Rect.unit (s := S4096x1024) (k0_off8 (coordsV c i) kf) S8x1024.size (k0_off8_inb (coordsV c i) kf)) (fun _ => rfl)).view.set]{fullShare} G2)
      ∗ owes (V d (cV (coordsV c i)) (jV (coordsV c i))) O Wn)
      ⊢ A1 m d c i q qp O W kf := by
  -- the first out-copy's window, held at the contents when that copy was issued, is held at the later contents too:
  -- the two agree on the window
  rw [pointsTo_congr (ℓ := (oW).view.loc (V d (cV (coordsV c i)) (jV (coordsV c i)))) (f := G0) (g := G2) hagree]
  unfold A1
  iintro ⟨Hmw, Hs0, Hp, Hsem, Hf1, Hx1, Hf2, Hx2, Hf3, Hs3, Hf4, Hs4, Ho, HO⟩
  -- the rest is regrouping: each conjunct goes to its place, under the witnesses named
  isplitl [Hmw]; · iexact Hmw
  isplitl [Hs0]; · iexists g0; iexact Hs0
  isplitl [Hp]; · iexact Hp
  isplitl [Hsem]; · iexact Hsem
  isplitl [Hf1]; · iexists c1; iexact Hf1
  isplitl [Hx1]; · iexact Hx1
  isplitl [Hf2]; · iexists c2; iexact Hf2
  isplitl [Hx2]; · iexact Hx2
  isplitl [Hf3 Hs3 Hf4 Hs4 Ho]
  · iexists G2
    isplitr
    · ipureintro; exact hdone
    isplitl [Hf3 Hs3]
    · iexists c3
      isplitl [Hf3]; · iexact Hf3
      iexact Hs3
    isplitl [Hf4 Hs4]
    · iexists c4
      isplitl [Hf4]; · iexact Hf4
      iexact Hs4
    iexact Ho
  iexists Wn
  isplitr
  · ipureintro; exact hWn
  · iexact HO

end Cert.Proof.KK

end
-- ==== Proof.KWin.lean ====
/-
  Writes through a window of eight rows of the result.

  A tile's 128 rows of the result, rows `[b, b + 128)` with `b = 256 s + 128 c`, are filled eight rows at a time:
  window `n` (`n < 16`) is rows `[b + 8 n, b + 8 n + 8)`, every column. A write through a window puts the payload's
  value at each element of those eight rows and leaves every other element of the table as it was. So if the first `8 n`
  rows already hold the gathered columns and window `n` is written with the gathered values of its rows, the first
  `8 (n + 1)` rows hold them; a write through a later window does not disturb the rows done; and after sixteen windows
  the whole block holds the gathered columns.
-/
import proofs.«213046_g56676388438729_cont_9to1c4b_565_26_alg».proof.Proof.KGeom

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

/-- The first of a tile's 128 rows of the result. -/
abbrev rowBase (L : grid0.Coords) : Nat := 256 * (L 1).val + 128 * (L 0).val

/-- The window of eight whole rows of the result at offsets `off`. -/
abbrev win (off : Fin 2 → Nat) (h : ∀ a, off a + S8x1024.size a ≤ S4096x1024.size a) : Memref sig .scVector .hbm S8x1024 .f32 :=
  (oW).slice (Rect.unit (s := S4096x1024) off S8x1024.size h) (fun _ => rfl)

/-! ## Where a window lies -/

/-- The rows of a window are rows of the table. -/
theorem win_row_lt (off : Fin 2 → Nat) (h : ∀ a, off a + S8x1024.size a ≤ S4096x1024.size a) {b : Nat} (h0 : off 0 = b)
    (z : S8x1024.Idx) : b + (z 0).val < 4096 := by
  have h8 : off 0 + 8 ≤ 4096 := h 0
  have hz : ((z 0 : Fin _) : Nat) < 8 := (z 0).isLt
  omega

section
variable (off : Fin 2 → Nat) (h : ∀ a, off a + S8x1024.size a ≤ S4096x1024.size a)

/-- Element `z` of the window is the result's element at row `off 0 + z 0` … -/
theorem win_emb_row (z : S8x1024.Idx) : (((win off h).view.emb z) 0).val = off 0 + (z 0).val := by
  show off 0 + 1 * (z 0).val = off 0 + (z 0).val
  rw [Nat.one_mul]

/-- … and column `off 1 + z 1`. -/
theorem win_emb_col (z : S8x1024.Idx) : (((win off h).view.emb z) 1).val = off 1 + (z 1).val := by
  show off 1 + 1 * (z 1).val = off 1 + (z 1).val
  rw [Nat.one_mul]

/-- The window's elements are those of the rectangle it was cut at. -/
theorem win_set : (win off h).view.set = (Rect.unit (s := S4096x1024) off S8x1024.size h).set :=
  View.set_slice_whole (main_v0_scv : Ref sig .scVector) _

/-- Membership in a window, coordinate by coordinate. -/
theorem mem_win_iff' (d : Dev nD) (idx : Idx (oLoc d)) :
    idx ∈ (win off h).view.set ↔ (off 0 ≤ (idx 0).val ∧ (idx 0).val < off 0 + 8) ∧ (off 1 ≤ (idx 1).val ∧ (idx 1).val < off 1 + 1024) := by
  rw [win_set]
  show idx ∈ (Rect.unit (s := S4096x1024) off S8x1024.size h).set ↔ _
  rw [Rect.mem_set_unit, Fin.forall_fin_two]
  exact Iff.rfl

/-- A window that starts at column 0 holds whole rows: membership is a condition on the row alone. -/
theorem mem_win_iff (d : Dev nD) (h1 : off 1 = 0) (idx : Idx (oLoc d)) :
    idx ∈ (win off h).view.set ↔ off 0 ≤ (idx 0).val ∧ (idx 0).val < off 0 + 8 := by
  rw [mem_win_iff']
  have hc : ((idx 1 : Fin _) : Nat) < 1024 := (idx 1).isLt
  omega

/-- Element `z` of a window that starts at row `b`, column 0, named by its two coordinates. -/
theorem win_emb_eq_ix2 {b : Nat} (h0 : off 0 = b) (h1 : off 1 = 0) (z : S8x1024.Idx) :
    (win off h).view.emb z = ix2 (n0 := 4096) (n1 := 1024) ⟨b + (z 0).val, win_row_lt off h h0 z⟩ ⟨(z 1).val, (z 1).isLt⟩ := by
  refine funext (Fin.forall_fin_two.mpr ⟨Fin.ext ?_, Fin.ext ?_⟩)
  · exact (win_emb_row off h z).trans (by rw [h0])
  · exact (win_emb_col off h z).trans (by rw [h1, Nat.zero_add])

/-! ## A write through a window -/

/-- At an element of the window the write leaves the payload's value … -/
theorem write_win_emb (d : Dev nD) (G : Buf (Elt F) (oLoc d)) (w : S8x1024.Idx → Elt F .f32) (z : S8x1024.Idx) :
    View.write (Elt F) (win off h).view G w Finset.univ ((win off h).view.emb z) = w z :=
  (View.write_emb_of_mem (v := (win off h).view) (Val := Elt F) G w (Finset.mem_univ z)).trans rfl

/-- … and off the window it leaves what was there. -/
theorem write_win_off (d : Dev nD) (G : Buf (Elt F) (oLoc d)) (w : S8x1024.Idx → Elt F .f32) (idx : Idx (oLoc d))
    (hi : idx ∉ (win off h).view.set) :
    View.write (Elt F) (win off h).view G w Finset.univ idx = G idx :=
  View.write_of_not_mem G w Finset.univ (by rwa [View.setOn_univ])

/-- A write through a window changes nothing in rows outside the window's eight. -/
theorem write_win_of_row (d : Dev nD) (G : Buf (Elt F) (oLoc d)) (w : S8x1024.Idx → Elt F .f32) (idx : Idx (oLoc d))
    (hr : (idx 0).val < off 0 ∨ off 0 + 8 ≤ (idx 0).val) :
    View.write (Elt F) (win off h).view G w Finset.univ idx = G idx := by
  refine write_win_off off h d G w idx fun hm => ?_
  have := ((mem_win_iff' off h d idx).mp hm).1
  omega

end

/-- The payload of a copy out of the whole out-buffer is the out-buffer's contents. -/
theorem payload_eq (d : Dev nD) (L : grid0.Coords) (S3c : Buf (Elt F) ((V d (cV L) (jV L)).loc cc0_scratch3)) :
    ReadAs.same.apply (View.read (Elt F) (s3W).view S3c) = S3c := rfl

/-- Two windows on different rows: a write through one leaves the other's elements as they were. -/
theorem write_win_agree (d : Dev nD) {off0 off1 : Fin 2 → Nat}
    (h0 : ∀ a, off0 a + S8x1024.size a ≤ S4096x1024.size a) (h1 : ∀ a, off1 a + S8x1024.size a ≤ S4096x1024.size a)
    (hsep : off0 0 + 8 ≤ off1 0 ∨ off1 0 + 8 ≤ off0 0)
    (G : Buf (Elt F) (oLoc d)) (w : S8x1024.Idx → Elt F .f32) :
    ∀ idx ∈ (win off0 h0).view.set, View.write (Elt F) (win off1 h1).view G w Finset.univ idx = G idx := by
  intro idx hm
  have := ((mem_win_iff' off0 h0 d idx).mp hm).1
  exact write_win_of_row off1 h1 d G w idx (by omega)

/-! ## The rows written so far -/

variable (m : (ℓ : Loc nD τ sig) → Buf (Elt F) ℓ)

/-- The first `8 n` of the tile's rows hold the gathered columns. -/
def DoneUpTo (d : Dev nD) (L : grid0.Coords) (n : Nat) (G : Buf (Elt F) (oLoc d)) : Prop :=
  ∀ idx : Idx (oLoc d), rowBase L ≤ (idx 0).val → (idx 0).val < rowBase L + 8 * n → G idx = Gout m d idx

theorem doneUpTo_zero (d : Dev nD) (L : grid0.Coords) (G : Buf (Elt F) (oLoc d)) : DoneUpTo m d L 0 G := by
  intro idx hlo hhi
  omega

/-- Window `n` written with the gathered values of its eight rows: eight more rows are done. -/
theorem doneUpTo_step (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (h0 : off 0 = rowBase L + 8 * n) (h1 : off 1 = 0)
    (hw : ∀ z : S8x1024.Idx, w z = Gout m d ((win off h).view.emb z)) :
    DoneUpTo m d L (n + 1) (View.write (Elt F) (win off h).view G w Finset.univ) := by
  intro idx hlo hhi
  by_cases hm : idx ∈ (win off h).view.set
  · -- an element of the window is some `z` of the payload
    obtain ⟨z, -, rfl⟩ := Finset.mem_map.mp hm
    rw [write_win_emb, hw]
  · -- below the window: one of the rows done before
    rw [write_win_off off h d G w idx hm]
    rw [mem_win_iff off h d h1] at hm
    exact hn idx hlo (by omega)

/-- The same, the payload's values named by row and column. -/
theorem doneUpTo_step_ix2 (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (h0 : off 0 = rowBase L + 8 * n) (h1 : off 1 = 0)
    (hw : ∀ z : S8x1024.Idx, w z = Gout m d (ix2 (n0 := 4096) (n1 := 1024) ⟨rowBase L + 8 * n + (z 0).val, win_row_lt off h h0 z⟩ ⟨(z 1).val, (z 1).isLt⟩)) :
    DoneUpTo m d L (n + 1) (View.write (Elt F) (win off h).view G w Finset.univ) :=
  doneUpTo_step m d L h w hn h0 h1 fun z => (hw z).trans (congrArg (Gout m d) (win_emb_eq_ix2 off h h0 h1 z).symm)

/-- A write through a window at or after row `8 n` of the tile's leaves the first `8 n` rows done. -/
theorem doneUpTo_write_later (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (hoff : rowBase L + 8 * n ≤ off 0) :
    DoneUpTo m d L n (View.write (Elt F) (win off h).view G w Finset.univ) := by
  intro idx hlo hhi
  rw [write_win_of_row off h d G w idx (by omega)]
  exact hn idx hlo hhi

/-- A trip's two writes, through windows `n` and `n + 1` in that order: sixteen more rows are done. -/
theorem doneUpTo_step2 (d : Dev nD) (L : grid0.Coords) {n : Nat} {G : Buf (Elt F) (oLoc d)}
    {off0 off1 : Fin 2 → Nat}
    (h0 : ∀ a, off0 a + S8x1024.size a ≤ S4096x1024.size a) (h1 : ∀ a, off1 a + S8x1024.size a ≤ S4096x1024.size a)
    (w0 w1 : S8x1024.Idx → Elt F .f32)
    (hn : DoneUpTo m d L n G)
    (h00 : off0 0 = rowBase L + 8 * n) (h01 : off0 1 = 0)
    (h10 : off1 0 = rowBase L + 8 * (n + 1)) (h11 : off1 1 = 0)
    (hw0 : ∀ z : S8x1024.Idx, w0 z = Gout m d ((win off0 h0).view.emb z))
    (hw1 : ∀ z : S8x1024.Idx, w1 z = Gout m d ((win off1 h1).view.emb z)) :
    DoneUpTo m d L (n + 2)
      (View.write (Elt F) (win off1 h1).view (View.write (Elt F) (win off0 h0).view G w0 Finset.univ) w1 Finset.univ) :=
  doneUpTo_step m d L h1 w1 (doneUpTo_step m d L h0 w0 hn h00 h01 hw0) h10 h11 hw1

/-- The same, the payloads' values named by row and column. -/
theorem doneUpTo_step2_ix2 (d : Dev nD) (L : grid0.Coords) {n : Nat} {G : Buf (Elt F) (oLoc d)}
    {off0 off1 : Fin 2 → Nat}
    (h0 : ∀ a, off0 a + S8x1024.size a ≤ S4096x1024.size a) (h1 : ∀ a, off1 a + S8x1024.size a ≤ S4096x1024.size a)
    (w0 w1 : S8x1024.Idx → Elt F .f32)
    (hn : DoneUpTo m d L n G)
    (h00 : off0 0 = rowBase L + 8 * n) (h01 : off0 1 = 0)
    (h10 : off1 0 = rowBase L + 8 * (n + 1)) (h11 : off1 1 = 0)
    (hw0 : ∀ z : S8x1024.Idx, w0 z = Gout m d (ix2 (n0 := 4096) (n1 := 1024) ⟨rowBase L + 8 * n + (z 0).val, win_row_lt off0 h0 h00 z⟩ ⟨(z 1).val, (z 1).isLt⟩))
    (hw1 : ∀ z : S8x1024.Idx, w1 z = Gout m d (ix2 (n0 := 4096) (n1 := 1024) ⟨rowBase L + 8 * (n + 1) + (z 0).val, win_row_lt off1 h1 h10 z⟩ ⟨(z 1).val, (z 1).isLt⟩)) :
    DoneUpTo m d L (n + 2)
      (View.write (Elt F) (win off1 h1).view (View.write (Elt F) (win off0 h0).view G w0 Finset.univ) w1 Finset.univ) :=
  doneUpTo_step_ix2 m d L h1 w1 (doneUpTo_step_ix2 m d L h0 w0 hn h00 h01 hw0) h10 h11 hw1

/-! ## The end: all sixteen windows written -/

/-- With all `8 · 16 = 128` rows done the tile's block holds the gathered columns. -/
theorem doneUpTo_blk (d : Dev nD) (L : grid0.Coords) {G : Buf (Elt F) (oLoc d)} (hG : DoneUpTo m d L 16 G) :
    ∀ idx ∈ blk d L, G idx = Gout m d idx := by
  intro idx hi
  rw [mem_blk_iff] at hi
  exact hG idx hi.1 (by have := hi.2; omega)

/-- So the tile's rows, held with those contents, are held with the gathered columns. -/
theorem blk_pointsTo_done (d : Dev nD) (L : grid0.Coords) {G : Buf (Elt F) (oLoc d)} (hG : DoneUpTo m d L 16 G) :
    (oLoc d ↦[blk d L]{fullShare} G : sProp (MM F)) = oLoc d ↦[blk d L]{fullShare} Gout m d :=
  pointsTo_congr (doneUpTo_blk m d L hG)

end Cert.Proof.KK

end
-- ==== Proof.KValue.lean ====
/-
  The value of one gather phase of the tile.

  A phase reads an in scratch (an 8 × 1024 block of the operand's rows) and the index scratch (the 1024 entries of the
  index vector) and stores, strip by strip, into an out scratch: the strip at row `r`, columns `c … c + 15` holds the
  in scratch's row `r` at the sixteen columns entries `c … c + 15` of the index scratch name. `gatherAt` is that as one
  function of the two contents; a piece lemma per in scratch says one stored strip is `gatherAt` along its own
  rectangle; a certificate says the 512 strips cover the table; and together they say the out scratch reads
  `gatherAt` everywhere after the phase. The strips are also named in the order they are stored (`rectOf`), so that a
  phase's list of stores is recognised one store at a time and the cover is checked once, on the rectangles alone.
-/
import proofs.«213046_g56676388438729_cont_9to1c4b_565_26_alg».proof.Proof.KTileLib
import Idealize.ShloMosaic.Lib.ValueIdx
import Idealize.ShloMosaic.Lib.Pipeline.Value
import Idealize.ShloMosaic.Lib.Writes
import Idealize.ShloMosaic.Lib.Exec.Geometry

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

/-- One gather phase as a function of the in scratch's contents and the index scratch's: element `(b, j)` is the in
    scratch's row `b` at the column entry `j` of the index scratch names (reduced modulo the number of columns, so
    that the function is total). -/
def gatherAt (inC : S8x1024.Idx → Elt F .f32) (s0c : S1024.Idx → BitVec 32) : S8x1024.Idx → Elt F .f32 :=
  fun y => inC (ix2 (y 0) ⟨(s0c (ix1 (y 1))).toNat % 1024, Nat.mod_lt _ (by decide)⟩)

/-- The heart of one piece: sixteen lanes picked out of an 8 × 1024 table `RD` at row `r` and at the columns the sixteen
    entries `IDX` name, laid out as a 1 × 16 strip, are `gatherAt` read along the strip at row `r`, columns
    `c … c + 15`, when `IDX` is the index table's entries `c … c + 15` and each is below 1024. -/
theorem piece_core (RD INC : S8x1024.Idx → Elt F .f32) (S0C : S1024.Idx → BitVec 32) (VR IDX : IVec S16 32) (r c : Nat)
    (hRD : ∀ y, RD y = INC y) (hvr : ∀ x, (VR x).toNat = r) (hs0 : ∀ j, (S0C j).toNat < 1024)
    (hrc : ∀ a, (![r, c] : Fin 2 → Nat) a + S1x16.size a ≤ S8x1024.size a)
    (hIDX : ∀ x : S16.Idx, ∀ hlt : c + (x 0).val < 1024, IDX x = S0C (ix1 ⟨c + (x 0).val, hlt⟩))
    (h : ∀ a x, ((![VR, IDX] : Fin 2 → IVec S16 32) a x).toNat < S8x1024.size a) (hsc : S16.ShapeCasts S1x16)
    (x : S1x16.Idx) :
    shapeCast S1x16 (loadIdx RD ![VR, IDX] h) hsc x
      = gatherAt INC S0C ((Rect.unit (s := S8x1024) ![r, c] S1x16.size hrc).emb x) := by
  have hx0 : (x 0).val = 0 := by have : (x 0).val < 1 := (x 0).isLt; omega
  have hx1 : (x 1).val < 16 := (x 1).isLt
  have hc : c + 16 ≤ 1024 := hrc 1
  rw [Idealize.ShloMosaic.shapeCast_apply _ hsc x (ix1 ⟨(x 1).val, hx1⟩)
    (by rw [Shape.rowMajor_val_one, Shape.rowMajor_val_two]; show (x 1).val = (x 0).val * 16 + (x 1).val; omega)]
  unfold loadIdx gatherAt
  rw [hRD]
  have he1 : (Rect.unit (s := S8x1024) ![r, c] S1x16.size hrc).emb x 1 = ⟨c + (x 1).val, by show c + (x 1).val < 1024; omega⟩ :=
    Fin.ext (by rw [Rect.emb_apply]; show c + 1 * (x 1).val = c + (x 1).val; omega)
  have he0 : ((Rect.unit (s := S8x1024) ![r, c] S1x16.size hrc).emb x 0).val = r := by
    rw [Rect.emb_apply]; show r + 1 * (x 0).val = r; omega
  congr 1
  funext a
  refine Fin.ext ?_
  match a with
  | ⟨0, _⟩ =>
    show (VR _).toNat = _
    rw [hvr]; exact he0.symm
  | ⟨1, _⟩ =>
    show (IDX (ix1 ⟨(x 1).val, hx1⟩)).toNat
      = (S0C (ix1 ((Rect.unit (s := S8x1024) ![r, c] S1x16.size hrc).emb x 1))).toNat % 1024
    rw [hIDX _ (by show c + (x 1).val < 1024; omega), he1, Nat.mod_eq_of_lt (hs0 _)]
    rfl

variable [FloatOps F]

/-- A piece of a gather phase that reads the first in scratch: the sixteen lanes an indexed load picks out of it at row
    `r` and the columns entries `c … c + 15` of the index scratch name, as a 1 × 16 strip, are `gatherAt` along the
    strip at row `r`, columns `c … c + 15`. -/
theorem piece_s1 (INC : (s1W).view.ty.Contents (Elt F)) (S0C : (s0W).view.ty.Contents (Elt F)) (VR : IVec S16 32) (r c : Nat)
    (hvr : ∀ x, (VR x).toNat = r) (hs0 : ∀ j, (S0C j).toNat < 1024)
    (hc : ∀ a, (![c] : Fin 1 → Nat) a + S16.size a ≤ S1024.size a)
    (hrc : ∀ a, (![r, c] : Fin 2 → Nat) a + S1x16.size a ≤ S8x1024.size a)
    (h : ∀ a x, ((![VR, View.readAt (Elt F) (s0W).view (Rect.unit (s := S1024) ![c] S16.size hc).toLoadRect S0C] :
      Fin 2 → IVec S16 32) a x).toNat < S8x1024.size a) (hsc : S16.ShapeCasts S1x16) :
    ∀ x : S1x16.Idx,
      shapeCast S1x16 (loadIdx (View.readAt (Elt F) (s1W).view (LoadRect.whole S8x1024) INC)
        ![VR, View.readAt (Elt F) (s0W).view (Rect.unit (s := S1024) ![c] S16.size hc).toLoadRect S0C] h) hsc x
      = gatherAt INC S0C ((Rect.unit (s := S8x1024) ![r, c] S1x16.size hrc).emb x) :=
  piece_core _ INC S0C VR _ r c
    (fun y => congrArg INC (Rect.emb_whole_apply S8x1024 y)) hvr hs0 hrc
    (fun x hlt => congrArg S0C (funext fun (a : Fin 1) => Fin.ext (by
      obtain rfl : a = 0 := Subsingleton.elim _ _
      show c + 1 * (x 0).val = c + (x 0).val; omega))) h hsc

/-- A piece of a gather phase that reads the second in scratch: the sixteen lanes an indexed load picks out of it at row
    `r` and the columns entries `c … c + 15` of the index scratch name, as a 1 × 16 strip, are `gatherAt` along the
    strip at row `r`, columns `c … c + 15`. -/
theorem piece_s2 (INC : (s2W).view.ty.Contents (Elt F)) (S0C : (s0W).view.ty.Contents (Elt F)) (VR : IVec S16 32) (r c : Nat)
    (hvr : ∀ x, (VR x).toNat = r) (hs0 : ∀ j, (S0C j).toNat < 1024)
    (hc : ∀ a, (![c] : Fin 1 → Nat) a + S16.size a ≤ S1024.size a)
    (hrc : ∀ a, (![r, c] : Fin 2 → Nat) a + S1x16.size a ≤ S8x1024.size a)
    (h : ∀ a x, ((![VR, View.readAt (Elt F) (s0W).view (Rect.unit (s := S1024) ![c] S16.size hc).toLoadRect S0C] :
      Fin 2 → IVec S16 32) a x).toNat < S8x1024.size a) (hsc : S16.ShapeCasts S1x16) :
    ∀ x : S1x16.Idx,
      shapeCast S1x16 (loadIdx (View.readAt (Elt F) (s2W).view (LoadRect.whole S8x1024) INC)
        ![VR, View.readAt (Elt F) (s0W).view (Rect.unit (s := S1024) ![c] S16.size hc).toLoadRect S0C] h) hsc x
      = gatherAt INC S0C ((Rect.unit (s := S8x1024) ![r, c] S1x16.size hrc).emb x) :=
  piece_core _ INC S0C VR _ r c
    (fun y => congrArg INC (Rect.emb_whole_apply S8x1024 y)) hvr hs0 hrc
    (fun x hlt => congrArg S0C (funext fun (a : Fin 1) => Fin.ext (by
      obtain rfl : a = 0 := Subsingleton.elim _ _
      show c + 1 * (x 0).val = c + (x 0).val; omega))) h hsc

/-! ## The cover

A gather phase stores 512 strips of one row and sixteen columns, the column slices in ascending order and within a slice
the rows in ascending order, each store listed in front of the earlier ones: strip `(r, 16 k)` is entry
`8 (63 - k) + (7 - r)` of the list. The certificate cuts the 8 × 1024 table in halves along its columns down to the 64
slices of sixteen columns, then each slice in halves along its rows down to single rows, and names each strip's entry. -/

/-- The eight rows of column slice `k`, halved down to single rows. -/
def covRows (k : Nat) : LoadRect.Cov :=
  .split 0 4
    (.split 0 2 (.split 0 1 (.leaf ((63 - k) * 8 + 7)) (.leaf ((63 - k) * 8 + 6)))
      (.split 0 1 (.leaf ((63 - k) * 8 + 5)) (.leaf ((63 - k) * 8 + 4))))
    (.split 0 2 (.split 0 1 (.leaf ((63 - k) * 8 + 3)) (.leaf ((63 - k) * 8 + 2)))
      (.split 0 1 (.leaf ((63 - k) * 8 + 1)) (.leaf ((63 - k) * 8))))

/-- `2 ^ n` column slices from slice `k` on, halved down to single slices. -/
def covCols : Nat → Nat → LoadRect.Cov
  | 0, k => covRows k
  | n + 1, k => .split 1 (16 * 2 ^ n) (covCols n k) (covCols n (k + 2 ^ n))

/-- The certificate for the whole table: sixty-four slices. -/
def covAll : LoadRect.Cov := covCols 6 0

/-! ## What the out scratch reads after the phase -/

/-- After the stores of a gather phase — every piece `gatherAt` along its own rectangle, the pieces covering the table
    by the certificate — the out scratch reads `gatherAt` everywhere, whatever it held before. -/
theorem read_gather {sig' : RefSig} {κ : Kind} {sp : Space} (v : View sig' κ sp S8x1024 .f32) (f : v.ty.Contents (Elt F))
    (INC : S8x1024.Idx → Elt F .f32) (S0C : S1024.Idx → BitVec 32) (L : List (View.Piece (Elt F) S8x1024 .f32))
    (t : LoadRect.Cov) (hcov : LoadRect.covChk (L.map Sigma.fst) (LoadRect.whole S8x1024) t = true)
    (hp : ∀ p ∈ L, ∀ x : p.1.shape.Idx, p.2 x = gatherAt INC S0C (p.1.emb x)) :
    ∀ y : S8x1024.Idx, v.read (Elt F) (v.writes (Elt F) f L) y = gatherAt INC S0C y := by
  intro y
  refine View.read_writes_apply_of_pieces v f (gatherAt INC S0C) L hp y ?_
  obtain ⟨p, hm, hy⟩ := LoadRect.cover_of_covChk L (LoadRect.whole S8x1024) t hcov y
  exact ⟨p, hm, by rwa [show (LoadRect.whole S8x1024).idx y = y from Rect.emb_whole_apply S8x1024 y] at hy⟩

/-! ## The pieces of a list, one at a time -/

/-- A list of pieces all of which are `G` along their own rectangles stays so with one more such piece in front — stated
    with the new piece's rectangle and payload apart, so that a piece's obligation names its payload itself. -/
theorem pieces_cons {G : S8x1024.Idx → Elt F .f32} (r : Rect S8x1024) (w : r.shape.Idx → Elt F .f32)
    (L : List (View.Piece (Elt F) S8x1024 .f32)) (hw : ∀ x, w x = G (r.emb x))
    (hL : ∀ p ∈ L, ∀ x : p.1.shape.Idx, p.2 x = G (p.1.emb x)) :
    ∀ p ∈ (⟨r, w⟩ :: L : List (View.Piece (Elt F) S8x1024 .f32)), ∀ x : p.1.shape.Idx, p.2 x = G (p.1.emb x) :=
  List.forall_mem_cons.2 ⟨hw, hL⟩

/-- The empty list has no piece to ask about. -/
theorem pieces_nil {G : S8x1024.Idx → Elt F .f32} :
    ∀ p ∈ ([] : List (View.Piece (Elt F) S8x1024 .f32)), ∀ x : p.1.shape.Idx, p.2 x = G (p.1.emb x) :=
  fun _ h => absurd h List.not_mem_nil

/-! ## The strips in the order they are stored

Store number `n` of a phase (from zero) is row `n % 8` of column slice `n / 8`: the slices in ascending order, within a
slice the rows in ascending order. A list of pieces is the first `n` stores' when its rectangles are those, the latest
first, and every piece is `G` along its own rectangle. -/

/-- The rectangle of store number `n`: one row, sixteen columns, at row `n % 8` of column slice `n / 8`. -/
def rectOf (n : Nat) : Rect S8x1024 :=
  Rect.unit (s := S8x1024) ![n % 8, 16 * (n / 8 % 64)] S1x16.size
    (Rect.inb₂ (by show n % 8 + 1 ≤ 8; omega) (by show 16 * (n / 8 % 64) + 16 ≤ 1024; omega))

/-- The rectangles of the first `n` stores, the latest first. -/
def firstRects : Nat → List (Rect S8x1024)
  | 0 => []
  | n + 1 => rectOf n :: firstRects n

/-- The 512 stores of a phase cover the table: the certificate, checked. -/
theorem cov512 : LoadRect.covChk (firstRects 512) (LoadRect.whole S8x1024) covAll = true := by decide +kernel

/-- `L` is the first `n` stores of a phase whose every piece is `G` along its own rectangle. -/
def PiecesUpTo (G : S8x1024.Idx → Elt F .f32) (n : Nat) (L : List (View.Piece (Elt F) S8x1024 .f32)) : Prop :=
  L.map Sigma.fst = firstRects n ∧ ∀ p ∈ L, ∀ x : p.1.shape.Idx, p.2 x = G (p.1.emb x)

theorem upTo_nil {G : S8x1024.Idx → Elt F .f32} : PiecesUpTo G 0 [] :=
  ⟨rfl, pieces_nil⟩

/-- One more store: its rectangle is store number `n`'s and its payload is `G` along it. -/
theorem upTo_cons {G : S8x1024.Idx → Elt F .f32} (n : Nat) (w : (rectOf n).shape.Idx → Elt F .f32)
    (L : List (View.Piece (Elt F) S8x1024 .f32)) (hw : ∀ x, w x = G ((rectOf n).emb x)) (hL : PiecesUpTo G n L) :
    PiecesUpTo G (n + 1) (⟨rectOf n, w⟩ :: L) :=
  ⟨by rw [List.map_cons, hL.1]; rfl, pieces_cons (rectOf n) w L hw hL.2⟩

/-- After the 512 stores of a gather phase, each `gatherAt` along its own rectangle, the out scratch reads `gatherAt`
    everywhere, whatever it held before. -/
theorem read_gather_upTo {sig' : RefSig} {κ : Kind} {sp : Space} (v : View sig' κ sp S8x1024 .f32) (f : v.ty.Contents (Elt F))
    (INC : S8x1024.Idx → Elt F .f32) (S0C : S1024.Idx → BitVec 32) (L : List (View.Piece (Elt F) S8x1024 .f32))
    (h : PiecesUpTo (gatherAt INC S0C) 512 L) :
    ∀ y : S8x1024.Idx, v.read (Elt F) (v.writes (Elt F) f L) y = gatherAt INC S0C y :=
  read_gather v f INC S0C L covAll (h.1 ▸ cov512) h.2

end Cert.Proof.KK

end
-- ==== Proof.KBridge.lean ====
/-
  What a gather phase computes is the specified result on the window it is copied to.

  An in-buffer holds eight rows of the operand, rows `[r, r + 8)`, every column; the index scratch holds the index
  vector `p`. Element `z` of what the gather phase assembles is the in-buffer's element in row `z 0` and column
  `p (z 1) mod 1024`, which is the operand's element in row `r + z 0` and that column. The window of the result over
  the same rows has its element `z` in row `r + z 0`, column `z 1`, where the specified result is the operand's
  element in row `r + z 0`, column `p (z 1) mod 1024`. The two agree.
-/
import proofs.«213046_g56676388438729_cont_9to1c4b_565_26_alg».proof.Proof.KWin
import proofs.«213046_g56676388438729_cont_9to1c4b_565_26_alg».proof.Proof.KInv
import proofs.«213046_g56676388438729_cont_9to1c4b_565_26_alg».proof.Proof.KValue

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable (m : (ℓ : Loc nD τ sig) → Buf (Elt F) ℓ)

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

variable [FloatOps F]

/-! ## The eight rows an in-buffer is filled from -/

/-- Element `y` of the eight rows of the operand at `off` is the operand's element at row `off 0 + y 0` … -/
theorem xwin_emb_row (off : Fin 2 → Nat) (h : ∀ a, off a + S8x1024.size a ≤ S4096x1024.size a) (y : S8x1024.Idx) :
    ((((xW).slice (Rect.unit (s := S4096x1024) off S8x1024.size h) (fun _ => rfl)).view.emb y) 0).val = off 0 + (y 0).val := by
  show off 0 + 1 * (y 0).val = off 0 + (y 0).val
  rw [Nat.one_mul]

/-- … and column `off 1 + y 1`. -/
theorem xwin_emb_col (off : Fin 2 → Nat) (h : ∀ a, off a + S8x1024.size a ≤ S4096x1024.size a) (y : S8x1024.Idx) :
    ((((xW).slice (Rect.unit (s := S4096x1024) off S8x1024.size h) (fun _ => rfl)).view.emb y) 1).val = off 1 + (y 1).val := by
  show off 1 + 1 * (y 1).val = off 1 + (y 1).val
  rw [Nat.one_mul]

/-- What lands in an in-buffer is the operand, read at the eight rows' elements. -/
theorem inPay_apply (d : Dev nD) (off : Fin 2 → Nat) (h : ∀ a, off a + S8x1024.size a ≤ S4096x1024.size a) (y : S8x1024.Idx) :
    inPay m d off h y = m (xLoc d) (((xW).slice (Rect.unit (s := S4096x1024) off S8x1024.size h) (fun _ => rfl)).view.emb y) := rfl

/-- What lands in the index scratch is the index vector. -/
theorem permPay_eq (d : Dev nD) : permPay m d = m (pLoc d) := rfl

/-! ## The bridge -/

/-- Picking, in the eight rows fetched from `offI`, the columns the index vector names gives the specified result on
    the window of the same rows: both are the operand at row `off 0 + z 0`, column `p (z 1) mod 1024`. -/
theorem gather_Gout (d : Dev nD) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0) (z : S8x1024.Idx) :
    gatherAt (inPay m d offI hI) (permPay m d) z = Gout m d ((win offO hO).view.emb z) := by
  -- the window's element under `z` is in column `z 1`
  have hcol : ((win offO hO).view.emb z) 1 = z 1 := Fin.ext ((win_emb_col offO hO z).trans (by rw [eO, Nat.zero_add]))
  show m (xLoc d) (((xW).slice (Rect.unit (s := S4096x1024) offI S8x1024.size hI) (fun _ => rfl)).view.emb
        (ix2 (z 0) ⟨((m (pLoc d)) (ix1 (z 1))).toNat % 1024, Nat.mod_lt _ (by decide)⟩))
      = m (xLoc d) (ix2 (n0 := 4096) (n1 := 1024) (((win offO hO).view.emb z) 0) (Cert.Spec.col (m (pLoc d)) (((win offO hO).view.emb z) 1)))
  congr 1
  refine funext (Fin.forall_fin_two.mpr ⟨Fin.ext ?_, Fin.ext ?_⟩)
  · -- rows: `offI 0 + z 0 = offO 0 + z 0`
    exact (xwin_emb_row offI hI _).trans ((by rw [e0] : offI 0 + (z 0).val = offO 0 + (z 0).val).trans (win_emb_row offO hO z).symm)
  · -- columns: `0 + p (z 1) mod 1024` on both sides
    refine (xwin_emb_col offI hI _).trans ?_
    rw [eI, Nat.zero_add, hcol]
    rfl

/-- The same with the two scratch buffers' contents as the run leaves them: each a write of the whole buffer. -/
theorem gather_Gout_s1 (d : Dev nD) (L : grid0.Coords) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0)
    (g1 : (s1W).view.ty.Contents (Elt F)) (g0 : (s0W).view.ty.Contents (Elt F)) (z : S8x1024.Idx) :
    gatherAt (View.write (Elt F) (s1W).view g1 (inPay m d offI hI) Finset.univ)
        (View.write (Elt F) (s0W).view g0 (permPay m d) Finset.univ) z
      = Gout m d ((win offO hO).view.emb z) := by
  rw [show View.write (Elt F) (s1W).view g1 (inPay m d offI hI) Finset.univ = inPay m d offI hI from
        View.write_whole_univ (cc0_scratch1 : Ref sig .scVector) g1 _,
      show View.write (Elt F) (s0W).view g0 (permPay m d) Finset.univ = permPay m d from
        View.write_whole_univ (cc0_scratch0 : Ref sig .scVector) g0 _]
  exact gather_Gout m d offI offO hI hO e0 eI eO z

theorem gather_Gout_s2 (d : Dev nD) (L : grid0.Coords) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0)
    (g2 : (s2W).view.ty.Contents (Elt F)) (g0 : (s0W).view.ty.Contents (Elt F)) (z : S8x1024.Idx) :
    gatherAt (View.write (Elt F) (s2W).view g2 (inPay m d offI hI) Finset.univ)
        (View.write (Elt F) (s0W).view g0 (permPay m d) Finset.univ) z
      = Gout m d ((win offO hO).view.emb z) := by
  rw [show View.write (Elt F) (s2W).view g2 (inPay m d offI hI) Finset.univ = inPay m d offI hI from
        View.write_whole_univ (cc0_scratch2 : Ref sig .scVector) g2 _,
      show View.write (Elt F) (s0W).view g0 (permPay m d) Finset.univ = permPay m d from
        View.write_whole_univ (cc0_scratch0 : Ref sig .scVector) g0 _]
  exact gather_Gout m d offI offO hI hO e0 eI eO z

end Cert.Proof.KK

end
-- ==== Proof.KTripVal.lean ====
/-
  A trip of the tile's loop, in values.

  With `b` the tile's first row, trip `k` of eight copies the two out-buffers to windows `2 k` and `2 k + 1` of the
  result, rows `[b + 16 k, b + 16 k + 8)` and `[b + 16 k + 8, b + 16 k + 16)`. The out-buffers hold what the gather
  phases made of the in-buffers, and the in-buffers were filled from those same rows of the operand: before the loop
  (rows `b` and `b + 8`) for the first trip, and by the trip before (rows `b + 8 min (2 k' + 2, 15)` and
  `b + 8 min (2 k' + 3, 15)` with `k' = k − 1 ≤ 6`, which are `b + 16 k` and `b + 16 k + 8`) for a later one. So
  each trip brings sixteen more rows of the result to the gathered columns, the second write of a trip leaves the
  first window alone, and after the eighth trip all 128 rows of the tile hold them.
-/
import proofs.«213046_g56676388438729_cont_9to1c4b_565_26_alg».proof.Proof.KBridge

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable (m : (ℓ : Loc nD τ sig) → Buf (Elt F) ℓ)

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

variable [FloatOps F]

/-! ## The two ways of saying "the first `8 n` rows are done" -/

theorem rowsDone_iff (d : Dev nD) (c : Fin (grid0.bound 0)) (i : Fin (grid0.bound 1)) (n : Nat) (G : Buf (Elt F) (oLoc d)) :
    RowsDone m d c i n G ↔ DoneUpTo m d (coordsV c i) n G := Iff.rfl

/-! ## Where the printed offsets lie

  With `b` the tile's first row: trip `k` writes windows `2 k` and `2 k + 1`, rows `b + 16 k` and `b + 16 k + 8`;
  before the first trip the two in-buffers are filled from rows `b` and `b + 8`; trip `k` refills them from rows
  `b + 8 min (2 k + 2, 15)` and `b + 8 min (2 k + 3, 15)`, which for `k ≤ 6` are the rows trip `k + 1` writes. -/

section
variable (L : grid0.Coords) (k : Fin k0_t1_loop.trips)

theorem trips_lt : k.val < 8 := Nat.lt_of_lt_of_le k.isLt k0_t1_abs.2.1

theorem off4_row : (k0_off4 L k) 0 = rowBase L + 8 * (2 * k.val) := by
  rw [k0_off4_eq]
  show rowBase L + 16 * k.val = _
  omega
theorem off4_col : (k0_off4 L k) 1 = 0 := by rw [k0_off4_eq]; rfl

theorem off8_row : (k0_off8 L k) 0 = rowBase L + 8 * (2 * k.val + 1) := by
  rw [k0_off8_eq]
  show rowBase L + 16 * k.val + 8 = _
  omega
theorem off8_col : (k0_off8 L k) 1 = 0 := by rw [k0_off8_eq]; rfl

theorem off1_0_row : (k0_off1 L 0#32) 0 = rowBase L := by
  rw [show k0_off1 L 0#32 = _ from k0_off1_eq L 0]
  rfl
theorem off1_0_col : (k0_off1 L 0#32) 1 = 0 := by
  rw [show k0_off1 L 0#32 = _ from k0_off1_eq L 0]
  rfl
theorem off1_8_row : (k0_off1 L 8#32) 0 = rowBase L + 8 := by
  rw [show k0_off1 L 8#32 = _ from k0_off1_eq L 1]
  rfl
theorem off1_8_col : (k0_off1 L 8#32) 1 = 0 := by
  rw [show k0_off1 L 8#32 = _ from k0_off1_eq L 1]
  rfl

theorem off5_row (hk : k.val ≤ 6) : (k0_off5 L k) 0 = rowBase L + 8 * (2 * (k.val + 1)) := by
  rw [k0_off5_eq]
  show rowBase L + 8 * (min (2 * k.val + 2) 15) = _
  omega
theorem off5_col : (k0_off5 L k) 1 = 0 := by rw [k0_off5_eq]; rfl

theorem off9_row (hk : k.val ≤ 6) : (k0_off9 L k) 0 = rowBase L + 8 * (2 * (k.val + 1) + 1) := by
  rw [k0_off9_eq]
  show rowBase L + 8 * (min (2 * k.val + 3) 15) = _
  omega
theorem off9_col : (k0_off9 L k) 1 = 0 := by rw [k0_off9_eq]; rfl

end

/-! ## One trip's two writes -/

/-- A trip's two writes, the out-buffers holding what the gather phases made of in-buffers filled from the rows the
    trip writes: sixteen more rows are done. -/
theorem trip_done (d : Dev nD) (c : Fin (grid0.bound 0)) (i : Fin (grid0.bound 1)) (k : Fin k0_t1_loop.trips)
    (G : Buf (Elt F) (oLoc d)) (hG : DoneUpTo m d (coordsV c i) (2 * k.val) G)
    (off1 off2 : Fin 2 → Nat)
    (h1 : ∀ a, off1 a + S8x1024.size a ≤ S4096x1024.size a) (h2 : ∀ a, off2 a + S8x1024.size a ≤ S4096x1024.size a)
    (e1 : off1 0 = rowBase (coordsV c i) + 8 * (2 * k.val)) (e1c : off1 1 = 0)
    (e2 : off2 0 = rowBase (coordsV c i) + 8 * (2 * k.val + 1)) (e2c : off2 1 = 0)
    (g0 : (s0W).view.ty.Contents (Elt F)) (g1 : (s1W).view.ty.Contents (Elt F)) (g2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view g1 (inPay m d off1 h1) Finset.univ)
          (View.write (Elt F) (s0W).view g0 (permPay m d) Finset.univ) z)
    (h4 : ∀ z, (s4W).view.read (Elt F) S4 z
      = gatherAt (View.write (Elt F) (s2W).view g2 (inPay m d off2 h2) Finset.univ)
          (View.write (Elt F) (s0W).view g0 (permPay m d) Finset.univ) z) :
    DoneUpTo m d (coordsV c i) (2 * k.val + 2)
      (View.write (Elt F) (win (k0_off8 (coordsV c i) k) (k0_off8_inb (coordsV c i) k)).view
        (View.write (Elt F) (win (k0_off4 (coordsV c i) k) (k0_off4_inb (coordsV c i) k)).view G
          (ReadAs.same.apply (View.read (Elt F) (s3W).view S3)) Finset.univ)
        (ReadAs.same.apply (View.read (Elt F) (s4W).view S4)) Finset.univ) :=
  doneUpTo_step2 m d (coordsV c i) (k0_off4_inb (coordsV c i) k) (k0_off8_inb (coordsV c i) k) _ _ hG
    (off4_row (coordsV c i) k) (off4_col (coordsV c i) k) (off8_row (coordsV c i) k) (off8_col (coordsV c i) k)
    (fun z => (h3 z).trans (gather_Gout_s1 m d (coordsV c i) off1 (k0_off4 (coordsV c i) k) h1 (k0_off4_inb (coordsV c i) k)
      (e1.trans (off4_row (coordsV c i) k).symm) e1c (off4_col (coordsV c i) k) g1 g0 z))
    (fun z => (h4 z).trans (gather_Gout_s2 m d (coordsV c i) off2 (k0_off8 (coordsV c i) k) h2 (k0_off8_inb (coordsV c i) k)
      (e2.trans (off8_row (coordsV c i) k).symm) e2c (off8_col (coordsV c i) k) g2 g0 z))

/-- The first trip: the in-buffers were filled before the loop, from the tile's first sixteen rows. -/
theorem trip_done0 (d : Dev nD) (c : Fin (grid0.bound 0)) (i : Fin (grid0.bound 1)) (k : Fin k0_t1_loop.trips) (hk : k.val = 0)
    (fo : Buf (Elt F) (oLoc d))
    (g0 : (s0W).view.ty.Contents (Elt F)) (g1 : (s1W).view.ty.Contents (Elt F)) (g2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view g1 (inPay m d (k0_off1 (coordsV c i) 0#32) (k0_off1_inb (coordsV c i) 0)) Finset.univ)
          (View.write (Elt F) (s0W).view g0 (permPay m d) Finset.univ) z)
    (h4 : ∀ z, (s4W).view.read (Elt F) S4 z
      = gatherAt (View.write (Elt F) (s2W).view g2 (inPay m d (k0_off1 (coordsV c i) 8#32) (k0_off1_inb (coordsV c i) 1)) Finset.univ)
          (View.write (Elt F) (s0W).view g0 (permPay m d) Finset.univ) z) :
    RowsDone m d c i (2 * k.val + 2)
      (View.write (Elt F) (win (k0_off8 (coordsV c i) k) (k0_off8_inb (coordsV c i) k)).view
        (View.write (Elt F) (win (k0_off4 (coordsV c i) k) (k0_off4_inb (coordsV c i) k)).view fo
          (ReadAs.same.apply (View.read (Elt F) (s3W).view S3)) Finset.univ)
        (ReadAs.same.apply (View.read (Elt F) (s4W).view S4)) Finset.univ) :=
  trip_done m d c i k fo (by rw [hk]; exact doneUpTo_zero m d (coordsV c i) fo) _ _ _ _
    ((off1_0_row (coordsV c i)).trans (by omega)) (off1_0_col (coordsV c i))
    ((off1_8_row (coordsV c i)).trans (by omega)) (off1_8_col (coordsV c i))
    g0 g1 g2 S3 S4 h3 h4

/-- A later trip: the in-buffers were refilled by the trip before, from the rows this trip writes. -/
theorem trip_doneS (d : Dev nD) (c : Fin (grid0.bound 0)) (i : Fin (grid0.bound 1)) (k kf : Fin k0_t1_loop.trips)
    (hkk : k.val = kf.val + 1) (G : Buf (Elt F) (oLoc d)) (hG : RowsDone m d c i (2 * kf.val + 2) G)
    (g0 : (s0W).view.ty.Contents (Elt F)) (c1 : (s1W).view.ty.Contents (Elt F)) (c2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view c1 (inPay m d (k0_off5 (coordsV c i) kf) (k0_off5_inb (coordsV c i) kf)) Finset.univ)
          (View.write (Elt F) (s0W).view g0 (permPay m d) Finset.univ) z)
    (h4 : ∀ z, (s4W).view.read (Elt F) S4 z
      = gatherAt (View.write (Elt F) (s2W).view c2 (inPay m d (k0_off9 (coordsV c i) kf) (k0_off9_inb (coordsV c i) kf)) Finset.univ)
          (View.write (Elt F) (s0W).view g0 (permPay m d) Finset.univ) z) :
    RowsDone m d c i (2 * k.val + 2)
      (View.write (Elt F) (win (k0_off8 (coordsV c i) k) (k0_off8_inb (coordsV c i) k)).view
        (View.write (Elt F) (win (k0_off4 (coordsV c i) k) (k0_off4_inb (coordsV c i) k)).view G
          (ReadAs.same.apply (View.read (Elt F) (s3W).view S3)) Finset.univ)
        (ReadAs.same.apply (View.read (Elt F) (s4W).view S4)) Finset.univ) := by
  have hk8 : k.val < 8 := trips_lt k
  have hkf : kf.val ≤ 6 := by omega
  have hG' : DoneUpTo m d (coordsV c i) (2 * k.val) G := by
    rw [show 2 * k.val = 2 * kf.val + 2 by omega]; exact hG
  exact trip_done m d c i k G hG' _ _ _ _
    ((off5_row (coordsV c i) kf hkf).trans (by rw [hkk])) (off5_col (coordsV c i) kf)
    ((off9_row (coordsV c i) kf hkf).trans (by rw [hkk])) (off9_col (coordsV c i) kf)
    g0 c1 c2 S3 S4 h3 h4

/-! ## The second write of a trip leaves the first window alone -/

theorem trip_agree (d : Dev nD) (c : Fin (grid0.bound 0)) (i : Fin (grid0.bound 1)) (k : Fin k0_t1_loop.trips)
    (G : Buf (Elt F) (oLoc d)) (w0 w1 : S8x1024.Idx → Elt F .f32) :
    ∀ idx ∈ (win (k0_off4 (coordsV c i) k) (k0_off4_inb (coordsV c i) k)).view.set,
      View.write (Elt F) (win (k0_off4 (coordsV c i) k) (k0_off4_inb (coordsV c i) k)).view G w0 Finset.univ idx
        = View.write (Elt F) (win (k0_off8 (coordsV c i) k) (k0_off8_inb (coordsV c i) k)).view
            (View.write (Elt F) (win (k0_off4 (coordsV c i) k) (k0_off4_inb (coordsV c i) k)).view G w0 Finset.univ) w1 Finset.univ idx :=
  fun idx hm => (write_win_agree d (k0_off4_inb (coordsV c i) k) (k0_off8_inb (coordsV c i) k)
    (Or.inl (by rw [off4_row, off8_row]; omega)) _ w1 idx hm).symm

/-! ## After the last trip -/

theorem final_blk (d : Dev nD) (c : Fin (grid0.bound 0)) (i : Fin (grid0.bound 1)) (G : Buf (Elt F) (oLoc d))
    (hG : RowsDone m d c i (2 * 7 + 2) G) :
    (((oW).view.loc (V d (cV (coordsV c i)) (jV (coordsV c i))) ↦[(oW).view.setOn (oTR (coordsV c i)).set]{fullShare} G) : sProp (MM F))
      = ((oW).view.loc (V d (cV (coordsV c i)) (jV (coordsV c i))) ↦[(oW).view.setOn (oTR (coordsV c i)).set]{fullShare} Gout m d) :=
  blk_pointsTo_done m d (coordsV c i) hG

/-! ## The last trip's two windows and the rest of the block, joined

  Windows 14 and 15 are rows `[b + 112, b + 120)` and `[b + 120, b + 128)` of the tile's `[b, b + 128)`: the first lies
  in the block, the second in the block less the first. -/

theorem win14_subset (d : Dev nD) (c : Fin (grid0.bound 0)) (i : Fin (grid0.bound 1)) (k : Fin k0_t1_loop.trips) (hk : k.val = 7) :
    (win (k0_off4 (coordsV c i) k) (k0_off4_inb (coordsV c i) k)).view.set ⊆ blk d (coordsV c i) := by
  intro idx hm
  rw [mem_win_iff _ _ d (off4_col (coordsV c i) k), off4_row] at hm
  rw [mem_blk_iff]
  have e : rowBase (coordsV c i) = 256 * ((coordsV c i) 1).val + 128 * ((coordsV c i) 0).val := rfl
  omega

theorem win15_subset (d : Dev nD) (c : Fin (grid0.bound 0)) (i : Fin (grid0.bound 1)) (k : Fin k0_t1_loop.trips) (hk : k.val = 7) :
    (win (k0_off8 (coordsV c i) k) (k0_off8_inb (coordsV c i) k)).view.set
      ⊆ blk d (coordsV c i) \ (win (k0_off4 (coordsV c i) k) (k0_off4_inb (coordsV c i) k)).view.set := by
  intro idx hm
  rw [mem_win_iff _ _ d (off8_col (coordsV c i) k), off8_row] at hm
  rw [Finset.mem_sdiff, mem_blk_iff, mem_win_iff _ _ d (off4_col (coordsV c i) k), off4_row]
  have e : rowBase (coordsV c i) = 256 * ((coordsV c i) 1).val + 128 * ((coordsV c i) 0).val := rfl
  omega

/-- The two last windows and the rest of the tile's block, held separately at the same contents, are the block held
    at those contents. -/
theorem final_join (d : Dev nD) (c : Fin (grid0.bound 0)) (i : Fin (grid0.bound 1)) (h7 : 7 < k0_t1_loop.trips)
    (G : Buf (Elt F) (oLoc d)) :
    iprop(((oW).view.loc (V d (cV (coordsV c i)) (jV (coordsV c i)))
          ↦[(win (k0_off4 (coordsV c i) ⟨7, h7⟩) (k0_off4_inb (coordsV c i) ⟨7, h7⟩)).view.set]{fullShare} G)
      ∗ ((oW).view.loc (V d (cV (coordsV c i)) (jV (coordsV c i)))
          ↦[(win (k0_off8 (coordsV c i) ⟨7, h7⟩) (k0_off8_inb (coordsV c i) ⟨7, h7⟩)).view.set]{fullShare} G)
      ∗ ((oW).view.loc (V d (cV (coordsV c i)) (jV (coordsV c i)))
          ↦[((oW).view.setOn (oTR (coordsV c i)).set \ (win (k0_off4 (coordsV c i) ⟨7, h7⟩) (k0_off4_inb (coordsV c i) ⟨7, h7⟩)).view.set)
              \ (win (k0_off8 (coordsV c i) ⟨7, h7⟩) (k0_off8_inb (coordsV c i) ⟨7, h7⟩)).view.set]{fullShare} G))
      ⊢ ((oW).view.loc (V d (cV (coordsV c i)) (jV (coordsV c i))) ↦[(oW).view.setOn (oTR (coordsV c i)).set]{fullShare} G : sProp (MM F)) :=
  (sep_mono_right (pointsTo_split_subset (win15_subset d c i ⟨7, h7⟩ rfl)).2).trans
    (pointsTo_split_subset (win14_subset d c i ⟨7, h7⟩ rfl)).2

end Cert.Proof.KK

end
-- ==== Proof.KTileRun.lean ====
/-
  One tile's task, run. The index vector is fetched whole; then the tile's 128 rows of the operand pass through eight
  at a time: while the columns of one chunk are gathered from an in-buffer into an out-buffer, the next chunk is on its
  way into the other in-buffer and the previous chunk on its way out of the other out-buffer. Every copy is waited for
  before its buffer is touched again, so what is gathered is what was fetched, and what leaves is what was gathered.
-/
import proofs.«213046_g56676388438729_cont_9to1c4b_565_26_alg».proof.Proof.KTileLib
import proofs.«213046_g56676388438729_cont_9to1c4b_565_26_alg».proof.Proof.KClose
import proofs.«213046_g56676388438729_cont_9to1c4b_565_26_alg».proof.Proof.KTripVal

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

variable [FloatOps F]

omit [FloatOps F] in
/-- One more recorded wait at the kernel's own index keeps the recorded waits of the launch's kind. -/
theorem waits_insert {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

set_option maxHeartbeats 0 in
/-- One tile's task, its resources spelt out: the operand under the two read tokens its two in-buffers' copies complete
    on, the index vector under a read share, the tile's 128 rows of the result, the five scratch buffers, the five DMA
    semaphores at zero. It ends with everything back, the tile's rows of the result holding the gathered columns. -/
theorem tile_run (hpre : PermOK m) (d : Dev nD) (c : Fin (grid0.bound 0)) (i : Fin (grid0.bound 1))
    (q qp : PosShare TreeShare) (O : CellTallies nD τ sig (HIx 1)) (W : Waits sig (HIx 1)) (hO : ∀ g, O g none = 0)
    (fo : Buf (Elt F) (oLoc d))
    (f0 : Buf (Elt F) ((V d (cV (coordsV c i)) (jV (coordsV c i))).loc cc0_scratch0)) (f1 : Buf (Elt F) ((V d (cV (coordsV c i)) (jV (coordsV c i))).loc cc0_scratch1))
    (f2 : Buf (Elt F) ((V d (cV (coordsV c i)) (jV (coordsV c i))).loc cc0_scratch2)) (f3 : Buf (Elt F) ((V d (cV (coordsV c i)) (jV (coordsV c i))).loc cc0_scratch3))
    (f4 : Buf (Elt F) ((V d (cV (coordsV c i)) (jV (coordsV c i))).loc cc0_scratch4)) :
    iprop((levAts (K (F := F)).L (K (F := F)).lev : sProp (MM F))
        ∗ ((xW).view.loc (V d (cV (coordsV c i)) (jV (coordsV c i))) ↦{Transfers.shareTokN q 0} m (xLoc d))
        ∗ ((xW).view.loc (V d (cV (coordsV c i)) (jV (coordsV c i))) ↦{Transfers.shareTokN q 1} m (xLoc d))
        ∗ ((pW).view.loc (V d (cV (coordsV c i)) (jV (coordsV c i))) ↦{qp} m (pLoc d))
        ∗ ((oW).view.loc (V d (cV (coordsV c i)) (jV (coordsV c i))) ↦[(oW).view.setOn (oTR (coordsV c i)).set]{fullShare} fo)
        ∗ ((s0W).view.loc (V d (cV (coordsV c i)) (jV (coordsV c i))) ↦{fullShare} f0)
        ∗ ((s1W).view.loc (V d (cV (coordsV c i)) (jV (coordsV c i))) ↦{fullShare} f1)
        ∗ ((s2W).view.loc (V d (cV (coordsV c i)) (jV (coordsV c i))) ↦{fullShare} f2)
        ∗ ((s3W).view.loc (V d (cV (coordsV c i)) (jV (coordsV c i))) ↦{fullShare} f3)
        ∗ ((s4W).view.loc (V d (cV (coordsV c i)) (jV (coordsV c i))) ↦{fullShare} f4)
        ∗ semVal ((V d (cV (coordsV c i)) (jV (coordsV c i))), SemLoc.dma cc0_scratch5.sem) 0
        ∗ semVal ((V d (cV (coordsV c i)) (jV (coordsV c i))), SemLoc.dma cc0_scratch6.sem) 0
        ∗ semVal ((V d (cV (coordsV c i)) (jV (coordsV c i))), SemLoc.dma cc0_scratch7.sem) 0
        ∗ semVal ((V d (cV (coordsV c i)) (jV (coordsV c i))), SemLoc.dma cc0_scratch8.sem) 0
        ∗ semVal ((V d (cV (coordsV c i)) (jV (coordsV c i))), SemLoc.dma cc0_scoped0.sem) 0
        ∗ owes (V d (cV (coordsV c i)) (jV (coordsV c i))) O W)
      ⊢ wp frame (wpE (defs₀ (F := F)) 𝒱₀ (V d (cV (coordsV c i)) (jV (coordsV c i))) none) Set.univ
          (cc0__permute_body (coordsV c i) xW (Memref.isWhole_whole _) pW (Memref.isWhole_whole _) oW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0)
          fun _ => iprop(((xW).view.loc (V d (cV (coordsV c i)) (jV (coordsV c i))) ↦{Transfers.shareTokN q 0} m (xLoc d))
            ∗ ((xW).view.loc (V d (cV (coordsV c i)) (jV (coordsV c i))) ↦{Transfers.shareTokN q 1} m (xLoc d))
            ∗ ((pW).view.loc (V d (cV (coordsV c i)) (jV (coordsV c i))) ↦{qp} m (pLoc d))
            ∗ ((oW).view.loc (V d (cV (coordsV c i)) (jV (coordsV c i))) ↦[(oW).view.setOn (oTR (coordsV c i)).set]{fullShare} Gout m d)
            ∗ (∃ f, (s0W).view.loc (V d (cV (coordsV c i)) (jV (coordsV c i))) ↦{fullShare} f)
            ∗ (∃ f, (s1W).view.loc (V d (cV (coordsV c i)) (jV (coordsV c i))) ↦{fullShare} f)
            ∗ (∃ f, (s2W).view.loc (V d (cV (coordsV c i)) (jV (coordsV c i))) ↦{fullShare} f)
            ∗ (∃ f, (s3W).view.loc (V d (cV (coordsV c i)) (jV (coordsV c i))) ↦{fullShare} f)
            ∗ (∃ f, (s4W).view.loc (V d (cV (coordsV c i)) (jV (coordsV c i))) ↦{fullShare} f)
            ∗ semVal ((V d (cV (coordsV c i)) (jV (coordsV c i))), SemLoc.dma cc0_scratch5.sem) 0
            ∗ semVal ((V d (cV (coordsV c i)) (jV (coordsV c i))), SemLoc.dma cc0_scratch6.sem) 0
            ∗ semVal ((V d (cV (coordsV c i)) (jV (coordsV c i))), SemLoc.dma cc0_scratch7.sem) 0
            ∗ semVal ((V d (cV (coordsV c i)) (jV (coordsV c i))), SemLoc.dma cc0_scratch8.sem) 0
            ∗ semVal ((V d (cV (coordsV c i)) (jV (coordsV c i))), SemLoc.dma cc0_scoped0.sem) 0
            ∗ ∃ W', ⌜∀ p ∈ W', p ∈ W ∨ p.2 = none⌝ ∗ owes (V d (cV (coordsV c i)) (jV (coordsV c i))) O W') := by
  unfold cc0__permute_body
  iintro ⟨#Hlv, Hx0, Hx1, Hp, Ho, Hs0, Hs1, Hs2, Hs3, Hs4, Hm5, Hm6, Hm7, Hm8, Hm9, HO⟩
  ihave Hmw := ((K (F := F)).mayWaits_none (thr := (V d (cV (coordsV c i)) (jV (coordsV c i)))) hO) $$ Hlv
  sl_exec_parts
  sl_for (inv m d c i q qp O W fo) $$ [Hmw Hs0 Hp Hm9 Hm5 Hx0 Hm6 Hx1 Ho Hs3 Hs4 Hm7 Hm8 HO]
  case region =>
    intro k acc
    have hk8 : k.val < 8 := Nat.lt_of_lt_of_le k.isLt k0_t1_abs.2.1
    have hv3 : ∀ x, ((broadcast S16 (0#32) : IVec S16 32) x).toNat < 8 := fun _ => (by decide : (BitVec.ofNat 32 0).toNat < 8)
    have hv4 : ∀ x, ((broadcast S16 (1#32) : IVec S16 32) x).toNat < 8 := fun _ => (by decide : (BitVec.ofNat 32 1).toNat < 8)
    have hv5 : ∀ x, ((broadcast S16 (2#32) : IVec S16 32) x).toNat < 8 := fun _ => (by decide : (BitVec.ofNat 32 2).toNat < 8)
    have hv6 : ∀ x, ((broadcast S16 (3#32) : IVec S16 32) x).toNat < 8 := fun _ => (by decide : (BitVec.ofNat 32 3).toNat < 8)
    have hv7 : ∀ x, ((broadcast S16 (4#32) : IVec S16 32) x).toNat < 8 := fun _ => (by decide : (BitVec.ofNat 32 4).toNat < 8)
    have hv8 : ∀ x, ((broadcast S16 (5#32) : IVec S16 32) x).toNat < 8 := fun _ => (by decide : (BitVec.ofNat 32 5).toNat < 8)
    have hv9 : ∀ x, ((broadcast S16 (6#32) : IVec S16 32) x).toNat < 8 := fun _ => (by decide : (BitVec.ofNat 32 6).toNat < 8)
    have hv10 : ∀ x, ((broadcast S16 (7#32) : IVec S16 32) x).toNat < 8 := fun _ => (by decide : (BitVec.ofNat 32 7).toNat < 8)
    by_cases hk : k.val = 0
    · have hc1 : ¬ k0_cond1 k = 1#1 := by
        have : k = ⟨0, by decide⟩ := Fin.ext hk
        subst this; decide
      have hc2 : ¬ k0_cond2 k = 1#1 := by
        have : k = ⟨0, by decide⟩ := Fin.ext hk
        subst this; decide
      have e0 : inv m d c i q qp O W fo k.val acc = A0 m d c i q qp O W fo := by rw [hk]; exact Cert.Proof.KK.inv_zero m d c i q qp O W fo acc
      rw [e0]
      unfold A0
      iintro ⟨#Hmw, ⟨%g0, Hs0⟩, Hp, Hm9, ⟨%g1, Hm5⟩, Hx0, ⟨%g2, Hm6⟩, Hx1, Ho, ⟨%g3, Hs3⟩, ⟨%g4, Hs4⟩, Hm7, Hm8, %W', %hW', HO⟩
      have hs0 : ∀ j, (View.write (Elt F) (s0W).view g0 (permPay m d) Finset.univ j).toNat < 1024 := by
        intro j
        simp only [Memref.view_whole, View.write_whole_univ]
        exact hpre d j
      sl_exec_parts (disch := exact chk_core _ _ _ _ _ _ _ _ _ hv3 hv4 hv5 hv6 hv7 hv8 hv9 hv10 (readAt_lt d (coordsV c i) _ hs0 _ _))
      sl_step
      rw [Cert.Proof.KK.inv_succ m d c i q qp O W fo k]
      iapply (close_trip m d c i q qp O W k _ _ _ _ _ _ _ _ ?hWn ?hagree ?hdone) $$ [Hs0 Hp Hm9 Hm5 Hx0 Hm6 Hx1 Hm7 Hs3 Hm8 Hs4 Ho HO]
      rotate_left 3
      isplitr; · iexact Hmw
      isplitl [Hs0]; · iexact Hs0
      isplitl [Hp]; · iexact Hp
      isplitl [Hm9]; · iexact Hm9
      isplitl [Hm5]; · iexact Hm5
      isplitl [Hx0]; · iexact Hx0
      isplitl [Hm6]; · iexact Hm6
      isplitl [Hx1]; · iexact Hx1
      isplitl [Hm7]; · iexact Hm7
      isplitl [Hs3]; · iexact Hs3
      isplitl [Hm8]; · iexact Hm8
      isplitl [Hs4]; · iexact Hs4
      isplitl [Ho]; · iexact Ho
      iexact HO
      · first
          | exact waits_insert (waits_insert hW' _) _
          | exact waits_insert (waits_insert (waits_insert (waits_insert hW' _) _) _) _
          | exact waits_insert (waits_insert (waits_insert hW' _) _) _
      · exact trip_agree d c i k _ _ _
      · exact trip_done0 m d c i k hk fo g0 g1 g2 _ _
            (by
              refine read_gather_upTo (s3W).view _ (View.write (Elt F) (s1W).view g1 (inPay m d (k0_off1 (coordsV c i) 0#32) (k0_off1_inb (coordsV c i) 0)) Finset.univ) (View.write (Elt F) (s0W).view g0 (permPay m d) Finset.univ) _ ?_
              repeat (refine upTo_cons _ _ _ ?_ ?_; exact piece_s1 _ _ _ _ _ (by intro _; rfl) hs0 _ _ _ _)
              exact upTo_nil)
            (by
              refine read_gather_upTo (s4W).view _ (View.write (Elt F) (s2W).view g2 (inPay m d (k0_off1 (coordsV c i) 8#32) (k0_off1_inb (coordsV c i) 1)) Finset.univ) (View.write (Elt F) (s0W).view g0 (permPay m d) Finset.univ) _ ?_
              repeat (refine upTo_cons _ _ _ ?_ ?_; exact piece_s2 _ _ _ _ _ (by intro _; rfl) hs0 _ _ _ _)
              exact upTo_nil)
    · have hcc : ∀ k' : Fin k0_t1_loop.trips, k'.val ≠ 0 → k0_cond1 k' = 1#1 ∧ k0_cond2 k' = 1#1 := by decide
      have hc1 : k0_cond1 k = 1#1 := (hcc k hk).1
      have hc2 : k0_cond2 k = 1#1 := (hcc k hk).2
      obtain ⟨kf, hkk⟩ : ∃ kf : Fin k0_t1_loop.trips, k.val = kf.val + 1 :=
        ⟨⟨k.val - 1, lt_of_le_of_lt (Nat.sub_le _ _) k.isLt⟩, by simp only []; omega⟩
      have e1 : inv m d c i q qp O W fo k.val acc = A1 m d c i q qp O W kf := by rw [hkk]; exact Cert.Proof.KK.inv_succ m d c i q qp O W fo kf acc
      rw [e1]
      unfold A1
      iintro ⟨#Hmw, ⟨%g0, Hs0⟩, Hp, Hm9, ⟨%g1, Hm5⟩, Hx0, ⟨%g2, Hm6⟩, Hx1, ⟨%G, %hG, ⟨%c3, Hm7, Hs3⟩, ⟨%c4, Hm8, Hs4⟩, Ho⟩, %W', %hW', HO⟩
      have hdisj : Disjoint ((oW).slice (Rect.unit (s := S4096x1024) (k0_off4 (coordsV c i) k) S8x1024.size (k0_off4_inb (coordsV c i) k)) (fun _ => rfl)).view.set
          ((oW).slice (Rect.unit (s := S4096x1024) (k0_off8 (coordsV c i) kf) S8x1024.size (k0_off8_inb (coordsV c i) kf)) (fun _ => rfl)).view.set := by
        refine Finset.disjoint_left.mpr fun idx h1 h2 => ?_
        have a1 := (mem_win_iff (k0_off4 (coordsV c i) k) (k0_off4_inb (coordsV c i) k) d (off4_col (coordsV c i) k) idx).mp h1
        have a2 := (mem_win_iff (k0_off8 (coordsV c i) kf) (k0_off8_inb (coordsV c i) kf) d (off8_col (coordsV c i) kf) idx).mp h2
        rw [off4_row] at a1
        rw [off8_row] at a2
        omega
      have hs0 : ∀ j, (View.write (Elt F) (s0W).view g0 (permPay m d) Finset.univ j).toNat < 1024 := by
        intro j
        simp only [Memref.view_whole, View.write_whole_univ]
        exact hpre d j
      sl_exec_parts (disch := exact chk_core _ _ _ _ _ _ _ _ _ hv3 hv4 hv5 hv6 hv7 hv8 hv9 hv10 (readAt_lt d (coordsV c i) _ hs0 _ _))
      sl_step
      rw [Cert.Proof.KK.inv_succ m d c i q qp O W fo k]
      iapply (close_trip m d c i q qp O W k _ _ _ _ _ _ _ _ ?_ ?_ ?_) $$ [Hs0 Hp Hm9 Hm5 Hx0 Hm6 Hx1 Hm7 Hs3 Hm8 Hs4 Ho HO]
      rotate_left 3
      isplitr; · iexact Hmw
      isplitl [Hs0]; · iexact Hs0
      isplitl [Hp]; · iexact Hp
      isplitl [Hm9]; · iexact Hm9
      isplitl [Hm5]; · iexact Hm5
      isplitl [Hx0]; · iexact Hx0
      isplitl [Hm6]; · iexact Hm6
      isplitl [Hx1]; · iexact Hx1
      isplitl [Hm7]; · iexact Hm7
      isplitl [Hs3]; · iexact Hs3
      isplitl [Hm8]; · iexact Hm8
      isplitl [Hs4]; · iexact Hs4
      isplitl [Ho]; · iexact Ho
      iexact HO
      · first
          | exact waits_insert (waits_insert hW' _) _
          | exact waits_insert (waits_insert (waits_insert (waits_insert hW' _) _) _) _
          | exact waits_insert (waits_insert (waits_insert hW' _) _) _
      · exact trip_agree d c i k _ _ _
      · exact trip_doneS m d c i k kf hkk G hG g0 g1 g2 _ _
            (by
              refine read_gather_upTo (s3W).view _ (View.write (Elt F) (s1W).view g1 (inPay m d (k0_off5 (coordsV c i) kf) (k0_off5_inb (coordsV c i) kf)) Finset.univ) (View.write (Elt F) (s0W).view g0 (permPay m d) Finset.univ) _ ?_
              repeat (refine upTo_cons _ _ _ ?_ ?_; exact piece_s1 _ _ _ _ _ (by intro _; rfl) hs0 _ _ _ _)
              exact upTo_nil)
            (by
              refine read_gather_upTo (s4W).view _ (View.write (Elt F) (s2W).view g2 (inPay m d (k0_off9 (coordsV c i) kf) (k0_off9_inb (coordsV c i) kf)) Finset.univ) (View.write (Elt F) (s0W).view g0 (permPay m d) Finset.univ) _ ?_
              repeat (refine upTo_cons _ _ _ ?_ ?_; exact piece_s2 _ _ _ _ _ (by intro _; rfl) hs0 _ _ _ _)
              exact upTo_nil)
  · rw [Cert.Proof.KK.inv_zero]; unfold A0
    isplitr; · iexact Hmw
    isplitl [Hs0]; · iexists _; iexact Hs0
    isplitl [Hp]; · iexact Hp
    isplitl [Hm9]; · iexact Hm9
    isplitl [Hm5]; · iexists _; iexact Hm5
    isplitl [Hx0]; · iexact Hx0
    isplitl [Hm6]; · iexists _; iexact Hm6
    isplitl [Hx1]; · iexact Hx1
    isplitl [Ho]; · iexact Ho
    isplitl [Hs3]; · iexists _; iexact Hs3
    isplitl [Hs4]; · iexists _; iexact Hs4
    isplitl [Hm7]; · iexact Hm7
    isplitl [Hm8]; · iexact Hm8
    iexists (insert (SemLoc.dma cc0_scoped0.sem, (default : HIx 1)) W); isplitr
    · ipureintro; exact waits_insert (fun p hp => .inl hp) _
    · iexact HO
  iintro %acc HI
  have e8 : inv m d c i q qp O W fo (Scf.trips k0_t1_loop.lb k0_t1_loop.ub k0_t1_loop.st) acc = A1 m d c i q qp O W ⟨7, by decide⟩ :=
    Cert.Proof.KK.inv_succ m d c i q qp O W fo ⟨7, by decide⟩ acc
  ihave HI' := (Entails.of_eq e8) $$ HI
  unfold A1
  icases HI' with ⟨-, ⟨%g0, Hs0⟩, Hp, Hm9, ⟨%g1, Hm5⟩, Hx0, ⟨%g2, Hm6⟩, Hx1, ⟨%G, %hG, ⟨%c3, Hm7, Hs3⟩, ⟨%c4, Hm8, Hs4⟩, Ho⟩, %W', %hW', HO⟩
  sl_exec
  sl_step
  isplitl [Hx0]; · iexact Hx0
  isplitl [Hx1]; · iexact Hx1
  isplitl [Hp]; · iexact Hp
  isplitl [Ho Hm7_dst Hm8_dst]
  · iapply (Entails.of_eq (final_blk m d c i G hG))
    iapply (final_join d c i _ G)
    isplitl [Hm7_dst]; · iexact Hm7_dst
    isplitl [Hm8_dst]; · iexact Hm8_dst
    iexact Ho
  isplitl [Hs0]; · iexists _; iexact Hs0
  isplitl [Hm5_dst]; · iexists _; iexact Hm5_dst
  isplitl [Hm6_dst]; · iexists _; iexact Hm6_dst
  isplitl [Hs3]; · iexists _; iexact Hs3
  isplitl [Hs4]; · iexists _; iexact Hs4
  isplitl [Hm5]; · iexact Hm5
  isplitl [Hm6]; · iexact Hm6
  isplitl [Hm7]; · iexact Hm7
  isplitl [Hm8]; · iexact Hm8
  isplitl [Hm9]; · iexact Hm9
  iexists _; isplitr
  rotate_left 1
  · iexact HO
  · ipureintro; exact waits_insert (waits_insert (waits_insert (waits_insert hW' _) _) _) _

end Cert.Proof.KK

end
-- ==== Proof.KTile.lean ====
/-
  One tile's task: the index vector fetched whole, then the tile's 128 rows of the operand eight at a time through two
  pairs of scratch buffers — while one chunk's columns are gathered into an out buffer, the next chunk is on its way in
  and the previous one on its way out —, every copy waited for before its buffer is touched again.
-/
import proofs.«213046_g56676388438729_cont_9to1c4b_565_26_alg».proof.Proof.KTileRun

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x1024 EltTy.f32)
local notation "pW" => (Memref.whole Cert.Kernel.main_arg1_scv : Memref Cert.Kernel.sig Kind.scVector Space.hbm Cert.Kernel.S1024 EltTy.i32)
local notation "oW" => (Memref.whole Cert.Kernel.main_v0_scv : Memref Cert.Kernel.sig Kind.scVector Space.hbm Cert.Kernel.S4096x1024 EltTy.f32)
local notation "s0W" => (Memref.whole Cert.Kernel.cc0_scratch0 : Memref Cert.Kernel.sig Kind.scVector Space.vmem Cert.Kernel.S1024 EltTy.i32)
local notation "s1W" => (Memref.whole Cert.Kernel.cc0_scratch1 : Memref Cert.Kernel.sig Kind.scVector Space.vmem Cert.Kernel.S8x1024 EltTy.f32)
local notation "s2W" => (Memref.whole Cert.Kernel.cc0_scratch2 : Memref Cert.Kernel.sig Kind.scVector Space.vmem Cert.Kernel.S8x1024 EltTy.f32)
local notation "s3W" => (Memref.whole Cert.Kernel.cc0_scratch3 : Memref Cert.Kernel.sig Kind.scVector Space.vmem Cert.Kernel.S8x1024 EltTy.f32)
local notation "s4W" => (Memref.whole Cert.Kernel.cc0_scratch4 : Memref Cert.Kernel.sig Kind.scVector Space.vmem Cert.Kernel.S8x1024 EltTy.f32)

/-! ## A read share cut in three -/

omit [FloatOps F] in
/-- A share of an array is its remainder after two read tokens, and the two tokens. -/
theorem toks2_split {ℓ : Loc nD τ sig} {f : Buf (Elt F) ℓ} (q : PosShare TreeShare) :
    (ℓ ↦{q} f : sProp (MM F))
      ⊢ iprop((ℓ ↦{Transfers.shareDrop q 2} f) ∗ (ℓ ↦{Transfers.shareTokN q 0} f) ∗ (ℓ ↦{Transfers.shareTokN q 1} f)) := by
  refine (Transfers.pointsTo_toks_split q 2).trans ?_
  rw [show (Finset.univ : Finset (Fin 2)) = {0, 1} by decide, SparseCore.bigSep_insert' (by decide), bigSep_singleton]
  exact BI.Entails.refl _

omit [FloatOps F] in
theorem toks2_join {ℓ : Loc nD τ sig} {f : Buf (Elt F) ℓ} (q : PosShare TreeShare) :
    iprop((ℓ ↦{Transfers.shareDrop q 2} f) ∗ (ℓ ↦{Transfers.shareTokN q 0} f) ∗ (ℓ ↦{Transfers.shareTokN q 1} f))
      ⊢ (ℓ ↦{q} f : sProp (MM F)) := by
  refine BI.Entails.trans ?_ (Transfers.pointsTo_toks_join q 2)
  rw [show (Finset.univ : Finset (Fin 2)) = {0, 1} by decide, SparseCore.bigSep_insert' (by decide), bigSep_singleton]
  exact BI.Entails.refl _

/-! ## The tile's own storage, by name -/

/-- The kernel's five scratch buffers, and its five DMA semaphores. -/
abbrev scr5 : Finset (Ref sig .scVector) := {cc0_scratch0, cc0_scratch1, cc0_scratch2, cc0_scratch3, cc0_scratch4}
abbrev sem5 : Finset (DmaSem sig) := {cc0_scratch5.sem, cc0_scratch6.sem, cc0_scratch7.sem, cc0_scratch8.sem, cc0_scoped0.sem}

/-- A tile's name for a buffer, as a buffer of the device: different names, different buffers. -/
def refEmb (c : Fin τ.nSC) (i : Fin τ.nSub) : Ref sig .scVector ↪ DevRef τ sig :=
  ⟨(Proc.scVector c i).devRef, Proc.devRef_injective _⟩
/-- A thread's DMA semaphore as a semaphore of the mesh: different semaphores, different cells. -/
def semEmb (thr : Thread nD τ) : DmaSem sig ↪ GSem nD τ sig :=
  ⟨fun s => (thr, SemLoc.dma s), fun _ _ e => SemLoc.dma.inj (Prod.mk.inj e).2⟩

omit [FloatOps F] in
/-- A tile's own buffers are the five scratch buffers, each at some contents, and the rest. -/
theorem ownBufs_five (d : Dev nD) (c : Fin τ.nSC) (i : Fin τ.nSub) :
    (ownBufs (V d c i) : sProp (MM F))
      = iprop(((∃ f, (V d c i).loc cc0_scratch0 ↦{fullShare} f) ∗ (∃ f, (V d c i).loc cc0_scratch1 ↦{fullShare} f)
            ∗ (∃ f, (V d c i).loc cc0_scratch2 ↦{fullShare} f) ∗ (∃ f, (V d c i).loc cc0_scratch3 ↦{fullShare} f)
            ∗ (∃ f, (V d c i).loc cc0_scratch4 ↦{fullShare} f))
          ∗ bigSep (ownRefs (τ := τ) (V d c i).2 \ scr5.map (refEmb c i)) fun b => iprop(∃ f, ((d, b) : Loc nD τ sig) ↦{fullShare} f)) := by
  unfold SparseCore.Cfg.ownBufs
  rw [SparseCore.bigSep_sdiff_split' (t := scr5.map (refEmb c i)) ?hsub, bigSep_map,
    SparseCore.bigSep_insert' (by decide), SparseCore.bigSep_insert' (by decide), SparseCore.bigSep_insert' (by decide),
    SparseCore.bigSep_insert' (by decide), bigSep_singleton]
  · rfl
  case hsub =>
    intro b hb
    obtain ⟨r, hr, rfl⟩ := Finset.mem_map.mp hb
    simp only [Finset.mem_insert, Finset.mem_singleton] at hr
    rcases hr with rfl | rfl | rfl | rfl | rfl <;> exact SparseCore.Cfg.mem_ownRefs_of_owner rfl

omit [FloatOps F] in
/-- A tile's own semaphores at zero are the five DMA semaphores at zero, and the rest. -/
theorem ownSems0_five (d : Dev nD) (c : Fin τ.nSC) (i : Fin τ.nSub) :
    (ownSems0 (V d c i) : sProp (MM F))
      = iprop((semVal (V d c i, SemLoc.dma cc0_scratch5.sem) 0 ∗ semVal (V d c i, SemLoc.dma cc0_scratch6.sem) 0
            ∗ semVal (V d c i, SemLoc.dma cc0_scratch7.sem) 0 ∗ semVal (V d c i, SemLoc.dma cc0_scratch8.sem) 0
            ∗ semVal (V d c i, SemLoc.dma cc0_scoped0.sem) 0)
          ∗ bigSep (ownCells (V d c i) \ sem5.map (semEmb (V d c i))) fun g => semVal g 0) := by
  unfold SparseCore.Cfg.ownSems0
  rw [SparseCore.bigSep_sdiff_split' (t := sem5.map (semEmb (V d c i))) ?hsub, bigSep_map,
    SparseCore.bigSep_insert' (by decide), SparseCore.bigSep_insert' (by decide), SparseCore.bigSep_insert' (by decide),
    SparseCore.bigSep_insert' (by decide), bigSep_singleton]
  · rfl
  case hsub =>
    intro g hg
    obtain ⟨s, hs, rfl⟩ := Finset.mem_map.mp hg
    simp only [Finset.mem_insert, Finset.mem_singleton] at hs
    rcases hs with rfl | rfl | rfl | rfl | rfl <;> exact mem_ownCells.mpr ⟨rfl, by first | rfl | decide⟩

/-! ## The task, from the tile's share to its share -/

/-- The task of tile `i` of SparseCore `c`: the tile's read share of the operand is cut into the two read tokens its
    two in-buffers' copies complete on and a remainder set aside; the run; the share put together again. -/
theorem tile_body (hF : (K (F := F)).Facts) (hpre : PermOK m) (d : Dev nD) (c : Fin (grid0.bound 0)) (i : Fin (grid0.bound 1))
    (O : CellTallies nD τ sig (HIx 1)) (W : Waits sig (HIx 1)) (hO : ∀ g, O g none = 0) :
    iprop((levAts (K (F := F)).L (K (F := F)).lev : sProp (MM F)) ∗ emp ∗ tileIn m d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc0__permute_body (coordsV c i) xW (Memref.isWhole_whole _) pW (Memref.isWhole_whole _) oW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0)
          fun _ => iprop(tileOut m d c i ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some (0 : Fin 1)⌝ ∗ owes (V d (cV (coordsV c i)) (jV (coordsV c i))) O W') := by
  rw [(K (F := F)).scopedBufs_V hF d (cV (coordsV c i)) (jV (coordsV c i)),
    SparseCore.Cfg.scopedSems0_V (Val := Elt F) d (cV (coordsV c i)) (jV (coordsV c i)), ownBufs_five, ownSems0_five]
  iintro ⟨#Hlv, -, ⟨Hx, Hp, Ho⟩, ⟨⟨⟨%f0, H0⟩, ⟨%f1, H1⟩, ⟨%f2, H2⟩, ⟨%f3, H3⟩, ⟨%f4, H4⟩⟩, Hbufs⟩, ⟨⟨Hs5, Hs6, Hs7, Hs8, Hs9⟩, Hsems⟩, HO⟩
  ihave Hx' := (toks2_split (F := F) (qT c i)) $$ Hx
  icases Hx' with ⟨Hxr, Hx0, Hx1⟩
  ihave Hwp := (tile_run m hpre d c i (qT c i) (qT c i) O W hO (m (oLoc d)) f0 f1 f2 f3 f4) $$ [Hx0 Hx1 Hp Ho H0 H1 H2 H3 H4 Hs5 Hs6 Hs7 Hs8 Hs9 HO]
  · isplitr; · iexact Hlv
    isplitl [Hx0]; · iexact Hx0
    isplitl [Hx1]; · iexact Hx1
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [Hs5]; · iexact Hs5
    isplitl [Hs6]; · iexact Hs6
    isplitl [Hs7]; · iexact Hs7
    isplitl [Hs8]; · iexact Hs8
    isplitl [Hs9]; · iexact Hs9
    iexact HO
  iapply (wp_wand frame _ Set.univ) $$ Hwp
  iintro %u ⟨Hx0, Hx1, Hp, Ho, H0, H1, H2, H3, H4, Hs5, Hs6, Hs7, Hs8, Hs9, %W', %hW', HO⟩
  ihave Hx := (toks2_join (F := F) (qT c i)) $$ [Hxr Hx0 Hx1]
  · isplitl [Hxr]; · iexact Hxr
    isplitl [Hx0]; · iexact Hx0
    iexact Hx1
  isplitl [Hx Hp Ho]
  · isplitl [Hx]; · iexact Hx
    isplitl [Hp]; · iexact Hp
    iexact Ho
  isplitl [H0 H1 H2 H3 H4 Hbufs]
  · isplitr [Hbufs]
    · isplitl [H0]; · iexact H0
      isplitl [H1]; · iexact H1
      isplitl [H2]; · iexact H2
      isplitl [H3]; · iexact H3
      iexact H4
    · iexact Hbufs
  isplitl [Hs5 Hs6 Hs7 Hs8 Hs9 Hsems]
  · isplitr [Hsems]
    · isplitl [Hs5]; · iexact Hs5
      isplitl [Hs6]; · iexact Hs6
      isplitl [Hs7]; · iexact Hs7
      isplitl [Hs8]; · iexact Hs8
      iexact Hs9
    · iexact Hsems
  iexists W'; isplitr
  · ipureintro; exact fun p hp => (hW' p hp).imp_right Or.inl
  · iexact HO

/-! ## The launch theorem's obligation -/

theorem defs₀_vector (c : Fin τ.nSC) (s : Fin τ.nSub) :
    defs₀ (F := F) (.scVector c s) 0 ()
      = SparseCore.onTile hcore0 hsub0 (fun c i => (cc0__permute_body (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0)) ⟨⟩ c s := rfl

/-- The launch theorem's obligation for the one vector-subcore call: each tile's task, from its share to its share
    with its rows of the result gathered. -/
theorem tileObl (hF : (K (F := F)).Facts) (hpre : PermOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m hF hpre d ⟨_, hc.1⟩ ⟨_, hc.2⟩ O W hO

end Cert.Proof.KK

end
-- ==== Proof.KLaunch.lean ====
/-
  The whole program's run: the TensorCore starts the two SparseCores on the one call, handing each its read share of
  the operand and of the index vector and its tiles' rows of the result, gets them back with the columns gathered,
  and writes the zero scalar.
-/
import proofs.«213046_g56676388438729_cont_9to1c4b_565_26_alg».proof.Proof.KTile
import proofs.«213046_g56676388438729_cont_9to1c4b_565_26_alg».proof.Proof.KGeom

noncomputable section

namespace Cert.Proof.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
variable (m : (ℓ : Loc nD τ sig) → Buf (Elt F) ℓ) (ρ : Dev nD → PrngReg)
variable [FloatOps F]

/-! ## A SparseCore's share, dealt to its sixteen tiles -/

omit [FloatOps F] in
/-- A family over the call's tiles is one over sixteen. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the call's SparseCores is one over two. -/
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- SparseCore `c`'s read shares of the operand and of the index vector are each cut into sixteen read shares, one a
    tile, the remainder kept until the tiles' shares come back; its sixteen blocks of the result are already apart. -/
theorem vecSplit : (K (F := F)).VecSplit' (P m) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ coreOut m d (Fin.cast nCore_zero c)))
  generalize Fin.cast nCore_zero c = c'
  rw [bigSep_tasks (F := F) (fun i => tileIn m d c' i), bigSep_tasks (F := F) (fun i => tileOut m d c' i),
    bigSep_sep', bigSep_sep', bigSep_sep', bigSep_sep']
  iintro ⟨Hx, Hp, Ho⟩
  ihave Hx' := (Transfers.pointsTo_toks_split (qC c') 16) $$ Hx
  icases Hx' with ⟨Hxr, Hxt⟩
  ihave Hp' := (Transfers.pointsTo_toks_split (qC c') 16) $$ Hp
  icases Hp' with ⟨Hpr, Hpt⟩
  imodintro
  isplitl [Hxt Hpt Ho]
  · isplitl [Hxt]; · iexact Hxt
    isplitl [Hpt]; · iexact Hpt
    iexact Ho
  iintro ⟨Hxt, Hpt, Ho⟩
  isplitl [Hxr Hxt]
  · iapply (Transfers.pointsTo_toks_join (qC c') 16)
    isplitl [Hxr]; · iexact Hxr
    iexact Hxt
  isplitl [Hpr Hpt]
  · iapply (Transfers.pointsTo_toks_join (qC c') 16)
    isplitl [Hpr]; · iexact Hpr
    iexact Hpt
  iexact Ho

/-! ## The launch element: the handshakes' rounds; the kernel's copies need no schedule -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev x' : DevRef τ sig := Proc.devRef .tc (main_arg0 : Ref sig .tc)
abbrev p' : DevRef τ sig := Proc.devRef .tc (main_arg1 : Ref sig .tc)
abbrev o' : DevRef τ sig := Proc.devRef .tc (main_v0 : Ref sig .tc)
abbrev z' : DevRef τ sig := Proc.devRef .tc (main_cst : Ref sig .tc)
/-- The zero scalar, and the one host operation: it is written to the second result. -/
abbrev zero : FVec F S_ .f32 := constant S_ .f32 0x00000000#32
abbrev opZ : HloOp τ sig (Elt F) := StableHlo.nullary main_cst (constant S_ .f32 0x00000000#32)

/-- The TensorCore's arrays, all unscoped: the operand, the index vector, the result, the scalar. -/
abbrev S4 : Finset (DevRef τ sig) := {x', p', o', z'}

omit [FloatOps F] in
theorem held_S4 (d : Dev nD) (W : Valuation τ sig (Elt F)) :
    (held (T d) S4 W : sProp (MM F))
      = iprop((xLoc d ↦{fullShare} W x') ∗ (pLoc d ↦{fullShare} W p') ∗ (oLoc d ↦{fullShare} W o') ∗ zLoc d ↦{fullShare} W z') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F))
      = iprop((xLoc d ↦{fullShare} W main_arg0) ∗ (pLoc d ↦{fullShare} W main_arg1) ∗ (oLoc d ↦{fullShare} W main_v0) ∗ zLoc d ↦{fullShare} W main_cst) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

/-- After the call: the launch contents, the result at the gathered columns. -/
def V1 (d : Dev nD) : Valuation τ sig (Elt F) := Function.update (fun b => m (d, b)) o' (Gout m d)

theorem V1_x (d : Dev nD) : V1 m d x' = m (xLoc d) := Function.update_of_ne (show x' ≠ o' by decide) _ _
theorem V1_p (d : Dev nD) : V1 m d p' = m (pLoc d) := Function.update_of_ne (show p' ≠ o' by decide) _ _
theorem V1_o (d : Dev nD) : V1 m d o' = Gout m d := Function.update_self _ _ _
theorem V1_z (d : Dev nD) : V1 m d z' = m (zLoc d) := Function.update_of_ne (show z' ≠ o' by decide) _ _

theorem hZ : (opZ (F := F)).bufs ⊆ S4 := show ({z'} : Finset (DevRef τ sig)) ⊆ S4 by decide

/-- What @main leaves the claim: the four arrays whole, the result at the gathered columns, the scalar at zero, the
    arguments at their launch contents. -/
abbrev FIN (d : Dev nD) : sProp (MM F) :=
  iprop((oLoc d ↦{fullShare} Gout m d) ∗ (zLoc d ↦{fullShare} (zero (F := F))) ∗ (xLoc d ↦{fullShare} m (xLoc d)) ∗ pLoc d ↦{fullShare} m (pLoc d))

/-- The four arrays after the host operation: it writes the scalar and nothing else. -/
theorem held_fin (d : Dev nD) : (held (T d) S4 ((opZ (F := F)).result (V1 m d)) : sProp (MM F)) ⊢ FIN m d := by
  rw [held_S4,
    (opZ (F := F)).result_of_not_mem (V1 m d) (b := x') (show x' ∉ ({z'} : Finset (DevRef τ sig)) by decide),
    (opZ (F := F)).result_of_not_mem (V1 m d) (b := p') (show p' ∉ ({z'} : Finset (DevRef τ sig)) by decide),
    (opZ (F := F)).result_of_not_mem (V1 m d) (b := o') (show o' ∉ ({z'} : Finset (DevRef τ sig)) by decide),
    V1_x, V1_p, V1_o, show (opZ (F := F)).result (V1 m d) z' = zero (F := F) from StableHlo.nullary_result main_cst _ _ (V1 m d)]
  iintro ⟨Hx, Hp, Ho, Hz⟩
  isplitl [Ho]; · iexact Ho
  isplitl [Hz]; · iexact Hz
  isplitl [Hx]; · iexact Hx
  iexact Hp

/-- What the call takes for the two SparseCores: each a read share of the operand and of the index vector — together
    the two read shares cut off the whole —, and the result, whole, as its thirty-two blocks. -/
theorem st0_eq (d : Dev nD) :
    (bigSep Finset.univ fun c : Fin ((K (F := F)).nCore 0) => (P m).st 0 d c)
      = iprop((bigSep Finset.univ fun c : Fin 2 => xLoc d ↦{qC c} m (xLoc d)) ∗ (bigSep Finset.univ fun c : Fin 2 => pLoc d ↦{qC c} m (pLoc d))
          ∗ (oLoc d ↦{fullShare} m (oLoc d))) := by
  rw [oPts_blocks d (m (oLoc d))]
  refine (bigSep_cores (F := F) (fun c => coreIn m d c)).trans ?_
  rw [bigSep_sep', bigSep_sep']
/-- What it hands back: the same, the result at the gathered columns. -/
theorem dn0_eq (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => pLoc d ↦{qC c} m (pLoc d))
          ∗ (oLoc d ↦{fullShare} Gout m d)) := by
  rw [oPts_blocks d (Gout m d)]
  refine (bigSep_cores (F := F) (fun c => coreOut m d c)).trans ?_
  rw [bigSep_sep', bigSep_sep']

/-- @main on device `d`'s TensorCore: the call, from a read share of the operand and of the index vector for each
    SparseCore and the result's blocks, all of it back with the columns gathered; then the zero scalar written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho, Hz⟩, -, -⟩, -⟩
  ihave Hx' := (Transfers.pointsTo_toks_split fullShare 2) $$ Hx
  icases Hx' with ⟨Hxr, Hxt⟩
  ihave Hp' := (Transfers.pointsTo_toks_split fullShare 2) $$ Hp
  icases Hp' with ⟨Hpr, Hpt⟩
  -- the call
  iapply ((K (F := F)).wp_run (D (F := F)) 𝒱 (EH := EH) (P := P m) κ d 0) $$ [Hst Hxt Hpt Ho Hb Hxr Hpr Hz]
  isplitr; · iexact Hctx
  isplitl [Hst]; · iexact Hst
  isplitl [Hxt Hpt Ho]
  · rw [st0_eq]
    isplitl [Hxt]; · iexact Hxt
    isplitl [Hpt]; · iexact Hpt
    iexact Ho
  iintro ⟨Hst, Hdn⟩
  ihave Hdn' := (Entails.of_eq (dn0_eq m d)) $$ Hdn
  icases Hdn' with ⟨Hxt, Hpt, Ho⟩
  ihave Hx := (Transfers.pointsTo_toks_join fullShare 2) $$ [Hxr Hxt]
  · isplitl [Hxr]; · iexact Hxr
    iexact Hxt
  ihave Hp := (Transfers.pointsTo_toks_join fullShare 2) $$ [Hpr Hpt]
  · isplitl [Hpr]; · iexact Hpr
    iexact Hpt
  -- the zero scalar
  iapply (wp_hlo_within 𝒱 (SparseCore.T d) none Set.univ (op := opZ) (S := S4) hZ (V := V1 m d)) $$ [Hb Hx Hp Ho Hz]
  · isplitl [Hb]; · iexact Hb
    rw [held_S4, V1_x, V1_p, V1_o, V1_z]
    isplitl [Hx]; · iexact Hx
    isplitl [Hp]; · iexact Hp
    isplitl [Ho]; · iexact Ho
    iexact Hz
  iintro ⟨Hb, Hheld⟩
  ihave Hf := (held_fin m d) $$ Hheld
  rw [wp_ret]; imodintro; imodintro
  isplitl [Hst]; · iexact Hst
  iexact Hf

/-! ## The final memory -/

def fq (d : Dev nD) (s' : Phys nD τ sig (Elt F)) : Prop :=
  s'.mem.mem (oLoc d) = Gout m d ∧ s'.mem.mem (zLoc d) = zero (F := F) ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp (MM F)) := by
  iintro ⟨⟨Ho, Hz, Hx, Hp⟩, HSI⟩
  ihave H := (persistent_entails_right (SI_pointsTo_agree (st := s') (ℓ := oLoc d) (I := Finset.univ) (q := fullShare) (f := Gout m d))) $$ [HSI Ho]
  · isplitl [HSI] <;> iassumption
  icases H with ⟨%h1, HSI, -⟩
  ihave H := (persistent_entails_right (SI_pointsTo_agree (st := s') (ℓ := zLoc d) (I := Finset.univ) (q := fullShare) (f := zero (F := F)))) $$ [HSI Hz]
  · isplitl [HSI] <;> iassumption
  icases H with ⟨%h2, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h3, HSI, -⟩
  ihave H := (SI_pointsTo_agree (st := s') (ℓ := pLoc d) (I := Finset.univ) (q := fullShare) (f := m (pLoc d))) $$ [HSI Hp]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- What the run leaves: the result the gathered columns, the second result the zero scalar, the arguments as they were. -/
def QC : PUnit × MemSt nD τ sig (Elt F) → Prop := fun r => ∀ c : Dev nD,
  r.2.mem (oLoc c) = Gout m c
  ∧ r.2.mem (zLoc c) = (constant S_ .f32 0x00000000#32 : FVec F S_ .f32)
  ∧ r.2.mem (xLoc c) = m (xLoc c)
  ∧ r.2.mem (pLoc c) = m (pLoc c)

theorem run_main [∀ e, Nonempty (Elt F e)] (hpre : PermOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KK

end
-- ==== Proof.KICommon.lean ====
/-
  What the kernel's run is stated over: the program as the launch theorem reads it, the ghost state (the launch's
  handshakes beside the transfers' counters: every copy of this kernel is a local copy a tile issues and waits for
  itself, so no schedule is needed), the three arrays' locations, a tile's place and its share of the work.

  The work is dealt by rows. Tile `s` of SparseCore `c` is worker `2 s + c` of 32 and owns rows
  `[128 (2 s + c), 128 (2 s + c) + 128)` of the result; it reads the same rows of the operand and the whole index
  vector. So a tile is handed a READ share of the operand and of the index vector (both whole: they are only read)
  and its own rows of the result outright, and hands back those rows holding the gathered columns
  (`Cert.Spec.G`).
-/
import proofs.«213046_g56676388438729_cont_9to1c4b_565_26_alg».proof.KernelIdeal
import proofs.«213046_g56676388438729_cont_9to1c4b_565_26_alg».proof.Proof.Gen.KernelIdeal
import proofs.«213046_g56676388438729_cont_9to1c4b_565_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model's separation-logic propositions. -/
abbrev MM (F : FTy → Type) : Type := MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The operand, the index vector, the result and the zero scalar, as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_cst

/-- Every entry of the launch memory's index vector names a column. -/
def PermOK : Prop := ∀ d : Dev nD, Cert.Spec.PermOK (m (pLoc d))

/-- What the result must hold: the operand's columns gathered. -/
def Gout (d : Dev nD) : Buf (Elt F) (oLoc d) := Cert.Spec.G (m (xLoc d)) (m (pLoc d))

/-! ## A tile's place and rows -/

abbrev cV (L : grid0.Coords) : Fin τ.nSC := (L 0).castLE hcore0
abbrev jV (L : grid0.Coords) : Fin τ.nSub := (L 1).castLE hsub0

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem oTR_inb (L : grid0.Coords) :
    ∀ a, (![256 * (L 1).val + 128 * (L 0).val, 0] : Fin 2 → Nat) a + (![128, 1024] : Fin 2 → Nat) a ≤ S4096x1024.size a := by
  have h0 : (L 0).val < 2 := (L 0).isLt
  have h1 : (L 1).val < 16 := (L 1).isLt
  intro a; fin_cases a <;> simp <;> omega

/-- The tile's 128 rows of the result: rows `[256 s + 128 c, 256 s + 128 c + 128)`, every column. -/
abbrev oTR (L : grid0.Coords) : Rect S4096x1024 :=
  Rect.unit (s := S4096x1024) ![256 * (L 1).val + 128 * (L 0).val, 0] ![128, 1024] (oTR_inb L)

/-- Those rows as elements of the result's buffer. -/
abbrev blk (d : Dev nD) (L : grid0.Coords) : Finset (Idx (oLoc d)) :=
  (Memref.whole main_v0_scv : Memref sig .scVector .hbm S4096x1024 .f32).view.setOn (oTR L).set

/-! ## The read shares -/

/-- SparseCore `c`'s read share of an array the TensorCore holds outright, and tile `i`'s share of that. -/
abbrev qC (c : Fin 2) : PosShare TreeShare := Transfers.shareTok fullShare 2 c
abbrev qT (c : Fin 2) (i : Fin 16) : PosShare TreeShare := Transfers.shareTok (qC c) 16 i

/-! ## What the handshakes carry -/

variable [FloatOps F]

/-- Tile `(c, i)`'s share going in (`f` the result's contents then) and coming back. -/
abbrev tileIn (d : Dev nD) (c : Fin 2) (i : Fin 16) : sProp (MM F) :=
  iprop((xLoc d ↦{qT c i} m (xLoc d)) ∗ (pLoc d ↦{qT c i} m (pLoc d)) ∗ oLoc d ↦[blk d (coordsV c i)]{fullShare} m (oLoc d))
abbrev tileOut (d : Dev nD) (c : Fin 2) (i : Fin 16) : sProp (MM F) :=
  iprop((xLoc d ↦{qT c i} m (xLoc d)) ∗ (pLoc d ↦{qT c i} m (pLoc d)) ∗ oLoc d ↦[blk d (coordsV c i)]{fullShare} Gout m d)

/-- SparseCore `c`'s share: its read share of the two arrays read, and its sixteen tiles' rows of the result. -/
abbrev coreIn (d : Dev nD) (c : Fin 2) : sProp (MM F) :=
  iprop((xLoc d ↦{qC c} m (xLoc d)) ∗ (pLoc d ↦{qC c} m (pLoc d))
    ∗ bigSep Finset.univ fun i : Fin 16 => oLoc d ↦[blk d (coordsV c i)]{fullShare} m (oLoc d))
abbrev coreOut (d : Dev nD) (c : Fin 2) : sProp (MM F) :=
  iprop((xLoc d ↦{qC c} m (xLoc d)) ∗ (pLoc d ↦{qC c} m (pLoc d))
    ∗ bigSep Finset.univ fun i : Fin 16 => oLoc d ↦[blk d (coordsV c i)]{fullShare} Gout m d)

/-- The one call: each SparseCore takes its share and brings it back with its rows of the result gathered; each tile
    likewise; nothing of the launch's is consumed by the kernel's own proof. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with
    | 0 => (inferInstance : BI.Storable (upEmb : UEmb _ (MM F)) (coreIn m d (Fin.cast nCore_zero c)))
  dn q d c := match q with
    | 0 => (inferInstance : BI.Storable (upEmb : UEmb _ (MM F)) (coreOut m d (Fin.cast nCore_zero c)))
  go q d c i := match q with
    | 0 => (inferInstance : BI.Storable (upEmb : UEmb _ (MM F)) (tileIn m d (Fin.cast nCore_zero c) (Fin.cast nSub_zero i)))
  td q d c i := match q with
    | 0 => (inferInstance : BI.Storable (upEmb : UEmb _ (MM F)) (tileOut m d (Fin.cast nCore_zero c) (Fin.cast nSub_zero i)))

end Cert.Proof.KI

end
-- ==== Proof.KITileLib.lean ====
/-
  Small facts the tile's run leans on.

  A gather of sixteen lanes from an 8 × 1024 scratch is in range when its row numbers are below 8 and its column
  numbers below 1024; the column numbers are sixteen consecutive entries of the index scratch, so they are below 1024
  as soon as every entry of that scratch is. And the indexed load is two steps: the whole scratch is read, then the
  named lanes are picked out of what was read.
-/
import proofs.«213046_g56676388438729_cont_9to1c4b_565_26_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

/-- A row number below 8 beside a column number below 1024 names an element of an 8 × 1024 table. -/
theorem pair_lt (r idx : IVec S16 32) (hr : ∀ x, (r x).toNat < 8) (hi : ∀ x, (idx x).toNat < 1024) :
    ∀ a x, ((![r, idx] : Fin 2 → IVec S16 32) a x).toNat < S8x1024.size a := by
  intro a x
  match a with
  | ⟨0, _⟩ => exact hr x
  | ⟨1, _⟩ => exact hi x

/-- The eight gathers of one column slice (rows 0 to 7, one column vector) are all in range. -/
theorem chk_core (a3 a4 a5 a6 a7 a8 a9 a10 idx : IVec S16 32)
    (h3 : ∀ x, (a3 x).toNat < 8) (h4 : ∀ x, (a4 x).toNat < 8) (h5 : ∀ x, (a5 x).toNat < 8) (h6 : ∀ x, (a6 x).toNat < 8)
    (h7 : ∀ x, (a7 x).toNat < 8) (h8 : ∀ x, (a8 x).toNat < 8) (h9 : ∀ x, (a9 x).toNat < 8) (h10 : ∀ x, (a10 x).toNat < 8)
    (hi : ∀ x, (idx x).toNat < 1024) :
    (∀ a x, ((![a3, idx] : Fin 2 → IVec S16 32) a x).toNat < S8x1024.size a) ∧
    (∀ a x, ((![a4, idx] : Fin 2 → IVec S16 32) a x).toNat < S8x1024.size a) ∧
    (∀ a x, ((![a5, idx] : Fin 2 → IVec S16 32) a x).toNat < S8x1024.size a) ∧
    (∀ a x, ((![a6, idx] : Fin 2 → IVec S16 32) a x).toNat < S8x1024.size a) ∧
    (∀ a x, ((![a7, idx] : Fin 2 → IVec S16 32) a x).toNat < S8x1024.size a) ∧
    (∀ a x, ((![a8, idx] : Fin 2 → IVec S16 32) a x).toNat < S8x1024.size a) ∧
    (∀ a x, ((![a9, idx] : Fin 2 → IVec S16 32) a x).toNat < S8x1024.size a) ∧
    (∀ a x, ((![a10, idx] : Fin 2 → IVec S16 32) a x).toNat < S8x1024.size a) :=
  ⟨pair_lt a3 idx h3 hi, pair_lt a4 idx h4 hi, pair_lt a5 idx h5 hi, pair_lt a6 idx h6 hi,
   pair_lt a7 idx h7 hi, pair_lt a8 idx h8 hi, pair_lt a9 idx h9 hi, pair_lt a10 idx h10 hi⟩

/-- What a load of sixteen entries of the index scratch reads is below 1024 when every entry of the scratch is. -/
theorem readAt_lt (d : Dev nD) (L : grid0.Coords) (g : Buf (Elt F) ((V d (cV L) (jV L)).loc cc0_scratch0))
    (hg : ∀ j, (g j).toNat < 1024) (off : Fin 1 → Nat) (hoff : ∀ a, off a + S16.size a ≤ S1024.size a) (x : S16.Idx) :
    ((s0W).view.readAt (Elt F) (Rect.unit (s := S1024) off S16.size hoff).toLoadRect g x).toNat < 1024 := by
  rw [View.readAt_apply]
  exact hg _

variable [FloatOps F]

/-- The indexed load as the two steps it is: the whole scratch is read, and the lanes the index vectors name are
    picked out of what was read. -/
def loadIdxProg {Λ : Labels} {sc : Fin τ.nSC} {i : Fin τ.nSub} {s t : Shape} {e : EltTy}
    (base : Memref sig Kind.scVector .vmem s e) (idxs : Fin s.rank → IVec t 32)
    (h : ∀ a x, (idxs a x).toNat < s.size a) (hl : base.view.Loads) :
    Prog (TpuEff nD τ sig (Elt F) Λ (.scVector sc i)) (Vec F t e) :=
  .op (.load base (.whole s) (View.loadsAt_whole hl)) fun f => .ret (Idealize.ShloMosaic.loadIdx f idxs h)

@[sl_canon] theorem vectorLoadIdx_canon {Λ : Labels} {sc : Fin τ.nSC} {i : Fin τ.nSub} {s t : Shape} {e : EltTy}
    (base : Memref sig Kind.scVector .vmem s e) (idxs : Fin s.rank → IVec t 32)
    (h : ∀ a x, (idxs a x).toNat < s.size a) (hl : base.view.Loads) :
    (SparseCore.vectorLoadIdx (nD := nD) (τ := τ) (sig := sig) (F := F) (Λ := Λ) (p := .scVector sc i) base idxs h hl)
      = loadIdxProg (F := F) (Λ := Λ) (sc := sc) (i := i) base idxs h hl := rfl

end Cert.Proof.KI

end
-- ==== Proof.KIGeom.lean ====
/-
  The rows of the result, dealt: the 32 tiles' blocks of 128 rows are pairwise disjoint and together are the whole
  table (tile `i` of SparseCore `c` has block number `2 i + c`), so the result held outright is its 32 blocks held
  separately; and an element lies in a tile's block exactly when its row does.
-/
import proofs.«213046_g56676388438729_cont_9to1c4b_565_26_alg».proof.Proof.KICommon

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- Through the whole array's view a block is the rectangle's own set of indices. -/
theorem blk_eq (d : Dev nD) (L : grid0.Coords) : blk d L = (oTR L).set := by
  show ((oTR L).set.map (View.whole (main_v0_scv : Ref sig .scVector)).emb) = _
  exact Finset.map_refl

/-- An element of the result lies in the tile's block exactly when its row is one of the tile's 128. -/
theorem mem_blk_iff (d : Dev nD) (L : grid0.Coords) (y : Idx (oLoc d)) :
    y ∈ blk d L ↔ 256 * (L 1).val + 128 * (L 0).val ≤ (y 0).val ∧ (y 0).val < 256 * (L 1).val + 128 * (L 0).val + 128 := by
  rw [blk_eq]
  show y ∈ (oTR L).set ↔ _
  rw [Rect.mem_set_unit, Fin.forall_fin_two]
  -- the column condition `0 ≤ y 1 < 0 + 1024` holds of every index
  have h1 : ((y 1 : Fin _) : Nat) < 1024 := (y 1).isLt
  simp only [Matrix.cons_val_zero, Matrix.cons_val_one, Matrix.head_cons]
  omega

/-- Row `r` lies in block `(c, i)` exactly when `256 i + 128 c ≤ r < 256 i + 128 c + 128`. -/
theorem mem_blk_coordsV (d : Dev nD) (c : Fin 2) (i : Fin 16) (y : Idx (oLoc d)) :
    y ∈ blk d (coordsV c i) ↔ 256 * i.val + 128 * c.val ≤ (y 0).val ∧ (y 0).val < 256 * i.val + 128 * c.val + 128 :=
  mem_blk_iff d (coordsV c i) y

/-- Two blocks that share a row are the same block: `256 i + 128 c` with `c < 2` determines `i` and `c`. -/
theorem blk_disjoint (d : Dev nD) {c c' : Fin 2} {i i' : Fin 16} (h : c ≠ c' ∨ i ≠ i') :
    Disjoint (blk d (coordsV c i)) (blk d (coordsV c' i')) := by
  rw [Finset.disjoint_left]
  intro y hy hy'
  rw [mem_blk_coordsV] at hy hy'
  have hc : c.val < 2 := c.isLt
  have hc' : c'.val < 2 := c'.isLt
  have e : c = c' ∧ i = i' := ⟨Fin.ext (by omega), Fin.ext (by omega)⟩
  exact h.elim (fun k => k e.1) (fun k => k e.2)

/-- SparseCore `c`'s sixteen blocks together. -/
abbrev blkC (d : Dev nD) (c : Fin 2) : Finset (Idx (oLoc d)) :=
  (Finset.univ : Finset (Fin 16)).biUnion fun i => blk d (coordsV c i)

theorem blkC_disjoint (d : Dev nD) {c c' : Fin 2} (h : c ≠ c') : Disjoint (blkC d c) (blkC d c') := by
  rw [Finset.disjoint_biUnion_left]
  intro i _
  rw [Finset.disjoint_biUnion_right]
  intro i' _
  exact blk_disjoint d (Or.inl h)

/-- Every row `r < 4096` is in block `(c, i)` with `i = r / 256` and `c = (r % 256) / 128`. -/
theorem blkC_cover (d : Dev nD) : (Finset.univ : Finset (Fin 2)).biUnion (blkC d) = Finset.univ := by
  ext y
  have hy : ((y 0 : Fin _) : Nat) < 4096 := (y 0).isLt
  simp only [Finset.mem_biUnion, Finset.mem_univ, true_and, iff_true]
  refine ⟨⟨((y 0).val % 256) / 128, by omega⟩, ⟨(y 0).val / 256, by omega⟩, ?_⟩
  rw [mem_blk_coordsV]
  show 256 * ((y 0).val / 256) + 128 * (((y 0).val % 256) / 128) ≤ (y 0).val
    ∧ (y 0).val < 256 * ((y 0).val / 256) + 128 * (((y 0).val % 256) / 128) + 128
  omega

/-- The result held outright is the 32 blocks held separately, SparseCore by SparseCore, tile by tile. -/
theorem oPts_blocks (d : Dev nD) (f : Buf (Elt F) (oLoc d)) :
    (oLoc d ↦{fullShare} f : sProp (MM F))
      = bigSep Finset.univ fun c : Fin 2 => bigSep Finset.univ fun i : Fin 16 => oLoc d ↦[blk d (coordsV c i)]{fullShare} f := by
  -- one SparseCore's sixteen blocks, held together or apart
  have inner : ∀ c : Fin 2, (bigSep Finset.univ fun i : Fin 16 => (oLoc d ↦[blk d (coordsV c i)]{fullShare} f : sProp (MM F)))
      = (oLoc d ↦[blkC d c]{fullShare} f : sProp (MM F)) := fun c =>
    (pointsTo_biUnion (ℓ := oLoc d) Finset.univ (fun i : Fin 16 => blk d (coordsV c i))
      fun i _ i' _ h => blk_disjoint d (Or.inr h)).symm
  simp only [inner]
  -- the two SparseCores' halves, which are the whole table
  rw [← pointsTo_biUnion (ℓ := oLoc d) Finset.univ (blkC d) fun c _ c' _ h => blkC_disjoint d h, blkC_cover]

end Cert.Proof.KI

end
-- ==== Proof.KIInv.lean ====
/-
  What holds between the trips of a tile's loop.

  Before trip `k` the two in-buffers' fetches of chunks `2k` and `2k + 1` are on their way (each a copy's flight
  holding its in-buffer at what lands and the operand's eight rows it reads, the rest of that read token beside it);
  before the first trip the out-buffers are free and the tile's rows of the result untouched; before a later trip the
  two out-buffers' copies of chunks `2k − 2` and `2k − 1` are on their way out (each a flight holding its eight-row
  window of the result and its out-buffer), the rest of the tile's rows held beside them, and every row of the chunks
  before `2k` already holds the gathered columns.
-/
import proofs.«213046_g56676388438729_cont_9to1c4b_565_26_alg».proof.Proof.KITileLib
import proofs.«213046_g56676388438729_cont_9to1c4b_565_26_alg».proof.Proof.KIGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

variable [FloatOps F]

/-- What the fetch of the index vector lands in the index scratch. -/
abbrev permPay (d : Dev nD) : S1024.Idx → Elt F EltTy.i32 :=
  ReadAs.same.apply (View.read (Elt F) (pW).view (m (pLoc d)))

/-- What the fetch of the eight rows at `off` lands in an in-buffer. -/
abbrev inPay (d : Dev nD) (off : Fin 2 → Nat) (h : ∀ a, off a + S8x1024.size a ≤ S4096x1024.size a) : S8x1024.Idx → Elt F EltTy.f32 :=
  ReadAs.same.apply (View.read (Elt F) ((xW).slice (Rect.unit (s := S4096x1024) off S8x1024.size h) (fun _ => rfl)).view (m (xLoc d)))

/-- The first `n` chunks of the tile's rows of `G` hold the gathered columns. -/
def RowsDone (d : Dev nD) (c : Fin (grid0.bound 0)) (i : Fin (grid0.bound 1)) (n : Nat) (G : Buf (Elt F) (oLoc d)) : Prop :=
  ∀ idx : Idx (oLoc d), 256 * i.val + 128 * c.val ≤ (idx 0).val → (idx 0).val < 256 * i.val + 128 * c.val + 8 * n →
    G idx = Gout m d idx

/-- Before the first trip. -/
def A0 (d : Dev nD) (c : Fin (grid0.bound 0)) (i : Fin (grid0.bound 1)) (q qp : PosShare TreeShare)
    (O : CellTallies nD τ sig (HIx 1)) (W : Waits sig (HIx 1)) (fo : Buf (Elt F) (oLoc d)) : sProp (MM F) :=
  iprop(Transfers.MayWaits (V d (cV (coordsV c i)) (jV (coordsV c i))) (none : HIx 1) O
    ∗ (∃ g0, (s0W).view.loc (V d (cV (coordsV c i)) (jV (coordsV c i))) ↦{fullShare} View.write (Elt F) (s0W).view g0 (permPay m d) Finset.univ)
    ∗ ((pW).view.loc (V d (cV (coordsV c i)) (jV (coordsV c i))) ↦{qp} m (pLoc d))
    ∗ semVal ((V d (cV (coordsV c i)) (jV (coordsV c i))), SemLoc.dma cc0_scoped0.sem) 0
    ∗ (∃ g1, Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view g1 (inPay m d (k0_off1 (coordsV c i) 0#32) (k0_off1_inb (coordsV c i) 0)) Finset.univ)
          ∗ ((xW).view.loc (V d (cV (coordsV c i)) (jV (coordsV c i))) ↦[((xW).slice (Rect.unit (s := S4096x1024) (k0_off1 (coordsV c i) 0#32) S8x1024.size (k0_off1_inb (coordsV c i) 0)) (fun _ => rfl)).view.set]{Transfers.shareTokN q 0} m (xLoc d))))
    ∗ ((xW).view.loc (V d (cV (coordsV c i)) (jV (coordsV c i))) ↦[Finset.univ \ ((xW).slice (Rect.unit (s := S4096x1024) (k0_off1 (coordsV c i) 0#32) S8x1024.size (k0_off1_inb (coordsV c i) 0)) (fun _ => rfl)).view.set]{Transfers.shareTokN q 0} m (xLoc d))
    ∗ (∃ g2, Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view g2 (inPay m d (k0_off1 (coordsV c i) 8#32) (k0_off1_inb (coordsV c i) 1)) Finset.univ)
          ∗ ((xW).view.loc (V d (cV (coordsV c i)) (jV (coordsV c i))) ↦[((xW).slice (Rect.unit (s := S4096x1024) (k0_off1 (coordsV c i) 8#32) S8x1024.size (k0_off1_inb (coordsV c i) 1)) (fun _ => rfl)).view.set]{Transfers.shareTokN q 1} m (xLoc d))))
    ∗ ((xW).view.loc (V d (cV (coordsV c i)) (jV (coordsV c i))) ↦[Finset.univ \ ((xW).slice (Rect.unit (s := S4096x1024) (k0_off1 (coordsV c i) 8#32) S8x1024.size (k0_off1_inb (coordsV c i) 1)) (fun _ => rfl)).view.set]{Transfers.shareTokN q 1} m (xLoc d))
    ∗ ((oW).view.loc (V d (cV (coordsV c i)) (jV (coordsV c i))) ↦[(oW).view.setOn (oTR (coordsV c i)).set]{fullShare} fo)
    ∗ (∃ g3, (s3W).view.loc (V d (cV (coordsV c i)) (jV (coordsV c i))) ↦{fullShare} g3)
    ∗ (∃ g4, (s4W).view.loc (V d (cV (coordsV c i)) (jV (coordsV c i))) ↦{fullShare} g4)
    ∗ semVal ((V d (cV (coordsV c i)) (jV (coordsV c i))), SemLoc.dma cc0_scratch7.sem) 0
    ∗ semVal ((V d (cV (coordsV c i)) (jV (coordsV c i))), SemLoc.dma cc0_scratch8.sem) 0
    ∗ ∃ W', ⌜∀ p ∈ W', p ∈ W ∨ p.2 = none⌝ ∗ owes (V d (cV (coordsV c i)) (jV (coordsV c i))) O W')

/-- After trip `kf` (before trip `kf + 1`, or after the loop). -/
def A1 (d : Dev nD) (c : Fin (grid0.bound 0)) (i : Fin (grid0.bound 1)) (q qp : PosShare TreeShare)
    (O : CellTallies nD τ sig (HIx 1)) (W : Waits sig (HIx 1)) (kf : Fin k0_t1_loop.trips) : sProp (MM F) :=
  iprop(Transfers.MayWaits (V d (cV (coordsV c i)) (jV (coordsV c i))) (none : HIx 1) O
    ∗ (∃ g0, (s0W).view.loc (V d (cV (coordsV c i)) (jV (coordsV c i))) ↦{fullShare} View.write (Elt F) (s0W).view g0 (permPay m d) Finset.univ)
    ∗ ((pW).view.loc (V d (cV (coordsV c i)) (jV (coordsV c i))) ↦{qp} m (pLoc d))
    ∗ semVal ((V d (cV (coordsV c i)) (jV (coordsV c i))), SemLoc.dma cc0_scoped0.sem) 0
    ∗ (∃ g1, Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view g1 (inPay m d (k0_off5 (coordsV c i) kf) (k0_off5_inb (coordsV c i) kf)) Finset.univ)
          ∗ ((xW).view.loc (V d (cV (coordsV c i)) (jV (coordsV c i))) ↦[((xW).slice (Rect.unit (s := S4096x1024) (k0_off5 (coordsV c i) kf) S8x1024.size (k0_off5_inb (coordsV c i) kf)) (fun _ => rfl)).view.set]{Transfers.shareTokN q 0} m (xLoc d))))
    ∗ ((xW).view.loc (V d (cV (coordsV c i)) (jV (coordsV c i))) ↦[Finset.univ \ ((xW).slice (Rect.unit (s := S4096x1024) (k0_off5 (coordsV c i) kf) S8x1024.size (k0_off5_inb (coordsV c i) kf)) (fun _ => rfl)).view.set]{Transfers.shareTokN q 0} m (xLoc d))
    ∗ (∃ g2, Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view g2 (inPay m d (k0_off9 (coordsV c i) kf) (k0_off9_inb (coordsV c i) kf)) Finset.univ)
          ∗ ((xW).view.loc (V d (cV (coordsV c i)) (jV (coordsV c i))) ↦[((xW).slice (Rect.unit (s := S4096x1024) (k0_off9 (coordsV c i) kf) S8x1024.size (k0_off9_inb (coordsV c i) kf)) (fun _ => rfl)).view.set]{Transfers.shareTokN q 1} m (xLoc d))))
    ∗ ((xW).view.loc (V d (cV (coordsV c i)) (jV (coordsV c i))) ↦[Finset.univ \ ((xW).slice (Rect.unit (s := S4096x1024) (k0_off9 (coordsV c i) kf) S8x1024.size (k0_off9_inb (coordsV c i) kf)) (fun _ => rfl)).view.set]{Transfers.shareTokN q 1} m (xLoc d))
    ∗ (∃ G : Buf (Elt F) (oLoc d), ⌜RowsDone m d c i (2 * kf.val + 2) G⌝
        ∗ (∃ c3, Transfers.Flight countersEmb (V d (cV (coordsV c i)) (jV (coordsV c i))) (SemLoc.dma cc0_scratch7.sem) (default : HIx 1) 262144
        iprop(((oW).view.loc (V d (cV (coordsV c i)) (jV (coordsV c i))) ↦[((oW).slice (Rect.unit (s := S4096x1024) (k0_off4 (coordsV c i) kf) S8x1024.size (k0_off4_inb (coordsV c i) kf)) (fun _ => rfl)).view.set]{fullShare} G)
          ∗ ((s3W).view.loc (V d (cV (coordsV c i)) (jV (coordsV c i))) ↦[(s3W).view.set]{fullShare} c3))
            ∗ ((s3W).view.loc (V d (cV (coordsV c i)) (jV (coordsV c i))) ↦[Finset.univ \ (s3W).view.set]{fullShare} c3))
        ∗ (∃ c4, Transfers.Flight countersEmb (V d (cV (coordsV c i)) (jV (coordsV c i))) (SemLoc.dma cc0_scratch8.sem) (default : HIx 1) 262144
        iprop(((oW).view.loc (V d (cV (coordsV c i)) (jV (coordsV c i))) ↦[((oW).slice (Rect.unit (s := S4096x1024) (k0_off8 (coordsV c i) kf) S8x1024.size (k0_off8_inb (coordsV c i) kf)) (fun _ => rfl)).view.set]{fullShare} G)
          ∗ ((s4W).view.loc (V d (cV (coordsV c i)) (jV (coordsV c i))) ↦[(s4W).view.set]{fullShare} c4))
            ∗ ((s4W).view.loc (V d (cV (coordsV c i)) (jV (coordsV c i))) ↦[Finset.univ \ (s4W).view.set]{fullShare} c4))
        ∗ ((oW).view.loc (V d (cV (coordsV c i)) (jV (coordsV c i))) ↦[((oW).view.setOn (oTR (coordsV c i)).set \ ((oW).slice (Rect.unit (s := S4096x1024) (k0_off4 (coordsV c i) kf) S8x1024.size (k0_off4_inb (coordsV c i) kf)) (fun _ => rfl)).view.set) \ ((oW).slice (Rect.unit (s := S4096x1024) (k0_off8 (coordsV c i) kf) S8x1024.size (k0_off8_inb (coordsV c i) kf)) (fun _ => rfl)).view.set]{fullShare} G))
    ∗ ∃ W', ⌜∀ p ∈ W', p ∈ W ∨ p.2 = none⌝ ∗ owes (V d (cV (coordsV c i)) (jV (coordsV c i))) O W')

/-- The loop's invariant. -/
def inv (d : Dev nD) (c : Fin (grid0.bound 0)) (i : Fin (grid0.bound 1)) (q qp : PosShare TreeShare)
    (O : CellTallies nD τ sig (HIx 1)) (W : Waits sig (HIx 1)) (fo : Buf (Elt F) (oLoc d)) (n : Nat) (_ : PUnit) : sProp (MM F) :=
  if n = 0 then A0 m d c i q qp O W fo
  else if h : n - 1 < k0_t1_loop.trips then A1 m d c i q qp O W ⟨n - 1, h⟩
  else iprop(False)

theorem inv_zero (d : Dev nD) (c : Fin (grid0.bound 0)) (i : Fin (grid0.bound 1)) (q qp : PosShare TreeShare)
    (O : CellTallies nD τ sig (HIx 1)) (W : Waits sig (HIx 1)) (fo : Buf (Elt F) (oLoc d)) (u : PUnit) : inv m d c i q qp O W fo 0 u = A0 m d c i q qp O W fo := if_pos rfl

theorem inv_succ (d : Dev nD) (c : Fin (grid0.bound 0)) (i : Fin (grid0.bound 1)) (q qp : PosShare TreeShare)
    (O : CellTallies nD τ sig (HIx 1)) (W : Waits sig (HIx 1)) (fo : Buf (Elt F) (oLoc d)) (kf : Fin k0_t1_loop.trips) (u : PUnit) :
    inv m d c i q qp O W fo (kf.val + 1) u = A1 m d c i q qp O W kf := by
  unfold inv
  rw [if_neg (Nat.succ_ne_zero _), dif_pos (show kf.val + 1 - 1 < k0_t1_loop.trips from by simpa using kf.isLt)]
  congr

end Cert.Proof.KI

end
-- ==== Proof.KIClose.lean ====
/-
  A trip closed: what the run of one trip leaves is the invariant for the next. The only step that is not a
  regrouping: the window of the result that the first out-copy carries is held at the contents it had when that copy
  was issued, the rest at the contents after the second out-copy; the two agree on that window (the second copy
  writes other rows), so the window can be held at the later contents too.
-/
import proofs.«213046_g56676388438729_cont_9to1c4b_565_26_alg».proof.Proof.KIInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

variable [FloatOps F]

theorem close_trip (d : Dev nD) (c : Fin (grid0.bound 0)) (i : Fin (grid0.bound 1)) (q qp : PosShare TreeShare)
    (O : CellTallies nD τ sig (HIx 1)) (W : Waits sig (HIx 1)) (kf : Fin k0_t1_loop.trips)
    (g0 : Buf (Elt F) ((V d (cV (coordsV c i)) (jV (coordsV c i))).loc cc0_scratch0)) (c1 : Buf (Elt F) ((V d (cV (coordsV c i)) (jV (coordsV c i))).loc cc0_scratch1)) (c2 : Buf (Elt F) ((V d (cV (coordsV c i)) (jV (coordsV c i))).loc cc0_scratch2))
    (c3 : Buf (Elt F) ((V d (cV (coordsV c i)) (jV (coordsV c i))).loc cc0_scratch3)) (c4 : Buf (Elt F) ((V d (cV (coordsV c i)) (jV (coordsV c i))).loc cc0_scratch4))
    (G0 G2 : Buf (Elt F) (oLoc d)) (Wn : Waits sig (HIx 1))
    (hWn : ∀ p ∈ Wn, p ∈ W ∨ p.2 = none)
    (hagree : ∀ idx ∈ ((oW).slice (Rect.unit (s := S4096x1024) (k0_off4 (coordsV c i) kf) S8x1024.size (k0_off4_inb (coordsV c i) kf)) (fun _ => rfl)).view.set, G0 idx = G2 idx)
    (hdone : RowsDone m d c i (2 * kf.val + 2) G2) :
    iprop((Transfers.MayWaits (V d (cV (coordsV c i)) (jV (coordsV c i))) (none : HIx 1) O : sProp (MM F))
      ∗ ((s0W).view.loc (V d (cV (coordsV c i)) (jV (coordsV c i))) ↦{fullShare} View.write (Elt F) (s0W).view g0 (permPay m d) Finset.univ)
      ∗ ((pW).view.loc (V d (cV (coordsV c i)) (jV (coordsV c i))) ↦{qp} m (pLoc d))
      ∗ semVal ((V d (cV (coordsV c i)) (jV (coordsV c i))), SemLoc.dma cc0_scoped0.sem) 0
      ∗ Transfers.Flight countersEmb (V d (cV (coordsV c i)) (jV (coordsV c i))) (SemLoc.dma cc0_scratch5.sem) (default : HIx 1) 262144
        iprop(((s1W).view.loc (V d (cV (coordsV c i)) (jV (coordsV c i))) ↦{fullShare} View.write (Elt F) (s1W).view c1 (inPay m d (k0_off5 (coordsV c i) kf) (k0_off5_inb (coordsV c i) kf)) Finset.univ)
          ∗ ((xW).view.loc (V d (cV (coordsV c i)) (jV (coordsV c i))) ↦[((xW).slice (Rect.unit (s := S4096x1024) (k0_off5 (coordsV c i) kf) S8x1024.size (k0_off5_inb (coordsV c i) kf)) (fun _ => rfl)).view.set]{Transfers.shareTokN q 0} m (xLoc d)))
      ∗ ((xW).view.loc (V d (cV (coordsV c i)) (jV (coordsV c i))) ↦[Finset.univ \ ((xW).slice (Rect.unit (s := S4096x1024) (k0_off5 (coordsV c i) kf) S8x1024.size (k0_off5_inb (coordsV c i) kf)) (fun _ => rfl)).view.set]{Transfers.shareTokN q 0} m (xLoc d))
      ∗ Transfers.Flight countersEmb (V d (cV (coordsV c i)) (jV (coordsV c i))) (SemLoc.dma cc0_scratch6.sem) (default : HIx 1) 262144
        iprop(((s2W).view.loc (V d (cV (coordsV c i)) (jV (coordsV c i))) ↦{fullShare} View.write (Elt F) (s2W).view c2 (inPay m d (k0_off9 (coordsV c i) kf) (k0_off9_inb (coordsV c i) kf)) Finset.univ)
          ∗ ((xW).view.loc (V d (cV (coordsV c i)) (jV (coordsV c i))) ↦[((xW).slice (Rect.unit (s := S4096x1024) (k0_off9 (coordsV c i) kf) S8x1024.size (k0_off9_inb (coordsV c i) kf)) (fun _ => rfl)).view.set]{Transfers.shareTokN q 1} m (xLoc d)))
      ∗ ((xW).view.loc (V d (cV (coordsV c i)) (jV (coordsV c i))) ↦[Finset.univ \ ((xW).slice (Rect.unit (s := S4096x1024) (k0_off9 (coordsV c i) kf) S8x1024.size (k0_off9_inb (coordsV c i) kf)) (fun _ => rfl)).view.set]{Transfers.shareTokN q 1} m (xLoc d))
      ∗ Transfers.Flight countersEmb (V d (cV (coordsV c i)) (jV (coordsV c i))) (SemLoc.dma cc0_scratch7.sem) (default : HIx 1) 262144
        iprop(((oW).view.loc (V d (cV (coordsV c i)) (jV (coordsV c i))) ↦[((oW).slice (Rect.unit (s := S4096x1024) (k0_off4 (coordsV c i) kf) S8x1024.size (k0_off4_inb (coordsV c i) kf)) (fun _ => rfl)).view.set]{fullShare} G0)
          ∗ ((s3W).view.loc (V d (cV (coordsV c i)) (jV (coordsV c i))) ↦[(s3W).view.set]{fullShare} c3))
      ∗ ((s3W).view.loc (V d (cV (coordsV c i)) (jV (coordsV c i))) ↦[Finset.univ \ (s3W).view.set]{fullShare} c3)
      ∗ Transfers.Flight countersEmb (V d (cV (coordsV c i)) (jV (coordsV c i))) (SemLoc.dma cc0_scratch8.sem) (default : HIx 1) 262144
        iprop(((oW).view.loc (V d (cV (coordsV c i)) (jV (coordsV c i))) ↦[((oW).slice (Rect.unit (s := S4096x1024) (k0_off8 (coordsV c i) kf) S8x1024.size (k0_off8_inb (coordsV c i) kf)) (fun _ => rfl)).view.set]{fullShare} G2)
          ∗ ((s4W).view.loc (V d (cV (coordsV c i)) (jV (coordsV c i))) ↦[(s4W).view.set]{fullShare} c4))
      ∗ ((s4W).view.loc (V d (cV (coordsV c i)) (jV (coordsV c i))) ↦[Finset.univ \ (s4W).view.set]{fullShare} c4)
      ∗ ((oW).view.loc (V d (cV (coordsV c i)) (jV (coordsV c i))) ↦[((oW).view.setOn (oTR (coordsV c i)).set \ ((oW).slice (Rect.unit (s := S4096x1024) (k0_off4 (coordsV c i) kf) S8x1024.size (k0_off4_inb (coordsV c i) kf)) (fun _ => rfl)).view.set) \ ((oW).slice (Rect.unit (s := S4096x1024) (k0_off8 (coordsV c i) kf) S8x1024.size (k0_off8_inb (coordsV c i) kf)) (fun _ => rfl)).view.set]{fullShare} G2)
      ∗ owes (V d (cV (coordsV c i)) (jV (coordsV c i))) O Wn)
      ⊢ A1 m d c i q qp O W kf := by
  -- the first out-copy's window, held at the contents when that copy was issued, is held at the later contents too:
  -- the two agree on the window
  rw [pointsTo_congr (ℓ := (oW).view.loc (V d (cV (coordsV c i)) (jV (coordsV c i)))) (f := G0) (g := G2) hagree]
  unfold A1
  iintro ⟨Hmw, Hs0, Hp, Hsem, Hf1, Hx1, Hf2, Hx2, Hf3, Hs3, Hf4, Hs4, Ho, HO⟩
  -- the rest is regrouping: each conjunct goes to its place, under the witnesses named
  isplitl [Hmw]; · iexact Hmw
  isplitl [Hs0]; · iexists g0; iexact Hs0
  isplitl [Hp]; · iexact Hp
  isplitl [Hsem]; · iexact Hsem
  isplitl [Hf1]; · iexists c1; iexact Hf1
  isplitl [Hx1]; · iexact Hx1
  isplitl [Hf2]; · iexists c2; iexact Hf2
  isplitl [Hx2]; · iexact Hx2
  isplitl [Hf3 Hs3 Hf4 Hs4 Ho]
  · iexists G2
    isplitr
    · ipureintro; exact hdone
    isplitl [Hf3 Hs3]
    · iexists c3
      isplitl [Hf3]; · iexact Hf3
      iexact Hs3
    isplitl [Hf4 Hs4]
    · iexists c4
      isplitl [Hf4]; · iexact Hf4
      iexact Hs4
    iexact Ho
  iexists Wn
  isplitr
  · ipureintro; exact hWn
  · iexact HO

end Cert.Proof.KI

end
-- ==== Proof.KIWin.lean ====
/-
  Writes through a window of eight rows of the result.

  A tile's 128 rows of the result, rows `[b, b + 128)` with `b = 256 s + 128 c`, are filled eight rows at a time:
  window `n` (`n < 16`) is rows `[b + 8 n, b + 8 n + 8)`, every column. A write through a window puts the payload's
  value at each element of those eight rows and leaves every other element of the table as it was. So if the first `8 n`
  rows already hold the gathered columns and window `n` is written with the gathered values of its rows, the first
  `8 (n + 1)` rows hold them; a write through a later window does not disturb the rows done; and after sixteen windows
  the whole block holds the gathered columns.
-/
import proofs.«213046_g56676388438729_cont_9to1c4b_565_26_alg».proof.Proof.KIGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

/-- The first of a tile's 128 rows of the result. -/
abbrev rowBase (L : grid0.Coords) : Nat := 256 * (L 1).val + 128 * (L 0).val

/-- The window of eight whole rows of the result at offsets `off`. -/
abbrev win (off : Fin 2 → Nat) (h : ∀ a, off a + S8x1024.size a ≤ S4096x1024.size a) : Memref sig .scVector .hbm S8x1024 .f32 :=
  (oW).slice (Rect.unit (s := S4096x1024) off S8x1024.size h) (fun _ => rfl)

/-! ## Where a window lies -/

/-- The rows of a window are rows of the table. -/
theorem win_row_lt (off : Fin 2 → Nat) (h : ∀ a, off a + S8x1024.size a ≤ S4096x1024.size a) {b : Nat} (h0 : off 0 = b)
    (z : S8x1024.Idx) : b + (z 0).val < 4096 := by
  have h8 : off 0 + 8 ≤ 4096 := h 0
  have hz : ((z 0 : Fin _) : Nat) < 8 := (z 0).isLt
  omega

section
variable (off : Fin 2 → Nat) (h : ∀ a, off a + S8x1024.size a ≤ S4096x1024.size a)

/-- Element `z` of the window is the result's element at row `off 0 + z 0` … -/
theorem win_emb_row (z : S8x1024.Idx) : (((win off h).view.emb z) 0).val = off 0 + (z 0).val := by
  show off 0 + 1 * (z 0).val = off 0 + (z 0).val
  rw [Nat.one_mul]

/-- … and column `off 1 + z 1`. -/
theorem win_emb_col (z : S8x1024.Idx) : (((win off h).view.emb z) 1).val = off 1 + (z 1).val := by
  show off 1 + 1 * (z 1).val = off 1 + (z 1).val
  rw [Nat.one_mul]

/-- The window's elements are those of the rectangle it was cut at. -/
theorem win_set : (win off h).view.set = (Rect.unit (s := S4096x1024) off S8x1024.size h).set :=
  View.set_slice_whole (main_v0_scv : Ref sig .scVector) _

/-- Membership in a window, coordinate by coordinate. -/
theorem mem_win_iff' (d : Dev nD) (idx : Idx (oLoc d)) :
    idx ∈ (win off h).view.set ↔ (off 0 ≤ (idx 0).val ∧ (idx 0).val < off 0 + 8) ∧ (off 1 ≤ (idx 1).val ∧ (idx 1).val < off 1 + 1024) := by
  rw [win_set]
  show idx ∈ (Rect.unit (s := S4096x1024) off S8x1024.size h).set ↔ _
  rw [Rect.mem_set_unit, Fin.forall_fin_two]
  exact Iff.rfl

/-- A window that starts at column 0 holds whole rows: membership is a condition on the row alone. -/
theorem mem_win_iff (d : Dev nD) (h1 : off 1 = 0) (idx : Idx (oLoc d)) :
    idx ∈ (win off h).view.set ↔ off 0 ≤ (idx 0).val ∧ (idx 0).val < off 0 + 8 := by
  rw [mem_win_iff']
  have hc : ((idx 1 : Fin _) : Nat) < 1024 := (idx 1).isLt
  omega

/-- Element `z` of a window that starts at row `b`, column 0, named by its two coordinates. -/
theorem win_emb_eq_ix2 {b : Nat} (h0 : off 0 = b) (h1 : off 1 = 0) (z : S8x1024.Idx) :
    (win off h).view.emb z = ix2 (n0 := 4096) (n1 := 1024) ⟨b + (z 0).val, win_row_lt off h h0 z⟩ ⟨(z 1).val, (z 1).isLt⟩ := by
  refine funext (Fin.forall_fin_two.mpr ⟨Fin.ext ?_, Fin.ext ?_⟩)
  · exact (win_emb_row off h z).trans (by rw [h0])
  · exact (win_emb_col off h z).trans (by rw [h1, Nat.zero_add])

/-! ## A write through a window -/

/-- At an element of the window the write leaves the payload's value … -/
theorem write_win_emb (d : Dev nD) (G : Buf (Elt F) (oLoc d)) (w : S8x1024.Idx → Elt F .f32) (z : S8x1024.Idx) :
    View.write (Elt F) (win off h).view G w Finset.univ ((win off h).view.emb z) = w z :=
  (View.write_emb_of_mem (v := (win off h).view) (Val := Elt F) G w (Finset.mem_univ z)).trans rfl

/-- … and off the window it leaves what was there. -/
theorem write_win_off (d : Dev nD) (G : Buf (Elt F) (oLoc d)) (w : S8x1024.Idx → Elt F .f32) (idx : Idx (oLoc d))
    (hi : idx ∉ (win off h).view.set) :
    View.write (Elt F) (win off h).view G w Finset.univ idx = G idx :=
  View.write_of_not_mem G w Finset.univ (by rwa [View.setOn_univ])

/-- A write through a window changes nothing in rows outside the window's eight. -/
theorem write_win_of_row (d : Dev nD) (G : Buf (Elt F) (oLoc d)) (w : S8x1024.Idx → Elt F .f32) (idx : Idx (oLoc d))
    (hr : (idx 0).val < off 0 ∨ off 0 + 8 ≤ (idx 0).val) :
    View.write (Elt F) (win off h).view G w Finset.univ idx = G idx := by
  refine write_win_off off h d G w idx fun hm => ?_
  have := ((mem_win_iff' off h d idx).mp hm).1
  omega

end

/-- The payload of a copy out of the whole out-buffer is the out-buffer's contents. -/
theorem payload_eq (d : Dev nD) (L : grid0.Coords) (S3c : Buf (Elt F) ((V d (cV L) (jV L)).loc cc0_scratch3)) :
    ReadAs.same.apply (View.read (Elt F) (s3W).view S3c) = S3c := rfl

/-- Two windows on different rows: a write through one leaves the other's elements as they were. -/
theorem write_win_agree (d : Dev nD) {off0 off1 : Fin 2 → Nat}
    (h0 : ∀ a, off0 a + S8x1024.size a ≤ S4096x1024.size a) (h1 : ∀ a, off1 a + S8x1024.size a ≤ S4096x1024.size a)
    (hsep : off0 0 + 8 ≤ off1 0 ∨ off1 0 + 8 ≤ off0 0)
    (G : Buf (Elt F) (oLoc d)) (w : S8x1024.Idx → Elt F .f32) :
    ∀ idx ∈ (win off0 h0).view.set, View.write (Elt F) (win off1 h1).view G w Finset.univ idx = G idx := by
  intro idx hm
  have := ((mem_win_iff' off0 h0 d idx).mp hm).1
  exact write_win_of_row off1 h1 d G w idx (by omega)

/-! ## The rows written so far -/

variable (m : (ℓ : Loc nD τ sig) → Buf (Elt F) ℓ)

/-- The first `8 n` of the tile's rows hold the gathered columns. -/
def DoneUpTo (d : Dev nD) (L : grid0.Coords) (n : Nat) (G : Buf (Elt F) (oLoc d)) : Prop :=
  ∀ idx : Idx (oLoc d), rowBase L ≤ (idx 0).val → (idx 0).val < rowBase L + 8 * n → G idx = Gout m d idx

theorem doneUpTo_zero (d : Dev nD) (L : grid0.Coords) (G : Buf (Elt F) (oLoc d)) : DoneUpTo m d L 0 G := by
  intro idx hlo hhi
  omega

/-- Window `n` written with the gathered values of its eight rows: eight more rows are done. -/
theorem doneUpTo_step (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (h0 : off 0 = rowBase L + 8 * n) (h1 : off 1 = 0)
    (hw : ∀ z : S8x1024.Idx, w z = Gout m d ((win off h).view.emb z)) :
    DoneUpTo m d L (n + 1) (View.write (Elt F) (win off h).view G w Finset.univ) := by
  intro idx hlo hhi
  by_cases hm : idx ∈ (win off h).view.set
  · -- an element of the window is some `z` of the payload
    obtain ⟨z, -, rfl⟩ := Finset.mem_map.mp hm
    rw [write_win_emb, hw]
  · -- below the window: one of the rows done before
    rw [write_win_off off h d G w idx hm]
    rw [mem_win_iff off h d h1] at hm
    exact hn idx hlo (by omega)

/-- The same, the payload's values named by row and column. -/
theorem doneUpTo_step_ix2 (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (h0 : off 0 = rowBase L + 8 * n) (h1 : off 1 = 0)
    (hw : ∀ z : S8x1024.Idx, w z = Gout m d (ix2 (n0 := 4096) (n1 := 1024) ⟨rowBase L + 8 * n + (z 0).val, win_row_lt off h h0 z⟩ ⟨(z 1).val, (z 1).isLt⟩)) :
    DoneUpTo m d L (n + 1) (View.write (Elt F) (win off h).view G w Finset.univ) :=
  doneUpTo_step m d L h w hn h0 h1 fun z => (hw z).trans (congrArg (Gout m d) (win_emb_eq_ix2 off h h0 h1 z).symm)

/-- A write through a window at or after row `8 n` of the tile's leaves the first `8 n` rows done. -/
theorem doneUpTo_write_later (d : Dev nD) (L : grid0.Coords) {n : Nat} {G : Buf (Elt F) (oLoc d)}
    {off : Fin 2 → Nat} (h : ∀ a, off a + S8x1024.size a ≤ S4096x1024.size a) (w : S8x1024.Idx → Elt F .f32)
    (hn : DoneUpTo m d L n G) (hoff : rowBase L + 8 * n ≤ off 0) :
    DoneUpTo m d L n (View.write (Elt F) (win off h).view G w Finset.univ) := by
  intro idx hlo hhi
  rw [write_win_of_row off h d G w idx (by omega)]
  exact hn idx hlo hhi

/-- A trip's two writes, through windows `n` and `n + 1` in that order: sixteen more rows are done. -/
theorem doneUpTo_step2 (d : Dev nD) (L : grid0.Coords) {n : Nat} {G : Buf (Elt F) (oLoc d)}
    {off0 off1 : Fin 2 → Nat}
    (h0 : ∀ a, off0 a + S8x1024.size a ≤ S4096x1024.size a) (h1 : ∀ a, off1 a + S8x1024.size a ≤ S4096x1024.size a)
    (w0 w1 : S8x1024.Idx → Elt F .f32)
    (hn : DoneUpTo m d L n G)
    (h00 : off0 0 = rowBase L + 8 * n) (h01 : off0 1 = 0)
    (h10 : off1 0 = rowBase L + 8 * (n + 1)) (h11 : off1 1 = 0)
    (hw0 : ∀ z : S8x1024.Idx, w0 z = Gout m d ((win off0 h0).view.emb z))
    (hw1 : ∀ z : S8x1024.Idx, w1 z = Gout m d ((win off1 h1).view.emb z)) :
    DoneUpTo m d L (n + 2)
      (View.write (Elt F) (win off1 h1).view (View.write (Elt F) (win off0 h0).view G w0 Finset.univ) w1 Finset.univ) :=
  doneUpTo_step m d L h1 w1 (doneUpTo_step m d L h0 w0 hn h00 h01 hw0) h10 h11 hw1

/-- The same, the payloads' values named by row and column. -/
theorem doneUpTo_step2_ix2 (d : Dev nD) (L : grid0.Coords) {n : Nat} {G : Buf (Elt F) (oLoc d)}
    {off0 off1 : Fin 2 → Nat}
    (h0 : ∀ a, off0 a + S8x1024.size a ≤ S4096x1024.size a) (h1 : ∀ a, off1 a + S8x1024.size a ≤ S4096x1024.size a)
    (w0 w1 : S8x1024.Idx → Elt F .f32)
    (hn : DoneUpTo m d L n G)
    (h00 : off0 0 = rowBase L + 8 * n) (h01 : off0 1 = 0)
    (h10 : off1 0 = rowBase L + 8 * (n + 1)) (h11 : off1 1 = 0)
    (hw0 : ∀ z : S8x1024.Idx, w0 z = Gout m d (ix2 (n0 := 4096) (n1 := 1024) ⟨rowBase L + 8 * n + (z 0).val, win_row_lt off0 h0 h00 z⟩ ⟨(z 1).val, (z 1).isLt⟩))
    (hw1 : ∀ z : S8x1024.Idx, w1 z = Gout m d (ix2 (n0 := 4096) (n1 := 1024) ⟨rowBase L + 8 * (n + 1) + (z 0).val, win_row_lt off1 h1 h10 z⟩ ⟨(z 1).val, (z 1).isLt⟩)) :
    DoneUpTo m d L (n + 2)
      (View.write (Elt F) (win off1 h1).view (View.write (Elt F) (win off0 h0).view G w0 Finset.univ) w1 Finset.univ) :=
  doneUpTo_step_ix2 m d L h1 w1 (doneUpTo_step_ix2 m d L h0 w0 hn h00 h01 hw0) h10 h11 hw1

/-! ## The end: all sixteen windows written -/

/-- With all `8 · 16 = 128` rows done the tile's block holds the gathered columns. -/
theorem doneUpTo_blk (d : Dev nD) (L : grid0.Coords) {G : Buf (Elt F) (oLoc d)} (hG : DoneUpTo m d L 16 G) :
    ∀ idx ∈ blk d L, G idx = Gout m d idx := by
  intro idx hi
  rw [mem_blk_iff] at hi
  exact hG idx hi.1 (by have := hi.2; omega)

/-- So the tile's rows, held with those contents, are held with the gathered columns. -/
theorem blk_pointsTo_done (d : Dev nD) (L : grid0.Coords) {G : Buf (Elt F) (oLoc d)} (hG : DoneUpTo m d L 16 G) :
    (oLoc d ↦[blk d L]{fullShare} G : sProp (MM F)) = oLoc d ↦[blk d L]{fullShare} Gout m d :=
  pointsTo_congr (doneUpTo_blk m d L hG)

end Cert.Proof.KI

end
-- ==== Proof.KIValue.lean ====
/-
  The value of one gather phase of the tile.

  A phase reads an in scratch (an 8 × 1024 block of the operand's rows) and the index scratch (the 1024 entries of the
  index vector) and stores, strip by strip, into an out scratch: the strip at row `r`, columns `c … c + 15` holds the
  in scratch's row `r` at the sixteen columns entries `c … c + 15` of the index scratch name. `gatherAt` is that as one
  function of the two contents; a piece lemma per in scratch says one stored strip is `gatherAt` along its own
  rectangle; a certificate says the 512 strips cover the table; and together they say the out scratch reads
  `gatherAt` everywhere after the phase. The strips are also named in the order they are stored (`rectOf`), so that a
  phase's list of stores is recognised one store at a time and the cover is checked once, on the rectangles alone.
-/
import proofs.«213046_g56676388438729_cont_9to1c4b_565_26_alg».proof.Proof.KITileLib
import Idealize.ShloMosaic.Lib.ValueIdx
import Idealize.ShloMosaic.Lib.Pipeline.Value
import Idealize.ShloMosaic.Lib.Writes
import Idealize.ShloMosaic.Lib.Exec.Geometry

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

/-- One gather phase as a function of the in scratch's contents and the index scratch's: element `(b, j)` is the in
    scratch's row `b` at the column entry `j` of the index scratch names (reduced modulo the number of columns, so
    that the function is total). -/
def gatherAt (inC : S8x1024.Idx → Elt F .f32) (s0c : S1024.Idx → BitVec 32) : S8x1024.Idx → Elt F .f32 :=
  fun y => inC (ix2 (y 0) ⟨(s0c (ix1 (y 1))).toNat % 1024, Nat.mod_lt _ (by decide)⟩)

/-- The heart of one piece: sixteen lanes picked out of an 8 × 1024 table `RD` at row `r` and at the columns the sixteen
    entries `IDX` name, laid out as a 1 × 16 strip, are `gatherAt` read along the strip at row `r`, columns
    `c … c + 15`, when `IDX` is the index table's entries `c … c + 15` and each is below 1024. -/
theorem piece_core (RD INC : S8x1024.Idx → Elt F .f32) (S0C : S1024.Idx → BitVec 32) (VR IDX : IVec S16 32) (r c : Nat)
    (hRD : ∀ y, RD y = INC y) (hvr : ∀ x, (VR x).toNat = r) (hs0 : ∀ j, (S0C j).toNat < 1024)
    (hrc : ∀ a, (![r, c] : Fin 2 → Nat) a + S1x16.size a ≤ S8x1024.size a)
    (hIDX : ∀ x : S16.Idx, ∀ hlt : c + (x 0).val < 1024, IDX x = S0C (ix1 ⟨c + (x 0).val, hlt⟩))
    (h : ∀ a x, ((![VR, IDX] : Fin 2 → IVec S16 32) a x).toNat < S8x1024.size a) (hsc : S16.ShapeCasts S1x16)
    (x : S1x16.Idx) :
    shapeCast S1x16 (loadIdx RD ![VR, IDX] h) hsc x
      = gatherAt INC S0C ((Rect.unit (s := S8x1024) ![r, c] S1x16.size hrc).emb x) := by
  have hx0 : (x 0).val = 0 := by have : (x 0).val < 1 := (x 0).isLt; omega
  have hx1 : (x 1).val < 16 := (x 1).isLt
  have hc : c + 16 ≤ 1024 := hrc 1
  rw [Idealize.ShloMosaic.shapeCast_apply _ hsc x (ix1 ⟨(x 1).val, hx1⟩)
    (by rw [Shape.rowMajor_val_one, Shape.rowMajor_val_two]; show (x 1).val = (x 0).val * 16 + (x 1).val; omega)]
  unfold loadIdx gatherAt
  rw [hRD]
  have he1 : (Rect.unit (s := S8x1024) ![r, c] S1x16.size hrc).emb x 1 = ⟨c + (x 1).val, by show c + (x 1).val < 1024; omega⟩ :=
    Fin.ext (by rw [Rect.emb_apply]; show c + 1 * (x 1).val = c + (x 1).val; omega)
  have he0 : ((Rect.unit (s := S8x1024) ![r, c] S1x16.size hrc).emb x 0).val = r := by
    rw [Rect.emb_apply]; show r + 1 * (x 0).val = r; omega
  congr 1
  funext a
  refine Fin.ext ?_
  match a with
  | ⟨0, _⟩ =>
    show (VR _).toNat = _
    rw [hvr]; exact he0.symm
  | ⟨1, _⟩ =>
    show (IDX (ix1 ⟨(x 1).val, hx1⟩)).toNat
      = (S0C (ix1 ((Rect.unit (s := S8x1024) ![r, c] S1x16.size hrc).emb x 1))).toNat % 1024
    rw [hIDX _ (by show c + (x 1).val < 1024; omega), he1, Nat.mod_eq_of_lt (hs0 _)]
    rfl

variable [FloatOps F]

/-- A piece of a gather phase that reads the first in scratch: the sixteen lanes an indexed load picks out of it at row
    `r` and the columns entries `c … c + 15` of the index scratch name, as a 1 × 16 strip, are `gatherAt` along the
    strip at row `r`, columns `c … c + 15`. -/
theorem piece_s1 (INC : (s1W).view.ty.Contents (Elt F)) (S0C : (s0W).view.ty.Contents (Elt F)) (VR : IVec S16 32) (r c : Nat)
    (hvr : ∀ x, (VR x).toNat = r) (hs0 : ∀ j, (S0C j).toNat < 1024)
    (hc : ∀ a, (![c] : Fin 1 → Nat) a + S16.size a ≤ S1024.size a)
    (hrc : ∀ a, (![r, c] : Fin 2 → Nat) a + S1x16.size a ≤ S8x1024.size a)
    (h : ∀ a x, ((![VR, View.readAt (Elt F) (s0W).view (Rect.unit (s := S1024) ![c] S16.size hc).toLoadRect S0C] :
      Fin 2 → IVec S16 32) a x).toNat < S8x1024.size a) (hsc : S16.ShapeCasts S1x16) :
    ∀ x : S1x16.Idx,
      shapeCast S1x16 (loadIdx (View.readAt (Elt F) (s1W).view (LoadRect.whole S8x1024) INC)
        ![VR, View.readAt (Elt F) (s0W).view (Rect.unit (s := S1024) ![c] S16.size hc).toLoadRect S0C] h) hsc x
      = gatherAt INC S0C ((Rect.unit (s := S8x1024) ![r, c] S1x16.size hrc).emb x) :=
  piece_core _ INC S0C VR _ r c
    (fun y => congrArg INC (Rect.emb_whole_apply S8x1024 y)) hvr hs0 hrc
    (fun x hlt => congrArg S0C (funext fun (a : Fin 1) => Fin.ext (by
      obtain rfl : a = 0 := Subsingleton.elim _ _
      show c + 1 * (x 0).val = c + (x 0).val; omega))) h hsc

/-- A piece of a gather phase that reads the second in scratch: the sixteen lanes an indexed load picks out of it at row
    `r` and the columns entries `c … c + 15` of the index scratch name, as a 1 × 16 strip, are `gatherAt` along the
    strip at row `r`, columns `c … c + 15`. -/
theorem piece_s2 (INC : (s2W).view.ty.Contents (Elt F)) (S0C : (s0W).view.ty.Contents (Elt F)) (VR : IVec S16 32) (r c : Nat)
    (hvr : ∀ x, (VR x).toNat = r) (hs0 : ∀ j, (S0C j).toNat < 1024)
    (hc : ∀ a, (![c] : Fin 1 → Nat) a + S16.size a ≤ S1024.size a)
    (hrc : ∀ a, (![r, c] : Fin 2 → Nat) a + S1x16.size a ≤ S8x1024.size a)
    (h : ∀ a x, ((![VR, View.readAt (Elt F) (s0W).view (Rect.unit (s := S1024) ![c] S16.size hc).toLoadRect S0C] :
      Fin 2 → IVec S16 32) a x).toNat < S8x1024.size a) (hsc : S16.ShapeCasts S1x16) :
    ∀ x : S1x16.Idx,
      shapeCast S1x16 (loadIdx (View.readAt (Elt F) (s2W).view (LoadRect.whole S8x1024) INC)
        ![VR, View.readAt (Elt F) (s0W).view (Rect.unit (s := S1024) ![c] S16.size hc).toLoadRect S0C] h) hsc x
      = gatherAt INC S0C ((Rect.unit (s := S8x1024) ![r, c] S1x16.size hrc).emb x) :=
  piece_core _ INC S0C VR _ r c
    (fun y => congrArg INC (Rect.emb_whole_apply S8x1024 y)) hvr hs0 hrc
    (fun x hlt => congrArg S0C (funext fun (a : Fin 1) => Fin.ext (by
      obtain rfl : a = 0 := Subsingleton.elim _ _
      show c + 1 * (x 0).val = c + (x 0).val; omega))) h hsc

/-! ## The cover

A gather phase stores 512 strips of one row and sixteen columns, the column slices in ascending order and within a slice
the rows in ascending order, each store listed in front of the earlier ones: strip `(r, 16 k)` is entry
`8 (63 - k) + (7 - r)` of the list. The certificate cuts the 8 × 1024 table in halves along its columns down to the 64
slices of sixteen columns, then each slice in halves along its rows down to single rows, and names each strip's entry. -/

/-- The eight rows of column slice `k`, halved down to single rows. -/
def covRows (k : Nat) : LoadRect.Cov :=
  .split 0 4
    (.split 0 2 (.split 0 1 (.leaf ((63 - k) * 8 + 7)) (.leaf ((63 - k) * 8 + 6)))
      (.split 0 1 (.leaf ((63 - k) * 8 + 5)) (.leaf ((63 - k) * 8 + 4))))
    (.split 0 2 (.split 0 1 (.leaf ((63 - k) * 8 + 3)) (.leaf ((63 - k) * 8 + 2)))
      (.split 0 1 (.leaf ((63 - k) * 8 + 1)) (.leaf ((63 - k) * 8))))

/-- `2 ^ n` column slices from slice `k` on, halved down to single slices. -/
def covCols : Nat → Nat → LoadRect.Cov
  | 0, k => covRows k
  | n + 1, k => .split 1 (16 * 2 ^ n) (covCols n k) (covCols n (k + 2 ^ n))

/-- The certificate for the whole table: sixty-four slices. -/
def covAll : LoadRect.Cov := covCols 6 0

/-! ## What the out scratch reads after the phase -/

/-- After the stores of a gather phase — every piece `gatherAt` along its own rectangle, the pieces covering the table
    by the certificate — the out scratch reads `gatherAt` everywhere, whatever it held before. -/
theorem read_gather {sig' : RefSig} {κ : Kind} {sp : Space} (v : View sig' κ sp S8x1024 .f32) (f : v.ty.Contents (Elt F))
    (INC : S8x1024.Idx → Elt F .f32) (S0C : S1024.Idx → BitVec 32) (L : List (View.Piece (Elt F) S8x1024 .f32))
    (t : LoadRect.Cov) (hcov : LoadRect.covChk (L.map Sigma.fst) (LoadRect.whole S8x1024) t = true)
    (hp : ∀ p ∈ L, ∀ x : p.1.shape.Idx, p.2 x = gatherAt INC S0C (p.1.emb x)) :
    ∀ y : S8x1024.Idx, v.read (Elt F) (v.writes (Elt F) f L) y = gatherAt INC S0C y := by
  intro y
  refine View.read_writes_apply_of_pieces v f (gatherAt INC S0C) L hp y ?_
  obtain ⟨p, hm, hy⟩ := LoadRect.cover_of_covChk L (LoadRect.whole S8x1024) t hcov y
  exact ⟨p, hm, by rwa [show (LoadRect.whole S8x1024).idx y = y from Rect.emb_whole_apply S8x1024 y] at hy⟩

/-! ## The pieces of a list, one at a time -/

/-- A list of pieces all of which are `G` along their own rectangles stays so with one more such piece in front — stated
    with the new piece's rectangle and payload apart, so that a piece's obligation names its payload itself. -/
theorem pieces_cons {G : S8x1024.Idx → Elt F .f32} (r : Rect S8x1024) (w : r.shape.Idx → Elt F .f32)
    (L : List (View.Piece (Elt F) S8x1024 .f32)) (hw : ∀ x, w x = G (r.emb x))
    (hL : ∀ p ∈ L, ∀ x : p.1.shape.Idx, p.2 x = G (p.1.emb x)) :
    ∀ p ∈ (⟨r, w⟩ :: L : List (View.Piece (Elt F) S8x1024 .f32)), ∀ x : p.1.shape.Idx, p.2 x = G (p.1.emb x) :=
  List.forall_mem_cons.2 ⟨hw, hL⟩

/-- The empty list has no piece to ask about. -/
theorem pieces_nil {G : S8x1024.Idx → Elt F .f32} :
    ∀ p ∈ ([] : List (View.Piece (Elt F) S8x1024 .f32)), ∀ x : p.1.shape.Idx, p.2 x = G (p.1.emb x) :=
  fun _ h => absurd h List.not_mem_nil

/-! ## The strips in the order they are stored

Store number `n` of a phase (from zero) is row `n % 8` of column slice `n / 8`: the slices in ascending order, within a
slice the rows in ascending order. A list of pieces is the first `n` stores' when its rectangles are those, the latest
first, and every piece is `G` along its own rectangle. -/

/-- The rectangle of store number `n`: one row, sixteen columns, at row `n % 8` of column slice `n / 8`. -/
def rectOf (n : Nat) : Rect S8x1024 :=
  Rect.unit (s := S8x1024) ![n % 8, 16 * (n / 8 % 64)] S1x16.size
    (Rect.inb₂ (by show n % 8 + 1 ≤ 8; omega) (by show 16 * (n / 8 % 64) + 16 ≤ 1024; omega))

/-- The rectangles of the first `n` stores, the latest first. -/
def firstRects : Nat → List (Rect S8x1024)
  | 0 => []
  | n + 1 => rectOf n :: firstRects n

/-- The 512 stores of a phase cover the table: the certificate, checked. -/
theorem cov512 : LoadRect.covChk (firstRects 512) (LoadRect.whole S8x1024) covAll = true := by decide +kernel

/-- `L` is the first `n` stores of a phase whose every piece is `G` along its own rectangle. -/
def PiecesUpTo (G : S8x1024.Idx → Elt F .f32) (n : Nat) (L : List (View.Piece (Elt F) S8x1024 .f32)) : Prop :=
  L.map Sigma.fst = firstRects n ∧ ∀ p ∈ L, ∀ x : p.1.shape.Idx, p.2 x = G (p.1.emb x)

theorem upTo_nil {G : S8x1024.Idx → Elt F .f32} : PiecesUpTo G 0 [] :=
  ⟨rfl, pieces_nil⟩

/-- One more store: its rectangle is store number `n`'s and its payload is `G` along it. -/
theorem upTo_cons {G : S8x1024.Idx → Elt F .f32} (n : Nat) (w : (rectOf n).shape.Idx → Elt F .f32)
    (L : List (View.Piece (Elt F) S8x1024 .f32)) (hw : ∀ x, w x = G ((rectOf n).emb x)) (hL : PiecesUpTo G n L) :
    PiecesUpTo G (n + 1) (⟨rectOf n, w⟩ :: L) :=
  ⟨by rw [List.map_cons, hL.1]; rfl, pieces_cons (rectOf n) w L hw hL.2⟩

/-- After the 512 stores of a gather phase, each `gatherAt` along its own rectangle, the out scratch reads `gatherAt`
    everywhere, whatever it held before. -/
theorem read_gather_upTo {sig' : RefSig} {κ : Kind} {sp : Space} (v : View sig' κ sp S8x1024 .f32) (f : v.ty.Contents (Elt F))
    (INC : S8x1024.Idx → Elt F .f32) (S0C : S1024.Idx → BitVec 32) (L : List (View.Piece (Elt F) S8x1024 .f32))
    (h : PiecesUpTo (gatherAt INC S0C) 512 L) :
    ∀ y : S8x1024.Idx, v.read (Elt F) (v.writes (Elt F) f L) y = gatherAt INC S0C y :=
  read_gather v f INC S0C L covAll (h.1 ▸ cov512) h.2

end Cert.Proof.KI

end
-- ==== Proof.KIBridge.lean ====
/-
  What a gather phase computes is the specified result on the window it is copied to.

  An in-buffer holds eight rows of the operand, rows `[r, r + 8)`, every column; the index scratch holds the index
  vector `p`. Element `z` of what the gather phase assembles is the in-buffer's element in row `z 0` and column
  `p (z 1) mod 1024`, which is the operand's element in row `r + z 0` and that column. The window of the result over
  the same rows has its element `z` in row `r + z 0`, column `z 1`, where the specified result is the operand's
  element in row `r + z 0`, column `p (z 1) mod 1024`. The two agree.
-/
import proofs.«213046_g56676388438729_cont_9to1c4b_565_26_alg».proof.Proof.KIWin
import proofs.«213046_g56676388438729_cont_9to1c4b_565_26_alg».proof.Proof.KIInv
import proofs.«213046_g56676388438729_cont_9to1c4b_565_26_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable (m : (ℓ : Loc nD τ sig) → Buf (Elt F) ℓ)

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

variable [FloatOps F]

/-! ## The eight rows an in-buffer is filled from -/

/-- Element `y` of the eight rows of the operand at `off` is the operand's element at row `off 0 + y 0` … -/
theorem xwin_emb_row (off : Fin 2 → Nat) (h : ∀ a, off a + S8x1024.size a ≤ S4096x1024.size a) (y : S8x1024.Idx) :
    ((((xW).slice (Rect.unit (s := S4096x1024) off S8x1024.size h) (fun _ => rfl)).view.emb y) 0).val = off 0 + (y 0).val := by
  show off 0 + 1 * (y 0).val = off 0 + (y 0).val
  rw [Nat.one_mul]

/-- … and column `off 1 + y 1`. -/
theorem xwin_emb_col (off : Fin 2 → Nat) (h : ∀ a, off a + S8x1024.size a ≤ S4096x1024.size a) (y : S8x1024.Idx) :
    ((((xW).slice (Rect.unit (s := S4096x1024) off S8x1024.size h) (fun _ => rfl)).view.emb y) 1).val = off 1 + (y 1).val := by
  show off 1 + 1 * (y 1).val = off 1 + (y 1).val
  rw [Nat.one_mul]

/-- What lands in an in-buffer is the operand, read at the eight rows' elements. -/
theorem inPay_apply (d : Dev nD) (off : Fin 2 → Nat) (h : ∀ a, off a + S8x1024.size a ≤ S4096x1024.size a) (y : S8x1024.Idx) :
    inPay m d off h y = m (xLoc d) (((xW).slice (Rect.unit (s := S4096x1024) off S8x1024.size h) (fun _ => rfl)).view.emb y) := rfl

/-- What lands in the index scratch is the index vector. -/
theorem permPay_eq (d : Dev nD) : permPay m d = m (pLoc d) := rfl

/-! ## The bridge -/

/-- Picking, in the eight rows fetched from `offI`, the columns the index vector names gives the specified result on
    the window of the same rows: both are the operand at row `off 0 + z 0`, column `p (z 1) mod 1024`. -/
theorem gather_Gout (d : Dev nD) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0) (z : S8x1024.Idx) :
    gatherAt (inPay m d offI hI) (permPay m d) z = Gout m d ((win offO hO).view.emb z) := by
  -- the window's element under `z` is in column `z 1`
  have hcol : ((win offO hO).view.emb z) 1 = z 1 := Fin.ext ((win_emb_col offO hO z).trans (by rw [eO, Nat.zero_add]))
  show m (xLoc d) (((xW).slice (Rect.unit (s := S4096x1024) offI S8x1024.size hI) (fun _ => rfl)).view.emb
        (ix2 (z 0) ⟨((m (pLoc d)) (ix1 (z 1))).toNat % 1024, Nat.mod_lt _ (by decide)⟩))
      = m (xLoc d) (ix2 (n0 := 4096) (n1 := 1024) (((win offO hO).view.emb z) 0) (Cert.Spec.col (m (pLoc d)) (((win offO hO).view.emb z) 1)))
  congr 1
  refine funext (Fin.forall_fin_two.mpr ⟨Fin.ext ?_, Fin.ext ?_⟩)
  · -- rows: `offI 0 + z 0 = offO 0 + z 0`
    exact (xwin_emb_row offI hI _).trans ((by rw [e0] : offI 0 + (z 0).val = offO 0 + (z 0).val).trans (win_emb_row offO hO z).symm)
  · -- columns: `0 + p (z 1) mod 1024` on both sides
    refine (xwin_emb_col offI hI _).trans ?_
    rw [eI, Nat.zero_add, hcol]
    rfl

/-- The same with the two scratch buffers' contents as the run leaves them: each a write of the whole buffer. -/
theorem gather_Gout_s1 (d : Dev nD) (L : grid0.Coords) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0)
    (g1 : (s1W).view.ty.Contents (Elt F)) (g0 : (s0W).view.ty.Contents (Elt F)) (z : S8x1024.Idx) :
    gatherAt (View.write (Elt F) (s1W).view g1 (inPay m d offI hI) Finset.univ)
        (View.write (Elt F) (s0W).view g0 (permPay m d) Finset.univ) z
      = Gout m d ((win offO hO).view.emb z) := by
  rw [show View.write (Elt F) (s1W).view g1 (inPay m d offI hI) Finset.univ = inPay m d offI hI from
        View.write_whole_univ (cc0_scratch1 : Ref sig .scVector) g1 _,
      show View.write (Elt F) (s0W).view g0 (permPay m d) Finset.univ = permPay m d from
        View.write_whole_univ (cc0_scratch0 : Ref sig .scVector) g0 _]
  exact gather_Gout m d offI offO hI hO e0 eI eO z

theorem gather_Gout_s2 (d : Dev nD) (L : grid0.Coords) (offI offO : Fin 2 → Nat)
    (hI : ∀ a, offI a + S8x1024.size a ≤ S4096x1024.size a) (hO : ∀ a, offO a + S8x1024.size a ≤ S4096x1024.size a)
    (e0 : offI 0 = offO 0) (eI : offI 1 = 0) (eO : offO 1 = 0)
    (g2 : (s2W).view.ty.Contents (Elt F)) (g0 : (s0W).view.ty.Contents (Elt F)) (z : S8x1024.Idx) :
    gatherAt (View.write (Elt F) (s2W).view g2 (inPay m d offI hI) Finset.univ)
        (View.write (Elt F) (s0W).view g0 (permPay m d) Finset.univ) z
      = Gout m d ((win offO hO).view.emb z) := by
  rw [show View.write (Elt F) (s2W).view g2 (inPay m d offI hI) Finset.univ = inPay m d offI hI from
        View.write_whole_univ (cc0_scratch2 : Ref sig .scVector) g2 _,
      show View.write (Elt F) (s0W).view g0 (permPay m d) Finset.univ = permPay m d from
        View.write_whole_univ (cc0_scratch0 : Ref sig .scVector) g0 _]
  exact gather_Gout m d offI offO hI hO e0 eI eO z

end Cert.Proof.KI

end
-- ==== Proof.KITripVal.lean ====
/-
  A trip of the tile's loop, in values.

  With `b` the tile's first row, trip `k` of eight copies the two out-buffers to windows `2 k` and `2 k + 1` of the
  result, rows `[b + 16 k, b + 16 k + 8)` and `[b + 16 k + 8, b + 16 k + 16)`. The out-buffers hold what the gather
  phases made of the in-buffers, and the in-buffers were filled from those same rows of the operand: before the loop
  (rows `b` and `b + 8`) for the first trip, and by the trip before (rows `b + 8 min (2 k' + 2, 15)` and
  `b + 8 min (2 k' + 3, 15)` with `k' = k − 1 ≤ 6`, which are `b + 16 k` and `b + 16 k + 8`) for a later one. So
  each trip brings sixteen more rows of the result to the gathered columns, the second write of a trip leaves the
  first window alone, and after the eighth trip all 128 rows of the tile hold them.
-/
import proofs.«213046_g56676388438729_cont_9to1c4b_565_26_alg».proof.Proof.KIBridge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable (m : (ℓ : Loc nD τ sig) → Buf (Elt F) ℓ)

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

variable [FloatOps F]

/-! ## The two ways of saying "the first `8 n` rows are done" -/

theorem rowsDone_iff (d : Dev nD) (c : Fin (grid0.bound 0)) (i : Fin (grid0.bound 1)) (n : Nat) (G : Buf (Elt F) (oLoc d)) :
    RowsDone m d c i n G ↔ DoneUpTo m d (coordsV c i) n G := Iff.rfl

/-! ## Where the printed offsets lie

  With `b` the tile's first row: trip `k` writes windows `2 k` and `2 k + 1`, rows `b + 16 k` and `b + 16 k + 8`;
  before the first trip the two in-buffers are filled from rows `b` and `b + 8`; trip `k` refills them from rows
  `b + 8 min (2 k + 2, 15)` and `b + 8 min (2 k + 3, 15)`, which for `k ≤ 6` are the rows trip `k + 1` writes. -/

section
variable (L : grid0.Coords) (k : Fin k0_t1_loop.trips)

theorem trips_lt : k.val < 8 := Nat.lt_of_lt_of_le k.isLt k0_t1_abs.2.1

theorem off4_row : (k0_off4 L k) 0 = rowBase L + 8 * (2 * k.val) := by
  rw [k0_off4_eq]
  show rowBase L + 16 * k.val = _
  omega
theorem off4_col : (k0_off4 L k) 1 = 0 := by rw [k0_off4_eq]; rfl

theorem off8_row : (k0_off8 L k) 0 = rowBase L + 8 * (2 * k.val + 1) := by
  rw [k0_off8_eq]
  show rowBase L + 16 * k.val + 8 = _
  omega
theorem off8_col : (k0_off8 L k) 1 = 0 := by rw [k0_off8_eq]; rfl

theorem off1_0_row : (k0_off1 L 0#32) 0 = rowBase L := by
  rw [show k0_off1 L 0#32 = _ from k0_off1_eq L 0]
  rfl
theorem off1_0_col : (k0_off1 L 0#32) 1 = 0 := by
  rw [show k0_off1 L 0#32 = _ from k0_off1_eq L 0]
  rfl
theorem off1_8_row : (k0_off1 L 8#32) 0 = rowBase L + 8 := by
  rw [show k0_off1 L 8#32 = _ from k0_off1_eq L 1]
  rfl
theorem off1_8_col : (k0_off1 L 8#32) 1 = 0 := by
  rw [show k0_off1 L 8#32 = _ from k0_off1_eq L 1]
  rfl

theorem off5_row (hk : k.val ≤ 6) : (k0_off5 L k) 0 = rowBase L + 8 * (2 * (k.val + 1)) := by
  rw [k0_off5_eq]
  show rowBase L + 8 * (min (2 * k.val + 2) 15) = _
  omega
theorem off5_col : (k0_off5 L k) 1 = 0 := by rw [k0_off5_eq]; rfl

theorem off9_row (hk : k.val ≤ 6) : (k0_off9 L k) 0 = rowBase L + 8 * (2 * (k.val + 1) + 1) := by
  rw [k0_off9_eq]
  show rowBase L + 8 * (min (2 * k.val + 3) 15) = _
  omega
theorem off9_col : (k0_off9 L k) 1 = 0 := by rw [k0_off9_eq]; rfl

end

/-! ## One trip's two writes -/

/-- A trip's two writes, the out-buffers holding what the gather phases made of in-buffers filled from the rows the
    trip writes: sixteen more rows are done. -/
theorem trip_done (d : Dev nD) (c : Fin (grid0.bound 0)) (i : Fin (grid0.bound 1)) (k : Fin k0_t1_loop.trips)
    (G : Buf (Elt F) (oLoc d)) (hG : DoneUpTo m d (coordsV c i) (2 * k.val) G)
    (off1 off2 : Fin 2 → Nat)
    (h1 : ∀ a, off1 a + S8x1024.size a ≤ S4096x1024.size a) (h2 : ∀ a, off2 a + S8x1024.size a ≤ S4096x1024.size a)
    (e1 : off1 0 = rowBase (coordsV c i) + 8 * (2 * k.val)) (e1c : off1 1 = 0)
    (e2 : off2 0 = rowBase (coordsV c i) + 8 * (2 * k.val + 1)) (e2c : off2 1 = 0)
    (g0 : (s0W).view.ty.Contents (Elt F)) (g1 : (s1W).view.ty.Contents (Elt F)) (g2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view g1 (inPay m d off1 h1) Finset.univ)
          (View.write (Elt F) (s0W).view g0 (permPay m d) Finset.univ) z)
    (h4 : ∀ z, (s4W).view.read (Elt F) S4 z
      = gatherAt (View.write (Elt F) (s2W).view g2 (inPay m d off2 h2) Finset.univ)
          (View.write (Elt F) (s0W).view g0 (permPay m d) Finset.univ) z) :
    DoneUpTo m d (coordsV c i) (2 * k.val + 2)
      (View.write (Elt F) (win (k0_off8 (coordsV c i) k) (k0_off8_inb (coordsV c i) k)).view
        (View.write (Elt F) (win (k0_off4 (coordsV c i) k) (k0_off4_inb (coordsV c i) k)).view G
          (ReadAs.same.apply (View.read (Elt F) (s3W).view S3)) Finset.univ)
        (ReadAs.same.apply (View.read (Elt F) (s4W).view S4)) Finset.univ) :=
  doneUpTo_step2 m d (coordsV c i) (k0_off4_inb (coordsV c i) k) (k0_off8_inb (coordsV c i) k) _ _ hG
    (off4_row (coordsV c i) k) (off4_col (coordsV c i) k) (off8_row (coordsV c i) k) (off8_col (coordsV c i) k)
    (fun z => (h3 z).trans (gather_Gout_s1 m d (coordsV c i) off1 (k0_off4 (coordsV c i) k) h1 (k0_off4_inb (coordsV c i) k)
      (e1.trans (off4_row (coordsV c i) k).symm) e1c (off4_col (coordsV c i) k) g1 g0 z))
    (fun z => (h4 z).trans (gather_Gout_s2 m d (coordsV c i) off2 (k0_off8 (coordsV c i) k) h2 (k0_off8_inb (coordsV c i) k)
      (e2.trans (off8_row (coordsV c i) k).symm) e2c (off8_col (coordsV c i) k) g2 g0 z))

/-- The first trip: the in-buffers were filled before the loop, from the tile's first sixteen rows. -/
theorem trip_done0 (d : Dev nD) (c : Fin (grid0.bound 0)) (i : Fin (grid0.bound 1)) (k : Fin k0_t1_loop.trips) (hk : k.val = 0)
    (fo : Buf (Elt F) (oLoc d))
    (g0 : (s0W).view.ty.Contents (Elt F)) (g1 : (s1W).view.ty.Contents (Elt F)) (g2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view g1 (inPay m d (k0_off1 (coordsV c i) 0#32) (k0_off1_inb (coordsV c i) 0)) Finset.univ)
          (View.write (Elt F) (s0W).view g0 (permPay m d) Finset.univ) z)
    (h4 : ∀ z, (s4W).view.read (Elt F) S4 z
      = gatherAt (View.write (Elt F) (s2W).view g2 (inPay m d (k0_off1 (coordsV c i) 8#32) (k0_off1_inb (coordsV c i) 1)) Finset.univ)
          (View.write (Elt F) (s0W).view g0 (permPay m d) Finset.univ) z) :
    RowsDone m d c i (2 * k.val + 2)
      (View.write (Elt F) (win (k0_off8 (coordsV c i) k) (k0_off8_inb (coordsV c i) k)).view
        (View.write (Elt F) (win (k0_off4 (coordsV c i) k) (k0_off4_inb (coordsV c i) k)).view fo
          (ReadAs.same.apply (View.read (Elt F) (s3W).view S3)) Finset.univ)
        (ReadAs.same.apply (View.read (Elt F) (s4W).view S4)) Finset.univ) :=
  trip_done m d c i k fo (by rw [hk]; exact doneUpTo_zero m d (coordsV c i) fo) _ _ _ _
    ((off1_0_row (coordsV c i)).trans (by omega)) (off1_0_col (coordsV c i))
    ((off1_8_row (coordsV c i)).trans (by omega)) (off1_8_col (coordsV c i))
    g0 g1 g2 S3 S4 h3 h4

/-- A later trip: the in-buffers were refilled by the trip before, from the rows this trip writes. -/
theorem trip_doneS (d : Dev nD) (c : Fin (grid0.bound 0)) (i : Fin (grid0.bound 1)) (k kf : Fin k0_t1_loop.trips)
    (hkk : k.val = kf.val + 1) (G : Buf (Elt F) (oLoc d)) (hG : RowsDone m d c i (2 * kf.val + 2) G)
    (g0 : (s0W).view.ty.Contents (Elt F)) (c1 : (s1W).view.ty.Contents (Elt F)) (c2 : (s2W).view.ty.Contents (Elt F))
    (S3 : (s3W).view.ty.Contents (Elt F)) (S4 : (s4W).view.ty.Contents (Elt F))
    (h3 : ∀ z, (s3W).view.read (Elt F) S3 z
      = gatherAt (View.write (Elt F) (s1W).view c1 (inPay m d (k0_off5 (coordsV c i) kf) (k0_off5_inb (coordsV c i) kf)) Finset.univ)
          (View.write (Elt F) (s0W).view g0 (permPay m d) Finset.univ) z)
    (h4 : ∀ z, (s4W).view.read (Elt F) S4 z
      = gatherAt (View.write (Elt F) (s2W).view c2 (inPay m d (k0_off9 (coordsV c i) kf) (k0_off9_inb (coordsV c i) kf)) Finset.univ)
          (View.write (Elt F) (s0W).view g0 (permPay m d) Finset.univ) z) :
    RowsDone m d c i (2 * k.val + 2)
      (View.write (Elt F) (win (k0_off8 (coordsV c i) k) (k0_off8_inb (coordsV c i) k)).view
        (View.write (Elt F) (win (k0_off4 (coordsV c i) k) (k0_off4_inb (coordsV c i) k)).view G
          (ReadAs.same.apply (View.read (Elt F) (s3W).view S3)) Finset.univ)
        (ReadAs.same.apply (View.read (Elt F) (s4W).view S4)) Finset.univ) := by
  have hk8 : k.val < 8 := trips_lt k
  have hkf : kf.val ≤ 6 := by omega
  have hG' : DoneUpTo m d (coordsV c i) (2 * k.val) G := by
    rw [show 2 * k.val = 2 * kf.val + 2 by omega]; exact hG
  exact trip_done m d c i k G hG' _ _ _ _
    ((off5_row (coordsV c i) kf hkf).trans (by rw [hkk])) (off5_col (coordsV c i) kf)
    ((off9_row (coordsV c i) kf hkf).trans (by rw [hkk])) (off9_col (coordsV c i) kf)
    g0 c1 c2 S3 S4 h3 h4

/-! ## The second write of a trip leaves the first window alone -/

theorem trip_agree (d : Dev nD) (c : Fin (grid0.bound 0)) (i : Fin (grid0.bound 1)) (k : Fin k0_t1_loop.trips)
    (G : Buf (Elt F) (oLoc d)) (w0 w1 : S8x1024.Idx → Elt F .f32) :
    ∀ idx ∈ (win (k0_off4 (coordsV c i) k) (k0_off4_inb (coordsV c i) k)).view.set,
      View.write (Elt F) (win (k0_off4 (coordsV c i) k) (k0_off4_inb (coordsV c i) k)).view G w0 Finset.univ idx
        = View.write (Elt F) (win (k0_off8 (coordsV c i) k) (k0_off8_inb (coordsV c i) k)).view
            (View.write (Elt F) (win (k0_off4 (coordsV c i) k) (k0_off4_inb (coordsV c i) k)).view G w0 Finset.univ) w1 Finset.univ idx :=
  fun idx hm => (write_win_agree d (k0_off4_inb (coordsV c i) k) (k0_off8_inb (coordsV c i) k)
    (Or.inl (by rw [off4_row, off8_row]; omega)) _ w1 idx hm).symm

/-! ## After the last trip -/

theorem final_blk (d : Dev nD) (c : Fin (grid0.bound 0)) (i : Fin (grid0.bound 1)) (G : Buf (Elt F) (oLoc d))
    (hG : RowsDone m d c i (2 * 7 + 2) G) :
    (((oW).view.loc (V d (cV (coordsV c i)) (jV (coordsV c i))) ↦[(oW).view.setOn (oTR (coordsV c i)).set]{fullShare} G) : sProp (MM F))
      = ((oW).view.loc (V d (cV (coordsV c i)) (jV (coordsV c i))) ↦[(oW).view.setOn (oTR (coordsV c i)).set]{fullShare} Gout m d) :=
  blk_pointsTo_done m d (coordsV c i) hG

/-! ## The last trip's two windows and the rest of the block, joined

  Windows 14 and 15 are rows `[b + 112, b + 120)` and `[b + 120, b + 128)` of the tile's `[b, b + 128)`: the first lies
  in the block, the second in the block less the first. -/

theorem win14_subset (d : Dev nD) (c : Fin (grid0.bound 0)) (i : Fin (grid0.bound 1)) (k : Fin k0_t1_loop.trips) (hk : k.val = 7) :
    (win (k0_off4 (coordsV c i) k) (k0_off4_inb (coordsV c i) k)).view.set ⊆ blk d (coordsV c i) := by
  intro idx hm
  rw [mem_win_iff _ _ d (off4_col (coordsV c i) k), off4_row] at hm
  rw [mem_blk_iff]
  have e : rowBase (coordsV c i) = 256 * ((coordsV c i) 1).val + 128 * ((coordsV c i) 0).val := rfl
  omega

theorem win15_subset (d : Dev nD) (c : Fin (grid0.bound 0)) (i : Fin (grid0.bound 1)) (k : Fin k0_t1_loop.trips) (hk : k.val = 7) :
    (win (k0_off8 (coordsV c i) k) (k0_off8_inb (coordsV c i) k)).view.set
      ⊆ blk d (coordsV c i) \ (win (k0_off4 (coordsV c i) k) (k0_off4_inb (coordsV c i) k)).view.set := by
  intro idx hm
  rw [mem_win_iff _ _ d (off8_col (coordsV c i) k), off8_row] at hm
  rw [Finset.mem_sdiff, mem_blk_iff, mem_win_iff _ _ d (off4_col (coordsV c i) k), off4_row]
  have e : rowBase (coordsV c i) = 256 * ((coordsV c i) 1).val + 128 * ((coordsV c i) 0).val := rfl
  omega

/-- The two last windows and the rest of the tile's block, held separately at the same contents, are the block held
    at those contents. -/
theorem final_join (d : Dev nD) (c : Fin (grid0.bound 0)) (i : Fin (grid0.bound 1)) (h7 : 7 < k0_t1_loop.trips)
    (G : Buf (Elt F) (oLoc d)) :
    iprop(((oW).view.loc (V d (cV (coordsV c i)) (jV (coordsV c i)))
          ↦[(win (k0_off4 (coordsV c i) ⟨7, h7⟩) (k0_off4_inb (coordsV c i) ⟨7, h7⟩)).view.set]{fullShare} G)
      ∗ ((oW).view.loc (V d (cV (coordsV c i)) (jV (coordsV c i)))
          ↦[(win (k0_off8 (coordsV c i) ⟨7, h7⟩) (k0_off8_inb (coordsV c i) ⟨7, h7⟩)).view.set]{fullShare} G)
      ∗ ((oW).view.loc (V d (cV (coordsV c i)) (jV (coordsV c i)))
          ↦[((oW).view.setOn (oTR (coordsV c i)).set \ (win (k0_off4 (coordsV c i) ⟨7, h7⟩) (k0_off4_inb (coordsV c i) ⟨7, h7⟩)).view.set)
              \ (win (k0_off8 (coordsV c i) ⟨7, h7⟩) (k0_off8_inb (coordsV c i) ⟨7, h7⟩)).view.set]{fullShare} G))
      ⊢ ((oW).view.loc (V d (cV (coordsV c i)) (jV (coordsV c i))) ↦[(oW).view.setOn (oTR (coordsV c i)).set]{fullShare} G : sProp (MM F)) :=
  (sep_mono_right (pointsTo_split_subset (win15_subset d c i ⟨7, h7⟩ rfl)).2).trans
    (pointsTo_split_subset (win14_subset d c i ⟨7, h7⟩ rfl)).2

end Cert.Proof.KI

end
-- ==== Proof.KITileRun.lean ====
/-
  One tile's task, run. The index vector is fetched whole; then the tile's 128 rows of the operand pass through eight
  at a time: while the columns of one chunk are gathered from an in-buffer into an out-buffer, the next chunk is on its
  way into the other in-buffer and the previous chunk on its way out of the other out-buffer. Every copy is waited for
  before its buffer is touched again, so what is gathered is what was fetched, and what leaves is what was gathered.
-/
import proofs.«213046_g56676388438729_cont_9to1c4b_565_26_alg».proof.Proof.KITileLib
import proofs.«213046_g56676388438729_cont_9to1c4b_565_26_alg».proof.Proof.KIClose
import proofs.«213046_g56676388438729_cont_9to1c4b_565_26_alg».proof.Proof.KITripVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

variable [FloatOps F]

omit [FloatOps F] in
/-- One more recorded wait at the kernel's own index keeps the recorded waits of the launch's kind. -/
theorem waits_insert {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

set_option maxHeartbeats 0 in
/-- One tile's task, its resources spelt out: the operand under the two read tokens its two in-buffers' copies complete
    on, the index vector under a read share, the tile's 128 rows of the result, the five scratch buffers, the five DMA
    semaphores at zero. It ends with everything back, the tile's rows of the result holding the gathered columns. -/
theorem tile_run (hpre : PermOK m) (d : Dev nD) (c : Fin (grid0.bound 0)) (i : Fin (grid0.bound 1))
    (q qp : PosShare TreeShare) (O : CellTallies nD τ sig (HIx 1)) (W : Waits sig (HIx 1)) (hO : ∀ g, O g none = 0)
    (fo : Buf (Elt F) (oLoc d))
    (f0 : Buf (Elt F) ((V d (cV (coordsV c i)) (jV (coordsV c i))).loc cc0_scratch0)) (f1 : Buf (Elt F) ((V d (cV (coordsV c i)) (jV (coordsV c i))).loc cc0_scratch1))
    (f2 : Buf (Elt F) ((V d (cV (coordsV c i)) (jV (coordsV c i))).loc cc0_scratch2)) (f3 : Buf (Elt F) ((V d (cV (coordsV c i)) (jV (coordsV c i))).loc cc0_scratch3))
    (f4 : Buf (Elt F) ((V d (cV (coordsV c i)) (jV (coordsV c i))).loc cc0_scratch4)) :
    iprop((levAts (K (F := F)).L (K (F := F)).lev : sProp (MM F))
        ∗ ((xW).view.loc (V d (cV (coordsV c i)) (jV (coordsV c i))) ↦{Transfers.shareTokN q 0} m (xLoc d))
        ∗ ((xW).view.loc (V d (cV (coordsV c i)) (jV (coordsV c i))) ↦{Transfers.shareTokN q 1} m (xLoc d))
        ∗ ((pW).view.loc (V d (cV (coordsV c i)) (jV (coordsV c i))) ↦{qp} m (pLoc d))
        ∗ ((oW).view.loc (V d (cV (coordsV c i)) (jV (coordsV c i))) ↦[(oW).view.setOn (oTR (coordsV c i)).set]{fullShare} fo)
        ∗ ((s0W).view.loc (V d (cV (coordsV c i)) (jV (coordsV c i))) ↦{fullShare} f0)
        ∗ ((s1W).view.loc (V d (cV (coordsV c i)) (jV (coordsV c i))) ↦{fullShare} f1)
        ∗ ((s2W).view.loc (V d (cV (coordsV c i)) (jV (coordsV c i))) ↦{fullShare} f2)
        ∗ ((s3W).view.loc (V d (cV (coordsV c i)) (jV (coordsV c i))) ↦{fullShare} f3)
        ∗ ((s4W).view.loc (V d (cV (coordsV c i)) (jV (coordsV c i))) ↦{fullShare} f4)
        ∗ semVal ((V d (cV (coordsV c i)) (jV (coordsV c i))), SemLoc.dma cc0_scratch5.sem) 0
        ∗ semVal ((V d (cV (coordsV c i)) (jV (coordsV c i))), SemLoc.dma cc0_scratch6.sem) 0
        ∗ semVal ((V d (cV (coordsV c i)) (jV (coordsV c i))), SemLoc.dma cc0_scratch7.sem) 0
        ∗ semVal ((V d (cV (coordsV c i)) (jV (coordsV c i))), SemLoc.dma cc0_scratch8.sem) 0
        ∗ semVal ((V d (cV (coordsV c i)) (jV (coordsV c i))), SemLoc.dma cc0_scoped0.sem) 0
        ∗ owes (V d (cV (coordsV c i)) (jV (coordsV c i))) O W)
      ⊢ wp frame (wpE (defs₀ (F := F)) 𝒱₀ (V d (cV (coordsV c i)) (jV (coordsV c i))) none) Set.univ
          (cc0__permute_body (coordsV c i) xW (Memref.isWhole_whole _) pW (Memref.isWhole_whole _) oW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0)
          fun _ => iprop(((xW).view.loc (V d (cV (coordsV c i)) (jV (coordsV c i))) ↦{Transfers.shareTokN q 0} m (xLoc d))
            ∗ ((xW).view.loc (V d (cV (coordsV c i)) (jV (coordsV c i))) ↦{Transfers.shareTokN q 1} m (xLoc d))
            ∗ ((pW).view.loc (V d (cV (coordsV c i)) (jV (coordsV c i))) ↦{qp} m (pLoc d))
            ∗ ((oW).view.loc (V d (cV (coordsV c i)) (jV (coordsV c i))) ↦[(oW).view.setOn (oTR (coordsV c i)).set]{fullShare} Gout m d)
            ∗ (∃ f, (s0W).view.loc (V d (cV (coordsV c i)) (jV (coordsV c i))) ↦{fullShare} f)
            ∗ (∃ f, (s1W).view.loc (V d (cV (coordsV c i)) (jV (coordsV c i))) ↦{fullShare} f)
            ∗ (∃ f, (s2W).view.loc (V d (cV (coordsV c i)) (jV (coordsV c i))) ↦{fullShare} f)
            ∗ (∃ f, (s3W).view.loc (V d (cV (coordsV c i)) (jV (coordsV c i))) ↦{fullShare} f)
            ∗ (∃ f, (s4W).view.loc (V d (cV (coordsV c i)) (jV (coordsV c i))) ↦{fullShare} f)
            ∗ semVal ((V d (cV (coordsV c i)) (jV (coordsV c i))), SemLoc.dma cc0_scratch5.sem) 0
            ∗ semVal ((V d (cV (coordsV c i)) (jV (coordsV c i))), SemLoc.dma cc0_scratch6.sem) 0
            ∗ semVal ((V d (cV (coordsV c i)) (jV (coordsV c i))), SemLoc.dma cc0_scratch7.sem) 0
            ∗ semVal ((V d (cV (coordsV c i)) (jV (coordsV c i))), SemLoc.dma cc0_scratch8.sem) 0
            ∗ semVal ((V d (cV (coordsV c i)) (jV (coordsV c i))), SemLoc.dma cc0_scoped0.sem) 0
            ∗ ∃ W', ⌜∀ p ∈ W', p ∈ W ∨ p.2 = none⌝ ∗ owes (V d (cV (coordsV c i)) (jV (coordsV c i))) O W') := by
  unfold cc0__permute_body
  iintro ⟨#Hlv, Hx0, Hx1, Hp, Ho, Hs0, Hs1, Hs2, Hs3, Hs4, Hm5, Hm6, Hm7, Hm8, Hm9, HO⟩
  ihave Hmw := ((K (F := F)).mayWaits_none (thr := (V d (cV (coordsV c i)) (jV (coordsV c i)))) hO) $$ Hlv
  sl_exec_parts
  sl_for (inv m d c i q qp O W fo) $$ [Hmw Hs0 Hp Hm9 Hm5 Hx0 Hm6 Hx1 Ho Hs3 Hs4 Hm7 Hm8 HO]
  case region =>
    intro k acc
    have hk8 : k.val < 8 := Nat.lt_of_lt_of_le k.isLt k0_t1_abs.2.1
    have hv3 : ∀ x, ((broadcast S16 (0#32) : IVec S16 32) x).toNat < 8 := fun _ => (by decide : (BitVec.ofNat 32 0).toNat < 8)
    have hv4 : ∀ x, ((broadcast S16 (1#32) : IVec S16 32) x).toNat < 8 := fun _ => (by decide : (BitVec.ofNat 32 1).toNat < 8)
    have hv5 : ∀ x, ((broadcast S16 (2#32) : IVec S16 32) x).toNat < 8 := fun _ => (by decide : (BitVec.ofNat 32 2).toNat < 8)
    have hv6 : ∀ x, ((broadcast S16 (3#32) : IVec S16 32) x).toNat < 8 := fun _ => (by decide : (BitVec.ofNat 32 3).toNat < 8)
    have hv7 : ∀ x, ((broadcast S16 (4#32) : IVec S16 32) x).toNat < 8 := fun _ => (by decide : (BitVec.ofNat 32 4).toNat < 8)
    have hv8 : ∀ x, ((broadcast S16 (5#32) : IVec S16 32) x).toNat < 8 := fun _ => (by decide : (BitVec.ofNat 32 5).toNat < 8)
    have hv9 : ∀ x, ((broadcast S16 (6#32) : IVec S16 32) x).toNat < 8 := fun _ => (by decide : (BitVec.ofNat 32 6).toNat < 8)
    have hv10 : ∀ x, ((broadcast S16 (7#32) : IVec S16 32) x).toNat < 8 := fun _ => (by decide : (BitVec.ofNat 32 7).toNat < 8)
    by_cases hk : k.val = 0
    · have hc1 : ¬ k0_cond1 k = 1#1 := by
        have : k = ⟨0, by decide⟩ := Fin.ext hk
        subst this; decide
      have hc2 : ¬ k0_cond2 k = 1#1 := by
        have : k = ⟨0, by decide⟩ := Fin.ext hk
        subst this; decide
      have e0 : inv m d c i q qp O W fo k.val acc = A0 m d c i q qp O W fo := by rw [hk]; exact Cert.Proof.KI.inv_zero m d c i q qp O W fo acc
      rw [e0]
      unfold A0
      iintro ⟨#Hmw, ⟨%g0, Hs0⟩, Hp, Hm9, ⟨%g1, Hm5⟩, Hx0, ⟨%g2, Hm6⟩, Hx1, Ho, ⟨%g3, Hs3⟩, ⟨%g4, Hs4⟩, Hm7, Hm8, %W', %hW', HO⟩
      have hs0 : ∀ j, (View.write (Elt F) (s0W).view g0 (permPay m d) Finset.univ j).toNat < 1024 := by
        intro j
        simp only [Memref.view_whole, View.write_whole_univ]
        exact hpre d j
      sl_exec_parts (disch := exact chk_core _ _ _ _ _ _ _ _ _ hv3 hv4 hv5 hv6 hv7 hv8 hv9 hv10 (readAt_lt d (coordsV c i) _ hs0 _ _))
      sl_step
      rw [Cert.Proof.KI.inv_succ m d c i q qp O W fo k]
      iapply (close_trip m d c i q qp O W k _ _ _ _ _ _ _ _ ?hWn ?hagree ?hdone) $$ [Hs0 Hp Hm9 Hm5 Hx0 Hm6 Hx1 Hm7 Hs3 Hm8 Hs4 Ho HO]
      rotate_left 3
      isplitr; · iexact Hmw
      isplitl [Hs0]; · iexact Hs0
      isplitl [Hp]; · iexact Hp
      isplitl [Hm9]; · iexact Hm9
      isplitl [Hm5]; · iexact Hm5
      isplitl [Hx0]; · iexact Hx0
      isplitl [Hm6]; · iexact Hm6
      isplitl [Hx1]; · iexact Hx1
      isplitl [Hm7]; · iexact Hm7
      isplitl [Hs3]; · iexact Hs3
      isplitl [Hm8]; · iexact Hm8
      isplitl [Hs4]; · iexact Hs4
      isplitl [Ho]; · iexact Ho
      iexact HO
      · first
          | exact waits_insert (waits_insert hW' _) _
          | exact waits_insert (waits_insert (waits_insert (waits_insert hW' _) _) _) _
          | exact waits_insert (waits_insert (waits_insert hW' _) _) _
      · exact trip_agree d c i k _ _ _
      · exact trip_done0 m d c i k hk fo g0 g1 g2 _ _
            (by
              refine read_gather_upTo (s3W).view _ (View.write (Elt F) (s1W).view g1 (inPay m d (k0_off1 (coordsV c i) 0#32) (k0_off1_inb (coordsV c i) 0)) Finset.univ) (View.write (Elt F) (s0W).view g0 (permPay m d) Finset.univ) _ ?_
              repeat (refine upTo_cons _ _ _ ?_ ?_; exact piece_s1 _ _ _ _ _ (by intro _; rfl) hs0 _ _ _ _)
              exact upTo_nil)
            (by
              refine read_gather_upTo (s4W).view _ (View.write (Elt F) (s2W).view g2 (inPay m d (k0_off1 (coordsV c i) 8#32) (k0_off1_inb (coordsV c i) 1)) Finset.univ) (View.write (Elt F) (s0W).view g0 (permPay m d) Finset.univ) _ ?_
              repeat (refine upTo_cons _ _ _ ?_ ?_; exact piece_s2 _ _ _ _ _ (by intro _; rfl) hs0 _ _ _ _)
              exact upTo_nil)
    · have hcc : ∀ k' : Fin k0_t1_loop.trips, k'.val ≠ 0 → k0_cond1 k' = 1#1 ∧ k0_cond2 k' = 1#1 := by decide
      have hc1 : k0_cond1 k = 1#1 := (hcc k hk).1
      have hc2 : k0_cond2 k = 1#1 := (hcc k hk).2
      obtain ⟨kf, hkk⟩ : ∃ kf : Fin k0_t1_loop.trips, k.val = kf.val + 1 :=
        ⟨⟨k.val - 1, lt_of_le_of_lt (Nat.sub_le _ _) k.isLt⟩, by simp only []; omega⟩
      have e1 : inv m d c i q qp O W fo k.val acc = A1 m d c i q qp O W kf := by rw [hkk]; exact Cert.Proof.KI.inv_succ m d c i q qp O W fo kf acc
      rw [e1]
      unfold A1
      iintro ⟨#Hmw, ⟨%g0, Hs0⟩, Hp, Hm9, ⟨%g1, Hm5⟩, Hx0, ⟨%g2, Hm6⟩, Hx1, ⟨%G, %hG, ⟨%c3, Hm7, Hs3⟩, ⟨%c4, Hm8, Hs4⟩, Ho⟩, %W', %hW', HO⟩
      have hdisj : Disjoint ((oW).slice (Rect.unit (s := S4096x1024) (k0_off4 (coordsV c i) k) S8x1024.size (k0_off4_inb (coordsV c i) k)) (fun _ => rfl)).view.set
          ((oW).slice (Rect.unit (s := S4096x1024) (k0_off8 (coordsV c i) kf) S8x1024.size (k0_off8_inb (coordsV c i) kf)) (fun _ => rfl)).view.set := by
        refine Finset.disjoint_left.mpr fun idx h1 h2 => ?_
        have a1 := (mem_win_iff (k0_off4 (coordsV c i) k) (k0_off4_inb (coordsV c i) k) d (off4_col (coordsV c i) k) idx).mp h1
        have a2 := (mem_win_iff (k0_off8 (coordsV c i) kf) (k0_off8_inb (coordsV c i) kf) d (off8_col (coordsV c i) kf) idx).mp h2
        rw [off4_row] at a1
        rw [off8_row] at a2
        omega
      have hs0 : ∀ j, (View.write (Elt F) (s0W).view g0 (permPay m d) Finset.univ j).toNat < 1024 := by
        intro j
        simp only [Memref.view_whole, View.write_whole_univ]
        exact hpre d j
      sl_exec_parts (disch := exact chk_core _ _ _ _ _ _ _ _ _ hv3 hv4 hv5 hv6 hv7 hv8 hv9 hv10 (readAt_lt d (coordsV c i) _ hs0 _ _))
      sl_step
      rw [Cert.Proof.KI.inv_succ m d c i q qp O W fo k]
      iapply (close_trip m d c i q qp O W k _ _ _ _ _ _ _ _ ?_ ?_ ?_) $$ [Hs0 Hp Hm9 Hm5 Hx0 Hm6 Hx1 Hm7 Hs3 Hm8 Hs4 Ho HO]
      rotate_left 3
      isplitr; · iexact Hmw
      isplitl [Hs0]; · iexact Hs0
      isplitl [Hp]; · iexact Hp
      isplitl [Hm9]; · iexact Hm9
      isplitl [Hm5]; · iexact Hm5
      isplitl [Hx0]; · iexact Hx0
      isplitl [Hm6]; · iexact Hm6
      isplitl [Hx1]; · iexact Hx1
      isplitl [Hm7]; · iexact Hm7
      isplitl [Hs3]; · iexact Hs3
      isplitl [Hm8]; · iexact Hm8
      isplitl [Hs4]; · iexact Hs4
      isplitl [Ho]; · iexact Ho
      iexact HO
      · first
          | exact waits_insert (waits_insert hW' _) _
          | exact waits_insert (waits_insert (waits_insert (waits_insert hW' _) _) _) _
          | exact waits_insert (waits_insert (waits_insert hW' _) _) _
      · exact trip_agree d c i k _ _ _
      · exact trip_doneS m d c i k kf hkk G hG g0 g1 g2 _ _
            (by
              refine read_gather_upTo (s3W).view _ (View.write (Elt F) (s1W).view g1 (inPay m d (k0_off5 (coordsV c i) kf) (k0_off5_inb (coordsV c i) kf)) Finset.univ) (View.write (Elt F) (s0W).view g0 (permPay m d) Finset.univ) _ ?_
              repeat (refine upTo_cons _ _ _ ?_ ?_; exact piece_s1 _ _ _ _ _ (by intro _; rfl) hs0 _ _ _ _)
              exact upTo_nil)
            (by
              refine read_gather_upTo (s4W).view _ (View.write (Elt F) (s2W).view g2 (inPay m d (k0_off9 (coordsV c i) kf) (k0_off9_inb (coordsV c i) kf)) Finset.univ) (View.write (Elt F) (s0W).view g0 (permPay m d) Finset.univ) _ ?_
              repeat (refine upTo_cons _ _ _ ?_ ?_; exact piece_s2 _ _ _ _ _ (by intro _; rfl) hs0 _ _ _ _)
              exact upTo_nil)
  · rw [Cert.Proof.KI.inv_zero]; unfold A0
    isplitr; · iexact Hmw
    isplitl [Hs0]; · iexists _; iexact Hs0
    isplitl [Hp]; · iexact Hp
    isplitl [Hm9]; · iexact Hm9
    isplitl [Hm5]; · iexists _; iexact Hm5
    isplitl [Hx0]; · iexact Hx0
    isplitl [Hm6]; · iexists _; iexact Hm6
    isplitl [Hx1]; · iexact Hx1
    isplitl [Ho]; · iexact Ho
    isplitl [Hs3]; · iexists _; iexact Hs3
    isplitl [Hs4]; · iexists _; iexact Hs4
    isplitl [Hm7]; · iexact Hm7
    isplitl [Hm8]; · iexact Hm8
    iexists (insert (SemLoc.dma cc0_scoped0.sem, (default : HIx 1)) W); isplitr
    · ipureintro; exact waits_insert (fun p hp => .inl hp) _
    · iexact HO
  iintro %acc HI
  have e8 : inv m d c i q qp O W fo (Scf.trips k0_t1_loop.lb k0_t1_loop.ub k0_t1_loop.st) acc = A1 m d c i q qp O W ⟨7, by decide⟩ :=
    Cert.Proof.KI.inv_succ m d c i q qp O W fo ⟨7, by decide⟩ acc
  ihave HI' := (Entails.of_eq e8) $$ HI
  unfold A1
  icases HI' with ⟨-, ⟨%g0, Hs0⟩, Hp, Hm9, ⟨%g1, Hm5⟩, Hx0, ⟨%g2, Hm6⟩, Hx1, ⟨%G, %hG, ⟨%c3, Hm7, Hs3⟩, ⟨%c4, Hm8, Hs4⟩, Ho⟩, %W', %hW', HO⟩
  sl_exec
  sl_step
  isplitl [Hx0]; · iexact Hx0
  isplitl [Hx1]; · iexact Hx1
  isplitl [Hp]; · iexact Hp
  isplitl [Ho Hm7_dst Hm8_dst]
  · iapply (Entails.of_eq (final_blk m d c i G hG))
    iapply (final_join d c i _ G)
    isplitl [Hm7_dst]; · iexact Hm7_dst
    isplitl [Hm8_dst]; · iexact Hm8_dst
    iexact Ho
  isplitl [Hs0]; · iexists _; iexact Hs0
  isplitl [Hm5_dst]; · iexists _; iexact Hm5_dst
  isplitl [Hm6_dst]; · iexists _; iexact Hm6_dst
  isplitl [Hs3]; · iexists _; iexact Hs3
  isplitl [Hs4]; · iexists _; iexact Hs4
  isplitl [Hm5]; · iexact Hm5
  isplitl [Hm6]; · iexact Hm6
  isplitl [Hm7]; · iexact Hm7
  isplitl [Hm8]; · iexact Hm8
  isplitl [Hm9]; · iexact Hm9
  iexists _; isplitr
  rotate_left 1
  · iexact HO
  · ipureintro; exact waits_insert (waits_insert (waits_insert (waits_insert hW' _) _) _) _

end Cert.Proof.KI

end
-- ==== Proof.KITile.lean ====
/-
  One tile's task: the index vector fetched whole, then the tile's 128 rows of the operand eight at a time through two
  pairs of scratch buffers — while one chunk's columns are gathered into an out buffer, the next chunk is on its way in
  and the previous one on its way out —, every copy waited for before its buffer is touched again.
-/
import proofs.«213046_g56676388438729_cont_9to1c4b_565_26_alg».proof.Proof.KITileRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x1024 EltTy.f32)
local notation "pW" => (Memref.whole Cert.KernelIdeal.main_arg1_scv : Memref Cert.KernelIdeal.sig Kind.scVector Space.hbm Cert.KernelIdeal.S1024 EltTy.i32)
local notation "oW" => (Memref.whole Cert.KernelIdeal.main_v0_scv : Memref Cert.KernelIdeal.sig Kind.scVector Space.hbm Cert.KernelIdeal.S4096x1024 EltTy.f32)
local notation "s0W" => (Memref.whole Cert.KernelIdeal.cc0_scratch0 : Memref Cert.KernelIdeal.sig Kind.scVector Space.vmem Cert.KernelIdeal.S1024 EltTy.i32)
local notation "s1W" => (Memref.whole Cert.KernelIdeal.cc0_scratch1 : Memref Cert.KernelIdeal.sig Kind.scVector Space.vmem Cert.KernelIdeal.S8x1024 EltTy.f32)
local notation "s2W" => (Memref.whole Cert.KernelIdeal.cc0_scratch2 : Memref Cert.KernelIdeal.sig Kind.scVector Space.vmem Cert.KernelIdeal.S8x1024 EltTy.f32)
local notation "s3W" => (Memref.whole Cert.KernelIdeal.cc0_scratch3 : Memref Cert.KernelIdeal.sig Kind.scVector Space.vmem Cert.KernelIdeal.S8x1024 EltTy.f32)
local notation "s4W" => (Memref.whole Cert.KernelIdeal.cc0_scratch4 : Memref Cert.KernelIdeal.sig Kind.scVector Space.vmem Cert.KernelIdeal.S8x1024 EltTy.f32)

/-! ## A read share cut in three -/

omit [FloatOps F] in
/-- A share of an array is its remainder after two read tokens, and the two tokens. -/
theorem toks2_split {ℓ : Loc nD τ sig} {f : Buf (Elt F) ℓ} (q : PosShare TreeShare) :
    (ℓ ↦{q} f : sProp (MM F))
      ⊢ iprop((ℓ ↦{Transfers.shareDrop q 2} f) ∗ (ℓ ↦{Transfers.shareTokN q 0} f) ∗ (ℓ ↦{Transfers.shareTokN q 1} f)) := by
  refine (Transfers.pointsTo_toks_split q 2).trans ?_
  rw [show (Finset.univ : Finset (Fin 2)) = {0, 1} by decide, SparseCore.bigSep_insert' (by decide), bigSep_singleton]
  exact BI.Entails.refl _

omit [FloatOps F] in
theorem toks2_join {ℓ : Loc nD τ sig} {f : Buf (Elt F) ℓ} (q : PosShare TreeShare) :
    iprop((ℓ ↦{Transfers.shareDrop q 2} f) ∗ (ℓ ↦{Transfers.shareTokN q 0} f) ∗ (ℓ ↦{Transfers.shareTokN q 1} f))
      ⊢ (ℓ ↦{q} f : sProp (MM F)) := by
  refine BI.Entails.trans ?_ (Transfers.pointsTo_toks_join q 2)
  rw [show (Finset.univ : Finset (Fin 2)) = {0, 1} by decide, SparseCore.bigSep_insert' (by decide), bigSep_singleton]
  exact BI.Entails.refl _

/-! ## The tile's own storage, by name -/

/-- The kernel's five scratch buffers, and its five DMA semaphores. -/
abbrev scr5 : Finset (Ref sig .scVector) := {cc0_scratch0, cc0_scratch1, cc0_scratch2, cc0_scratch3, cc0_scratch4}
abbrev sem5 : Finset (DmaSem sig) := {cc0_scratch5.sem, cc0_scratch6.sem, cc0_scratch7.sem, cc0_scratch8.sem, cc0_scoped0.sem}

/-- A tile's name for a buffer, as a buffer of the device: different names, different buffers. -/
def refEmb (c : Fin τ.nSC) (i : Fin τ.nSub) : Ref sig .scVector ↪ DevRef τ sig :=
  ⟨(Proc.scVector c i).devRef, Proc.devRef_injective _⟩
/-- A thread's DMA semaphore as a semaphore of the mesh: different semaphores, different cells. -/
def semEmb (thr : Thread nD τ) : DmaSem sig ↪ GSem nD τ sig :=
  ⟨fun s => (thr, SemLoc.dma s), fun _ _ e => SemLoc.dma.inj (Prod.mk.inj e).2⟩

omit [FloatOps F] in
/-- A tile's own buffers are the five scratch buffers, each at some contents, and the rest. -/
theorem ownBufs_five (d : Dev nD) (c : Fin τ.nSC) (i : Fin τ.nSub) :
    (ownBufs (V d c i) : sProp (MM F))
      = iprop(((∃ f, (V d c i).loc cc0_scratch0 ↦{fullShare} f) ∗ (∃ f, (V d c i).loc cc0_scratch1 ↦{fullShare} f)
            ∗ (∃ f, (V d c i).loc cc0_scratch2 ↦{fullShare} f) ∗ (∃ f, (V d c i).loc cc0_scratch3 ↦{fullShare} f)
            ∗ (∃ f, (V d c i).loc cc0_scratch4 ↦{fullShare} f))
          ∗ bigSep (ownRefs (τ := τ) (V d c i).2 \ scr5.map (refEmb c i)) fun b => iprop(∃ f, ((d, b) : Loc nD τ sig) ↦{fullShare} f)) := by
  unfold SparseCore.Cfg.ownBufs
  rw [SparseCore.bigSep_sdiff_split' (t := scr5.map (refEmb c i)) ?hsub, bigSep_map,
    SparseCore.bigSep_insert' (by decide), SparseCore.bigSep_insert' (by decide), SparseCore.bigSep_insert' (by decide),
    SparseCore.bigSep_insert' (by decide), bigSep_singleton]
  · rfl
  case hsub =>
    intro b hb
    obtain ⟨r, hr, rfl⟩ := Finset.mem_map.mp hb
    simp only [Finset.mem_insert, Finset.mem_singleton] at hr
    rcases hr with rfl | rfl | rfl | rfl | rfl <;> exact SparseCore.Cfg.mem_ownRefs_of_owner rfl

omit [FloatOps F] in
/-- A tile's own semaphores at zero are the five DMA semaphores at zero, and the rest. -/
theorem ownSems0_five (d : Dev nD) (c : Fin τ.nSC) (i : Fin τ.nSub) :
    (ownSems0 (V d c i) : sProp (MM F))
      = iprop((semVal (V d c i, SemLoc.dma cc0_scratch5.sem) 0 ∗ semVal (V d c i, SemLoc.dma cc0_scratch6.sem) 0
            ∗ semVal (V d c i, SemLoc.dma cc0_scratch7.sem) 0 ∗ semVal (V d c i, SemLoc.dma cc0_scratch8.sem) 0
            ∗ semVal (V d c i, SemLoc.dma cc0_scoped0.sem) 0)
          ∗ bigSep (ownCells (V d c i) \ sem5.map (semEmb (V d c i))) fun g => semVal g 0) := by
  unfold SparseCore.Cfg.ownSems0
  rw [SparseCore.bigSep_sdiff_split' (t := sem5.map (semEmb (V d c i))) ?hsub, bigSep_map,
    SparseCore.bigSep_insert' (by decide), SparseCore.bigSep_insert' (by decide), SparseCore.bigSep_insert' (by decide),
    SparseCore.bigSep_insert' (by decide), bigSep_singleton]
  · rfl
  case hsub =>
    intro g hg
    obtain ⟨s, hs, rfl⟩ := Finset.mem_map.mp hg
    simp only [Finset.mem_insert, Finset.mem_singleton] at hs
    rcases hs with rfl | rfl | rfl | rfl | rfl <;> exact mem_ownCells.mpr ⟨rfl, by first | rfl | decide⟩

/-! ## The task, from the tile's share to its share -/

/-- The task of tile `i` of SparseCore `c`: the tile's read share of the operand is cut into the two read tokens its
    two in-buffers' copies complete on and a remainder set aside; the run; the share put together again. -/
theorem tile_body (hF : (K (F := F)).Facts) (hpre : PermOK m) (d : Dev nD) (c : Fin (grid0.bound 0)) (i : Fin (grid0.bound 1))
    (O : CellTallies nD τ sig (HIx 1)) (W : Waits sig (HIx 1)) (hO : ∀ g, O g none = 0) :
    iprop((levAts (K (F := F)).L (K (F := F)).lev : sProp (MM F)) ∗ emp ∗ tileIn m d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc0__permute_body (coordsV c i) xW (Memref.isWhole_whole _) pW (Memref.isWhole_whole _) oW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0)
          fun _ => iprop(tileOut m d c i ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some (0 : Fin 1)⌝ ∗ owes (V d (cV (coordsV c i)) (jV (coordsV c i))) O W') := by
  rw [(K (F := F)).scopedBufs_V hF d (cV (coordsV c i)) (jV (coordsV c i)),
    SparseCore.Cfg.scopedSems0_V (Val := Elt F) d (cV (coordsV c i)) (jV (coordsV c i)), ownBufs_five, ownSems0_five]
  iintro ⟨#Hlv, -, ⟨Hx, Hp, Ho⟩, ⟨⟨⟨%f0, H0⟩, ⟨%f1, H1⟩, ⟨%f2, H2⟩, ⟨%f3, H3⟩, ⟨%f4, H4⟩⟩, Hbufs⟩, ⟨⟨Hs5, Hs6, Hs7, Hs8, Hs9⟩, Hsems⟩, HO⟩
  ihave Hx' := (toks2_split (F := F) (qT c i)) $$ Hx
  icases Hx' with ⟨Hxr, Hx0, Hx1⟩
  ihave Hwp := (tile_run m hpre d c i (qT c i) (qT c i) O W hO (m (oLoc d)) f0 f1 f2 f3 f4) $$ [Hx0 Hx1 Hp Ho H0 H1 H2 H3 H4 Hs5 Hs6 Hs7 Hs8 Hs9 HO]
  · isplitr; · iexact Hlv
    isplitl [Hx0]; · iexact Hx0
    isplitl [Hx1]; · iexact Hx1
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [Hs5]; · iexact Hs5
    isplitl [Hs6]; · iexact Hs6
    isplitl [Hs7]; · iexact Hs7
    isplitl [Hs8]; · iexact Hs8
    isplitl [Hs9]; · iexact Hs9
    iexact HO
  iapply (wp_wand frame _ Set.univ) $$ Hwp
  iintro %u ⟨Hx0, Hx1, Hp, Ho, H0, H1, H2, H3, H4, Hs5, Hs6, Hs7, Hs8, Hs9, %W', %hW', HO⟩
  ihave Hx := (toks2_join (F := F) (qT c i)) $$ [Hxr Hx0 Hx1]
  · isplitl [Hxr]; · iexact Hxr
    isplitl [Hx0]; · iexact Hx0
    iexact Hx1
  isplitl [Hx Hp Ho]
  · isplitl [Hx]; · iexact Hx
    isplitl [Hp]; · iexact Hp
    iexact Ho
  isplitl [H0 H1 H2 H3 H4 Hbufs]
  · isplitr [Hbufs]
    · isplitl [H0]; · iexact H0
      isplitl [H1]; · iexact H1
      isplitl [H2]; · iexact H2
      isplitl [H3]; · iexact H3
      iexact H4
    · iexact Hbufs
  isplitl [Hs5 Hs6 Hs7 Hs8 Hs9 Hsems]
  · isplitr [Hsems]
    · isplitl [Hs5]; · iexact Hs5
      isplitl [Hs6]; · iexact Hs6
      isplitl [Hs7]; · iexact Hs7
      isplitl [Hs8]; · iexact Hs8
      iexact Hs9
    · iexact Hsems
  iexists W'; isplitr
  · ipureintro; exact fun p hp => (hW' p hp).imp_right Or.inl
  · iexact HO

/-! ## The launch theorem's obligation -/

theorem defs₀_vector (c : Fin τ.nSC) (s : Fin τ.nSub) :
    defs₀ (F := F) (.scVector c s) 0 ()
      = SparseCore.onTile hcore0 hsub0 (fun c i => (cc0__permute_body (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0)) ⟨⟩ c s := rfl

/-- The launch theorem's obligation for the one vector-subcore call: each tile's task, from its share to its share
    with its rows of the result gathered. -/
theorem tileObl (hF : (K (F := F)).Facts) (hpre : PermOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m hF hpre d ⟨_, hc.1⟩ ⟨_, hc.2⟩ O W hO

end Cert.Proof.KI

end
-- ==== Proof.KILaunch.lean ====
/-
  The whole program's run: the TensorCore starts the two SparseCores on the one call, handing each its read share of
  the operand and of the index vector and its tiles' rows of the result, gets them back with the columns gathered,
  and writes the zero scalar.
-/
import proofs.«213046_g56676388438729_cont_9to1c4b_565_26_alg».proof.Proof.KITile
import proofs.«213046_g56676388438729_cont_9to1c4b_565_26_alg».proof.Proof.KIGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
variable (m : (ℓ : Loc nD τ sig) → Buf (Elt F) ℓ) (ρ : Dev nD → PrngReg)
variable [FloatOps F]

/-! ## A SparseCore's share, dealt to its sixteen tiles -/

omit [FloatOps F] in
/-- A family over the call's tiles is one over sixteen. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the call's SparseCores is one over two. -/
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- SparseCore `c`'s read shares of the operand and of the index vector are each cut into sixteen read shares, one a
    tile, the remainder kept until the tiles' shares come back; its sixteen blocks of the result are already apart. -/
theorem vecSplit : (K (F := F)).VecSplit' (P m) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ coreOut m d (Fin.cast nCore_zero c)))
  generalize Fin.cast nCore_zero c = c'
  rw [bigSep_tasks (F := F) (fun i => tileIn m d c' i), bigSep_tasks (F := F) (fun i => tileOut m d c' i),
    bigSep_sep', bigSep_sep', bigSep_sep', bigSep_sep']
  iintro ⟨Hx, Hp, Ho⟩
  ihave Hx' := (Transfers.pointsTo_toks_split (qC c') 16) $$ Hx
  icases Hx' with ⟨Hxr, Hxt⟩
  ihave Hp' := (Transfers.pointsTo_toks_split (qC c') 16) $$ Hp
  icases Hp' with ⟨Hpr, Hpt⟩
  imodintro
  isplitl [Hxt Hpt Ho]
  · isplitl [Hxt]; · iexact Hxt
    isplitl [Hpt]; · iexact Hpt
    iexact Ho
  iintro ⟨Hxt, Hpt, Ho⟩
  isplitl [Hxr Hxt]
  · iapply (Transfers.pointsTo_toks_join (qC c') 16)
    isplitl [Hxr]; · iexact Hxr
    iexact Hxt
  isplitl [Hpr Hpt]
  · iapply (Transfers.pointsTo_toks_join (qC c') 16)
    isplitl [Hpr]; · iexact Hpr
    iexact Hpt
  iexact Ho

/-! ## The launch element: the handshakes' rounds; the kernel's copies need no schedule -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev x' : DevRef τ sig := Proc.devRef .tc (main_arg0 : Ref sig .tc)
abbrev p' : DevRef τ sig := Proc.devRef .tc (main_arg1 : Ref sig .tc)
abbrev o' : DevRef τ sig := Proc.devRef .tc (main_v0 : Ref sig .tc)
abbrev z' : DevRef τ sig := Proc.devRef .tc (main_cst : Ref sig .tc)
/-- The zero scalar, and the one host operation: it is written to the second result. -/
abbrev zero : FVec F S_ .f32 := constant S_ .f32 0x00000000#32
abbrev opZ : HloOp τ sig (Elt F) := StableHlo.nullary main_cst (constant S_ .f32 0x00000000#32)

/-- The TensorCore's arrays, all unscoped: the operand, the index vector, the result, the scalar. -/
abbrev S4 : Finset (DevRef τ sig) := {x', p', o', z'}

omit [FloatOps F] in
theorem held_S4 (d : Dev nD) (W : Valuation τ sig (Elt F)) :
    (held (T d) S4 W : sProp (MM F))
      = iprop((xLoc d ↦{fullShare} W x') ∗ (pLoc d ↦{fullShare} W p') ∗ (oLoc d ↦{fullShare} W o') ∗ zLoc d ↦{fullShare} W z') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F))
      = iprop((xLoc d ↦{fullShare} W main_arg0) ∗ (pLoc d ↦{fullShare} W main_arg1) ∗ (oLoc d ↦{fullShare} W main_v0) ∗ zLoc d ↦{fullShare} W main_cst) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

/-- After the call: the launch contents, the result at the gathered columns. -/
def V1 (d : Dev nD) : Valuation τ sig (Elt F) := Function.update (fun b => m (d, b)) o' (Gout m d)

theorem V1_x (d : Dev nD) : V1 m d x' = m (xLoc d) := Function.update_of_ne (show x' ≠ o' by decide) _ _
theorem V1_p (d : Dev nD) : V1 m d p' = m (pLoc d) := Function.update_of_ne (show p' ≠ o' by decide) _ _
theorem V1_o (d : Dev nD) : V1 m d o' = Gout m d := Function.update_self _ _ _
theorem V1_z (d : Dev nD) : V1 m d z' = m (zLoc d) := Function.update_of_ne (show z' ≠ o' by decide) _ _

theorem hZ : (opZ (F := F)).bufs ⊆ S4 := show ({z'} : Finset (DevRef τ sig)) ⊆ S4 by decide

/-- What @main leaves the claim: the four arrays whole, the result at the gathered columns, the scalar at zero, the
    arguments at their launch contents. -/
abbrev FIN (d : Dev nD) : sProp (MM F) :=
  iprop((oLoc d ↦{fullShare} Gout m d) ∗ (zLoc d ↦{fullShare} (zero (F := F))) ∗ (xLoc d ↦{fullShare} m (xLoc d)) ∗ pLoc d ↦{fullShare} m (pLoc d))

/-- The four arrays after the host operation: it writes the scalar and nothing else. -/
theorem held_fin (d : Dev nD) : (held (T d) S4 ((opZ (F := F)).result (V1 m d)) : sProp (MM F)) ⊢ FIN m d := by
  rw [held_S4,
    (opZ (F := F)).result_of_not_mem (V1 m d) (b := x') (show x' ∉ ({z'} : Finset (DevRef τ sig)) by decide),
    (opZ (F := F)).result_of_not_mem (V1 m d) (b := p') (show p' ∉ ({z'} : Finset (DevRef τ sig)) by decide),
    (opZ (F := F)).result_of_not_mem (V1 m d) (b := o') (show o' ∉ ({z'} : Finset (DevRef τ sig)) by decide),
    V1_x, V1_p, V1_o, show (opZ (F := F)).result (V1 m d) z' = zero (F := F) from StableHlo.nullary_result main_cst _ _ (V1 m d)]
  iintro ⟨Hx, Hp, Ho, Hz⟩
  isplitl [Ho]; · iexact Ho
  isplitl [Hz]; · iexact Hz
  isplitl [Hx]; · iexact Hx
  iexact Hp

/-- What the call takes for the two SparseCores: each a read share of the operand and of the index vector — together
    the two read shares cut off the whole —, and the result, whole, as its thirty-two blocks. -/
theorem st0_eq (d : Dev nD) :
    (bigSep Finset.univ fun c : Fin ((K (F := F)).nCore 0) => (P m).st 0 d c)
      = iprop((bigSep Finset.univ fun c : Fin 2 => xLoc d ↦{qC c} m (xLoc d)) ∗ (bigSep Finset.univ fun c : Fin 2 => pLoc d ↦{qC c} m (pLoc d))
          ∗ (oLoc d ↦{fullShare} m (oLoc d))) := by
  rw [oPts_blocks d (m (oLoc d))]
  refine (bigSep_cores (F := F) (fun c => coreIn m d c)).trans ?_
  rw [bigSep_sep', bigSep_sep']
/-- What it hands back: the same, the result at the gathered columns. -/
theorem dn0_eq (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => pLoc d ↦{qC c} m (pLoc d))
          ∗ (oLoc d ↦{fullShare} Gout m d)) := by
  rw [oPts_blocks d (Gout m d)]
  refine (bigSep_cores (F := F) (fun c => coreOut m d c)).trans ?_
  rw [bigSep_sep', bigSep_sep']

/-- @main on device `d`'s TensorCore: the call, from a read share of the operand and of the index vector for each
    SparseCore and the result's blocks, all of it back with the columns gathered; then the zero scalar written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho, Hz⟩, -, -⟩, -⟩
  ihave Hx' := (Transfers.pointsTo_toks_split fullShare 2) $$ Hx
  icases Hx' with ⟨Hxr, Hxt⟩
  ihave Hp' := (Transfers.pointsTo_toks_split fullShare 2) $$ Hp
  icases Hp' with ⟨Hpr, Hpt⟩
  -- the call
  iapply ((K (F := F)).wp_run (D (F := F)) 𝒱 (EH := EH) (P := P m) κ d 0) $$ [Hst Hxt Hpt Ho Hb Hxr Hpr Hz]
  isplitr; · iexact Hctx
  isplitl [Hst]; · iexact Hst
  isplitl [Hxt Hpt Ho]
  · rw [st0_eq]
    isplitl [Hxt]; · iexact Hxt
    isplitl [Hpt]; · iexact Hpt
    iexact Ho
  iintro ⟨Hst, Hdn⟩
  ihave Hdn' := (Entails.of_eq (dn0_eq m d)) $$ Hdn
  icases Hdn' with ⟨Hxt, Hpt, Ho⟩
  ihave Hx := (Transfers.pointsTo_toks_join fullShare 2) $$ [Hxr Hxt]
  · isplitl [Hxr]; · iexact Hxr
    iexact Hxt
  ihave Hp := (Transfers.pointsTo_toks_join fullShare 2) $$ [Hpr Hpt]
  · isplitl [Hpr]; · iexact Hpr
    iexact Hpt
  -- the zero scalar
  iapply (wp_hlo_within 𝒱 (SparseCore.T d) none Set.univ (op := opZ) (S := S4) hZ (V := V1 m d)) $$ [Hb Hx Hp Ho Hz]
  · isplitl [Hb]; · iexact Hb
    rw [held_S4, V1_x, V1_p, V1_o, V1_z]
    isplitl [Hx]; · iexact Hx
    isplitl [Hp]; · iexact Hp
    isplitl [Ho]; · iexact Ho
    iexact Hz
  iintro ⟨Hb, Hheld⟩
  ihave Hf := (held_fin m d) $$ Hheld
  rw [wp_ret]; imodintro; imodintro
  isplitl [Hst]; · iexact Hst
  iexact Hf

/-! ## The final memory -/

def fq (d : Dev nD) (s' : Phys nD τ sig (Elt F)) : Prop :=
  s'.mem.mem (oLoc d) = Gout m d ∧ s'.mem.mem (zLoc d) = zero (F := F) ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp (MM F)) := by
  iintro ⟨⟨Ho, Hz, Hx, Hp⟩, HSI⟩
  ihave H := (persistent_entails_right (SI_pointsTo_agree (st := s') (ℓ := oLoc d) (I := Finset.univ) (q := fullShare) (f := Gout m d))) $$ [HSI Ho]
  · isplitl [HSI] <;> iassumption
  icases H with ⟨%h1, HSI, -⟩
  ihave H := (persistent_entails_right (SI_pointsTo_agree (st := s') (ℓ := zLoc d) (I := Finset.univ) (q := fullShare) (f := zero (F := F)))) $$ [HSI Hz]
  · isplitl [HSI] <;> iassumption
  icases H with ⟨%h2, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h3, HSI, -⟩
  ihave H := (SI_pointsTo_agree (st := s') (ℓ := pLoc d) (I := Finset.univ) (q := fullShare) (f := m (pLoc d))) $$ [HSI Hp]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- What the run leaves: the result the gathered columns, the second result the zero scalar, the arguments as they were. -/
def QC : PUnit × MemSt nD τ sig (Elt F) → Prop := fun r => ∀ c : Dev nD,
  r.2.mem (oLoc c) = Gout m c
  ∧ r.2.mem (zLoc c) = (constant S_ .f32 0x00000000#32 : FVec F S_ .f32)
  ∧ r.2.mem (xLoc c) = m (xLoc c)
  ∧ r.2.mem (pLoc c) = m (pLoc c)

theorem run_main [∀ e, Nonempty (Elt F e)] (hpre : PermOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefRun.lean ====
/-
  The reference program's run, by hand: every weakly fair execution of its `@main` terminates, the two
  argument arrays unchanged, the first result the gather of the operand's columns that `Cert.Spec.G` states and the
  second the zero scalar — under the hypothesis that every entry of the index vector names a column.

  Two steps. First the run itself: `@main` is a straight line of twenty-four host operations (the gather function and
  the select function it calls unfolded where they are called), so its run ends with every buffer at the operations'
  composed term of the two arguments; the first result's term is `res x p`. Then the term, index by index: with
  `p` the index vector, the program moves an entry below zero up by the number of columns, asks of each moved entry
  whether it lies between zero and the last column, gathers the operand's columns at the moved entries clamped into
  that range, and keeps the gathered element where the answer is yes, a not-a-number constant elsewhere. Where every
  entry already names a column no entry is moved, every answer is yes and the clamp changes nothing, so element
  `(b, j)` of the result is the operand's element `(b, p j)`.
-/
import proofs.«213046_g56676388438729_cont_9to1c4b_565_26_alg».proof.ReferenceIdeal
import proofs.«213046_g56676388438729_cont_9to1c4b_565_26_alg».proof.Proof.Gen.ReferenceIdeal
import proofs.«213046_g56676388438729_cont_9to1c4b_565_26_alg».proof.Proof.Spec
import Idealize.ShloMosaic.Lib.StableHlo.Run
import Idealize.ShloMosaic.Lib.StableHlo.Predicate
import Idealize.ShloMosaic.Lib.ValueIdx
import Idealize.ShloMosaic.PureOps.Ideal

noncomputable section

namespace Cert.Proof.Ref

open Idealize.ShloMosaic Idealize.SL.Sem Cert.ReferenceIdeal

section Work

open Idealize.ShloMosaic.StableHlo Idealize.ShloMosaic.TcCoe
open Cert.ReferenceIdeal.Facts₀

section Line

variable {F : FTy → Type} [FloatOps F]

/-- @main's twenty-four host operations in order: the gather function's twenty-three (the select of its inner
    function listed where it is called) over the buffers of its one call, then the zero scalar. -/
abbrev ops : List (HloOp τ sig (Elt F)) :=
  [ TRef.nullary main_call0.c (constantI S_ 32 0#32),
    TRef.unary main_call0.c main_call0.v0 (broadcastInDim S1024 ![] bcast_S_S1024),
    TRef.binary (.of main_arg1) main_call0.v0 main_call0.v1 (cmpi .slt),
    TRef.nullary main_call0.c_0 (constantI S_ 32 1024#32),
    TRef.unary main_call0.c_0 main_call0.v2 (broadcastInDim S1024 ![] bcast_S_S1024),
    TRef.binary (.of main_arg1) main_call0.v2 main_call0.v3 addi,
    TRef.ternary main_call0.v1 main_call0.v3 (.of main_arg1) main_call0.call0.v0 select,
    TRef.unary main_call0.call0.v0 main_call0.v5 (broadcastInDim S1024x1 ![0] bcast_S1024_S1024x1_0),
    TRef.nullary main_call0.c_1 (constantI S1 32 1023#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg0) main_call0.v5 main_call0.v13 (fun x i => Host.gather gather_S4096x1024_S1024x1_S4096x1024_0_1_n_n_1_1_40961 x i),
    TRef.unary main_call0.v12 main_call0.v14 (broadcastInDim S4096x1024 ![1] bcast_S1024_S4096x1024_1),
    TRef.nullary main_call0.cst (constant S_ .f32 0x7FC00000#32),
    TRef.unary main_call0.cst main_call0.v15 (broadcastInDim S4096x1024 ![] bcast_S_S4096x1024),
    TRef.ternary main_call0.v14 main_call0.v13 main_call0.v15 main_call0.v16 select,
    nullary main_cst (constant S_ .f32 0x00000000#32) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..⟩

end Line

section Term

variable {F : FTy → Type} [FloatOps F]

/-- The index vector as the gather reads it: an entry below zero is moved up by the number of columns. -/
def wrapped (p : IVec S1024 32) : IVec S1024 32 :=
  select (cmpi .slt p (broadcastInDim S1024 ![] bcast_S_S1024 (constantI S_ 32 0#32)))
    (addi p (broadcastInDim S1024 ![] bcast_S_S1024 (constantI S_ 32 1024#32))) p

/-- The same, as a column of one-entry start indices. -/
def column (p : IVec S1024 32) : IVec S1024x1 32 :=
  broadcastInDim S1024x1 ![0] bcast_S1024_S1024x1_0 (wrapped p)

/-- Per entry, whether its start index lies between zero and the last column. -/
def inRange (p : IVec S1024 32) : IVec S1024 1 :=
  Host.reduce IntOp.andi
    (andi (cmpi .sge (column p) (broadcastInDim S1024x1 ![] bcast_S_S1024x1 (constantI S_ 32 0#32)))
      (cmpi .sle (column p) (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

/-- The first result as one term of the two arguments: the gathered columns where the start index is in range, the
    not-a-number constant elsewhere. -/
def res (x : FVec F S4096x1024 .f32) (p : IVec S1024 32) : FVec F S4096x1024 .f32 :=
  select (broadcastInDim S4096x1024 ![1] bcast_S1024_S4096x1024_1 (inRange p))
    (Host.gather gather_S4096x1024_S1024x1_S4096x1024_0_1_n_n_1_1_40961 x (column p))
    (broadcastInDim S4096x1024 ![] bcast_S_S4096x1024 (constant S_ .f32 0x7FC00000#32))

attribute [local irreducible] Host.reduce Host.gather in
/-- The run of the straight line: every weakly fair execution terminates with the first result at `res` of the
    arguments, the second at the zero scalar, the arguments unchanged. -/
theorem run_line (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = res (m ((c.tc : Thread nD τ).loc main_arg0)) (m ((c.tc : Thread nD τ).loc main_arg1))
      ∧ r.2.mem ((c.tc : Thread nD τ).loc main_cst) = (constant S_ .f32 0x00000000#32 : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by after_results_simp; rfl),
      (h c main_cst).trans (by after_results_simp),
      (h c main_arg0).trans (by after_results_simp),
      (h c main_arg1).trans (by after_results_simp)⟩)
    (run_seq scopedRefs_eq scopedSems_eq defs main (fun _ => ops) main_eq (fun _ => ops_sub) m ρ)

end Term

section Value

open Idealize.ShloMosaic.ValueIdx Idealize.ShloMosaic.StableHlo.Predicate

/-- A word below 1024 is not below zero as a signed word. -/
theorem slt_zero_of_small {a : BitVec 32} (h : a.toNat < 1024) : IntOp.cmpi .slt a 0#32 = 0#1 := by
  apply eq_zero_of_ne_one
  intro e
  exact absurd ((slt_iff_toNat (a := a) (b := 0#32) (by omega) (by decide)).mp e) (Nat.not_lt_zero _)

/-- Where every entry names a column no entry is moved. -/
theorem wrapped_of_ok {p : IVec S1024 32} (h : Cert.Spec.PermOK p) : wrapped p = p := by
  funext k
  unfold wrapped
  rw [select_apply]
  have e : cmpi .slt p (broadcastInDim S1024 ![] bcast_S_S1024 (constantI S_ 32 0#32)) k = 0#1 := slt_zero_of_small (h k)
  rw [e, select_zero]

/-- A column entry reads the wrapped index vector at its row. -/
theorem column_apply (p : IVec S1024 32) (i : S1024x1.Idx) : column p i = wrapped p (ix1 (i 0)) := by
  unfold column broadcastInDim
  congr 1
  funext a
  obtain rfl : a = 0 := Subsingleton.elim _ _
  rw [dif_neg (by decide)]
  rfl

/-- An and-reduction from one over an array of ones is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  have e : IntOp.andi 1#1 1#1 = 1#1 := by decide
  induction l with
  | nil => rfl
  | cons n l ih => rw [List.foldl_cons, hx, e]; exact ih

/-- Where every entry names a column every start index is in range. -/
theorem inRange_of_ok {p : IVec S1024 32} (h : Cert.Spec.PermOK p) (k : S1024.Idx) : inRange p k = 1#1 := by
  unfold inRange
  apply reduce_andi_ones
  · intro i
    show IntOp.andi (IntOp.cmpi .sge (column p i) 0#32) (IntOp.cmpi .sle (column p i) 1023#32) = 1#1
    rw [column_apply, wrapped_of_ok h]
    have hk := h (ix1 (i 0))
    have e1 : IntOp.cmpi .sge (p (ix1 (i 0))) 0#32 = 1#1 :=
      (sge_iff_toNat (by omega) (by decide)).mpr (Nat.zero_le _)
    have e2 : IntOp.cmpi .sle (p (ix1 (i 0))) 1023#32 = 1#1 :=
      (sle_iff_toNat (by omega) (by decide)).mpr (by show _ ≤ 1023; omega)
    rw [e1, e2]; decide
  · rfl

variable {α : Type}

/-- The gather read at row `b`, column `j`: the operand's row `b` at the column the start index of `j` names, read
    signed and clamped into the columns. -/
theorem gather_apply (x : S4096x1024.Idx → α) (idx : IVec S1024x1 32) (b : Fin 4096) (j : Fin 1024) :
    Host.gather gather_S4096x1024_S1024x1_S4096x1024_0_1_n_n_1_1_40961 x idx (ix2 b j)
      = x (ix2 b ⟨min (idx (ixP j)).toInt.toNat 1023, by omega⟩) := by
  unfold Host.gather
  congr 1
  funext a
  refine Fin.ext ?_
  have hb : ∀ a : Fin 2, a ∉ (gather_S4096x1024_S1024x1_S4096x1024_0_1_n_n_1_1_40961).operandBatchingDims :=
    fun _ => List.not_mem_nil
  match a with
  | ⟨0, _⟩ =>
    show GatherDims.start _ _ idx 0 + GatherDims.batchCoord _ _ 0 + GatherDims.offCoord _ _ 0 = b.val
    rw [GatherDims.batchCoord_eq_zero _ _ _ (hb 0)]
    unfold GatherDims.start
    rw [dif_neg (by decide)]
    unfold GatherDims.offCoord
    rw [dif_pos (by decide), Nat.zero_add]
    rfl
  | ⟨1, _⟩ =>
    show GatherDims.start _ _ idx 1 + GatherDims.batchCoord _ _ 1 + GatherDims.offCoord _ _ 1 = min (idx (ixP j)).toInt.toNat 1023
    rw [GatherDims.batchCoord_eq_zero _ _ _ (hb 1), GatherDims.offCoord_eq_zero _ _ _ (by decide)]
    unfold GatherDims.start
    rw [dif_pos (by decide)]
    have hsi : (gather_S4096x1024_S1024x1_S4096x1024_0_1_n_n_1_1_40961).siIdx (ix2 b j)
        ⟨List.idxOf (1 : Fin 2) (gather_S4096x1024_S1024x1_S4096x1024_0_1_n_n_1_1_40961).startIndexMap,
          List.idxOf_lt_length_iff.2 (by decide)⟩ = ixP j := by
      funext c
      refine Fin.ext ?_
      match c with
      | ⟨0, _⟩ => rfl
      | ⟨1, _⟩ => rfl
    rw [hsi]
    rfl

/-- Where every entry names a column the first result is the gather the specification states: element `(b, j)` is the
    operand's element `(b, p j)`. -/
theorem res_of_ok {F : FTy → Type} [FloatOps F] (x : FVec F S4096x1024 .f32) {p : IVec S1024 32}
    (h : Cert.Spec.PermOK p) : res x p = Cert.Spec.G x p := by
  funext i
  obtain ⟨b, j, rfl⟩ : ∃ b j, i = ix2 b j := ⟨i 0, i 1, eq_ix2 i⟩
  unfold res
  rw [select_apply]
  have hc : broadcastInDim S4096x1024 ![1] bcast_S1024_S4096x1024_1 (inRange p) (ix2 b j) = 1#1 := by
    unfold broadcastInDim; exact inRange_of_ok h _
  rw [hc, select_one, gather_apply, Cert.Spec.G_apply]
  refine congrArg (fun c => x (ix2 b c)) (Fin.ext ?_)
  show min (column p (ixP j)).toInt.toNat 1023 = (Cert.Spec.col p j).val
  rw [column_apply, wrapped_of_ok h, Cert.Spec.col_val_of_ok h]
  have hk : (p (ix1 j)).toNat < 1024 := h (ix1 j)
  show min (p (ix1 j)).toInt.toNat 1023 = (p (ix1 j)).toNat
  rw [toInt_eq_toNat_of_lt (by omega), Int.toNat_natCast]
  exact min_eq_left (by omega)

end Value

end Work

/-- The reference's run at the ideal instance. -/
theorem run (m : (ℓ : Loc nD τ sig) → Buf (Elt Ideal) ℓ) (ρ : Dev nD → PrngReg)
    (hp : ∀ c : Dev nD, Cert.Spec.PermOK (m ((c.tc : Thread nD τ).loc main_arg1))) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v0)
            = Cert.Spec.G (m ((c.tc : Thread nD τ).loc main_arg0)) (m ((c.tc : Thread nD τ).loc main_arg1))
        ∧ r.2.mem ((c.tc : Thread nD τ).loc main_cst) = (constant S_ .f32 0x00000000#32 : FVec Ideal S_ .f32)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c => ⟨(h c).1.trans (res_of_ok _ (hp c)), (h c).2⟩) (run_line m ρ)

end Cert.Proof.Ref

end
-- ==== Proof.PreOK.lean ====
/-
  The printed precondition read back: where it is all ones, every entry of the index vector names a column.

  The predicate is the conjunction of two whole-array tests, each an `and` over all entries: the operand's entries are
  finite, and each index `v` satisfies `0 ≤ v` and `v < 1024` as signed words. A signed word that is non-negative and
  below 1024 is, read as a natural number, below 1024.
-/
import proofs.«213046_g56676388438729_cont_9to1c4b_565_26_alg».proof.Pre_finite_inputs
import proofs.«213046_g56676388438729_cont_9to1c4b_565_26_alg».proof.Proof.Gen.Pre_finite_inputs
import proofs.«213046_g56676388438729_cont_9to1c4b_565_26_alg».proof.Proof.Spec
import Idealize.ShloMosaic.Lib.ReduceAll
import Idealize.ShloMosaic.Lib.StableHlo.Predicate

noncomputable section

namespace Cert.Proof.PreOK

open Idealize.ShloMosaic

/-- The scalar shape has exactly one index: the empty family of coordinates. -/
theorem subsingleton_scalar_idx : Subsingleton Cert.Pre_finite_inputs.S_.Idx := ⟨fun _ _ => funext fun d => d.elim0⟩

/-- The word fact. Signed, `0 ≤ v` says the top bit of `v` is clear, so `v` reads the same signed and unsigned;
    `v < 1024` signed is then `v.toNat < 1024`. -/
theorem toNat_lt_of_signed_range (v : BitVec 32) (h0 : IntOp.cmpi .sge v 0#32 = 1#1)
    (h1 : IntOp.cmpi .slt v 1024#32 = 1#1) : v.toNat < 1024 := by
  have a : (0#32 : BitVec 32).toInt ≤ v.toInt := IntOp.cmpi_sge.1 h0
  have b : v.toInt < (1024#32 : BitVec 32).toInt := IntOp.cmpi_slt.1 h1
  have z : (0#32 : BitVec 32).toInt = 0 := by decide
  have k : (1024#32 : BitVec 32).toInt = 1024 := by decide
  rw [z] at a
  rw [k] at b
  rw [BitVec.toInt_eq_toNat_cond] at a b
  split at a <;> omega

theorem permOK_of_fn {F : FTy → Type} [FloatOps F] [Cert.Pre_finite_inputs.Facts]
    (x : FVec F Cert.Pre_finite_inputs.S4096x1024 .f32) (p : IVec Cert.Pre_finite_inputs.S1024 32)
    (h : Cert.Pre_finite_inputs.fn (F := F) x p = fun _ => 1#1) : Cert.Spec.PermOK p := by
  -- the predicate's one entry is the `and` of the two whole-array tests; keep the second, the test of the indices
  have e := congrFun h ValueIdx.ix0
  dsimp only [Cert.Pre_finite_inputs.fn] at e
  have e2 := (IntOp.andi_eq_one.1 e).2
  intro j
  -- an `and` over all entries that is one is one at entry `j`
  haveI := subsingleton_scalar_idx
  have ej := Host.reduce_andi_all _ _ _ _ _ e2 j
  -- at entry `j` the test is `(0 ≤ p j) and (p j < 1024)`, the two bounds broadcast scalars
  obtain ⟨c0, c1⟩ := IntOp.andi_eq_one.1 ej
  exact toNat_lt_of_signed_range (p j) c0 c1

end Cert.Proof.PreOK

end
-- ==== Proof.lean ====
/-
  The certificate's five claims, read off three runs. The kernel's run, at the printed instance and at the ideal one,
  leaves the result holding the operand's columns gathered by the index vector (`Cert.Spec.G`), the second result the
  zero scalar and both arguments as they were; the reference's run at the ideal instance leaves the same. Each run asks
  that every entry of the index vector name a column, which the precondition says. The two frames of the kernel and the
  frame of the reference keep the runs' last two conjuncts; the idealization rewrote nothing; and the algebraic claim
  takes the gather of the kernel's arguments and the zero scalar as the common results, the reference's arguments being
  the kernel's by hypothesis.
-/
import proofs.«213046_g56676388438729_cont_9to1c4b_565_26_alg».proof.Defs
import proofs.«213046_g56676388438729_cont_9to1c4b_565_26_alg».proof.Proof.Gen.Kernel
import proofs.«213046_g56676388438729_cont_9to1c4b_565_26_alg».proof.Proof.Gen.KernelIdeal
import proofs.«213046_g56676388438729_cont_9to1c4b_565_26_alg».proof.Proof.Gen.ReferenceIdeal
import proofs.«213046_g56676388438729_cont_9to1c4b_565_26_alg».proof.Proof.Gen.Pre_finite_inputs
import proofs.«213046_g56676388438729_cont_9to1c4b_565_26_alg».proof.Proof.KLaunch
import proofs.«213046_g56676388438729_cont_9to1c4b_565_26_alg».proof.Proof.KILaunch
import proofs.«213046_g56676388438729_cont_9to1c4b_565_26_alg».proof.Proof.RefRun
import proofs.«213046_g56676388438729_cont_9to1c4b_565_26_alg».proof.Proof.PreOK
import Idealize.ShloMosaic.Adequacy
import Idealize.ShloMosaic.Init

noncomputable section

namespace Cert.Proof

open Idealize.ShloMosaic Idealize.SL.Sem

/-! ## The precondition, per program: every device's index vector names columns only -/

theorem permOK_k (m : (ℓ : Loc Cert.Kernel.nD Cert.Kernel.τ Cert.Kernel.sig) → Buf (Elt Bits) ℓ)
    (hpre : Cert.Pre_Kernel m) : KK.PermOK (F := Bits) m :=
  fun d => PreOK.permOK_of_fn _ _ (hpre d)

theorem permOK_ki (m : (ℓ : Loc Cert.KernelIdeal.nD Cert.KernelIdeal.τ Cert.KernelIdeal.sig) → Buf (Elt Ideal) ℓ)
    (hpre : Cert.Pre_KernelIdeal m) : KI.PermOK (F := Ideal) m :=
  fun d => PreOK.permOK_of_fn _ _ (hpre d)

/-! ## The frames: each run with the results' values dropped -/

theorem frame_k : Cert.frame_Kernel := fun m ρ hpre =>
  (θ_run _ _ _).mono (fun _ h c => (h c).2.2) (KK.run_main (F := Bits) m ρ (permOK_k m hpre))

theorem frame_ki : Cert.frame_KernelIdeal := fun m ρ hpre =>
  (θ_run _ _ _).mono (fun _ h c => (h c).2.2) (KI.run_main (F := Ideal) m ρ (permOK_ki m hpre))

theorem frame_ri : Cert.frame_ReferenceIdeal := fun m ρ hpre =>
  (θ_run _ _ _).mono (fun _ h c => (h c).2.2) (Ref.run m ρ fun c => PreOK.permOK_of_fn _ _ (hpre c))

/-! ## The value claim: both runs end at the gather of the kernel's arguments and the zero scalar -/

theorem algebraic : Cert.algebraic_KernelIdeal_ReferenceIdeal := by
  intro m ρ m' ρ' hpre hagree
  have hp : KI.PermOK (F := Ideal) m := permOK_ki m hpre
  refine ⟨fun c => KI.Gout (F := Ideal) m c,
    fun _ => (constant Cert.KernelIdeal.S_ .f32 0x00000000#32 : FVec Ideal Cert.KernelIdeal.S_ .f32),
    (θ_run _ _ _).mono (fun _ h c => h c) (KI.run_main (F := Ideal) m ρ hp), ?_⟩
  -- the reference reads arrays equal to the kernel's, so its index vector names columns and its gather is the kernel's
  refine (θ_run _ _ _).mono (fun _ h c => ⟨(h c).1.trans ?_, (h c).2⟩)
    (Ref.run m' ρ' fun c => (hagree c).2 ▸ hp c)
  exact congrArg₂ Cert.Spec.G (hagree c).1 (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
